-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v636) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S256x128 : Shape := ⟨2, ![256, 128]⟩
abbrev S128 : Shape := ⟨1, ![128]⟩
abbrev S4x128x128 : Shape := ⟨3, ![4, 128, 128]⟩
abbrev S4x128 : Shape := ⟨2, ![4, 128]⟩
abbrev S256x10 : Shape := ⟨2, ![256, 10]⟩
abbrev S10 : Shape := ⟨1, ![10]⟩
abbrev S2x800000 : Shape := ⟨2, ![2, 800000]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S4x128x128 : S_.BroadcastsInDim S4x128x128 (![] : Fin 0 → Fin S4x128x128.rank)
  reducesTo_S4x128x128_S_d0_1_2 : S4x128x128.ReducesTo [0, 1, 2] S_
  bcast_S_S4x128 : S_.BroadcastsInDim S4x128 (![] : Fin 0 → Fin S4x128.rank)
  reducesTo_S4x128_S_d0_1 : S4x128.ReducesTo [0, 1] S_
  bcast_S_S256x10 : S_.BroadcastsInDim S256x10 (![] : Fin 0 → Fin S256x10.rank)
  reducesTo_S256x10_S_d0_1 : S256x10.ReducesTo [0, 1] S_
  bcast_S_S10 : S_.BroadcastsInDim S10 (![] : Fin 0 → Fin S10.rank)
  reducesTo_S10_S_d0 : S10.ReducesTo [0] S_
  bcast_S_S2x800000 : S_.BroadcastsInDim S2x800000 (![] : Fin 0 → Fin S2x800000.rank)
  reducesTo_S2x800000_S_d0_1 : S2x800000.ReducesTo [0, 1] S_

variable [Facts]

def fn_part5 {F : FTy → Type} [FloatOps F] (main_arg17 : IVec S2x800000 32) (main_v78 : IVec S_ 1) (main_v84 : IVec S_ 1) : IVec S_ 1 :=
  let main_v85 : IVec S_ 1 := andi main_v78 main_v84
  let main_c_33 : IVec S_ 32 := constantI S_ 32 0#32
  let main_v86 : IVec S2x800000 32 := broadcastInDim S2x800000 ![] bcast_S_S2x800000 main_c_33
  let main_v87 : IVec S2x800000 1 := cmpi .sge main_arg17 main_v86
  let main_c_34 : IVec S_ 32 := constantI S_ 32 50000#32
  let main_v88 : IVec S2x800000 32 := broadcastInDim S2x800000 ![] bcast_S_S2x800000 main_c_34
  let main_v89 : IVec S2x800000 1 := cmpi .slt main_arg17 main_v88
  let main_v90 : IVec S2x800000 1 := andi main_v87 main_v89
  let main_c_35 : IVec S_ 1 := constantI S_ 1 1#1
  let main_v91 : IVec S_ 1 := (fun x v => Host.reduce IntOp.andi x v reducesTo_S2x800000_S_d0_1 h_S_) main_v90 main_c_35
  let main_v92 : IVec S_ 1 := andi main_v85 main_v91
  main_v92

def fn_part4 {F : FTy → Type} [FloatOps F] (main_arg14 : FVec F S256x10 .f32) (main_arg15 : FVec F S10 .f32) (main_arg16 : IVec S2x800000 32) (main_arg17 : IVec S2x800000 32) (main_v63 : IVec S_ 1) (main_v67 : IVec S_ 1) : IVec S_ 1 :=
  let main_v68 : IVec S_ 1 := andi main_v63 main_v67
  let main_v69 : FVec F S256x10 .f32 := Host.absf main_arg14
  let main_cst_26 : FVec F S_ .f32 := constant S_ .f32 0x7F800000#32
  let main_v70 : FVec F S256x10 .f32 := broadcastInDim S256x10 ![] bcast_S_S256x10 main_cst_26
  let main_v71 : IVec S256x10 1 := cmpf .olt main_v69 main_v70
  let main_c_27 : IVec S_ 1 := constantI S_ 1 1#1
  let main_v72 : IVec S_ 1 := (fun x v => Host.reduce IntOp.andi x v reducesTo_S256x10_S_d0_1 h_S_) main_v71 main_c_27
  let main_v73 : IVec S_ 1 := andi main_v68 main_v72
  let main_v74 : FVec F S10 .f32 := Host.absf main_arg15
  let main_cst_28 : FVec F S_ .f32 := constant S_ .f32 0x7F800000#32
  let main_v75 : FVec F S10 .f32 := broadcastInDim S10 ![] bcast_S_S10 main_cst_28
  let main_v76 : IVec S10 1 := cmpf .olt main_v74 main_v75
  let main_c_29 : IVec S_ 1 := constantI S_ 1 1#1
  let main_v77 : IVec S_ 1 := (fun x v => Host.reduce IntOp.andi x v reducesTo_S10_S_d0 h_S_) main_v76 main_c_29
  let main_v78 : IVec S_ 1 := andi main_v73 main_v77
  let main_c_30 : IVec S_ 32 := constantI S_ 32 0#32
  let main_v79 : IVec S2x800000 32 := broadcastInDim S2x800000 ![] bcast_S_S2x800000 main_c_30
  let main_v80 : IVec S2x800000 1 := cmpi .sge main_arg16 main_v79
  let main_c_31 : IVec S_ 32 := constantI S_ 32 50000#32
  let main_v81 : IVec S2x800000 32 := broadcastInDim S2x800000 ![] bcast_S_S2x800000 main_c_31
  let main_v82 : IVec S2x800000 1 := cmpi .slt main_arg16 main_v81
  let main_v83 : IVec S2x800000 1 := andi main_v80 main_v82
  let main_c_32 : IVec S_ 1 := constantI S_ 1 1#1
  let main_v84 : IVec S_ 1 := (fun x v => Host.reduce IntOp.andi x v reducesTo_S2x800000_S_d0_1 h_S_) main_v83 main_c_32
  fn_part5 (F := F) main_arg17 main_v78 main_v84

def fn_part3 {F : FTy → Type} [FloatOps F] (main_arg11 : FVec F S4x128 .f32) (main_arg12 : FVec F S4x128 .f32) (main_arg13 : FVec F S4x128 .f32) (main_arg14 : FVec F S256x10 .f32) (main_arg15 : FVec F S10 .f32) (main_arg16 : IVec S2x800000 32) (main_arg17 : IVec S2x800000 32) (main_v48 : IVec S_ 1) (main_v49 : FVec F S4x128x128 .f32) (main_v50 : FVec F S4x128x128 .f32) : IVec S_ 1 :=
  let main_v51 : IVec S4x128x128 1 := cmpf .olt main_v49 main_v50
  let main_c_19 : IVec S_ 1 := constantI S_ 1 1#1
  let main_v52 : IVec S_ 1 := (fun x v => Host.reduce IntOp.andi x v reducesTo_S4x128x128_S_d0_1_2 h_S_) main_v51 main_c_19
  let main_v53 : IVec S_ 1 := andi main_v48 main_v52
  let main_v54 : FVec F S4x128 .f32 := Host.absf main_arg11
  let main_cst_20 : FVec F S_ .f32 := constant S_ .f32 0x7F800000#32
  let main_v55 : FVec F S4x128 .f32 := broadcastInDim S4x128 ![] bcast_S_S4x128 main_cst_20
  let main_v56 : IVec S4x128 1 := cmpf .olt main_v54 main_v55
  let main_c_21 : IVec S_ 1 := constantI S_ 1 1#1
  let main_v57 : IVec S_ 1 := (fun x v => Host.reduce IntOp.andi x v reducesTo_S4x128_S_d0_1 h_S_) main_v56 main_c_21
  let main_v58 : IVec S_ 1 := andi main_v53 main_v57
  let main_v59 : FVec F S4x128 .f32 := Host.absf main_arg12
  let main_cst_22 : FVec F S_ .f32 := constant S_ .f32 0x7F800000#32
  let main_v60 : FVec F S4x128 .f32 := broadcastInDim S4x128 ![] bcast_S_S4x128 main_cst_22
  let main_v61 : IVec S4x128 1 := cmpf .olt main_v59 main_v60
  let main_c_23 : IVec S_ 1 := constantI S_ 1 1#1
  let main_v62 : IVec S_ 1 := (fun x v => Host.reduce IntOp.andi x v reducesTo_S4x128_S_d0_1 h_S_) main_v61 main_c_23
  let main_v63 : IVec S_ 1 := andi main_v58 main_v62
  let main_v64 : FVec F S4x128 .f32 := Host.absf main_arg13
  let main_cst_24 : FVec F S_ .f32 := constant S_ .f32 0x7F800000#32
  let main_v65 : FVec F S4x128 .f32 := broadcastInDim S4x128 ![] bcast_S_S4x128 main_cst_24
  let main_v66 : IVec S4x128 1 := cmpf .olt main_v64 main_v65
  let main_c_25 : IVec S_ 1 := constantI S_ 1 1#1
  let main_v67 : IVec S_ 1 := (fun x v => Host.reduce IntOp.andi x v reducesTo_S4x128_S_d0_1 h_S_) main_v66 main_c_25
  fn_part4 (F := F) main_arg14 main_arg15 main_arg16 main_arg17 main_v63 main_v67

def fn_part2 {F : FTy → Type} [FloatOps F] (main_arg7 : FVec F S4x128 .f32) (main_arg8 : FVec F S4x128 .f32) (main_arg9 : FVec F S4x128 .f32) (main_arg10 : FVec F S4x128x128 .f32) (main_arg11 : FVec F S4x128 .f32) (main_arg12 : FVec F S4x128 .f32) (main_arg13 : FVec F S4x128 .f32) (main_arg14 : FVec F S256x10 .f32) (main_arg15 : FVec F S10 .f32) (main_arg16 : IVec S2x800000 32) (main_arg17 : IVec S2x800000 32) (main_v33 : IVec S_ 1) : IVec S_ 1 :=
  let main_v34 : FVec F S4x128 .f32 := Host.absf main_arg7
  let main_cst_12 : FVec F S_ .f32 := constant S_ .f32 0x7F800000#32
  let main_v35 : FVec F S4x128 .f32 := broadcastInDim S4x128 ![] bcast_S_S4x128 main_cst_12
  let main_v36 : IVec S4x128 1 := cmpf .olt main_v34 main_v35
  let main_c_13 : IVec S_ 1 := constantI S_ 1 1#1
  let main_v37 : IVec S_ 1 := (fun x v => Host.reduce IntOp.andi x v reducesTo_S4x128_S_d0_1 h_S_) main_v36 main_c_13
  let main_v38 : IVec S_ 1 := andi main_v33 main_v37
  let main_v39 : FVec F S4x128 .f32 := Host.absf main_arg8
  let main_cst_14 : FVec F S_ .f32 := constant S_ .f32 0x7F800000#32
  let main_v40 : FVec F S4x128 .f32 := broadcastInDim S4x128 ![] bcast_S_S4x128 main_cst_14
  let main_v41 : IVec S4x128 1 := cmpf .olt main_v39 main_v40
  let main_c_15 : IVec S_ 1 := constantI S_ 1 1#1
  let main_v42 : IVec S_ 1 := (fun x v => Host.reduce IntOp.andi x v reducesTo_S4x128_S_d0_1 h_S_) main_v41 main_c_15
  let main_v43 : IVec S_ 1 := andi main_v38 main_v42
  let main_v44 : FVec F S4x128 .f32 := Host.absf main_arg9
  let main_cst_16 : FVec F S_ .f32 := constant S_ .f32 0x7F800000#32
  let main_v45 : FVec F S4x128 .f32 := broadcastInDim S4x128 ![] bcast_S_S4x128 main_cst_16
  let main_v46 : IVec S4x128 1 := cmpf .olt main_v44 main_v45
  let main_c_17 : IVec S_ 1 := constantI S_ 1 1#1
  let main_v47 : IVec S_ 1 := (fun x v => Host.reduce IntOp.andi x v reducesTo_S4x128_S_d0_1 h_S_) main_v46 main_c_17
  let main_v48 : IVec S_ 1 := andi main_v43 main_v47
  let main_v49 : FVec F S4x128x128 .f32 := Host.absf main_arg10
  let main_cst_18 : FVec F S_ .f32 := constant S_ .f32 0x7F800000#32
  let main_v50 : FVec F S4x128x128 .f32 := broadcastInDim S4x128x128 ![] bcast_S_S4x128x128 main_cst_18
  fn_part3 (F := F) main_arg11 main_arg12 main_arg13 main_arg14 main_arg15 main_arg16 main_arg17 main_v48 main_v49 main_v50

def fn_part1 {F : FTy → Type} [FloatOps F] (main_arg4 : FVec F S256x128 .f32) (main_arg5 : FVec F S128 .f32) (main_arg6 : FVec F S4x128x128 .f32) (main_arg7 : FVec F S4x128 .f32) (main_arg8 : FVec F S4x128 .f32) (main_arg9 : FVec F S4x128 .f32) (main_arg10 : FVec F S4x128x128 .f32) (main_arg11 : FVec F S4x128 .f32) (main_arg12 : FVec F S4x128 .f32) (main_arg13 : FVec F S4x128 .f32) (main_arg14 : FVec F S256x10 .f32) (main_arg15 : FVec F S10 .f32) (main_arg16 : IVec S2x800000 32) (main_arg17 : IVec S2x800000 32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S256x128 .f32 := Host.absf main_arg4
  let main_cst_6 : FVec F S_ .f32 := constant S_ .f32 0x7F800000#32
  let main_v20 : FVec F S256x128 .f32 := broadcastInDim S256x128 ![] bcast_S_S256x128 main_cst_6
  let main_v21 : IVec S256x128 1 := cmpf .olt main_v19 main_v20
  let main_c_7 : IVec S_ 1 := constantI S_ 1 1#1
  let main_v22 : IVec S_ 1 := (fun x v => Host.reduce IntOp.andi x v reducesTo_S256x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S4x128x128 .f32 := Host.absf main_arg6
  let main_cst_10 : FVec F S_ .f32 := constant S_ .f32 0x7F800000#32
  let main_v30 : FVec F S4x128x128 .f32 := broadcastInDim S4x128x128 ![] bcast_S_S4x128x128 main_cst_10
  let main_v31 : IVec S4x128x128 1 := cmpf .olt main_v29 main_v30
  let main_c_11 : IVec S_ 1 := constantI S_ 1 1#1
  let main_v32 : IVec S_ 1 := (fun x v => Host.reduce IntOp.andi x v reducesTo_S4x128x128_S_d0_1_2 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_v33

def fn {F : FTy → Type} [FloatOps F] (main_arg0 : FVec F S50000x256 .f32) (main_arg1 : FVec F S50000x256 .f32) (main_arg2 : FVec F S256x128 .f32) (main_arg3 : FVec F S128 .f32) (main_arg4 : FVec F S256x128 .f32) (main_arg5 : FVec F S128 .f32) (main_arg6 : FVec F S4x128x128 .f32) (main_arg7 : FVec F S4x128 .f32) (main_arg8 : FVec F S4x128 .f32) (main_arg9 : FVec F S4x128 .f32) (main_arg10 : FVec F S4x128x128 .f32) (main_arg11 : FVec F S4x128 .f32) (main_arg12 : FVec F S4x128 .f32) (main_arg13 : FVec F S4x128 .f32) (main_arg14 : FVec F S256x10 .f32) (main_arg15 : FVec F S10 .f32) (main_arg16 : IVec S2x800000 32) (main_arg17 : IVec S2x800000 32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S50000x256 .f32 := Host.absf main_arg1
  let main_cst_0 : FVec F S_ .f32 := constant S_ .f32 0x7F800000#32
  let main_v5 : FVec F S50000x256 .f32 := broadcastInDim S50000x256 ![] bcast_S_S50000x256 main_cst_0
  let main_v6 : IVec S50000x256 1 := cmpf .olt main_v4 main_v5
  let main_c_1 : IVec S_ 1 := constantI S_ 1 1#1
  let main_v7 : IVec S_ 1 := (fun x v => Host.reduce IntOp.andi x v reducesTo_S50000x256_S_d0_1 h_S_) main_v6 main_c_1
  let main_v8 : IVec S_ 1 := andi main_v3 main_v7
  let main_v9 : FVec F S256x128 .f32 := Host.absf main_arg2
  let main_cst_2 : FVec F S_ .f32 := constant S_ .f32 0x7F800000#32
  let main_v10 : FVec F S256x128 .f32 := broadcastInDim S256x128 ![] bcast_S_S256x128 main_cst_2
  let main_v11 : IVec S256x128 1 := cmpf .olt main_v9 main_v10
  let main_c_3 : IVec S_ 1 := constantI S_ 1 1#1
  let main_v12 : IVec S_ 1 := (fun x v => Host.reduce IntOp.andi x v reducesTo_S256x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_arg8 main_arg9 main_arg10 main_arg11 main_arg12 main_arg13 main_arg14 main_arg15 main_arg16 main_arg17 main_v13 main_v16
-- ==== Kernel.lean ====
abbrev S50000x256 : Shape := ⟨2, ![50000, 256]⟩
abbrev S256x128 : Shape := ⟨2, ![256, 128]⟩
abbrev S128 : Shape := ⟨1, ![128]⟩
abbrev S4x128x128 : Shape := ⟨3, ![4, 128, 128]⟩
abbrev S4x128 : Shape := ⟨2, ![4, 128]⟩
abbrev S256x10 : Shape := ⟨2, ![256, 10]⟩
abbrev S10 : Shape := ⟨1, ![10]⟩
abbrev S2x800000 : Shape := ⟨2, ![2, 800000]⟩
abbrev S1x800000 : Shape := ⟨2, ![1, 800000]⟩
abbrev S800000 : Shape := ⟨1, ![800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S50000x1 : Shape := ⟨2, ![50000, 1]⟩
abbrev S1x128x128 : Shape := ⟨3, ![1, 128, 128]⟩
abbrev S128x128 : Shape := ⟨2, ![128, 128]⟩
abbrev S1x128 : Shape := ⟨2, ![1, 128]⟩
abbrev S50000x128 : Shape := ⟨2, ![50000, 128]⟩
abbrev S1 : Shape := ⟨1, ![1]⟩
abbrev S1x1 : Shape := ⟨2, ![1, 1]⟩
abbrev S850000x128 : Shape := ⟨2, ![850000, 128]⟩
abbrev S128x10 : Shape := ⟨2, ![128, 10]⟩
abbrev S50000x10 : Shape := ⟨2, ![50000, 10]⟩
abbrev S5000x256 : Shape := ⟨2, ![5000, 256]⟩
abbrev S5000x1 : Shape := ⟨2, ![5000, 1]⟩
abbrev S5000x128 : Shape := ⟨2, ![5000, 128]⟩
abbrev S5000 : Shape := ⟨1, ![5000]⟩

abbrev nBuf : Space → Nat
  | .hbm => 412
  | .vmem => 137
  | .smem => 0
  | _ => 0

abbrev hbmTy0_0 (i : Nat) : BufTy := match i % 128 with
  | 0 => ⟨S50000x256, .f32⟩
  | 1 => ⟨S50000x256, .f32⟩
  | 2 => ⟨S256x128, .f32⟩
  | 3 => ⟨S128, .f32⟩
  | 4 => ⟨S256x128, .f32⟩
  | 5 => ⟨S128, .f32⟩
  | 6 => ⟨S4x128x128, .f32⟩
  | 7 => ⟨S4x128, .f32⟩
  | 8 => ⟨S4x128, .f32⟩
  | 9 => ⟨S4x128, .f32⟩
  | 10 => ⟨S4x128x128, .f32⟩
  | 11 => ⟨S4x128, .f32⟩
  | 12 => ⟨S4x128, .f32⟩
  | 13 => ⟨S4x128, .f32⟩
  | 14 => ⟨S256x10, .f32⟩
  | 15 => ⟨S10, .f32⟩
  | 16 => ⟨S2x800000, .i32⟩
  | 17 => ⟨S2x800000, .i32⟩
  | 18 => ⟨S1x800000, .i32⟩
  | 19 => ⟨S800000, .i32⟩
  | 20 => ⟨S1x800000, .i32⟩
  | 21 => ⟨S800000, .i32⟩
  | 22 => ⟨S50000, .i32⟩
  | 23 => ⟨S850000, .i32⟩
  | 24 => ⟨S850000, .i32⟩
  | 25 => ⟨S_, .f32⟩
  | 26 => ⟨S850000, .f32⟩
  | 27 => ⟨S_, .f32⟩
  | 28 => ⟨S50000, .f32⟩
  | 29 => ⟨S850000x1, .i32⟩
  | 30 => ⟨S50000, .f32⟩
  | 31 => ⟨S_, .f32⟩
  | 32 => ⟨S50000, .f32⟩
  | 33 => ⟨S50000, .i1⟩
  | 34 => ⟨S50000, .f32⟩
  | 35 => ⟨S_, .f32⟩
  | 36 => ⟨S_, .f32⟩
  | 37 => ⟨S50000, .f32⟩
  | 38 => ⟨S50000, .f32⟩
  | 39 => ⟨S50000x1, .f32⟩
  | 40 => ⟨S1x128x128, .f32⟩
  | 41 => ⟨S128x128, .f32⟩
  | 42 => ⟨S1x128, .f32⟩
  | 43 => ⟨S256x128, .bf16⟩
  | 44 => ⟨S128x128, .bf16⟩
  | 45 => ⟨S50000x128, .f32⟩
  | 46 => ⟨S50000x128, .f32⟩
  | 47 => ⟨S_, .i32⟩
  | 48 => ⟨S850000, .i32⟩
  | 49 => ⟨S850000, .i1⟩
  | 50 => ⟨S_, .i32⟩
  | 51 => ⟨S850000, .i32⟩
  | 52 => ⟨S850000, .i32⟩
  | 53 => ⟨S850000, .i32⟩
  | 54 => ⟨S850000x1, .i32⟩
  | 55 => ⟨S1, .i32⟩
  | 56 => ⟨S_, .i32⟩
  | 57 => ⟨S850000x1, .i32⟩
  | 58 => ⟨S850000x1, .i1⟩
  | 59 => ⟨S1x1, .i32⟩
  | 60 => ⟨S850000x1, .i32⟩
  | 61 => ⟨S850000x1, .i1⟩
  | 62 => ⟨S850000x1, .i1⟩
  | 63 => ⟨S_, .i1⟩
  | 64 => ⟨S850000, .i1⟩
  | 65 => ⟨S850000x128, .f32⟩
  | 66 => ⟨S850000x128, .i1⟩
  | 67 => ⟨S_, .f32⟩
  | 68 => ⟨S850000x128, .f32⟩
  | 69 => ⟨S850000x128, .f32⟩
  | 70 => ⟨S_, .f32⟩
  | 71 => ⟨S50000x128, .f32⟩
  | 72 => ⟨S850000x1, .i32⟩
  | 73 => ⟨S50000x128, .f32⟩
  | 74 => ⟨S1x128, .f32⟩
  | 75 => ⟨S128, .f32⟩
  | 76 => ⟨S1x128, .f32⟩
  | 77 => ⟨S128, .f32⟩
  | 78 => ⟨S1x128, .f32⟩
  | 79 => ⟨S128, .f32⟩
  | 80 => ⟨S1x128x128, .f32⟩
  | 81 => ⟨S128x128, .f32⟩
  | 82 => ⟨S1x128, .f32⟩
  | 83 => ⟨S1x128, .f32⟩
  | 84 => ⟨S1x128, .f32⟩
  | 85 => ⟨S128x128, .bf16⟩
  | 86 => ⟨S50000x128, .f32⟩
  | 87 => ⟨S50000x128, .f32⟩
  | 88 => ⟨S_, .i32⟩
  | 89 => ⟨S850000, .i32⟩
  | 90 => ⟨S850000, .i1⟩
  | 91 => ⟨S_, .i32⟩
  | 92 => ⟨S850000, .i32⟩
  | 93 => ⟨S850000, .i32⟩
  | 94 => ⟨S850000, .i32⟩
  | 95 => ⟨S850000x1, .i32⟩
  | 96 => ⟨S1, .i32⟩
  | 97 => ⟨S_, .i32⟩
  | 98 => ⟨S850000x1, .i32⟩
  | 99 => ⟨S850000x1, .i1⟩
  | 100 => ⟨S1x1, .i32⟩
  | 101 => ⟨S850000x1, .i32⟩
  | 102 => ⟨S850000x1, .i1⟩
  | 103 => ⟨S850000x1, .i1⟩
  | 104 => ⟨S_, .i1⟩
  | 105 => ⟨S850000, .i1⟩
  | 106 => ⟨S850000x128, .f32⟩
  | 107 => ⟨S850000x128, .i1⟩
  | 108 => ⟨S_, .f32⟩
  | 109 => ⟨S850000x128, .f32⟩
  | 110 => ⟨S850000x128, .f32⟩
  | 111 => ⟨S_, .f32⟩
  | 112 => ⟨S50000x128, .f32⟩
  | 113 => ⟨S850000x1, .i32⟩
  | 114 => ⟨S50000x128, .f32⟩
  | 115 => ⟨S1x128, .f32⟩
  | 116 => ⟨S128, .f32⟩
  | 117 => ⟨S1x128, .f32⟩
  | 118 => ⟨S128, .f32⟩
  | 119 => ⟨S1x128, .f32⟩
  | 120 => ⟨S128, .f32⟩
  | 121 => ⟨S1x128x128, .f32⟩
  | 122 => ⟨S128x128, .f32⟩
  | 123 => ⟨S1x128, .f32⟩
  | 124 => ⟨S1x128, .f32⟩
  | 125 => ⟨S1x128, .f32⟩
  | 126 => ⟨S128x128, .bf16⟩
  | 127 => ⟨S50000x128, .f32⟩
  | _ => ⟨S50000x256, .f32⟩

abbrev hbmTy0_1 (i : Nat) : BufTy := match i % 128 with
  | 0 => ⟨S50000x128, .f32⟩
  | 1 => ⟨S_, .i32⟩
  | 2 => ⟨S850000, .i32⟩
  | 3 => ⟨S850000, .i1⟩
  | 4 => ⟨S_, .i32⟩
  | 5 => ⟨S850000, .i32⟩
  | 6 => ⟨S850000, .i32⟩
  | 7 => ⟨S850000, .i32⟩
  | 8 => ⟨S850000x1, .i32⟩
  | 9 => ⟨S1, .i32⟩
  | 10 => ⟨S_, .i32⟩
  | 11 => ⟨S850000x1, .i32⟩
  | 12 => ⟨S850000x1, .i1⟩
  | 13 => ⟨S1x1, .i32⟩
  | 14 => ⟨S850000x1, .i32⟩
  | 15 => ⟨S850000x1, .i1⟩
  | 16 => ⟨S850000x1, .i1⟩
  | 17 => ⟨S_, .i1⟩
  | 18 => ⟨S850000, .i1⟩
  | 19 => ⟨S850000x128, .f32⟩
  | 20 => ⟨S850000x128, .i1⟩
  | 21 => ⟨S_, .f32⟩
  | 22 => ⟨S850000x128, .f32⟩
  | 23 => ⟨S850000x128, .f32⟩
  | 24 => ⟨S_, .f32⟩
  | 25 => ⟨S50000x128, .f32⟩
  | 26 => ⟨S850000x1, .i32⟩
  | 27 => ⟨S50000x128, .f32⟩
  | 28 => ⟨S1x128, .f32⟩
  | 29 => ⟨S128, .f32⟩
  | 30 => ⟨S1x128, .f32⟩
  | 31 => ⟨S128, .f32⟩
  | 32 => ⟨S1x128, .f32⟩
  | 33 => ⟨S128, .f32⟩
  | 34 => ⟨S1x128x128, .f32⟩
  | 35 => ⟨S128x128, .f32⟩
  | 36 => ⟨S1x128, .f32⟩
  | 37 => ⟨S1x128, .f32⟩
  | 38 => ⟨S1x128, .f32⟩
  | 39 => ⟨S128x128, .bf16⟩
  | 40 => ⟨S50000x128, .f32⟩
  | 41 => ⟨S50000x128, .f32⟩
  | 42 => ⟨S_, .i32⟩
  | 43 => ⟨S850000, .i32⟩
  | 44 => ⟨S850000, .i1⟩
  | 45 => ⟨S_, .i32⟩
  | 46 => ⟨S850000, .i32⟩
  | 47 => ⟨S850000, .i32⟩
  | 48 => ⟨S850000, .i32⟩
  | 49 => ⟨S850000x1, .i32⟩
  | 50 => ⟨S1, .i32⟩
  | 51 => ⟨S_, .i32⟩
  | 52 => ⟨S850000x1, .i32⟩
  | 53 => ⟨S850000x1, .i1⟩
  | 54 => ⟨S1x1, .i32⟩
  | 55 => ⟨S850000x1, .i32⟩
  | 56 => ⟨S850000x1, .i1⟩
  | 57 => ⟨S850000x1, .i1⟩
  | 58 => ⟨S_, .i1⟩
  | 59 => ⟨S850000, .i1⟩
  | 60 => ⟨S850000x128, .f32⟩
  | 61 => ⟨S850000x128, .i1⟩
  | 62 => ⟨S_, .f32⟩
  | 63 => ⟨S850000x128, .f32⟩
  | 64 => ⟨S850000x128, .f32⟩
  | 65 => ⟨S_, .f32⟩
  | 66 => ⟨S50000x128, .f32⟩
  | 67 => ⟨S850000x1, .i32⟩
  | 68 => ⟨S50000x128, .f32⟩
  | 69 => ⟨S1x128, .f32⟩
  | 70 => ⟨S128, .f32⟩
  | 71 => ⟨S1x128, .f32⟩
  | 72 => ⟨S128, .f32⟩
  | 73 => ⟨S1x128, .f32⟩
  | 74 => ⟨S128, .f32⟩
  | 75 => ⟨S1x128, .f32⟩
  | 76 => ⟨S1x128, .f32⟩
  | 77 => ⟨S1x128, .f32⟩
  | 78 => ⟨S50000x128, .f32⟩
  | 79 => ⟨S1x800000, .i32⟩
  | 80 => ⟨S800000, .i32⟩
  | 81 => ⟨S1x800000, .i32⟩
  | 82 => ⟨S800000, .i32⟩
  | 83 => ⟨S50000, .i32⟩
  | 84 => ⟨S850000, .i32⟩
  | 85 => ⟨S850000, .i32⟩
  | 86 => ⟨S_, .f32⟩
  | 87 => ⟨S850000, .f32⟩
  | 88 => ⟨S_, .f32⟩
  | 89 => ⟨S50000, .f32⟩
  | 90 => ⟨S850000x1, .i32⟩
  | 91 => ⟨S50000, .f32⟩
  | 92 => ⟨S_, .f32⟩
  | 93 => ⟨S50000, .f32⟩
  | 94 => ⟨S50000, .i1⟩
  | 95 => ⟨S50000, .f32⟩
  | 96 => ⟨S_, .f32⟩
  | 97 => ⟨S_, .f32⟩
  | 98 => ⟨S50000, .f32⟩
  | 99 => ⟨S50000, .f32⟩
  | 100 => ⟨S50000x1, .f32⟩
  | 101 => ⟨S1x128x128, .f32⟩
  | 102 => ⟨S128x128, .f32⟩
  | 103 => ⟨S1x128, .f32⟩
  | 104 => ⟨S256x128, .bf16⟩
  | 105 => ⟨S128x128, .bf16⟩
  | 106 => ⟨S50000x128, .f32⟩
  | 107 => ⟨S50000x128, .f32⟩
  | 108 => ⟨S_, .i32⟩
  | 109 => ⟨S850000, .i32⟩
  | 110 => ⟨S850000, .i1⟩
  | 111 => ⟨S_, .i32⟩
  | 112 => ⟨S850000, .i32⟩
  | 113 => ⟨S850000, .i32⟩
  | 114 => ⟨S850000, .i32⟩
  | 115 => ⟨S850000x1, .i32⟩
  | 116 => ⟨S1, .i32⟩
  | 117 => ⟨S_, .i32⟩
  | 118 => ⟨S850000x1, .i32⟩
  | 119 => ⟨S850000x1, .i1⟩
  | 120 => ⟨S1x1, .i32⟩
  | 121 => ⟨S850000x1, .i32⟩
  | 122 => ⟨S850000x1, .i1⟩
  | 123 => ⟨S850000x1, .i1⟩
  | 124 => ⟨S_, .i1⟩
  | 125 => ⟨S850000, .i1⟩
  | 126 => ⟨S850000x128, .f32⟩
  | 127 => ⟨S850000x128, .i1⟩
  | _ => ⟨S50000x256, .f32⟩

abbrev hbmTy0_2 (i : Nat) : BufTy := match i % 128 with
  | 0 => ⟨S_, .f32⟩
  | 1 => ⟨S850000x128, .f32⟩
  | 2 => ⟨S850000x128, .f32⟩
  | 3 => ⟨S_, .f32⟩
  | 4 => ⟨S50000x128, .f32⟩
  | 5 => ⟨S850000x1, .i32⟩
  | 6 => ⟨S50000x128, .f32⟩
  | 7 => ⟨S1x128, .f32⟩
  | 8 => ⟨S128, .f32⟩
  | 9 => ⟨S1x128, .f32⟩
  | 10 => ⟨S128, .f32⟩
  | 11 => ⟨S1x128, .f32⟩
  | 12 => ⟨S128, .f32⟩
  | 13 => ⟨S1x128x128, .f32⟩
  | 14 => ⟨S128x128, .f32⟩
  | 15 => ⟨S1x128, .f32⟩
  | 16 => ⟨S1x128, .f32⟩
  | 17 => ⟨S1x128, .f32⟩
  | 18 => ⟨S128x128, .bf16⟩
  | 19 => ⟨S50000x128, .f32⟩
  | 20 => ⟨S50000x128, .f32⟩
  | 21 => ⟨S_, .i32⟩
  | 22 => ⟨S850000, .i32⟩
  | 23 => ⟨S850000, .i1⟩
  | 24 => ⟨S_, .i32⟩
  | 25 => ⟨S850000, .i32⟩
  | 26 => ⟨S850000, .i32⟩
  | 27 => ⟨S850000, .i32⟩
  | 28 => ⟨S850000x1, .i32⟩
  | 29 => ⟨S1, .i32⟩
  | 30 => ⟨S_, .i32⟩
  | 31 => ⟨S850000x1, .i32⟩
  | 32 => ⟨S850000x1, .i1⟩
  | 33 => ⟨S1x1, .i32⟩
  | 34 => ⟨S850000x1, .i32⟩
  | 35 => ⟨S850000x1, .i1⟩
  | 36 => ⟨S850000x1, .i1⟩
  | 37 => ⟨S_, .i1⟩
  | 38 => ⟨S850000, .i1⟩
  | 39 => ⟨S850000x128, .f32⟩
  | 40 => ⟨S850000x128, .i1⟩
  | 41 => ⟨S_, .f32⟩
  | 42 => ⟨S850000x128, .f32⟩
  | 43 => ⟨S850000x128, .f32⟩
  | 44 => ⟨S_, .f32⟩
  | 45 => ⟨S50000x128, .f32⟩
  | 46 => ⟨S850000x1, .i32⟩
  | 47 => ⟨S50000x128, .f32⟩
  | 48 => ⟨S1x128, .f32⟩
  | 49 => ⟨S128, .f32⟩
  | 50 => ⟨S1x128, .f32⟩
  | 51 => ⟨S128, .f32⟩
  | 52 => ⟨S1x128, .f32⟩
  | 53 => ⟨S128, .f32⟩
  | 54 => ⟨S1x128x128, .f32⟩
  | 55 => ⟨S128x128, .f32⟩
  | 56 => ⟨S1x128, .f32⟩
  | 57 => ⟨S1x128, .f32⟩
  | 58 => ⟨S1x128, .f32⟩
  | 59 => ⟨S128x128, .bf16⟩
  | 60 => ⟨S50000x128, .f32⟩
  | 61 => ⟨S50000x128, .f32⟩
  | 62 => ⟨S_, .i32⟩
  | 63 => ⟨S850000, .i32⟩
  | 64 => ⟨S850000, .i1⟩
  | 65 => ⟨S_, .i32⟩
  | 66 => ⟨S850000, .i32⟩
  | 67 => ⟨S850000, .i32⟩
  | 68 => ⟨S850000, .i32⟩
  | 69 => ⟨S850000x1, .i32⟩
  | 70 => ⟨S1, .i32⟩
  | 71 => ⟨S_, .i32⟩
  | 72 => ⟨S850000x1, .i32⟩
  | 73 => ⟨S850000x1, .i1⟩
  | 74 => ⟨S1x1, .i32⟩
  | 75 => ⟨S850000x1, .i32⟩
  | 76 => ⟨S850000x1, .i1⟩
  | 77 => ⟨S850000x1, .i1⟩
  | 78 => ⟨S_, .i1⟩
  | 79 => ⟨S850000, .i1⟩
  | 80 => ⟨S850000x128, .f32⟩
  | 81 => ⟨S850000x128, .i1⟩
  | 82 => ⟨S_, .f32⟩
  | 83 => ⟨S850000x128, .f32⟩
  | 84 => ⟨S850000x128, .f32⟩
  | 85 => ⟨S_, .f32⟩
  | 86 => ⟨S50000x128, .f32⟩
  | 87 => ⟨S850000x1, .i32⟩
  | 88 => ⟨S50000x128, .f32⟩
  | 89 => ⟨S1x128, .f32⟩
  | 90 => ⟨S128, .f32⟩
  | 91 => ⟨S1x128, .f32⟩
  | 92 => ⟨S128, .f32⟩
  | 93 => ⟨S1x128, .f32⟩
  | 94 => ⟨S128, .f32⟩
  | 95 => ⟨S1x128x128, .f32⟩
  | 96 => ⟨S128x128, .f32⟩
  | 97 => ⟨S1x128, .f32⟩
  | 98 => ⟨S1x128, .f32⟩
  | 99 => ⟨S1x128, .f32⟩
  | 100 => ⟨S128x128, .bf16⟩
  | 101 => ⟨S50000x128, .f32⟩
  | 102 => ⟨S50000x128, .f32⟩
  | 103 => ⟨S_, .i32⟩
  | 104 => ⟨S850000, .i32⟩
  | 105 => ⟨S850000, .i1⟩
  | 106 => ⟨S_, .i32⟩
  | 107 => ⟨S850000, .i32⟩
  | 108 => ⟨S850000, .i32⟩
  | 109 => ⟨S850000, .i32⟩
  | 110 => ⟨S850000x1, .i32⟩
  | 111 => ⟨S1, .i32⟩
  | 112 => ⟨S_, .i32⟩
  | 113 => ⟨S850000x1, .i32⟩
  | 114 => ⟨S850000x1, .i1⟩
  | 115 => ⟨S1x1, .i32⟩
  | 116 => ⟨S850000x1, .i32⟩
  | 117 => ⟨S850000x1, .i1⟩
  | 118 => ⟨S850000x1, .i1⟩
  | 119 => ⟨S_, .i1⟩
  | 120 => ⟨S850000, .i1⟩
  | 121 => ⟨S850000x128, .f32⟩
  | 122 => ⟨S850000x128, .i1⟩
  | 123 => ⟨S_, .f32⟩
  | 124 => ⟨S850000x128, .f32⟩
  | 125 => ⟨S850000x128, .f32⟩
  | 126 => ⟨S_, .f32⟩
  | 127 => ⟨S50000x128, .f32⟩
  | _ => ⟨S50000x256, .f32⟩

abbrev hbmTy0_3 (i : Nat) : BufTy := match i % 128 with
  | 0 => ⟨S850000x1, .i32⟩
  | 1 => ⟨S50000x128, .f32⟩
  | 2 => ⟨S1x128, .f32⟩
  | 3 => ⟨S128, .f32⟩
  | 4 => ⟨S1x128, .f32⟩
  | 5 => ⟨S128, .f32⟩
  | 6 => ⟨S1x128, .f32⟩
  | 7 => ⟨S128, .f32⟩
  | 8 => ⟨S1x128, .f32⟩
  | 9 => ⟨S1x128, .f32⟩
  | 10 => ⟨S1x128, .f32⟩
  | 11 => ⟨S50000x128, .f32⟩
  | 12 => ⟨S128x10, .f32⟩
  | 13 => ⟨S_, .i32⟩
  | 14 => ⟨S_, .f32⟩
  | 15 => ⟨S128x128, .f32⟩
  | 16 => ⟨S128x10, .f32⟩
  | 17 => ⟨S_, .i32⟩
  | 18 => ⟨S_, .f32⟩
  | 19 => ⟨S128x128, .f32⟩
  | 20 => ⟨S_, .i32⟩
  | 21 => ⟨S_, .f32⟩
  | 22 => ⟨S128, .f32⟩
  | 23 => ⟨S128x128, .bf16⟩
  | 24 => ⟨S128x128, .bf16⟩
  | 25 => ⟨S1x128, .f32⟩
  | 26 => ⟨S50000x128, .f32⟩
  | 27 => ⟨S50000x10, .f32⟩
  | _ => ⟨S50000x256, .f32⟩

abbrev hbmTy (i : Nat) : BufTy := match i / 128 with
  | 0 => hbmTy0_0 i
  | 1 => hbmTy0_1 i
  | 2 => hbmTy0_2 i
  | 3 => hbmTy0_3 i
  | _ => ⟨S50000x256, .f32⟩

abbrev vmemTy0_0 (i : Nat) : BufTy := match i % 128 with
  | 0 => ⟨S5000x256, .f32⟩
  | 1 => ⟨S5000x256, .f32⟩
  | 2 => ⟨S256x128, .bf16⟩
  | 3 => ⟨S1x128, .f32⟩
  | 4 => ⟨S128x128, .bf16⟩
  | 5 => ⟨S5000x1, .f32⟩
  | 6 => ⟨S5000x1, .f32⟩
  | 7 => ⟨S5000x128, .f32⟩
  | 8 => ⟨S5000x128, .f32⟩
  | 9 => ⟨S5000x128, .f32⟩
  | 10 => ⟨S5000x128, .f32⟩
  | 11 => ⟨S5000x128, .f32⟩
  | 12 => ⟨S5000x128, .f32⟩
  | 13 => ⟨S5000x1, .f32⟩
  | 14 => ⟨S5000x1, .f32⟩
  | 15 => ⟨S1x128, .f32⟩
  | 16 => ⟨S1x128, .f32⟩
  | 17 => ⟨S1x128, .f32⟩
  | 18 => ⟨S5000x128, .f32⟩
  | 19 => ⟨S5000x128, .f32⟩
  | 20 => ⟨S128x128, .bf16⟩
  | 21 => ⟨S5000x128, .f32⟩
  | 22 => ⟨S5000x128, .f32⟩
  | 23 => ⟨S5000x128, .f32⟩
  | 24 => ⟨S5000x128, .f32⟩
  | 25 => ⟨S5000x128, .f32⟩
  | 26 => ⟨S5000x128, .f32⟩
  | 27 => ⟨S5000x1, .f32⟩
  | 28 => ⟨S5000x1, .f32⟩
  | 29 => ⟨S1x128, .f32⟩
  | 30 => ⟨S1x128, .f32⟩
  | 31 => ⟨S1x128, .f32⟩
  | 32 => ⟨S5000x128, .f32⟩
  | 33 => ⟨S5000x128, .f32⟩
  | 34 => ⟨S128x128, .bf16⟩
  | 35 => ⟨S5000x128, .f32⟩
  | 36 => ⟨S5000x128, .f32⟩
  | 37 => ⟨S5000x128, .f32⟩
  | 38 => ⟨S5000x128, .f32⟩
  | 39 => ⟨S5000x128, .f32⟩
  | 40 => ⟨S5000x128, .f32⟩
  | 41 => ⟨S5000x1, .f32⟩
  | 42 => ⟨S5000x1, .f32⟩
  | 43 => ⟨S1x128, .f32⟩
  | 44 => ⟨S1x128, .f32⟩
  | 45 => ⟨S1x128, .f32⟩
  | 46 => ⟨S5000x128, .f32⟩
  | 47 => ⟨S5000x128, .f32⟩
  | 48 => ⟨S128x128, .bf16⟩
  | 49 => ⟨S5000x128, .f32⟩
  | 50 => ⟨S5000x128, .f32⟩
  | 51 => ⟨S5000x128, .f32⟩
  | 52 => ⟨S5000x128, .f32⟩
  | 53 => ⟨S5000x128, .f32⟩
  | 54 => ⟨S5000x128, .f32⟩
  | 55 => ⟨S5000x1, .f32⟩
  | 56 => ⟨S5000x1, .f32⟩
  | 57 => ⟨S1x128, .f32⟩
  | 58 => ⟨S1x128, .f32⟩
  | 59 => ⟨S1x128, .f32⟩
  | 60 => ⟨S5000x128, .f32⟩
  | 61 => ⟨S5000x128, .f32⟩
  | 62 => ⟨S5000x128, .f32⟩
  | 63 => ⟨S5000x128, .f32⟩
  | 64 => ⟨S5000x256, .f32⟩
  | 65 => ⟨S5000x256, .f32⟩
  | 66 => ⟨S256x128, .bf16⟩
  | 67 => ⟨S1x128, .f32⟩
  | 68 => ⟨S128x128, .bf16⟩
  | 69 => ⟨S5000x1, .f32⟩
  | 70 => ⟨S5000x1, .f32⟩
  | 71 => ⟨S5000x128, .f32⟩
  | 72 => ⟨S5000x128, .f32⟩
  | 73 => ⟨S5000x128, .f32⟩
  | 74 => ⟨S5000x128, .f32⟩
  | 75 => ⟨S5000x128, .f32⟩
  | 76 => ⟨S5000x128, .f32⟩
  | 77 => ⟨S5000x1, .f32⟩
  | 78 => ⟨S5000x1, .f32⟩
  | 79 => ⟨S1x128, .f32⟩
  | 80 => ⟨S1x128, .f32⟩
  | 81 => ⟨S1x128, .f32⟩
  | 82 => ⟨S5000x128, .f32⟩
  | 83 => ⟨S5000x128, .f32⟩
  | 84 => ⟨S128x128, .bf16⟩
  | 85 => ⟨S5000x128, .f32⟩
  | 86 => ⟨S5000x128, .f32⟩
  | 87 => ⟨S5000x128, .f32⟩
  | 88 => ⟨S5000x128, .f32⟩
  | 89 => ⟨S5000x128, .f32⟩
  | 90 => ⟨S5000x128, .f32⟩
  | 91 => ⟨S5000x1, .f32⟩
  | 92 => ⟨S5000x1, .f32⟩
  | 93 => ⟨S1x128, .f32⟩
  | 94 => ⟨S1x128, .f32⟩
  | 95 => ⟨S1x128, .f32⟩
  | 96 => ⟨S5000x128, .f32⟩
  | 97 => ⟨S5000x128, .f32⟩
  | 98 => ⟨S128x128, .bf16⟩
  | 99 => ⟨S5000x128, .f32⟩
  | 100 => ⟨S5000x128, .f32⟩
  | 101 => ⟨S5000x128, .f32⟩
  | 102 => ⟨S5000x128, .f32⟩
  | 103 => ⟨S5000x128, .f32⟩
  | 104 => ⟨S5000x128, .f32⟩
  | 105 => ⟨S5000x1, .f32⟩
  | 106 => ⟨S5000x1, .f32⟩
  | 107 => ⟨S1x128, .f32⟩
  | 108 => ⟨S1x128, .f32⟩
  | 109 => ⟨S1x128, .f32⟩
  | 110 => ⟨S5000x128, .f32⟩
  | 111 => ⟨S5000x128, .f32⟩
  | 112 => ⟨S128x128, .bf16⟩
  | 113 => ⟨S5000x128, .f32⟩
  | 114 => ⟨S5000x128, .f32⟩
  | 115 => ⟨S5000x128, .f32⟩
  | 116 => ⟨S5000x128, .f32⟩
  | 117 => ⟨S5000x128, .f32⟩
  | 118 => ⟨S5000x128, .f32⟩
  | 119 => ⟨S5000x1, .f32⟩
  | 120 => ⟨S5000x1, .f32⟩
  | 121 => ⟨S1x128, .f32⟩
  | 122 => ⟨S1x128, .f32⟩
  | 123 => ⟨S1x128, .f32⟩
  | 124 => ⟨S5000x128, .f32⟩
  | 125 => ⟨S5000x128, .f32⟩
  | 126 => ⟨S5000x128, .f32⟩
  | 127 => ⟨S5000x128, .f32⟩
  | _ => ⟨S50000x256, .f32⟩

abbrev vmemTy0_1 (i : Nat) : BufTy := match i % 128 with
  | 0 => ⟨S5000x128, .f32⟩
  | 1 => ⟨S5000x128, .f32⟩
  | 2 => ⟨S5000x128, .f32⟩
  | 3 => ⟨S5000x128, .f32⟩
  | 4 => ⟨S128x128, .bf16⟩
  | 5 => ⟨S128x128, .bf16⟩
  | 6 => ⟨S1x128, .f32⟩
  | 7 => ⟨S5000x128, .f32⟩
  | 8 => ⟨S5000x128, .f32⟩
  | _ => ⟨S50000x256, .f32⟩

abbrev vmemTy (i : Nat) : BufTy := match i / 128 with
  | 0 => vmemTy0_0 i
  | 1 => vmemTy0_1 i
  | _ => ⟨S50000x256, .f32⟩

abbrev bufTy : (tb : Table) → Fin (tcTables nBuf tb) → BufTy
  | .hbm, ⟨i, _⟩ => hbmTy i
  | .local _ .vmem, ⟨i, _⟩ => vmemTy i
  | _, _ => ⟨S50000x256, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | _ => false

abbrev dmaSemScopedAt (i : Nat) : Bool := match i / 128 with
  | 0 => dmaSemScopedAt0_0 i
  | 1 => dmaSemScopedAt0_1 i
  | _ => false

abbrev vmemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev vmemScopedAt0_1 (i : Nat) : Bool := match i % 128 with
  | 0 => true
  | 1 => true
  | 2 => true
  | 3 => true
  | 4 => true
  | 5 => true
  | 6 => true
  | 7 => true
  | 8 => true
  | _ => false

abbrev vmemScopedAt (i : Nat) : Bool := match i / 128 with
  | 0 => vmemScopedAt0_0 i
  | 1 => vmemScopedAt0_1 i
  | _ => false

abbrev bufScoped : (cs : CoreSpace) → Fin (nBuf (.core cs)) → Bool
  | .vmem, ⟨i, _⟩ => vmemScopedAt i
  | _, _ => false

abbrev semScoped : Fin 0 → Bool
  | ⟨_, h⟩ => absurd h (Nat.not_lt_zero _)

abbrev dmaSemScoped : Fin 137 → Bool
  | ⟨i, _⟩ => dmaSemScopedAt i

abbrev sig : RefSig :=
  ofTc nBuf bufTy 0 137 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_v5 : Ref sig .tc := ⟨.hbm, 23, rfl⟩
abbrev main_call0_v6 : Ref sig .tc := ⟨.hbm, 24, rfl⟩
abbrev main_call0_cst : Ref sig .tc := ⟨.hbm, 25, rfl⟩
abbrev main_call0_v7 : Ref sig .tc := ⟨.hbm, 26, rfl⟩
abbrev main_call0_cst_0 : Ref sig .tc := ⟨.hbm, 27, rfl⟩
abbrev main_call0_v8 : Ref sig .tc := ⟨.hbm, 28, rfl⟩
abbrev main_call0_v9 : Ref sig .tc := ⟨.hbm, 29, rfl⟩
abbrev main_call0_v10 : Ref sig .tc := ⟨.hbm, 30, rfl⟩
abbrev main_call0_cst_1 : Ref sig .tc := ⟨.hbm, 31, rfl⟩
abbrev main_call0_v11 : Ref sig .tc := ⟨.hbm, 32, rfl⟩
abbrev main_call0_v12 : Ref sig .tc := ⟨.hbm, 33, rfl⟩
abbrev main_call0_v13 : Ref sig .tc := ⟨.hbm, 34, rfl⟩
abbrev main_call0_cst_2 : Ref sig .tc := ⟨.hbm, 35, rfl⟩
abbrev main_call0_call0_v0 : Ref sig .tc := ⟨.hbm, 36, rfl⟩
abbrev main_call0_call0_v1 : Ref sig .tc := ⟨.hbm, 37, rfl⟩
abbrev main_call0_v14 : Ref sig .tc := ⟨.hbm, 38, rfl⟩
abbrev main_call0_v15 : Ref sig .tc := ⟨.hbm, 39, rfl⟩
abbrev main_call0_v16 : Ref sig .tc := ⟨.hbm, 40, rfl⟩
abbrev main_call0_v17 : Ref sig .tc := ⟨.hbm, 41, rfl⟩
abbrev main_call0_v18 : Ref sig .tc := ⟨.hbm, 42, rfl⟩
abbrev main_call0_v19 : Ref sig .tc := ⟨.hbm, 43, rfl⟩
abbrev main_call0_v20 : Ref sig .tc := ⟨.hbm, 44, rfl⟩
abbrev main_call0_v21_0 : Ref sig .tc := ⟨.hbm, 45, rfl⟩
abbrev main_call0_v21_1 : Ref sig .tc := ⟨.hbm, 46, rfl⟩
abbrev main_call0_call1_c : Ref sig .tc := ⟨.hbm, 47, rfl⟩
abbrev main_call0_call1_v0 : Ref sig .tc := ⟨.hbm, 48, rfl⟩
abbrev main_call0_call1_v1 : Ref sig .tc := ⟨.hbm, 49, rfl⟩
abbrev main_call0_call1_c_0 : Ref sig .tc := ⟨.hbm, 50, rfl⟩
abbrev main_call0_call1_v2 : Ref sig .tc := ⟨.hbm, 51, rfl⟩
abbrev main_call0_call1_v3 : Ref sig .tc := ⟨.hbm, 52, rfl⟩
abbrev main_call0_call1_v4 : Ref sig .tc := ⟨.hbm, 53, rfl⟩
abbrev main_call0_call1_v5 : Ref sig .tc := ⟨.hbm, 54, rfl⟩
abbrev main_call0_call1_c_1 : Ref sig .tc := ⟨.hbm, 55, rfl⟩
abbrev main_call0_call1_c_2 : Ref sig .tc := ⟨.hbm, 56, rfl⟩
abbrev main_call0_call1_v6 : Ref sig .tc := ⟨.hbm, 57, rfl⟩
abbrev main_call0_call1_v7 : Ref sig .tc := ⟨.hbm, 58, rfl⟩
abbrev main_call0_call1_v8 : Ref sig .tc := ⟨.hbm, 59, rfl⟩
abbrev main_call0_call1_v9 : Ref sig .tc := ⟨.hbm, 60, rfl⟩
abbrev main_call0_call1_v10 : Ref sig .tc := ⟨.hbm, 61, rfl⟩
abbrev main_call0_call1_v11 : Ref sig .tc := ⟨.hbm, 62, rfl⟩
abbrev main_call0_call1_c_3 : Ref sig .tc := ⟨.hbm, 63, rfl⟩
abbrev main_call0_call1_v12 : Ref sig .tc := ⟨.hbm, 64, rfl⟩
abbrev main_call0_call1_v13 : Ref sig .tc := ⟨.hbm, 65, rfl⟩
abbrev main_call0_call1_v14 : Ref sig .tc := ⟨.hbm, 66, rfl⟩
abbrev main_call0_call1_cst : Ref sig .tc := ⟨.hbm, 67, rfl⟩
abbrev main_call0_call1_v15 : Ref sig .tc := ⟨.hbm, 68, rfl⟩
abbrev main_call0_v22 : Ref sig .tc := ⟨.hbm, 69, rfl⟩
abbrev main_call0_cst_3 : Ref sig .tc := ⟨.hbm, 70, rfl⟩
abbrev main_call0_v23 : Ref sig .tc := ⟨.hbm, 71, rfl⟩
abbrev main_call0_v24 : Ref sig .tc := ⟨.hbm, 72, rfl⟩
abbrev main_call0_v25 : Ref sig .tc := ⟨.hbm, 73, rfl⟩
abbrev main_call0_v26 : Ref sig .tc := ⟨.hbm, 74, rfl⟩
abbrev main_call0_v27 : Ref sig .tc := ⟨.hbm, 75, rfl⟩
abbrev main_call0_v28 : Ref sig .tc := ⟨.hbm, 76, rfl⟩
abbrev main_call0_v29 : Ref sig .tc := ⟨.hbm, 77, rfl⟩
abbrev main_call0_v30 : Ref sig .tc := ⟨.hbm, 78, rfl⟩
abbrev main_call0_v31 : Ref sig .tc := ⟨.hbm, 79, rfl⟩
abbrev main_call0_v32 : Ref sig .tc := ⟨.hbm, 80, rfl⟩
abbrev main_call0_v33 : Ref sig .tc := ⟨.hbm, 81, rfl⟩
abbrev main_call0_v34 : Ref sig .tc := ⟨.hbm, 82, rfl⟩
abbrev main_call0_v35 : Ref sig .tc := ⟨.hbm, 83, rfl⟩
abbrev main_call0_v36 : Ref sig .tc := ⟨.hbm, 84, rfl⟩
abbrev main_call0_v37 : Ref sig .tc := ⟨.hbm, 85, rfl⟩
abbrev main_call0_v38_0 : Ref sig .tc := ⟨.hbm, 86, rfl⟩
abbrev main_call0_v38_1 : Ref sig .tc := ⟨.hbm, 87, rfl⟩
abbrev main_call0_call2_c : Ref sig .tc := ⟨.hbm, 88, rfl⟩
abbrev main_call0_call2_v0 : Ref sig .tc := ⟨.hbm, 89, rfl⟩
abbrev main_call0_call2_v1 : Ref sig .tc := ⟨.hbm, 90, rfl⟩
abbrev main_call0_call2_c_0 : Ref sig .tc := ⟨.hbm, 91, rfl⟩
abbrev main_call0_call2_v2 : Ref sig .tc := ⟨.hbm, 92, rfl⟩
abbrev main_call0_call2_v3 : Ref sig .tc := ⟨.hbm, 93, rfl⟩
abbrev main_call0_call2_v4 : Ref sig .tc := ⟨.hbm, 94, rfl⟩
abbrev main_call0_call2_v5 : Ref sig .tc := ⟨.hbm, 95, rfl⟩
abbrev main_call0_call2_c_1 : Ref sig .tc := ⟨.hbm, 96, rfl⟩
abbrev main_call0_call2_c_2 : Ref sig .tc := ⟨.hbm, 97, rfl⟩
abbrev main_call0_call2_v6 : Ref sig .tc := ⟨.hbm, 98, rfl⟩
abbrev main_call0_call2_v7 : Ref sig .tc := ⟨.hbm, 99, rfl⟩
abbrev main_call0_call2_v8 : Ref sig .tc := ⟨.hbm, 100, rfl⟩
abbrev main_call0_call2_v9 : Ref sig .tc := ⟨.hbm, 101, rfl⟩
abbrev main_call0_call2_v10 : Ref sig .tc := ⟨.hbm, 102, rfl⟩
abbrev main_call0_call2_v11 : Ref sig .tc := ⟨.hbm, 103, rfl⟩
abbrev main_call0_call2_c_3 : Ref sig .tc := ⟨.hbm, 104, rfl⟩
abbrev main_call0_call2_v12 : Ref sig .tc := ⟨.hbm, 105, rfl⟩
abbrev main_call0_call2_v13 : Ref sig .tc := ⟨.hbm, 106, rfl⟩
abbrev main_call0_call2_v14 : Ref sig .tc := ⟨.hbm, 107, rfl⟩
abbrev main_call0_call2_cst : Ref sig .tc := ⟨.hbm, 108, rfl⟩
abbrev main_call0_call2_v15 : Ref sig .tc := ⟨.hbm, 109, rfl⟩
abbrev main_call0_v39 : Ref sig .tc := ⟨.hbm, 110, rfl⟩
abbrev main_call0_cst_4 : Ref sig .tc := ⟨.hbm, 111, rfl⟩
abbrev main_call0_v40 : Ref sig .tc := ⟨.hbm, 112, rfl⟩
abbrev main_call0_v41 : Ref sig .tc := ⟨.hbm, 113, rfl⟩
abbrev main_call0_v42 : Ref sig .tc := ⟨.hbm, 114, rfl⟩
abbrev main_call0_v43 : Ref sig .tc := ⟨.hbm, 115, rfl⟩
abbrev main_call0_v44 : Ref sig .tc := ⟨.hbm, 116, rfl⟩
abbrev main_call0_v45 : Ref sig .tc := ⟨.hbm, 117, rfl⟩
abbrev main_call0_v46 : Ref sig .tc := ⟨.hbm, 118, rfl⟩
abbrev main_call0_v47 : Ref sig .tc := ⟨.hbm, 119, rfl⟩
abbrev main_call0_v48 : Ref sig .tc := ⟨.hbm, 120, rfl⟩
abbrev main_call0_v49 : Ref sig .tc := ⟨.hbm, 121, rfl⟩
abbrev main_call0_v50 : Ref sig .tc := ⟨.hbm, 122, rfl⟩
abbrev main_call0_v51 : Ref sig .tc := ⟨.hbm, 123, rfl⟩
abbrev main_call0_v52 : Ref sig .tc := ⟨.hbm, 124, rfl⟩
abbrev main_call0_v53 : Ref sig .tc := ⟨.hbm, 125, rfl⟩
abbrev main_call0_v54 : Ref sig .tc := ⟨.hbm, 126, rfl⟩
abbrev main_call0_v55_0 : Ref sig .tc := ⟨.hbm, 127, rfl⟩
abbrev main_call0_v55_1 : Ref sig .tc := ⟨.hbm, 128, rfl⟩
abbrev main_call0_call3_c : Ref sig .tc := ⟨.hbm, 129, rfl⟩
abbrev main_call0_call3_v0 : Ref sig .tc := ⟨.hbm, 130, rfl⟩
abbrev main_call0_call3_v1 : Ref sig .tc := ⟨.hbm, 131, rfl⟩
abbrev main_call0_call3_c_0 : Ref sig .tc := ⟨.hbm, 132, rfl⟩
abbrev main_call0_call3_v2 : Ref sig .tc := ⟨.hbm, 133, rfl⟩
abbrev main_call0_call3_v3 : Ref sig .tc := ⟨.hbm, 134, rfl⟩
abbrev main_call0_call3_v4 : Ref sig .tc := ⟨.hbm, 135, rfl⟩
abbrev main_call0_call3_v5 : Ref sig .tc := ⟨.hbm, 136, rfl⟩
abbrev main_call0_call3_c_1 : Ref sig .tc := ⟨.hbm, 137, rfl⟩
abbrev main_call0_call3_c_2 : Ref sig .tc := ⟨.hbm, 138, rfl⟩
abbrev main_call0_call3_v6 : Ref sig .tc := ⟨.hbm, 139, rfl⟩
abbrev main_call0_call3_v7 : Ref sig .tc := ⟨.hbm, 140, rfl⟩
abbrev main_call0_call3_v8 : Ref sig .tc := ⟨.hbm, 141, rfl⟩
abbrev main_call0_call3_v9 : Ref sig .tc := ⟨.hbm, 142, rfl⟩
abbrev main_call0_call3_v10 : Ref sig .tc := ⟨.hbm, 143, rfl⟩
abbrev main_call0_call3_v11 : Ref sig .tc := ⟨.hbm, 144, rfl⟩
abbrev main_call0_call3_c_3 : Ref sig .tc := ⟨.hbm, 145, rfl⟩
abbrev main_call0_call3_v12 : Ref sig .tc := ⟨.hbm, 146, rfl⟩
abbrev main_call0_call3_v13 : Ref sig .tc := ⟨.hbm, 147, rfl⟩
abbrev main_call0_call3_v14 : Ref sig .tc := ⟨.hbm, 148, rfl⟩
abbrev main_call0_call3_cst : Ref sig .tc := ⟨.hbm, 149, rfl⟩
abbrev main_call0_call3_v15 : Ref sig .tc := ⟨.hbm, 150, rfl⟩
abbrev main_call0_v56 : Ref sig .tc := ⟨.hbm, 151, rfl⟩
abbrev main_call0_cst_5 : Ref sig .tc := ⟨.hbm, 152, rfl⟩
abbrev main_call0_v57 : Ref sig .tc := ⟨.hbm, 153, rfl⟩
abbrev main_call0_v58 : Ref sig .tc := ⟨.hbm, 154, rfl⟩
abbrev main_call0_v59 : Ref sig .tc := ⟨.hbm, 155, rfl⟩
abbrev main_call0_v60 : Ref sig .tc := ⟨.hbm, 156, rfl⟩
abbrev main_call0_v61 : Ref sig .tc := ⟨.hbm, 157, rfl⟩
abbrev main_call0_v62 : Ref sig .tc := ⟨.hbm, 158, rfl⟩
abbrev main_call0_v63 : Ref sig .tc := ⟨.hbm, 159, rfl⟩
abbrev main_call0_v64 : Ref sig .tc := ⟨.hbm, 160, rfl⟩
abbrev main_call0_v65 : Ref sig .tc := ⟨.hbm, 161, rfl⟩
abbrev main_call0_v66 : Ref sig .tc := ⟨.hbm, 162, rfl⟩
abbrev main_call0_v67 : Ref sig .tc := ⟨.hbm, 163, rfl⟩
abbrev main_call0_v68 : Ref sig .tc := ⟨.hbm, 164, rfl⟩
abbrev main_call0_v69 : Ref sig .tc := ⟨.hbm, 165, rfl⟩
abbrev main_call0_v70 : Ref sig .tc := ⟨.hbm, 166, rfl⟩
abbrev main_call0_v71 : Ref sig .tc := ⟨.hbm, 167, rfl⟩
abbrev main_call0_v72_0 : Ref sig .tc := ⟨.hbm, 168, rfl⟩
abbrev main_call0_v72_1 : Ref sig .tc := ⟨.hbm, 169, rfl⟩
abbrev main_call0_call4_c : Ref sig .tc := ⟨.hbm, 170, rfl⟩
abbrev main_call0_call4_v0 : Ref sig .tc := ⟨.hbm, 171, rfl⟩
abbrev main_call0_call4_v1 : Ref sig .tc := ⟨.hbm, 172, rfl⟩
abbrev main_call0_call4_c_0 : Ref sig .tc := ⟨.hbm, 173, rfl⟩
abbrev main_call0_call4_v2 : Ref sig .tc := ⟨.hbm, 174, rfl⟩
abbrev main_call0_call4_v3 : Ref sig .tc := ⟨.hbm, 175, rfl⟩
abbrev main_call0_call4_v4 : Ref sig .tc := ⟨.hbm, 176, rfl⟩
abbrev main_call0_call4_v5 : Ref sig .tc := ⟨.hbm, 177, rfl⟩
abbrev main_call0_call4_c_1 : Ref sig .tc := ⟨.hbm, 178, rfl⟩
abbrev main_call0_call4_c_2 : Ref sig .tc := ⟨.hbm, 179, rfl⟩
abbrev main_call0_call4_v6 : Ref sig .tc := ⟨.hbm, 180, rfl⟩
abbrev main_call0_call4_v7 : Ref sig .tc := ⟨.hbm, 181, rfl⟩
abbrev main_call0_call4_v8 : Ref sig .tc := ⟨.hbm, 182, rfl⟩
abbrev main_call0_call4_v9 : Ref sig .tc := ⟨.hbm, 183, rfl⟩
abbrev main_call0_call4_v10 : Ref sig .tc := ⟨.hbm, 184, rfl⟩
abbrev main_call0_call4_v11 : Ref sig .tc := ⟨.hbm, 185, rfl⟩
abbrev main_call0_call4_c_3 : Ref sig .tc := ⟨.hbm, 186, rfl⟩
abbrev main_call0_call4_v12 : Ref sig .tc := ⟨.hbm, 187, rfl⟩
abbrev main_call0_call4_v13 : Ref sig .tc := ⟨.hbm, 188, rfl⟩
abbrev main_call0_call4_v14 : Ref sig .tc := ⟨.hbm, 189, rfl⟩
abbrev main_call0_call4_cst : Ref sig .tc := ⟨.hbm, 190, rfl⟩
abbrev main_call0_call4_v15 : Ref sig .tc := ⟨.hbm, 191, rfl⟩
abbrev main_call0_v73 : Ref sig .tc := ⟨.hbm, 192, rfl⟩
abbrev main_call0_cst_6 : Ref sig .tc := ⟨.hbm, 193, rfl⟩
abbrev main_call0_v74 : Ref sig .tc := ⟨.hbm, 194, rfl⟩
abbrev main_call0_v75 : Ref sig .tc := ⟨.hbm, 195, rfl⟩
abbrev main_call0_v76 : Ref sig .tc := ⟨.hbm, 196, rfl⟩
abbrev main_call0_v77 : Ref sig .tc := ⟨.hbm, 197, rfl⟩
abbrev main_call0_v78 : Ref sig .tc := ⟨.hbm, 198, rfl⟩
abbrev main_call0_v79 : Ref sig .tc := ⟨.hbm, 199, rfl⟩
abbrev main_call0_v80 : Ref sig .tc := ⟨.hbm, 200, rfl⟩
abbrev main_call0_v81 : Ref sig .tc := ⟨.hbm, 201, rfl⟩
abbrev main_call0_v82 : Ref sig .tc := ⟨.hbm, 202, rfl⟩
abbrev main_call0_v83 : Ref sig .tc := ⟨.hbm, 203, rfl⟩
abbrev main_call0_v84 : Ref sig .tc := ⟨.hbm, 204, rfl⟩
abbrev main_call0_v85 : Ref sig .tc := ⟨.hbm, 205, rfl⟩
abbrev main_call0_v86 : Ref sig .tc := ⟨.hbm, 206, rfl⟩
abbrev main_call0_v87 : Ref sig .tc := ⟨.hbm, 207, rfl⟩
abbrev main_call0_v88 : Ref sig .tc := ⟨.hbm, 208, rfl⟩
abbrev main_call0_v89 : Ref sig .tc := ⟨.hbm, 209, rfl⟩
abbrev main_call0_v90 : Ref sig .tc := ⟨.hbm, 210, rfl⟩
abbrev main_call0_v91 : Ref sig .tc := ⟨.hbm, 211, rfl⟩
abbrev main_call0_v92 : Ref sig .tc := ⟨.hbm, 212, rfl⟩
abbrev main_call0_v93 : Ref sig .tc := ⟨.hbm, 213, rfl⟩
abbrev main_call0_cst_7 : Ref sig .tc := ⟨.hbm, 214, rfl⟩
abbrev main_call0_v94 : Ref sig .tc := ⟨.hbm, 215, rfl⟩
abbrev main_call0_cst_8 : Ref sig .tc := ⟨.hbm, 216, rfl⟩
abbrev main_call0_v95 : Ref sig .tc := ⟨.hbm, 217, rfl⟩
abbrev main_call0_v96 : Ref sig .tc := ⟨.hbm, 218, rfl⟩
abbrev main_call0_v97 : Ref sig .tc := ⟨.hbm, 219, rfl⟩
abbrev main_call0_cst_9 : Ref sig .tc := ⟨.hbm, 220, rfl⟩
abbrev main_call0_v98 : Ref sig .tc := ⟨.hbm, 221, rfl⟩
abbrev main_call0_v99 : Ref sig .tc := ⟨.hbm, 222, rfl⟩
abbrev main_call0_v100 : Ref sig .tc := ⟨.hbm, 223, rfl⟩
abbrev main_call0_cst_10 : Ref sig .tc := ⟨.hbm, 224, rfl⟩
abbrev main_call0_call5_v0 : Ref sig .tc := ⟨.hbm, 225, rfl⟩
abbrev main_call0_call5_v1 : Ref sig .tc := ⟨.hbm, 226, rfl⟩
abbrev main_call0_v101 : Ref sig .tc := ⟨.hbm, 227, rfl⟩
abbrev main_call0_v102 : Ref sig .tc := ⟨.hbm, 228, rfl⟩
abbrev main_call0_v103 : Ref sig .tc := ⟨.hbm, 229, rfl⟩
abbrev main_call0_v104 : Ref sig .tc := ⟨.hbm, 230, rfl⟩
abbrev main_call0_v105 : Ref sig .tc := ⟨.hbm, 231, rfl⟩
abbrev main_call0_v106 : Ref sig .tc := ⟨.hbm, 232, rfl⟩
abbrev main_call0_v107 : Ref sig .tc := ⟨.hbm, 233, rfl⟩
abbrev main_call0_v108_0 : Ref sig .tc := ⟨.hbm, 234, rfl⟩
abbrev main_call0_v108_1 : Ref sig .tc := ⟨.hbm, 235, rfl⟩
abbrev main_call0_call6_c : Ref sig .tc := ⟨.hbm, 236, rfl⟩
abbrev main_call0_call6_v0 : Ref sig .tc := ⟨.hbm, 237, rfl⟩
abbrev main_call0_call6_v1 : Ref sig .tc := ⟨.hbm, 238, rfl⟩
abbrev main_call0_call6_c_0 : Ref sig .tc := ⟨.hbm, 239, rfl⟩
abbrev main_call0_call6_v2 : Ref sig .tc := ⟨.hbm, 240, rfl⟩
abbrev main_call0_call6_v3 : Ref sig .tc := ⟨.hbm, 241, rfl⟩
abbrev main_call0_call6_v4 : Ref sig .tc := ⟨.hbm, 242, rfl⟩
abbrev main_call0_call6_v5 : Ref sig .tc := ⟨.hbm, 243, rfl⟩
abbrev main_call0_call6_c_1 : Ref sig .tc := ⟨.hbm, 244, rfl⟩
abbrev main_call0_call6_c_2 : Ref sig .tc := ⟨.hbm, 245, rfl⟩
abbrev main_call0_call6_v6 : Ref sig .tc := ⟨.hbm, 246, rfl⟩
abbrev main_call0_call6_v7 : Ref sig .tc := ⟨.hbm, 247, rfl⟩
abbrev main_call0_call6_v8 : Ref sig .tc := ⟨.hbm, 248, rfl⟩
abbrev main_call0_call6_v9 : Ref sig .tc := ⟨.hbm, 249, rfl⟩
abbrev main_call0_call6_v10 : Ref sig .tc := ⟨.hbm, 250, rfl⟩
abbrev main_call0_call6_v11 : Ref sig .tc := ⟨.hbm, 251, rfl⟩
abbrev main_call0_call6_c_3 : Ref sig .tc := ⟨.hbm, 252, rfl⟩
abbrev main_call0_call6_v12 : Ref sig .tc := ⟨.hbm, 253, rfl⟩
abbrev main_call0_call6_v13 : Ref sig .tc := ⟨.hbm, 254, rfl⟩
abbrev main_call0_call6_v14 : Ref sig .tc := ⟨.hbm, 255, rfl⟩
abbrev main_call0_call6_cst : Ref sig .tc := ⟨.hbm, 256, rfl⟩
abbrev main_call0_call6_v15 : Ref sig .tc := ⟨.hbm, 257, rfl⟩
abbrev main_call0_v109 : Ref sig .tc := ⟨.hbm, 258, rfl⟩
abbrev main_call0_cst_11 : Ref sig .tc := ⟨.hbm, 259, rfl⟩
abbrev main_call0_v110 : Ref sig .tc := ⟨.hbm, 260, rfl⟩
abbrev main_call0_v111 : Ref sig .tc := ⟨.hbm, 261, rfl⟩
abbrev main_call0_v112 : Ref sig .tc := ⟨.hbm, 262, rfl⟩
abbrev main_call0_v113 : Ref sig .tc := ⟨.hbm, 263, rfl⟩
abbrev main_call0_v114 : Ref sig .tc := ⟨.hbm, 264, rfl⟩
abbrev main_call0_v115 : Ref sig .tc := ⟨.hbm, 265, rfl⟩
abbrev main_call0_v116 : Ref sig .tc := ⟨.hbm, 266, rfl⟩
abbrev main_call0_v117 : Ref sig .tc := ⟨.hbm, 267, rfl⟩
abbrev main_call0_v118 : Ref sig .tc := ⟨.hbm, 268, rfl⟩
abbrev main_call0_v119 : Ref sig .tc := ⟨.hbm, 269, rfl⟩
abbrev main_call0_v120 : Ref sig .tc := ⟨.hbm, 270, rfl⟩
abbrev main_call0_v121 : Ref sig .tc := ⟨.hbm, 271, rfl⟩
abbrev main_call0_v122 : Ref sig .tc := ⟨.hbm, 272, rfl⟩
abbrev main_call0_v123 : Ref sig .tc := ⟨.hbm, 273, rfl⟩
abbrev main_call0_v124 : Ref sig .tc := ⟨.hbm, 274, rfl⟩
abbrev main_call0_v125_0 : Ref sig .tc := ⟨.hbm, 275, rfl⟩
abbrev main_call0_v125_1 : Ref sig .tc := ⟨.hbm, 276, rfl⟩
abbrev main_call0_call7_c : Ref sig .tc := ⟨.hbm, 277, rfl⟩
abbrev main_call0_call7_v0 : Ref sig .tc := ⟨.hbm, 278, rfl⟩
abbrev main_call0_call7_v1 : Ref sig .tc := ⟨.hbm, 279, rfl⟩
abbrev main_call0_call7_c_0 : Ref sig .tc := ⟨.hbm, 280, rfl⟩
abbrev main_call0_call7_v2 : Ref sig .tc := ⟨.hbm, 281, rfl⟩
abbrev main_call0_call7_v3 : Ref sig .tc := ⟨.hbm, 282, rfl⟩
abbrev main_call0_call7_v4 : Ref sig .tc := ⟨.hbm, 283, rfl⟩
abbrev main_call0_call7_v5 : Ref sig .tc := ⟨.hbm, 284, rfl⟩
abbrev main_call0_call7_c_1 : Ref sig .tc := ⟨.hbm, 285, rfl⟩
abbrev main_call0_call7_c_2 : Ref sig .tc := ⟨.hbm, 286, rfl⟩
abbrev main_call0_call7_v6 : Ref sig .tc := ⟨.hbm, 287, rfl⟩
abbrev main_call0_call7_v7 : Ref sig .tc := ⟨.hbm, 288, rfl⟩
abbrev main_call0_call7_v8 : Ref sig .tc := ⟨.hbm, 289, rfl⟩
abbrev main_call0_call7_v9 : Ref sig .tc := ⟨.hbm, 290, rfl⟩
abbrev main_call0_call7_v10 : Ref sig .tc := ⟨.hbm, 291, rfl⟩
abbrev main_call0_call7_v11 : Ref sig .tc := ⟨.hbm, 292, rfl⟩
abbrev main_call0_call7_c_3 : Ref sig .tc := ⟨.hbm, 293, rfl⟩
abbrev main_call0_call7_v12 : Ref sig .tc := ⟨.hbm, 294, rfl⟩
abbrev main_call0_call7_v13 : Ref sig .tc := ⟨.hbm, 295, rfl⟩
abbrev main_call0_call7_v14 : Ref sig .tc := ⟨.hbm, 296, rfl⟩
abbrev main_call0_call7_cst : Ref sig .tc := ⟨.hbm, 297, rfl⟩
abbrev main_call0_call7_v15 : Ref sig .tc := ⟨.hbm, 298, rfl⟩
abbrev main_call0_v126 : Ref sig .tc := ⟨.hbm, 299, rfl⟩
abbrev main_call0_cst_12 : Ref sig .tc := ⟨.hbm, 300, rfl⟩
abbrev main_call0_v127 : Ref sig .tc := ⟨.hbm, 301, rfl⟩
abbrev main_call0_v128 : Ref sig .tc := ⟨.hbm, 302, rfl⟩
abbrev main_call0_v129 : Ref sig .tc := ⟨.hbm, 303, rfl⟩
abbrev main_call0_v130 : Ref sig .tc := ⟨.hbm, 304, rfl⟩
abbrev main_call0_v131 : Ref sig .tc := ⟨.hbm, 305, rfl⟩
abbrev main_call0_v132 : Ref sig .tc := ⟨.hbm, 306, rfl⟩
abbrev main_call0_v133 : Ref sig .tc := ⟨.hbm, 307, rfl⟩
abbrev main_call0_v134 : Ref sig .tc := ⟨.hbm, 308, rfl⟩
abbrev main_call0_v135 : Ref sig .tc := ⟨.hbm, 309, rfl⟩
abbrev main_call0_v136 : Ref sig .tc := ⟨.hbm, 310, rfl⟩
abbrev main_call0_v137 : Ref sig .tc := ⟨.hbm, 311, rfl⟩
abbrev main_call0_v138 : Ref sig .tc := ⟨.hbm, 312, rfl⟩
abbrev main_call0_v139 : Ref sig .tc := ⟨.hbm, 313, rfl⟩
abbrev main_call0_v140 : Ref sig .tc := ⟨.hbm, 314, rfl⟩
abbrev main_call0_v141 : Ref sig .tc := ⟨.hbm, 315, rfl⟩
abbrev main_call0_v142_0 : Ref sig .tc := ⟨.hbm, 316, rfl⟩
abbrev main_call0_v142_1 : Ref sig .tc := ⟨.hbm, 317, rfl⟩
abbrev main_call0_call8_c : Ref sig .tc := ⟨.hbm, 318, rfl⟩
abbrev main_call0_call8_v0 : Ref sig .tc := ⟨.hbm, 319, rfl⟩
abbrev main_call0_call8_v1 : Ref sig .tc := ⟨.hbm, 320, rfl⟩
abbrev main_call0_call8_c_0 : Ref sig .tc := ⟨.hbm, 321, rfl⟩
abbrev main_call0_call8_v2 : Ref sig .tc := ⟨.hbm, 322, rfl⟩
abbrev main_call0_call8_v3 : Ref sig .tc := ⟨.hbm, 323, rfl⟩
abbrev main_call0_call8_v4 : Ref sig .tc := ⟨.hbm, 324, rfl⟩
abbrev main_call0_call8_v5 : Ref sig .tc := ⟨.hbm, 325, rfl⟩
abbrev main_call0_call8_c_1 : Ref sig .tc := ⟨.hbm, 326, rfl⟩
abbrev main_call0_call8_c_2 : Ref sig .tc := ⟨.hbm, 327, rfl⟩
abbrev main_call0_call8_v6 : Ref sig .tc := ⟨.hbm, 328, rfl⟩
abbrev main_call0_call8_v7 : Ref sig .tc := ⟨.hbm, 329, rfl⟩
abbrev main_call0_call8_v8 : Ref sig .tc := ⟨.hbm, 330, rfl⟩
abbrev main_call0_call8_v9 : Ref sig .tc := ⟨.hbm, 331, rfl⟩
abbrev main_call0_call8_v10 : Ref sig .tc := ⟨.hbm, 332, rfl⟩
abbrev main_call0_call8_v11 : Ref sig .tc := ⟨.hbm, 333, rfl⟩
abbrev main_call0_call8_c_3 : Ref sig .tc := ⟨.hbm, 334, rfl⟩
abbrev main_call0_call8_v12 : Ref sig .tc := ⟨.hbm, 335, rfl⟩
abbrev main_call0_call8_v13 : Ref sig .tc := ⟨.hbm, 336, rfl⟩
abbrev main_call0_call8_v14 : Ref sig .tc := ⟨.hbm, 337, rfl⟩
abbrev main_call0_call8_cst : Ref sig .tc := ⟨.hbm, 338, rfl⟩
abbrev main_call0_call8_v15 : Ref sig .tc := ⟨.hbm, 339, rfl⟩
abbrev main_call0_v143 : Ref sig .tc := ⟨.hbm, 340, rfl⟩
abbrev main_call0_cst_13 : Ref sig .tc := ⟨.hbm, 341, rfl⟩
abbrev main_call0_v144 : Ref sig .tc := ⟨.hbm, 342, rfl⟩
abbrev main_call0_v145 : Ref sig .tc := ⟨.hbm, 343, rfl⟩
abbrev main_call0_v146 : Ref sig .tc := ⟨.hbm, 344, rfl⟩
abbrev main_call0_v147 : Ref sig .tc := ⟨.hbm, 345, rfl⟩
abbrev main_call0_v148 : Ref sig .tc := ⟨.hbm, 346, rfl⟩
abbrev main_call0_v149 : Ref sig .tc := ⟨.hbm, 347, rfl⟩
abbrev main_call0_v150 : Ref sig .tc := ⟨.hbm, 348, rfl⟩
abbrev main_call0_v151 : Ref sig .tc := ⟨.hbm, 349, rfl⟩
abbrev main_call0_v152 : Ref sig .tc := ⟨.hbm, 350, rfl⟩
abbrev main_call0_v153 : Ref sig .tc := ⟨.hbm, 351, rfl⟩
abbrev main_call0_v154 : Ref sig .tc := ⟨.hbm, 352, rfl⟩
abbrev main_call0_v155 : Ref sig .tc := ⟨.hbm, 353, rfl⟩
abbrev main_call0_v156 : Ref sig .tc := ⟨.hbm, 354, rfl⟩
abbrev main_call0_v157 : Ref sig .tc := ⟨.hbm, 355, rfl⟩
abbrev main_call0_v158 : Ref sig .tc := ⟨.hbm, 356, rfl⟩
abbrev main_call0_v159_0 : Ref sig .tc := ⟨.hbm, 357, rfl⟩
abbrev main_call0_v159_1 : Ref sig .tc := ⟨.hbm, 358, rfl⟩
abbrev main_call0_call9_c : Ref sig .tc := ⟨.hbm, 359, rfl⟩
abbrev main_call0_call9_v0 : Ref sig .tc := ⟨.hbm, 360, rfl⟩
abbrev main_call0_call9_v1 : Ref sig .tc := ⟨.hbm, 361, rfl⟩
abbrev main_call0_call9_c_0 : Ref sig .tc := ⟨.hbm, 362, rfl⟩
abbrev main_call0_call9_v2 : Ref sig .tc := ⟨.hbm, 363, rfl⟩
abbrev main_call0_call9_v3 : Ref sig .tc := ⟨.hbm, 364, rfl⟩
abbrev main_call0_call9_v4 : Ref sig .tc := ⟨.hbm, 365, rfl⟩
abbrev main_call0_call9_v5 : Ref sig .tc := ⟨.hbm, 366, rfl⟩
abbrev main_call0_call9_c_1 : Ref sig .tc := ⟨.hbm, 367, rfl⟩
abbrev main_call0_call9_c_2 : Ref sig .tc := ⟨.hbm, 368, rfl⟩
abbrev main_call0_call9_v6 : Ref sig .tc := ⟨.hbm, 369, rfl⟩
abbrev main_call0_call9_v7 : Ref sig .tc := ⟨.hbm, 370, rfl⟩
abbrev main_call0_call9_v8 : Ref sig .tc := ⟨.hbm, 371, rfl⟩
abbrev main_call0_call9_v9 : Ref sig .tc := ⟨.hbm, 372, rfl⟩
abbrev main_call0_call9_v10 : Ref sig .tc := ⟨.hbm, 373, rfl⟩
abbrev main_call0_call9_v11 : Ref sig .tc := ⟨.hbm, 374, rfl⟩
abbrev main_call0_call9_c_3 : Ref sig .tc := ⟨.hbm, 375, rfl⟩
abbrev main_call0_call9_v12 : Ref sig .tc := ⟨.hbm, 376, rfl⟩
abbrev main_call0_call9_v13 : Ref sig .tc := ⟨.hbm, 377, rfl⟩
abbrev main_call0_call9_v14 : Ref sig .tc := ⟨.hbm, 378, rfl⟩
abbrev main_call0_call9_cst : Ref sig .tc := ⟨.hbm, 379, rfl⟩
abbrev main_call0_call9_v15 : Ref sig .tc := ⟨.hbm, 380, rfl⟩
abbrev main_call0_v160 : Ref sig .tc := ⟨.hbm, 381, rfl⟩
abbrev main_call0_cst_14 : Ref sig .tc := ⟨.hbm, 382, rfl⟩
abbrev main_call0_v161 : Ref sig .tc := ⟨.hbm, 383, rfl⟩
abbrev main_call0_v162 : Ref sig .tc := ⟨.hbm, 384, rfl⟩
abbrev main_call0_v163 : Ref sig .tc := ⟨.hbm, 385, rfl⟩
abbrev main_call0_v164 : Ref sig .tc := ⟨.hbm, 386, rfl⟩
abbrev main_call0_v165 : Ref sig .tc := ⟨.hbm, 387, rfl⟩
abbrev main_call0_v166 : Ref sig .tc := ⟨.hbm, 388, rfl⟩
abbrev main_call0_v167 : Ref sig .tc := ⟨.hbm, 389, rfl⟩
abbrev main_call0_v168 : Ref sig .tc := ⟨.hbm, 390, rfl⟩
abbrev main_call0_v169 : Ref sig .tc := ⟨.hbm, 391, rfl⟩
abbrev main_call0_v170 : Ref sig .tc := ⟨.hbm, 392, rfl⟩
abbrev main_call0_v171 : Ref sig .tc := ⟨.hbm, 393, rfl⟩
abbrev main_call0_v172 : Ref sig .tc := ⟨.hbm, 394, rfl⟩
abbrev main_call0_v173 : Ref sig .tc := ⟨.hbm, 395, rfl⟩
abbrev main_call0_v174 : Ref sig .tc := ⟨.hbm, 396, rfl⟩
abbrev main_call0_c : Ref sig .tc := ⟨.hbm, 397, rfl⟩
abbrev main_call0_call10_v0 : Ref sig .tc := ⟨.hbm, 398, rfl⟩
abbrev main_call0_v175 : Ref sig .tc := ⟨.hbm, 399, rfl⟩
abbrev main_call0_v176 : Ref sig .tc := ⟨.hbm, 400, rfl⟩
abbrev main_call0_c_15 : Ref sig .tc := ⟨.hbm, 401, rfl⟩
abbrev main_call0_call11_v0 : Ref sig .tc := ⟨.hbm, 402, rfl⟩
abbrev main_call0_v177 : Ref sig .tc := ⟨.hbm, 403, rfl⟩
abbrev main_call0_c_16 : Ref sig .tc := ⟨.hbm, 404, rfl⟩
abbrev main_call0_call12_v0 : Ref sig .tc := ⟨.hbm, 405, rfl⟩
abbrev main_call0_v178 : Ref sig .tc := ⟨.hbm, 406, rfl⟩
abbrev main_call0_v179 : Ref sig .tc := ⟨.hbm, 407, rfl⟩
abbrev main_call0_v180 : Ref sig .tc := ⟨.hbm, 408, rfl⟩
abbrev main_call0_v181 : Ref sig .tc := ⟨.hbm, 409, rfl⟩
abbrev main_call0_v182 : Ref sig .tc := ⟨.hbm, 410, rfl⟩
abbrev main_v0 : Ref sig .tc := ⟨.hbm, 411, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg5_1 : Ref sig .tc := ⟨.vmem, 19, rfl⟩
abbrev cc1_stg6_0 : Ref sig .tc := ⟨.vmem, 20, rfl⟩
abbrev cc1_stg7_0 : Ref sig .tc := ⟨.vmem, 21, rfl⟩
abbrev cc1_stg7_1 : Ref sig .tc := ⟨.vmem, 22, rfl⟩
abbrev cc1_stg8_0 : Ref sig .tc := ⟨.vmem, 23, rfl⟩
abbrev cc1_stg8_1 : Ref sig .tc := ⟨.vmem, 24, rfl⟩
abbrev cc2_stg0_0 : Ref sig .tc := ⟨.vmem, 25, rfl⟩
abbrev cc2_stg0_1 : Ref sig .tc := ⟨.vmem, 26, rfl⟩
abbrev cc2_stg1_0 : Ref sig .tc := ⟨.vmem, 27, rfl⟩
abbrev cc2_stg1_1 : Ref sig .tc := ⟨.vmem, 28, rfl⟩
abbrev cc2_stg2_0 : Ref sig .tc := ⟨.vmem, 29, rfl⟩
abbrev cc2_stg3_0 : Ref sig .tc := ⟨.vmem, 30, rfl⟩
abbrev cc2_stg4_0 : Ref sig .tc := ⟨.vmem, 31, rfl⟩
abbrev cc2_stg5_0 : Ref sig .tc := ⟨.vmem, 32, rfl⟩
abbrev cc2_stg5_1 : Ref sig .tc := ⟨.vmem, 33, rfl⟩
abbrev cc2_stg6_0 : Ref sig .tc := ⟨.vmem, 34, rfl⟩
abbrev cc2_stg7_0 : Ref sig .tc := ⟨.vmem, 35, rfl⟩
abbrev cc2_stg7_1 : Ref sig .tc := ⟨.vmem, 36, rfl⟩
abbrev cc2_stg8_0 : Ref sig .tc := ⟨.vmem, 37, rfl⟩
abbrev cc2_stg8_1 : Ref sig .tc := ⟨.vmem, 38, rfl⟩
abbrev cc3_stg0_0 : Ref sig .tc := ⟨.vmem, 39, rfl⟩
abbrev cc3_stg0_1 : Ref sig .tc := ⟨.vmem, 40, rfl⟩
abbrev cc3_stg1_0 : Ref sig .tc := ⟨.vmem, 41, rfl⟩
abbrev cc3_stg1_1 : Ref sig .tc := ⟨.vmem, 42, rfl⟩
abbrev cc3_stg2_0 : Ref sig .tc := ⟨.vmem, 43, rfl⟩
abbrev cc3_stg3_0 : Ref sig .tc := ⟨.vmem, 44, rfl⟩
abbrev cc3_stg4_0 : Ref sig .tc := ⟨.vmem, 45, rfl⟩
abbrev cc3_stg5_0 : Ref sig .tc := ⟨.vmem, 46, rfl⟩
abbrev cc3_stg5_1 : Ref sig .tc := ⟨.vmem, 47, rfl⟩
abbrev cc3_stg6_0 : Ref sig .tc := ⟨.vmem, 48, rfl⟩
abbrev cc3_stg7_0 : Ref sig .tc := ⟨.vmem, 49, rfl⟩
abbrev cc3_stg7_1 : Ref sig .tc := ⟨.vmem, 50, rfl⟩
abbrev cc3_stg8_0 : Ref sig .tc := ⟨.vmem, 51, rfl⟩
abbrev cc3_stg8_1 : Ref sig .tc := ⟨.vmem, 52, rfl⟩
abbrev cc4_stg0_0 : Ref sig .tc := ⟨.vmem, 53, rfl⟩
abbrev cc4_stg0_1 : Ref sig .tc := ⟨.vmem, 54, rfl⟩
abbrev cc4_stg1_0 : Ref sig .tc := ⟨.vmem, 55, rfl⟩
abbrev cc4_stg1_1 : Ref sig .tc := ⟨.vmem, 56, rfl⟩
abbrev cc4_stg2_0 : Ref sig .tc := ⟨.vmem, 57, rfl⟩
abbrev cc4_stg3_0 : Ref sig .tc := ⟨.vmem, 58, rfl⟩
abbrev cc4_stg4_0 : Ref sig .tc := ⟨.vmem, 59, rfl⟩
abbrev cc4_stg5_0 : Ref sig .tc := ⟨.vmem, 60, rfl⟩
abbrev cc4_stg5_1 : Ref sig .tc := ⟨.vmem, 61, rfl⟩
abbrev cc4_stg6_0 : Ref sig .tc := ⟨.vmem, 62, rfl⟩
abbrev cc4_stg6_1 : Ref sig .tc := ⟨.vmem, 63, rfl⟩
abbrev cc5_stg0_0 : Ref sig .tc := ⟨.vmem, 64, rfl⟩
abbrev cc5_stg0_1 : Ref sig .tc := ⟨.vmem, 65, rfl⟩
abbrev cc5_stg1_0 : Ref sig .tc := ⟨.vmem, 66, rfl⟩
abbrev cc5_stg2_0 : Ref sig .tc := ⟨.vmem, 67, rfl⟩
abbrev cc5_stg3_0 : Ref sig .tc := ⟨.vmem, 68, rfl⟩
abbrev cc5_stg4_0 : Ref sig .tc := ⟨.vmem, 69, rfl⟩
abbrev cc5_stg4_1 : Ref sig .tc := ⟨.vmem, 70, rfl⟩
abbrev cc5_stg5_0 : Ref sig .tc := ⟨.vmem, 71, rfl⟩
abbrev cc5_stg5_1 : Ref sig .tc := ⟨.vmem, 72, rfl⟩
abbrev cc5_stg6_0 : Ref sig .tc := ⟨.vmem, 73, rfl⟩
abbrev cc5_stg6_1 : Ref sig .tc := ⟨.vmem, 74, rfl⟩
abbrev cc6_stg0_0 : Ref sig .tc := ⟨.vmem, 75, rfl⟩
abbrev cc6_stg0_1 : Ref sig .tc := ⟨.vmem, 76, rfl⟩
abbrev cc6_stg1_0 : Ref sig .tc := ⟨.vmem, 77, rfl⟩
abbrev cc6_stg1_1 : Ref sig .tc := ⟨.vmem, 78, rfl⟩
abbrev cc6_stg2_0 : Ref sig .tc := ⟨.vmem, 79, rfl⟩
abbrev cc6_stg3_0 : Ref sig .tc := ⟨.vmem, 80, rfl⟩
abbrev cc6_stg4_0 : Ref sig .tc := ⟨.vmem, 81, rfl⟩
abbrev cc6_stg5_0 : Ref sig .tc := ⟨.vmem, 82, rfl⟩
abbrev cc6_stg5_1 : Ref sig .tc := ⟨.vmem, 83, rfl⟩
abbrev cc6_stg6_0 : Ref sig .tc := ⟨.vmem, 84, rfl⟩
abbrev cc6_stg7_0 : Ref sig .tc := ⟨.vmem, 85, rfl⟩
abbrev cc6_stg7_1 : Ref sig .tc := ⟨.vmem, 86, rfl⟩
abbrev cc6_stg8_0 : Ref sig .tc := ⟨.vmem, 87, rfl⟩
abbrev cc6_stg8_1 : Ref sig .tc := ⟨.vmem, 88, rfl⟩
abbrev cc7_stg0_0 : Ref sig .tc := ⟨.vmem, 89, rfl⟩
abbrev cc7_stg0_1 : Ref sig .tc := ⟨.vmem, 90, rfl⟩
abbrev cc7_stg1_0 : Ref sig .tc := ⟨.vmem, 91, rfl⟩
abbrev cc7_stg1_1 : Ref sig .tc := ⟨.vmem, 92, rfl⟩
abbrev cc7_stg2_0 : Ref sig .tc := ⟨.vmem, 93, rfl⟩
abbrev cc7_stg3_0 : Ref sig .tc := ⟨.vmem, 94, rfl⟩
abbrev cc7_stg4_0 : Ref sig .tc := ⟨.vmem, 95, rfl⟩
abbrev cc7_stg5_0 : Ref sig .tc := ⟨.vmem, 96, rfl⟩
abbrev cc7_stg5_1 : Ref sig .tc := ⟨.vmem, 97, rfl⟩
abbrev cc7_stg6_0 : Ref sig .tc := ⟨.vmem, 98, rfl⟩
abbrev cc7_stg7_0 : Ref sig .tc := ⟨.vmem, 99, rfl⟩
abbrev cc7_stg7_1 : Ref sig .tc := ⟨.vmem, 100, rfl⟩
abbrev cc7_stg8_0 : Ref sig .tc := ⟨.vmem, 101, rfl⟩
abbrev cc7_stg8_1 : Ref sig .tc := ⟨.vmem, 102, rfl⟩
abbrev cc8_stg0_0 : Ref sig .tc := ⟨.vmem, 103, rfl⟩
abbrev cc8_stg0_1 : Ref sig .tc := ⟨.vmem, 104, rfl⟩
abbrev cc8_stg1_0 : Ref sig .tc := ⟨.vmem, 105, rfl⟩
abbrev cc8_stg1_1 : Ref sig .tc := ⟨.vmem, 106, rfl⟩
abbrev cc8_stg2_0 : Ref sig .tc := ⟨.vmem, 107, rfl⟩
abbrev cc8_stg3_0 : Ref sig .tc := ⟨.vmem, 108, rfl⟩
abbrev cc8_stg4_0 : Ref sig .tc := ⟨.vmem, 109, rfl⟩
abbrev cc8_stg5_0 : Ref sig .tc := ⟨.vmem, 110, rfl⟩
abbrev cc8_stg5_1 : Ref sig .tc := ⟨.vmem, 111, rfl⟩
abbrev cc8_stg6_0 : Ref sig .tc := ⟨.vmem, 112, rfl⟩
abbrev cc8_stg7_0 : Ref sig .tc := ⟨.vmem, 113, rfl⟩
abbrev cc8_stg7_1 : Ref sig .tc := ⟨.vmem, 114, rfl⟩
abbrev cc8_stg8_0 : Ref sig .tc := ⟨.vmem, 115, rfl⟩
abbrev cc8_stg8_1 : Ref sig .tc := ⟨.vmem, 116, rfl⟩
abbrev cc9_stg0_0 : Ref sig .tc := ⟨.vmem, 117, rfl⟩
abbrev cc9_stg0_1 : Ref sig .tc := ⟨.vmem, 118, rfl⟩
abbrev cc9_stg1_0 : Ref sig .tc := ⟨.vmem, 119, rfl⟩
abbrev cc9_stg1_1 : Ref sig .tc := ⟨.vmem, 120, rfl⟩
abbrev cc9_stg2_0 : Ref sig .tc := ⟨.vmem, 121, rfl⟩
abbrev cc9_stg3_0 : Ref sig .tc := ⟨.vmem, 122, rfl⟩
abbrev cc9_stg4_0 : Ref sig .tc := ⟨.vmem, 123, rfl⟩
abbrev cc9_stg5_0 : Ref sig .tc := ⟨.vmem, 124, rfl⟩
abbrev cc9_stg5_1 : Ref sig .tc := ⟨.vmem, 125, rfl⟩
abbrev cc9_stg6_0 : Ref sig .tc := ⟨.vmem, 126, rfl⟩
abbrev cc9_stg6_1 : Ref sig .tc := ⟨.vmem, 127, rfl⟩
abbrev cc10_stg0_0 : Ref sig .tc := ⟨.vmem, 128, rfl⟩
abbrev cc10_stg0_1 : Ref sig .tc := ⟨.vmem, 129, rfl⟩
abbrev cc10_stg1_0 : Ref sig .tc := ⟨.vmem, 130, rfl⟩
abbrev cc10_stg1_1 : Ref sig .tc := ⟨.vmem, 131, rfl⟩
abbrev cc10_stg2_0 : Ref sig .tc := ⟨.vmem, 132, rfl⟩
abbrev cc10_stg3_0 : Ref sig .tc := ⟨.vmem, 133, rfl⟩
abbrev cc10_stg4_0 : Ref sig .tc := ⟨.vmem, 134, rfl⟩
abbrev cc10_stg5_0 : Ref sig .tc := ⟨.vmem, 135, rfl⟩
abbrev cc10_stg5_1 : Ref sig .tc := ⟨.vmem, 136, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem3_0 : DmaSem sig := 16
abbrev cc1_sem4_0 : DmaSem sig := 17
abbrev cc1_sem5_0 : DmaSem sig := 18
abbrev cc1_sem5_1 : DmaSem sig := 19
abbrev cc1_sem6_0 : DmaSem sig := 20
abbrev cc1_sem7_0 : DmaSem sig := 21
abbrev cc1_sem7_1 : DmaSem sig := 22
abbrev cc1_sem8_0 : DmaSem sig := 23
abbrev cc1_sem8_1 : DmaSem sig := 24
abbrev cc2_sem0_0 : DmaSem sig := 25
abbrev cc2_sem0_1 : DmaSem sig := 26
abbrev cc2_sem1_0 : DmaSem sig := 27
abbrev cc2_sem1_1 : DmaSem sig := 28
abbrev cc2_sem2_0 : DmaSem sig := 29
abbrev cc2_sem3_0 : DmaSem sig := 30
abbrev cc2_sem4_0 : DmaSem sig := 31
abbrev cc2_sem5_0 : DmaSem sig := 32
abbrev cc2_sem5_1 : DmaSem sig := 33
abbrev cc2_sem6_0 : DmaSem sig := 34
abbrev cc2_sem7_0 : DmaSem sig := 35
abbrev cc2_sem7_1 : DmaSem sig := 36
abbrev cc2_sem8_0 : DmaSem sig := 37
abbrev cc2_sem8_1 : DmaSem sig := 38
abbrev cc3_sem0_0 : DmaSem sig := 39
abbrev cc3_sem0_1 : DmaSem sig := 40
abbrev cc3_sem1_0 : DmaSem sig := 41
abbrev cc3_sem1_1 : DmaSem sig := 42
abbrev cc3_sem2_0 : DmaSem sig := 43
abbrev cc3_sem3_0 : DmaSem sig := 44
abbrev cc3_sem4_0 : DmaSem sig := 45
abbrev cc3_sem5_0 : DmaSem sig := 46
abbrev cc3_sem5_1 : DmaSem sig := 47
abbrev cc3_sem6_0 : DmaSem sig := 48
abbrev cc3_sem7_0 : DmaSem sig := 49
abbrev cc3_sem7_1 : DmaSem sig := 50
abbrev cc3_sem8_0 : DmaSem sig := 51
abbrev cc3_sem8_1 : DmaSem sig := 52
abbrev cc4_sem0_0 : DmaSem sig := 53
abbrev cc4_sem0_1 : DmaSem sig := 54
abbrev cc4_sem1_0 : DmaSem sig := 55
abbrev cc4_sem1_1 : DmaSem sig := 56
abbrev cc4_sem2_0 : DmaSem sig := 57
abbrev cc4_sem3_0 : DmaSem sig := 58
abbrev cc4_sem4_0 : DmaSem sig := 59
abbrev cc4_sem5_0 : DmaSem sig := 60
abbrev cc4_sem5_1 : DmaSem sig := 61
abbrev cc4_sem6_0 : DmaSem sig := 62
abbrev cc4_sem6_1 : DmaSem sig := 63
abbrev cc5_sem0_0 : DmaSem sig := 64
abbrev cc5_sem0_1 : DmaSem sig := 65
abbrev cc5_sem1_0 : DmaSem sig := 66
abbrev cc5_sem2_0 : DmaSem sig := 67
abbrev cc5_sem3_0 : DmaSem sig := 68
abbrev cc5_sem4_0 : DmaSem sig := 69
abbrev cc5_sem4_1 : DmaSem sig := 70
abbrev cc5_sem5_0 : DmaSem sig := 71
abbrev cc5_sem5_1 : DmaSem sig := 72
abbrev cc5_sem6_0 : DmaSem sig := 73
abbrev cc5_sem6_1 : DmaSem sig := 74
abbrev cc6_sem0_0 : DmaSem sig := 75
abbrev cc6_sem0_1 : DmaSem sig := 76
abbrev cc6_sem1_0 : DmaSem sig := 77
abbrev cc6_sem1_1 : DmaSem sig := 78
abbrev cc6_sem2_0 : DmaSem sig := 79
abbrev cc6_sem3_0 : DmaSem sig := 80
abbrev cc6_sem4_0 : DmaSem sig := 81
abbrev cc6_sem5_0 : DmaSem sig := 82
abbrev cc6_sem5_1 : DmaSem sig := 83
abbrev cc6_sem6_0 : DmaSem sig := 84
abbrev cc6_sem7_0 : DmaSem sig := 85
abbrev cc6_sem7_1 : DmaSem sig := 86
abbrev cc6_sem8_0 : DmaSem sig := 87
abbrev cc6_sem8_1 : DmaSem sig := 88
abbrev cc7_sem0_0 : DmaSem sig := 89
abbrev cc7_sem0_1 : DmaSem sig := 90
abbrev cc7_sem1_0 : DmaSem sig := 91
abbrev cc7_sem1_1 : DmaSem sig := 92
abbrev cc7_sem2_0 : DmaSem sig := 93
abbrev cc7_sem3_0 : DmaSem sig := 94
abbrev cc7_sem4_0 : DmaSem sig := 95
abbrev cc7_sem5_0 : DmaSem sig := 96
abbrev cc7_sem5_1 : DmaSem sig := 97
abbrev cc7_sem6_0 : DmaSem sig := 98
abbrev cc7_sem7_0 : DmaSem sig := 99
abbrev cc7_sem7_1 : DmaSem sig := 100
abbrev cc7_sem8_0 : DmaSem sig := 101
abbrev cc7_sem8_1 : DmaSem sig := 102
abbrev cc8_sem0_0 : DmaSem sig := 103
abbrev cc8_sem0_1 : DmaSem sig := 104
abbrev cc8_sem1_0 : DmaSem sig := 105
abbrev cc8_sem1_1 : DmaSem sig := 106
abbrev cc8_sem2_0 : DmaSem sig := 107
abbrev cc8_sem3_0 : DmaSem sig := 108
abbrev cc8_sem4_0 : DmaSem sig := 109
abbrev cc8_sem5_0 : DmaSem sig := 110
abbrev cc8_sem5_1 : DmaSem sig := 111
abbrev cc8_sem6_0 : DmaSem sig := 112
abbrev cc8_sem7_0 : DmaSem sig := 113
abbrev cc8_sem7_1 : DmaSem sig := 114
abbrev cc8_sem8_0 : DmaSem sig := 115
abbrev cc8_sem8_1 : DmaSem sig := 116
abbrev cc9_sem0_0 : DmaSem sig := 117
abbrev cc9_sem0_1 : DmaSem sig := 118
abbrev cc9_sem1_0 : DmaSem sig := 119
abbrev cc9_sem1_1 : DmaSem sig := 120
abbrev cc9_sem2_0 : DmaSem sig := 121
abbrev cc9_sem3_0 : DmaSem sig := 122
abbrev cc9_sem4_0 : DmaSem sig := 123
abbrev cc9_sem5_0 : DmaSem sig := 124
abbrev cc9_sem5_1 : DmaSem sig := 125
abbrev cc9_sem6_0 : DmaSem sig := 126
abbrev cc9_sem6_1 : DmaSem sig := 127
abbrev cc10_sem0_0 : DmaSem sig := 128
abbrev cc10_sem0_1 : DmaSem sig := 129
abbrev cc10_sem1_0 : DmaSem sig := 130
abbrev cc10_sem1_1 : DmaSem sig := 131
abbrev cc10_sem2_0 : DmaSem sig := 132
abbrev cc10_sem3_0 : DmaSem sig := 133
abbrev cc10_sem4_0 : DmaSem sig := 134
abbrev cc10_sem5_0 : DmaSem sig := 135
abbrev cc10_sem5_1 : DmaSem sig := 136

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5000x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 1 → Memref sig .tc .vmem S128x128 .bf16 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S5000x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S5000x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_8 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 1 → Memref sig .tc .vmem S128x128 .bf16 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S5000x128 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev stage2_8 : Fin 2 → Memref sig .tc .vmem S5000x128 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_8 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 1 → Memref sig .tc .vmem S128x128 .bf16 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 2 → Memref sig .tc .vmem S5000x128 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

abbrev stage3_8 : Fin 2 → Memref sig .tc .vmem S5000x128 .f32 := fun | 0 => Memref.whole cc3_stg8_0 | 1 => Memref.whole cc3_stg8_1 | ⟨_ + 2, h⟩ => absurd h (Nat.not_lt.2 (Nat.le_add_left _ _))
abbrev sem3_8 : Fin 2 → DmaSem sig := fun | 0 => cc3_sem8_0 | 1 => cc3_sem8_1 | ⟨_ + 2, h⟩ => absurd h (Nat.not_lt.2 (Nat.le_add_left _ _))
abbrev reads3_8 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S5000x128 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev stage4_6 : Fin 2 → Memref sig .tc .vmem S5000x128 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_6 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x256 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S256x128 .bf16 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S128x128 .bf16 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S5000x1 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev stage5_5 : Fin 2 → Memref sig .tc .vmem S5000x128 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev stage5_6 : Fin 2 → Memref sig .tc .vmem S5000x128 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_6 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_7 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_8 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S5000x1 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S1x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S1x128 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x128 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 2 → Memref sig .tc .vmem S5000x128 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

abbrev stage6_6 : Fin 1 → Memref sig .tc .vmem S128x128 .bf16 := fun | 0 => Memref.whole cc6_stg6_0 | ⟨_ + 1, h⟩ => absurd h (Nat.not_lt.2 (Nat.le_add_left _ _))
abbrev sem6_6 : Fin 1 → DmaSem sig := fun | 0 => cc6_sem6_0 | ⟨_ + 1, h⟩ => absurd h (Nat.not_lt.2 (Nat.le_add_left _ _))
abbrev reads6_6 : Fin grid6.rank → Bool := ![false]

abbrev stage6_7 : Fin 2 → Memref sig .tc .vmem S5000x128 .f32 := fun | 0 => Memref.whole cc6_stg7_0 | 1 => Memref.whole cc6_stg7_1 | ⟨_ + 2, h⟩ => absurd h (Nat.not_lt.2 (Nat.le_add_left _ _))
abbrev sem6_7 : Fin 2 → DmaSem sig := fun | 0 => cc6_sem7_0 | 1 => cc6_sem7_1 | ⟨_ + 2, h⟩ => absurd h (Nat.not_lt.2 (Nat.le_add_left _ _))
abbrev reads6_7 : Fin grid6.rank → Bool := ![true]

abbrev stage6_8 : Fin 2 → Memref sig .tc .vmem S5000x128 .f32 := fun | 0 => Memref.whole cc6_stg8_0 | 1 => Memref.whole cc6_stg8_1 | ⟨_ + 2, h⟩ => absurd h (Nat.not_lt.2 (Nat.le_add_left _ _))
abbrev sem6_8 : Fin 2 → DmaSem sig := fun | 0 => cc6_sem8_0 | 1 => cc6_sem8_1 | ⟨_ + 2, h⟩ => absurd h (Nat.not_lt.2 (Nat.le_add_left _ _))
abbrev reads6_8 : Fin grid6.rank → Bool := ![true]

abbrev grid7 : Pipeline.Grid := ⟨1, ![10], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_6 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_7 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_8 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S5000x1 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 1 → Memref sig .tc .vmem S1x128 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S1x128 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S1x128 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 2 → Memref sig .tc .vmem S5000x128 .f32 := fun | 0 => Memref.whole cc7_stg5_0 | 1 => Memref.whole cc7_stg5_1 | ⟨_ + 2, h⟩ => absurd h (Nat.not_lt.2 (Nat.le_add_left _ _))
abbrev sem7_5 : Fin 2 → DmaSem sig := fun | 0 => cc7_sem5_0 | 1 => cc7_sem5_1 | ⟨_ + 2, h⟩ => absurd h (Nat.not_lt.2 (Nat.le_add_left _ _))
abbrev reads7_5 : Fin grid7.rank → Bool := ![true]

abbrev stage7_6 : Fin 1 → Memref sig .tc .vmem S128x128 .bf16 := fun | 0 => Memref.whole cc7_stg6_0 | ⟨_ + 1, h⟩ => absurd h (Nat.not_lt.2 (Nat.le_add_left _ _))
abbrev sem7_6 : Fin 1 → DmaSem sig := fun | 0 => cc7_sem6_0 | ⟨_ + 1, h⟩ => absurd h (Nat.not_lt.2 (Nat.le_add_left _ _))
abbrev reads7_6 : Fin grid7.rank → Bool := ![false]

abbrev stage7_7 : Fin 2 → Memref sig .tc .vmem S5000x128 .f32 := fun | 0 => Memref.whole cc7_stg7_0 | 1 => Memref.whole cc7_stg7_1 | ⟨_ + 2, h⟩ => absurd h (Nat.not_lt.2 (Nat.le_add_left _ _))
abbrev sem7_7 : Fin 2 → DmaSem sig := fun | 0 => cc7_sem7_0 | 1 => cc7_sem7_1 | ⟨_ + 2, h⟩ => absurd h (Nat.not_lt.2 (Nat.le_add_left _ _))
abbrev reads7_7 : Fin grid7.rank → Bool := ![true]

abbrev stage7_8 : Fin 2 → Memref sig .tc .vmem S5000x128 .f32 := fun | 0 => Memref.whole cc7_stg8_0 | 1 => Memref.whole cc7_stg8_1 | ⟨_ + 2, h⟩ => absurd h (Nat.not_lt.2 (Nat.le_add_left _ _))
abbrev sem7_8 : Fin 2 → DmaSem sig := fun | 0 => cc7_sem8_0 | 1 => cc7_sem8_1 | ⟨_ + 2, h⟩ => absurd h (Nat.not_lt.2 (Nat.le_add_left _ _))
abbrev reads7_8 : Fin grid7.rank → Bool := ![true]

abbrev grid8 : Pipeline.Grid := ⟨1, ![10], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_5 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_6 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_7 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_8 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S5000x128 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S5000x1 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 1 → Memref sig .tc .vmem S1x128 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S1x128 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S1x128 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 2 → Memref sig .tc .vmem S5000x128 .f32 := fun | 0 => Memref.whole cc8_stg5_0 | 1 => Memref.whole cc8_stg5_1 | ⟨_ + 2, h⟩ => absurd h (Nat.not_lt.2 (Nat.le_add_left _ _))
abbrev sem8_5 : Fin 2 → DmaSem sig := fun | 0 => cc8_sem5_0 | 1 => cc8_sem5_1 | ⟨_ + 2, h⟩ => absurd h (Nat.not_lt.2 (Nat.le_add_left _ _))
abbrev reads8_5 : Fin grid8.rank → Bool := ![true]

abbrev stage8_6 : Fin 1 → Memref sig .tc .vmem S128x128 .bf16 := fun | 0 => Memref.whole cc8_stg6_0 | ⟨_ + 1, h⟩ => absurd h (Nat.not_lt.2 (Nat.le_add_left _ _))
abbrev sem8_6 : Fin 1 → DmaSem sig := fun | 0 => cc8_sem6_0 | ⟨_ + 1, h⟩ => absurd h (Nat.not_lt.2 (Nat.le_add_left _ _))
abbrev reads8_6 : Fin grid8.rank → Bool := ![false]

abbrev stage8_7 : Fin 2 → Memref sig .tc .vmem S5000x128 .f32 := fun | 0 => Memref.whole cc8_stg7_0 | 1 => Memref.whole cc8_stg7_1 | ⟨_ + 2, h⟩ => absurd h (Nat.not_lt.2 (Nat.le_add_left _ _))
abbrev sem8_7 : Fin 2 → DmaSem sig := fun | 0 => cc8_sem7_0 | 1 => cc8_sem7_1 | ⟨_ + 2, h⟩ => absurd h (Nat.not_lt.2 (Nat.le_add_left _ _))
abbrev reads8_7 : Fin grid8.rank → Bool := ![true]

abbrev stage8_8 : Fin 2 → Memref sig .tc .vmem S5000x128 .f32 := fun | 0 => Memref.whole cc8_stg8_0 | 1 => Memref.whole cc8_stg8_1 | ⟨_ + 2, h⟩ => absurd h (Nat.not_lt.2 (Nat.le_add_left _ _))
abbrev sem8_8 : Fin 2 → DmaSem sig := fun | 0 => cc8_sem8_0 | 1 => cc8_sem8_1 | ⟨_ + 2, h⟩ => absurd h (Nat.not_lt.2 (Nat.le_add_left _ _))
abbrev reads8_8 : Fin grid8.rank → Bool := ![true]

abbrev grid9 : Pipeline.Grid := ⟨1, ![10], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_4 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_5 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_6 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S5000x128 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 2 → Memref sig .tc .vmem S5000x1 .f32 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![true]

abbrev stage9_2 : Fin 1 → Memref sig .tc .vmem S1x128 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 1 → Memref sig .tc .vmem S1x128 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false]

abbrev stage9_4 : Fin 1 → Memref sig .tc .vmem S1x128 .f32 := fun | 0 => Memref.whole cc9_stg4_0 | ⟨_ + 1, h⟩ => absurd h (Nat.not_lt.2 (Nat.le_add_left _ _))
abbrev sem9_4 : Fin 1 → DmaSem sig := fun | 0 => cc9_sem4_0 | ⟨_ + 1, h⟩ => absurd h (Nat.not_lt.2 (Nat.le_add_left _ _))
abbrev reads9_4 : Fin grid9.rank → Bool := ![false]

abbrev stage9_5 : Fin 2 → Memref sig .tc .vmem S5000x128 .f32 := fun | 0 => Memref.whole cc9_stg5_0 | 1 => Memref.whole cc9_stg5_1 | ⟨_ + 2, h⟩ => absurd h (Nat.not_lt.2 (Nat.le_add_left _ _))
abbrev sem9_5 : Fin 2 → DmaSem sig := fun | 0 => cc9_sem5_0 | 1 => cc9_sem5_1 | ⟨_ + 2, h⟩ => absurd h (Nat.not_lt.2 (Nat.le_add_left _ _))
abbrev reads9_5 : Fin grid9.rank → Bool := ![true]

abbrev stage9_6 : Fin 2 → Memref sig .tc .vmem S5000x128 .f32 := fun | 0 => Memref.whole cc9_stg6_0 | 1 => Memref.whole cc9_stg6_1 | ⟨_ + 2, h⟩ => absurd h (Nat.not_lt.2 (Nat.le_add_left _ _))
abbrev sem9_6 : Fin 2 → DmaSem sig := fun | 0 => cc9_sem6_0 | 1 => cc9_sem6_1 | ⟨_ + 2, h⟩ => absurd h (Nat.not_lt.2 (Nat.le_add_left _ _))
abbrev reads9_6 : Fin grid9.rank → Bool := ![true]

abbrev grid10 : Pipeline.Grid := ⟨1, ![10], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_2 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_3 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_4 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_5 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage10_0 : Fin 2 → Memref sig .tc .vmem S5000x128 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 2 → Memref sig .tc .vmem S5000x128 .f32 := fun | 0 => Memref.whole cc10_stg1_0 | 1 => Memref.whole cc10_stg1_1 | ⟨_ + 2, h⟩ => absurd h (Nat.not_lt.2 (Nat.le_add_left _ _))
abbrev sem10_1 : Fin 2 → DmaSem sig := fun | 0 => cc10_sem1_0 | 1 => cc10_sem1_1 | ⟨_ + 2, h⟩ => absurd h (Nat.not_lt.2 (Nat.le_add_left _ _))
abbrev reads10_1 : Fin grid10.rank → Bool := ![true]

abbrev stage10_2 : Fin 1 → Memref sig .tc .vmem S128x128 .bf16 := fun | 0 => Memref.whole cc10_stg2_0 | ⟨_ + 1, h⟩ => absurd h (Nat.not_lt.2 (Nat.le_add_left _ _))
abbrev sem10_2 : Fin 1 → DmaSem sig := fun | 0 => cc10_sem2_0 | ⟨_ + 1, h⟩ => absurd h (Nat.not_lt.2 (Nat.le_add_left _ _))
abbrev reads10_2 : Fin grid10.rank → Bool := ![false]

abbrev stage10_3 : Fin 1 → Memref sig .tc .vmem S128x128 .bf16 := fun | 0 => Memref.whole cc10_stg3_0 | ⟨_ + 1, h⟩ => absurd h (Nat.not_lt.2 (Nat.le_add_left _ _))
abbrev sem10_3 : Fin 1 → DmaSem sig := fun | 0 => cc10_sem3_0 | ⟨_ + 1, h⟩ => absurd h (Nat.not_lt.2 (Nat.le_add_left _ _))
abbrev reads10_3 : Fin grid10.rank → Bool := ![false]

abbrev stage10_4 : Fin 1 → Memref sig .tc .vmem S1x128 .f32 := fun | 0 => Memref.whole cc10_stg4_0 | ⟨_ + 1, h⟩ => absurd h (Nat.not_lt.2 (Nat.le_add_left _ _))
abbrev sem10_4 : Fin 1 → DmaSem sig := fun | 0 => cc10_sem4_0 | ⟨_ + 1, h⟩ => absurd h (Nat.not_lt.2 (Nat.le_add_left _ _))
abbrev reads10_4 : Fin grid10.rank → Bool := ![false]

abbrev stage10_5 : Fin 2 → Memref sig .tc .vmem S5000x128 .f32 := fun | 0 => Memref.whole cc10_stg5_0 | 1 => Memref.whole cc10_stg5_1 | ⟨_ + 2, h⟩ => absurd h (Nat.not_lt.2 (Nat.le_add_left _ _))
abbrev sem10_5 : Fin 2 → DmaSem sig := fun | 0 => cc10_sem5_0 | 1 => cc10_sem5_1 | ⟨_ + 2, h⟩ => absurd h (Nat.not_lt.2 (Nat.le_add_left _ _))
abbrev reads10_5 : Fin grid10.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  shapeCasts_S50000_S50000x1 : S50000.ShapeCasts S50000x1
  slices_S4x128x128_S1x128x128_0_0_0 : S4x128x128.Slices ![0, 0, 0] S1x128x128
  shapeCasts_S1x128x128_S128x128 : S1x128x128.ShapeCasts S128x128
  shapeCasts_S128_S1x128 : S128.ShapeCasts S1x128
  bitsLt_bf16_f32 : FTy.bits .bf16 < FTy.bits .f32
  bcast_S_S850000x1 : S_.BroadcastsInDim S850000x1 (![] : Fin 0 → Fin S850000x1.rank)
  bcast_S1_S1x1_1 : S1.BroadcastsInDim S1x1 (![1] : Fin 1 → Fin S1x1.rank)
  bcast_S1x1_S850000x1_0_1 : S1x1.BroadcastsInDim S850000x1 (![0, 1] : Fin 2 → Fin S850000x1.rank)
  reducesTo_S850000x1_S850000_d1 : S850000x1.ReducesTo [1] S850000
  h_S_ : 0 < S_.numel
  bcast_S850000_S850000x128_0 : S850000.BroadcastsInDim S850000x128 (![0] : Fin 1 → Fin S850000x128.rank)
  bcast_S_S850000x128 : S_.BroadcastsInDim S850000x128 (![] : Fin 0 → Fin S850000x128.rank)
  bcast_S_S50000x128 : S_.BroadcastsInDim S50000x128 (![] : Fin 0 → Fin S50000x128.rank)
  slices_S4x128_S1x128_0_0 : S4x128.Slices ![0, 0] S1x128
  shapeCasts_S1x128_S128 : S1x128.ShapeCasts S128
  slices_S4x128x128_S1x128x128_1_0_0 : S4x128x128.Slices ![1, 0, 0] S1x128x128
  slices_S4x128_S1x128_1_0 : S4x128.Slices ![1, 0] S1x128
  slices_S4x128x128_S1x128x128_2_0_0 : S4x128x128.Slices ![2, 0, 0] S1x128x128
  slices_S4x128_S1x128_2_0 : S4x128.Slices ![2, 0] S1x128
  slices_S4x128x128_S1x128x128_3_0_0 : S4x128x128.Slices ![3, 0, 0] S1x128x128
  slices_S4x128_S1x128_3_0 : S4x128.Slices ![3, 0] S1x128
  slices_S256x10_S128x10_0_0 : S256x10.Slices ![0, 0] S128x10
  pads_S128x10_S128x128_000_01180 : S128x10.Pads (![0, 0] : Fin 2 → Nat) ![0, 118] ![0, 0] S128x128
  slices_S256x10_S128x10_128_0 : S256x10.Slices ![128, 0] S128x10
  pads_S10_S128_01180 : S10.Pads (![0] : Fin 1 → Nat) ![118] ![0] S128
  slices_S50000x128_S50000x10_0_0 : S50000x128.Slices ![0, 0] S50000x10
  inb_S5000x256_S5000x256_0_0 : ∀ a, (![0, 0] : Fin 2 → Nat) a + S5000x256.size a ≤ S5000x256.size a
  h_S5000x256 : 0 < S5000x256.numel
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  shapeCasts_S5000x128_S5000x128 : S5000x128.ShapeCasts S5000x128
  reduces_S5000x128_S5000 : S5000x128.Reduces [1] S5000
  shapeCasts_S5000_S5000x1 : S5000.ShapeCasts S5000x1
  scatter_S50000_S850000x1_S850000_n_0_0_1_wf : ScatterDims.WF S50000 S850000x1 S850000 [] [0] [0] 1
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S5000x256_S256x128_S5000x128_1_0_0_1_n_n_wf : DotDims.WF S5000x256 S256x128 S5000x128 [1] [0] [0] [1] [] []
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S50000x256.size a
  hwx0_0 : ∀ i : grid0.Coords, EltTy.bits .f32 = 32 ∨ (Rect.block (s := S50000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .bf16 = 32 ∨ (Rect.block (s := S256x128) S256x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .bf16 = 32 ∨ (Rect.block (s := S128x128) S128x128.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x1.size a ≤ S50000x1.size a
  hwx0_4 : ∀ i : grid0.Coords, EltTy.bits .f32 = 32 ∨ (Rect.block (s := S50000x1) S5000x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S50000x128.size a
  hwx0_5 : ∀ i : grid0.Coords, EltTy.bits .f32 = 32 ∨ (Rect.block (s := S50000x128) S5000x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S50000x128.size a
  hwx0_6 : ∀ i : grid0.Coords, EltTy.bits .f32 = 32 ∨ (Rect.block (s := S50000x128) S5000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S50000x1.size a
  hwx1_1 : ∀ i : grid1.Coords, EltTy.bits .f32 = 32 ∨ (Rect.block (s := S50000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S50000x128.size a
  hwx1_5 : ∀ i : grid1.Coords, EltTy.bits .f32 = 32 ∨ (Rect.block (s := S50000x128) S5000x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128x128.size a ≤ S128x128.size a
  hwx1_6 : ∀ i : grid1.Coords, EltTy.bits .bf16 = 32 ∨ (Rect.block (s := S128x128) S128x128.size (cc1_transform_6 i) (hinb1_6 i)).WholeWords (EltTy.packing .bf16)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S5000x128.size a ≤ S50000x128.size a
  hwx1_7 : ∀ i : grid1.Coords, EltTy.bits .f32 = 32 ∨ (Rect.block (s := S50000x128) S5000x128.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S5000x128.size a ≤ S50000x128.size a
  hwx1_8 : ∀ i : grid1.Coords, EltTy.bits .f32 = 32 ∨ (Rect.block (s := S50000x128) S5000x128.size (cc1_transform_8 i) (hinb1_8 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S50000x1.size a
  hwx2_1 : ∀ i : grid2.Coords, EltTy.bits .f32 = 32 ∨ (Rect.block (s := S50000x1) S5000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S50000x128.size a
  hwx2_5 : ∀ i : grid2.Coords, EltTy.bits .f32 = 32 ∨ (Rect.block (s := S50000x128) S5000x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S128x128.size a ≤ S128x128.size a
  hwx2_6 : ∀ i : grid2.Coords, EltTy.bits .bf16 = 32 ∨ (Rect.block (s := S128x128) S128x128.size (cc2_transform_6 i) (hinb2_6 i)).WholeWords (EltTy.packing .bf16)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S5000x128.size a ≤ S50000x128.size a
  hwx2_7 : ∀ i : grid2.Coords, EltTy.bits .f32 = 32 ∨ (Rect.block (s := S50000x128) S5000x128.size (cc2_transform_7 i) (hinb2_7 i)).WholeWords (EltTy.packing .f32)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S5000x128.size a ≤ S50000x128.size a
  hwx2_8 : ∀ i : grid2.Coords, EltTy.bits .f32 = 32 ∨ (Rect.block (s := S50000x128) S5000x128.size (cc2_transform_8 i) (hinb2_8 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x1.size a ≤ S50000x1.size a
  hwx3_1 : ∀ i : grid3.Coords, EltTy.bits .f32 = 32 ∨ (Rect.block (s := S50000x1) S5000x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x128.size a ≤ S50000x128.size a
  hwx3_5 : ∀ i : grid3.Coords, EltTy.bits .f32 = 32 ∨ (Rect.block (s := S50000x128) S5000x128.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S128x128.size a ≤ S128x128.size a
  hwx3_6 : ∀ i : grid3.Coords, EltTy.bits .bf16 = 32 ∨ (Rect.block (s := S128x128) S128x128.size (cc3_transform_6 i) (hinb3_6 i)).WholeWords (EltTy.packing .bf16)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S5000x128.size a ≤ S50000x128.size a
  hwx3_7 : ∀ i : grid3.Coords, EltTy.bits .f32 = 32 ∨ (Rect.block (s := S50000x128) S5000x128.size (cc3_transform_7 i) (hinb3_7 i)).WholeWords (EltTy.packing .f32)
  hstage3_8 : ∀ j, (stage3_8 j).IsWhole
  nbuf3_8 : grid3.bufCount reads3_8 false = 2
  hreads3_8 : ∀ i i' : grid3.Coords, (∀ a, reads3_8 a = true → i a = i' a) → cc3_transform_8 i = cc3_transform_8 i'
  hinb3_8 : ∀ (i : grid3.Coords) a, (cc3_transform_8 i a + 1) * S5000x128.size a ≤ S50000x128.size a
  hwx3_8 : ∀ i : grid3.Coords, EltTy.bits .f32 = 32 ∨ (Rect.block (s := S50000x128) S5000x128.size (cc3_transform_8 i) (hinb3_8 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x1.size a ≤ S50000x1.size a
  hwx4_1 : ∀ i : grid4.Coords, EltTy.bits .f32 = 32 ∨ (Rect.block (s := S50000x1) S5000x1.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x128.size a ≤ S1x128.size a
  hwx4_4 : ∀ i : grid4.Coords, EltTy.bits .f32 = 32 ∨ (Rect.block (s := S1x128) S1x128.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S5000x128.size a ≤ S50000x128.size a
  hwx4_5 : ∀ i : grid4.Coords, EltTy.bits .f32 = 32 ∨ (Rect.block (s := S50000x128) S5000x128.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S5000x128.size a ≤ S50000x128.size a
  hwx4_6 : ∀ i : grid4.Coords, EltTy.bits .f32 = 32 ∨ (Rect.block (s := S50000x128) S5000x128.size (cc4_transform_6 i) (hinb4_6 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x256.size a ≤ S50000x256.size a
  hwx5_0 : ∀ i : grid5.Coords, EltTy.bits .f32 = 32 ∨ (Rect.block (s := S50000x256) S5000x256.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S256x128.size a ≤ S256x128.size a
  hwx5_1 : ∀ i : grid5.Coords, EltTy.bits .bf16 = 32 ∨ (Rect.block (s := S256x128) S256x128.size (cc5_transform_1 i) (hinb5_1 i)).WholeWords (EltTy.packing .bf16)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S128x128.size a ≤ S128x128.size a
  hwx5_3 : ∀ i : grid5.Coords, EltTy.bits .bf16 = 32 ∨ (Rect.block (s := S128x128) S128x128.size (cc5_transform_3 i) (hinb5_3 i)).WholeWords (EltTy.packing .bf16)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S5000x1.size a ≤ S50000x1.size a
  hwx5_4 : ∀ i : grid5.Coords, EltTy.bits .f32 = 32 ∨ (Rect.block (s := S50000x1) S5000x1.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S5000x128.size a ≤ S50000x128.size a
  hwx5_5 : ∀ i : grid5.Coords, EltTy.bits .f32 = 32 ∨ (Rect.block (s := S50000x128) S5000x128.size (cc5_transform_5 i) (hinb5_5 i)).WholeWords (EltTy.packing .f32)
  hstage5_6 : ∀ j, (stage5_6 j).IsWhole
  nbuf5_6 : grid5.bufCount reads5_6 false = 2
  hreads5_6 : ∀ i i' : grid5.Coords, (∀ a, reads5_6 a = true → i a = i' a) → cc5_transform_6 i = cc5_transform_6 i'
  hinb5_6 : ∀ (i : grid5.Coords) a, (cc5_transform_6 i a + 1) * S5000x128.size a ≤ S50000x128.size a
  hwx5_6 : ∀ i : grid5.Coords, EltTy.bits .f32 = 32 ∨ (Rect.block (s := S50000x128) S5000x128.size (cc5_transform_6 i) (hinb5_6 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S50000x128.size a
  hwx6_0 : ∀ i : grid6.Coords, EltTy.bits .f32 = 32 ∨ (Rect.block (s := S50000x128) S5000x128.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S5000x1.size a ≤ S50000x1.size a
  hwx6_1 : ∀ i : grid6.Coords, EltTy.bits .f32 = 32 ∨ (Rect.block (s := S50000x1) S5000x1.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x128.size a ≤ S1x128.size a
  hwx6_2 : ∀ i : grid6.Coords, EltTy.bits .f32 = 32 ∨ (Rect.block (s := S1x128) S1x128.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x128.size a ≤ S1x128.size a
  hwx6_3 : ∀ i : grid6.Coords, EltTy.bits .f32 = 32 ∨ (Rect.block (s := S1x128) S1x128.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x128.size a ≤ S1x128.size a
  hwx6_4 : ∀ i : grid6.Coords, EltTy.bits .f32 = 32 ∨ (Rect.block (s := S1x128) S1x128.size (cc6_transform_4 i) (hinb6_4 i)).WholeWords (EltTy.packing .f32)
  hstage6_5 : ∀ j, (stage6_5 j).IsWhole
  nbuf6_5 : grid6.bufCount reads6_5 false = 2
  hreads6_5 : ∀ i i' : grid6.Coords, (∀ a, reads6_5 a = true → i a = i' a) → cc6_transform_5 i = cc6_transform_5 i'
  hinb6_5 : ∀ (i : grid6.Coords) a, (cc6_transform_5 i a + 1) * S5000x128.size a ≤ S50000x128.size a
  hwx6_5 : ∀ i : grid6.Coords, EltTy.bits .f32 = 32 ∨ (Rect.block (s := S50000x128) S5000x128.size (cc6_transform_5 i) (hinb6_5 i)).WholeWords (EltTy.packing .f32)
  hstage6_6 : ∀ j, (stage6_6 j).IsWhole
  nbuf6_6 : grid6.bufCount reads6_6 true = 1
  hreads6_6 : ∀ i i' : grid6.Coords, (∀ a, reads6_6 a = true → i a = i' a) → cc6_transform_6 i = cc6_transform_6 i'
  hinb6_6 : ∀ (i : grid6.Coords) a, (cc6_transform_6 i a + 1) * S128x128.size a ≤ S128x128.size a
  hwx6_6 : ∀ i : grid6.Coords, EltTy.bits .bf16 = 32 ∨ (Rect.block (s := S128x128) S128x128.size (cc6_transform_6 i) (hinb6_6 i)).WholeWords (EltTy.packing .bf16)
  hstage6_7 : ∀ j, (stage6_7 j).IsWhole
  nbuf6_7 : grid6.bufCount reads6_7 false = 2
  hreads6_7 : ∀ i i' : grid6.Coords, (∀ a, reads6_7 a = true → i a = i' a) → cc6_transform_7 i = cc6_transform_7 i'
  hinb6_7 : ∀ (i : grid6.Coords) a, (cc6_transform_7 i a + 1) * S5000x128.size a ≤ S50000x128.size a
  hwx6_7 : ∀ i : grid6.Coords, EltTy.bits .f32 = 32 ∨ (Rect.block (s := S50000x128) S5000x128.size (cc6_transform_7 i) (hinb6_7 i)).WholeWords (EltTy.packing .f32)
  hstage6_8 : ∀ j, (stage6_8 j).IsWhole
  nbuf6_8 : grid6.bufCount reads6_8 false = 2
  hreads6_8 : ∀ i i' : grid6.Coords, (∀ a, reads6_8 a = true → i a = i' a) → cc6_transform_8 i = cc6_transform_8 i'
  hinb6_8 : ∀ (i : grid6.Coords) a, (cc6_transform_8 i a + 1) * S5000x128.size a ≤ S50000x128.size a
  hwx6_8 : ∀ i : grid6.Coords, EltTy.bits .f32 = 32 ∨ (Rect.block (s := S50000x128) S5000x128.size (cc6_transform_8 i) (hinb6_8 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x128.size a ≤ S50000x128.size a
  hwx7_0 : ∀ i : grid7.Coords, EltTy.bits .f32 = 32 ∨ (Rect.block (s := S50000x128) S5000x128.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S5000x1.size a ≤ S50000x1.size a
  hwx7_1 : ∀ i : grid7.Coords, EltTy.bits .f32 = 32 ∨ (Rect.block (s := S50000x1) S5000x1.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x128.size a ≤ S1x128.size a
  hwx7_2 : ∀ i : grid7.Coords, EltTy.bits .f32 = 32 ∨ (Rect.block (s := S1x128) S1x128.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x128.size a ≤ S1x128.size a
  hwx7_3 : ∀ i : grid7.Coords, EltTy.bits .f32 = 32 ∨ (Rect.block (s := S1x128) S1x128.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S1x128.size a ≤ S1x128.size a
  hwx7_4 : ∀ i : grid7.Coords, EltTy.bits .f32 = 32 ∨ (Rect.block (s := S1x128) S1x128.size (cc7_transform_4 i) (hinb7_4 i)).WholeWords (EltTy.packing .f32)
  hstage7_5 : ∀ j, (stage7_5 j).IsWhole
  nbuf7_5 : grid7.bufCount reads7_5 false = 2
  hreads7_5 : ∀ i i' : grid7.Coords, (∀ a, reads7_5 a = true → i a = i' a) → cc7_transform_5 i = cc7_transform_5 i'
  hinb7_5 : ∀ (i : grid7.Coords) a, (cc7_transform_5 i a + 1) * S5000x128.size a ≤ S50000x128.size a
  hwx7_5 : ∀ i : grid7.Coords, EltTy.bits .f32 = 32 ∨ (Rect.block (s := S50000x128) S5000x128.size (cc7_transform_5 i) (hinb7_5 i)).WholeWords (EltTy.packing .f32)
  hstage7_6 : ∀ j, (stage7_6 j).IsWhole
  nbuf7_6 : grid7.bufCount reads7_6 true = 1
  hreads7_6 : ∀ i i' : grid7.Coords, (∀ a, reads7_6 a = true → i a = i' a) → cc7_transform_6 i = cc7_transform_6 i'
  hinb7_6 : ∀ (i : grid7.Coords) a, (cc7_transform_6 i a + 1) * S128x128.size a ≤ S128x128.size a
  hwx7_6 : ∀ i : grid7.Coords, EltTy.bits .bf16 = 32 ∨ (Rect.block (s := S128x128) S128x128.size (cc7_transform_6 i) (hinb7_6 i)).WholeWords (EltTy.packing .bf16)
  hstage7_7 : ∀ j, (stage7_7 j).IsWhole
  nbuf7_7 : grid7.bufCount reads7_7 false = 2
  hreads7_7 : ∀ i i' : grid7.Coords, (∀ a, reads7_7 a = true → i a = i' a) → cc7_transform_7 i = cc7_transform_7 i'
  hinb7_7 : ∀ (i : grid7.Coords) a, (cc7_transform_7 i a + 1) * S5000x128.size a ≤ S50000x128.size a
  hwx7_7 : ∀ i : grid7.Coords, EltTy.bits .f32 = 32 ∨ (Rect.block (s := S50000x128) S5000x128.size (cc7_transform_7 i) (hinb7_7 i)).WholeWords (EltTy.packing .f32)
  hstage7_8 : ∀ j, (stage7_8 j).IsWhole
  nbuf7_8 : grid7.bufCount reads7_8 false = 2
  hreads7_8 : ∀ i i' : grid7.Coords, (∀ a, reads7_8 a = true → i a = i' a) → cc7_transform_8 i = cc7_transform_8 i'
  hinb7_8 : ∀ (i : grid7.Coords) a, (cc7_transform_8 i a + 1) * S5000x128.size a ≤ S50000x128.size a
  hwx7_8 : ∀ i : grid7.Coords, EltTy.bits .f32 = 32 ∨ (Rect.block (s := S50000x128) S5000x128.size (cc7_transform_8 i) (hinb7_8 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S5000x128.size a ≤ S50000x128.size a
  hwx8_0 : ∀ i : grid8.Coords, EltTy.bits .f32 = 32 ∨ (Rect.block (s := S50000x128) S5000x128.size (cc8_transform_0 i) (hinb8_0 i)).WholeWords (EltTy.packing .f32)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S5000x1.size a ≤ S50000x1.size a
  hwx8_1 : ∀ i : grid8.Coords, EltTy.bits .f32 = 32 ∨ (Rect.block (s := S50000x1) S5000x1.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x128.size a ≤ S1x128.size a
  hwx8_2 : ∀ i : grid8.Coords, EltTy.bits .f32 = 32 ∨ (Rect.block (s := S1x128) S1x128.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S1x128.size a ≤ S1x128.size a
  hwx8_3 : ∀ i : grid8.Coords, EltTy.bits .f32 = 32 ∨ (Rect.block (s := S1x128) S1x128.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S1x128.size a ≤ S1x128.size a
  hwx8_4 : ∀ i : grid8.Coords, EltTy.bits .f32 = 32 ∨ (Rect.block (s := S1x128) S1x128.size (cc8_transform_4 i) (hinb8_4 i)).WholeWords (EltTy.packing .f32)
  hstage8_5 : ∀ j, (stage8_5 j).IsWhole
  nbuf8_5 : grid8.bufCount reads8_5 false = 2
  hreads8_5 : ∀ i i' : grid8.Coords, (∀ a, reads8_5 a = true → i a = i' a) → cc8_transform_5 i = cc8_transform_5 i'
  hinb8_5 : ∀ (i : grid8.Coords) a, (cc8_transform_5 i a + 1) * S5000x128.size a ≤ S50000x128.size a
  hwx8_5 : ∀ i : grid8.Coords, EltTy.bits .f32 = 32 ∨ (Rect.block (s := S50000x128) S5000x128.size (cc8_transform_5 i) (hinb8_5 i)).WholeWords (EltTy.packing .f32)
  hstage8_6 : ∀ j, (stage8_6 j).IsWhole
  nbuf8_6 : grid8.bufCount reads8_6 true = 1
  hreads8_6 : ∀ i i' : grid8.Coords, (∀ a, reads8_6 a = true → i a = i' a) → cc8_transform_6 i = cc8_transform_6 i'
  hinb8_6 : ∀ (i : grid8.Coords) a, (cc8_transform_6 i a + 1) * S128x128.size a ≤ S128x128.size a
  hwx8_6 : ∀ i : grid8.Coords, EltTy.bits .bf16 = 32 ∨ (Rect.block (s := S128x128) S128x128.size (cc8_transform_6 i) (hinb8_6 i)).WholeWords (EltTy.packing .bf16)
  hstage8_7 : ∀ j, (stage8_7 j).IsWhole
  nbuf8_7 : grid8.bufCount reads8_7 false = 2
  hreads8_7 : ∀ i i' : grid8.Coords, (∀ a, reads8_7 a = true → i a = i' a) → cc8_transform_7 i = cc8_transform_7 i'
  hinb8_7 : ∀ (i : grid8.Coords) a, (cc8_transform_7 i a + 1) * S5000x128.size a ≤ S50000x128.size a
  hwx8_7 : ∀ i : grid8.Coords, EltTy.bits .f32 = 32 ∨ (Rect.block (s := S50000x128) S5000x128.size (cc8_transform_7 i) (hinb8_7 i)).WholeWords (EltTy.packing .f32)
  hstage8_8 : ∀ j, (stage8_8 j).IsWhole
  nbuf8_8 : grid8.bufCount reads8_8 false = 2
  hreads8_8 : ∀ i i' : grid8.Coords, (∀ a, reads8_8 a = true → i a = i' a) → cc8_transform_8 i = cc8_transform_8 i'
  hinb8_8 : ∀ (i : grid8.Coords) a, (cc8_transform_8 i a + 1) * S5000x128.size a ≤ S50000x128.size a
  hwx8_8 : ∀ i : grid8.Coords, EltTy.bits .f32 = 32 ∨ (Rect.block (s := S50000x128) S5000x128.size (cc8_transform_8 i) (hinb8_8 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S5000x128.size a ≤ S50000x128.size a
  hwx9_0 : ∀ i : grid9.Coords, EltTy.bits .f32 = 32 ∨ (Rect.block (s := S50000x128) S5000x128.size (cc9_transform_0 i) (hinb9_0 i)).WholeWords (EltTy.packing .f32)
  hstage9_1 : ∀ j, (stage9_1 j).IsWhole
  nbuf9_1 : grid9.bufCount reads9_1 false = 2
  hreads9_1 : ∀ i i' : grid9.Coords, (∀ a, reads9_1 a = true → i a = i' a) → cc9_transform_1 i = cc9_transform_1 i'
  hinb9_1 : ∀ (i : grid9.Coords) a, (cc9_transform_1 i a + 1) * S5000x1.size a ≤ S50000x1.size a
  hwx9_1 : ∀ i : grid9.Coords, EltTy.bits .f32 = 32 ∨ (Rect.block (s := S50000x1) S5000x1.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S1x128.size a ≤ S1x128.size a
  hwx9_2 : ∀ i : grid9.Coords, EltTy.bits .f32 = 32 ∨ (Rect.block (s := S1x128) S1x128.size (cc9_transform_2 i) (hinb9_2 i)).WholeWords (EltTy.packing .f32)
  hstage9_3 : ∀ j, (stage9_3 j).IsWhole
  nbuf9_3 : grid9.bufCount reads9_3 true = 1
  hreads9_3 : ∀ i i' : grid9.Coords, (∀ a, reads9_3 a = true → i a = i' a) → cc9_transform_3 i = cc9_transform_3 i'
  hinb9_3 : ∀ (i : grid9.Coords) a, (cc9_transform_3 i a + 1) * S1x128.size a ≤ S1x128.size a
  hwx9_3 : ∀ i : grid9.Coords, EltTy.bits .f32 = 32 ∨ (Rect.block (s := S1x128) S1x128.size (cc9_transform_3 i) (hinb9_3 i)).WholeWords (EltTy.packing .f32)
  hstage9_4 : ∀ j, (stage9_4 j).IsWhole
  nbuf9_4 : grid9.bufCount reads9_4 true = 1
  hreads9_4 : ∀ i i' : grid9.Coords, (∀ a, reads9_4 a = true → i a = i' a) → cc9_transform_4 i = cc9_transform_4 i'
  hinb9_4 : ∀ (i : grid9.Coords) a, (cc9_transform_4 i a + 1) * S1x128.size a ≤ S1x128.size a
  hwx9_4 : ∀ i : grid9.Coords, EltTy.bits .f32 = 32 ∨ (Rect.block (s := S1x128) S1x128.size (cc9_transform_4 i) (hinb9_4 i)).WholeWords (EltTy.packing .f32)
  hstage9_5 : ∀ j, (stage9_5 j).IsWhole
  nbuf9_5 : grid9.bufCount reads9_5 false = 2
  hreads9_5 : ∀ i i' : grid9.Coords, (∀ a, reads9_5 a = true → i a = i' a) → cc9_transform_5 i = cc9_transform_5 i'
  hinb9_5 : ∀ (i : grid9.Coords) a, (cc9_transform_5 i a + 1) * S5000x128.size a ≤ S50000x128.size a
  hwx9_5 : ∀ i : grid9.Coords, EltTy.bits .f32 = 32 ∨ (Rect.block (s := S50000x128) S5000x128.size (cc9_transform_5 i) (hinb9_5 i)).WholeWords (EltTy.packing .f32)
  hstage9_6 : ∀ j, (stage9_6 j).IsWhole
  nbuf9_6 : grid9.bufCount reads9_6 false = 2
  hreads9_6 : ∀ i i' : grid9.Coords, (∀ a, reads9_6 a = true → i a = i' a) → cc9_transform_6 i = cc9_transform_6 i'
  hinb9_6 : ∀ (i : grid9.Coords) a, (cc9_transform_6 i a + 1) * S5000x128.size a ≤ S50000x128.size a
  hwx9_6 : ∀ i : grid9.Coords, EltTy.bits .f32 = 32 ∨ (Rect.block (s := S50000x128) S5000x128.size (cc9_transform_6 i) (hinb9_6 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S5000x128.size a ≤ S50000x128.size a
  hwx10_0 : ∀ i : grid10.Coords, EltTy.bits .f32 = 32 ∨ (Rect.block (s := S50000x128) S5000x128.size (cc10_transform_0 i) (hinb10_0 i)).WholeWords (EltTy.packing .f32)
  hstage10_1 : ∀ j, (stage10_1 j).IsWhole
  nbuf10_1 : grid10.bufCount reads10_1 false = 2
  hreads10_1 : ∀ i i' : grid10.Coords, (∀ a, reads10_1 a = true → i a = i' a) → cc10_transform_1 i = cc10_transform_1 i'
  hinb10_1 : ∀ (i : grid10.Coords) a, (cc10_transform_1 i a + 1) * S5000x128.size a ≤ S50000x128.size a
  hwx10_1 : ∀ i : grid10.Coords, EltTy.bits .f32 = 32 ∨ (Rect.block (s := S50000x128) S5000x128.size (cc10_transform_1 i) (hinb10_1 i)).WholeWords (EltTy.packing .f32)
  hstage10_2 : ∀ j, (stage10_2 j).IsWhole
  nbuf10_2 : grid10.bufCount reads10_2 true = 1
  hreads10_2 : ∀ i i' : grid10.Coords, (∀ a, reads10_2 a = true → i a = i' a) → cc10_transform_2 i = cc10_transform_2 i'
  hinb10_2 : ∀ (i : grid10.Coords) a, (cc10_transform_2 i a + 1) * S128x128.size a ≤ S128x128.size a
  hwx10_2 : ∀ i : grid10.Coords, EltTy.bits .bf16 = 32 ∨ (Rect.block (s := S128x128) S128x128.size (cc10_transform_2 i) (hinb10_2 i)).WholeWords (EltTy.packing .bf16)
  hstage10_3 : ∀ j, (stage10_3 j).IsWhole
  nbuf10_3 : grid10.bufCount reads10_3 true = 1
  hreads10_3 : ∀ i i' : grid10.Coords, (∀ a, reads10_3 a = true → i a = i' a) → cc10_transform_3 i = cc10_transform_3 i'
  hinb10_3 : ∀ (i : grid10.Coords) a, (cc10_transform_3 i a + 1) * S128x128.size a ≤ S128x128.size a
  hwx10_3 : ∀ i : grid10.Coords, EltTy.bits .bf16 = 32 ∨ (Rect.block (s := S128x128) S128x128.size (cc10_transform_3 i) (hinb10_3 i)).WholeWords (EltTy.packing .bf16)
  hstage10_4 : ∀ j, (stage10_4 j).IsWhole
  nbuf10_4 : grid10.bufCount reads10_4 true = 1
  hreads10_4 : ∀ i i' : grid10.Coords, (∀ a, reads10_4 a = true → i a = i' a) → cc10_transform_4 i = cc10_transform_4 i'
  hinb10_4 : ∀ (i : grid10.Coords) a, (cc10_transform_4 i a + 1) * S1x128.size a ≤ S1x128.size a
  hwx10_4 : ∀ i : grid10.Coords, EltTy.bits .f32 = 32 ∨ (Rect.block (s := S1x128) S1x128.size (cc10_transform_4 i) (hinb10_4 i)).WholeWords (EltTy.packing .f32)
  hstage10_5 : ∀ j, (stage10_5 j).IsWhole
  nbuf10_5 : grid10.bufCount reads10_5 false = 2
  hreads10_5 : ∀ i i' : grid10.Coords, (∀ a, reads10_5 a = true → i a = i' a) → cc10_transform_5 i = cc10_transform_5 i'
  hinb10_5 : ∀ (i : grid10.Coords) a, (cc10_transform_5 i a + 1) * S5000x128.size a ≤ S50000x128.size a
  hwx10_5 : ∀ i : grid10.Coords, EltTy.bits .f32 = 32 ∨ (Rect.block (s := S50000x128) S5000x128.size (cc10_transform_5 i) (hinb10_5 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v19) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v18) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v20) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v15) S5000x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_call0_v21_0) S5000x128.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_call0_v21_1) S5000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_call0_v25) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_call0_v15) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_call0_v34) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_call0_v35) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_call0_v36) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_call0_v21_0) S5000x128.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_call0_v37) S128x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_call0_v38_0) S5000x128.size cc1_transform_7 reads1_7 true false 2 stage1_7 sem1_7
    hrank1 hreads1_7 hinb1_7 nbuf1_7 (Memref.isWhole_whole _) hwx1_7 hstage1_7

abbrev win1_8 : Pipeline.Window sig grid1 :=
  Pipeline.Window.ofSpec (Memref.whole main_call0_v38_1) S5000x128.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

abbrev win2_0 : Pipeline.Window sig grid2 :=
  Pipeline.Window.ofSpec (Memref.whole main_call0_v42) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_call0_v15) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_call0_v51) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_call0_v52) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_call0_v53) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_call0_v38_0) S5000x128.size cc2_transform_5 reads2_5 false false 2 stage2_5 sem2_5
    hrank2 hreads2_5 hinb2_5 nbuf2_5 (Memref.isWhole_whole _) hwx2_5 hstage2_5

abbrev win2_6 : Pipeline.Window sig grid2 :=
  Pipeline.Window.ofSpec (Memref.whole main_call0_v54) S128x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_call0_v55_0) S5000x128.size cc2_transform_7 reads2_7 true false 2 stage2_7 sem2_7
    hrank2 hreads2_7 hinb2_7 nbuf2_7 (Memref.isWhole_whole _) hwx2_7 hstage2_7

abbrev win2_8 : Pipeline.Window sig grid2 :=
  Pipeline.Window.ofSpec (Memref.whole main_call0_v55_1) S5000x128.size cc2_transform_8 reads2_8 true false 2 stage2_8 sem2_8
    hrank2 hreads2_8 hinb2_8 nbuf2_8 (Memref.isWhole_whole _) hwx2_8 hstage2_8

abbrev win2 : Fin 9 → Pipeline.Window sig grid2 := fun | 0 => win2_0 | 1 => win2_1 | 2 => win2_2 | 3 => win2_3 | 4 => win2_4 | 5 => win2_5 | 6 => win2_6 | 7 => win2_7 | 8 => win2_8 | ⟨_ + 9, h⟩ => absurd h (Nat.not_lt.2 (Nat.le_add_left _ _))
abbrev spec2 : Fin 9 → Pipeline.WinSpec sig grid2.rank := fun w => (win2 w).toWinSpec

abbrev win3_0 : Pipeline.Window sig grid3 :=
  Pipeline.Window.ofSpec (Memref.whole main_call0_v59) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_call0_v15) S5000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_call0_v68) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_call0_v69) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_call0_v70) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_call0_v55_0) S5000x128.size cc3_transform_5 reads3_5 false false 2 stage3_5 sem3_5
    hrank3 hreads3_5 hinb3_5 nbuf3_5 (Memref.isWhole_whole _) hwx3_5 hstage3_5

abbrev win3_6 : Pipeline.Window sig grid3 :=
  Pipeline.Window.ofSpec (Memref.whole main_call0_v71) S128x128.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_call0_v72_0) S5000x128.size cc3_transform_7 reads3_7 true false 2 stage3_7 sem3_7
    hrank3 hreads3_7 hinb3_7 nbuf3_7 (Memref.isWhole_whole _) hwx3_7 hstage3_7

abbrev win3_8 : Pipeline.Window sig grid3 :=
  Pipeline.Window.ofSpec (Memref.whole main_call0_v72_1) S5000x128.size cc3_transform_8 reads3_8 true false 2 stage3_8 sem3_8
    hrank3 hreads3_8 hinb3_8 nbuf3_8 (Memref.isWhole_whole _) hwx3_8 hstage3_8

abbrev win3 : Fin 9 → Pipeline.Window sig grid3 := fun | 0 => win3_0 | 1 => win3_1 | 2 => win3_2 | 3 => win3_3 | 4 => win3_4 | 5 => win3_5 | 6 => win3_6 | 7 => win3_7 | 8 => win3_8 | ⟨_ + 9, h⟩ => absurd h (Nat.not_lt.2 (Nat.le_add_left _ _))
abbrev spec3 : Fin 9 → Pipeline.WinSpec sig grid3.rank := fun w => (win3 w).toWinSpec

abbrev win4_0 : Pipeline.Window sig grid4 :=
  Pipeline.Window.ofSpec (Memref.whole main_call0_v76) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_call0_v15) S5000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_call0_v83) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_call0_v84) S1x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_call0_v85) S1x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_call0_v72_0) S5000x128.size cc4_transform_5 reads4_5 false false 2 stage4_5 sem4_5
    hrank4 hreads4_5 hinb4_5 nbuf4_5 (Memref.isWhole_whole _) hwx4_5 hstage4_5

abbrev win4_6 : Pipeline.Window sig grid4 :=
  Pipeline.Window.ofSpec (Memref.whole main_call0_v86) S5000x128.size cc4_transform_6 reads4_6 true false 2 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

abbrev win5_0 : Pipeline.Window sig grid5 :=
  Pipeline.Window.ofSpec (Memref.whole main_arg1) S5000x256.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_call0_v106) S256x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_call0_v105) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_call0_v107) S128x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_call0_v102) S5000x1.size cc5_transform_4 reads5_4 false false 2 stage5_4 sem5_4
    hrank5 hreads5_4 hinb5_4 nbuf5_4 (Memref.isWhole_whole _) hwx5_4 hstage5_4

abbrev win5_5 : Pipeline.Window sig grid5 :=
  Pipeline.Window.ofSpec (Memref.whole main_call0_v108_0) S5000x128.size cc5_transform_5 reads5_5 true false 2 stage5_5 sem5_5
    hrank5 hreads5_5 hinb5_5 nbuf5_5 (Memref.isWhole_whole _) hwx5_5 hstage5_5

abbrev win5_6 : Pipeline.Window sig grid5 :=
  Pipeline.Window.ofSpec (Memref.whole main_call0_v108_1) S5000x128.size cc5_transform_6 reads5_6 true false 2 stage5_6 sem5_6
    hrank5 hreads5_6 hinb5_6 nbuf5_6 (Memref.isWhole_whole _) hwx5_6 hstage5_6

abbrev win5 : Fin 7 → Pipeline.Window sig grid5 := fun | 0 => win5_0 | 1 => win5_1 | 2 => win5_2 | 3 => win5_3 | 4 => win5_4 | 5 => win5_5 | 6 => win5_6 | ⟨_ + 7, h⟩ => absurd h (Nat.not_lt.2 (Nat.le_add_left _ _))
abbrev spec5 : Fin 7 → Pipeline.WinSpec sig grid5.rank := fun w => (win5 w).toWinSpec

abbrev win6_0 : Pipeline.Window sig grid6 :=
  Pipeline.Window.ofSpec (Memref.whole main_call0_v112) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_call0_v102) S5000x1.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_call0_v121) S1x128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_call0_v122) S1x128.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_call0_v123) S1x128.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_call0_v108_0) S5000x128.size cc6_transform_5 reads6_5 false false 2 stage6_5 sem6_5
    hrank6 hreads6_5 hinb6_5 nbuf6_5 (Memref.isWhole_whole _) hwx6_5 hstage6_5

abbrev win6_6 : Pipeline.Window sig grid6 :=
  Pipeline.Window.ofSpec (Memref.whole main_call0_v124) S128x128.size cc6_transform_6 reads6_6 false true 1 stage6_6 sem6_6
    hrank6 hreads6_6 hinb6_6 nbuf6_6 (Memref.isWhole_whole _) hwx6_6 hstage6_6

abbrev win6_7 : Pipeline.Window sig grid6 :=
  Pipeline.Window.ofSpec (Memref.whole main_call0_v125_0) S5000x128.size cc6_transform_7 reads6_7 true false 2 stage6_7 sem6_7
    hrank6 hreads6_7 hinb6_7 nbuf6_7 (Memref.isWhole_whole _) hwx6_7 hstage6_7

abbrev win6_8 : Pipeline.Window sig grid6 :=
  Pipeline.Window.ofSpec (Memref.whole main_call0_v125_1) S5000x128.size cc6_transform_8 reads6_8 true false 2 stage6_8 sem6_8
    hrank6 hreads6_8 hinb6_8 nbuf6_8 (Memref.isWhole_whole _) hwx6_8 hstage6_8

abbrev win6 : Fin 9 → Pipeline.Window sig grid6 := fun | 0 => win6_0 | 1 => win6_1 | 2 => win6_2 | 3 => win6_3 | 4 => win6_4 | 5 => win6_5 | 6 => win6_6 | 7 => win6_7 | 8 => win6_8 | ⟨_ + 9, h⟩ => absurd h (Nat.not_lt.2 (Nat.le_add_left _ _))
abbrev spec6 : Fin 9 → Pipeline.WinSpec sig grid6.rank := fun w => (win6 w).toWinSpec

abbrev win7_0 : Pipeline.Window sig grid7 :=
  Pipeline.Window.ofSpec (Memref.whole main_call0_v129) S5000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_call0_v102) S5000x1.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_call0_v138) S1x128.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_call0_v139) S1x128.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_call0_v140) S1x128.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_call0_v125_0) S5000x128.size cc7_transform_5 reads7_5 false false 2 stage7_5 sem7_5
    hrank7 hreads7_5 hinb7_5 nbuf7_5 (Memref.isWhole_whole _) hwx7_5 hstage7_5

abbrev win7_6 : Pipeline.Window sig grid7 :=
  Pipeline.Window.ofSpec (Memref.whole main_call0_v141) S128x128.size cc7_transform_6 reads7_6 false true 1 stage7_6 sem7_6
    hrank7 hreads7_6 hinb7_6 nbuf7_6 (Memref.isWhole_whole _) hwx7_6 hstage7_6

abbrev win7_7 : Pipeline.Window sig grid7 :=
  Pipeline.Window.ofSpec (Memref.whole main_call0_v142_0) S5000x128.size cc7_transform_7 reads7_7 true false 2 stage7_7 sem7_7
    hrank7 hreads7_7 hinb7_7 nbuf7_7 (Memref.isWhole_whole _) hwx7_7 hstage7_7

abbrev win7_8 : Pipeline.Window sig grid7 :=
  Pipeline.Window.ofSpec (Memref.whole main_call0_v142_1) S5000x128.size cc7_transform_8 reads7_8 true false 2 stage7_8 sem7_8
    hrank7 hreads7_8 hinb7_8 nbuf7_8 (Memref.isWhole_whole _) hwx7_8 hstage7_8

abbrev win7 : Fin 9 → Pipeline.Window sig grid7 := fun | 0 => win7_0 | 1 => win7_1 | 2 => win7_2 | 3 => win7_3 | 4 => win7_4 | 5 => win7_5 | 6 => win7_6 | 7 => win7_7 | 8 => win7_8 | ⟨_ + 9, h⟩ => absurd h (Nat.not_lt.2 (Nat.le_add_left _ _))
abbrev spec7 : Fin 9 → Pipeline.WinSpec sig grid7.rank := fun w => (win7 w).toWinSpec

abbrev win8_0 : Pipeline.Window sig grid8 :=
  Pipeline.Window.ofSpec (Memref.whole main_call0_v146) S5000x128.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_call0_v102) S5000x1.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_call0_v155) S1x128.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_call0_v156) S1x128.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_call0_v157) S1x128.size cc8_transform_4 reads8_4 false true 1 stage8_4 sem8_4
    hrank8 hreads8_4 hinb8_4 nbuf8_4 (Memref.isWhole_whole _) hwx8_4 hstage8_4

abbrev win8_5 : Pipeline.Window sig grid8 :=
  Pipeline.Window.ofSpec (Memref.whole main_call0_v142_0) S5000x128.size cc8_transform_5 reads8_5 false false 2 stage8_5 sem8_5
    hrank8 hreads8_5 hinb8_5 nbuf8_5 (Memref.isWhole_whole _) hwx8_5 hstage8_5

abbrev win8_6 : Pipeline.Window sig grid8 :=
  Pipeline.Window.ofSpec (Memref.whole main_call0_v158) S128x128.size cc8_transform_6 reads8_6 false true 1 stage8_6 sem8_6
    hrank8 hreads8_6 hinb8_6 nbuf8_6 (Memref.isWhole_whole _) hwx8_6 hstage8_6

abbrev win8_7 : Pipeline.Window sig grid8 :=
  Pipeline.Window.ofSpec (Memref.whole main_call0_v159_0) S5000x128.size cc8_transform_7 reads8_7 true false 2 stage8_7 sem8_7
    hrank8 hreads8_7 hinb8_7 nbuf8_7 (Memref.isWhole_whole _) hwx8_7 hstage8_7

abbrev win8_8 : Pipeline.Window sig grid8 :=
  Pipeline.Window.ofSpec (Memref.whole main_call0_v159_1) S5000x128.size cc8_transform_8 reads8_8 true false 2 stage8_8 sem8_8
    hrank8 hreads8_8 hinb8_8 nbuf8_8 (Memref.isWhole_whole _) hwx8_8 hstage8_8

abbrev win8 : Fin 9 → Pipeline.Window sig grid8 := fun | 0 => win8_0 | 1 => win8_1 | 2 => win8_2 | 3 => win8_3 | 4 => win8_4 | 5 => win8_5 | 6 => win8_6 | 7 => win8_7 | 8 => win8_8 | ⟨_ + 9, h⟩ => absurd h (Nat.not_lt.2 (Nat.le_add_left _ _))
abbrev spec8 : Fin 9 → Pipeline.WinSpec sig grid8.rank := fun w => (win8 w).toWinSpec

abbrev win9_0 : Pipeline.Window sig grid9 :=
  Pipeline.Window.ofSpec (Memref.whole main_call0_v163) S5000x128.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_call0_v102) S5000x1.size cc9_transform_1 reads9_1 false false 2 stage9_1 sem9_1
    hrank9 hreads9_1 hinb9_1 nbuf9_1 (Memref.isWhole_whole _) hwx9_1 hstage9_1

abbrev win9_2 : Pipeline.Window sig grid9 :=
  Pipeline.Window.ofSpec (Memref.whole main_call0_v170) S1x128.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_call0_v171) S1x128.size cc9_transform_3 reads9_3 false true 1 stage9_3 sem9_3
    hrank9 hreads9_3 hinb9_3 nbuf9_3 (Memref.isWhole_whole _) hwx9_3 hstage9_3

abbrev win9_4 : Pipeline.Window sig grid9 :=
  Pipeline.Window.ofSpec (Memref.whole main_call0_v172) S1x128.size cc9_transform_4 reads9_4 false true 1 stage9_4 sem9_4
    hrank9 hreads9_4 hinb9_4 nbuf9_4 (Memref.isWhole_whole _) hwx9_4 hstage9_4

abbrev win9_5 : Pipeline.Window sig grid9 :=
  Pipeline.Window.ofSpec (Memref.whole main_call0_v159_0) S5000x128.size cc9_transform_5 reads9_5 false false 2 stage9_5 sem9_5
    hrank9 hreads9_5 hinb9_5 nbuf9_5 (Memref.isWhole_whole _) hwx9_5 hstage9_5

abbrev win9_6 : Pipeline.Window sig grid9 :=
  Pipeline.Window.ofSpec (Memref.whole main_call0_v173) S5000x128.size cc9_transform_6 reads9_6 true false 2 stage9_6 sem9_6
    hrank9 hreads9_6 hinb9_6 nbuf9_6 (Memref.isWhole_whole _) hwx9_6 hstage9_6

abbrev win9 : Fin 7 → Pipeline.Window sig grid9 := fun | 0 => win9_0 | 1 => win9_1 | 2 => win9_2 | 3 => win9_3 | 4 => win9_4 | 5 => win9_5 | 6 => win9_6 | ⟨_ + 7, h⟩ => absurd h (Nat.not_lt.2 (Nat.le_add_left _ _))
abbrev spec9 : Fin 7 → Pipeline.WinSpec sig grid9.rank := fun w => (win9 w).toWinSpec

abbrev win10_0 : Pipeline.Window sig grid10 :=
  Pipeline.Window.ofSpec (Memref.whole main_call0_v86) S5000x128.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_call0_v173) S5000x128.size cc10_transform_1 reads10_1 false false 2 stage10_1 sem10_1
    hrank10 hreads10_1 hinb10_1 nbuf10_1 (Memref.isWhole_whole _) hwx10_1 hstage10_1

abbrev win10_2 : Pipeline.Window sig grid10 :=
  Pipeline.Window.ofSpec (Memref.whole main_call0_v179) S128x128.size cc10_transform_2 reads10_2 false true 1 stage10_2 sem10_2
    hrank10 hreads10_2 hinb10_2 nbuf10_2 (Memref.isWhole_whole _) hwx10_2 hstage10_2

abbrev win10_3 : Pipeline.Window sig grid10 :=
  Pipeline.Window.ofSpec (Memref.whole main_call0_v180) S128x128.size cc10_transform_3 reads10_3 false true 1 stage10_3 sem10_3
    hrank10 hreads10_3 hinb10_3 nbuf10_3 (Memref.isWhole_whole _) hwx10_3 hstage10_3

abbrev win10_4 : Pipeline.Window sig grid10 :=
  Pipeline.Window.ofSpec (Memref.whole main_call0_v181) S1x128.size cc10_transform_4 reads10_4 false true 1 stage10_4 sem10_4
    hrank10 hreads10_4 hinb10_4 nbuf10_4 (Memref.isWhole_whole _) hwx10_4 hstage10_4

abbrev win10_5 : Pipeline.Window sig grid10 :=
  Pipeline.Window.ofSpec (Memref.whole main_call0_v182) S5000x128.size cc10_transform_5 reads10_5 true false 2 stage10_5 sem10_5
    hrank10 hreads10_5 hinb10_5 nbuf10_5 (Memref.isWhole_whole _) hwx10_5 hstage10_5

abbrev win10 : Fin 6 → Pipeline.Window sig grid10 := fun | 0 => win10_0 | 1 => win10_1 | 2 => win10_2 | 3 => win10_3 | 4 => win10_4 | 5 => win10_5 | ⟨_ + 6, h⟩ => absurd h (Nat.not_lt.2 (Nat.le_add_left _ _))
abbrev spec10 : Fin 6 → Pipeline.WinSpec sig grid10.rank := fun w => (win10 w).toWinSpec

class Facts : Prop extends Facts₀ where

variable [Facts]
-- ==== ReferenceIdeal.lean ====
abbrev S50000x256 : Shape := ⟨2, ![50000, 256]⟩
abbrev S256x128 : Shape := ⟨2, ![256, 128]⟩
abbrev S128 : Shape := ⟨1, ![128]⟩
abbrev S4x128x128 : Shape := ⟨3, ![4, 128, 128]⟩
abbrev S4x128 : Shape := ⟨2, ![4, 128]⟩
abbrev S256x10 : Shape := ⟨2, ![256, 10]⟩
abbrev S10 : Shape := ⟨1, ![10]⟩
abbrev S2x800000 : Shape := ⟨2, ![2, 800000]⟩
abbrev S1x800000 : Shape := ⟨2, ![1, 800000]⟩
abbrev S800000 : Shape := ⟨1, ![800000]⟩
abbrev S50000x128 : Shape := ⟨2, ![50000, 128]⟩
abbrev S1x128 : Shape := ⟨2, ![1, 128]⟩
abbrev S1x128x128 : Shape := ⟨3, ![1, 128, 128]⟩
abbrev S128x128 : Shape := ⟨2, ![128, 128]⟩
abbrev S50000 : Shape := ⟨1, ![50000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S50000x1 : Shape := ⟨2, ![50000, 1]⟩
abbrev S50000x10 : Shape := ⟨2, ![50000, 10]⟩
abbrev S1x10 : Shape := ⟨2, ![1, 10]⟩

abbrev nBuf : Space → Nat
  | .hbm => 815
  | .vmem => 0
  | .smem => 0
  | _ => 0

abbrev hbmTy0_0 (i : Nat) : BufTy := match i % 128 with
  | 0 => ⟨S50000x256, .f32⟩
  | 1 => ⟨S50000x256, .f32⟩
  | 2 => ⟨S256x128, .f32⟩
  | 3 => ⟨S128, .f32⟩
  | 4 => ⟨S256x128, .f32⟩
  | 5 => ⟨S128, .f32⟩
  | 6 => ⟨S4x128x128, .f32⟩
  | 7 => ⟨S4x128, .f32⟩
  | 8 => ⟨S4x128, .f32⟩
  | 9 => ⟨S4x128, .f32⟩
  | 10 => ⟨S4x128x128, .f32⟩
  | 11 => ⟨S4x128, .f32⟩
  | 12 => ⟨S4x128, .f32⟩
  | 13 => ⟨S4x128, .f32⟩
  | 14 => ⟨S256x10, .f32⟩
  | 15 => ⟨S10, .f32⟩
  | 16 => ⟨S2x800000, .i32⟩
  | 17 => ⟨S2x800000, .i32⟩
  | 18 => ⟨S1x800000, .i32⟩
  | 19 => ⟨S800000, .i32⟩
  | 20 => ⟨S1x800000, .i32⟩
  | 21 => ⟨S800000, .i32⟩
  | 22 => ⟨S50000x128, .f32⟩
  | 23 => ⟨S1x128, .f32⟩
  | 24 => ⟨S50000x128, .f32⟩
  | 25 => ⟨S50000x128, .f32⟩
  | 26 => ⟨S1x128x128, .f32⟩
  | 27 => ⟨S128x128, .f32⟩
  | 28 => ⟨S1x128, .f32⟩
  | 29 => ⟨S128, .f32⟩
  | 30 => ⟨S50000x128, .f32⟩
  | 31 => ⟨S50000, .i32⟩
  | 32 => ⟨S850000, .i32⟩
  | 33 => ⟨S850000, .i32⟩
  | 34 => ⟨S_, .f32⟩
  | 35 => ⟨S850000, .f32⟩
  | 36 => ⟨S_, .f32⟩
  | 37 => ⟨S50000, .f32⟩
  | 38 => ⟨S850000x1, .i32⟩
  | 39 => ⟨S50000, .f32⟩
  | 40 => ⟨S_, .f32⟩
  | 41 => ⟨S50000, .f32⟩
  | 42 => ⟨S50000, .i1⟩
  | 43 => ⟨S50000, .f32⟩
  | 44 => ⟨S_, .f32⟩
  | 45 => ⟨S_, .f32⟩
  | 46 => ⟨S50000, .f32⟩
  | 47 => ⟨S50000, .f32⟩
  | 48 => ⟨S_, .i32⟩
  | 49 => ⟨S850000, .i32⟩
  | 50 => ⟨S850000, .i1⟩
  | 51 => ⟨S_, .i32⟩
  | 52 => ⟨S850000, .i32⟩
  | 53 => ⟨S850000, .i32⟩
  | 54 => ⟨S850000, .i32⟩
  | 55 => ⟨S850000x1, .i32⟩
  | 56 => ⟨S850000, .f32⟩
  | 57 => ⟨S_, .i32⟩
  | 58 => ⟨S850000, .i32⟩
  | 59 => ⟨S850000, .i1⟩
  | 60 => ⟨S_, .i32⟩
  | 61 => ⟨S850000, .i32⟩
  | 62 => ⟨S850000, .i32⟩
  | 63 => ⟨S850000, .i32⟩
  | 64 => ⟨S850000x1, .i32⟩
  | 65 => ⟨S850000, .f32⟩
  | 66 => ⟨S850000, .f32⟩
  | 67 => ⟨S_, .i32⟩
  | 68 => ⟨S850000, .i32⟩
  | 69 => ⟨S850000, .i1⟩
  | 70 => ⟨S_, .i32⟩
  | 71 => ⟨S850000, .i32⟩
  | 72 => ⟨S850000, .i32⟩
  | 73 => ⟨S850000, .i32⟩
  | 74 => ⟨S850000x1, .i32⟩
  | 75 => ⟨S850000x128, .f32⟩
  | 76 => ⟨S850000x1, .f32⟩
  | 77 => ⟨S850000x128, .f32⟩
  | 78 => ⟨S850000x128, .f32⟩
  | 79 => ⟨S_, .f32⟩
  | 80 => ⟨S50000x128, .f32⟩
  | 81 => ⟨S850000x1, .i32⟩
  | 82 => ⟨S50000x128, .f32⟩
  | 83 => ⟨S1x128, .f32⟩
  | 84 => ⟨S50000x128, .f32⟩
  | 85 => ⟨S50000x128, .f32⟩
  | 86 => ⟨S1x128, .f32⟩
  | 87 => ⟨S128, .f32⟩
  | 88 => ⟨S1x128, .f32⟩
  | 89 => ⟨S128, .f32⟩
  | 90 => ⟨S_, .f32⟩
  | 91 => ⟨S50000, .f32⟩
  | 92 => ⟨S50000x1, .f32⟩
  | 93 => ⟨S_, .f32⟩
  | 94 => ⟨S50000x1, .f32⟩
  | 95 => ⟨S50000x1, .f32⟩
  | 96 => ⟨S50000x128, .f32⟩
  | 97 => ⟨S50000x128, .f32⟩
  | 98 => ⟨S50000x128, .f32⟩
  | 99 => ⟨S_, .f32⟩
  | 100 => ⟨S50000, .f32⟩
  | 101 => ⟨S50000x1, .f32⟩
  | 102 => ⟨S_, .f32⟩
  | 103 => ⟨S50000x1, .f32⟩
  | 104 => ⟨S50000x1, .f32⟩
  | 105 => ⟨S50000x128, .f32⟩
  | 106 => ⟨S50000x128, .f32⟩
  | 107 => ⟨S_, .f32⟩
  | 108 => ⟨S50000x1, .f32⟩
  | 109 => ⟨S50000x1, .f32⟩
  | 110 => ⟨S50000x1, .f32⟩
  | 111 => ⟨S50000x128, .f32⟩
  | 112 => ⟨S50000x128, .f32⟩
  | 113 => ⟨S1x128, .f32⟩
  | 114 => ⟨S50000x128, .f32⟩
  | 115 => ⟨S50000x128, .f32⟩
  | 116 => ⟨S1x128, .f32⟩
  | 117 => ⟨S50000x128, .f32⟩
  | 118 => ⟨S50000x128, .f32⟩
  | 119 => ⟨S_, .f32⟩
  | 120 => ⟨S50000x128, .f32⟩
  | 121 => ⟨S50000x128, .f32⟩
  | 122 => ⟨S50000x128, .f32⟩
  | 123 => ⟨S1x128x128, .f32⟩
  | 124 => ⟨S128x128, .f32⟩
  | 125 => ⟨S1x128, .f32⟩
  | 126 => ⟨S128, .f32⟩
  | 127 => ⟨S50000x128, .f32⟩
  | _ => ⟨S50000x256, .f32⟩

abbrev hbmTy0_1 (i : Nat) : BufTy := match i % 128 with
  | 0 => ⟨S50000, .i32⟩
  | 1 => ⟨S850000, .i32⟩
  | 2 => ⟨S850000, .i32⟩
  | 3 => ⟨S_, .f32⟩
  | 4 => ⟨S850000, .f32⟩
  | 5 => ⟨S_, .f32⟩
  | 6 => ⟨S50000, .f32⟩
  | 7 => ⟨S850000x1, .i32⟩
  | 8 => ⟨S50000, .f32⟩
  | 9 => ⟨S_, .f32⟩
  | 10 => ⟨S50000, .f32⟩
  | 11 => ⟨S50000, .i1⟩
  | 12 => ⟨S50000, .f32⟩
  | 13 => ⟨S_, .f32⟩
  | 14 => ⟨S_, .f32⟩
  | 15 => ⟨S50000, .f32⟩
  | 16 => ⟨S50000, .f32⟩
  | 17 => ⟨S_, .i32⟩
  | 18 => ⟨S850000, .i32⟩
  | 19 => ⟨S850000, .i1⟩
  | 20 => ⟨S_, .i32⟩
  | 21 => ⟨S850000, .i32⟩
  | 22 => ⟨S850000, .i32⟩
  | 23 => ⟨S850000, .i32⟩
  | 24 => ⟨S850000x1, .i32⟩
  | 25 => ⟨S850000, .f32⟩
  | 26 => ⟨S_, .i32⟩
  | 27 => ⟨S850000, .i32⟩
  | 28 => ⟨S850000, .i1⟩
  | 29 => ⟨S_, .i32⟩
  | 30 => ⟨S850000, .i32⟩
  | 31 => ⟨S850000, .i32⟩
  | 32 => ⟨S850000, .i32⟩
  | 33 => ⟨S850000x1, .i32⟩
  | 34 => ⟨S850000, .f32⟩
  | 35 => ⟨S850000, .f32⟩
  | 36 => ⟨S_, .i32⟩
  | 37 => ⟨S850000, .i32⟩
  | 38 => ⟨S850000, .i1⟩
  | 39 => ⟨S_, .i32⟩
  | 40 => ⟨S850000, .i32⟩
  | 41 => ⟨S850000, .i32⟩
  | 42 => ⟨S850000, .i32⟩
  | 43 => ⟨S850000x1, .i32⟩
  | 44 => ⟨S850000x128, .f32⟩
  | 45 => ⟨S850000x1, .f32⟩
  | 46 => ⟨S850000x128, .f32⟩
  | 47 => ⟨S850000x128, .f32⟩
  | 48 => ⟨S_, .f32⟩
  | 49 => ⟨S50000x128, .f32⟩
  | 50 => ⟨S850000x1, .i32⟩
  | 51 => ⟨S50000x128, .f32⟩
  | 52 => ⟨S1x128, .f32⟩
  | 53 => ⟨S50000x128, .f32⟩
  | 54 => ⟨S50000x128, .f32⟩
  | 55 => ⟨S1x128, .f32⟩
  | 56 => ⟨S128, .f32⟩
  | 57 => ⟨S1x128, .f32⟩
  | 58 => ⟨S128, .f32⟩
  | 59 => ⟨S_, .f32⟩
  | 60 => ⟨S50000, .f32⟩
  | 61 => ⟨S50000x1, .f32⟩
  | 62 => ⟨S_, .f32⟩
  | 63 => ⟨S50000x1, .f32⟩
  | 64 => ⟨S50000x1, .f32⟩
  | 65 => ⟨S50000x128, .f32⟩
  | 66 => ⟨S50000x128, .f32⟩
  | 67 => ⟨S50000x128, .f32⟩
  | 68 => ⟨S_, .f32⟩
  | 69 => ⟨S50000, .f32⟩
  | 70 => ⟨S50000x1, .f32⟩
  | 71 => ⟨S_, .f32⟩
  | 72 => ⟨S50000x1, .f32⟩
  | 73 => ⟨S50000x1, .f32⟩
  | 74 => ⟨S50000x128, .f32⟩
  | 75 => ⟨S50000x128, .f32⟩
  | 76 => ⟨S_, .f32⟩
  | 77 => ⟨S50000x1, .f32⟩
  | 78 => ⟨S50000x1, .f32⟩
  | 79 => ⟨S50000x1, .f32⟩
  | 80 => ⟨S50000x128, .f32⟩
  | 81 => ⟨S50000x128, .f32⟩
  | 82 => ⟨S1x128, .f32⟩
  | 83 => ⟨S50000x128, .f32⟩
  | 84 => ⟨S50000x128, .f32⟩
  | 85 => ⟨S1x128, .f32⟩
  | 86 => ⟨S50000x128, .f32⟩
  | 87 => ⟨S50000x128, .f32⟩
  | 88 => ⟨S_, .f32⟩
  | 89 => ⟨S50000x128, .f32⟩
  | 90 => ⟨S50000x128, .f32⟩
  | 91 => ⟨S50000x128, .f32⟩
  | 92 => ⟨S1x128x128, .f32⟩
  | 93 => ⟨S128x128, .f32⟩
  | 94 => ⟨S1x128, .f32⟩
  | 95 => ⟨S128, .f32⟩
  | 96 => ⟨S50000x128, .f32⟩
  | 97 => ⟨S50000, .i32⟩
  | 98 => ⟨S850000, .i32⟩
  | 99 => ⟨S850000, .i32⟩
  | 100 => ⟨S_, .f32⟩
  | 101 => ⟨S850000, .f32⟩
  | 102 => ⟨S_, .f32⟩
  | 103 => ⟨S50000, .f32⟩
  | 104 => ⟨S850000x1, .i32⟩
  | 105 => ⟨S50000, .f32⟩
  | 106 => ⟨S_, .f32⟩
  | 107 => ⟨S50000, .f32⟩
  | 108 => ⟨S50000, .i1⟩
  | 109 => ⟨S50000, .f32⟩
  | 110 => ⟨S_, .f32⟩
  | 111 => ⟨S_, .f32⟩
  | 112 => ⟨S50000, .f32⟩
  | 113 => ⟨S50000, .f32⟩
  | 114 => ⟨S_, .i32⟩
  | 115 => ⟨S850000, .i32⟩
  | 116 => ⟨S850000, .i1⟩
  | 117 => ⟨S_, .i32⟩
  | 118 => ⟨S850000, .i32⟩
  | 119 => ⟨S850000, .i32⟩
  | 120 => ⟨S850000, .i32⟩
  | 121 => ⟨S850000x1, .i32⟩
  | 122 => ⟨S850000, .f32⟩
  | 123 => ⟨S_, .i32⟩
  | 124 => ⟨S850000, .i32⟩
  | 125 => ⟨S850000, .i1⟩
  | 126 => ⟨S_, .i32⟩
  | 127 => ⟨S850000, .i32⟩
  | _ => ⟨S50000x256, .f32⟩

abbrev hbmTy0_2 (i : Nat) : BufTy := match i % 128 with
  | 0 => ⟨S850000, .i32⟩
  | 1 => ⟨S850000, .i32⟩
  | 2 => ⟨S850000x1, .i32⟩
  | 3 => ⟨S850000, .f32⟩
  | 4 => ⟨S850000, .f32⟩
  | 5 => ⟨S_, .i32⟩
  | 6 => ⟨S850000, .i32⟩
  | 7 => ⟨S850000, .i1⟩
  | 8 => ⟨S_, .i32⟩
  | 9 => ⟨S850000, .i32⟩
  | 10 => ⟨S850000, .i32⟩
  | 11 => ⟨S850000, .i32⟩
  | 12 => ⟨S850000x1, .i32⟩
  | 13 => ⟨S850000x128, .f32⟩
  | 14 => ⟨S850000x1, .f32⟩
  | 15 => ⟨S850000x128, .f32⟩
  | 16 => ⟨S850000x128, .f32⟩
  | 17 => ⟨S_, .f32⟩
  | 18 => ⟨S50000x128, .f32⟩
  | 19 => ⟨S850000x1, .i32⟩
  | 20 => ⟨S50000x128, .f32⟩
  | 21 => ⟨S1x128, .f32⟩
  | 22 => ⟨S50000x128, .f32⟩
  | 23 => ⟨S50000x128, .f32⟩
  | 24 => ⟨S1x128, .f32⟩
  | 25 => ⟨S128, .f32⟩
  | 26 => ⟨S1x128, .f32⟩
  | 27 => ⟨S128, .f32⟩
  | 28 => ⟨S_, .f32⟩
  | 29 => ⟨S50000, .f32⟩
  | 30 => ⟨S50000x1, .f32⟩
  | 31 => ⟨S_, .f32⟩
  | 32 => ⟨S50000x1, .f32⟩
  | 33 => ⟨S50000x1, .f32⟩
  | 34 => ⟨S50000x128, .f32⟩
  | 35 => ⟨S50000x128, .f32⟩
  | 36 => ⟨S50000x128, .f32⟩
  | 37 => ⟨S_, .f32⟩
  | 38 => ⟨S50000, .f32⟩
  | 39 => ⟨S50000x1, .f32⟩
  | 40 => ⟨S_, .f32⟩
  | 41 => ⟨S50000x1, .f32⟩
  | 42 => ⟨S50000x1, .f32⟩
  | 43 => ⟨S50000x128, .f32⟩
  | 44 => ⟨S50000x128, .f32⟩
  | 45 => ⟨S_, .f32⟩
  | 46 => ⟨S50000x1, .f32⟩
  | 47 => ⟨S50000x1, .f32⟩
  | 48 => ⟨S50000x1, .f32⟩
  | 49 => ⟨S50000x128, .f32⟩
  | 50 => ⟨S50000x128, .f32⟩
  | 51 => ⟨S1x128, .f32⟩
  | 52 => ⟨S50000x128, .f32⟩
  | 53 => ⟨S50000x128, .f32⟩
  | 54 => ⟨S1x128, .f32⟩
  | 55 => ⟨S50000x128, .f32⟩
  | 56 => ⟨S50000x128, .f32⟩
  | 57 => ⟨S_, .f32⟩
  | 58 => ⟨S50000x128, .f32⟩
  | 59 => ⟨S50000x128, .f32⟩
  | 60 => ⟨S50000x128, .f32⟩
  | 61 => ⟨S1x128x128, .f32⟩
  | 62 => ⟨S128x128, .f32⟩
  | 63 => ⟨S1x128, .f32⟩
  | 64 => ⟨S128, .f32⟩
  | 65 => ⟨S50000x128, .f32⟩
  | 66 => ⟨S50000, .i32⟩
  | 67 => ⟨S850000, .i32⟩
  | 68 => ⟨S850000, .i32⟩
  | 69 => ⟨S_, .f32⟩
  | 70 => ⟨S850000, .f32⟩
  | 71 => ⟨S_, .f32⟩
  | 72 => ⟨S50000, .f32⟩
  | 73 => ⟨S850000x1, .i32⟩
  | 74 => ⟨S50000, .f32⟩
  | 75 => ⟨S_, .f32⟩
  | 76 => ⟨S50000, .f32⟩
  | 77 => ⟨S50000, .i1⟩
  | 78 => ⟨S50000, .f32⟩
  | 79 => ⟨S_, .f32⟩
  | 80 => ⟨S_, .f32⟩
  | 81 => ⟨S50000, .f32⟩
  | 82 => ⟨S50000, .f32⟩
  | 83 => ⟨S_, .i32⟩
  | 84 => ⟨S850000, .i32⟩
  | 85 => ⟨S850000, .i1⟩
  | 86 => ⟨S_, .i32⟩
  | 87 => ⟨S850000, .i32⟩
  | 88 => ⟨S850000, .i32⟩
  | 89 => ⟨S850000, .i32⟩
  | 90 => ⟨S850000x1, .i32⟩
  | 91 => ⟨S850000, .f32⟩
  | 92 => ⟨S_, .i32⟩
  | 93 => ⟨S850000, .i32⟩
  | 94 => ⟨S850000, .i1⟩
  | 95 => ⟨S_, .i32⟩
  | 96 => ⟨S850000, .i32⟩
  | 97 => ⟨S850000, .i32⟩
  | 98 => ⟨S850000, .i32⟩
  | 99 => ⟨S850000x1, .i32⟩
  | 100 => ⟨S850000, .f32⟩
  | 101 => ⟨S850000, .f32⟩
  | 102 => ⟨S_, .i32⟩
  | 103 => ⟨S850000, .i32⟩
  | 104 => ⟨S850000, .i1⟩
  | 105 => ⟨S_, .i32⟩
  | 106 => ⟨S850000, .i32⟩
  | 107 => ⟨S850000, .i32⟩
  | 108 => ⟨S850000, .i32⟩
  | 109 => ⟨S850000x1, .i32⟩
  | 110 => ⟨S850000x128, .f32⟩
  | 111 => ⟨S850000x1, .f32⟩
  | 112 => ⟨S850000x128, .f32⟩
  | 113 => ⟨S850000x128, .f32⟩
  | 114 => ⟨S_, .f32⟩
  | 115 => ⟨S50000x128, .f32⟩
  | 116 => ⟨S850000x1, .i32⟩
  | 117 => ⟨S50000x128, .f32⟩
  | 118 => ⟨S1x128, .f32⟩
  | 119 => ⟨S50000x128, .f32⟩
  | 120 => ⟨S50000x128, .f32⟩
  | 121 => ⟨S1x128, .f32⟩
  | 122 => ⟨S128, .f32⟩
  | 123 => ⟨S1x128, .f32⟩
  | 124 => ⟨S128, .f32⟩
  | 125 => ⟨S_, .f32⟩
  | 126 => ⟨S50000, .f32⟩
  | 127 => ⟨S50000x1, .f32⟩
  | _ => ⟨S50000x256, .f32⟩

abbrev hbmTy0_3 (i : Nat) : BufTy := match i % 128 with
  | 0 => ⟨S_, .f32⟩
  | 1 => ⟨S50000x1, .f32⟩
  | 2 => ⟨S50000x1, .f32⟩
  | 3 => ⟨S50000x128, .f32⟩
  | 4 => ⟨S50000x128, .f32⟩
  | 5 => ⟨S50000x128, .f32⟩
  | 6 => ⟨S_, .f32⟩
  | 7 => ⟨S50000, .f32⟩
  | 8 => ⟨S50000x1, .f32⟩
  | 9 => ⟨S_, .f32⟩
  | 10 => ⟨S50000x1, .f32⟩
  | 11 => ⟨S50000x1, .f32⟩
  | 12 => ⟨S50000x128, .f32⟩
  | 13 => ⟨S50000x128, .f32⟩
  | 14 => ⟨S_, .f32⟩
  | 15 => ⟨S50000x1, .f32⟩
  | 16 => ⟨S50000x1, .f32⟩
  | 17 => ⟨S50000x1, .f32⟩
  | 18 => ⟨S50000x128, .f32⟩
  | 19 => ⟨S50000x128, .f32⟩
  | 20 => ⟨S1x128, .f32⟩
  | 21 => ⟨S50000x128, .f32⟩
  | 22 => ⟨S50000x128, .f32⟩
  | 23 => ⟨S1x128, .f32⟩
  | 24 => ⟨S50000x128, .f32⟩
  | 25 => ⟨S50000x128, .f32⟩
  | 26 => ⟨S_, .f32⟩
  | 27 => ⟨S50000x128, .f32⟩
  | 28 => ⟨S50000x128, .f32⟩
  | 29 => ⟨S50000x128, .f32⟩
  | 30 => ⟨S1x800000, .i32⟩
  | 31 => ⟨S800000, .i32⟩
  | 32 => ⟨S1x800000, .i32⟩
  | 33 => ⟨S800000, .i32⟩
  | 34 => ⟨S50000x128, .f32⟩
  | 35 => ⟨S1x128, .f32⟩
  | 36 => ⟨S50000x128, .f32⟩
  | 37 => ⟨S50000x128, .f32⟩
  | 38 => ⟨S1x128x128, .f32⟩
  | 39 => ⟨S128x128, .f32⟩
  | 40 => ⟨S1x128, .f32⟩
  | 41 => ⟨S128, .f32⟩
  | 42 => ⟨S50000x128, .f32⟩
  | 43 => ⟨S50000, .i32⟩
  | 44 => ⟨S850000, .i32⟩
  | 45 => ⟨S850000, .i32⟩
  | 46 => ⟨S_, .f32⟩
  | 47 => ⟨S850000, .f32⟩
  | 48 => ⟨S_, .f32⟩
  | 49 => ⟨S50000, .f32⟩
  | 50 => ⟨S850000x1, .i32⟩
  | 51 => ⟨S50000, .f32⟩
  | 52 => ⟨S_, .f32⟩
  | 53 => ⟨S50000, .f32⟩
  | 54 => ⟨S50000, .i1⟩
  | 55 => ⟨S50000, .f32⟩
  | 56 => ⟨S_, .f32⟩
  | 57 => ⟨S_, .f32⟩
  | 58 => ⟨S50000, .f32⟩
  | 59 => ⟨S50000, .f32⟩
  | 60 => ⟨S_, .i32⟩
  | 61 => ⟨S850000, .i32⟩
  | 62 => ⟨S850000, .i1⟩
  | 63 => ⟨S_, .i32⟩
  | 64 => ⟨S850000, .i32⟩
  | 65 => ⟨S850000, .i32⟩
  | 66 => ⟨S850000, .i32⟩
  | 67 => ⟨S850000x1, .i32⟩
  | 68 => ⟨S850000, .f32⟩
  | 69 => ⟨S_, .i32⟩
  | 70 => ⟨S850000, .i32⟩
  | 71 => ⟨S850000, .i1⟩
  | 72 => ⟨S_, .i32⟩
  | 73 => ⟨S850000, .i32⟩
  | 74 => ⟨S850000, .i32⟩
  | 75 => ⟨S850000, .i32⟩
  | 76 => ⟨S850000x1, .i32⟩
  | 77 => ⟨S850000, .f32⟩
  | 78 => ⟨S850000, .f32⟩
  | 79 => ⟨S_, .i32⟩
  | 80 => ⟨S850000, .i32⟩
  | 81 => ⟨S850000, .i1⟩
  | 82 => ⟨S_, .i32⟩
  | 83 => ⟨S850000, .i32⟩
  | 84 => ⟨S850000, .i32⟩
  | 85 => ⟨S850000, .i32⟩
  | 86 => ⟨S850000x1, .i32⟩
  | 87 => ⟨S850000x128, .f32⟩
  | 88 => ⟨S850000x1, .f32⟩
  | 89 => ⟨S850000x128, .f32⟩
  | 90 => ⟨S850000x128, .f32⟩
  | 91 => ⟨S_, .f32⟩
  | 92 => ⟨S50000x128, .f32⟩
  | 93 => ⟨S850000x1, .i32⟩
  | 94 => ⟨S50000x128, .f32⟩
  | 95 => ⟨S1x128, .f32⟩
  | 96 => ⟨S50000x128, .f32⟩
  | 97 => ⟨S50000x128, .f32⟩
  | 98 => ⟨S1x128, .f32⟩
  | 99 => ⟨S128, .f32⟩
  | 100 => ⟨S1x128, .f32⟩
  | 101 => ⟨S128, .f32⟩
  | 102 => ⟨S_, .f32⟩
  | 103 => ⟨S50000, .f32⟩
  | 104 => ⟨S50000x1, .f32⟩
  | 105 => ⟨S_, .f32⟩
  | 106 => ⟨S50000x1, .f32⟩
  | 107 => ⟨S50000x1, .f32⟩
  | 108 => ⟨S50000x128, .f32⟩
  | 109 => ⟨S50000x128, .f32⟩
  | 110 => ⟨S50000x128, .f32⟩
  | 111 => ⟨S_, .f32⟩
  | 112 => ⟨S50000, .f32⟩
  | 113 => ⟨S50000x1, .f32⟩
  | 114 => ⟨S_, .f32⟩
  | 115 => ⟨S50000x1, .f32⟩
  | 116 => ⟨S50000x1, .f32⟩
  | 117 => ⟨S50000x128, .f32⟩
  | 118 => ⟨S50000x128, .f32⟩
  | 119 => ⟨S_, .f32⟩
  | 120 => ⟨S50000x1, .f32⟩
  | 121 => ⟨S50000x1, .f32⟩
  | 122 => ⟨S50000x1, .f32⟩
  | 123 => ⟨S50000x128, .f32⟩
  | 124 => ⟨S50000x128, .f32⟩
  | 125 => ⟨S1x128, .f32⟩
  | 126 => ⟨S50000x128, .f32⟩
  | 127 => ⟨S50000x128, .f32⟩
  | _ => ⟨S50000x256, .f32⟩

abbrev hbmTy0_4 (i : Nat) : BufTy := match i % 128 with
  | 0 => ⟨S1x128, .f32⟩
  | 1 => ⟨S50000x128, .f32⟩
  | 2 => ⟨S50000x128, .f32⟩
  | 3 => ⟨S_, .f32⟩
  | 4 => ⟨S50000x128, .f32⟩
  | 5 => ⟨S50000x128, .f32⟩
  | 6 => ⟨S50000x128, .f32⟩
  | 7 => ⟨S1x128x128, .f32⟩
  | 8 => ⟨S128x128, .f32⟩
  | 9 => ⟨S1x128, .f32⟩
  | 10 => ⟨S128, .f32⟩
  | 11 => ⟨S50000x128, .f32⟩
  | 12 => ⟨S50000, .i32⟩
  | 13 => ⟨S850000, .i32⟩
  | 14 => ⟨S850000, .i32⟩
  | 15 => ⟨S_, .f32⟩
  | 16 => ⟨S850000, .f32⟩
  | 17 => ⟨S_, .f32⟩
  | 18 => ⟨S50000, .f32⟩
  | 19 => ⟨S850000x1, .i32⟩
  | 20 => ⟨S50000, .f32⟩
  | 21 => ⟨S_, .f32⟩
  | 22 => ⟨S50000, .f32⟩
  | 23 => ⟨S50000, .i1⟩
  | 24 => ⟨S50000, .f32⟩
  | 25 => ⟨S_, .f32⟩
  | 26 => ⟨S_, .f32⟩
  | 27 => ⟨S50000, .f32⟩
  | 28 => ⟨S50000, .f32⟩
  | 29 => ⟨S_, .i32⟩
  | 30 => ⟨S850000, .i32⟩
  | 31 => ⟨S850000, .i1⟩
  | 32 => ⟨S_, .i32⟩
  | 33 => ⟨S850000, .i32⟩
  | 34 => ⟨S850000, .i32⟩
  | 35 => ⟨S850000, .i32⟩
  | 36 => ⟨S850000x1, .i32⟩
  | 37 => ⟨S850000, .f32⟩
  | 38 => ⟨S_, .i32⟩
  | 39 => ⟨S850000, .i32⟩
  | 40 => ⟨S850000, .i1⟩
  | 41 => ⟨S_, .i32⟩
  | 42 => ⟨S850000, .i32⟩
  | 43 => ⟨S850000, .i32⟩
  | 44 => ⟨S850000, .i32⟩
  | 45 => ⟨S850000x1, .i32⟩
  | 46 => ⟨S850000, .f32⟩
  | 47 => ⟨S850000, .f32⟩
  | 48 => ⟨S_, .i32⟩
  | 49 => ⟨S850000, .i32⟩
  | 50 => ⟨S850000, .i1⟩
  | 51 => ⟨S_, .i32⟩
  | 52 => ⟨S850000, .i32⟩
  | 53 => ⟨S850000, .i32⟩
  | 54 => ⟨S850000, .i32⟩
  | 55 => ⟨S850000x1, .i32⟩
  | 56 => ⟨S850000x128, .f32⟩
  | 57 => ⟨S850000x1, .f32⟩
  | 58 => ⟨S850000x128, .f32⟩
  | 59 => ⟨S850000x128, .f32⟩
  | 60 => ⟨S_, .f32⟩
  | 61 => ⟨S50000x128, .f32⟩
  | 62 => ⟨S850000x1, .i32⟩
  | 63 => ⟨S50000x128, .f32⟩
  | 64 => ⟨S1x128, .f32⟩
  | 65 => ⟨S50000x128, .f32⟩
  | 66 => ⟨S50000x128, .f32⟩
  | 67 => ⟨S1x128, .f32⟩
  | 68 => ⟨S128, .f32⟩
  | 69 => ⟨S1x128, .f32⟩
  | 70 => ⟨S128, .f32⟩
  | 71 => ⟨S_, .f32⟩
  | 72 => ⟨S50000, .f32⟩
  | 73 => ⟨S50000x1, .f32⟩
  | 74 => ⟨S_, .f32⟩
  | 75 => ⟨S50000x1, .f32⟩
  | 76 => ⟨S50000x1, .f32⟩
  | 77 => ⟨S50000x128, .f32⟩
  | 78 => ⟨S50000x128, .f32⟩
  | 79 => ⟨S50000x128, .f32⟩
  | 80 => ⟨S_, .f32⟩
  | 81 => ⟨S50000, .f32⟩
  | 82 => ⟨S50000x1, .f32⟩
  | 83 => ⟨S_, .f32⟩
  | 84 => ⟨S50000x1, .f32⟩
  | 85 => ⟨S50000x1, .f32⟩
  | 86 => ⟨S50000x128, .f32⟩
  | 87 => ⟨S50000x128, .f32⟩
  | 88 => ⟨S_, .f32⟩
  | 89 => ⟨S50000x1, .f32⟩
  | 90 => ⟨S50000x1, .f32⟩
  | 91 => ⟨S50000x1, .f32⟩
  | 92 => ⟨S50000x128, .f32⟩
  | 93 => ⟨S50000x128, .f32⟩
  | 94 => ⟨S1x128, .f32⟩
  | 95 => ⟨S50000x128, .f32⟩
  | 96 => ⟨S50000x128, .f32⟩
  | 97 => ⟨S1x128, .f32⟩
  | 98 => ⟨S50000x128, .f32⟩
  | 99 => ⟨S50000x128, .f32⟩
  | 100 => ⟨S_, .f32⟩
  | 101 => ⟨S50000x128, .f32⟩
  | 102 => ⟨S50000x128, .f32⟩
  | 103 => ⟨S50000x128, .f32⟩
  | 104 => ⟨S1x128x128, .f32⟩
  | 105 => ⟨S128x128, .f32⟩
  | 106 => ⟨S1x128, .f32⟩
  | 107 => ⟨S128, .f32⟩
  | 108 => ⟨S50000x128, .f32⟩
  | 109 => ⟨S50000, .i32⟩
  | 110 => ⟨S850000, .i32⟩
  | 111 => ⟨S850000, .i32⟩
  | 112 => ⟨S_, .f32⟩
  | 113 => ⟨S850000, .f32⟩
  | 114 => ⟨S_, .f32⟩
  | 115 => ⟨S50000, .f32⟩
  | 116 => ⟨S850000x1, .i32⟩
  | 117 => ⟨S50000, .f32⟩
  | 118 => ⟨S_, .f32⟩
  | 119 => ⟨S50000, .f32⟩
  | 120 => ⟨S50000, .i1⟩
  | 121 => ⟨S50000, .f32⟩
  | 122 => ⟨S_, .f32⟩
  | 123 => ⟨S_, .f32⟩
  | 124 => ⟨S50000, .f32⟩
  | 125 => ⟨S50000, .f32⟩
  | 126 => ⟨S_, .i32⟩
  | 127 => ⟨S850000, .i32⟩
  | _ => ⟨S50000x256, .f32⟩

abbrev hbmTy0_5 (i : Nat) : BufTy := match i % 128 with
  | 0 => ⟨S850000, .i1⟩
  | 1 => ⟨S_, .i32⟩
  | 2 => ⟨S850000, .i32⟩
  | 3 => ⟨S850000, .i32⟩
  | 4 => ⟨S850000, .i32⟩
  | 5 => ⟨S850000x1, .i32⟩
  | 6 => ⟨S850000, .f32⟩
  | 7 => ⟨S_, .i32⟩
  | 8 => ⟨S850000, .i32⟩
  | 9 => ⟨S850000, .i1⟩
  | 10 => ⟨S_, .i32⟩
  | 11 => ⟨S850000, .i32⟩
  | 12 => ⟨S850000, .i32⟩
  | 13 => ⟨S850000, .i32⟩
  | 14 => ⟨S850000x1, .i32⟩
  | 15 => ⟨S850000, .f32⟩
  | 16 => ⟨S850000, .f32⟩
  | 17 => ⟨S_, .i32⟩
  | 18 => ⟨S850000, .i32⟩
  | 19 => ⟨S850000, .i1⟩
  | 20 => ⟨S_, .i32⟩
  | 21 => ⟨S850000, .i32⟩
  | 22 => ⟨S850000, .i32⟩
  | 23 => ⟨S850000, .i32⟩
  | 24 => ⟨S850000x1, .i32⟩
  | 25 => ⟨S850000x128, .f32⟩
  | 26 => ⟨S850000x1, .f32⟩
  | 27 => ⟨S850000x128, .f32⟩
  | 28 => ⟨S850000x128, .f32⟩
  | 29 => ⟨S_, .f32⟩
  | 30 => ⟨S50000x128, .f32⟩
  | 31 => ⟨S850000x1, .i32⟩
  | 32 => ⟨S50000x128, .f32⟩
  | 33 => ⟨S1x128, .f32⟩
  | 34 => ⟨S50000x128, .f32⟩
  | 35 => ⟨S50000x128, .f32⟩
  | 36 => ⟨S1x128, .f32⟩
  | 37 => ⟨S128, .f32⟩
  | 38 => ⟨S1x128, .f32⟩
  | 39 => ⟨S128, .f32⟩
  | 40 => ⟨S_, .f32⟩
  | 41 => ⟨S50000, .f32⟩
  | 42 => ⟨S50000x1, .f32⟩
  | 43 => ⟨S_, .f32⟩
  | 44 => ⟨S50000x1, .f32⟩
  | 45 => ⟨S50000x1, .f32⟩
  | 46 => ⟨S50000x128, .f32⟩
  | 47 => ⟨S50000x128, .f32⟩
  | 48 => ⟨S50000x128, .f32⟩
  | 49 => ⟨S_, .f32⟩
  | 50 => ⟨S50000, .f32⟩
  | 51 => ⟨S50000x1, .f32⟩
  | 52 => ⟨S_, .f32⟩
  | 53 => ⟨S50000x1, .f32⟩
  | 54 => ⟨S50000x1, .f32⟩
  | 55 => ⟨S50000x128, .f32⟩
  | 56 => ⟨S50000x128, .f32⟩
  | 57 => ⟨S_, .f32⟩
  | 58 => ⟨S50000x1, .f32⟩
  | 59 => ⟨S50000x1, .f32⟩
  | 60 => ⟨S50000x1, .f32⟩
  | 61 => ⟨S50000x128, .f32⟩
  | 62 => ⟨S50000x128, .f32⟩
  | 63 => ⟨S1x128, .f32⟩
  | 64 => ⟨S50000x128, .f32⟩
  | 65 => ⟨S50000x128, .f32⟩
  | 66 => ⟨S1x128, .f32⟩
  | 67 => ⟨S50000x128, .f32⟩
  | 68 => ⟨S50000x128, .f32⟩
  | 69 => ⟨S_, .f32⟩
  | 70 => ⟨S50000x128, .f32⟩
  | 71 => ⟨S50000x128, .f32⟩
  | 72 => ⟨S50000x128, .f32⟩
  | 73 => ⟨S1x128x128, .f32⟩
  | 74 => ⟨S128x128, .f32⟩
  | 75 => ⟨S1x128, .f32⟩
  | 76 => ⟨S128, .f32⟩
  | 77 => ⟨S50000x128, .f32⟩
  | 78 => ⟨S50000, .i32⟩
  | 79 => ⟨S850000, .i32⟩
  | 80 => ⟨S850000, .i32⟩
  | 81 => ⟨S_, .f32⟩
  | 82 => ⟨S850000, .f32⟩
  | 83 => ⟨S_, .f32⟩
  | 84 => ⟨S50000, .f32⟩
  | 85 => ⟨S850000x1, .i32⟩
  | 86 => ⟨S50000, .f32⟩
  | 87 => ⟨S_, .f32⟩
  | 88 => ⟨S50000, .f32⟩
  | 89 => ⟨S50000, .i1⟩
  | 90 => ⟨S50000, .f32⟩
  | 91 => ⟨S_, .f32⟩
  | 92 => ⟨S_, .f32⟩
  | 93 => ⟨S50000, .f32⟩
  | 94 => ⟨S50000, .f32⟩
  | 95 => ⟨S_, .i32⟩
  | 96 => ⟨S850000, .i32⟩
  | 97 => ⟨S850000, .i1⟩
  | 98 => ⟨S_, .i32⟩
  | 99 => ⟨S850000, .i32⟩
  | 100 => ⟨S850000, .i32⟩
  | 101 => ⟨S850000, .i32⟩
  | 102 => ⟨S850000x1, .i32⟩
  | 103 => ⟨S850000, .f32⟩
  | 104 => ⟨S_, .i32⟩
  | 105 => ⟨S850000, .i32⟩
  | 106 => ⟨S850000, .i1⟩
  | 107 => ⟨S_, .i32⟩
  | 108 => ⟨S850000, .i32⟩
  | 109 => ⟨S850000, .i32⟩
  | 110 => ⟨S850000, .i32⟩
  | 111 => ⟨S850000x1, .i32⟩
  | 112 => ⟨S850000, .f32⟩
  | 113 => ⟨S850000, .f32⟩
  | 114 => ⟨S_, .i32⟩
  | 115 => ⟨S850000, .i32⟩
  | 116 => ⟨S850000, .i1⟩
  | 117 => ⟨S_, .i32⟩
  | 118 => ⟨S850000, .i32⟩
  | 119 => ⟨S850000, .i32⟩
  | 120 => ⟨S850000, .i32⟩
  | 121 => ⟨S850000x1, .i32⟩
  | 122 => ⟨S850000x128, .f32⟩
  | 123 => ⟨S850000x1, .f32⟩
  | 124 => ⟨S850000x128, .f32⟩
  | 125 => ⟨S850000x128, .f32⟩
  | 126 => ⟨S_, .f32⟩
  | 127 => ⟨S50000x128, .f32⟩
  | _ => ⟨S50000x256, .f32⟩

abbrev hbmTy0_6 (i : Nat) : BufTy := match i % 128 with
  | 0 => ⟨S850000x1, .i32⟩
  | 1 => ⟨S50000x128, .f32⟩
  | 2 => ⟨S1x128, .f32⟩
  | 3 => ⟨S50000x128, .f32⟩
  | 4 => ⟨S50000x128, .f32⟩
  | 5 => ⟨S1x128, .f32⟩
  | 6 => ⟨S128, .f32⟩
  | 7 => ⟨S1x128, .f32⟩
  | 8 => ⟨S128, .f32⟩
  | 9 => ⟨S_, .f32⟩
  | 10 => ⟨S50000, .f32⟩
  | 11 => ⟨S50000x1, .f32⟩
  | 12 => ⟨S_, .f32⟩
  | 13 => ⟨S50000x1, .f32⟩
  | 14 => ⟨S50000x1, .f32⟩
  | 15 => ⟨S50000x128, .f32⟩
  | 16 => ⟨S50000x128, .f32⟩
  | 17 => ⟨S50000x128, .f32⟩
  | 18 => ⟨S_, .f32⟩
  | 19 => ⟨S50000, .f32⟩
  | 20 => ⟨S50000x1, .f32⟩
  | 21 => ⟨S_, .f32⟩
  | 22 => ⟨S50000x1, .f32⟩
  | 23 => ⟨S50000x1, .f32⟩
  | 24 => ⟨S50000x128, .f32⟩
  | 25 => ⟨S50000x128, .f32⟩
  | 26 => ⟨S_, .f32⟩
  | 27 => ⟨S50000x1, .f32⟩
  | 28 => ⟨S50000x1, .f32⟩
  | 29 => ⟨S50000x1, .f32⟩
  | 30 => ⟨S50000x128, .f32⟩
  | 31 => ⟨S50000x128, .f32⟩
  | 32 => ⟨S1x128, .f32⟩
  | 33 => ⟨S50000x128, .f32⟩
  | 34 => ⟨S50000x128, .f32⟩
  | 35 => ⟨S1x128, .f32⟩
  | 36 => ⟨S50000x128, .f32⟩
  | 37 => ⟨S50000x128, .f32⟩
  | 38 => ⟨S_, .f32⟩
  | 39 => ⟨S50000x128, .f32⟩
  | 40 => ⟨S50000x128, .f32⟩
  | 41 => ⟨S50000x128, .f32⟩
  | 42 => ⟨S50000x256, .f32⟩
  | 43 => ⟨S50000x10, .f32⟩
  | 44 => ⟨S1x10, .f32⟩
  | 45 => ⟨S50000x10, .f32⟩
  | 46 => ⟨S50000x10, .f32⟩
  | _ => ⟨S50000x256, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | _ => ⟨S50000x256, .f32⟩

abbrev bufTy : (tb : Table) → Fin (tcTables nBuf tb) → BufTy
  | .hbm, ⟨i, _⟩ => hbmTy i
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_cst : Ref sig .tc := ⟨.hbm, 34, rfl⟩
abbrev main_v16 : Ref sig .tc := ⟨.hbm, 35, rfl⟩
abbrev main_cst_0 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_cst_1 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_cst_2 : Ref sig .tc := ⟨.hbm, 44, rfl⟩
abbrev main_call0_v0 : Ref sig .tc := ⟨.hbm, 45, rfl⟩
abbrev main_call0_v1 : Ref sig .tc := ⟨.hbm, 46, rfl⟩
abbrev main_v23 : Ref sig .tc := ⟨.hbm, 47, rfl⟩
abbrev main_c : Ref sig .tc := ⟨.hbm, 48, rfl⟩
abbrev main_v24 : Ref sig .tc := ⟨.hbm, 49, rfl⟩
abbrev main_v25 : Ref sig .tc := ⟨.hbm, 50, rfl⟩
abbrev main_c_3 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_c_4 : Ref sig .tc := ⟨.hbm, 57, rfl⟩
abbrev main_v31 : Ref sig .tc := ⟨.hbm, 58, rfl⟩
abbrev main_v32 : Ref sig .tc := ⟨.hbm, 59, rfl⟩
abbrev main_c_5 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_c_6 : Ref sig .tc := ⟨.hbm, 67, rfl⟩
abbrev main_v39 : Ref sig .tc := ⟨.hbm, 68, rfl⟩
abbrev main_v40 : Ref sig .tc := ⟨.hbm, 69, rfl⟩
abbrev main_c_7 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_cst_8 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_cst_9 : Ref sig .tc := ⟨.hbm, 90, rfl⟩
abbrev main_v59 : Ref sig .tc := ⟨.hbm, 91, rfl⟩
abbrev main_v60 : Ref sig .tc := ⟨.hbm, 92, rfl⟩
abbrev main_cst_10 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_cst_11 : Ref sig .tc := ⟨.hbm, 99, rfl⟩
abbrev main_v66 : Ref sig .tc := ⟨.hbm, 100, rfl⟩
abbrev main_v67 : Ref sig .tc := ⟨.hbm, 101, rfl⟩
abbrev main_cst_12 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_cst_13 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_call1_cst : Ref sig .tc := ⟨.hbm, 119, rfl⟩
abbrev main_call1_v0 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_cst_14 : Ref sig .tc := ⟨.hbm, 131, rfl⟩
abbrev main_v93 : Ref sig .tc := ⟨.hbm, 132, rfl⟩
abbrev main_cst_15 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_cst_16 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_cst_17 : Ref sig .tc := ⟨.hbm, 141, rfl⟩
abbrev main_call2_v0 : Ref sig .tc := ⟨.hbm, 142, rfl⟩
abbrev main_call2_v1 : Ref sig .tc := ⟨.hbm, 143, rfl⟩
abbrev main_v100 : Ref sig .tc := ⟨.hbm, 144, rfl⟩
abbrev main_c_18 : Ref sig .tc := ⟨.hbm, 145, rfl⟩
abbrev main_v101 : Ref sig .tc := ⟨.hbm, 146, rfl⟩
abbrev main_v102 : Ref sig .tc := ⟨.hbm, 147, rfl⟩
abbrev main_c_19 : Ref sig .tc := ⟨.hbm, 148, rfl⟩
abbrev main_v103 : Ref sig .tc := ⟨.hbm, 149, rfl⟩
abbrev main_v104 : Ref sig .tc := ⟨.hbm, 150, rfl⟩
abbrev main_v105 : Ref sig .tc := ⟨.hbm, 151, rfl⟩
abbrev main_v106 : Ref sig .tc := ⟨.hbm, 152, rfl⟩
abbrev main_v107 : Ref sig .tc := ⟨.hbm, 153, rfl⟩
abbrev main_c_20 : Ref sig .tc := ⟨.hbm, 154, rfl⟩
abbrev main_v108 : Ref sig .tc := ⟨.hbm, 155, rfl⟩
abbrev main_v109 : Ref sig .tc := ⟨.hbm, 156, rfl⟩
abbrev main_c_21 : Ref sig .tc := ⟨.hbm, 157, rfl⟩
abbrev main_v110 : Ref sig .tc := ⟨.hbm, 158, rfl⟩
abbrev main_v111 : Ref sig .tc := ⟨.hbm, 159, rfl⟩
abbrev main_v112 : Ref sig .tc := ⟨.hbm, 160, rfl⟩
abbrev main_v113 : Ref sig .tc := ⟨.hbm, 161, rfl⟩
abbrev main_v114 : Ref sig .tc := ⟨.hbm, 162, rfl⟩
abbrev main_v115 : Ref sig .tc := ⟨.hbm, 163, rfl⟩
abbrev main_c_22 : Ref sig .tc := ⟨.hbm, 164, rfl⟩
abbrev main_v116 : Ref sig .tc := ⟨.hbm, 165, rfl⟩
abbrev main_v117 : Ref sig .tc := ⟨.hbm, 166, rfl⟩
abbrev main_c_23 : Ref sig .tc := ⟨.hbm, 167, rfl⟩
abbrev main_v118 : Ref sig .tc := ⟨.hbm, 168, rfl⟩
abbrev main_v119 : Ref sig .tc := ⟨.hbm, 169, rfl⟩
abbrev main_v120 : Ref sig .tc := ⟨.hbm, 170, rfl⟩
abbrev main_v121 : Ref sig .tc := ⟨.hbm, 171, rfl⟩
abbrev main_v122 : Ref sig .tc := ⟨.hbm, 172, rfl⟩
abbrev main_v123 : Ref sig .tc := ⟨.hbm, 173, rfl⟩
abbrev main_v124 : Ref sig .tc := ⟨.hbm, 174, rfl⟩
abbrev main_v125 : Ref sig .tc := ⟨.hbm, 175, rfl⟩
abbrev main_cst_24 : Ref sig .tc := ⟨.hbm, 176, rfl⟩
abbrev main_v126 : Ref sig .tc := ⟨.hbm, 177, rfl⟩
abbrev main_v127 : Ref sig .tc := ⟨.hbm, 178, rfl⟩
abbrev main_v128 : Ref sig .tc := ⟨.hbm, 179, rfl⟩
abbrev main_v129 : Ref sig .tc := ⟨.hbm, 180, rfl⟩
abbrev main_v130 : Ref sig .tc := ⟨.hbm, 181, rfl⟩
abbrev main_v131 : Ref sig .tc := ⟨.hbm, 182, rfl⟩
abbrev main_v132 : Ref sig .tc := ⟨.hbm, 183, rfl⟩
abbrev main_v133 : Ref sig .tc := ⟨.hbm, 184, rfl⟩
abbrev main_v134 : Ref sig .tc := ⟨.hbm, 185, rfl⟩
abbrev main_v135 : Ref sig .tc := ⟨.hbm, 186, rfl⟩
abbrev main_cst_25 : Ref sig .tc := ⟨.hbm, 187, rfl⟩
abbrev main_v136 : Ref sig .tc := ⟨.hbm, 188, rfl⟩
abbrev main_v137 : Ref sig .tc := ⟨.hbm, 189, rfl⟩
abbrev main_cst_26 : Ref sig .tc := ⟨.hbm, 190, rfl⟩
abbrev main_v138 : Ref sig .tc := ⟨.hbm, 191, rfl⟩
abbrev main_v139 : Ref sig .tc := ⟨.hbm, 192, rfl⟩
abbrev main_v140 : Ref sig .tc := ⟨.hbm, 193, rfl⟩
abbrev main_v141 : Ref sig .tc := ⟨.hbm, 194, rfl⟩
abbrev main_v142 : Ref sig .tc := ⟨.hbm, 195, rfl⟩
abbrev main_cst_27 : Ref sig .tc := ⟨.hbm, 196, rfl⟩
abbrev main_v143 : Ref sig .tc := ⟨.hbm, 197, rfl⟩
abbrev main_v144 : Ref sig .tc := ⟨.hbm, 198, rfl⟩
abbrev main_cst_28 : Ref sig .tc := ⟨.hbm, 199, rfl⟩
abbrev main_v145 : Ref sig .tc := ⟨.hbm, 200, rfl⟩
abbrev main_v146 : Ref sig .tc := ⟨.hbm, 201, rfl⟩
abbrev main_v147 : Ref sig .tc := ⟨.hbm, 202, rfl⟩
abbrev main_v148 : Ref sig .tc := ⟨.hbm, 203, rfl⟩
abbrev main_cst_29 : Ref sig .tc := ⟨.hbm, 204, rfl⟩
abbrev main_v149 : Ref sig .tc := ⟨.hbm, 205, rfl⟩
abbrev main_v150 : Ref sig .tc := ⟨.hbm, 206, rfl⟩
abbrev main_v151 : Ref sig .tc := ⟨.hbm, 207, rfl⟩
abbrev main_v152 : Ref sig .tc := ⟨.hbm, 208, rfl⟩
abbrev main_v153 : Ref sig .tc := ⟨.hbm, 209, rfl⟩
abbrev main_v154 : Ref sig .tc := ⟨.hbm, 210, rfl⟩
abbrev main_v155 : Ref sig .tc := ⟨.hbm, 211, rfl⟩
abbrev main_v156 : Ref sig .tc := ⟨.hbm, 212, rfl⟩
abbrev main_v157 : Ref sig .tc := ⟨.hbm, 213, rfl⟩
abbrev main_v158 : Ref sig .tc := ⟨.hbm, 214, rfl⟩
abbrev main_v159 : Ref sig .tc := ⟨.hbm, 215, rfl⟩
abbrev main_call3_cst : Ref sig .tc := ⟨.hbm, 216, rfl⟩
abbrev main_call3_v0 : Ref sig .tc := ⟨.hbm, 217, rfl⟩
abbrev main_v160 : Ref sig .tc := ⟨.hbm, 218, rfl⟩
abbrev main_v161 : Ref sig .tc := ⟨.hbm, 219, rfl⟩
abbrev main_v162 : Ref sig .tc := ⟨.hbm, 220, rfl⟩
abbrev main_v163 : Ref sig .tc := ⟨.hbm, 221, rfl⟩
abbrev main_v164 : Ref sig .tc := ⟨.hbm, 222, rfl⟩
abbrev main_v165 : Ref sig .tc := ⟨.hbm, 223, rfl⟩
abbrev main_v166 : Ref sig .tc := ⟨.hbm, 224, rfl⟩
abbrev main_v167 : Ref sig .tc := ⟨.hbm, 225, rfl⟩
abbrev main_v168 : Ref sig .tc := ⟨.hbm, 226, rfl⟩
abbrev main_v169 : Ref sig .tc := ⟨.hbm, 227, rfl⟩
abbrev main_cst_30 : Ref sig .tc := ⟨.hbm, 228, rfl⟩
abbrev main_v170 : Ref sig .tc := ⟨.hbm, 229, rfl⟩
abbrev main_cst_31 : Ref sig .tc := ⟨.hbm, 230, rfl⟩
abbrev main_v171 : Ref sig .tc := ⟨.hbm, 231, rfl⟩
abbrev main_v172 : Ref sig .tc := ⟨.hbm, 232, rfl⟩
abbrev main_v173 : Ref sig .tc := ⟨.hbm, 233, rfl⟩
abbrev main_cst_32 : Ref sig .tc := ⟨.hbm, 234, rfl⟩
abbrev main_v174 : Ref sig .tc := ⟨.hbm, 235, rfl⟩
abbrev main_v175 : Ref sig .tc := ⟨.hbm, 236, rfl⟩
abbrev main_v176 : Ref sig .tc := ⟨.hbm, 237, rfl⟩
abbrev main_cst_33 : Ref sig .tc := ⟨.hbm, 238, rfl⟩
abbrev main_call4_v0 : Ref sig .tc := ⟨.hbm, 239, rfl⟩
abbrev main_call4_v1 : Ref sig .tc := ⟨.hbm, 240, rfl⟩
abbrev main_v177 : Ref sig .tc := ⟨.hbm, 241, rfl⟩
abbrev main_c_34 : Ref sig .tc := ⟨.hbm, 242, rfl⟩
abbrev main_v178 : Ref sig .tc := ⟨.hbm, 243, rfl⟩
abbrev main_v179 : Ref sig .tc := ⟨.hbm, 244, rfl⟩
abbrev main_c_35 : Ref sig .tc := ⟨.hbm, 245, rfl⟩
abbrev main_v180 : Ref sig .tc := ⟨.hbm, 246, rfl⟩
abbrev main_v181 : Ref sig .tc := ⟨.hbm, 247, rfl⟩
abbrev main_v182 : Ref sig .tc := ⟨.hbm, 248, rfl⟩
abbrev main_v183 : Ref sig .tc := ⟨.hbm, 249, rfl⟩
abbrev main_v184 : Ref sig .tc := ⟨.hbm, 250, rfl⟩
abbrev main_c_36 : Ref sig .tc := ⟨.hbm, 251, rfl⟩
abbrev main_v185 : Ref sig .tc := ⟨.hbm, 252, rfl⟩
abbrev main_v186 : Ref sig .tc := ⟨.hbm, 253, rfl⟩
abbrev main_c_37 : Ref sig .tc := ⟨.hbm, 254, rfl⟩
abbrev main_v187 : Ref sig .tc := ⟨.hbm, 255, rfl⟩
abbrev main_v188 : Ref sig .tc := ⟨.hbm, 256, rfl⟩
abbrev main_v189 : Ref sig .tc := ⟨.hbm, 257, rfl⟩
abbrev main_v190 : Ref sig .tc := ⟨.hbm, 258, rfl⟩
abbrev main_v191 : Ref sig .tc := ⟨.hbm, 259, rfl⟩
abbrev main_v192 : Ref sig .tc := ⟨.hbm, 260, rfl⟩
abbrev main_c_38 : Ref sig .tc := ⟨.hbm, 261, rfl⟩
abbrev main_v193 : Ref sig .tc := ⟨.hbm, 262, rfl⟩
abbrev main_v194 : Ref sig .tc := ⟨.hbm, 263, rfl⟩
abbrev main_c_39 : Ref sig .tc := ⟨.hbm, 264, rfl⟩
abbrev main_v195 : Ref sig .tc := ⟨.hbm, 265, rfl⟩
abbrev main_v196 : Ref sig .tc := ⟨.hbm, 266, rfl⟩
abbrev main_v197 : Ref sig .tc := ⟨.hbm, 267, rfl⟩
abbrev main_v198 : Ref sig .tc := ⟨.hbm, 268, rfl⟩
abbrev main_v199 : Ref sig .tc := ⟨.hbm, 269, rfl⟩
abbrev main_v200 : Ref sig .tc := ⟨.hbm, 270, rfl⟩
abbrev main_v201 : Ref sig .tc := ⟨.hbm, 271, rfl⟩
abbrev main_v202 : Ref sig .tc := ⟨.hbm, 272, rfl⟩
abbrev main_cst_40 : Ref sig .tc := ⟨.hbm, 273, rfl⟩
abbrev main_v203 : Ref sig .tc := ⟨.hbm, 274, rfl⟩
abbrev main_v204 : Ref sig .tc := ⟨.hbm, 275, rfl⟩
abbrev main_v205 : Ref sig .tc := ⟨.hbm, 276, rfl⟩
abbrev main_v206 : Ref sig .tc := ⟨.hbm, 277, rfl⟩
abbrev main_v207 : Ref sig .tc := ⟨.hbm, 278, rfl⟩
abbrev main_v208 : Ref sig .tc := ⟨.hbm, 279, rfl⟩
abbrev main_v209 : Ref sig .tc := ⟨.hbm, 280, rfl⟩
abbrev main_v210 : Ref sig .tc := ⟨.hbm, 281, rfl⟩
abbrev main_v211 : Ref sig .tc := ⟨.hbm, 282, rfl⟩
abbrev main_v212 : Ref sig .tc := ⟨.hbm, 283, rfl⟩
abbrev main_cst_41 : Ref sig .tc := ⟨.hbm, 284, rfl⟩
abbrev main_v213 : Ref sig .tc := ⟨.hbm, 285, rfl⟩
abbrev main_v214 : Ref sig .tc := ⟨.hbm, 286, rfl⟩
abbrev main_cst_42 : Ref sig .tc := ⟨.hbm, 287, rfl⟩
abbrev main_v215 : Ref sig .tc := ⟨.hbm, 288, rfl⟩
abbrev main_v216 : Ref sig .tc := ⟨.hbm, 289, rfl⟩
abbrev main_v217 : Ref sig .tc := ⟨.hbm, 290, rfl⟩
abbrev main_v218 : Ref sig .tc := ⟨.hbm, 291, rfl⟩
abbrev main_v219 : Ref sig .tc := ⟨.hbm, 292, rfl⟩
abbrev main_cst_43 : Ref sig .tc := ⟨.hbm, 293, rfl⟩
abbrev main_v220 : Ref sig .tc := ⟨.hbm, 294, rfl⟩
abbrev main_v221 : Ref sig .tc := ⟨.hbm, 295, rfl⟩
abbrev main_cst_44 : Ref sig .tc := ⟨.hbm, 296, rfl⟩
abbrev main_v222 : Ref sig .tc := ⟨.hbm, 297, rfl⟩
abbrev main_v223 : Ref sig .tc := ⟨.hbm, 298, rfl⟩
abbrev main_v224 : Ref sig .tc := ⟨.hbm, 299, rfl⟩
abbrev main_v225 : Ref sig .tc := ⟨.hbm, 300, rfl⟩
abbrev main_cst_45 : Ref sig .tc := ⟨.hbm, 301, rfl⟩
abbrev main_v226 : Ref sig .tc := ⟨.hbm, 302, rfl⟩
abbrev main_v227 : Ref sig .tc := ⟨.hbm, 303, rfl⟩
abbrev main_v228 : Ref sig .tc := ⟨.hbm, 304, rfl⟩
abbrev main_v229 : Ref sig .tc := ⟨.hbm, 305, rfl⟩
abbrev main_v230 : Ref sig .tc := ⟨.hbm, 306, rfl⟩
abbrev main_v231 : Ref sig .tc := ⟨.hbm, 307, rfl⟩
abbrev main_v232 : Ref sig .tc := ⟨.hbm, 308, rfl⟩
abbrev main_v233 : Ref sig .tc := ⟨.hbm, 309, rfl⟩
abbrev main_v234 : Ref sig .tc := ⟨.hbm, 310, rfl⟩
abbrev main_v235 : Ref sig .tc := ⟨.hbm, 311, rfl⟩
abbrev main_v236 : Ref sig .tc := ⟨.hbm, 312, rfl⟩
abbrev main_call5_cst : Ref sig .tc := ⟨.hbm, 313, rfl⟩
abbrev main_call5_v0 : Ref sig .tc := ⟨.hbm, 314, rfl⟩
abbrev main_v237 : Ref sig .tc := ⟨.hbm, 315, rfl⟩
abbrev main_v238 : Ref sig .tc := ⟨.hbm, 316, rfl⟩
abbrev main_v239 : Ref sig .tc := ⟨.hbm, 317, rfl⟩
abbrev main_v240 : Ref sig .tc := ⟨.hbm, 318, rfl⟩
abbrev main_v241 : Ref sig .tc := ⟨.hbm, 319, rfl⟩
abbrev main_v242 : Ref sig .tc := ⟨.hbm, 320, rfl⟩
abbrev main_v243 : Ref sig .tc := ⟨.hbm, 321, rfl⟩
abbrev main_v244 : Ref sig .tc := ⟨.hbm, 322, rfl⟩
abbrev main_v245 : Ref sig .tc := ⟨.hbm, 323, rfl⟩
abbrev main_v246 : Ref sig .tc := ⟨.hbm, 324, rfl⟩
abbrev main_cst_46 : Ref sig .tc := ⟨.hbm, 325, rfl⟩
abbrev main_v247 : Ref sig .tc := ⟨.hbm, 326, rfl⟩
abbrev main_cst_47 : Ref sig .tc := ⟨.hbm, 327, rfl⟩
abbrev main_v248 : Ref sig .tc := ⟨.hbm, 328, rfl⟩
abbrev main_v249 : Ref sig .tc := ⟨.hbm, 329, rfl⟩
abbrev main_v250 : Ref sig .tc := ⟨.hbm, 330, rfl⟩
abbrev main_cst_48 : Ref sig .tc := ⟨.hbm, 331, rfl⟩
abbrev main_v251 : Ref sig .tc := ⟨.hbm, 332, rfl⟩
abbrev main_v252 : Ref sig .tc := ⟨.hbm, 333, rfl⟩
abbrev main_v253 : Ref sig .tc := ⟨.hbm, 334, rfl⟩
abbrev main_cst_49 : Ref sig .tc := ⟨.hbm, 335, rfl⟩
abbrev main_call6_v0 : Ref sig .tc := ⟨.hbm, 336, rfl⟩
abbrev main_call6_v1 : Ref sig .tc := ⟨.hbm, 337, rfl⟩
abbrev main_v254 : Ref sig .tc := ⟨.hbm, 338, rfl⟩
abbrev main_c_50 : Ref sig .tc := ⟨.hbm, 339, rfl⟩
abbrev main_v255 : Ref sig .tc := ⟨.hbm, 340, rfl⟩
abbrev main_v256 : Ref sig .tc := ⟨.hbm, 341, rfl⟩
abbrev main_c_51 : Ref sig .tc := ⟨.hbm, 342, rfl⟩
abbrev main_v257 : Ref sig .tc := ⟨.hbm, 343, rfl⟩
abbrev main_v258 : Ref sig .tc := ⟨.hbm, 344, rfl⟩
abbrev main_v259 : Ref sig .tc := ⟨.hbm, 345, rfl⟩
abbrev main_v260 : Ref sig .tc := ⟨.hbm, 346, rfl⟩
abbrev main_v261 : Ref sig .tc := ⟨.hbm, 347, rfl⟩
abbrev main_c_52 : Ref sig .tc := ⟨.hbm, 348, rfl⟩
abbrev main_v262 : Ref sig .tc := ⟨.hbm, 349, rfl⟩
abbrev main_v263 : Ref sig .tc := ⟨.hbm, 350, rfl⟩
abbrev main_c_53 : Ref sig .tc := ⟨.hbm, 351, rfl⟩
abbrev main_v264 : Ref sig .tc := ⟨.hbm, 352, rfl⟩
abbrev main_v265 : Ref sig .tc := ⟨.hbm, 353, rfl⟩
abbrev main_v266 : Ref sig .tc := ⟨.hbm, 354, rfl⟩
abbrev main_v267 : Ref sig .tc := ⟨.hbm, 355, rfl⟩
abbrev main_v268 : Ref sig .tc := ⟨.hbm, 356, rfl⟩
abbrev main_v269 : Ref sig .tc := ⟨.hbm, 357, rfl⟩
abbrev main_c_54 : Ref sig .tc := ⟨.hbm, 358, rfl⟩
abbrev main_v270 : Ref sig .tc := ⟨.hbm, 359, rfl⟩
abbrev main_v271 : Ref sig .tc := ⟨.hbm, 360, rfl⟩
abbrev main_c_55 : Ref sig .tc := ⟨.hbm, 361, rfl⟩
abbrev main_v272 : Ref sig .tc := ⟨.hbm, 362, rfl⟩
abbrev main_v273 : Ref sig .tc := ⟨.hbm, 363, rfl⟩
abbrev main_v274 : Ref sig .tc := ⟨.hbm, 364, rfl⟩
abbrev main_v275 : Ref sig .tc := ⟨.hbm, 365, rfl⟩
abbrev main_v276 : Ref sig .tc := ⟨.hbm, 366, rfl⟩
abbrev main_v277 : Ref sig .tc := ⟨.hbm, 367, rfl⟩
abbrev main_v278 : Ref sig .tc := ⟨.hbm, 368, rfl⟩
abbrev main_v279 : Ref sig .tc := ⟨.hbm, 369, rfl⟩
abbrev main_cst_56 : Ref sig .tc := ⟨.hbm, 370, rfl⟩
abbrev main_v280 : Ref sig .tc := ⟨.hbm, 371, rfl⟩
abbrev main_v281 : Ref sig .tc := ⟨.hbm, 372, rfl⟩
abbrev main_v282 : Ref sig .tc := ⟨.hbm, 373, rfl⟩
abbrev main_v283 : Ref sig .tc := ⟨.hbm, 374, rfl⟩
abbrev main_v284 : Ref sig .tc := ⟨.hbm, 375, rfl⟩
abbrev main_v285 : Ref sig .tc := ⟨.hbm, 376, rfl⟩
abbrev main_v286 : Ref sig .tc := ⟨.hbm, 377, rfl⟩
abbrev main_v287 : Ref sig .tc := ⟨.hbm, 378, rfl⟩
abbrev main_v288 : Ref sig .tc := ⟨.hbm, 379, rfl⟩
abbrev main_v289 : Ref sig .tc := ⟨.hbm, 380, rfl⟩
abbrev main_cst_57 : Ref sig .tc := ⟨.hbm, 381, rfl⟩
abbrev main_v290 : Ref sig .tc := ⟨.hbm, 382, rfl⟩
abbrev main_v291 : Ref sig .tc := ⟨.hbm, 383, rfl⟩
abbrev main_cst_58 : Ref sig .tc := ⟨.hbm, 384, rfl⟩
abbrev main_v292 : Ref sig .tc := ⟨.hbm, 385, rfl⟩
abbrev main_v293 : Ref sig .tc := ⟨.hbm, 386, rfl⟩
abbrev main_v294 : Ref sig .tc := ⟨.hbm, 387, rfl⟩
abbrev main_v295 : Ref sig .tc := ⟨.hbm, 388, rfl⟩
abbrev main_v296 : Ref sig .tc := ⟨.hbm, 389, rfl⟩
abbrev main_cst_59 : Ref sig .tc := ⟨.hbm, 390, rfl⟩
abbrev main_v297 : Ref sig .tc := ⟨.hbm, 391, rfl⟩
abbrev main_v298 : Ref sig .tc := ⟨.hbm, 392, rfl⟩
abbrev main_cst_60 : Ref sig .tc := ⟨.hbm, 393, rfl⟩
abbrev main_v299 : Ref sig .tc := ⟨.hbm, 394, rfl⟩
abbrev main_v300 : Ref sig .tc := ⟨.hbm, 395, rfl⟩
abbrev main_v301 : Ref sig .tc := ⟨.hbm, 396, rfl⟩
abbrev main_v302 : Ref sig .tc := ⟨.hbm, 397, rfl⟩
abbrev main_cst_61 : Ref sig .tc := ⟨.hbm, 398, rfl⟩
abbrev main_v303 : Ref sig .tc := ⟨.hbm, 399, rfl⟩
abbrev main_v304 : Ref sig .tc := ⟨.hbm, 400, rfl⟩
abbrev main_v305 : Ref sig .tc := ⟨.hbm, 401, rfl⟩
abbrev main_v306 : Ref sig .tc := ⟨.hbm, 402, rfl⟩
abbrev main_v307 : Ref sig .tc := ⟨.hbm, 403, rfl⟩
abbrev main_v308 : Ref sig .tc := ⟨.hbm, 404, rfl⟩
abbrev main_v309 : Ref sig .tc := ⟨.hbm, 405, rfl⟩
abbrev main_v310 : Ref sig .tc := ⟨.hbm, 406, rfl⟩
abbrev main_v311 : Ref sig .tc := ⟨.hbm, 407, rfl⟩
abbrev main_v312 : Ref sig .tc := ⟨.hbm, 408, rfl⟩
abbrev main_v313 : Ref sig .tc := ⟨.hbm, 409, rfl⟩
abbrev main_call7_cst : Ref sig .tc := ⟨.hbm, 410, rfl⟩
abbrev main_call7_v0 : Ref sig .tc := ⟨.hbm, 411, rfl⟩
abbrev main_v314 : Ref sig .tc := ⟨.hbm, 412, rfl⟩
abbrev main_v315 : Ref sig .tc := ⟨.hbm, 413, rfl⟩
abbrev main_v316 : Ref sig .tc := ⟨.hbm, 414, rfl⟩
abbrev main_v317 : Ref sig .tc := ⟨.hbm, 415, rfl⟩
abbrev main_v318 : Ref sig .tc := ⟨.hbm, 416, rfl⟩
abbrev main_v319 : Ref sig .tc := ⟨.hbm, 417, rfl⟩
abbrev main_v320 : Ref sig .tc := ⟨.hbm, 418, rfl⟩
abbrev main_v321 : Ref sig .tc := ⟨.hbm, 419, rfl⟩
abbrev main_v322 : Ref sig .tc := ⟨.hbm, 420, rfl⟩
abbrev main_v323 : Ref sig .tc := ⟨.hbm, 421, rfl⟩
abbrev main_v324 : Ref sig .tc := ⟨.hbm, 422, rfl⟩
abbrev main_v325 : Ref sig .tc := ⟨.hbm, 423, rfl⟩
abbrev main_v326 : Ref sig .tc := ⟨.hbm, 424, rfl⟩
abbrev main_v327 : Ref sig .tc := ⟨.hbm, 425, rfl⟩
abbrev main_v328 : Ref sig .tc := ⟨.hbm, 426, rfl⟩
abbrev main_v329 : Ref sig .tc := ⟨.hbm, 427, rfl⟩
abbrev main_v330 : Ref sig .tc := ⟨.hbm, 428, rfl⟩
abbrev main_v331 : Ref sig .tc := ⟨.hbm, 429, rfl⟩
abbrev main_cst_62 : Ref sig .tc := ⟨.hbm, 430, rfl⟩
abbrev main_v332 : Ref sig .tc := ⟨.hbm, 431, rfl⟩
abbrev main_cst_63 : Ref sig .tc := ⟨.hbm, 432, rfl⟩
abbrev main_v333 : Ref sig .tc := ⟨.hbm, 433, rfl⟩
abbrev main_v334 : Ref sig .tc := ⟨.hbm, 434, rfl⟩
abbrev main_v335 : Ref sig .tc := ⟨.hbm, 435, rfl⟩
abbrev main_cst_64 : Ref sig .tc := ⟨.hbm, 436, rfl⟩
abbrev main_v336 : Ref sig .tc := ⟨.hbm, 437, rfl⟩
abbrev main_v337 : Ref sig .tc := ⟨.hbm, 438, rfl⟩
abbrev main_v338 : Ref sig .tc := ⟨.hbm, 439, rfl⟩
abbrev main_cst_65 : Ref sig .tc := ⟨.hbm, 440, rfl⟩
abbrev main_call8_v0 : Ref sig .tc := ⟨.hbm, 441, rfl⟩
abbrev main_call8_v1 : Ref sig .tc := ⟨.hbm, 442, rfl⟩
abbrev main_v339 : Ref sig .tc := ⟨.hbm, 443, rfl⟩
abbrev main_c_66 : Ref sig .tc := ⟨.hbm, 444, rfl⟩
abbrev main_v340 : Ref sig .tc := ⟨.hbm, 445, rfl⟩
abbrev main_v341 : Ref sig .tc := ⟨.hbm, 446, rfl⟩
abbrev main_c_67 : Ref sig .tc := ⟨.hbm, 447, rfl⟩
abbrev main_v342 : Ref sig .tc := ⟨.hbm, 448, rfl⟩
abbrev main_v343 : Ref sig .tc := ⟨.hbm, 449, rfl⟩
abbrev main_v344 : Ref sig .tc := ⟨.hbm, 450, rfl⟩
abbrev main_v345 : Ref sig .tc := ⟨.hbm, 451, rfl⟩
abbrev main_v346 : Ref sig .tc := ⟨.hbm, 452, rfl⟩
abbrev main_c_68 : Ref sig .tc := ⟨.hbm, 453, rfl⟩
abbrev main_v347 : Ref sig .tc := ⟨.hbm, 454, rfl⟩
abbrev main_v348 : Ref sig .tc := ⟨.hbm, 455, rfl⟩
abbrev main_c_69 : Ref sig .tc := ⟨.hbm, 456, rfl⟩
abbrev main_v349 : Ref sig .tc := ⟨.hbm, 457, rfl⟩
abbrev main_v350 : Ref sig .tc := ⟨.hbm, 458, rfl⟩
abbrev main_v351 : Ref sig .tc := ⟨.hbm, 459, rfl⟩
abbrev main_v352 : Ref sig .tc := ⟨.hbm, 460, rfl⟩
abbrev main_v353 : Ref sig .tc := ⟨.hbm, 461, rfl⟩
abbrev main_v354 : Ref sig .tc := ⟨.hbm, 462, rfl⟩
abbrev main_c_70 : Ref sig .tc := ⟨.hbm, 463, rfl⟩
abbrev main_v355 : Ref sig .tc := ⟨.hbm, 464, rfl⟩
abbrev main_v356 : Ref sig .tc := ⟨.hbm, 465, rfl⟩
abbrev main_c_71 : Ref sig .tc := ⟨.hbm, 466, rfl⟩
abbrev main_v357 : Ref sig .tc := ⟨.hbm, 467, rfl⟩
abbrev main_v358 : Ref sig .tc := ⟨.hbm, 468, rfl⟩
abbrev main_v359 : Ref sig .tc := ⟨.hbm, 469, rfl⟩
abbrev main_v360 : Ref sig .tc := ⟨.hbm, 470, rfl⟩
abbrev main_v361 : Ref sig .tc := ⟨.hbm, 471, rfl⟩
abbrev main_v362 : Ref sig .tc := ⟨.hbm, 472, rfl⟩
abbrev main_v363 : Ref sig .tc := ⟨.hbm, 473, rfl⟩
abbrev main_v364 : Ref sig .tc := ⟨.hbm, 474, rfl⟩
abbrev main_cst_72 : Ref sig .tc := ⟨.hbm, 475, rfl⟩
abbrev main_v365 : Ref sig .tc := ⟨.hbm, 476, rfl⟩
abbrev main_v366 : Ref sig .tc := ⟨.hbm, 477, rfl⟩
abbrev main_v367 : Ref sig .tc := ⟨.hbm, 478, rfl⟩
abbrev main_v368 : Ref sig .tc := ⟨.hbm, 479, rfl⟩
abbrev main_v369 : Ref sig .tc := ⟨.hbm, 480, rfl⟩
abbrev main_v370 : Ref sig .tc := ⟨.hbm, 481, rfl⟩
abbrev main_v371 : Ref sig .tc := ⟨.hbm, 482, rfl⟩
abbrev main_v372 : Ref sig .tc := ⟨.hbm, 483, rfl⟩
abbrev main_v373 : Ref sig .tc := ⟨.hbm, 484, rfl⟩
abbrev main_v374 : Ref sig .tc := ⟨.hbm, 485, rfl⟩
abbrev main_cst_73 : Ref sig .tc := ⟨.hbm, 486, rfl⟩
abbrev main_v375 : Ref sig .tc := ⟨.hbm, 487, rfl⟩
abbrev main_v376 : Ref sig .tc := ⟨.hbm, 488, rfl⟩
abbrev main_cst_74 : Ref sig .tc := ⟨.hbm, 489, rfl⟩
abbrev main_v377 : Ref sig .tc := ⟨.hbm, 490, rfl⟩
abbrev main_v378 : Ref sig .tc := ⟨.hbm, 491, rfl⟩
abbrev main_v379 : Ref sig .tc := ⟨.hbm, 492, rfl⟩
abbrev main_v380 : Ref sig .tc := ⟨.hbm, 493, rfl⟩
abbrev main_v381 : Ref sig .tc := ⟨.hbm, 494, rfl⟩
abbrev main_cst_75 : Ref sig .tc := ⟨.hbm, 495, rfl⟩
abbrev main_v382 : Ref sig .tc := ⟨.hbm, 496, rfl⟩
abbrev main_v383 : Ref sig .tc := ⟨.hbm, 497, rfl⟩
abbrev main_cst_76 : Ref sig .tc := ⟨.hbm, 498, rfl⟩
abbrev main_v384 : Ref sig .tc := ⟨.hbm, 499, rfl⟩
abbrev main_v385 : Ref sig .tc := ⟨.hbm, 500, rfl⟩
abbrev main_v386 : Ref sig .tc := ⟨.hbm, 501, rfl⟩
abbrev main_v387 : Ref sig .tc := ⟨.hbm, 502, rfl⟩
abbrev main_cst_77 : Ref sig .tc := ⟨.hbm, 503, rfl⟩
abbrev main_v388 : Ref sig .tc := ⟨.hbm, 504, rfl⟩
abbrev main_v389 : Ref sig .tc := ⟨.hbm, 505, rfl⟩
abbrev main_v390 : Ref sig .tc := ⟨.hbm, 506, rfl⟩
abbrev main_v391 : Ref sig .tc := ⟨.hbm, 507, rfl⟩
abbrev main_v392 : Ref sig .tc := ⟨.hbm, 508, rfl⟩
abbrev main_v393 : Ref sig .tc := ⟨.hbm, 509, rfl⟩
abbrev main_v394 : Ref sig .tc := ⟨.hbm, 510, rfl⟩
abbrev main_v395 : Ref sig .tc := ⟨.hbm, 511, rfl⟩
abbrev main_v396 : Ref sig .tc := ⟨.hbm, 512, rfl⟩
abbrev main_v397 : Ref sig .tc := ⟨.hbm, 513, rfl⟩
abbrev main_v398 : Ref sig .tc := ⟨.hbm, 514, rfl⟩
abbrev main_call9_cst : Ref sig .tc := ⟨.hbm, 515, rfl⟩
abbrev main_call9_v0 : Ref sig .tc := ⟨.hbm, 516, rfl⟩
abbrev main_v399 : Ref sig .tc := ⟨.hbm, 517, rfl⟩
abbrev main_v400 : Ref sig .tc := ⟨.hbm, 518, rfl⟩
abbrev main_v401 : Ref sig .tc := ⟨.hbm, 519, rfl⟩
abbrev main_v402 : Ref sig .tc := ⟨.hbm, 520, rfl⟩
abbrev main_v403 : Ref sig .tc := ⟨.hbm, 521, rfl⟩
abbrev main_v404 : Ref sig .tc := ⟨.hbm, 522, rfl⟩
abbrev main_v405 : Ref sig .tc := ⟨.hbm, 523, rfl⟩
abbrev main_v406 : Ref sig .tc := ⟨.hbm, 524, rfl⟩
abbrev main_v407 : Ref sig .tc := ⟨.hbm, 525, rfl⟩
abbrev main_v408 : Ref sig .tc := ⟨.hbm, 526, rfl⟩
abbrev main_cst_78 : Ref sig .tc := ⟨.hbm, 527, rfl⟩
abbrev main_v409 : Ref sig .tc := ⟨.hbm, 528, rfl⟩
abbrev main_cst_79 : Ref sig .tc := ⟨.hbm, 529, rfl⟩
abbrev main_v410 : Ref sig .tc := ⟨.hbm, 530, rfl⟩
abbrev main_v411 : Ref sig .tc := ⟨.hbm, 531, rfl⟩
abbrev main_v412 : Ref sig .tc := ⟨.hbm, 532, rfl⟩
abbrev main_cst_80 : Ref sig .tc := ⟨.hbm, 533, rfl⟩
abbrev main_v413 : Ref sig .tc := ⟨.hbm, 534, rfl⟩
abbrev main_v414 : Ref sig .tc := ⟨.hbm, 535, rfl⟩
abbrev main_v415 : Ref sig .tc := ⟨.hbm, 536, rfl⟩
abbrev main_cst_81 : Ref sig .tc := ⟨.hbm, 537, rfl⟩
abbrev main_call10_v0 : Ref sig .tc := ⟨.hbm, 538, rfl⟩
abbrev main_call10_v1 : Ref sig .tc := ⟨.hbm, 539, rfl⟩
abbrev main_v416 : Ref sig .tc := ⟨.hbm, 540, rfl⟩
abbrev main_c_82 : Ref sig .tc := ⟨.hbm, 541, rfl⟩
abbrev main_v417 : Ref sig .tc := ⟨.hbm, 542, rfl⟩
abbrev main_v418 : Ref sig .tc := ⟨.hbm, 543, rfl⟩
abbrev main_c_83 : Ref sig .tc := ⟨.hbm, 544, rfl⟩
abbrev main_v419 : Ref sig .tc := ⟨.hbm, 545, rfl⟩
abbrev main_v420 : Ref sig .tc := ⟨.hbm, 546, rfl⟩
abbrev main_v421 : Ref sig .tc := ⟨.hbm, 547, rfl⟩
abbrev main_v422 : Ref sig .tc := ⟨.hbm, 548, rfl⟩
abbrev main_v423 : Ref sig .tc := ⟨.hbm, 549, rfl⟩
abbrev main_c_84 : Ref sig .tc := ⟨.hbm, 550, rfl⟩
abbrev main_v424 : Ref sig .tc := ⟨.hbm, 551, rfl⟩
abbrev main_v425 : Ref sig .tc := ⟨.hbm, 552, rfl⟩
abbrev main_c_85 : Ref sig .tc := ⟨.hbm, 553, rfl⟩
abbrev main_v426 : Ref sig .tc := ⟨.hbm, 554, rfl⟩
abbrev main_v427 : Ref sig .tc := ⟨.hbm, 555, rfl⟩
abbrev main_v428 : Ref sig .tc := ⟨.hbm, 556, rfl⟩
abbrev main_v429 : Ref sig .tc := ⟨.hbm, 557, rfl⟩
abbrev main_v430 : Ref sig .tc := ⟨.hbm, 558, rfl⟩
abbrev main_v431 : Ref sig .tc := ⟨.hbm, 559, rfl⟩
abbrev main_c_86 : Ref sig .tc := ⟨.hbm, 560, rfl⟩
abbrev main_v432 : Ref sig .tc := ⟨.hbm, 561, rfl⟩
abbrev main_v433 : Ref sig .tc := ⟨.hbm, 562, rfl⟩
abbrev main_c_87 : Ref sig .tc := ⟨.hbm, 563, rfl⟩
abbrev main_v434 : Ref sig .tc := ⟨.hbm, 564, rfl⟩
abbrev main_v435 : Ref sig .tc := ⟨.hbm, 565, rfl⟩
abbrev main_v436 : Ref sig .tc := ⟨.hbm, 566, rfl⟩
abbrev main_v437 : Ref sig .tc := ⟨.hbm, 567, rfl⟩
abbrev main_v438 : Ref sig .tc := ⟨.hbm, 568, rfl⟩
abbrev main_v439 : Ref sig .tc := ⟨.hbm, 569, rfl⟩
abbrev main_v440 : Ref sig .tc := ⟨.hbm, 570, rfl⟩
abbrev main_v441 : Ref sig .tc := ⟨.hbm, 571, rfl⟩
abbrev main_cst_88 : Ref sig .tc := ⟨.hbm, 572, rfl⟩
abbrev main_v442 : Ref sig .tc := ⟨.hbm, 573, rfl⟩
abbrev main_v443 : Ref sig .tc := ⟨.hbm, 574, rfl⟩
abbrev main_v444 : Ref sig .tc := ⟨.hbm, 575, rfl⟩
abbrev main_v445 : Ref sig .tc := ⟨.hbm, 576, rfl⟩
abbrev main_v446 : Ref sig .tc := ⟨.hbm, 577, rfl⟩
abbrev main_v447 : Ref sig .tc := ⟨.hbm, 578, rfl⟩
abbrev main_v448 : Ref sig .tc := ⟨.hbm, 579, rfl⟩
abbrev main_v449 : Ref sig .tc := ⟨.hbm, 580, rfl⟩
abbrev main_v450 : Ref sig .tc := ⟨.hbm, 581, rfl⟩
abbrev main_v451 : Ref sig .tc := ⟨.hbm, 582, rfl⟩
abbrev main_cst_89 : Ref sig .tc := ⟨.hbm, 583, rfl⟩
abbrev main_v452 : Ref sig .tc := ⟨.hbm, 584, rfl⟩
abbrev main_v453 : Ref sig .tc := ⟨.hbm, 585, rfl⟩
abbrev main_cst_90 : Ref sig .tc := ⟨.hbm, 586, rfl⟩
abbrev main_v454 : Ref sig .tc := ⟨.hbm, 587, rfl⟩
abbrev main_v455 : Ref sig .tc := ⟨.hbm, 588, rfl⟩
abbrev main_v456 : Ref sig .tc := ⟨.hbm, 589, rfl⟩
abbrev main_v457 : Ref sig .tc := ⟨.hbm, 590, rfl⟩
abbrev main_v458 : Ref sig .tc := ⟨.hbm, 591, rfl⟩
abbrev main_cst_91 : Ref sig .tc := ⟨.hbm, 592, rfl⟩
abbrev main_v459 : Ref sig .tc := ⟨.hbm, 593, rfl⟩
abbrev main_v460 : Ref sig .tc := ⟨.hbm, 594, rfl⟩
abbrev main_cst_92 : Ref sig .tc := ⟨.hbm, 595, rfl⟩
abbrev main_v461 : Ref sig .tc := ⟨.hbm, 596, rfl⟩
abbrev main_v462 : Ref sig .tc := ⟨.hbm, 597, rfl⟩
abbrev main_v463 : Ref sig .tc := ⟨.hbm, 598, rfl⟩
abbrev main_v464 : Ref sig .tc := ⟨.hbm, 599, rfl⟩
abbrev main_cst_93 : Ref sig .tc := ⟨.hbm, 600, rfl⟩
abbrev main_v465 : Ref sig .tc := ⟨.hbm, 601, rfl⟩
abbrev main_v466 : Ref sig .tc := ⟨.hbm, 602, rfl⟩
abbrev main_v467 : Ref sig .tc := ⟨.hbm, 603, rfl⟩
abbrev main_v468 : Ref sig .tc := ⟨.hbm, 604, rfl⟩
abbrev main_v469 : Ref sig .tc := ⟨.hbm, 605, rfl⟩
abbrev main_v470 : Ref sig .tc := ⟨.hbm, 606, rfl⟩
abbrev main_v471 : Ref sig .tc := ⟨.hbm, 607, rfl⟩
abbrev main_v472 : Ref sig .tc := ⟨.hbm, 608, rfl⟩
abbrev main_v473 : Ref sig .tc := ⟨.hbm, 609, rfl⟩
abbrev main_v474 : Ref sig .tc := ⟨.hbm, 610, rfl⟩
abbrev main_v475 : Ref sig .tc := ⟨.hbm, 611, rfl⟩
abbrev main_call11_cst : Ref sig .tc := ⟨.hbm, 612, rfl⟩
abbrev main_call11_v0 : Ref sig .tc := ⟨.hbm, 613, rfl⟩
abbrev main_v476 : Ref sig .tc := ⟨.hbm, 614, rfl⟩
abbrev main_v477 : Ref sig .tc := ⟨.hbm, 615, rfl⟩
abbrev main_v478 : Ref sig .tc := ⟨.hbm, 616, rfl⟩
abbrev main_v479 : Ref sig .tc := ⟨.hbm, 617, rfl⟩
abbrev main_v480 : Ref sig .tc := ⟨.hbm, 618, rfl⟩
abbrev main_v481 : Ref sig .tc := ⟨.hbm, 619, rfl⟩
abbrev main_v482 : Ref sig .tc := ⟨.hbm, 620, rfl⟩
abbrev main_v483 : Ref sig .tc := ⟨.hbm, 621, rfl⟩
abbrev main_v484 : Ref sig .tc := ⟨.hbm, 622, rfl⟩
abbrev main_v485 : Ref sig .tc := ⟨.hbm, 623, rfl⟩
abbrev main_cst_94 : Ref sig .tc := ⟨.hbm, 624, rfl⟩
abbrev main_v486 : Ref sig .tc := ⟨.hbm, 625, rfl⟩
abbrev main_cst_95 : Ref sig .tc := ⟨.hbm, 626, rfl⟩
abbrev main_v487 : Ref sig .tc := ⟨.hbm, 627, rfl⟩
abbrev main_v488 : Ref sig .tc := ⟨.hbm, 628, rfl⟩
abbrev main_v489 : Ref sig .tc := ⟨.hbm, 629, rfl⟩
abbrev main_cst_96 : Ref sig .tc := ⟨.hbm, 630, rfl⟩
abbrev main_v490 : Ref sig .tc := ⟨.hbm, 631, rfl⟩
abbrev main_v491 : Ref sig .tc := ⟨.hbm, 632, rfl⟩
abbrev main_v492 : Ref sig .tc := ⟨.hbm, 633, rfl⟩
abbrev main_cst_97 : Ref sig .tc := ⟨.hbm, 634, rfl⟩
abbrev main_call12_v0 : Ref sig .tc := ⟨.hbm, 635, rfl⟩
abbrev main_call12_v1 : Ref sig .tc := ⟨.hbm, 636, rfl⟩
abbrev main_v493 : Ref sig .tc := ⟨.hbm, 637, rfl⟩
abbrev main_c_98 : Ref sig .tc := ⟨.hbm, 638, rfl⟩
abbrev main_v494 : Ref sig .tc := ⟨.hbm, 639, rfl⟩
abbrev main_v495 : Ref sig .tc := ⟨.hbm, 640, rfl⟩
abbrev main_c_99 : Ref sig .tc := ⟨.hbm, 641, rfl⟩
abbrev main_v496 : Ref sig .tc := ⟨.hbm, 642, rfl⟩
abbrev main_v497 : Ref sig .tc := ⟨.hbm, 643, rfl⟩
abbrev main_v498 : Ref sig .tc := ⟨.hbm, 644, rfl⟩
abbrev main_v499 : Ref sig .tc := ⟨.hbm, 645, rfl⟩
abbrev main_v500 : Ref sig .tc := ⟨.hbm, 646, rfl⟩
abbrev main_c_100 : Ref sig .tc := ⟨.hbm, 647, rfl⟩
abbrev main_v501 : Ref sig .tc := ⟨.hbm, 648, rfl⟩
abbrev main_v502 : Ref sig .tc := ⟨.hbm, 649, rfl⟩
abbrev main_c_101 : Ref sig .tc := ⟨.hbm, 650, rfl⟩
abbrev main_v503 : Ref sig .tc := ⟨.hbm, 651, rfl⟩
abbrev main_v504 : Ref sig .tc := ⟨.hbm, 652, rfl⟩
abbrev main_v505 : Ref sig .tc := ⟨.hbm, 653, rfl⟩
abbrev main_v506 : Ref sig .tc := ⟨.hbm, 654, rfl⟩
abbrev main_v507 : Ref sig .tc := ⟨.hbm, 655, rfl⟩
abbrev main_v508 : Ref sig .tc := ⟨.hbm, 656, rfl⟩
abbrev main_c_102 : Ref sig .tc := ⟨.hbm, 657, rfl⟩
abbrev main_v509 : Ref sig .tc := ⟨.hbm, 658, rfl⟩
abbrev main_v510 : Ref sig .tc := ⟨.hbm, 659, rfl⟩
abbrev main_c_103 : Ref sig .tc := ⟨.hbm, 660, rfl⟩
abbrev main_v511 : Ref sig .tc := ⟨.hbm, 661, rfl⟩
abbrev main_v512 : Ref sig .tc := ⟨.hbm, 662, rfl⟩
abbrev main_v513 : Ref sig .tc := ⟨.hbm, 663, rfl⟩
abbrev main_v514 : Ref sig .tc := ⟨.hbm, 664, rfl⟩
abbrev main_v515 : Ref sig .tc := ⟨.hbm, 665, rfl⟩
abbrev main_v516 : Ref sig .tc := ⟨.hbm, 666, rfl⟩
abbrev main_v517 : Ref sig .tc := ⟨.hbm, 667, rfl⟩
abbrev main_v518 : Ref sig .tc := ⟨.hbm, 668, rfl⟩
abbrev main_cst_104 : Ref sig .tc := ⟨.hbm, 669, rfl⟩
abbrev main_v519 : Ref sig .tc := ⟨.hbm, 670, rfl⟩
abbrev main_v520 : Ref sig .tc := ⟨.hbm, 671, rfl⟩
abbrev main_v521 : Ref sig .tc := ⟨.hbm, 672, rfl⟩
abbrev main_v522 : Ref sig .tc := ⟨.hbm, 673, rfl⟩
abbrev main_v523 : Ref sig .tc := ⟨.hbm, 674, rfl⟩
abbrev main_v524 : Ref sig .tc := ⟨.hbm, 675, rfl⟩
abbrev main_v525 : Ref sig .tc := ⟨.hbm, 676, rfl⟩
abbrev main_v526 : Ref sig .tc := ⟨.hbm, 677, rfl⟩
abbrev main_v527 : Ref sig .tc := ⟨.hbm, 678, rfl⟩
abbrev main_v528 : Ref sig .tc := ⟨.hbm, 679, rfl⟩
abbrev main_cst_105 : Ref sig .tc := ⟨.hbm, 680, rfl⟩
abbrev main_v529 : Ref sig .tc := ⟨.hbm, 681, rfl⟩
abbrev main_v530 : Ref sig .tc := ⟨.hbm, 682, rfl⟩
abbrev main_cst_106 : Ref sig .tc := ⟨.hbm, 683, rfl⟩
abbrev main_v531 : Ref sig .tc := ⟨.hbm, 684, rfl⟩
abbrev main_v532 : Ref sig .tc := ⟨.hbm, 685, rfl⟩
abbrev main_v533 : Ref sig .tc := ⟨.hbm, 686, rfl⟩
abbrev main_v534 : Ref sig .tc := ⟨.hbm, 687, rfl⟩
abbrev main_v535 : Ref sig .tc := ⟨.hbm, 688, rfl⟩
abbrev main_cst_107 : Ref sig .tc := ⟨.hbm, 689, rfl⟩
abbrev main_v536 : Ref sig .tc := ⟨.hbm, 690, rfl⟩
abbrev main_v537 : Ref sig .tc := ⟨.hbm, 691, rfl⟩
abbrev main_cst_108 : Ref sig .tc := ⟨.hbm, 692, rfl⟩
abbrev main_v538 : Ref sig .tc := ⟨.hbm, 693, rfl⟩
abbrev main_v539 : Ref sig .tc := ⟨.hbm, 694, rfl⟩
abbrev main_v540 : Ref sig .tc := ⟨.hbm, 695, rfl⟩
abbrev main_v541 : Ref sig .tc := ⟨.hbm, 696, rfl⟩
abbrev main_cst_109 : Ref sig .tc := ⟨.hbm, 697, rfl⟩
abbrev main_v542 : Ref sig .tc := ⟨.hbm, 698, rfl⟩
abbrev main_v543 : Ref sig .tc := ⟨.hbm, 699, rfl⟩
abbrev main_v544 : Ref sig .tc := ⟨.hbm, 700, rfl⟩
abbrev main_v545 : Ref sig .tc := ⟨.hbm, 701, rfl⟩
abbrev main_v546 : Ref sig .tc := ⟨.hbm, 702, rfl⟩
abbrev main_v547 : Ref sig .tc := ⟨.hbm, 703, rfl⟩
abbrev main_v548 : Ref sig .tc := ⟨.hbm, 704, rfl⟩
abbrev main_v549 : Ref sig .tc := ⟨.hbm, 705, rfl⟩
abbrev main_v550 : Ref sig .tc := ⟨.hbm, 706, rfl⟩
abbrev main_v551 : Ref sig .tc := ⟨.hbm, 707, rfl⟩
abbrev main_v552 : Ref sig .tc := ⟨.hbm, 708, rfl⟩
abbrev main_call13_cst : Ref sig .tc := ⟨.hbm, 709, rfl⟩
abbrev main_call13_v0 : Ref sig .tc := ⟨.hbm, 710, rfl⟩
abbrev main_v553 : Ref sig .tc := ⟨.hbm, 711, rfl⟩
abbrev main_v554 : Ref sig .tc := ⟨.hbm, 712, rfl⟩
abbrev main_v555 : Ref sig .tc := ⟨.hbm, 713, rfl⟩
abbrev main_v556 : Ref sig .tc := ⟨.hbm, 714, rfl⟩
abbrev main_v557 : Ref sig .tc := ⟨.hbm, 715, rfl⟩
abbrev main_v558 : Ref sig .tc := ⟨.hbm, 716, rfl⟩
abbrev main_v559 : Ref sig .tc := ⟨.hbm, 717, rfl⟩
abbrev main_v560 : Ref sig .tc := ⟨.hbm, 718, rfl⟩
abbrev main_v561 : Ref sig .tc := ⟨.hbm, 719, rfl⟩
abbrev main_v562 : Ref sig .tc := ⟨.hbm, 720, rfl⟩
abbrev main_cst_110 : Ref sig .tc := ⟨.hbm, 721, rfl⟩
abbrev main_v563 : Ref sig .tc := ⟨.hbm, 722, rfl⟩
abbrev main_cst_111 : Ref sig .tc := ⟨.hbm, 723, rfl⟩
abbrev main_v564 : Ref sig .tc := ⟨.hbm, 724, rfl⟩
abbrev main_v565 : Ref sig .tc := ⟨.hbm, 725, rfl⟩
abbrev main_v566 : Ref sig .tc := ⟨.hbm, 726, rfl⟩
abbrev main_cst_112 : Ref sig .tc := ⟨.hbm, 727, rfl⟩
abbrev main_v567 : Ref sig .tc := ⟨.hbm, 728, rfl⟩
abbrev main_v568 : Ref sig .tc := ⟨.hbm, 729, rfl⟩
abbrev main_v569 : Ref sig .tc := ⟨.hbm, 730, rfl⟩
abbrev main_cst_113 : Ref sig .tc := ⟨.hbm, 731, rfl⟩
abbrev main_call14_v0 : Ref sig .tc := ⟨.hbm, 732, rfl⟩
abbrev main_call14_v1 : Ref sig .tc := ⟨.hbm, 733, rfl⟩
abbrev main_v570 : Ref sig .tc := ⟨.hbm, 734, rfl⟩
abbrev main_c_114 : Ref sig .tc := ⟨.hbm, 735, rfl⟩
abbrev main_v571 : Ref sig .tc := ⟨.hbm, 736, rfl⟩
abbrev main_v572 : Ref sig .tc := ⟨.hbm, 737, rfl⟩
abbrev main_c_115 : Ref sig .tc := ⟨.hbm, 738, rfl⟩
abbrev main_v573 : Ref sig .tc := ⟨.hbm, 739, rfl⟩
abbrev main_v574 : Ref sig .tc := ⟨.hbm, 740, rfl⟩
abbrev main_v575 : Ref sig .tc := ⟨.hbm, 741, rfl⟩
abbrev main_v576 : Ref sig .tc := ⟨.hbm, 742, rfl⟩
abbrev main_v577 : Ref sig .tc := ⟨.hbm, 743, rfl⟩
abbrev main_c_116 : Ref sig .tc := ⟨.hbm, 744, rfl⟩
abbrev main_v578 : Ref sig .tc := ⟨.hbm, 745, rfl⟩
abbrev main_v579 : Ref sig .tc := ⟨.hbm, 746, rfl⟩
abbrev main_c_117 : Ref sig .tc := ⟨.hbm, 747, rfl⟩
abbrev main_v580 : Ref sig .tc := ⟨.hbm, 748, rfl⟩
abbrev main_v581 : Ref sig .tc := ⟨.hbm, 749, rfl⟩
abbrev main_v582 : Ref sig .tc := ⟨.hbm, 750, rfl⟩
abbrev main_v583 : Ref sig .tc := ⟨.hbm, 751, rfl⟩
abbrev main_v584 : Ref sig .tc := ⟨.hbm, 752, rfl⟩
abbrev main_v585 : Ref sig .tc := ⟨.hbm, 753, rfl⟩
abbrev main_c_118 : Ref sig .tc := ⟨.hbm, 754, rfl⟩
abbrev main_v586 : Ref sig .tc := ⟨.hbm, 755, rfl⟩
abbrev main_v587 : Ref sig .tc := ⟨.hbm, 756, rfl⟩
abbrev main_c_119 : Ref sig .tc := ⟨.hbm, 757, rfl⟩
abbrev main_v588 : Ref sig .tc := ⟨.hbm, 758, rfl⟩
abbrev main_v589 : Ref sig .tc := ⟨.hbm, 759, rfl⟩
abbrev main_v590 : Ref sig .tc := ⟨.hbm, 760, rfl⟩
abbrev main_v591 : Ref sig .tc := ⟨.hbm, 761, rfl⟩
abbrev main_v592 : Ref sig .tc := ⟨.hbm, 762, rfl⟩
abbrev main_v593 : Ref sig .tc := ⟨.hbm, 763, rfl⟩
abbrev main_v594 : Ref sig .tc := ⟨.hbm, 764, rfl⟩
abbrev main_v595 : Ref sig .tc := ⟨.hbm, 765, rfl⟩
abbrev main_cst_120 : Ref sig .tc := ⟨.hbm, 766, rfl⟩
abbrev main_v596 : Ref sig .tc := ⟨.hbm, 767, rfl⟩
abbrev main_v597 : Ref sig .tc := ⟨.hbm, 768, rfl⟩
abbrev main_v598 : Ref sig .tc := ⟨.hbm, 769, rfl⟩
abbrev main_v599 : Ref sig .tc := ⟨.hbm, 770, rfl⟩
abbrev main_v600 : Ref sig .tc := ⟨.hbm, 771, rfl⟩
abbrev main_v601 : Ref sig .tc := ⟨.hbm, 772, rfl⟩
abbrev main_v602 : Ref sig .tc := ⟨.hbm, 773, rfl⟩
abbrev main_v603 : Ref sig .tc := ⟨.hbm, 774, rfl⟩
abbrev main_v604 : Ref sig .tc := ⟨.hbm, 775, rfl⟩
abbrev main_v605 : Ref sig .tc := ⟨.hbm, 776, rfl⟩
abbrev main_cst_121 : Ref sig .tc := ⟨.hbm, 777, rfl⟩
abbrev main_v606 : Ref sig .tc := ⟨.hbm, 778, rfl⟩
abbrev main_v607 : Ref sig .tc := ⟨.hbm, 779, rfl⟩
abbrev main_cst_122 : Ref sig .tc := ⟨.hbm, 780, rfl⟩
abbrev main_v608 : Ref sig .tc := ⟨.hbm, 781, rfl⟩
abbrev main_v609 : Ref sig .tc := ⟨.hbm, 782, rfl⟩
abbrev main_v610 : Ref sig .tc := ⟨.hbm, 783, rfl⟩
abbrev main_v611 : Ref sig .tc := ⟨.hbm, 784, rfl⟩
abbrev main_v612 : Ref sig .tc := ⟨.hbm, 785, rfl⟩
abbrev main_cst_123 : Ref sig .tc := ⟨.hbm, 786, rfl⟩
abbrev main_v613 : Ref sig .tc := ⟨.hbm, 787, rfl⟩
abbrev main_v614 : Ref sig .tc := ⟨.hbm, 788, rfl⟩
abbrev main_cst_124 : Ref sig .tc := ⟨.hbm, 789, rfl⟩
abbrev main_v615 : Ref sig .tc := ⟨.hbm, 790, rfl⟩
abbrev main_v616 : Ref sig .tc := ⟨.hbm, 791, rfl⟩
abbrev main_v617 : Ref sig .tc := ⟨.hbm, 792, rfl⟩
abbrev main_v618 : Ref sig .tc := ⟨.hbm, 793, rfl⟩
abbrev main_cst_125 : Ref sig .tc := ⟨.hbm, 794, rfl⟩
abbrev main_v619 : Ref sig .tc := ⟨.hbm, 795, rfl⟩
abbrev main_v620 : Ref sig .tc := ⟨.hbm, 796, rfl⟩
abbrev main_v621 : Ref sig .tc := ⟨.hbm, 797, rfl⟩
abbrev main_v622 : Ref sig .tc := ⟨.hbm, 798, rfl⟩
abbrev main_v623 : Ref sig .tc := ⟨.hbm, 799, rfl⟩
abbrev main_v624 : Ref sig .tc := ⟨.hbm, 800, rfl⟩
abbrev main_v625 : Ref sig .tc := ⟨.hbm, 801, rfl⟩
abbrev main_v626 : Ref sig .tc := ⟨.hbm, 802, rfl⟩
abbrev main_v627 : Ref sig .tc := ⟨.hbm, 803, rfl⟩
abbrev main_v628 : Ref sig .tc := ⟨.hbm, 804, rfl⟩
abbrev main_v629 : Ref sig .tc := ⟨.hbm, 805, rfl⟩
abbrev main_call15_cst : Ref sig .tc := ⟨.hbm, 806, rfl⟩
abbrev main_call15_v0 : Ref sig .tc := ⟨.hbm, 807, rfl⟩
abbrev main_v630 : Ref sig .tc := ⟨.hbm, 808, rfl⟩
abbrev main_v631 : Ref sig .tc := ⟨.hbm, 809, rfl⟩
abbrev main_v632 : Ref sig .tc := ⟨.hbm, 810, rfl⟩
abbrev main_v633 : Ref sig .tc := ⟨.hbm, 811, rfl⟩
abbrev main_v634 : Ref sig .tc := ⟨.hbm, 812, rfl⟩
abbrev main_v635 : Ref sig .tc := ⟨.hbm, 813, rfl⟩
abbrev main_v636 : Ref sig .tc := ⟨.hbm, 814, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  slices_S4x128x128_S1x128x128_0_0_0 : S4x128x128.Slices ![0, 0, 0] S1x128x128
  shapeCasts_S1x128x128_S128x128 : S1x128x128.ShapeCasts S128x128
  slices_S4x128_S1x128_0_0 : S4x128.Slices ![0, 0] S1x128
  shapeCasts_S1x128_S128 : S1x128.ShapeCasts S128
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  reducesTo_S50000x128_S50000_d1 : S50000x128.ReducesTo [1] S50000
  h_S_ : 0 < S_.numel
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  slices_S4x128x128_S1x128x128_1_0_0 : S4x128x128.Slices ![1, 0, 0] S1x128x128
  slices_S4x128_S1x128_1_0 : S4x128.Slices ![1, 0] S1x128
  slices_S4x128x128_S1x128x128_2_0_0 : S4x128x128.Slices ![2, 0, 0] S1x128x128
  slices_S4x128_S1x128_2_0 : S4x128.Slices ![2, 0] S1x128
  slices_S4x128x128_S1x128x128_3_0_0 : S4x128x128.Slices ![3, 0, 0] S1x128x128
  slices_S4x128_S1x128_3_0 : S4x128.Slices ![3, 0] S1x128
  concatenates_S50000x128_S50000x128_S50000x256_d1 : Shape.Concatenates [S50000x128, S50000x128] S50000x256 1
  bcast_S10_S1x10_1 : S10.BroadcastsInDim S1x10 (![1] : Fin 1 → Fin S1x10.rank)
  bcast_S1x10_S50000x10_0_1 : S1x10.BroadcastsInDim S50000x10 (![0, 1] : Fin 2 → Fin S50000x10.rank)
  dot_S50000x256_S256x128_S50000x128_1_0_0_1_n_n_wf : DotDims.WF S50000x256 S256x128 S50000x128 [1] [0] [0] [1] [] []
  dot_S50000x128_S128x128_S50000x128_1_0_0_1_n_n_wf : DotDims.WF S50000x128 S128x128 S50000x128 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x256_S256x10_S50000x10_1_0_0_1_n_n_wf : DotDims.WF S50000x256 S256x10 S50000x10 [1] [0] [0] [1] [] []

variable [Facts₀]

def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x256_S256x10_S50000x10_1_0_0_1_n_n : DotDims S50000x256 S256x10 S50000x10 where
  lhsContracting := [1]
  rhsContracting := [0]
  lhsNonContracting := [0]
  rhsNonContracting := [1]
  lhsBatch := []
  rhsBatch := []
  wf := dot_S50000x256_S256x10_S50000x10_1_0_0_1_n_n_wf

class Facts : Prop extends Facts₀ where

variable [Facts]
-- ==== Proof.Spec.lean ====
/-
  The mathematics of the two programs, index by index, on the extended reals.

  One stream of the model: a dimension-reducing projection `x·Wred + bred`, then four graph-convolution layers.
  A layer takes node features `X` (50000 × 128), multiplies by a weight, aggregates over the incoming edges of
  every node with the symmetric degree normalisation, adds a bias, applies layer normalisation over the 128
  features, a rectifier, and adds the result to `X`.  The two programs differ only in WHERE the normalisation
  factor `dinv[src]·dinv[dst]` is multiplied in: per edge (the reference), or as `dinv[src]` on the rows before
  the aggregation and `dinv[dst]` on the sums after it (the kernel).  Everything here is a plain function of
  indices; no program is mentioned.
-/
import Idealize.ShloMosaic.PureOps.Ideal
import Idealize.ShloMosaic.Lib.ValueIdx

noncomputable section

namespace Cert.Spec

open Idealize.ShloMosaic Idealize.ShloMosaic.ValueIdx

/-- A matrix of extended reals with `n` rows and `m` columns, as a function of its index. -/
abbrev Mat (n m : Nat) : Type := (⟨2, ![n, m]⟩ : Shape).Idx → EReal

/-- A vector of extended reals of length `n`. -/
abbrev Vc (n : Nat) : Type := (⟨1, ![n]⟩ : Shape).Idx → EReal

variable {n k m : Nat}

/-- The matrix product at an entry: `(x·w)[r, c] = ∑ q, x[r, q] · w[q, c]`. -/
def mm (x : Mat n k) (w : Mat k m) (r : Fin n) (c : Fin m) : EReal :=
  ∑ q : Fin k, x (ix2 r q) * w (ix2 q c)

/-- The projection with a bias row: `(x·w)[r, c] + b[0, c]`. -/
def affine (x : Mat n k) (w : Mat k m) (b : Mat 1 m) : Mat n m :=
  fun i => mm x w ⟨(i 0).val, idx2_lt0 i⟩ ⟨(i 1).val, idx2_lt1 i⟩ + b (ix2 (0 : Fin 1) ⟨(i 1).val, idx2_lt1 i⟩)

/-- The product scaled row by row by a column: `(x·w)[r, c] · d[r, 0]`. -/
def lin (x : Mat n k) (w : Mat k m) (d : Mat n 1) : Mat n m :=
  fun i => mm x w ⟨(i 0).val, idx2_lt0 i⟩ ⟨(i 1).val, idx2_lt1 i⟩ * d (ix2 ⟨(i 0).val, idx2_lt0 i⟩ (0 : Fin 1))

/-- The aggregated sums scaled by the destination's factor, plus the bias row: `agg[r, c] · d[r, 0] + b[0, c]`. -/
def scaled (agg : Mat n m) (d : Mat n 1) (b : Mat 1 m) : Mat n m :=
  fun i => agg i * d (ix2 ⟨(i 0).val, idx2_lt0 i⟩ (0 : Fin 1)) + b (ix2 (0 : Fin 1) ⟨(i 1).val, idx2_lt1 i⟩)

/-- The divisor of both means: the 32-bit float word of `128.0`. -/
abbrev w128 : EReal := Ideal.ofBits .f32 0x43000000#32
/-- The stabiliser under the reciprocal square root: the 32-bit float word nearest `1e-5`. -/
abbrev wEps : EReal := Ideal.ofBits .f32 0x3727C5AC#32
/-- The rectifier's threshold: the 32-bit float word of `0.0`. -/
abbrev wZero : EReal := Ideal.ofBits .f32 0x00000000#32

/-- The mean of row `r` of `h` over its `m` columns (the divisor is the literal `128.0`). -/
def rowMean (h : Mat n m) (r : Fin n) : EReal := Ideal.div (∑ q : Fin m, h (ix2 r q)) w128

/-- The mean of the squared deviations of row `r`. -/
def rowVar (h : Mat n m) (r : Fin n) : EReal :=
  Ideal.div (∑ q : Fin m, (h (ix2 r q) - rowMean h r) * (h (ix2 r q) - rowMean h r)) w128

/-- Layer normalisation with scale row `g` and shift row `be`, then the rectifier, added to the residual `x`:
    `x[r,c] + max (((h[r,c] − μ_r) · rsqrt (σ²_r + ε)) · g[0,c] + be[0,c]) 0`. -/
def post (h : Mat n m) (g be : Mat 1 m) (x : Mat n m) : Mat n m :=
  fun i =>
    let r : Fin n := ⟨(i 0).val, idx2_lt0 i⟩
    let c : Fin m := ⟨(i 1).val, idx2_lt1 i⟩
    x i + max (((h (ix2 r c) - rowMean h r) * Ideal.rsqrt (rowVar h r + wEps)) * g (ix2 (0 : Fin 1) c) + be (ix2 (0 : Fin 1) c)) wZero

/-- The classifier: two products summed, plus a bias row. -/
def cls (xr xv : Mat n k) (wr wv : Mat k m) (b : Mat 1 m) : Mat n m :=
  fun i =>
    let r : Fin n := ⟨(i 0).val, idx2_lt0 i⟩
    let c : Fin m := ⟨(i 1).val, idx2_lt1 i⟩
    mm xr wr r c + mm xv wv r c + b (ix2 (0 : Fin 1) c)

end Cert.Spec

end
-- ==== Proof.LibBlockOps.lean ====
/-
  BLOCK OPERATIONS READ AT AN ENTRY — a general lemma file (no program is named here).

  Facts about matrices of extended reals, each at an entry given by its two coordinates:
  • the product of an m×k block by a k×n block accumulated into the zero block — the contraction over the left factor's
    second axis and the right factor's first — is the sum over the contracted coordinate of the products of the entries;
  • a column (an a×1 block) broadcast over b columns reads, at (p, c), the column's entry in row p.
-/
import Idealize.ShloMosaic.PureOps.Ideal.Laws
import Idealize.ShloMosaic.Lib.ValueIdx
import Idealize.ShloMosaic.Lib.ValueLayout

noncomputable section

open scoped BigOperators

namespace BlockOps

open Idealize.ShloMosaic Idealize.ShloMosaic.ValueIdx

variable {m k n : Nat}

/-- The dimension numbers of the plain product of an m×k by a k×n matrix: contract the left factor's axis 1 with the
    right factor's axis 0; rows of the left and columns of the right survive. The argument is their well-formedness. -/
abbrev rowCol (w : DotDims.WF ⟨2, ![m, k]⟩ ⟨2, ![k, n]⟩ ⟨2, ![m, n]⟩ [1] [0] [0] [1] [] []) :
    DotDims ⟨2, ![m, k]⟩ ⟨2, ![k, n]⟩ ⟨2, ![m, n]⟩ := ⟨[1], [0], [0], [1], [], [], w⟩

/-- The left factor's index at output entry (a, b) and contracted coordinate c is (a, c). -/
theorem rowCol_lhsIdx (w : DotDims.WF ⟨2, ![m, k]⟩ ⟨2, ![k, n]⟩ ⟨2, ![m, n]⟩ [1] [0] [0] [1] [] [])
    (a : Fin m) (b : Fin n) (c : Fin k) :
    (rowCol w).lhsIdx (ix2 a b) ((contrEquiv1 (rowCol w) k rfl rfl).symm c) = ix2 a c := by
  have c2 := contrEquiv1_symm_val (rowCol w) k rfl rfl c
  funext ax; apply Fin.ext
  match ax with
  | ⟨0, _⟩ => simp [DotDims.lhsIdx]; rfl
  | ⟨1, _⟩ => simp [DotDims.lhsIdx]; exact c2

/-- The right factor's index there is (c, b). -/
theorem rowCol_rhsIdx (w : DotDims.WF ⟨2, ![m, k]⟩ ⟨2, ![k, n]⟩ ⟨2, ![m, n]⟩ [1] [0] [0] [1] [] [])
    (a : Fin m) (b : Fin n) (c : Fin k) :
    (rowCol w).rhsIdx (ix2 a b) ((contrEquiv1 (rowCol w) k rfl rfl).symm c) = ix2 c b := by
  have c2 := contrEquiv1_symm_val (rowCol w) k rfl rfl c
  funext ax; apply Fin.ext
  match ax with
  | ⟨0, _⟩ => simp [DotDims.rhsIdx]; exact c2
  | ⟨1, _⟩ => simp [DotDims.rhsIdx]; rfl

/-- The block product into the zero block, at entry (a, b): the sum over c of A[a, c] · B[c, b]. At the ideal values. -/
theorem matmul_zero_apply {φ₁ φ₂ : FTy} (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    FloatOps.matmul (rowCol w) prec A B (constant (F := Ideal) ⟨2, ![m, n]⟩ .f32 0x00000000#32) (ix2 a b)
      = ∑ c : Fin k, A (ix2 a c) * B (ix2 c b) := by
  rw [Ideal.matmul_constant_zero_apply, ← Equiv.sum_comp (contrEquiv1 (rowCol w) k rfl rfl).symm]
  refine Finset.sum_congr rfl fun c _ => ?_
  rw [rowCol_lhsIdx, rowCol_rhsIdx]

/-- An a×1 column broadcast over b columns reads, at (p, c), the column's entry in row p. -/
theorem broadcastTo_a1_ab_apply {α : Type} {a b : Nat} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end BlockOps

end
-- ==== Proof.Val10Pay.lean ====
/-
  The classifier kernel's block arithmetic, read entry by entry.

  One grid point of the last kernel holds a 5000-row block of each of the two feature arrays, both 128×128 weights and the
  1×128 bias row, and stores the block  xr·wr + xv·wv + b  (each product a contraction over the 128 features, the bias row
  repeated down the rows). Rounding the features to the narrower float format before the products is the identity on the
  extended reals, and so are the shape casts to the same shape. Hence the stored block is the specification's classifier
  function `Spec.cls` of the five blocks, at 5000 rows.
-/
import proofs.«410635_j2241972928706_3_alg».proof.Proof.Gen.KernelIdeal.Skeleton
import proofs.«410635_j2241972928706_3_alg».proof.Proof.Spec
import proofs.«410635_j2241972928706_3_alg».proof.Proof.LibBlockOps
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.KernelIdeal.Val10

open Idealize.ShloMosaic Idealize.ShloMosaic.ValueIdx
open Cert.KernelIdeal Cert.KernelIdeal.Gen

/-- The block's arithmetic with the identity casts removed: two products into zero blocks, added, plus the bias row
    repeated down the rows. -/
theorem pay_clean (x0 x1 : FVec Ideal S5000x128 .f32) (w0 w1 : FVec Ideal S128x128 .bf16) (b : FVec Ideal S1x128 .f32) :
    k10_pay1 (F := Ideal) x0 x1 w0 w1 b
      = addf (addf (matmul dot_S5000x128_S128x128_S5000x128_1_0_0_1_n_n none (truncf .bf16 x0 bitsLt_bf16_f32) w0 (constant (F := Ideal) S5000x128 .f32 0x00000000#32))
                   (matmul dot_S5000x128_S128x128_S5000x128_1_0_0_1_n_n none (truncf .bf16 x1 bitsLt_bf16_f32) w1 (constant (F := Ideal) S5000x128 .f32 0x00000000#32)))
             (broadcastTo S5000x128 b broadcasts_S1x128_S5000x128) := by
  unfold k10_pay1
  simp only [shapeCast_self]

/-- One product of the block at an entry: the sum over the contracted coordinate; rounding the left factor to the
    narrower format changes nothing on the extended reals. -/
theorem prod_apply (x : FVec Ideal S5000x128 .f32) (w : FVec Ideal S128x128 .bf16) (r : Fin 5000) (q : Fin 128) :
    matmul dot_S5000x128_S128x128_S5000x128_1_0_0_1_n_n none (truncf .bf16 x bitsLt_bf16_f32) w (constant (F := Ideal) S5000x128 .f32 0x00000000#32) (ix2 r q)
      = Spec.mm x w r q :=
  BlockOps.matmul_zero_apply (m := 5000) (k := 128) (n := 128) dot_S5000x128_S128x128_S5000x128_1_0_0_1_n_n_wf none
    (truncf .bf16 x bitsLt_bf16_f32) w r q

/-- THE BLOCK AT AN ENTRY: both products' sums plus the bias entry of the column. -/
theorem pay_apply (x0 x1 : FVec Ideal S5000x128 .f32) (w0 w1 : FVec Ideal S128x128 .bf16) (b : FVec Ideal S1x128 .f32)
    (r : Fin 5000) (q : Fin 128) :
    k10_pay1 (F := Ideal) x0 x1 w0 w1 b (ix2 r q)
      = Spec.mm x0 w0 r q + Spec.mm x1 w1 r q + b (ix2 (0 : Fin 1) q) := by
  rw [pay_clean]
  show (_ + _) + _ = _
  rw [prod_apply, prod_apply, broadcastTo_1b_ab_apply]

/-- THE BLOCK IS THE CLASSIFIER of the block's rows: the specification's function at 5000 rows. -/
theorem pay_eq (x0 x1 : FVec Ideal S5000x128 .f32) (w0 w1 : FVec Ideal S128x128 .bf16) (b : FVec Ideal S1x128 .f32) :
    k10_pay1 (F := Ideal) x0 x1 w0 w1 b = Spec.cls (n := 5000) (k := 128) (m := 128) x0 x1 w0 w1 b := by
  funext j
  obtain ⟨r, q, rfl⟩ : ∃ (r : Fin 5000) (q : Fin 128), j = ix2 r q := ⟨j 0, j 1, eq_ix2 j⟩
  exact pay_apply x0 x1 w0 w1 b r q

end Cert.KernelIdeal.Val10

end
-- ==== Proof.Val10.lean ====
/-
  The value of the last kernel region: the result array after the classifier kernel has run over its ten grid points.

  The region finds five arrays — the two streams' node features (50000 × 128 each), the two classifier weights
  (128 × 128 each) and the bias row (1 × 128) — and its grid point `t` holds rows 5000·t … 5000·t + 4999 of both feature
  arrays together with the whole weights and bias. It stores the classifier of those blocks (`Val10Pay`), and writes the
  stored block back to rows 5000·t … of the result. A row of the classifier reads that row of the features only, so the
  block stored at `t` is the row block of the classifier of the whole arrays; row ρ of the result is written by point
  ρ / 5000, the ten blocks cover the result, and the result array ends as the classifier `Spec.cls` of the five arrays the
  region found.
-/
import proofs.«410635_j2241972928706_3_alg».proof.Proof.Gen.KernelIdeal.Frame
import proofs.«410635_j2241972928706_3_alg».proof.Proof.Spec
import proofs.«410635_j2241972928706_3_alg».proof.Proof.Val10Pay
import Idealize.ShloMosaic.Lib.ValueIdx
import Idealize.ShloMosaic.Lib.Pipeline.Value

noncomputable section

open scoped BigOperators

namespace Cert.KernelIdeal.Val10

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

/-! ## The arrays the region finds, and the blocks of them a grid point holds -/

/-- The residual-stream features as the region finds them (the first operand), -/
abbrev aXr (c : Dev nD) : Spec.Mat 50000 128 := V c (Pipeline.arrRef spec10 0)
/-- the second stream's features (the second operand), -/
abbrev aXv (c : Dev nD) : Spec.Mat 50000 128 := V c (Pipeline.arrRef spec10 1)
/-- the first stream's classifier weight, -/
abbrev aWr (c : Dev nD) : Spec.Mat 128 128 := V c (Pipeline.arrRef spec10 2)
/-- the second stream's classifier weight, -/
abbrev aWv (c : Dev nD) : Spec.Mat 128 128 := V c (Pipeline.arrRef spec10 3)
/-- and the bias row. -/
abbrev aB (c : Dev nD) : Spec.Mat 1 128 := V c (Pipeline.arrRef spec10 4)

/-- The 5000 rows of the first features that grid point `t` holds, -/
abbrev bXr (c : Dev nD) (t : Fin cfg10.N) : Spec.Mat 5000 128 := iblk10 V c 0 t
/-- of the second features, -/
abbrev bXv (c : Dev nD) (t : Fin cfg10.N) : Spec.Mat 5000 128 := iblk10 V c 1 t
/-- and the two weights and the bias row as it holds them (whole, at every point). -/
abbrev bWr (c : Dev nD) (t : Fin cfg10.N) : Spec.Mat 128 128 := iblk10 V c 2 t
abbrev bWv (c : Dev nD) (t : Fin cfg10.N) : Spec.Mat 128 128 := iblk10 V c 3 t
abbrev bB (c : Dev nD) (t : Fin cfg10.N) : Spec.Mat 1 128 := iblk10 V c 4 t

theorem zero_offsets : (![0, 0] : Fin 2 → Nat) = fun _ => 0 := funext fun a => by fin_cases a <;> rfl

/-- The block index maps over the ten grid points: the row-blocked windows (both features, the result) are at row block
    `t`, column block 0; the weights and the bias are the whole arrays. -/
theorem block_indices : ∀ t : Fin cfg10.N,
    win10_0.index t (0 : Fin 2) = t.val ∧ win10_0.index t (1 : Fin 2) = 0
    ∧ win10_1.index t (0 : Fin 2) = t.val ∧ win10_1.index t (1 : Fin 2) = 0
    ∧ win10_2.index t (0 : Fin 2) = 0 ∧ win10_2.index t (1 : Fin 2) = 0
    ∧ win10_3.index t (0 : Fin 2) = 0 ∧ win10_3.index t (1 : Fin 2) = 0
    ∧ win10_4.index t (0 : Fin 2) = 0 ∧ win10_4.index t (1 : Fin 2) = 0
    ∧ win10_5.index t (0 : Fin 2) = t.val ∧ win10_5.index t (1 : Fin 2) = 0 :=
  (by decide +kernel : ∀ t : Fin grid10.N, _)

/-- Entry (r, q) of the first features' block at point `t` is the array's entry (5000·t + r, q). -/
theorem bXr_apply (c : Dev nD) (t : Fin cfg10.N) (r : Fin 5000) (q : Fin 128) (R : Fin 50000)
    (hR : R.val = t.val * 5000 + r.val) : bXr V c t (ix2 r q) = aXr V c (ix2 R q) := by
  obtain ⟨e0, e1, -⟩ := block_indices t
  show aXr V c (((cfg10.win 0).blk t).view.emb (ix2 r q)) = aXr V c (ix2 R q)
  refine congrArg (aXr V c) (funext fun a => Fin.ext ?_)
  match a with
  | ⟨0, _⟩ => show win10_0.index t (0 : Fin 2) * 5000 + 1 * r.val = R.val; omega
  | ⟨1, _⟩ => show win10_0.index t (1 : Fin 2) * 128 + 1 * q.val = q.val; omega

/-- The same for the second features. -/
theorem bXv_apply (c : Dev nD) (t : Fin cfg10.N) (r : Fin 5000) (q : Fin 128) (R : Fin 50000)
    (hR : R.val = t.val * 5000 + r.val) : bXv V c t (ix2 r q) = aXv V c (ix2 R q) := by
  obtain ⟨-, -, e0, e1, -⟩ := block_indices t
  show aXv V c (((cfg10.win 1).blk t).view.emb (ix2 r q)) = aXv V c (ix2 R q)
  refine congrArg (aXv V c) (funext fun a => Fin.ext ?_)
  match a with
  | ⟨0, _⟩ => show win10_1.index t (0 : Fin 2) * 5000 + 1 * r.val = R.val; omega
  | ⟨1, _⟩ => show win10_1.index t (1 : Fin 2) * 128 + 1 * q.val = q.val; omega

/-- The first weight's block is the whole weight at every point. -/
theorem bWr_eq (c : Dev nD) (t : Fin cfg10.N) : bWr V c t = aWr V c := by
  obtain ⟨-, -, -, -, e0, e1, -⟩ := block_indices t
  funext j
  show aWr V c (((cfg10.win 2).blk t).view.emb j) = aWr V c j
  refine congrArg (aWr V c) (funext fun a => Fin.ext ?_)
  match a with
  | ⟨0, _⟩ => show win10_2.index t (0 : Fin 2) * 128 + 1 * (j 0).val = (j 0).val; omega
  | ⟨1, _⟩ => show win10_2.index t (1 : Fin 2) * 128 + 1 * (j 1).val = (j 1).val; omega

/-- So is the second weight's. -/
theorem bWv_eq (c : Dev nD) (t : Fin cfg10.N) : bWv V c t = aWv V c := by
  obtain ⟨-, -, -, -, -, -, e0, e1, -⟩ := block_indices t
  funext j
  show aWv V c (((cfg10.win 3).blk t).view.emb j) = aWv V c j
  refine congrArg (aWv V c) (funext fun a => Fin.ext ?_)
  match a with
  | ⟨0, _⟩ => show win10_3.index t (0 : Fin 2) * 128 + 1 * (j 0).val = (j 0).val; omega
  | ⟨1, _⟩ => show win10_3.index t (1 : Fin 2) * 128 + 1 * (j 1).val = (j 1).val; omega

/-- And the bias row's. -/
theorem bB_eq (c : Dev nD) (t : Fin cfg10.N) : bB V c t = aB V c := by
  obtain ⟨-, -, -, -, -, -, -, -, e0, e1, -⟩ := block_indices t
  funext j
  show aB V c (((cfg10.win 4).blk t).view.emb j) = aB V c j
  refine congrArg (aB V c) (funext fun a => Fin.ext ?_)
  match a with
  | ⟨0, _⟩ => show win10_4.index t (0 : Fin 2) * 1 + 1 * (j 0).val = (j 0).val; omega
  | ⟨1, _⟩ => show win10_4.index t (1 : Fin 2) * 128 + 1 * (j 1).val = (j 1).val; omega

/-- Entry (r, q) of the result's block at point `t` sits at entry (5000·t + r, q) of the result array. -/
theorem out_emb (t : Fin cfg10.N) (r : Fin 5000) (q : Fin 128) (R : Fin 50000) (hR : R.val = t.val * 5000 + r.val) :
    (((cfg10.win 5).blk t).view.emb (ix2 r q) : S50000x128.Idx) = ix2 R q := by
  obtain ⟨-, -, -, -, -, -, -, -, -, -, e0, e1⟩ := block_indices t
  funext a; apply Fin.ext
  match a with
  | ⟨0, _⟩ => show win10_5.index t (0 : Fin 2) * 5000 + 1 * r.val = R.val; omega
  | ⟨1, _⟩ => show win10_5.index t (1 : Fin 2) * 128 + 1 * q.val = q.val; omega

/-! ## The classifier of a row block is the classifier's row block -/

/-- A row of the classifier depends on that row of the features only: the classifier of the blocks at point `t`, at
    (r, q), is the classifier of the arrays at (5000·t + r, q). -/
theorem cls_block (c : Dev nD) (t : Fin cfg10.N) (r : Fin 5000) (q : Fin 128) (R : Fin 50000)
    (hR : R.val = t.val * 5000 + r.val) :
    Spec.cls (bXr V c t) (bXv V c t) (bWr V c t) (bWv V c t) (bB V c t) (ix2 r q)
      = Spec.cls (aXr V c) (aXv V c) (aWr V c) (aWv V c) (aB V c) (ix2 R q) := by
  rw [bWr_eq, bWv_eq, bB_eq]
  show Spec.mm (bXr V c t) (aWr V c) r q + Spec.mm (bXv V c t) (aWv V c) r q + aB V c (ix2 (0 : Fin 1) q)
    = Spec.mm (aXr V c) (aWr V c) R q + Spec.mm (aXv V c) (aWv V c) R q + aB V c (ix2 (0 : Fin 1) q)
  unfold Spec.mm
  refine congrArg₂ (· + ·) (congrArg₂ (· + ·) (Finset.sum_congr rfl fun k _ => ?_) (Finset.sum_congr rfl fun k _ => ?_)) rfl
  · rw [bXr_apply V c t r k R hR]
  · rw [bXv_apply V c t r k R hR]

/-! ## What a grid point writes back, and the array after the run -/

/-- What point `t` stores, entry by entry: the classifier of the arrays at the entry's place in the result array. -/
theorem stored_at (c : Dev nD) (t : Fin cfg10.N) (j : S5000x128.Idx) :
    k10_pay1 (F := Ideal) (bXr V c t) (bXv V c t) (bWr V c t) (bWv V c t) (bB V c t) j
      = Spec.cls (aXr V c) (aXv V c) (aWr V c) (aWv V c) (aB V c) (((cfg10.win 5).blk t).view.emb j) := by
  obtain ⟨r, q, rfl⟩ : ∃ (r : Fin 5000) (q : Fin 128), j = ix2 r q := ⟨j 0, j 1, eq_ix2 j⟩
  have hN : cfg10.N = 10 := N_10
  have ht : t.val < 10 := hN ▸ t.isLt
  have hr : r.val < 5000 := r.isLt
  rw [pay_eq, out_emb t r q ⟨t.val * 5000 + r.val, by omega⟩ rfl]
  exact cls_block V c t r q _ rfl

/-- WHAT POINT `t` WRITES BACK is block `t` of the classifier of the arrays as the region finds them. -/
theorem flushed_eq (c : Dev nD) (t : Fin cfg10.N) :
    (dat10 (F := Ideal) V c).flushed 5 t
      = ((cfg10.win 5).blk t).view.read (Elt Ideal) (Spec.cls (aXr V c) (aXv V c) (aWr V c) (aWv V c) (aB V c)) := by
  show (cfg10.win 5).cut (grid10.coords t) ((dat10 V c).after 5 t) = _
  rw [after10_5]
  unfold out10_5
  rw [View.canon_unit_zero zero_offsets]
  simp only [View.ld_unit_zero (S := S5000x128) zero_offsets, View.ld_unit_zero (S := S128x128) zero_offsets,
    View.ld_unit_zero (S := S1x128) zero_offsets]
  funext j
  exact stored_at V c t j

/-- An index of the result array is in point `t`'s block iff each coordinate is in the block's range on its axis. -/
theorem mem_blk (t : Fin cfg10.N) (i : S50000x128.Idx) :
    i ∈ ((cfg10.win 5).blk t).view.set ↔ ∀ a : Fin 2, win10_5.index t a * S5000x128.size a ≤ (i a).val ∧ (i a).val < win10_5.index t a * S5000x128.size a + S5000x128.size a := by
  show i ∈ ((View.whole main_call0_v182).slice (win10_5.rect t)).set ↔ _
  rw [View.set_slice_whole, Rect.mem_set_unit]
  exact Iff.rfl

/-- Row `ρ` of the result is written by grid point `ρ / 5000`: the ten row blocks cover the array. -/
theorem covered (i : S50000x128.Idx) :
    ∃ t : Fin cfg10.N, (cfg10.win 5).flush t = true ∧ i ∈ ((cfg10.win 5).blk t).view.set := by
  have hi0 : (i 0).val < 50000 := (i 0).isLt
  have hi1 : (i 1).val < 128 := (i 1).isLt
  have hN : cfg10.N = 10 := N_10
  obtain ⟨t, ht⟩ : ∃ t : Fin cfg10.N, t.val = (i 0).val / 5000 := ⟨⟨(i 0).val / 5000, by rw [hN]; omega⟩, rfl⟩
  obtain ⟨-, -, -, -, -, -, -, -, -, -, e0, e1⟩ := block_indices t
  refine ⟨t, flush10_5 t, ?_⟩
  rw [mem_blk]
  intro a
  match a with
  | ⟨0, _⟩ => show win10_5.index t (0 : Fin 2) * 5000 ≤ (i 0).val ∧ (i 0).val < win10_5.index t (0 : Fin 2) * 5000 + 5000; omega
  | ⟨1, _⟩ => show win10_5.index t (1 : Fin 2) * 128 ≤ (i 1).val ∧ (i 1).val < win10_5.index t (1 : Fin 2) * 128 + 128; omega

/-- THE RESULT ARRAY after the region's run: the classifier of the five arrays the region found. -/
theorem final_out (c : Dev nD) :
    (dat10 (F := Ideal) V c).arrAt 5 cfg10.N = Spec.cls (aXr V c) (aXv V c) (aWr V c) (aWv V c) (aB V c) :=
  (dat10 (F := Ideal) V c).arrAt_eq_of_cover 5 (Spec.cls (aXr V c) (aXv V c) (aWr V c) (aWv V c) (aB V c))
    (fun t _ => flushed_eq V c t) covered

end Cert.KernelIdeal.Val10

end
-- ==== Proof.KChainC.lean ====
/-
  The end of the kernel program's value chain: from the two streams' node features to the program's result.

  After the last feature kernel the program slices the 256 × 10 classifier weight into its upper and lower halves
  (rows 0…127 and 128…255), widens each half to 128 columns with zeros, rounds both to the narrower float format (the
  identity on the extended reals), widens the 10-entry bias to 128 entries with zeros and lays it out as one row; the
  classifier kernel then forms  xr·Wr + xv·Wv + b  over all 50000 nodes (module `Val10`), and the program returns the
  first ten columns. A column q below 10 of a padded array is the original column, so the zeros are never read: the result
  at node r and class q is  ∑ₖ xr[r,k]·W[k,q] + ∑ₖ xv[r,k]·W[k+128,q] + b[q].
-/
import proofs.«410635_j2241972928706_3_alg».proof.Proof.Gen.KernelIdeal.Frame
import proofs.«410635_j2241972928706_3_alg».proof.Proof.Spec
import proofs.«410635_j2241972928706_3_alg».proof.Proof.Val10
import Idealize.ShloMosaic.Lib.ValueIdx
import Idealize.ShloMosaic.Lib.ValueLayout
import Idealize.ShloMosaic.Lib.KernelVsHost
import Idealize.ShloMosaic.Lib.StableHlo.Run
import Idealize.ShloMosaic.Lib.Pipeline.Value

noncomputable section

open scoped BigOperators

namespace Cert.KernelIdeal.KChainC

open Idealize.ShloMosaic Idealize.ShloMosaic.TcCoe Idealize.ShloMosaic.ValueIdx Idealize.SL.Sem
open Idealize.ShloMosaic.Pipeline (Dat)
open Cert.KernelIdeal Cert.KernelIdeal.Gen

variable (m : (ℓ : Loc nD τ sig) → Buf (Elt Ideal) ℓ) (ρ : Dev nD → PrngReg)

/-! ## The arrays the end of the chain reads -/

/-- The first stream's node features as the last feature kernel left them, -/
abbrev XR (c : Dev nD) : Spec.Mat 50000 128 := W20 m ρ c (Proc.devRef .tc main_call0_v86)
/-- the second stream's, -/
abbrev XV (c : Dev nD) : Spec.Mat 50000 128 := W20 m ρ c (Proc.devRef .tc main_call0_v173)
/-- the classifier weight as launched (256 × 10: rows 0…127 meet the first stream, rows 128…255 the second), -/
abbrev Wcls (c : Dev nD) : Spec.Mat 256 10 := m ((c : Thread nD τ).loc main_arg14)
/-- and the classifier bias as launched. -/
abbrev bcls (c : Dev nD) : Spec.Vc 10 := m ((c : Thread nD τ).loc main_arg15)

/-- The class scores: for node r and class q, the first stream's features against the weight's upper half, the second
    stream's against its lower half, plus the bias. -/
def logits (xr xv : Spec.Mat 50000 128) (w : Spec.Mat 256 10) (b : Spec.Vc 10) : Spec.Mat 50000 10 := fun i =>
  let r : Fin 50000 := ⟨(i 0).val, idx2_lt0 i⟩
  let q : Fin 10 := ⟨(i 1).val, idx2_lt1 i⟩
  (∑ k : Fin 128, xr (ix2 r k) * w (ix2 ⟨k.val, by have := k.isLt; omega⟩ q))
    + (∑ k : Fin 128, xv (ix2 r k) * w (ix2 ⟨k.val + 128, by have := k.isLt; omega⟩ q)) + b (ix1 q)

/-! ## The stretch before the last kernel: what it leaves in the kernel's five inputs -/

/-- It does not write the first stream's features, -/
theorem entry_XR (c : Dev nD) : W21 m ρ c (Proc.devRef .tc main_call0_v86) = XR m ρ c := by
  show StableHlo.after hostOps10 (W20 m ρ c) (Proc.devRef .tc main_call0_v86) = _
  after_results

/-- nor the second's. -/
theorem entry_XV (c : Dev nD) : W21 m ρ c (Proc.devRef .tc main_call0_v173) = XV m ρ c := by
  show StableHlo.after hostOps10 (W20 m ρ c) (Proc.devRef .tc main_call0_v173) = _
  after_results

/-- The classifier weight is as launched when the stretch begins: nothing before wrote it. -/
theorem W20_Wcls (c : Dev nD) : W20 m ρ c (Proc.devRef .tc main_arg14) = Wcls m c :=
  calc W20 m ρ c (Proc.devRef .tc main_arg14)
    _ = W21 m ρ c (Proc.devRef .tc main_arg14) := by
          show _ = StableHlo.after hostOps10 (W20 m ρ c) (Proc.devRef .tc main_arg14)
          after_results
    _ = W22 m ρ c (Proc.devRef .tc main_arg14) := (W22_of_ne m ρ c main_arg14 (by decide)).symm
    _ = W23 m ρ c (Proc.devRef .tc main_arg14) := by
          show _ = StableHlo.after hostOps11 (W22 m ρ c) (Proc.devRef .tc main_arg14)
          after_results
    _ = m ((c : Thread nD τ).loc main_arg14) := W23_main_arg14 m ρ c

/-- So is the bias. -/
theorem W20_bcls (c : Dev nD) : W20 m ρ c (Proc.devRef .tc main_arg15) = bcls m c :=
  calc W20 m ρ c (Proc.devRef .tc main_arg15)
    _ = W21 m ρ c (Proc.devRef .tc main_arg15) := by
          show _ = StableHlo.after hostOps10 (W20 m ρ c) (Proc.devRef .tc main_arg15)
          after_results
    _ = W22 m ρ c (Proc.devRef .tc main_arg15) := (W22_of_ne m ρ c main_arg15 (by decide)).symm
    _ = W23 m ρ c (Proc.devRef .tc main_arg15) := by
          show _ = StableHlo.after hostOps11 (W22 m ρ c) (Proc.devRef .tc main_arg15)
          after_results
    _ = m ((c : Thread nD τ).loc main_arg15) := W23_main_arg15 m ρ c

/-- The first weight the kernel is given: the classifier weight's upper half, 128 × 10, widened to 128 columns by zeros
    and rounded to the narrower format. -/
theorem entry_Wr (c : Dev nD) :
    (W21 m ρ c (Proc.devRef .tc main_call0_v179) : S128x128.Idx → EReal)
      = truncf .bf16 (pad S128x128 ![0, 0] ![0, 118] ![0, 0]
          (extractStridedSlice S128x10 ![0, 0] (Wcls m c) slices_S256x10_S128x10_0_0)
          (sitofp (F := Ideal) .f32 (constantI S_ 32 0#32)) pads_S128x10_S128x128_000_01180 h_S_) bitsLt_bf16_f32 := by
  rw [← W20_Wcls m ρ c]
  show StableHlo.after hostOps10 (W20 m ρ c) (Proc.devRef .tc main_call0_v179) = _
  after_results
  rfl

/-- The second weight: the lower half, likewise. -/
theorem entry_Wv (c : Dev nD) :
    (W21 m ρ c (Proc.devRef .tc main_call0_v180) : S128x128.Idx → EReal)
      = truncf .bf16 (pad S128x128 ![0, 0] ![0, 118] ![0, 0]
          (extractStridedSlice S128x10 ![128, 0] (Wcls m c) slices_S256x10_S128x10_128_0)
          (sitofp (F := Ideal) .f32 (constantI S_ 32 0#32)) pads_S128x10_S128x128_000_01180 h_S_) bitsLt_bf16_f32 := by
  rw [← W20_Wcls m ρ c]
  show StableHlo.after hostOps10 (W20 m ρ c) (Proc.devRef .tc main_call0_v180) = _
  after_results
  rfl

/-- The bias row: the bias widened to 128 entries by zeros, as one row. -/
theorem entry_B (c : Dev nD) :
    (W21 m ρ c (Proc.devRef .tc main_call0_v181) : S1x128.Idx → EReal)
      = shapeCast S1x128 (pad S128 ![0] ![118] ![0] (bcls m c)
          (sitofp (F := Ideal) .f32 (constantI S_ 32 0#32)) pads_S10_S128_01180 h_S_) shapeCasts_S128_S1x128 := by
  rw [← W20_bcls m ρ c]
  show StableHlo.after hostOps10 (W20 m ρ c) (Proc.devRef .tc main_call0_v181) = _
  after_results
  rfl

/-! ## The padded inputs, entry by entry: inside the original extent the padding is not seen -/

/-- Entry (k, q), q below 10, of the first weight given to the kernel is the classifier weight's entry (k, q). -/
theorem entry_Wr_apply (c : Dev nD) (k : Fin 128) (q : Fin 10) (Q : Fin 128) (hQ : Q.val = q.val) :
    (W21 m ρ c (Proc.devRef .tc main_call0_v179) : S128x128.Idx → EReal) (ix2 k Q)
      = Wcls m c (ix2 ⟨k.val, by have := k.isLt; omega⟩ q) := by
  rw [entry_Wr]
  show pad S128x128 ![0, 0] ![0, 118] ![0, 0] (extractStridedSlice S128x10 ![0, 0] (Wcls m c) slices_S256x10_S128x10_0_0)
    (sitofp (F := Ideal) .f32 (constantI S_ 32 0#32)) pads_S128x10_S128x128_000_01180 h_S_ (ix2 k Q) = _
  refine (pad_apply_of_inside _ _ _ _ _ _ _ (ix2 k Q) (ix2 k q) (fun a => ?_)).trans ?_
  · match a with
    | ⟨0, _⟩ => show k.val = 0 + k.val * (0 + 1); omega
    | ⟨1, _⟩ => show Q.val = 0 + q.val * (0 + 1); omega
  · refine (slice2_axis0_eq 0 (Wcls m c) slices_S256x10_S128x10_0_0 k q).trans ?_
    exact congrArg (fun z => Wcls m c (ix2 z q)) (Fin.ext (Nat.zero_add _))

/-- Entry (k, q), q below 10, of the second weight is the classifier weight's entry (k + 128, q). -/
theorem entry_Wv_apply (c : Dev nD) (k : Fin 128) (q : Fin 10) (Q : Fin 128) (hQ : Q.val = q.val) :
    (W21 m ρ c (Proc.devRef .tc main_call0_v180) : S128x128.Idx → EReal) (ix2 k Q)
      = Wcls m c (ix2 ⟨k.val + 128, by have := k.isLt; omega⟩ q) := by
  rw [entry_Wv]
  show pad S128x128 ![0, 0] ![0, 118] ![0, 0] (extractStridedSlice S128x10 ![128, 0] (Wcls m c) slices_S256x10_S128x10_128_0)
    (sitofp (F := Ideal) .f32 (constantI S_ 32 0#32)) pads_S128x10_S128x128_000_01180 h_S_ (ix2 k Q) = _
  refine (pad_apply_of_inside _ _ _ _ _ _ _ (ix2 k Q) (ix2 k q) (fun a => ?_)).trans ?_
  · match a with
    | ⟨0, _⟩ => show k.val = 0 + k.val * (0 + 1); omega
    | ⟨1, _⟩ => show Q.val = 0 + q.val * (0 + 1); omega
  · refine (slice2_axis0_eq 128 (Wcls m c) slices_S256x10_S128x10_128_0 k q).trans ?_
    exact congrArg (fun z => Wcls m c (ix2 z q)) (Fin.ext (Nat.add_comm _ _))

/-- Entry q, q below 10, of the bias row is the bias's entry q. -/
theorem entry_B_apply (c : Dev nD) (q : Fin 10) (Q : Fin 128) (hQ : Q.val = q.val) :
    (W21 m ρ c (Proc.devRef .tc main_call0_v181) : S1x128.Idx → EReal) (ix2 (0 : Fin 1) Q) = bcls m c (ix1 q) := by
  rw [entry_B]
  refine (shapeCast_a_1a_apply _ shapeCasts_S128_S1x128 (0 : Fin 1) Q).trans ?_
  refine pad_apply_of_inside _ _ _ _ _ _ _ (ix1 Q) (ix1 q) (fun a => ?_)
  match a with
  | ⟨0, _⟩ => show Q.val = 0 + q.val * (0 + 1); omega

/-! ## The last kernel, and the cut to the ten classes -/

/-- The kernel's result array when it has run: the classifier of the two streams' features and the padded inputs. -/
theorem exit_region (c : Dev nD) :
    (W22 m ρ c (Proc.devRef .tc main_call0_v182) : S50000x128.Idx → EReal)
      = Spec.cls (XR m ρ c) (XV m ρ c) (Val10.aWr (V21 m ρ) c) (Val10.aWv (V21 m ρ) c) (Val10.aB (V21 m ρ) c) := by
  have h := (W22_arr m ρ c 5).trans (Val10.final_out (V21 m ρ) c)
  rw [show Val10.aXr (V21 m ρ) c = XR m ρ c from entry_XR m ρ c,
    show Val10.aXv (V21 m ρ) c = XV m ρ c from entry_XV m ρ c] at h
  exact h

/-- The program's result is the first ten columns of it. -/
theorem exit_slice (c : Dev nD) :
    (W23 m ρ c (Proc.devRef .tc main_v0) : S50000x10.Idx → EReal)
      = extractStridedSlice S50000x10 ![0, 0] (W22 m ρ c (Proc.devRef .tc main_call0_v182) : S50000x128.Idx → EReal)
          slices_S50000x128_S50000x10_0_0 := by
  show StableHlo.after hostOps11 (W22 m ρ c) (Proc.devRef .tc main_v0) = _
  after_results
  rfl

/-- THE RESULT at node r and class q. -/
theorem result_apply (c : Dev nD) (r : Fin 50000) (q : Fin 10) :
    (W23 m ρ c (Proc.devRef .tc main_v0) : S50000x10.Idx → EReal) (ix2 r q)
      = logits (XR m ρ c) (XV m ρ c) (Wcls m c) (bcls m c) (ix2 r q) := by
  rw [exit_slice]
  refine (slice2_axis1_eq 0 _ slices_S50000x128_S50000x10_0_0 r q).trans ?_
  rw [exit_region]
  show (_ + _) + _ = (_ + _) + _
  refine congrArg₂ (· + ·) (congrArg₂ (· + ·) (Finset.sum_congr rfl fun k _ => ?_) (Finset.sum_congr rfl fun k _ => ?_)) ?_
  · exact congrArg (XR m ρ c (ix2 r k) * ·) (entry_Wr_apply m ρ c k q _ (Nat.zero_add _))
  · exact congrArg (XV m ρ c (ix2 r k) * ·) (entry_Wv_apply m ρ c k q _ (Nat.zero_add _))
  · exact entry_B_apply m ρ c q _ (Nat.zero_add _)

/-- THE PROGRAM'S RESULT: the class scores of the two streams' features under the launched classifier weight and bias. -/
theorem result (c : Dev nD) :
    W23 m ρ c (Proc.devRef .tc main_v0) = logits (XR m ρ c) (XV m ρ c) (Wcls m c) (bcls m c) := by
  funext i
  obtain ⟨r, q, rfl⟩ : ∃ (r : Fin 50000) (q : Fin 10), i = ix2 r q := ⟨i 0, i 1, eq_ix2 i⟩
  exact result_apply m ρ c r q

end Cert.KernelIdeal.KChainC

end
-- ==== Proof.LibSegNorm.lean ====
/-
  SEGMENT SUMS UNDER A SYMMETRIC NORMALISATION — a general lemma file (no program is named here).

  The setting. A table `L` of `N` rows and `C` columns, a list of `E` edges given by two columns of 32-bit row
  numbers (sources `is`, destinations `id`, each an `[E, 1]` array), and one factor `dinv n` per row. The
  AGGREGATION of per-edge rows `u : [E, C]` is the scatter-add into a zero `[N, C]` table: row `n` of the
  result is the sum of the rows `u e` over the edges `e` whose destination is `n`.

  The law (`agg_law`). Scaling each edge's row by BOTH endpoint factors and then aggregating,
      ∑_{e → n} L[src e] · (dinv[src e] · dinv[dst e]),
  is the same as aggregating the rows of the PRE-SCALED table `L[m] · dinv[m]` and scaling row `n` of the result
  once by `dinv[n]`,
      (∑_{e → n} L[src e] · dinv[src e]) · dinv[n],
  over the extended reals, for every `L`, as soon as each factor `dinv n` is a NONNEGATIVE REAL. Only that is
  needed: a nonnegative real factor distributes over every sum of extended reals, whatever its terms (even
  `⊤ + ⊥`), and multiplication of extended reals is associative and commutative everywhere.

  What the file states, in order:
    * the dimension numbers of the two gathers (a row of an `[N, C]` table, an entry of an `[N]` vector, each at
      an `[E, 1]` column of starts) and of the two scatters (a row into `[N, C]`, an entry into `[N]`), each an
      `abbrev` taking its well-formedness proof as an argument;
    * each gather read at an index: the operand at the start, read signed and clamped into `[0, N − 1]`
      (`rowGather_apply`, `vecGather_apply`);
    * each scatter's landing condition: edge `e`'s update lands on row `n` exactly when its start, read signed
      and NOT clamped, is `n` (`rowScatter_resultIdx`, `vecScatter_resultIdx`);
    * a nonnegative real factor through a finite sum (`sum_mul_coe`);
    * the law (`agg_law`);
    * the degree count: scatter-adding ones into zeros gives a natural number (`degree_real`).
-/
import Idealize.ShloMosaic.Lib.ValueIdx
import Mathlib.Data.EReal.Operations

noncomputable section

open scoped BigOperators

open Idealize.ShloMosaic

namespace SegNorm

open Idealize.ShloMosaic.ValueIdx

/-! ## The dimension numbers -/

/-- A ROW of an `[N, C]` table at each of `E` starts: the table's axis 0 is collapsed and start-indexed, its
    axis 1 is the result's offset axis, the index vector lies on axis 1 of the `[E, 1]` starts. -/
abbrev rowGatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- An ENTRY of an `[N]` vector at each of `E` starts. -/
abbrev vecGatherDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- `E` rows of width `C` into an `[N, C]` table, row `e` at the start `e` names. -/
abbrev rowScatterDims (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- `E` scalars into an `[N]` vector, scalar `e` at the start `e` names. -/
abbrev vecScatterDims (N E : Nat)
    (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-! ## The start of an edge -/

/-- The index `[e, 0]` of edge `e`'s start in an `[E, 1]` column. -/
abbrev eIdx {E : Nat} (e : Fin E) : (⟨2, ![E, 1]⟩ : Shape).Idx :=
  fun a => match a with | ⟨0, _⟩ => e | ⟨1, _⟩ => ⟨0, Nat.one_pos⟩

/-- Edge `e`'s start read signed and clamped into `[0, N − 1]`: the row a gather reads. -/
def clampRow {N E w : Nat} (hN : 0 < N) (idx : IVec ⟨2, ![E, 1]⟩ w) (e : Fin E) : Fin N :=
  ⟨min (idx (eIdx e)).toInt.toNat (N - 1), by omega⟩

theorem clampRow_val {N E w : Nat} (hN : 0 < N) (idx : IVec ⟨2, ![E, 1]⟩ w) (e : Fin E) :
    (clampRow hN idx e).val = min (idx (eIdx e)).toInt.toNat (N - 1) := rfl

/-- A start that is a row number is its own clamp. -/
theorem clampRow_of_eq {N E w : Nat} (hN : 0 < N) (idx : IVec ⟨2, ![E, 1]⟩ w) (e : Fin E) (n : Fin N)
    (h : (idx (eIdx e)).toInt = (n.val : Int)) : clampRow hN idx e = n := by
  apply Fin.ext
  rw [clampRow_val, h, Int.toNat_natCast]
  have := n.isLt
  omega

/-! ## The gathers read at an index -/

section Gather
variable {α : Type}

/-- The row gather's operand index on axis 0: the clamped start. -/
theorem rowGather_idx0 {N E C w : Nat}
    (wf : GatherDims.WF ⟨2, ![N, C]⟩ ⟨2, ![E, 1]⟩ ⟨2, ![E, C]⟩ [1] [0] [] [0] [] 1 ![1, C])
    (idx : IVec ⟨2, ![E, 1]⟩ w) (y : (⟨2, ![E, C]⟩ : Shape).Idx) :
    ((rowGatherDims N E C wf).operandIdx y idx 0).val
      = min (idx (eIdx ⟨(y 0).val, idx2_lt0 y⟩)).toInt.toNat (N - 1) := by
  show (rowGatherDims N E C wf).start y idx 0 + (rowGatherDims N E C wf).batchCoord y 0
    + (rowGatherDims N E C wf).offCoord y 0 = _
  rw [GatherDims.batchCoord_eq_zero _ _ _ List.not_mem_nil,
    GatherDims.offCoord_eq_zero _ _ _
      (fun h => ((GatherDims.mem_sKept _ _).mp h).1 (List.mem_singleton.mpr rfl))]
  simp only [Nat.add_zero]
  unfold GatherDims.start
  rw [dif_pos (show (0 : Fin 2) ∈ (rowGatherDims N E C wf).startIndexMap from List.mem_singleton.mpr rfl)]
  have hsi : (rowGatherDims N E C wf).siIdx y ⟨List.idxOf (0 : Fin 2) (rowGatherDims N E C wf).startIndexMap,
      List.idxOf_lt_length_iff.2 (List.mem_singleton.mpr rfl)⟩ = eIdx ⟨(y 0).val, idx2_lt0 y⟩ := by
    funext b; refine Fin.ext ?_
    match b with
    | ⟨0, _⟩ => rfl
    | ⟨1, _⟩ => rfl
  rw [hsi]
  rfl

/-- The row gather's operand index on axis 1: the result's column. -/
theorem rowGather_idx1 {N E C w : Nat}
    (wf : GatherDims.WF ⟨2, ![N, C]⟩ ⟨2, ![E, 1]⟩ ⟨2, ![E, C]⟩ [1] [0] [] [0] [] 1 ![1, C])
    (idx : IVec ⟨2, ![E, 1]⟩ w) (y : (⟨2, ![E, C]⟩ : Shape).Idx) :
    ((rowGatherDims N E C wf).operandIdx y idx 1).val = (y 1).val := by
  show (rowGatherDims N E C wf).start y idx 1 + (rowGatherDims N E C wf).batchCoord y 1
    + (rowGatherDims N E C wf).offCoord y 1 = _
  rw [GatherDims.batchCoord_eq_zero _ _ _ List.not_mem_nil]
  have hns : (1 : Fin 2) ∉ (rowGatherDims N E C wf).startIndexMap := fun h =>
    absurd (congrArg Fin.val (List.mem_singleton.mp h)) Nat.one_ne_zero
  unfold GatherDims.start
  rw [dif_neg hns]
  simp only [Nat.add_zero, Nat.zero_add]
  rfl

/-- THE ROW GATHER READ AT `(e, c)`: the table at row `clamp (start e)`, column `c`. -/
theorem rowGather_apply {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (y : (⟨2, ![E, C]⟩ : Shape).Idx) :
    Host.gather (rowGatherDims N E C wf) x idx y
      = x (ix2 (clampRow hN idx ⟨(y 0).val, idx2_lt0 y⟩) ⟨(y 1).val, idx2_lt1 y⟩) := by
  unfold Host.gather
  congr 1
  funext a
  refine Fin.ext ?_
  match a with
  | ⟨0, _⟩ => exact rowGather_idx0 wf idx y
  | ⟨1, _⟩ => exact rowGather_idx1 wf idx y

/-- THE VECTOR GATHER READ AT `e`: the vector at entry `clamp (start e)`. -/
theorem vecGather_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (y : (⟨1, ![E]⟩ : Shape).Idx) :
    Host.gather (vecGatherDims N E wf) x idx y = x (ix1 (clampRow hN idx ⟨(y 0).val, (y 0).isLt⟩)) := by
  unfold Host.gather
  congr 1
  funext a
  obtain rfl : a = 0 := Subsingleton.elim _ _
  refine Fin.ext ?_
  show (vecGatherDims N E wf).start y idx 0 + (vecGatherDims N E wf).batchCoord y 0
    + (vecGatherDims N E wf).offCoord y 0 = _
  rw [GatherDims.batchCoord_eq_zero _ _ _ List.not_mem_nil,
    GatherDims.offCoord_eq_zero _ _ _
      (fun h => ((GatherDims.mem_sKept _ _).mp h).1 (List.mem_singleton.mpr rfl))]
  simp only [Nat.add_zero]
  unfold GatherDims.start
  rw [dif_pos (show (0 : Fin 1) ∈ (vecGatherDims N E wf).startIndexMap from List.mem_singleton.mpr rfl)]
  have hsi : (vecGatherDims N E wf).siIdx y ⟨List.idxOf (0 : Fin 1) (vecGatherDims N E wf).startIndexMap,
      List.idxOf_lt_length_iff.2 (List.mem_singleton.mpr rfl)⟩ = eIdx ⟨(y 0).val, (y 0).isLt⟩ := by
    funext b; refine Fin.ext ?_
    match b with
    | ⟨0, _⟩ => rfl
    | ⟨1, _⟩ => rfl
  rw [hsi]
  rfl

end Gather

/-! ## Where a scatter's update lands -/

section Scatter

/-- The row scatter's start on axis 0: edge `e`'s start, read signed. -/
theorem rowScatter_start0 {N E C w : Nat}
    (wf : ScatterDims.WF ⟨2, ![N, C]⟩ ⟨2, ![E, 1]⟩ ⟨2, ![E, C]⟩ [1] [0] [0] 1)
    (idx : IVec ⟨2, ![E, 1]⟩ w) (j : (⟨2, ![E, C]⟩ : Shape).Idx) :
    (rowScatterDims N E C wf).start j idx 0 = (idx (eIdx ⟨(j 0).val, idx2_lt0 j⟩)).toInt := by
  unfold ScatterDims.start
  rw [dif_pos (show (0 : Fin 2) ∈ (rowScatterDims N E C wf).scatterDimsToOperandDims from
    List.mem_singleton.mpr rfl)]
  have hsi : (rowScatterDims N E C wf).siIdx j
      ⟨List.idxOf (0 : Fin 2) (rowScatterDims N E C wf).scatterDimsToOperandDims,
        List.idxOf_lt_length_iff.2 (List.mem_singleton.mpr rfl)⟩ = eIdx ⟨(j 0).val, idx2_lt0 j⟩ := by
    funext b; refine Fin.ext ?_
    match b with
    | ⟨0, _⟩ => rfl
    | ⟨1, _⟩ => rfl
  rw [hsi]

/-- The row scatter's start on axis 1: none. -/
theorem rowScatter_start1 {N E C w : Nat}
    (wf : ScatterDims.WF ⟨2, ![N, C]⟩ ⟨2, ![E, 1]⟩ ⟨2, ![E, C]⟩ [1] [0] [0] 1)
    (idx : IVec ⟨2, ![E, 1]⟩ w) (j : (⟨2, ![E, C]⟩ : Shape).Idx) :
    (rowScatterDims N E C wf).start j idx 1 = 0 := by
  unfold ScatterDims.start
  rw [dif_neg (fun h => absurd (congrArg Fin.val (List.mem_singleton.mp h)) Nat.one_ne_zero)]

/-- The row scatter's window coordinate on axis 0 (the inserted axis): none. -/
theorem rowScatter_window0 {N E C : Nat}
    (wf : ScatterDims.WF ⟨2, ![N, C]⟩ ⟨2, ![E, 1]⟩ ⟨2, ![E, C]⟩ [1] [0] [0] 1)
    (j : (⟨2, ![E, C]⟩ : Shape).Idx) : (rowScatterDims N E C wf).window j 0 = 0 := rfl

/-- The row scatter's window coordinate on axis 1: the update's column. -/
theorem rowScatter_window1 {N E C : Nat}
    (wf : ScatterDims.WF ⟨2, ![N, C]⟩ ⟨2, ![E, 1]⟩ ⟨2, ![E, C]⟩ [1] [0] [0] 1)
    (j : (⟨2, ![E, C]⟩ : Shape).Idx) : (rowScatterDims N E C wf).window j 1 = (j 1).val := rfl

/-- WHERE A ROW UPDATE LANDS: update `(e, c)` lands on `(n, c')` exactly when edge `e`'s start, read signed
    and not clamped, is `n`, and `c = c'`. -/
theorem rowScatter_resultIdx {N E C w : Nat}
    (wf : ScatterDims.WF ⟨2, ![N, C]⟩ ⟨2, ![E, 1]⟩ ⟨2, ![E, C]⟩ [1] [0] [0] 1)
    (idx : IVec ⟨2, ![E, 1]⟩ w) (j : (⟨2, ![E, C]⟩ : Shape).Idx) (i : (⟨2, ![N, C]⟩ : Shape).Idx) :
    (rowScatterDims N E C wf).resultIdx? j idx = some i
      ↔ (idx (eIdx ⟨(j 0).val, idx2_lt0 j⟩)).toInt = ((i 0).val : Int) ∧ (j 1).val = (i 1).val := by
  unfold ScatterDims.resultIdx?
  constructor
  · intro h
    split at h
    · rename_i hc
      have hi := Option.some.inj h
      have key : ∀ a, ((rowScatterDims N E C wf).start j idx a
          + ((rowScatterDims N E C wf).window j a : Int)).toNat = (i a).val :=
        fun a => congrArg Fin.val (congrFun hi a)
      have h0 := key 0
      have c0 := (hc 0).1
      have h1 := key 1
      rw [rowScatter_start0, rowScatter_window0] at h0 c0
      rw [rowScatter_start1, rowScatter_window1] at h1
      refine ⟨by omega, by omega⟩
    · exact absurd h (by simp)
  · rintro ⟨h0, h1⟩
    have hi0 := idx2_lt0 i
    have hj1 := idx2_lt1 j
    have hc : ∀ a, 0 ≤ (rowScatterDims N E C wf).start j idx a + ((rowScatterDims N E C wf).window j a : Int)
        ∧ (rowScatterDims N E C wf).start j idx a + ((rowScatterDims N E C wf).window j a : Int)
          < (((⟨2, ![N, C]⟩ : Shape).size a : Nat) : Int) := by
      intro a
      match a with
      | ⟨0, _⟩ =>
        show 0 ≤ (rowScatterDims N E C wf).start j idx 0 + ((rowScatterDims N E C wf).window j 0 : Int)
          ∧ (rowScatterDims N E C wf).start j idx 0 + ((rowScatterDims N E C wf).window j 0 : Int) < (N : Int)
        rw [rowScatter_start0, rowScatter_window0, h0]; omega
      | ⟨1, _⟩ =>
        show 0 ≤ (rowScatterDims N E C wf).start j idx 1 + ((rowScatterDims N E C wf).window j 1 : Int)
          ∧ (rowScatterDims N E C wf).start j idx 1 + ((rowScatterDims N E C wf).window j 1 : Int) < (C : Int)
        rw [rowScatter_start1, rowScatter_window1]; omega
    rw [dif_pos hc]
    congr 1
    funext a; refine Fin.ext ?_
    match a with
    | ⟨0, _⟩ =>
      show ((rowScatterDims N E C wf).start j idx 0 + ((rowScatterDims N E C wf).window j 0 : Int)).toNat = (i 0).val
      rw [rowScatter_start0, rowScatter_window0, h0]; omega
    | ⟨1, _⟩ =>
      show ((rowScatterDims N E C wf).start j idx 1 + ((rowScatterDims N E C wf).window j 1 : Int)).toNat = (i 1).val
      rw [rowScatter_start1, rowScatter_window1, ← h1]; omega

/-- The vector scatter's start on its one axis: edge `e`'s start, read signed. -/
theorem vecScatter_start0 {N E w : Nat}
    (wf : ScatterDims.WF ⟨1, ![N]⟩ ⟨2, ![E, 1]⟩ ⟨1, ![E]⟩ [] [0] [0] 1)
    (idx : IVec ⟨2, ![E, 1]⟩ w) (j : (⟨1, ![E]⟩ : Shape).Idx) :
    (vecScatterDims N E wf).start j idx 0 = (idx (eIdx ⟨(j 0).val, (j 0).isLt⟩)).toInt := by
  unfold ScatterDims.start
  rw [dif_pos (show (0 : Fin 1) ∈ (vecScatterDims N E wf).scatterDimsToOperandDims from
    List.mem_singleton.mpr rfl)]
  have hsi : (vecScatterDims N E wf).siIdx j
      ⟨List.idxOf (0 : Fin 1) (vecScatterDims N E wf).scatterDimsToOperandDims,
        List.idxOf_lt_length_iff.2 (List.mem_singleton.mpr rfl)⟩ = eIdx ⟨(j 0).val, (j 0).isLt⟩ := by
    funext b; refine Fin.ext ?_
    match b with
    | ⟨0, _⟩ => rfl
    | ⟨1, _⟩ => rfl
  rw [hsi]
  rfl

/-- The vector scatter's window coordinate (its one axis is inserted): none. -/
theorem vecScatter_window0 {N E : Nat}
    (wf : ScatterDims.WF ⟨1, ![N]⟩ ⟨2, ![E, 1]⟩ ⟨1, ![E]⟩ [] [0] [0] 1)
    (j : (⟨1, ![E]⟩ : Shape).Idx) : (vecScatterDims N E wf).window j 0 = 0 := rfl

/-- WHERE A SCALAR UPDATE LANDS: update `e` lands on entry `n` exactly when edge `e`'s start, read signed and
    not clamped, is `n`. -/
theorem vecScatter_resultIdx {N E w : Nat}
    (wf : ScatterDims.WF ⟨1, ![N]⟩ ⟨2, ![E, 1]⟩ ⟨1, ![E]⟩ [] [0] [0] 1)
    (idx : IVec ⟨2, ![E, 1]⟩ w) (j : (⟨1, ![E]⟩ : Shape).Idx) (i : (⟨1, ![N]⟩ : Shape).Idx) :
    (vecScatterDims N E wf).resultIdx? j idx = some i
      ↔ (idx (eIdx ⟨(j 0).val, (j 0).isLt⟩)).toInt = ((i 0).val : Int) := by
  unfold ScatterDims.resultIdx?
  constructor
  · intro h
    split at h
    · rename_i hc
      have hi := Option.some.inj h
      have h0 : ((vecScatterDims N E wf).start j idx 0
          + ((vecScatterDims N E wf).window j 0 : Int)).toNat = (i 0).val :=
        congrArg Fin.val (congrFun hi 0)
      have c0 := (hc 0).1
      rw [vecScatter_start0, vecScatter_window0] at h0 c0
      omega
    · exact absurd h (by simp)
  · intro h0
    have hi0 : (i 0).val < N := (i 0).isLt
    have hc : ∀ a, 0 ≤ (vecScatterDims N E wf).start j idx a + ((vecScatterDims N E wf).window j a : Int)
        ∧ (vecScatterDims N E wf).start j idx a + ((vecScatterDims N E wf).window j a : Int)
          < (((⟨1, ![N]⟩ : Shape).size a : Nat) : Int) := by
      intro a
      obtain rfl : a = 0 := Subsingleton.elim _ _
      show 0 ≤ (vecScatterDims N E wf).start j idx 0 + ((vecScatterDims N E wf).window j 0 : Int)
        ∧ (vecScatterDims N E wf).start j idx 0 + ((vecScatterDims N E wf).window j 0 : Int) < (N : Int)
      rw [vecScatter_start0, vecScatter_window0, h0]; omega
    rw [dif_pos hc]
    congr 1
    funext a; refine Fin.ext ?_
    obtain rfl : a = 0 := Subsingleton.elim _ _
    show ((vecScatterDims N E wf).start j idx 0 + ((vecScatterDims N E wf).window j 0 : Int)).toNat = (i 0).val
    rw [vecScatter_start0, vecScatter_window0, h0]; omega

end Scatter

/-! ## A nonnegative real factor through a finite sum -/

/-- A nonnegative real factor distributes over every finite sum of extended reals, whatever its terms. -/
theorem sum_mul_coe {ι : Type*} (s : Finset ι) (f : ι → EReal) (r : ℝ) (hr : 0 ≤ r) :
    (∑ j ∈ s, f j) * (r : EReal) = ∑ j ∈ s, f j * (r : EReal) := by
  classical
  induction s using Finset.induction_on with
  | empty => simp
  | insert a s ha ih =>
    rw [Finset.sum_insert ha, Finset.sum_insert ha,
      EReal.right_distrib_of_nonneg_of_ne_top (EReal.coe_nonneg.mpr hr) (EReal.coe_ne_top r), ih]

/-! ## The law -/

/-- THE LAW. With every factor `dinv n` a nonnegative real: aggregating (at the destinations `dst`) the rows of
    the pre-scaled table `L · dinv` read at the sources `src`, and scaling row `n` of the result by `dinv n`, is
    aggregating the rows of `L` read at the sources, each scaled by the product of its two endpoint factors. -/
theorem agg_law {N E C w v : Nat} (hN : 0 < N)
    (wfS : ScatterDims.WF ⟨2, ![N, C]⟩ ⟨2, ![E, 1]⟩ ⟨2, ![E, C]⟩ [1] [0] [0] 1)
    (wfG : GatherDims.WF ⟨2, ![N, C]⟩ ⟨2, ![E, 1]⟩ ⟨2, ![E, C]⟩ [1] [0] [] [0] [] 1 ![1, C])
    (wfg : GatherDims.WF ⟨1, ![N]⟩ ⟨2, ![E, 1]⟩ ⟨1, ![E]⟩ [] [0] [] [0] [] 1 ![1])
    (L : (⟨2, ![N, C]⟩ : Shape).Idx → EReal) (dinv : (⟨1, ![N]⟩ : Shape).Idx → EReal)
    (hd : ∀ n, ∃ r : ℝ, 0 ≤ r ∧ dinv n = (r : EReal))
    (src : IVec ⟨2, ![E, 1]⟩ w) (dst : IVec ⟨2, ![E, 1]⟩ v) (i : (⟨2, ![N, C]⟩ : Shape).Idx) :
    (Ideal.hostScatterAdd (rowScatterDims N E C wfS) (fun _ => (0 : EReal)) dst
        (Host.gather (rowGatherDims N E C wfG) (fun p => L p * dinv (ix1 ⟨(p 0).val, idx2_lt0 p⟩)) src)) i
      * dinv (ix1 ⟨(i 0).val, idx2_lt0 i⟩)
    = Ideal.hostScatterAdd (rowScatterDims N E C wfS) (fun _ => (0 : EReal)) dst
        (fun j => Host.gather (rowGatherDims N E C wfG) L src j
          * (Host.gather (vecGatherDims N E wfg) dinv src (ix1 ⟨(j 0).val, idx2_lt0 j⟩)
            * Host.gather (vecGatherDims N E wfg) dinv dst (ix1 ⟨(j 0).val, idx2_lt0 j⟩))) i := by
  obtain ⟨r, hr, hdr⟩ := hd (ix1 ⟨(i 0).val, idx2_lt0 i⟩)
  unfold Ideal.hostScatterAdd
  rw [zero_add, zero_add, hdr, sum_mul_coe _ _ r hr]
  refine Finset.sum_congr rfl (fun j hj => ?_)
  have hland := (rowScatter_resultIdx wfS dst j i).mp (Finset.mem_filter.mp hj).2
  have e1 : clampRow hN dst ⟨(j 0).val, idx2_lt0 j⟩ = ⟨(i 0).val, idx2_lt0 i⟩ :=
    clampRow_of_eq hN dst _ _ hland.1
  beta_reduce
  rw [rowGather_apply hN wfG, rowGather_apply hN wfG, vecGather_apply hN wfg, vecGather_apply hN wfg]
  show L (ix2 (clampRow hN src ⟨(j 0).val, idx2_lt0 j⟩) ⟨(j 1).val, idx2_lt1 j⟩)
        * dinv (ix1 (clampRow hN src ⟨(j 0).val, idx2_lt0 j⟩)) * (r : EReal)
      = L (ix2 (clampRow hN src ⟨(j 0).val, idx2_lt0 j⟩) ⟨(j 1).val, idx2_lt1 j⟩)
        * (dinv (ix1 (clampRow hN src ⟨(j 0).val, idx2_lt0 j⟩))
          * dinv (ix1 (clampRow hN dst ⟨(j 0).val, idx2_lt0 j⟩)))
  rw [e1, hdr, mul_assoc]

/-! ## The degree count -/

/-- Scatter-adding ones into zeros counts: entry `n` is the number of edges whose start, read signed, is `n`. -/
theorem degree_eq_card {N E w : Nat}
    (wf : ScatterDims.WF ⟨1, ![N]⟩ ⟨2, ![E, 1]⟩ ⟨1, ![E]⟩ [] [0] [0] 1)
    (idx : IVec ⟨2, ![E, 1]⟩ w) (n : (⟨1, ![N]⟩ : Shape).Idx) :
    Ideal.hostScatterAdd (vecScatterDims N E wf) (fun _ => (0 : EReal)) idx (fun _ => (1 : EReal)) n
      = (((Finset.univ.filter (fun j : (⟨1, ![E]⟩ : Shape).Idx =>
          (idx (eIdx ⟨(j 0).val, (j 0).isLt⟩)).toInt = ((n 0).val : Int))).card : ℝ) : EReal) := by
  unfold Ideal.hostScatterAdd
  rw [zero_add, Finset.sum_const, nsmul_one, EReal.coe_coe_eq_natCast]
  congr 2
  exact Finset.filter_congr (fun j _ => vecScatter_resultIdx wf idx j n)

/-- … so it is a natural number, a nonnegative real. -/
theorem degree_real {N E w : Nat}
    (wf : ScatterDims.WF ⟨1, ![N]⟩ ⟨2, ![E, 1]⟩ ⟨1, ![E]⟩ [] [0] [0] 1)
    (idx : IVec ⟨2, ![E, 1]⟩ w) (n : (⟨1, ![N]⟩ : Shape).Idx) :
    ∃ k : ℕ, Ideal.hostScatterAdd (vecScatterDims N E wf) (fun _ => (0 : EReal)) idx (fun _ => (1 : EReal)) n
      = ((k : ℝ) : EReal) :=
  ⟨_, degree_eq_card wf idx n⟩

/-! ## The host's accumulating scatter at the ideal instance -/

/-- At the ideal instance the host's accumulating float scatter IS the exact sum (definitional). -/
theorem scatterAdd_ideal {s si u : Shape} {φ : FTy} {w : Nat} (d : ScatterDims s si u) (x : FVec Ideal s φ)
    (idx : IVec si w) (upd : FVec Ideal u φ) :
    Host.scatterAdd (F := Ideal) d x idx upd = Ideal.hostScatterAdd d x idx upd := rfl

end SegNorm

end
-- ==== Proof.LibLayerLaw.lean ====
/-
  ONE GRAPH-CONVOLUTION LAYER'S LINEAR PART, TWO WAYS — a general lemma file (no program is named here).

  A layer's linear part takes node features `X` (`N × K`), a weight `W` (`K × C`), a bias row `b`, a column
  `d2` of one factor per node, and `E` edges given by their source and destination columns. Written over the
  product `X·W`:

    * scaling the rows of `X·W` by `d2` first, aggregating them over the edges, scaling row `n` of the sums by
      `d2[n]` and adding the bias,
          (∑_{e → n} (X·W)[src e, c] · d2[src e]) · d2[n] + b[c],
    * is aggregating the rows of `X·W` with each edge's row scaled by BOTH endpoint factors, plus the bias,
          ∑_{e → n} (X·W)[src e, c] · (d2[src e] · d2[dst e]) + b[c],

  on the extended reals, for every `X`, `W`, `b`, as soon as each factor `d2[n]` is a nonnegative real
  (`layer_law`: the aggregation law of segment sums, one entry at a time).

  The factor itself (`dinv_nonneg_real`): where the degree of a node is a natural number `k`, the guarded
  reciprocal square root "`1/√k` if `k > 0`, else `0`" is a nonnegative real — `(√k)⁻¹` for `k > 0`, and `0` for
  `k = 0`, the guard keeping the infinite `1/√0` out.
-/
import proofs.«410635_j2241972928706_3_alg».proof.Proof.LibSegNorm
import proofs.«410635_j2241972928706_3_alg».proof.Proof.Spec
import Idealize.ShloMosaic.PureOps.Ideal.Laws
import Idealize.ShloMosaic.Lib.ValueIdx
import Mathlib.Data.EReal.Operations
import Mathlib.Analysis.Real.Sqrt

noncomputable section

open scoped BigOperators

open Idealize.ShloMosaic

namespace SegNorm

open Idealize.ShloMosaic.ValueIdx

/-! ## The guarded reciprocal square root of a count -/

/-- A count above zero compares above zero: the guard's bit is `1`. -/
theorem cmp_ogt_natCast_pos (k : ℕ) (hk : 0 < k) : Ideal.cmp .ogt (((k : ℝ) : EReal)) 0 = 1#1 := by
  have h : (0 : EReal) < ((k : ℝ) : EReal) := EReal.coe_pos.mpr (Nat.cast_pos.mpr hk)
  show BitVec.ofBool (decide ((0 : EReal) < ((k : ℝ) : EReal))) = 1#1
  rw [decide_eq_true h]
  rfl

/-- Zero does not compare above zero: the guard's bit is `0`. -/
theorem cmp_ogt_zero : Ideal.cmp .ogt (0 : EReal) 0 = 0#1 := by
  simp [Ideal.cmp]

/-- The reciprocal square root of a positive real is the real `(√r)⁻¹`. -/
theorem rsqrt_coe_pos (r : ℝ) (hr : 0 < r) : Ideal.rsqrt (r : EReal) = (((Real.sqrt r)⁻¹ : ℝ) : EReal) := by
  rw [Ideal.rsqrt_coe, if_neg (not_lt.mpr hr.le), if_neg hr.ne']

/-- THE FACTOR IS A NONNEGATIVE REAL: for a degree that is a natural number, "`rsqrt` of it if it is above zero,
    else zero" is `(√k)⁻¹` or `0`. The two zeros enter as `z` and `z'` with `z = 0` and `z' = 0`. -/
theorem dinv_nonneg_real {φ : FTy} (degn z z' : Ideal φ) (h : ∃ k : ℕ, degn = ((k : ℝ) : EReal))
    (hz : z = 0) (hz' : z' = 0) :
    ∃ x : ℝ, 0 ≤ x ∧
      Scalar.select (FloatOps.cmpf (F := Ideal) .ogt degn z) (Ideal.rsqrt degn) z' = (x : EReal) := by
  obtain ⟨k, hk⟩ := h
  rw [Ideal.cmpf_def, hk, hz, hz']
  rcases Nat.eq_zero_or_pos k with h0 | hpos
  · refine ⟨0, le_rfl, ?_⟩
    rw [h0, Nat.cast_zero, EReal.coe_zero, cmp_ogt_zero, select_zero]
  · refine ⟨(Real.sqrt (k : ℝ))⁻¹, inv_nonneg.mpr (Real.sqrt_nonneg _), ?_⟩
    rw [cmp_ogt_natCast_pos k hpos, select_one, rsqrt_coe_pos _ (Nat.cast_pos.mpr hpos)]

/-! ## The layer's linear part -/

/-- THE LAYER LAW: rows pre-scaled, aggregated, post-scaled and biased = rows aggregated with the per-edge product
    of the two endpoint factors, biased. -/
theorem layer_law {N E C K w v : Nat} (hN : 0 < N)
    (wfS : ScatterDims.WF ⟨2, ![N, C]⟩ ⟨2, ![E, 1]⟩ ⟨2, ![E, C]⟩ [1] [0] [0] 1)
    (wfG : GatherDims.WF ⟨2, ![N, C]⟩ ⟨2, ![E, 1]⟩ ⟨2, ![E, C]⟩ [1] [0] [] [0] [] 1 ![1, C])
    (wfg : GatherDims.WF ⟨1, ![N]⟩ ⟨2, ![E, 1]⟩ ⟨1, ![E]⟩ [] [0] [] [0] [] 1 ![1])
    (X : Cert.Spec.Mat N K) (W : Cert.Spec.Mat K C) (b : Cert.Spec.Mat 1 C) (d2 : Cert.Spec.Mat N 1)
    (hd : ∀ r : Fin N, ∃ x : ℝ, 0 ≤ x ∧ d2 (ix2 r (0 : Fin 1)) = (x : EReal))
    (src : IVec ⟨2, ![E, 1]⟩ w) (dst : IVec ⟨2, ![E, 1]⟩ v) :
    Cert.Spec.scaled
        (Ideal.hostScatterAdd (rowScatterDims N E C wfS) (fun _ => (0 : EReal)) dst
          (Host.gather (rowGatherDims N E C wfG) (Cert.Spec.lin X W d2) src)) d2 b
      = fun i =>
        Ideal.hostScatterAdd (rowScatterDims N E C wfS) (fun _ => (0 : EReal)) dst
          (fun j => Host.gather (rowGatherDims N E C wfG)
              (fun p => Cert.Spec.mm X W ⟨(p 0).val, idx2_lt0 p⟩ ⟨(p 1).val, idx2_lt1 p⟩) src j
            * (Host.gather (vecGatherDims N E wfg) (fun n => d2 (ix2 ⟨(n 0).val, (n 0).isLt⟩ (0 : Fin 1))) src
                (ix1 ⟨(j 0).val, idx2_lt0 j⟩)
              * Host.gather (vecGatherDims N E wfg) (fun n => d2 (ix2 ⟨(n 0).val, (n 0).isLt⟩ (0 : Fin 1))) dst
                (ix1 ⟨(j 0).val, idx2_lt0 j⟩))) i
          + b (ix2 (0 : Fin 1) ⟨(i 1).val, idx2_lt1 i⟩) := by
  funext i
  unfold Cert.Spec.scaled
  refine congrArg (· + b (ix2 (0 : Fin 1) ⟨(i 1).val, idx2_lt1 i⟩)) ?_
  exact agg_law hN wfS wfG wfg
    (fun p => Cert.Spec.mm X W ⟨(p 0).val, idx2_lt0 p⟩ ⟨(p 1).val, idx2_lt1 p⟩)
    (fun n => d2 (ix2 ⟨(n 0).val, (n 0).isLt⟩ (0 : Fin 1)))
    (fun n => hd ⟨(n 0).val, (n 0).isLt⟩) src dst i

end SegNorm

end
-- ==== Proof.Model.lean ====
/-
  One graph-convolution layer in its two arrangements, as plain functions on the extended reals, and their equality.

  `layerK` (the kernel's arrangement): the rows of `X·W` are scaled by the source factor before the gather, the
  per-node sums are scaled by the destination factor afterwards.  `layerR` (the reference's arrangement): every edge's
  gathered row is multiplied by `dinv[src]·dinv[dst]` before the sum.  The factor is a nonnegative real, and a
  nonnegative real factor distributes over any sum of extended reals, so the two agree (`SegNorm.layer_law`).
-/
import proofs.«410635_j2241972928706_3_alg».proof.Proof.Spec
import proofs.«410635_j2241972928706_3_alg».proof.Proof.LibSegNorm
import proofs.«410635_j2241972928706_3_alg».proof.Proof.LibLayerLaw

noncomputable section

namespace Cert.Model

open Idealize.ShloMosaic Idealize.ShloMosaic.ValueIdx Cert.Spec SegNorm

/-- The edge-index arrays of shape [850000, 1] (800000 edges and 50000 self-loops). -/
abbrev EI : Type := IVec (⟨2, ![850000, 1]⟩ : Shape) 32

theorem wfS : ScatterDims.WF ⟨2, ![50000, 128]⟩ ⟨2, ![850000, 1]⟩ ⟨2, ![850000, 128]⟩ [1] [0] [0] 1 := by decide
theorem wfs : ScatterDims.WF ⟨1, ![50000]⟩ ⟨2, ![850000, 1]⟩ ⟨1, ![850000]⟩ [] [0] [0] 1 := by decide
theorem wfG : GatherDims.WF ⟨2, ![50000, 128]⟩ ⟨2, ![850000, 1]⟩ ⟨2, ![850000, 128]⟩ [1] [0] [] [0] [] 1 ![1, 128] := by decide
theorem wfg : GatherDims.WF ⟨1, ![50000]⟩ ⟨2, ![850000, 1]⟩ ⟨1, ![850000]⟩ [] [0] [] [0] [] 1 ![1] := by decide

/-- The row scatter (per-node sums of 128-wide rows), the row gather, the scalar gather and the scalar scatter of the model. -/
abbrev rowS := rowScatterDims 50000 850000 128 wfS
abbrev vecS := vecScatterDims 50000 850000 wfs
abbrev rowG := rowGatherDims 50000 850000 128 wfG
abbrev vecG := vecGatherDims 50000 850000 wfg

/-- The sums over incoming edges of the gathered rows of `L`. -/
def agg (L : Mat 50000 128) (src dst : EI) : Mat 50000 128 :=
  Ideal.hostScatterAdd rowS (fun _ => (0 : EReal)) dst (Host.gather rowG L src)

/-- The kernel's layer: pre-scaled rows aggregated, post-scaled, biased, normalised, rectified, added to `X`. -/
def layerK (X : Mat 50000 128) (W : Mat 128 128) (b g be : Mat 1 128) (d2 : Mat 50000 1) (src dst : EI) : Mat 50000 128 :=
  post (scaled (agg (lin X W d2) src dst) d2 b) g be X

/-- The reference's pre-normalisation features: every edge's row of `X·W` times `d1[src]·d1[dst]`, summed per node, plus the bias. -/
def hR (X : Mat 50000 128) (W : Mat 128 128) (b : Mat 1 128) (d1 : Vc 50000) (srcW dstW dst : EI) : Mat 50000 128 :=
  fun i => Ideal.hostScatterAdd rowS (fun _ => (0 : EReal)) dst
      (fun j => Host.gather rowG (fun p => mm X W ⟨(p 0).val, idx2_lt0 p⟩ ⟨(p 1).val, idx2_lt1 p⟩) srcW j
        * (Host.gather vecG d1 srcW (ix1 ⟨(j 0).val, idx2_lt0 j⟩) * Host.gather vecG d1 dstW (ix1 ⟨(j 0).val, idx2_lt0 j⟩))) i
    + b (ix2 (0 : Fin 1) ⟨(i 1).val, idx2_lt1 i⟩)

/-- The reference's layer. -/
def layerR (X : Mat 50000 128) (W : Mat 128 128) (b g be : Mat 1 128) (d1 : Vc 50000) (srcW dstW dst : EI) : Mat 50000 128 :=
  post (hR X W b d1 srcW dstW dst) g be X

/-- The two arrangements agree when the factor is a nonnegative real at every node, the column `d2` and the vector `d1`
    hold the same factors, and the reference's wrapped index arrays are the plain ones. -/
theorem layerK_eq_layerR (X : Mat 50000 128) (W : Mat 128 128) (b g be : Mat 1 128) (d2 : Mat 50000 1) (d1 : Vc 50000)
    (src dst srcW dstW : EI)
    (hd : ∀ r : Fin 50000, ∃ x : ℝ, 0 ≤ x ∧ d2 (ix2 r (0 : Fin 1)) = (x : EReal))
    (h1 : d1 = fun n => d2 (ix2 ⟨(n 0).val, (n 0).isLt⟩ (0 : Fin 1))) (hs : srcW = src) (hdst : dstW = dst) :
    layerK X W b g be d2 src dst = layerR X W b g be d1 srcW dstW dst := by
  unfold layerK layerR hR agg
  rw [hs, hdst, h1, layer_law (by decide : 0 < 50000) wfS wfG wfg X W b d2 hd src dst]

end Cert.Model

end
-- ==== Proof.PreIdx.lean ====
/-
  THE TWO INDEX-RANGE CONJUNCTS OF THE PRECONDITION, READ BACK, and what a row number in range does to the index
  arithmetic around a gather.

  The precondition is a conjunction of `all(…)` tests that evaluates to the one bit `1`. Its last two conjuncts
  are `all((e ≥ 0) & (e < 50000))` for the two `[2, 800000]` arrays of 32-bit row numbers. Read back
  (`ei_range`): every word of either array, read as a signed integer, lies in `[0, 50000)`.

  For a word `x` with `0 ≤ x < 50000` (signed):
    * "if `x < 0` then `x + 50000` else `x`" is `x` (`wrap_id_word`, `wrap_id`);
    * "`x ≥ 0` and `x ≤ 49999`" is the bit `1` (`inb_word`), and so is its `and`-reduction over an axis of
      extent one (`inb_true`);
    * a row number `p < 50000` written as a 32-bit word is in range (`iota_range`), so appending the row numbers
      `0 … 49999` to a list of words in range gives a list of words in range (`concat_range`).
-/
import proofs.«410635_j2241972928706_3_alg».proof.Pre_finite_inputs
import Idealize.ShloMosaic.Lib.ReduceAll
import Idealize.ShloMosaic.Lib.ValueIdx
import Idealize.ShloMosaic.Lib.Pipeline.Value

noncomputable section

namespace Cert.PreIdx

open Idealize.ShloMosaic Idealize.ShloMosaic.ValueIdx

/-- The rank-0 shape has one index. -/
instance : Subsingleton Cert.Pre_finite_inputs.S_.Idx := ⟨fun _ _ => funext fun d => d.elim0⟩

/-! ## Words -/

theorem toInt_zero32 : (0#32 : BitVec 32).toInt = 0 := by decide
theorem toInt_50000 : (50000#32 : BitVec 32).toInt = 50000 := by decide
theorem toInt_49999 : (49999#32 : BitVec 32).toInt = 49999 := by decide

/-- "`x ≥ 0` and `x < 50000`" (signed) is the bit `1` exactly when `x` is in range. -/
theorem word_range_iff (x : BitVec 32) :
    IntOp.andi (IntOp.cmpi .sge x 0#32) (IntOp.cmpi .slt x 50000#32) = 1#1 ↔ 0 ≤ x.toInt ∧ x.toInt < 50000 := by
  rw [IntOp.andi_eq_one, IntOp.cmpi_sge, IntOp.cmpi_slt, toInt_zero32, toInt_50000]

/-! ## The precondition's two index conjuncts -/

open Cert.Pre_finite_inputs in
/-- THE INDEX RANGES: where the precondition evaluates to `1`, every word of the two index arrays is in
    `[0, 50000)`, read signed. -/
theorem ei_range {F : FTy → Type} [FloatOps F] [Cert.Pre_finite_inputs.Facts]
    (a0 : FVec F S50000x256 .f32) (a1 : FVec F S50000x256 .f32) (a2 : FVec F S256x128 .f32) (a3 : FVec F S128 .f32) (a4 : FVec F S256x128 .f32) (a5 : FVec F S128 .f32) (a6 : FVec F S4x128x128 .f32) (a7 : FVec F S4x128 .f32) (a8 : FVec F S4x128 .f32) (a9 : FVec F S4x128 .f32) (a10 : FVec F S4x128x128 .f32) (a11 : FVec F S4x128 .f32) (a12 : FVec F S4x128 .f32) (a13 : FVec F S4x128 .f32) (a14 : FVec F S256x10 .f32) (a15 : FVec F S10 .f32) (a16 : IVec S2x800000 32) (a17 : IVec S2x800000 32)
    (h : Cert.Pre_finite_inputs.fn (F := F) a0 a1 a2 a3 a4 a5 a6 a7 a8 a9 a10 a11 a12 a13 a14 a15 a16 a17 = (fun _ => 1#1)) :
    (∀ i : S2x800000.Idx, 0 ≤ (a16 i).toInt ∧ (a16 i).toInt < 50000)
      ∧ (∀ i : S2x800000.Idx, 0 ≤ (a17 i).toInt ∧ (a17 i).toInt < 50000) := by
  have h0 := congrFun h ix0
  dsimp only [fn, fn_part1, fn_part2, fn_part3, fn_part4, fn_part5] at h0
  obtain ⟨h85, h91⟩ := IntOp.andi_eq_one.1 h0
  obtain ⟨_, h84⟩ := IntOp.andi_eq_one.1 h85
  refine ⟨fun i => ?_, fun i => ?_⟩
  · exact (word_range_iff (a16 i)).1 (Host.reduce_andi_all _ _ _ _ ix0 h84 i)
  · exact (word_range_iff (a17 i)).1 (Host.reduce_andi_all _ _ _ _ ix0 h91 i)

/-! ## A word in range under the index arithmetic around a gather -/

/-- "if `x < 0` then `x + 50000` else `x`" is `x` for a word that is not negative. -/
theorem wrap_id_word (x y : BitVec 32) (hx : 0 ≤ x.toInt) :
    Scalar.select (IntOp.cmpi .slt x 0#32) y x = x := by
  unfold Scalar.select
  rw [if_neg]
  intro h
  have h' := IntOp.cmpi_slt.1 h
  rw [toInt_zero32] at h'
  omega

/-- The same for a whole array: where every word of `x` is not negative and `z` is zero everywhere,
    `select (x < z) y x` is `x`, whatever `y`. -/
theorem wrap_id {s : Shape} (x z y : IVec s 32) (hz : ∀ e, z e = 0#32) (hx : ∀ e, 0 ≤ (x e).toInt) :
    select (cmpi .slt x z) y x = x := by
  funext e
  show Scalar.select (IntOp.cmpi .slt (x e) (z e)) (y e) (x e) = x e
  rw [hz e]
  exact wrap_id_word (x e) (y e) (hx e)

/-- "`x ≥ 0` and `x ≤ 49999`" (signed) is the bit `1` for a word in range. -/
theorem inb_word (x : BitVec 32) (hx : 0 ≤ x.toInt ∧ x.toInt < 50000) :
    IntOp.andi (IntOp.cmpi .sge x 0#32) (IntOp.cmpi .sle x 49999#32) = 1#1 := by
  rw [IntOp.andi_eq_one, IntOp.cmpi_sge, IntOp.cmpi_sle, toInt_zero32, toInt_49999]
  omega

/-- A left fold by `and` from `1` over bits that are all `1` is `1`. -/
theorem foldl_andi_all_one {ι : Type} (f : ι → BitVec 1) (hf : ∀ n, f n = 1#1) :
    ∀ l : List ι, l.foldl (fun r n => IntOp.andi r (f n)) 1#1 = 1#1
  | [] => rfl
  | a :: l => by
    rw [List.foldl_cons, hf a, show IntOp.andi 1#1 1#1 = 1#1 from by decide]
    exact foldl_andi_all_one f hf l

/-- A reduction by `and`, from `1`, of an array of bits that are all `1` is `1` at every result index. -/
theorem reduce_andi_of_all {s t u : Shape} {axes : List (Fin s.rank)} (x : s.Idx → BitVec 1) (init : u.Idx → BitVec 1)
    (h : s.ReducesTo axes t) (hu : 0 < u.numel) (hinit : init (Shape.Idx.first hu) = 1#1) (hx : ∀ i, x i = 1#1)
    (j : t.Idx) : Host.reduce IntOp.andi x init h hu j = 1#1 := by
  rw [Host.reduce_eq_foldl, hinit]
  exact foldl_andi_all_one x hx _

/-- THE IN-BOUNDS MASK IS ALL ONES: for an array `idx` of words in range, with `z` zero everywhere and `c`
    `49999` everywhere, the reduction by `and` (from `1`) of `(idx ≥ z) and (idx ≤ c)` is `1` everywhere. -/
theorem inb_true {s t u : Shape} {axes : List (Fin s.rank)} (idx z c : IVec s 32) (hz : ∀ e, z e = 0#32)
    (hc : ∀ e, c e = 49999#32) (hidx : ∀ e, 0 ≤ (idx e).toInt ∧ (idx e).toInt < 50000) (init : IVec u 1)
    (h : s.ReducesTo axes t) (hu : 0 < u.numel) (hinit : init (Shape.Idx.first hu) = 1#1) (j : t.Idx) :
    Host.reduce IntOp.andi (andi (cmpi .sge idx z) (cmpi .sle idx c)) init h hu j = 1#1 := by
  refine reduce_andi_of_all _ init h hu hinit (fun e => ?_) j
  show IntOp.andi (IntOp.cmpi .sge (idx e) (z e)) (IntOp.cmpi .sle (idx e) (c e)) = 1#1
  rw [hz e, hc e]
  exact inb_word (idx e) (hidx e)

/-! ## Appending the row numbers -/

/-- A small natural number written as a 32-bit word reads back as itself, signed. -/
theorem toInt_ofNat_small (a : ℕ) (ha : a < 2 ^ 31) : (BitVec.ofNat 32 a).toInt = a := by
  rw [BitVec.toInt_ofNat', Int.bmod_eq_of_le (by omega) (by omega)]

/-- The row numbers `0 … n − 1` as 32-bit words are in `[0, n)`, read signed (`n` at most `2³¹`). -/
theorem iota_range {n : Nat} (hn : n ≤ 2 ^ 31) (e : (⟨1, ![n]⟩ : Shape).Idx) :
    0 ≤ (iotaInDim (⟨1, ![n]⟩ : Shape) 32 0 e).toInt ∧ (iotaInDim (⟨1, ![n]⟩ : Shape) 32 0 e).toInt < n := by
  have hlt : (e 0).val < n := (e 0).isLt
  show 0 ≤ (BitVec.ofNat 32 (e 0).val).toInt ∧ (BitVec.ofNat 32 (e 0).val).toInt < n
  rw [toInt_ofNat_small _ (by omega)]
  omega

/-- A property of every word of two lists holds of every word of their concatenation. -/
theorem concat_all {A B T : Nat} (P : BitVec 32 → Prop) (x₁ : IVec ⟨1, ![A]⟩ 32) (x₂ : IVec ⟨1, ![B]⟩ 32)
    (h : Shape.Concatenates [(⟨1, ![A]⟩ : Shape), ⟨1, ![B]⟩] ⟨1, ![T]⟩ 0)
    (h₁ : ∀ e, P (x₁ e)) (h₂ : ∀ e, P (x₂ e)) (e : (⟨1, ![T]⟩ : Shape).Idx) :
    P (concatenate (⟨1, ![T]⟩ : Shape) 0 [⟨⟨1, ![A]⟩, x₁⟩, ⟨⟨1, ![B]⟩, x₂⟩] h e) := by
  have hsum : A + B = T := by
    have e' := h.2.2
    simpa using e'
  have heT : (e 0).val < T := (e 0).isLt
  by_cases hlt : (e 0).val < A
  · rw [concatenate_pair_apply_left (0 : Fin 1) x₁ x₂ h e rfl (ix1 ⟨(e 0).val, hlt⟩)
      (fun b => by obtain rfl : b = 0 := Subsingleton.elim _ _; rfl)]
    exact h₁ _
  · rw [concatenate_pair_apply_right (0 : Fin 1) x₁ x₂ h e rfl rfl (ix1 ⟨(e 0).val - A, by omega⟩)
      (fun b hb => absurd (Subsingleton.elim _ _) hb)
      (by show (e 0).val - A + A = (e 0).val; omega)]
    exact h₂ _

/-- APPENDING THE ROW NUMBERS KEEPS THE RANGE: a list of words in `[0, 50000)` followed by the row numbers
    `0 … 49999` is a list of words in `[0, 50000)`. -/
theorem concat_range {A T : Nat} (src : IVec ⟨1, ![A]⟩ 32)
    (h : Shape.Concatenates [(⟨1, ![A]⟩ : Shape), ⟨1, ![50000]⟩] ⟨1, ![T]⟩ 0)
    (hsrc : ∀ e, 0 ≤ (src e).toInt ∧ (src e).toInt < 50000) (e : (⟨1, ![T]⟩ : Shape).Idx) :
    0 ≤ (concatenate (⟨1, ![T]⟩ : Shape) 0
          [⟨⟨1, ![A]⟩, src⟩, ⟨⟨1, ![50000]⟩, iotaInDim (⟨1, ![50000]⟩ : Shape) 32 0⟩] h e).toInt
      ∧ (concatenate (⟨1, ![T]⟩ : Shape) 0
          [⟨⟨1, ![A]⟩, src⟩, ⟨⟨1, ![50000]⟩, iotaInDim (⟨1, ![50000]⟩ : Shape) 32 0⟩] h e).toInt < 50000 :=
  concat_all (fun x => 0 ≤ x.toInt ∧ x.toInt < 50000) src _ h hsrc
    (fun e' => by
      have := iota_range (n := 50000) (by decide) e'
      exact ⟨this.1, by exact_mod_cast this.2⟩) e

end Cert.PreIdx

end
-- ==== Proof.KHost.lean ====
/-
  THE HOST-SIDE FUNCTIONS AROUND THE AGGREGATION, each named once as the composition of array operations it is,
  and what each reads at an index, on the extended reals.

  From a `[2, 800000]` array of 32-bit row numbers: its two rows, each followed by the row numbers `0 … 49999`
  (`sFn`, `dFn`: sources and destinations of 850000 edges, the last 50000 the self-loops). From the destinations:
  the degree of every node (`degFn`: ones summed per destination) and the factor "`1/√degree` if the degree is
  above zero, else `0`" as a column (`dinvFn`). From a table of rows and the sources: the gathered rows
  (`takeFn`), read at the source index made nonnegative by adding `50000` to a negative one (`sWI`), a row
  whose index lies outside `[0, 49999]` replaced by a not-a-number row; and the sums of the gathered rows per
  destination (`aggFn`). From the stacked weights and rows of a layer stack: layer `k`'s matrix (`wFn0 … wFn3`)
  and row (`rowFn0 … rowFn3`).

  With every row number in `[0, 50000)`: the index arithmetic is the identity (`sWI_eq`), no row is replaced
  (`take_eq`), the sums are the model's aggregation (`agg_eq`), and the factor is a nonnegative real
  (`dinv_real`).
-/
import proofs.«410635_j2241972928706_3_alg».proof.KernelIdeal
import proofs.«410635_j2241972928706_3_alg».proof.Proof.Model
import proofs.«410635_j2241972928706_3_alg».proof.Proof.PreIdx
import proofs.«410635_j2241972928706_3_alg».proof.Proof.LibSegNorm
import proofs.«410635_j2241972928706_3_alg».proof.Proof.LibLayerLaw
import Idealize.ShloMosaic.PureOps.Ideal.Laws
import Idealize.ShloMosaic.Lib.Pipeline.Value
import Idealize.ShloMosaic.Lib.ValueLayout
import Idealize.ShloMosaic.Lib.ValueIdx

noncomputable section

namespace Cert.KernelIdeal.KHost

open Idealize.ShloMosaic Idealize.ShloMosaic.ValueIdx Cert.KernelIdeal

variable [Cert.KernelIdeal.Facts]
open Cert.KernelIdeal.Facts₀ Cert.KernelIdeal.Facts

/-! ## The functions -/

/-- Row 0 of the `[2, 800000]` array as a list, followed by the row numbers `0 … 49999`: the edges' sources. -/
def sFn (ei : IVec S2x800000 32) : IVec S850000 32 :=
  concatenate S850000 0
    [⟨S800000, shapeCast S800000 (extractStridedSlice S1x800000 ![0, 0] ei slices_S2x800000_S1x800000_0_0)
        shapeCasts_S1x800000_S800000⟩,
      ⟨S50000, iotaInDim S50000 32 0⟩] concatenates_S800000_S50000_S850000_d0

/-- Row 1 likewise: the edges' destinations. -/
def dFn (ei : IVec S2x800000 32) : IVec S850000 32 :=
  concatenate S850000 0
    [⟨S800000, shapeCast S800000 (extractStridedSlice S1x800000 ![1, 0] ei slices_S2x800000_S1x800000_1_0)
        shapeCasts_S1x800000_S800000⟩,
      ⟨S50000, iotaInDim S50000 32 0⟩] concatenates_S800000_S50000_S850000_d0

/-- A list of 850000 row numbers as a `[850000, 1]` column: the form a scatter and a gather take their starts in. -/
def dI (d : IVec S850000 32) : Cert.Model.EI :=
  broadcastInDim S850000x1 ![0] bcast_S850000_S850000x1_0 d

/-- The zero vector of length 50000. -/
def zeros50000 : FVec Ideal S50000 .f32 :=
  broadcastInDim S50000 ![] bcast_S_S50000 (constant (F := Ideal) S_ .f32 0x00000000#32)

/-- The degrees: a one per edge, summed per destination into zeros. -/
def degFn (d : IVec S850000 32) : FVec Ideal S50000 .f32 :=
  Host.scatterAdd (F := Ideal) scatter_S50000_S850000x1_S850000_n_0_0_1 zeros50000 (dI d)
    (broadcastInDim S850000 ![] bcast_S_S850000 (constant (F := Ideal) S_ .f32 0x3F800000#32))

/-- The factor column: "`rsqrt` of the degree where the degree is above zero, else zero", as `[50000, 1]`. -/
def dinvFn (d : IVec S850000 32) : FVec Ideal S50000x1 .f32 :=
  shapeCast S50000x1
    (select (cmpf .ogt (degFn d) zeros50000) (Host.rsqrt (degFn d))
      (broadcastInDim S50000 ![] bcast_S_S50000 (id (constant (F := Ideal) S_ .f32 0x00000000#32))))
    shapeCasts_S50000_S50000x1

/-- A row number made nonnegative: "`x + 50000` where `x < 0`, else `x`", elementwise. -/
def wrapFn (s : IVec S850000 32) : IVec S850000 32 :=
  select (cmpi .slt s (broadcastInDim S850000 ![] bcast_S_S850000 (constantI S_ 32 0#32)))
    (addi s (broadcastInDim S850000 ![] bcast_S_S850000 (constantI S_ 32 50000#32))) s

/-- The column of starts the gather of rows reads: the wrapped sources as `[850000, 1]`. -/
def sWI (s : IVec S850000 32) : Cert.Model.EI :=
  broadcastInDim S850000x1 ![0] bcast_S850000_S850000x1_0 (wrapFn s)

/-- The in-bounds bit of every edge: "`start ≥ 0` and `start ≤ 49999`", reduced by `and` over the unit axis. -/
def inbFn (s : IVec S850000 32) : IVec S850000 1 :=
  Host.reduce IntOp.andi
    (andi (cmpi .sge (sWI s) (broadcastInDim S850000x1 ![] bcast_S_S850000x1 (constantI S_ 32 0#32)))
      (cmpi .sle (sWI s)
        (broadcastInDim S850000x1 ![0, 1] bcast_S1x1_S850000x1_0_1
          (broadcastInDim S1x1 ![1] bcast_S1_S1x1_1 (constantI S1 32 49999#32)))))
    (constantI S_ 1 1#1) reducesTo_S850000x1_S850000_d1 h_S_

/-- The gathered rows: row `start e` of the table for every edge `e`, a not-a-number row where the in-bounds bit
    is off. -/
def takeFn (lin : FVec Ideal S50000x128 .f32) (s : IVec S850000 32) : FVec Ideal S850000x128 .f32 :=
  select (broadcastInDim S850000x128 ![0] bcast_S850000_S850000x128_0 (inbFn s))
    (Host.gather gather_S50000x128_S850000x1_S850000x128_1_0_n_n_0_1_1128 lin (sWI s))
    (broadcastInDim S850000x128 ![] bcast_S_S850000x128 (constant (F := Ideal) S_ .f32 0x7FC00000#32))

/-- The aggregation: the gathered rows summed per destination into zeros. -/
def aggFn (lin : FVec Ideal S50000x128 .f32) (s d : IVec S850000 32) : FVec Ideal S50000x128 .f32 :=
  Host.scatterAdd (F := Ideal) scatter_S50000x128_S850000x1_S850000x128_1_0_0_1
    (broadcastInDim S50000x128 ![] bcast_S_S50000x128 (constant (F := Ideal) S_ .f32 0x00000000#32)) (dI d)
    (takeFn lin s)

/-- Row `k` of a `[4, 128]` stack as a `[1, 128]` row (sliced, flattened, and given its unit axis back). -/
def rowFn0 (v : FVec Ideal S4x128 .f32) : FVec Ideal S1x128 .f32 :=
  shapeCast S1x128 (shapeCast S128 (extractStridedSlice S1x128 ![0, 0] v slices_S4x128_S1x128_0_0)
    shapeCasts_S1x128_S128) shapeCasts_S128_S1x128
def rowFn1 (v : FVec Ideal S4x128 .f32) : FVec Ideal S1x128 .f32 :=
  shapeCast S1x128 (shapeCast S128 (extractStridedSlice S1x128 ![1, 0] v slices_S4x128_S1x128_1_0)
    shapeCasts_S1x128_S128) shapeCasts_S128_S1x128
def rowFn2 (v : FVec Ideal S4x128 .f32) : FVec Ideal S1x128 .f32 :=
  shapeCast S1x128 (shapeCast S128 (extractStridedSlice S1x128 ![2, 0] v slices_S4x128_S1x128_2_0)
    shapeCasts_S1x128_S128) shapeCasts_S128_S1x128
def rowFn3 (v : FVec Ideal S4x128 .f32) : FVec Ideal S1x128 .f32 :=
  shapeCast S1x128 (shapeCast S128 (extractStridedSlice S1x128 ![3, 0] v slices_S4x128_S1x128_3_0)
    shapeCasts_S1x128_S128) shapeCasts_S128_S1x128

/-- Matrix `k` of a `[4, 128, 128]` stack (sliced, its unit axis dropped, narrowed to the 16-bit format). -/
def wFn0 (W : FVec Ideal S4x128x128 .f32) : FVec Ideal S128x128 .bf16 :=
  truncf .bf16 (shapeCast S128x128 (extractStridedSlice S1x128x128 ![0, 0, 0] W slices_S4x128x128_S1x128x128_0_0_0)
    shapeCasts_S1x128x128_S128x128) bitsLt_bf16_f32
def wFn1 (W : FVec Ideal S4x128x128 .f32) : FVec Ideal S128x128 .bf16 :=
  truncf .bf16 (shapeCast S128x128 (extractStridedSlice S1x128x128 ![1, 0, 0] W slices_S4x128x128_S1x128x128_1_0_0)
    shapeCasts_S1x128x128_S128x128) bitsLt_bf16_f32
def wFn2 (W : FVec Ideal S4x128x128 .f32) : FVec Ideal S128x128 .bf16 :=
  truncf .bf16 (shapeCast S128x128 (extractStridedSlice S1x128x128 ![2, 0, 0] W slices_S4x128x128_S1x128x128_2_0_0)
    shapeCasts_S1x128x128_S128x128) bitsLt_bf16_f32
def wFn3 (W : FVec Ideal S4x128x128 .f32) : FVec Ideal S128x128 .bf16 :=
  truncf .bf16 (shapeCast S128x128 (extractStridedSlice S1x128x128 ![3, 0, 0] W slices_S4x128x128_S1x128x128_3_0_0)
    shapeCasts_S1x128x128_S128x128) bitsLt_bf16_f32

/-- A length-128 vector as a `[1, 128]` row. -/
def bredFn (v : FVec Ideal S128 .f32) : FVec Ideal S1x128 .f32 := shapeCast S1x128 v shapeCasts_S128_S1x128

/-- A `[256, 128]` matrix narrowed to the 16-bit format. -/
def wredFn (W : FVec Ideal S256x128 .f32) : FVec Ideal S256x128 .bf16 := truncf .bf16 W bitsLt_bf16_f32

/-! ## Literal words and records -/

/-- The 32-bit float word of `1.0` is the extended real `1`. -/
theorem ofBits_one_f32 : Ideal.ofBits .f32 0x3F800000#32 = 1 := by
  simp [Ideal.ofBits, Ideal.ieee]
  rw [← EReal.coe_mul, ← EReal.coe_one]
  congr 1
  norm_num

/-- The zero vector is zero everywhere. -/
theorem zeros50000_eq : zeros50000 = fun _ => (0 : EReal) := funext fun _ => Ideal.ofBits_zero_f32

/-- The three index records are the model's (the same fields). -/
theorem gatherRow_eq : gather_S50000x128_S850000x1_S850000x128_1_0_n_n_0_1_1128 = Cert.Model.rowG := rfl
theorem scatterRow_eq : scatter_S50000x128_S850000x1_S850000x128_1_0_0_1 = Cert.Model.rowS := rfl
theorem scatterVec_eq : scatter_S50000_S850000x1_S850000_n_0_0_1 = Cert.Model.vecS := rfl

/-! ## The edge lists stay in range -/

theorem s_range (ei : IVec S2x800000 32) (h : ∀ i, 0 ≤ (ei i).toInt ∧ (ei i).toInt < 50000) (e : S850000.Idx) :
    0 ≤ (sFn ei e).toInt ∧ (sFn ei e).toInt < 50000 := by
  unfold sFn
  exact Cert.PreIdx.concat_range _ concatenates_S800000_S50000_S850000_d0 (fun _ => h _) e

theorem d_range (ei : IVec S2x800000 32) (h : ∀ i, 0 ≤ (ei i).toInt ∧ (ei i).toInt < 50000) (e : S850000.Idx) :
    0 ≤ (dFn ei e).toInt ∧ (dFn ei e).toInt < 50000 := by
  unfold dFn
  exact Cert.PreIdx.concat_range _ concatenates_S800000_S50000_S850000_d0 (fun _ => h _) e

/-! ## The columns of starts -/

/-- The column of a list reads the list at the row. -/
theorem dI_eq (d : IVec S850000 32) : dI d = fun j => d (ix1 ⟨(j 0).val, idx2_lt0 j⟩) := by
  funext j
  unfold dI
  exact broadcastInDim_apply _ _ d j _ (fun a => by
    obtain rfl : a = 0 := Subsingleton.elim _ _
    rw [if_neg (by decide)]
    rfl)

/-- For sources in range the wrap is the identity. -/
theorem wrapFn_eq (s : IVec S850000 32) (hs : ∀ e, 0 ≤ (s e).toInt ∧ (s e).toInt < 50000) : wrapFn s = s :=
  Cert.PreIdx.wrap_id s _ _ (fun _ => rfl) (fun e => (hs e).1)

/-- … so the column the gather reads is the column of the sources. -/
theorem sWI_eq (s : IVec S850000 32) (hs : ∀ e, 0 ≤ (s e).toInt ∧ (s e).toInt < 50000) :
    sWI s = fun j => s (ix1 ⟨(j 0).val, idx2_lt0 j⟩) := by
  unfold sWI
  rw [wrapFn_eq s hs]
  exact dI_eq s

/-- … and equals `dI s`. -/
theorem sWI_eq_dI (s : IVec S850000 32) (hs : ∀ e, 0 ≤ (s e).toInt ∧ (s e).toInt < 50000) : sWI s = dI s := by
  unfold sWI
  rw [wrapFn_eq s hs]
  rfl

/-! ## The gathered rows and their sums -/

/-- For sources in range every in-bounds bit is `1`. -/
theorem inbFn_eq_one (s : IVec S850000 32) (hs : ∀ e, 0 ≤ (s e).toInt ∧ (s e).toInt < 50000) (e : S850000.Idx) :
    inbFn s e = 1#1 := by
  unfold inbFn
  exact Cert.PreIdx.inb_true (sWI s) _ _ (fun _ => rfl) (fun _ => rfl)
    (fun j => by rw [sWI_eq s hs]; exact hs _) (constantI S_ 1 1#1) reducesTo_S850000x1_S850000_d1 h_S_ rfl e

/-- … so no row is replaced: the gathered rows are the plain gather. -/
theorem take_eq (lin : FVec Ideal S50000x128 .f32) (s : IVec S850000 32)
    (hs : ∀ e, 0 ≤ (s e).toInt ∧ (s e).toInt < 50000) :
    takeFn lin s = Host.gather Cert.Model.rowG lin (sWI s) := by
  funext y
  unfold takeFn
  have hb : broadcastInDim S850000x128 ![0] bcast_S850000_S850000x128_0 (inbFn s) y = 1#1 := by
    unfold broadcastInDim
    exact inbFn_eq_one s hs _
  rw [select_apply, hb, select_one, gatherRow_eq]

/-- The sums per destination are the model's aggregation. -/
theorem agg_eq (lin : FVec Ideal S50000x128 .f32) (s d : IVec S850000 32)
    (hs : ∀ e, 0 ≤ (s e).toInt ∧ (s e).toInt < 50000) :
    aggFn lin s d = Cert.Model.agg lin (sWI s) (dI d) := by
  have hz : (broadcastInDim S50000x128 ![] bcast_S_S50000x128 (constant (F := Ideal) S_ .f32 0x00000000#32)
      : FVec Ideal S50000x128 .f32) = fun _ => (0 : EReal) := funext fun _ => Ideal.ofBits_zero_f32
  unfold aggFn Cert.Model.agg
  rw [take_eq lin s hs, SegNorm.scatterAdd_ideal, scatterRow_eq, hz]

/-! ## The factor -/

/-- Every degree is a natural number. -/
theorem deg_nat (d : IVec S850000 32) (n : S50000.Idx) : ∃ k : ℕ, degFn d n = ((k : ℝ) : EReal) := by
  have ho : (broadcastInDim S850000 ![] bcast_S_S850000 (constant (F := Ideal) S_ .f32 0x3F800000#32)
      : FVec Ideal S850000 .f32) = fun _ => (1 : EReal) := funext fun _ => ofBits_one_f32
  unfold degFn
  rw [SegNorm.scatterAdd_ideal, scatterVec_eq, zeros50000_eq, ho]
  exact SegNorm.degree_real Cert.Model.wfs (dI d) n

/-- The host's reciprocal square root at an index is the extended reals'. -/
theorem host_rsqrt_apply {s : Shape} {φ : FTy} (x : FVec Ideal s φ) (i : s.Idx) : Host.rsqrt x i = Ideal.rsqrt (x i) := rfl

/-- The factor column at row `r`, in terms of the degree: "`rsqrt` of it if it is above zero, else zero". -/
theorem dinvFn_apply (d : IVec S850000 32) (r : Fin 50000) :
    dinvFn d (ix2 r (0 : Fin 1))
      = Scalar.select (FloatOps.cmpf (F := Ideal) (φ := .f32) .ogt (degFn d (ix1 r)) (0 : EReal))
          (Ideal.rsqrt (degFn d (ix1 r))) (0 : EReal) := by
  have hz1 : zeros50000 (ix1 r) = (0 : EReal) := congrFun zeros50000_eq _
  have hz2 : (broadcastInDim S50000 ![] bcast_S_S50000 (id (constant (F := Ideal) S_ .f32 0x00000000#32))
      : FVec Ideal S50000 .f32) (ix1 r) = (0 : EReal) := Ideal.ofBits_zero_f32
  unfold dinvFn
  rw [shapeCast_apply _ _ (ix2 r (0 : Fin 1)) (ix1 r) (by
    rw [Shape.rowMajor_val_two, Shape.rowMajor_val_one]
    show r.val = r.val * 1 + 0
    omega)]
  rw [select_apply, cmpf_apply, host_rsqrt_apply, hz1, hz2]

/-- THE FACTOR IS A NONNEGATIVE REAL at every row. -/
theorem dinv_real (d : IVec S850000 32) (r : Fin 50000) :
    ∃ x : ℝ, 0 ≤ x ∧ dinvFn d (ix2 r (0 : Fin 1)) = (x : EReal) := by
  rw [dinvFn_apply]
  exact SegNorm.dinv_nonneg_real (φ := .f32) _ _ _ (deg_nat d (ix1 r)) rfl rfl

/-! ## Rows and matrices of a stack, read at an index -/

theorem rowFn0_apply (v : FVec Ideal S4x128 .f32) (q : Fin 128) :
    rowFn0 v (ix2 (0 : Fin 1) q) = v (ix2 (0 : Fin 4) q) := by
  unfold rowFn0
  rw [shapeCast_a_1a_apply, shapeCast_1a_a_apply]
  exact slice2_axis0_apply 0 v _ _ _ _ rfl
theorem rowFn1_apply (v : FVec Ideal S4x128 .f32) (q : Fin 128) :
    rowFn1 v (ix2 (0 : Fin 1) q) = v (ix2 (1 : Fin 4) q) := by
  unfold rowFn1
  rw [shapeCast_a_1a_apply, shapeCast_1a_a_apply]
  exact slice2_axis0_apply 1 v _ _ _ _ rfl
theorem rowFn2_apply (v : FVec Ideal S4x128 .f32) (q : Fin 128) :
    rowFn2 v (ix2 (0 : Fin 1) q) = v (ix2 (2 : Fin 4) q) := by
  unfold rowFn2
  rw [shapeCast_a_1a_apply, shapeCast_1a_a_apply]
  exact slice2_axis0_apply 2 v _ _ _ _ rfl
theorem rowFn3_apply (v : FVec Ideal S4x128 .f32) (q : Fin 128) :
    rowFn3 v (ix2 (0 : Fin 1) q) = v (ix2 (3 : Fin 4) q) := by
  unfold rowFn3
  rw [shapeCast_a_1a_apply, shapeCast_1a_a_apply]
  exact slice2_axis0_apply 3 v _ _ _ _ rfl

/-- A `[4, 128, 128]` stack cut along axis 0 from `k` reads, at `(0, p, q)`, the stack at `(k, p, q)`. -/
theorem slice3_axis0_unit_apply (o : Nat) (X : FVec Ideal S4x128x128 .f32) (h : S4x128x128.Slices ![o, 0, 0] S1x128x128)
    (k : Fin 4) (hk : k.val = o) (p q : Fin 128) :
    extractStridedSlice S1x128x128 ![o, 0, 0] X h (ix3 (0 : Fin 1) p q) = X (ix3 k p q) :=
  extractStridedSlice_apply _ _ _ _ _ (fun ax => by
    match ax with
    | ⟨0, _⟩ => exact hk.trans (Nat.add_zero _).symm
    | ⟨1, _⟩ => exact (Nat.zero_add _).symm
    | ⟨2, _⟩ => exact (Nat.zero_add _).symm)

theorem wFn0_apply (W : FVec Ideal S4x128x128 .f32) (p q : Fin 128) : wFn0 W (ix2 p q) = W (ix3 (0 : Fin 4) p q) := by
  unfold wFn0
  rw [truncf_apply, shapeCast_1ab_ab_apply]
  exact slice3_axis0_unit_apply 0 W _ 0 rfl p q
theorem wFn1_apply (W : FVec Ideal S4x128x128 .f32) (p q : Fin 128) : wFn1 W (ix2 p q) = W (ix3 (1 : Fin 4) p q) := by
  unfold wFn1
  rw [truncf_apply, shapeCast_1ab_ab_apply]
  exact slice3_axis0_unit_apply 1 W _ 1 rfl p q
theorem wFn2_apply (W : FVec Ideal S4x128x128 .f32) (p q : Fin 128) : wFn2 W (ix2 p q) = W (ix3 (2 : Fin 4) p q) := by
  unfold wFn2
  rw [truncf_apply, shapeCast_1ab_ab_apply]
  exact slice3_axis0_unit_apply 2 W _ 2 rfl p q
theorem wFn3_apply (W : FVec Ideal S4x128x128 .f32) (p q : Fin 128) : wFn3 W (ix2 p q) = W (ix3 (3 : Fin 4) p q) := by
  unfold wFn3
  rw [truncf_apply, shapeCast_1ab_ab_apply]
  exact slice3_axis0_unit_apply 3 W _ 3 rfl p q

theorem bredFn_apply (v : FVec Ideal S128 .f32) (q : Fin 128) : bredFn v (ix2 (0 : Fin 1) q) = v (ix1 q) := by
  unfold bredFn
  rw [shapeCast_a_1a_apply]

/-- Narrowing the format is the identity on extended reals. -/
theorem wredFn_eq (W : FVec Ideal S256x128 .f32) : wredFn W = W := rfl

end Cert.KernelIdeal.KHost

end
-- ==== Proof.KNames.lean ====
/-
  The kernel's values along one stream, named once, as functions of the stream's eight argument arrays:
  `X0` the projected features, `Lk` the pre-scaled rows `(Xk·W[k])·dinv`, and `X(k+1)` the next features
  `Xk + relu (layernorm ((Σ incoming Lk rows)·dinv + b[k])·g[k] + be[k])`.
-/
import proofs.«410635_j2241972928706_3_alg».proof.Proof.KHost
import proofs.«410635_j2241972928706_3_alg».proof.Proof.Spec

noncomputable section

namespace Cert.KernelIdeal.KNames

open Idealize.ShloMosaic Cert.KernelIdeal Cert.Spec

variable [Cert.KernelIdeal.Facts]

variable (x : FVec Ideal S50000x256 .f32) (wred : FVec Ideal S256x128 .f32) (bred : FVec Ideal S128 .f32)
  (W : FVec Ideal S4x128x128 .f32) (b g be : FVec Ideal S4x128 .f32) (ei : IVec S2x800000 32)

/-- The degree factor column of the stream's graph. -/
def D2 : Mat 50000 1 := KHost.dinvFn (KHost.dFn ei)

/-- One layer's step from the features `X` and their pre-scaled rows `L`. -/
def nxt (X L : Mat 50000 128) (bk gk bek : FVec Ideal S1x128 .f32) : Mat 50000 128 :=
  post (scaled (KHost.aggFn L (KHost.sFn ei) (KHost.dFn ei)) (D2 ei) bk) gk bek X

def X0 : Mat 50000 128 := affine x (KHost.wredFn wred) (KHost.bredFn bred)
def L0 : Mat 50000 128 := lin (X0 x wred bred) (KHost.wFn0 W) (D2 ei)
def X1 : Mat 50000 128 := nxt ei (X0 x wred bred) (L0 x wred bred W ei) (KHost.rowFn0 b) (KHost.rowFn0 g) (KHost.rowFn0 be)
def L1 : Mat 50000 128 := lin (X1 x wred bred W b g be ei) (KHost.wFn1 W) (D2 ei)
def X2 : Mat 50000 128 := nxt ei (X1 x wred bred W b g be ei) (L1 x wred bred W b g be ei) (KHost.rowFn1 b) (KHost.rowFn1 g) (KHost.rowFn1 be)
def L2 : Mat 50000 128 := lin (X2 x wred bred W b g be ei) (KHost.wFn2 W) (D2 ei)
def X3 : Mat 50000 128 := nxt ei (X2 x wred bred W b g be ei) (L2 x wred bred W b g be ei) (KHost.rowFn2 b) (KHost.rowFn2 g) (KHost.rowFn2 be)
def L3 : Mat 50000 128 := lin (X3 x wred bred W b g be ei) (KHost.wFn3 W) (D2 ei)
def X4 : Mat 50000 128 := nxt ei (X3 x wred bred W b g be ei) (L3 x wred bred W b g be ei) (KHost.rowFn3 b) (KHost.rowFn3 g) (KHost.rowFn3 be)

end Cert.KernelIdeal.KNames

end
-- ==== Proof.Val0.lean ====
/-
  THE VALUE OF A STREAM'S OPENING KERNEL REGION: the dimension-reducing projection and the first layer's scaled product.

  The region's kernel walks the 50000 rows of the stream's node features in ten blocks of 5000. On a block it forms
      x0 = x · Wred + bred          (a 5000×256 by 256×128 product, plus the bias row on every row)
      lin = (x0 · W) · dinv          (a 5000×128 by 128×128 product, each row scaled by its entry of the column dinv)
  and writes both back to rows 5000·t … 5000·t + 4999 of the two result arrays. Read at the ideal values the format
  changes are the identity, so each block is the same index-by-index formula as the whole array's: block t of
  Spec.affine x Wred bred, and block t of Spec.lin (Spec.affine x Wred bred) W dinv. The ten blocks tile the arrays
  (row r lies in block r / 5000), so after the region the first result array IS Spec.affine … and the second IS
  Spec.lin …, as functions of the arrays the region finds (the parameter V).

  Order: the two payloads at an entry; each window's block at a point read as rows of its array; the payloads of those
  blocks; what a point writes back; the cover; the two arrays after the region.
-/
import proofs.«410635_j2241972928706_3_alg».proof.Proof.Gen.KernelIdeal.Frame
import proofs.«410635_j2241972928706_3_alg».proof.Proof.Spec
import proofs.«410635_j2241972928706_3_alg».proof.Proof.LibBlockOps
import Idealize.ShloMosaic.Lib.Pipeline.Value
import Idealize.ShloMosaic.Lib.ValueIdx
import Idealize.ShloMosaic.Lib.ValueLayout

noncomputable section

namespace Cert.KernelIdeal.Val0

open Cert.KernelIdeal Cert.KernelIdeal.Gen Idealize.ShloMosaic Idealize.ShloMosaic.ValueIdx
open Cert

/-- The first payload at an entry: the block product's entry plus the bias row's. -/
theorem pay1_apply (v0 : FVec Ideal S5000x256 .f32) (v2 : FVec Ideal S256x128 .bf16) (v5 : FVec Ideal S1x128 .f32)
    (p : Fin 5000) (q : Fin 128) :
    k0_pay1 (F := Ideal) v0 v2 v5 (ix2 p q) = Spec.mm v0 v2 p q + v5 (ix2 (0 : Fin 1) q) := by
  unfold k0_pay1
  show addf (F := Ideal) (matmul dot_S5000x256_S256x128_S5000x128_1_0_0_1_n_n none (truncf .bf16 v0 bitsLt_bf16_f32)
      (shapeCast S256x128 v2 shapeCasts_S256x128_S256x128) (constant (F := Ideal) S5000x128 .f32 0x00000000#32))
    (broadcastTo S5000x128 (shapeCast S1x128 v5 shapeCasts_S1x128_S1x128) broadcasts_S1x128_S5000x128) (ix2 p q) = _
  rw [shapeCast_self, shapeCast_self, addf_apply, broadcastTo_1b_ab_apply]
  congr 1
  exact BlockOps.matmul_zero_apply dot_S5000x256_S256x128_S5000x128_1_0_0_1_n_n_wf none
    (truncf .bf16 v0 bitsLt_bf16_f32) v2 p q

/-- The second payload at an entry: the product of the first payload's block by the weight, scaled by the column. -/
theorem pay2_apply (v0 : FVec Ideal S5000x256 .f32) (v2 : FVec Ideal S256x128 .bf16) (v5 : FVec Ideal S1x128 .f32)
    (v11 : FVec Ideal S128x128 .bf16) (v14 : FVec Ideal S5000x1 .f32) (p : Fin 5000) (q : Fin 128) :
    k0_pay2 (F := Ideal) v0 v2 v5 v11 v14 (ix2 p q)
      = Spec.mm (k0_pay1 (F := Ideal) v0 v2 v5) v11 p q * v14 (ix2 p (0 : Fin 1)) := by
  unfold k0_pay2
  show mulf (F := Ideal) (matmul dot_S5000x128_S128x128_S5000x128_1_0_0_1_n_n none
      (truncf .bf16 (k0_pay1 (F := Ideal) v0 v2 v5) bitsLt_bf16_f32)
      (shapeCast S128x128 v11 shapeCasts_S128x128_S128x128) (constant (F := Ideal) S5000x128 .f32 0x00000000#32))
    (broadcastTo S5000x128 (shapeCast S5000x1 v14 shapeCasts_S5000x1_S5000x1) broadcasts_S5000x1_S5000x128) (ix2 p q) = _
  rw [shapeCast_self, shapeCast_self, mulf_apply, BlockOps.broadcastTo_a1_ab_apply]
  congr 1
  exact BlockOps.matmul_zero_apply dot_S5000x128_S128x128_S5000x128_1_0_0_1_n_n_wf none
    (truncf .bf16 (k0_pay1 (F := Ideal) v0 v2 v5) bitsLt_bf16_f32) v11 p q

open Idealize.ShloMosaic.TcCoe Idealize.SL.Sem
open Idealize.ShloMosaic.Pipeline (Dat)

theorem hz : (![0, 0] : Fin 2 → Nat) = fun _ => 0 := funext fun a => by fin_cases a <;> rfl

/-- The printed index maps, decided over the grid: a row-blocked window's block index is (the point, 0); a whole-array
    window's is (0, 0). -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

theorem hN : cfg0.N = 10 := N_0

/-- The row of the array under row p of point t's block. -/
abbrev rowOf (t : Fin cfg0.N) (p : Fin 5000) : Fin 50000 :=
  ⟨t.val * 5000 + p.val, by have := t.isLt; have := hN; have := p.isLt; omega⟩

/-- The first input read through point t's block: rows 5000·t … 5000·t + 4999. -/
theorem blk0_apply (B : S50000x256.Idx → Elt Ideal .f32) (t : Fin cfg0.N) (p : Fin 5000) (k : Fin 256) :
    ((cfg0.win 0).blk t).view.read (Elt Ideal) B (ix2 p k) = B (ix2 (rowOf t p) k) := by
  rw [View.read_apply]
  show B _ = B _
  congr 1
  funext a; apply Fin.ext
  obtain ⟨e0, e1, -⟩ := idx_facts t
  match a with
  | ⟨0, _⟩ => show win0_0.index t (0 : Fin 2) * 5000 + 1 * p.val = t.val * 5000 + p.val; rw [e0]; omega
  | ⟨1, _⟩ => show win0_0.index t (1 : Fin 2) * 256 + 1 * k.val = k.val; rw [e1]; omega

/-- The first weight read through any point's block: the whole array. -/
theorem blk1_apply (B : S256x128.Idx → Elt Ideal .bf16) (t : Fin cfg0.N) (k : Fin 256) (q : Fin 128) :
    ((cfg0.win 1).blk t).view.read (Elt Ideal) B (ix2 k q) = B (ix2 k q) := by
  rw [View.read_apply]
  show B _ = B _
  congr 1
  funext a; apply Fin.ext
  obtain ⟨-, -, e0, e1, -⟩ := idx_facts t
  match a with
  | ⟨0, _⟩ => show win0_1.index t (0 : Fin 2) * 256 + 1 * k.val = k.val; rw [e0]; omega
  | ⟨1, _⟩ => show win0_1.index t (1 : Fin 2) * 128 + 1 * q.val = q.val; rw [e1]; omega

/-- The bias row read through any point's block: the whole array. -/
theorem blk2_apply (B : S1x128.Idx → Elt Ideal .f32) (t : Fin cfg0.N) (z : Fin 1) (q : Fin 128) :
    ((cfg0.win 2).blk t).view.read (Elt Ideal) B (ix2 z q) = B (ix2 z q) := by
  rw [View.read_apply]
  show B _ = B _
  congr 1
  funext a; apply Fin.ext
  obtain ⟨-, -, -, -, e0, e1, -⟩ := idx_facts t
  match a with
  | ⟨0, _⟩ => show win0_2.index t (0 : Fin 2) * 1 + 1 * z.val = z.val; rw [e0]; omega
  | ⟨1, _⟩ => show win0_2.index t (1 : Fin 2) * 128 + 1 * q.val = q.val; rw [e1]; omega

/-- The second weight read through any point's block: the whole array. -/
theorem blk3_apply (B : S128x128.Idx → Elt Ideal .bf16) (t : Fin cfg0.N) (k : Fin 128) (q : Fin 128) :
    ((cfg0.win 3).blk t).view.read (Elt Ideal) B (ix2 k q) = B (ix2 k q) := by
  rw [View.read_apply]
  show B _ = B _
  congr 1
  funext a; apply Fin.ext
  obtain ⟨-, -, -, -, -, -, e0, e1, -⟩ := idx_facts t
  match a with
  | ⟨0, _⟩ => show win0_3.index t (0 : Fin 2) * 128 + 1 * k.val = k.val; rw [e0]; omega
  | ⟨1, _⟩ => show win0_3.index t (1 : Fin 2) * 128 + 1 * q.val = q.val; rw [e1]; omega

/-- The scaling column read through point t's block: rows 5000·t … 5000·t + 4999. -/
theorem blk4_apply (B : S50000x1.Idx → Elt Ideal .f32) (t : Fin cfg0.N) (p : Fin 5000) (z : Fin 1) :
    ((cfg0.win 4).blk t).view.read (Elt Ideal) B (ix2 p z) = B (ix2 (rowOf t p) z) := by
  rw [View.read_apply]
  show B _ = B _
  congr 1
  funext a; apply Fin.ext
  obtain ⟨-, -, -, -, -, -, -, -, e0, e1, -⟩ := idx_facts t
  match a with
  | ⟨0, _⟩ => show win0_4.index t (0 : Fin 2) * 5000 + 1 * p.val = t.val * 5000 + p.val; rw [e0]; omega
  | ⟨1, _⟩ => show win0_4.index t (1 : Fin 2) * 1 + 1 * z.val = z.val; rw [e1]; omega

/-- An array read through the first output's block at point t: rows 5000·t … 5000·t + 4999. -/
theorem blk5_apply (B : S50000x128.Idx → Elt Ideal .f32) (t : Fin cfg0.N) (p : Fin 5000) (q : Fin 128) :
    ((cfg0.win 5).blk t).view.read (Elt Ideal) B (ix2 p q) = B (ix2 (rowOf t p) q) := by
  rw [View.read_apply]
  show B _ = B _
  congr 1
  funext a; apply Fin.ext
  obtain ⟨-, -, -, -, -, -, -, -, -, -, e0, e1, -⟩ := idx_facts t
  match a with
  | ⟨0, _⟩ => show win0_5.index t (0 : Fin 2) * 5000 + 1 * p.val = t.val * 5000 + p.val; rw [e0]; omega
  | ⟨1, _⟩ => show win0_5.index t (1 : Fin 2) * 128 + 1 * q.val = q.val; rw [e1]; omega

/-- An array read through the second output's block at point t: rows 5000·t … 5000·t + 4999. -/
theorem blk6_apply (B : S50000x128.Idx → Elt Ideal .f32) (t : Fin cfg0.N) (p : Fin 5000) (q : Fin 128) :
    ((cfg0.win 6).blk t).view.read (Elt Ideal) B (ix2 p q) = B (ix2 (rowOf t p) q) := by
  rw [View.read_apply]
  show B _ = B _
  congr 1
  funext a; apply Fin.ext
  obtain ⟨-, -, -, -, -, -, -, -, -, -, -, -, e0, e1⟩ := idx_facts t
  match a with
  | ⟨0, _⟩ => show win0_6.index t (0 : Fin 2) * 5000 + 1 * p.val = t.val * 5000 + p.val; rw [e0]; omega
  | ⟨1, _⟩ => show win0_6.index t (1 : Fin 2) * 128 + 1 * q.val = q.val; rw [e1]; omega

/-- The first payload of the blocks at point t of arrays x, w, b is the block of the projection of x. -/
theorem pay1_block (x : Spec.Mat 50000 256) (w : Spec.Mat 256 128) (b : Spec.Mat 1 128) (t : Fin cfg0.N)
    (v0 : FVec Ideal S5000x256 .f32) (v2 : FVec Ideal S256x128 .bf16) (v5 : FVec Ideal S1x128 .f32)
    (h0 : ∀ p k, v0 (ix2 p k) = x (ix2 (rowOf t p) k)) (h2 : ∀ k q, v2 (ix2 k q) = w (ix2 k q))
    (h5 : ∀ z q, v5 (ix2 z q) = b (ix2 z q)) (p : Fin 5000) (q : Fin 128) :
    k0_pay1 (F := Ideal) v0 v2 v5 (ix2 p q) = Spec.affine x w b (ix2 (rowOf t p) q) := by
  rw [pay1_apply]
  show Spec.mm v0 v2 p q + _ = Spec.mm x w (rowOf t p) q + b (ix2 (0 : Fin 1) q)
  unfold Spec.mm
  rw [h5]
  congr 1
  exact Finset.sum_congr rfl fun k _ => by rw [h0, h2]

/-- The second payload of the blocks at point t is the block of the scaled product of the projection. -/
theorem pay2_block (x : Spec.Mat 50000 256) (w : Spec.Mat 256 128) (b : Spec.Mat 1 128) (w' : Spec.Mat 128 128)
    (d : Spec.Mat 50000 1) (t : Fin cfg0.N)
    (v0 : FVec Ideal S5000x256 .f32) (v2 : FVec Ideal S256x128 .bf16) (v5 : FVec Ideal S1x128 .f32)
    (v11 : FVec Ideal S128x128 .bf16) (v14 : FVec Ideal S5000x1 .f32)
    (h0 : ∀ p k, v0 (ix2 p k) = x (ix2 (rowOf t p) k)) (h2 : ∀ k q, v2 (ix2 k q) = w (ix2 k q))
    (h5 : ∀ z q, v5 (ix2 z q) = b (ix2 z q)) (h11 : ∀ k q, v11 (ix2 k q) = w' (ix2 k q))
    (h14 : ∀ p z, v14 (ix2 p z) = d (ix2 (rowOf t p) z)) (p : Fin 5000) (q : Fin 128) :
    k0_pay2 (F := Ideal) v0 v2 v5 v11 v14 (ix2 p q) = Spec.lin (Spec.affine x w b) w' d (ix2 (rowOf t p) q) := by
  rw [pay2_apply]
  show Spec.mm (k0_pay1 (F := Ideal) v0 v2 v5) v11 p q * _
    = Spec.mm (Spec.affine x w b) w' (rowOf t p) q * d (ix2 (rowOf t p) (0 : Fin 1))
  unfold Spec.mm
  rw [h14]
  congr 1
  exact Finset.sum_congr rfl fun k _ => by rw [pay1_block x w b t v0 v2 v5 h0 h2 h5, h11]

variable (V : (c : Dev nD) → (b : Ref sig .tc) → Buf (Elt Ideal) ((c : Thread nD τ).loc b))

/-- The node features as the region finds them. -/
abbrev aX (c : Dev nD) : Spec.Mat 50000 256 := V c (Pipeline.arrRef spec0 0)
/-- The reducing weight. -/
abbrev aWred (c : Dev nD) : Spec.Mat 256 128 := V c (Pipeline.arrRef spec0 1)
/-- The reducing bias row. -/
abbrev aBred (c : Dev nD) : Spec.Mat 1 128 := V c (Pipeline.arrRef spec0 2)
/-- The first layer's weight. -/
abbrev aW (c : Dev nD) : Spec.Mat 128 128 := V c (Pipeline.arrRef spec0 3)
/-- The normalisation column. -/
abbrev aD (c : Dev nD) : Spec.Mat 50000 1 := V c (Pipeline.arrRef spec0 4)

/-- What point t leaves in the first output's buffer is block t of the projection. -/
theorem out5_eq (c : Dev nD) (t : Fin cfg0.N) :
    (cfg0.win 5).cut (grid0.coords t) (out0_5 (F := Ideal) (iblk0 V c 0 t) (iblk0 V c 1 t) (iblk0 V c 2 t) (iblk0 V c 3 t) (iblk0 V c 4 t))
      = ((cfg0.win 5).blk t).view.read (Elt Ideal) (Spec.affine (aX V c) (aWred V c) (aBred V c)) := by
  unfold out0_5
  rw [View.canon_unit_zero hz]
  simp only [View.ld_unit_zero (S := S5000x256) hz, View.ld_unit_zero (S := S256x128) hz, View.ld_unit_zero (S := S1x128) hz]
  refine funext fun (j : S5000x128.Idx) => ?_
  obtain ⟨p, q, rfl⟩ : ∃ (p : Fin 5000) (q : Fin 128), j = ix2 p q := ⟨j 0, j 1, eq_ix2 j⟩
  refine Eq.trans ?_ (blk5_apply _ t p q).symm
  exact pay1_block (aX V c) (aWred V c) (aBred V c) t _ _ _ (fun p k => blk0_apply _ t p k)
    (fun k q => blk1_apply _ t k q) (fun z q => blk2_apply _ t z q) p q

/-- What point t leaves in the second output's buffer is block t of the scaled product. -/
theorem out6_eq (c : Dev nD) (t : Fin cfg0.N) :
    (cfg0.win 6).cut (grid0.coords t) (out0_6 (F := Ideal) (iblk0 V c 0 t) (iblk0 V c 1 t) (iblk0 V c 2 t) (iblk0 V c 3 t) (iblk0 V c 4 t))
      = ((cfg0.win 6).blk t).view.read (Elt Ideal)
          (Spec.lin (Spec.affine (aX V c) (aWred V c) (aBred V c)) (aW V c) (aD V c)) := by
  unfold out0_6
  rw [View.canon_unit_zero hz]
  simp only [View.ld_unit_zero (S := S5000x256) hz, View.ld_unit_zero (S := S256x128) hz, View.ld_unit_zero (S := S1x128) hz,
    View.ld_unit_zero (S := S128x128) hz, View.ld_unit_zero (S := S5000x1) hz]
  refine funext fun (j : S5000x128.Idx) => ?_
  obtain ⟨p, q, rfl⟩ : ∃ (p : Fin 5000) (q : Fin 128), j = ix2 p q := ⟨j 0, j 1, eq_ix2 j⟩
  refine Eq.trans ?_ (blk6_apply _ t p q).symm
  exact pay2_block (aX V c) (aWred V c) (aBred V c) (aW V c) (aD V c) t _ _ _ _ _ (fun p k => blk0_apply _ t p k)
    (fun k q => blk1_apply _ t k q) (fun z q => blk2_apply _ t z q) (fun k q => blk3_apply _ t k q)
    (fun p z => blk4_apply _ t p z) p q

/-- An index of the array is in point t's block of the first output iff each coordinate is in the block's range. -/
theorem mem_blk5 (t : Fin cfg0.N) (i : S50000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole (Pipeline.arrRef spec0 5)).slice (win0_5.rect t)).set ↔ _
  rw [View.set_slice_whole, Rect.mem_set_unit]
  exact Iff.rfl

/-- The same for the second output. -/
theorem mem_blk6 (t : Fin cfg0.N) (i : S50000x128.Idx) :
    i ∈ ((cfg0.win 6).blk t).view.set ↔ ∀ a : Fin 2, win0_6.index t a * S5000x128.size a ≤ (i a).val ∧ (i a).val < win0_6.index t a * S5000x128.size a + S5000x128.size a := by
  show i ∈ ((View.whole (Pipeline.arrRef spec0 6)).slice (win0_6.rect t)).set ↔ _
  rw [View.set_slice_whole, Rect.mem_set_unit]
  exact Iff.rfl

/-- The point whose block holds row r: r / 5000. -/
abbrev pointOf (i : S50000x128.Idx) : Fin cfg0.N :=
  ⟨(i 0).val / 5000, by have := idx2_lt0 i; have := hN; omega⟩

/-- Every index of the first output's array is in the block of the point its row names. -/
theorem cover5 (i : S50000x128.Idx) : ∃ t : Fin cfg0.N, (cfg0.win 5).flush t = true ∧ i ∈ ((cfg0.win 5).blk t).view.set := by
  refine ⟨pointOf i, flush0_5 _, ?_⟩
  rw [mem_blk5]
  obtain ⟨-, -, -, -, -, -, -, -, -, -, e0, e1, -⟩ := idx_facts (pointOf i)
  have h0 : (i 0).val < 50000 := idx2_lt0 i
  have h1 : (i 1).val < 128 := idx2_lt1 i
  intro a
  match a with
  | ⟨0, _⟩ =>
    show win0_5.index (pointOf i) (0 : Fin 2) * 5000 ≤ (i 0).val ∧ (i 0).val < win0_5.index (pointOf i) (0 : Fin 2) * 5000 + 5000
    rw [e0]; show (i 0).val / 5000 * 5000 ≤ (i 0).val ∧ (i 0).val < (i 0).val / 5000 * 5000 + 5000; omega
  | ⟨1, _⟩ =>
    show win0_5.index (pointOf i) (1 : Fin 2) * 128 ≤ (i 1).val ∧ (i 1).val < win0_5.index (pointOf i) (1 : Fin 2) * 128 + 128
    rw [e1]; omega

/-- The same for the second output. -/
theorem cover6 (i : S50000x128.Idx) : ∃ t : Fin cfg0.N, (cfg0.win 6).flush t = true ∧ i ∈ ((cfg0.win 6).blk t).view.set := by
  refine ⟨pointOf i, flush0_6 _, ?_⟩
  rw [mem_blk6]
  obtain ⟨-, -, -, -, -, -, -, -, -, -, -, -, e0, e1⟩ := idx_facts (pointOf i)
  have h0 : (i 0).val < 50000 := idx2_lt0 i
  have h1 : (i 1).val < 128 := idx2_lt1 i
  intro a
  match a with
  | ⟨0, _⟩ =>
    show win0_6.index (pointOf i) (0 : Fin 2) * 5000 ≤ (i 0).val ∧ (i 0).val < win0_6.index (pointOf i) (0 : Fin 2) * 5000 + 5000
    rw [e0]; show (i 0).val / 5000 * 5000 ≤ (i 0).val ∧ (i 0).val < (i 0).val / 5000 * 5000 + 5000; omega
  | ⟨1, _⟩ =>
    show win0_6.index (pointOf i) (1 : Fin 2) * 128 ≤ (i 1).val ∧ (i 1).val < win0_6.index (pointOf i) (1 : Fin 2) * 128 + 128
    rw [e1]; omega

/-- WHAT POINT t WRITES BACK to the first result array is block t of the projection. -/
theorem flushed_x0 (c : Dev nD) (t : Fin cfg0.N) :
    (dat0 (F := Ideal) V c).flushed 5 t
      = ((cfg0.win 5).blk t).view.read (Elt Ideal) (Spec.affine (aX V c) (aWred V c) (aBred V c)) := by
  show (cfg0.win 5).cut (grid0.coords t) ((dat0 (F := Ideal) V c).after 5 t) = _
  rw [after0_5]
  exact out5_eq V c t

/-- WHAT POINT t WRITES BACK to the second result array is block t of the scaled product. -/
theorem flushed_lin (c : Dev nD) (t : Fin cfg0.N) :
    (dat0 (F := Ideal) V c).flushed 6 t
      = ((cfg0.win 6).blk t).view.read (Elt Ideal)
          (Spec.lin (Spec.affine (aX V c) (aWred V c) (aBred V c)) (aW V c) (aD V c)) := by
  show (cfg0.win 6).cut (grid0.coords t) ((dat0 (F := Ideal) V c).after 6 t) = _
  rw [after0_6]
  exact out6_eq V c t

/-- THE FIRST RESULT ARRAY after the region: the projection of the node features, x · Wred + bred. -/
theorem final_x0 (c : Dev nD) :
    (dat0 (F := Ideal) V c).arrAt 5 cfg0.N = Spec.affine (aX V c) (aWred V c) (aBred V c) :=
  (dat0 (F := Ideal) V c).arrAt_eq_of_cover 5 (Spec.affine (aX V c) (aWred V c) (aBred V c))
    (fun t _ => flushed_x0 V c t) cover5

/-- THE SECOND RESULT ARRAY after the region: (x0 · W) scaled row by row by dinv, x0 the projection. -/
theorem final_lin (c : Dev nD) :
    (dat0 (F := Ideal) V c).arrAt 6 cfg0.N
      = Spec.lin (Spec.affine (aX V c) (aWred V c) (aBred V c)) (aW V c) (aD V c) :=
  (dat0 (F := Ideal) V c).arrAt_eq_of_cover 6
    (Spec.lin (Spec.affine (aX V c) (aWred V c) (aBred V c)) (aW V c) (aD V c))
    (fun t _ => flushed_lin V c t) cover6

end Cert.KernelIdeal.Val0

end
-- ==== Proof.NormResidual.lean ====
/-
  Layer normalisation, rectifier and residual of a block of rows, read index by index (general: any number of rows
  `a` and of columns `b`; no program is named here).

  A block `h` of `a` rows and `b` columns is normalised row by row: the row's sum is taken over the columns, laid as
  a column `[a, 1]`, divided by the literal 128.0 and spread back over the columns; the deviations from that mean are
  squared, summed and divided the same way, the stabiliser is added, the reciprocal square root is spread over the
  columns and multiplied in; a scale row and a shift row `[1, b]` are spread over the rows; the result is cut off below
  at zero and added to the residual block.  At entry `(p, q)` that is

      x[p, q] + max (((h[p, q] − μ_p) · rsqrt (σ²_p + ε)) · g[0, q] + be[0, q]) 0,

  with `μ_p` the mean of row `p` and `σ²_p` the mean of its squared deviations: `Spec.post`.  The block `h` itself is
  the aggregated block scaled row by row by a column and shifted by a bias row: `Spec.scaled`.

  The file reads each layout step at an entry (a vector laid as a column, a row sum; a column spread over the columns
  is the block-operations file's), then each stage (the column of means, the deviations, the column of variances), then the whole; last, that a block of
  rows of a larger array has the array's result on its rows.
-/
import Idealize.ShloMosaic.Lib.ValueIdx
import Idealize.ShloMosaic.Lib.ValueLayout
import Idealize.ShloMosaic.Lib.Pipeline.Value
import Idealize.ShloMosaic.PureOps.Ideal
import Idealize.ShloMosaic.PureOps.Ideal.Laws
import proofs.«410635_j2241972928706_3_alg».proof.Proof.LibBlockOps
import proofs.«410635_j2241972928706_3_alg».proof.Proof.Spec

noncomputable section

namespace Cert.NormResidual

open Idealize.ShloMosaic Idealize.ShloMosaic.ValueIdx
open BlockOps (broadcastTo_a1_ab_apply)

/-! ## Layout steps read at an entry -/

/-- A vector `[a]` laid as the column `[a, 1]` reads, at `(r, u)`, the vector at `r`. -/
theorem shapeCast_a_a1_apply {α : Type} {a : ℕ} (x : (⟨1, ![a]⟩ : Shape).Idx → α)
    (h : (⟨1, ![a]⟩ : Shape).ShapeCasts ⟨2, ![a, 1]⟩) (r : Fin a) (u : Fin 1) :
    shapeCast ⟨2, ![a, 1]⟩ x h (ix2 r u) = x (ix1 r) :=
  shapeCast_apply x h _ _ (by
    rw [Shape.rowMajor_val_two, Shape.rowMajor_val_one]
    show r.val = r.val * 1 + u.val
    have := u.isLt; omega)

/-- The sum of a block over its columns reads, at row `p`, the sum of the row's entries. -/
theorem rowSum_apply {a b : ℕ} (src : FVec Ideal ⟨2, ![a, b]⟩ .f32) (h : (⟨2, ![a, b]⟩ : Shape).Reduces [1] ⟨1, ![a]⟩)
    (hφ : FKind.Formats .f32) (hacc : (0x00000000#32 : BitVec 32) = FKind.add.neutral .f32 hφ) (p : Fin a) :
    multiReduction .add [1] ⟨1, ![a]⟩ src 0x00000000#32 h hφ hacc (ix1 p) = ∑ q : Fin b, src (ix2 p q) := by
  refine (Ideal.multiReduction_add_single src _ h hφ hacc (ix1 p)).trans ?_
  refine Finset.sum_congr rfl fun q _ => congrArg src ?_
  funext ax
  apply Fin.ext
  match ax with
  | ⟨0, _⟩ => rfl
  | ⟨1, _⟩ => rfl

/-! ## The specification at an entry -/

/-- The scaled and shifted block at `(p, q)`. -/
theorem scaled_ix2 {a b : ℕ} (agg : Spec.Mat a b) (d : Spec.Mat a 1) (bias : Spec.Mat 1 b) (p : Fin a) (q : Fin b) :
    Spec.scaled agg d bias (ix2 p q) = agg (ix2 p q) * d (ix2 p (0 : Fin 1)) + bias (ix2 (0 : Fin 1) q) := rfl

/-- The normalised, rectified block plus the residual at `(p, q)`. -/
theorem post_ix2 {a b : ℕ} (h : Spec.Mat a b) (g be : Spec.Mat 1 b) (x : Spec.Mat a b) (p : Fin a) (q : Fin b) :
    Spec.post h g be x (ix2 p q)
      = x (ix2 p q) + max (((h (ix2 p q) - Spec.rowMean h p) * Ideal.rsqrt (Spec.rowVar h p + Spec.wEps)) * g (ix2 (0 : Fin 1) q)
          + be (ix2 (0 : Fin 1) q)) Spec.wZero := rfl

/-! ## The stages of the block's arithmetic -/

section Stages

variable {a b : ℕ}
variable (hr : (⟨2, ![a, b]⟩ : Shape).Reduces [1] ⟨1, ![a]⟩) (hc : (⟨1, ![a]⟩ : Shape).ShapeCasts ⟨2, ![a, 1]⟩)
variable (hb : (⟨2, ![a, 1]⟩ : Shape).Broadcasts ⟨2, ![a, b]⟩) (hbr : (⟨2, ![1, b]⟩ : Shape).Broadcasts ⟨2, ![a, b]⟩)
variable (hs : (⟨2, ![a, b]⟩ : Shape).ShapeCasts ⟨2, ![a, b]⟩) (hs1 : (⟨2, ![a, 1]⟩ : Shape).ShapeCasts ⟨2, ![a, 1]⟩)
variable (hsr : (⟨2, ![1, b]⟩ : Shape).ShapeCasts ⟨2, ![1, b]⟩)

/-- The column of row means: the row sums laid as a column, over the literal 128.0. -/
def meanCol (h : FVec Ideal ⟨2, ![a, b]⟩ .f32) : FVec Ideal ⟨2, ![a, 1]⟩ .f32 :=
  divf (shapeCast ⟨2, ![a, 1]⟩ (multiReduction .add [1] ⟨1, ![a]⟩ h 0x00000000#32 hr (.inl rfl) rfl) hc)
    (broadcast ⟨2, ![a, 1]⟩ (Scalar.ofBits .f32 0x43000000#32))

/-- The column of means at row `p` is the row's mean. -/
theorem meanCol_apply (h : FVec Ideal ⟨2, ![a, b]⟩ .f32) (p : Fin a) (u : Fin 1) :
    meanCol hr hc h (ix2 p u) = Spec.rowMean h p :=
  congrArg (fun s => Ideal.div s Spec.w128) ((shapeCast_a_a1_apply _ hc p u).trans (rowSum_apply h hr _ _ p))

/-- The deviations from the row means: the block minus the column of means spread over the columns. -/
def dev (h : FVec Ideal ⟨2, ![a, b]⟩ .f32) : FVec Ideal ⟨2, ![a, b]⟩ .f32 :=
  subf h (broadcastTo ⟨2, ![a, b]⟩ (meanCol hr hc h) hb)

/-- A deviation at `(p, q)`. -/
theorem dev_apply (h : FVec Ideal ⟨2, ![a, b]⟩ .f32) (p : Fin a) (q : Fin b) :
    dev hr hc hb h (ix2 p q) = h (ix2 p q) - Spec.rowMean h p :=
  congrArg (fun s => h (ix2 p q) - s) ((broadcastTo_a1_ab_apply _ hb p q).trans (meanCol_apply hr hc h p 0))

/-- The column of means of the squared deviations at row `p` is the row's variance. -/
theorem varCol_apply (h : FVec Ideal ⟨2, ![a, b]⟩ .f32) (p : Fin a) (u : Fin 1) :
    meanCol hr hc (mulf (dev hr hc hb h) (dev hr hc hb h)) (ix2 p u) = Spec.rowVar h p :=
  (meanCol_apply hr hc _ p u).trans (congrArg (fun s => Ideal.div s Spec.w128)
    (Finset.sum_congr rfl fun q _ => by
      show dev hr hc hb h (ix2 p q) * dev hr hc hb h (ix2 p q) = _
      rw [dev_apply]))

/-- The aggregated block scaled row by row by a column and shifted by a bias row, as the block's operations. -/
def scaledBlock (agg : FVec Ideal ⟨2, ![a, b]⟩ .f32) (d : FVec Ideal ⟨2, ![a, 1]⟩ .f32) (bias : FVec Ideal ⟨2, ![1, b]⟩ .f32) :
    FVec Ideal ⟨2, ![a, b]⟩ .f32 :=
  addf (mulf (shapeCast ⟨2, ![a, b]⟩ agg hs) (broadcastTo ⟨2, ![a, b]⟩ (shapeCast ⟨2, ![a, 1]⟩ d hs1) hb))
    (broadcastTo ⟨2, ![a, b]⟩ (shapeCast ⟨2, ![1, b]⟩ bias hsr) hbr)

/-- It is the specification's scaled block. -/
theorem scaledBlock_eq (agg : FVec Ideal ⟨2, ![a, b]⟩ .f32) (d : FVec Ideal ⟨2, ![a, 1]⟩ .f32) (bias : FVec Ideal ⟨2, ![1, b]⟩ .f32) :
    scaledBlock hb hbr hs hs1 hsr agg d bias = Spec.scaled agg d bias := by
  funext i
  obtain ⟨p, q, rfl⟩ : ∃ (p : Fin a) (q : Fin b), i = ix2 p q := ⟨i 0, i 1, eq_ix2 i⟩
  unfold scaledBlock
  rw [shapeCast_self, shapeCast_self, shapeCast_self, scaled_ix2, addf_apply, mulf_apply,
    broadcastTo_a1_ab_apply, broadcastTo_1b_ab_apply]

/-- Layer normalisation with a scale row and a shift row, the rectifier, and the residual, as the block's operations. -/
def postBlock (h : FVec Ideal ⟨2, ![a, b]⟩ .f32) (g be : FVec Ideal ⟨2, ![1, b]⟩ .f32) (x : FVec Ideal ⟨2, ![a, b]⟩ .f32) :
    FVec Ideal ⟨2, ![a, b]⟩ .f32 :=
  addf (shapeCast ⟨2, ![a, b]⟩ x hs)
    (maximumf
      (addf
        (mulf
          (mulf (dev hr hc hb h)
            (broadcastTo ⟨2, ![a, b]⟩
              (rsqrt (addf (meanCol hr hc (mulf (dev hr hc hb h) (dev hr hc hb h)))
                (broadcast ⟨2, ![a, 1]⟩ (Scalar.ofBits .f32 0x3727C5AC#32)))) hb))
          (broadcastTo ⟨2, ![a, b]⟩ (shapeCast ⟨2, ![1, b]⟩ g hsr) hbr))
        (broadcastTo ⟨2, ![a, b]⟩ (shapeCast ⟨2, ![1, b]⟩ be hsr) hbr))
      (broadcast ⟨2, ![a, b]⟩ (Scalar.ofBits .f32 0x00000000#32)))

/-- It is the specification's normalised, rectified block plus the residual. -/
theorem postBlock_eq (h : FVec Ideal ⟨2, ![a, b]⟩ .f32) (g be : FVec Ideal ⟨2, ![1, b]⟩ .f32) (x : FVec Ideal ⟨2, ![a, b]⟩ .f32) :
    postBlock hr hc hb hbr hs hsr h g be x = Spec.post h g be x := by
  funext i
  obtain ⟨p, q, rfl⟩ : ∃ (p : Fin a) (q : Fin b), i = ix2 p q := ⟨i 0, i 1, eq_ix2 i⟩
  unfold postBlock
  rw [shapeCast_self, shapeCast_self, shapeCast_self, post_ix2]
  show x (ix2 p q) + max
      (dev hr hc hb h (ix2 p q)
          * broadcastTo ⟨2, ![a, b]⟩ (rsqrt (addf (meanCol hr hc (mulf (dev hr hc hb h) (dev hr hc hb h)))
              (broadcast ⟨2, ![a, 1]⟩ (Scalar.ofBits .f32 0x3727C5AC#32)))) hb (ix2 p q)
          * broadcastTo ⟨2, ![a, b]⟩ g hbr (ix2 p q)
        + broadcastTo ⟨2, ![a, b]⟩ be hbr (ix2 p q)) Spec.wZero = _
  rw [broadcastTo_a1_ab_apply, broadcastTo_1b_ab_apply, broadcastTo_1b_ab_apply, dev_apply]
  show x (ix2 p q) + max
      ((h (ix2 p q) - Spec.rowMean h p)
          * Ideal.rsqrt (meanCol hr hc (mulf (dev hr hc hb h) (dev hr hc hb h)) (ix2 p (0 : Fin 1)) + Spec.wEps)
          * g (ix2 (0 : Fin 1) q)
        + be (ix2 (0 : Fin 1) q)) Spec.wZero = _
  rw [varCol_apply]

end Stages

/-! ## A block of rows of a larger array

  Row `p` of the block being row `P` of the array (the same entries, the same column factor, the same residual), the
  block's result at `(p, q)` is the array's at `(P, q)`: the mean and the variance of a row depend on that row alone. -/

/-- The scaled, shifted block at `(p, q)` is the scaled, shifted array at `(P, q)`. -/
theorem scaled_row {n N m : ℕ} (agg' : Spec.Mat n m) (d' : Spec.Mat n 1) (agg : Spec.Mat N m) (d : Spec.Mat N 1)
    (bias : Spec.Mat 1 m) (p : Fin n) (P : Fin N) (hagg : ∀ q, agg' (ix2 p q) = agg (ix2 P q))
    (hd : d' (ix2 p (0 : Fin 1)) = d (ix2 P (0 : Fin 1))) (q : Fin m) :
    Spec.scaled agg' d' bias (ix2 p q) = Spec.scaled agg d bias (ix2 P q) := by
  rw [scaled_ix2, scaled_ix2, hagg, hd]

/-- The normalised, rectified block plus its residual at `(p, q)` is the array's at `(P, q)`. -/
theorem post_row {n N m : ℕ} (h' : Spec.Mat n m) (h : Spec.Mat N m) (g be : Spec.Mat 1 m) (x' : Spec.Mat n m)
    (x : Spec.Mat N m) (p : Fin n) (P : Fin N) (hh : ∀ q, h' (ix2 p q) = h (ix2 P q))
    (hx : ∀ q, x' (ix2 p q) = x (ix2 P q)) (q : Fin m) :
    Spec.post h' g be x' (ix2 p q) = Spec.post h g be x (ix2 P q) := by
  have hm : Spec.rowMean h' p = Spec.rowMean h P :=
    congrArg (fun s => Ideal.div s Spec.w128) (Finset.sum_congr rfl fun q _ => hh q)
  have hv : Spec.rowVar h' p = Spec.rowVar h P :=
    congrArg (fun s => Ideal.div s Spec.w128) (Finset.sum_congr rfl fun q _ => by rw [hh q, hm])
  rw [post_ix2, post_ix2, hh, hx, hm, hv]

/-- Both steps together. -/
theorem post_scaled_row {n N m : ℕ} (agg' : Spec.Mat n m) (d' : Spec.Mat n 1) (agg : Spec.Mat N m) (d : Spec.Mat N 1)
    (bias g be : Spec.Mat 1 m) (x' : Spec.Mat n m) (x : Spec.Mat N m) (p : Fin n) (P : Fin N)
    (hagg : ∀ q, agg' (ix2 p q) = agg (ix2 P q)) (hd : d' (ix2 p (0 : Fin 1)) = d (ix2 P (0 : Fin 1)))
    (hx : ∀ q, x' (ix2 p q) = x (ix2 P q)) (q : Fin m) :
    Spec.post (Spec.scaled agg' d' bias) g be x' (ix2 p q) = Spec.post (Spec.scaled agg d bias) g be x (ix2 P q) :=
  post_row _ _ g be x' x p P (fun q => scaled_row agg' d' agg d bias p P hagg hd q) hx q

end Cert.NormResidual

end
-- ==== Proof.Val1.lean ====
/-
  The value of a stream's post-processing call fused with the next layer's product, read off its frame.

  The call runs on a grid of ten points.  Point `t` holds rows `5000·t … 5000·t + 4999` of the aggregated sums, of
  the degree factors (a column) and of the node features, and the whole bias, scale and shift rows and the whole next
  weight; it writes back the same rows of two results.  On its block the body computes

      new_x[p, c] = x[p, c] + max (((h[p, c] − μ_p) · rsqrt (σ²_p + ε)) · g[0, c] + be[0, c]) 0,   h[p, c] = agg[p, c] · d[p, 0] + b[0, c],
      lin[p, c]   = (∑ q, new_x[p, q] · w[q, c]) · d[p, 0].

  A row's mean and variance depend on that row alone, and an entry of a product on the left factor's row alone, so
  each block of a result is the whole array's result on those rows; the ten blocks cover the 50000 rows; so the two
  arrays end holding those functions of the arrays as the call finds them.
-/
import proofs.«410635_j2241972928706_3_alg».proof.Proof.Gen.KernelIdeal.Frame
import proofs.«410635_j2241972928706_3_alg».proof.Proof.Spec
import proofs.«410635_j2241972928706_3_alg».proof.Proof.LibBlockOps
import proofs.«410635_j2241972928706_3_alg».proof.Proof.NormResidual
import Idealize.ShloMosaic.Lib.Pipeline.Value
import Idealize.ShloMosaic.Lib.ValueIdx

set_option maxRecDepth 16384

noncomputable section

namespace Cert.KernelIdeal.Val1

open Idealize.ShloMosaic Idealize.ShloMosaic.TcCoe Idealize.ShloMosaic.ValueIdx Idealize.SL.Sem
open Idealize.ShloMosaic.Pipeline (Dat)
open Cert.KernelIdeal.Gen Cert.NormResidual

/-! ## A block of rows of a product -/

/-- An entry of a product reads the left factor in its own row only: row `p` of a block being row `P` of the array,
    the block's product at `(p, c)` is the array's at `(P, c)`. -/
theorem mm_row {n N k m : ℕ} (x' : Spec.Mat n k) (x : Spec.Mat N k) (w : Spec.Mat k m) (p : Fin n) (P : Fin N)
    (hx : ∀ q, x' (ix2 p q) = x (ix2 P q)) (c : Fin m) : Spec.mm x' w p c = Spec.mm x w P c :=
  Finset.sum_congr rfl fun q _ => by rw [hx q]

/-- The product scaled row by row by a column, likewise. -/
theorem lin_row {n N k m : ℕ} (x' : Spec.Mat n k) (x : Spec.Mat N k) (w : Spec.Mat k m) (d' : Spec.Mat n 1) (d : Spec.Mat N 1)
    (p : Fin n) (P : Fin N) (hx : ∀ q, x' (ix2 p q) = x (ix2 P q)) (hd : d' (ix2 p (0 : Fin 1)) = d (ix2 P (0 : Fin 1)))
    (c : Fin m) : Spec.lin x' w d' (ix2 p c) = Spec.lin x w d (ix2 P c) := by
  show Spec.mm x' w p c * d' (ix2 p (0 : Fin 1)) = Spec.mm x w P c * d (ix2 P (0 : Fin 1))
  rw [mm_row x' x w p P hx c, hd]

/-! ## The body's two blocks -/

/-- The first block the body computes is the stages of the normalisation, of its six loaded blocks. -/
theorem pay_stages (v0 : Vec Ideal S5000x128 .f32) (v2 : Vec Ideal S5000x1 .f32) (v6 v26 v30 : Vec Ideal S1x128 .f32)
    (v36 : Vec Ideal S5000x128 .f32) :
    k1_pay2 v0 v2 v6 v26 v30 v36
      = postBlock reduces_S5000x128_S5000 shapeCasts_S5000_S5000x1 broadcasts_S5000x1_S5000x128 broadcasts_S1x128_S5000x128
          shapeCasts_S5000x128_S5000x128 shapeCasts_S1x128_S1x128
          (scaledBlock broadcasts_S5000x1_S5000x128 broadcasts_S1x128_S5000x128 shapeCasts_S5000x128_S5000x128
            shapeCasts_S5000x1_S5000x1 shapeCasts_S1x128_S1x128 v0 v2 v6) v26 v30 v36 := rfl

/-- THE FIRST BLOCK'S VALUE: the residual block plus the rectified layer normalisation of the scaled, shifted aggregate. -/
theorem pay_post (v0 : Vec Ideal S5000x128 .f32) (v2 : Vec Ideal S5000x1 .f32) (v6 v26 v30 : Vec Ideal S1x128 .f32)
    (v36 : Vec Ideal S5000x128 .f32) :
    k1_pay2 v0 v2 v6 v26 v30 v36 = Spec.post (Spec.scaled v0 v2 v6) v26 v30 v36 := by
  rw [pay_stages, scaledBlock_eq, postBlock_eq]

/-- The product's dimension numbers: rows of the left factor by columns of the right, one contracted axis. -/
theorem dot_eq : dot_S5000x128_S128x128_S5000x128_1_0_0_1_n_n
    = BlockOps.rowCol dot_S5000x128_S128x128_S5000x128_1_0_0_1_n_n_wf := rfl

/-- THE SECOND BLOCK'S VALUE: the product of the first block with the weight, scaled row by row by the degree factors
    (the change of number format in front of the product is the identity on the extended reals). -/
theorem pay_lin (x : FVec Ideal S5000x128 .f32) (w : Vec Ideal S128x128 .bf16) (d : Vec Ideal S5000x1 .f32) :
    k1_pay1 (F := Ideal) x w d = Spec.lin x w d := by
  funext j
  obtain ⟨r, q, rfl⟩ : ∃ (r : Fin 5000) (q : Fin 128), j = ix2 r q := ⟨j 0, j 1, eq_ix2 j⟩
  unfold k1_pay1
  simp only [matmul]
  rw [mulf_apply, dot_eq, BlockOps.matmul_zero_apply, BlockOps.broadcastTo_a1_ab_apply, shapeCast_self, shapeCast_self]
  rfl

/-! ## The arrays and their blocks -/

-- the TensorCore's buffer contents when the call is entered
variable (V : (c : Dev nD) → (b : Ref sig .tc) → Buf (Elt Ideal) ((c : Thread nD τ).loc b))

/-- The aggregated sums as the call finds them. -/
abbrev aAgg (c : Dev nD) : Spec.Mat 50000 128 := V c (Pipeline.arrRef spec1 0)
/-- The degree factors, a column. -/
abbrev aD (c : Dev nD) : Spec.Mat 50000 1 := V c (Pipeline.arrRef spec1 1)
/-- The bias row. -/
abbrev aB (c : Dev nD) : Spec.Mat 1 128 := V c (Pipeline.arrRef spec1 2)
/-- The scale row. -/
abbrev aG (c : Dev nD) : Spec.Mat 1 128 := V c (Pipeline.arrRef spec1 3)
/-- The shift row. -/
abbrev aBe (c : Dev nD) : Spec.Mat 1 128 := V c (Pipeline.arrRef spec1 4)
/-- The node features, the residual. -/
abbrev aX (c : Dev nD) : Spec.Mat 50000 128 := V c (Pipeline.arrRef spec1 5)
/-- The next layer's weight. -/
abbrev aW (c : Dev nD) : Spec.Mat 128 128 := V c (Pipeline.arrRef spec1 6)

/-- The node features leaving the layer: the residual plus the rectified layer normalisation of the scaled, shifted
    aggregate. -/
abbrev newX (c : Dev nD) : Spec.Mat 50000 128 :=
  Spec.post (Spec.scaled (aAgg V c) (aD V c) (aB V c)) (aG V c) (aBe V c) (aX V c)

/-- Point `t`'s block of the aggregated sums. -/
abbrev bAgg (c : Dev nD) (t : Fin cfg1.N) : Spec.Mat 5000 128 := iblk1 V c 0 t
/-- Point `t`'s block of the degree factors. -/
abbrev bD (c : Dev nD) (t : Fin cfg1.N) : Spec.Mat 5000 1 := iblk1 V c 1 t
/-- The bias row as point `t` holds it. -/
abbrev bB (c : Dev nD) (t : Fin cfg1.N) : Spec.Mat 1 128 := iblk1 V c 2 t
/-- The scale row as point `t` holds it. -/
abbrev bG (c : Dev nD) (t : Fin cfg1.N) : Spec.Mat 1 128 := iblk1 V c 3 t
/-- The shift row as point `t` holds it. -/
abbrev bBe (c : Dev nD) (t : Fin cfg1.N) : Spec.Mat 1 128 := iblk1 V c 4 t
/-- Point `t`'s block of the node features. -/
abbrev bX (c : Dev nD) (t : Fin cfg1.N) : Spec.Mat 5000 128 := iblk1 V c 5 t
/-- The weight as point `t` holds it. -/
abbrev bW (c : Dev nD) (t : Fin cfg1.N) : Spec.Mat 128 128 := iblk1 V c 6 t

theorem hz : (![0, 0] : Fin 2 → Nat) = fun _ => 0 := funext fun a => by fin_cases a <;> rfl

/-- The windows' block indices, decided over the grid: the row-blocked windows are at block `t` of the rows, the whole
    rows and the whole weight at block 0. -/
theorem idx_facts : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ (win1_2.index t (0 : Fin 2) = 0 ∧ win1_2.index t (1 : Fin 2) = 0)
    ∧ (win1_3.index t (0 : Fin 2) = 0 ∧ win1_3.index t (1 : Fin 2) = 0)
    ∧ (win1_4.index t (0 : Fin 2) = 0 ∧ win1_4.index t (1 : Fin 2) = 0)
    ∧ (win1_5.index t (0 : Fin 2) = t.val ∧ win1_5.index t (1 : Fin 2) = 0)
    ∧ (win1_6.index t (0 : Fin 2) = 0 ∧ win1_6.index t (1 : Fin 2) = 0)
    ∧ (win1_7.index t (0 : Fin 2) = t.val ∧ win1_7.index t (1 : Fin 2) = 0)
    ∧ (win1_8.index t (0 : Fin 2) = t.val ∧ win1_8.index t (1 : Fin 2) = 0) :=
  (by decide +kernel : ∀ t : Fin grid1.N, _)

/-- Row `p` of point `t`'s blocks is row `5000·t + p` of the arrays. -/
def rowOf (t : Fin cfg1.N) (p : Fin 5000) : Fin 50000 :=
  ⟨t.val * 5000 + p.val, by have := t.isLt; have hN : cfg1.N = 10 := N_1; have := p.isLt; omega⟩

/-- The block of the aggregated sums at `(p, q)`. -/
theorem bAgg_apply (c : Dev nD) (t : Fin cfg1.N) (p : Fin 5000) (q : Fin 128) :
    bAgg V c t (ix2 p q) = aAgg V c (ix2 (rowOf t p) q) := by
  obtain ⟨⟨e0, e1⟩, -⟩ := idx_facts t
  show V c (Pipeline.arrRef spec1 0) (((cfg1.win 0).blk t).view.emb (ix2 p q)) = V c (Pipeline.arrRef spec1 0) (ix2 (rowOf t p) q)
  refine congrArg _ (funext fun a => Fin.ext ?_)
  match a with
  | ⟨0, _⟩ => show win1_0.index t (0 : Fin 2) * 5000 + 1 * p.val = t.val * 5000 + p.val; rw [e0]; omega
  | ⟨1, _⟩ => show win1_0.index t (1 : Fin 2) * 128 + 1 * q.val = q.val; rw [e1]; omega

/-- The block of the degree factors at `(p, 0)`. -/
theorem bD_apply (c : Dev nD) (t : Fin cfg1.N) (p : Fin 5000) :
    bD V c t (ix2 p (0 : Fin 1)) = aD V c (ix2 (rowOf t p) (0 : Fin 1)) := by
  obtain ⟨-, ⟨e0, e1⟩, -⟩ := idx_facts t
  show V c (Pipeline.arrRef spec1 1) (((cfg1.win 1).blk t).view.emb (ix2 p (0 : Fin 1))) = V c (Pipeline.arrRef spec1 1) (ix2 (rowOf t p) (0 : Fin 1))
  refine congrArg _ (funext fun a => Fin.ext ?_)
  match a with
  | ⟨0, _⟩ => show win1_1.index t (0 : Fin 2) * 5000 + 1 * p.val = t.val * 5000 + p.val; rw [e0]; omega
  | ⟨1, _⟩ => show win1_1.index t (1 : Fin 2) * 1 + 1 * 0 = 0; rw [e1]

/-- The block of the node features at `(p, q)`. -/
theorem bX_apply (c : Dev nD) (t : Fin cfg1.N) (p : Fin 5000) (q : Fin 128) :
    bX V c t (ix2 p q) = aX V c (ix2 (rowOf t p) q) := by
  obtain ⟨-, -, -, -, -, ⟨e0, e1⟩, -⟩ := idx_facts t
  show V c (Pipeline.arrRef spec1 5) (((cfg1.win 5).blk t).view.emb (ix2 p q)) = V c (Pipeline.arrRef spec1 5) (ix2 (rowOf t p) q)
  refine congrArg _ (funext fun a => Fin.ext ?_)
  match a with
  | ⟨0, _⟩ => show win1_5.index t (0 : Fin 2) * 5000 + 1 * p.val = t.val * 5000 + p.val; rw [e0]; omega
  | ⟨1, _⟩ => show win1_5.index t (1 : Fin 2) * 128 + 1 * q.val = q.val; rw [e1]; omega

/-- Every point holds the whole bias row. -/
theorem bB_eq (c : Dev nD) (t : Fin cfg1.N) : bB V c t = aB V c := by
  obtain ⟨-, -, ⟨e0, e1⟩, -⟩ := idx_facts t
  funext y
  show V c (Pipeline.arrRef spec1 2) (((cfg1.win 2).blk t).view.emb y) = V c (Pipeline.arrRef spec1 2) y
  refine congrArg _ (funext fun a => Fin.ext ?_)
  match a with
  | ⟨0, _⟩ => show win1_2.index t (0 : Fin 2) * 1 + 1 * (y 0).val = (y 0).val; rw [e0]; omega
  | ⟨1, _⟩ => show win1_2.index t (1 : Fin 2) * 128 + 1 * (y 1).val = (y 1).val; rw [e1]; omega

/-- Every point holds the whole scale row. -/
theorem bG_eq (c : Dev nD) (t : Fin cfg1.N) : bG V c t = aG V c := by
  obtain ⟨-, -, -, ⟨e0, e1⟩, -⟩ := idx_facts t
  funext y
  show V c (Pipeline.arrRef spec1 3) (((cfg1.win 3).blk t).view.emb y) = V c (Pipeline.arrRef spec1 3) y
  refine congrArg _ (funext fun a => Fin.ext ?_)
  match a with
  | ⟨0, _⟩ => show win1_3.index t (0 : Fin 2) * 1 + 1 * (y 0).val = (y 0).val; rw [e0]; omega
  | ⟨1, _⟩ => show win1_3.index t (1 : Fin 2) * 128 + 1 * (y 1).val = (y 1).val; rw [e1]; omega

/-- Every point holds the whole shift row. -/
theorem bBe_eq (c : Dev nD) (t : Fin cfg1.N) : bBe V c t = aBe V c := by
  obtain ⟨-, -, -, -, ⟨e0, e1⟩, -⟩ := idx_facts t
  funext y
  show V c (Pipeline.arrRef spec1 4) (((cfg1.win 4).blk t).view.emb y) = V c (Pipeline.arrRef spec1 4) y
  refine congrArg _ (funext fun a => Fin.ext ?_)
  match a with
  | ⟨0, _⟩ => show win1_4.index t (0 : Fin 2) * 1 + 1 * (y 0).val = (y 0).val; rw [e0]; omega
  | ⟨1, _⟩ => show win1_4.index t (1 : Fin 2) * 128 + 1 * (y 1).val = (y 1).val; rw [e1]; omega

/-- Every point holds the whole weight. -/
theorem bW_eq (c : Dev nD) (t : Fin cfg1.N) : bW V c t = aW V c := by
  obtain ⟨-, -, -, -, -, -, ⟨e0, e1⟩, -⟩ := idx_facts t
  funext y
  show V c (Pipeline.arrRef spec1 6) (((cfg1.win 6).blk t).view.emb y) = V c (Pipeline.arrRef spec1 6) y
  refine congrArg _ (funext fun a => Fin.ext ?_)
  match a with
  | ⟨0, _⟩ => show win1_6.index t (0 : Fin 2) * 128 + 1 * (y 0).val = (y 0).val; rw [e0]; omega
  | ⟨1, _⟩ => show win1_6.index t (1 : Fin 2) * 128 + 1 * (y 1).val = (y 1).val; rw [e1]; omega

/-- Entry `(p, q)` of point `t`'s block of the first result is entry `(5000·t + p, q)` of its array. -/
theorem newx_emb (t : Fin cfg1.N) (p : Fin 5000) (q : Fin 128) :
    ((cfg1.win 7).blk t).view.emb (ix2 p q) = ix2 (rowOf t p) q := by
  obtain ⟨-, -, -, -, -, -, -, ⟨e0, e1⟩, -⟩ := idx_facts t
  refine funext fun a => Fin.ext ?_
  match a with
  | ⟨0, _⟩ => show win1_7.index t (0 : Fin 2) * 5000 + 1 * p.val = t.val * 5000 + p.val; rw [e0]; omega
  | ⟨1, _⟩ => show win1_7.index t (1 : Fin 2) * 128 + 1 * q.val = q.val; rw [e1]; omega

/-- The same for the second result. -/
theorem lin_emb (t : Fin cfg1.N) (p : Fin 5000) (q : Fin 128) :
    ((cfg1.win 8).blk t).view.emb (ix2 p q) = ix2 (rowOf t p) q := by
  obtain ⟨-, -, -, -, -, -, -, -, ⟨e0, e1⟩⟩ := idx_facts t
  refine funext fun a => Fin.ext ?_
  match a with
  | ⟨0, _⟩ => show win1_8.index t (0 : Fin 2) * 5000 + 1 * p.val = t.val * 5000 + p.val; rw [e0]; omega
  | ⟨1, _⟩ => show win1_8.index t (1 : Fin 2) * 128 + 1 * q.val = q.val; rw [e1]; omega

/-- Row `p` of point `t`'s first result block is row `5000·t + p` of the whole array's. -/
theorem newx_row (c : Dev nD) (t : Fin cfg1.N) (p : Fin 5000) (q : Fin 128) :
    Spec.post (Spec.scaled (bAgg V c t) (bD V c t) (aB V c)) (aG V c) (aBe V c) (bX V c t) (ix2 p q)
      = newX V c (ix2 (rowOf t p) q) :=
  post_scaled_row (bAgg V c t) (bD V c t) (aAgg V c) (aD V c) (aB V c) (aG V c) (aBe V c) (bX V c t) (aX V c) p (rowOf t p)
    (fun q => bAgg_apply V c t p q) (bD_apply V c t p) (fun q => bX_apply V c t p q) q

/-! ## From the blocks to the arrays -/

/-- WHAT POINT `t` WRITES BACK to the first result is block `t` of the whole array's. -/
theorem flushed_newx (c : Dev nD) (t : Fin cfg1.N) :
    (dat1 (F := Ideal) V c).flushed 7 t = ((cfg1.win 7).blk t).view.read (Elt Ideal) (newX V c) := by
  show (cfg1.win 7).cut (grid1.coords t) ((dat1 (F := Ideal) V c).after 7 t) = _
  rw [after1_7]
  unfold out1_7
  rw [View.canon_unit_zero hz]
  simp only [View.ld_unit_zero (S := S5000x128) hz, View.ld_unit_zero (S := S5000x1) hz, View.ld_unit_zero (S := S1x128) hz]
  rw [pay_post]
  funext j
  obtain ⟨p, q, rfl⟩ : ∃ (p : Fin 5000) (q : Fin 128), j = ix2 p q := ⟨j 0, j 1, eq_ix2 j⟩
  show Spec.post (Spec.scaled (bAgg V c t) (bD V c t) (bB V c t)) (bG V c t) (bBe V c t) (bX V c t) (ix2 p q)
    = newX V c (((cfg1.win 7).blk t).view.emb (ix2 p q))
  rw [newx_emb, bB_eq, bG_eq, bBe_eq]
  exact newx_row V c t p q

/-- WHAT POINT `t` WRITES BACK to the second result is block `t` of the whole array's. -/
theorem flushed_lin (c : Dev nD) (t : Fin cfg1.N) :
    (dat1 (F := Ideal) V c).flushed 8 t
      = ((cfg1.win 8).blk t).view.read (Elt Ideal) (Spec.lin (newX V c) (aW V c) (aD V c)) := by
  show (cfg1.win 8).cut (grid1.coords t) ((dat1 (F := Ideal) V c).after 8 t) = _
  rw [after1_8]
  unfold out1_8
  rw [View.canon_unit_zero hz]
  simp only [View.ld_unit_zero (S := S5000x128) hz, View.ld_unit_zero (S := S5000x1) hz, View.ld_unit_zero (S := S1x128) hz,
    View.ld_unit_zero (S := S128x128) hz]
  rw [pay_post, pay_lin]
  funext j
  obtain ⟨p, q, rfl⟩ : ∃ (p : Fin 5000) (q : Fin 128), j = ix2 p q := ⟨j 0, j 1, eq_ix2 j⟩
  show Spec.lin (Spec.post (Spec.scaled (bAgg V c t) (bD V c t) (bB V c t)) (bG V c t) (bBe V c t) (bX V c t)) (bW V c t) (bD V c t) (ix2 p q)
    = Spec.lin (newX V c) (aW V c) (aD V c) (((cfg1.win 8).blk t).view.emb (ix2 p q))
  rw [lin_emb, bB_eq, bG_eq, bBe_eq, bW_eq]
  exact lin_row _ (newX V c) (aW V c) (bD V c t) (aD V c) p (rowOf t p) (fun k => newx_row V c t p k) (bD_apply V c t p) q

/-- An index of the first result's array is in point `t`'s block iff each coordinate is in the block's range on its axis. -/
theorem mem_blk_newx (t : Fin cfg1.N) (i : S50000x128.Idx) :
    i ∈ ((cfg1.win 7).blk t).view.set ↔ ∀ a : Fin 2, win1_7.index t a * S5000x128.size a ≤ (i a).val ∧ (i a).val < win1_7.index t a * S5000x128.size a + S5000x128.size a := by
  show i ∈ ((View.whole (Pipeline.arrRef spec1 7)).slice (win1_7.rect t)).set ↔ _
  rw [View.set_slice_whole, Rect.mem_set_unit]
  exact Iff.rfl

/-- The same for the second result's array. -/
theorem mem_blk_lin (t : Fin cfg1.N) (i : S50000x128.Idx) :
    i ∈ ((cfg1.win 8).blk t).view.set ↔ ∀ a : Fin 2, win1_8.index t a * S5000x128.size a ≤ (i a).val ∧ (i a).val < win1_8.index t a * S5000x128.size a + S5000x128.size a := by
  show i ∈ ((View.whole (Pipeline.arrRef spec1 8)).slice (win1_8.rect t)).set ↔ _
  rw [View.set_slice_whole, Rect.mem_set_unit]
  exact Iff.rfl

/-- Row `r` of the first result's array is in the block of point `r / 5000`. -/
theorem cover_newx (i : S50000x128.Idx) :
    ∃ t : Fin cfg1.N, (cfg1.win 7).flush t = true ∧ i ∈ ((cfg1.win 7).blk t).view.set := by
  have hi0 : (i 0).val < 50000 := (i 0).isLt
  have hi1 : (i 1).val < 128 := (i 1).isLt
  have hN : cfg1.N = 10 := N_1
  obtain ⟨t, ht⟩ : ∃ t : Fin cfg1.N, t.val = (i 0).val / 5000 := ⟨⟨(i 0).val / 5000, by omega⟩, rfl⟩
  obtain ⟨-, -, -, -, -, -, -, ⟨e0, e1⟩, -⟩ := idx_facts t
  refine ⟨t, flush1_7 t, ?_⟩
  rw [mem_blk_newx]
  intro a
  match a with
  | ⟨0, _⟩ => show win1_7.index t (0 : Fin 2) * 5000 ≤ (i 0).val ∧ (i 0).val < win1_7.index t (0 : Fin 2) * 5000 + 5000; omega
  | ⟨1, _⟩ => show win1_7.index t (1 : Fin 2) * 128 ≤ (i 1).val ∧ (i 1).val < win1_7.index t (1 : Fin 2) * 128 + 128; omega

/-- The same for the second result's array. -/
theorem cover_lin (i : S50000x128.Idx) :
    ∃ t : Fin cfg1.N, (cfg1.win 8).flush t = true ∧ i ∈ ((cfg1.win 8).blk t).view.set := by
  have hi0 : (i 0).val < 50000 := (i 0).isLt
  have hi1 : (i 1).val < 128 := (i 1).isLt
  have hN : cfg1.N = 10 := N_1
  obtain ⟨t, ht⟩ : ∃ t : Fin cfg1.N, t.val = (i 0).val / 5000 := ⟨⟨(i 0).val / 5000, by omega⟩, rfl⟩
  obtain ⟨-, -, -, -, -, -, -, -, ⟨e0, e1⟩⟩ := idx_facts t
  refine ⟨t, flush1_8 t, ?_⟩
  rw [mem_blk_lin]
  intro a
  match a with
  | ⟨0, _⟩ => show win1_8.index t (0 : Fin 2) * 5000 ≤ (i 0).val ∧ (i 0).val < win1_8.index t (0 : Fin 2) * 5000 + 5000; omega
  | ⟨1, _⟩ => show win1_8.index t (1 : Fin 2) * 128 ≤ (i 1).val ∧ (i 1).val < win1_8.index t (1 : Fin 2) * 128 + 128; omega

/-- THE FIRST ARRAY after the call: the node features leaving the layer, of the arrays as the call finds them. -/
theorem final_newx (c : Dev nD) : (dat1 (F := Ideal) V c).arrAt 7 cfg1.N = newX V c :=
  (dat1 (F := Ideal) V c).arrAt_eq_of_cover 7 _ (fun t _ => flushed_newx V c t) cover_newx

/-- THE SECOND ARRAY after the call: their product with the next weight, scaled row by row by the degree factors. -/
theorem final_lin (c : Dev nD) : (dat1 (F := Ideal) V c).arrAt 8 cfg1.N = Spec.lin (newX V c) (aW V c) (aD V c) :=
  (dat1 (F := Ideal) V c).arrAt_eq_of_cover 8 _ (fun t _ => flushed_lin V c t) cover_lin

end Cert.KernelIdeal.Val1

end
-- ==== Proof.KChainR.lean ====
/-
  THE KERNEL'S VALUES ALONG THE FIRST STREAM, FROM THE LAUNCH TO THE END OF THE SECOND KERNEL CALL.

  The kernel's program alternates stretches of array operations with kernel calls. The first stretch builds, from the
  stream's edge list, the sources and destinations of the 850000 edges (the 800000 given ones and a self-loop per node)
  and the factor column 1/√degree, and lays out the first call's weight and bias operands. The first call computes the
  projected features X0 = x·Wred + bred and their pre-scaled rows L0 = (X0·W[0])·dinv. The second stretch gathers the rows
  of L0 at the sources and sums them per destination, and lays out the first layer's bias, scale and shift rows and the
  second layer's weight. The second call computes X1 = X0 + relu (layernorm (agg·dinv + b[0])·g[0] + be[0]) and
  L1 = (X1·W[1])·dinv.

  Here every buffer a later step reads is followed through these four steps: a stretch's result buffers are read as the
  named compositions of its operations applied to what the stretch started from, a buffer a stretch or a call does not write
  keeps its contents, and a call's result arrays are the formulas proved for that call, applied to the arrays it finds.
  The outcome: after the first call the two result arrays are X0 and L0 of the stream's arguments, after the second call
  X1 and L1, and at each of these points the two edge lists and the factor column are still the functions of the edge-list
  argument the first stretch computed.
-/
import proofs.«410635_j2241972928706_3_alg».proof.Proof.Gen.KernelIdeal.Frame
import proofs.«410635_j2241972928706_3_alg».proof.Proof.KNames
import proofs.«410635_j2241972928706_3_alg».proof.Proof.Val0
import proofs.«410635_j2241972928706_3_alg».proof.Proof.Val1

noncomputable section

namespace Cert.KernelIdeal.KChainR

open Cert.KernelIdeal Cert.KernelIdeal.Gen Idealize.ShloMosaic Idealize.ShloMosaic.TcCoe Idealize.SL.Sem
open Cert

variable (m : (ℓ : Loc nD τ sig) → Buf (Elt Ideal) ℓ) (ρ : Dev nD → PrngReg)

/-! ## Two general facts about a stretch of host operations -/

/-- Contents carried to a reference's own type and back are unchanged. -/
theorem ofBuf_toBuf {Val : EltTy → Type} {T : BufTy} (x : StableHlo.TRef sig T) (v : T.Contents Val) :
    x.ofBuf (x.toBuf v) = v := by
  obtain ⟨r, rfl, _, _⟩ := x; rfl

/-- An operation that writes one listed reference writes inside the list. -/
theorem single_sub {L : List (Ref sig .tc)} {y : Ref sig .tc} (h : y ∈ L) :
    ({Proc.devRef (τ := τ) .tc y} : Finset (DevRef τ sig)) ⊆ (L.map (Proc.devRef (τ := τ) .tc)).toFinset :=
  Finset.singleton_subset_iff.mpr (List.mem_toFinset.mpr (List.mem_map.mpr ⟨y, h, rfl⟩))

/-! ## The first stretch: from the launch memory to the first kernel call -/

/-- What the first stretch computes, over any contents it starts from: the two edge lists, the factor column, and the
    first call's weight and bias operands. -/
theorem host0_s (V : Valuation τ sig (Elt Ideal)) :
    StableHlo.after hostOps0 V (Proc.devRef .tc main_call0_v5) = KHost.sFn (V (Proc.devRef .tc main_arg16)) := by
  after_results
  rfl

theorem host0_d (V : Valuation τ sig (Elt Ideal)) :
    StableHlo.after hostOps0 V (Proc.devRef .tc main_call0_v6) = KHost.dFn (V (Proc.devRef .tc main_arg16)) := by
  after_results
  rfl

/-- The first stretch cut in three: the seven operations that build the edge lists; the thirteen that count the degrees
    and form the comparison, the reciprocal square root and the zero column; and the rest, which begins with the
    selection between them. -/
def ops0a : List (HloOp τ sig (Elt Ideal)) := hostOps0.take 7
def ops0b : List (HloOp τ sig (Elt Ideal)) := (hostOps0.drop 7).take 13
def ops0c : List (HloOp τ sig (Elt Ideal)) := (hostOps0.drop 7).drop 13

theorem ops0_split : hostOps0 (F := Ideal) = ops0a ++ (ops0b ++ ops0c) := by
  unfold ops0a ops0b ops0c
  rw [List.take_append_drop, List.take_append_drop]

theorem host0a_d (V : Valuation τ sig (Elt Ideal)) :
    StableHlo.after ops0a V (Proc.devRef .tc main_call0_v6) = KHost.dFn (V (Proc.devRef .tc main_arg16)) := by
  show StableHlo.after (List.take 7 hostOps0) V _ = _
  simp only [hostOps0, List.take_succ_cons, List.take_zero]
  after_results
  rfl

theorem host0b_cmp (V : Valuation τ sig (Elt Ideal)) :
    StableHlo.after ops0b V (Proc.devRef .tc main_call0_v12)
      = cmpf .ogt (KHost.degFn (V (Proc.devRef .tc main_call0_v6))) KHost.zeros50000 := by
  show StableHlo.after (List.take 13 (List.drop 7 hostOps0)) V _ = _
  simp only [hostOps0, List.drop_succ_cons, List.drop_zero, List.take_succ_cons, List.take_zero]
  after_results_simp
  try simp only [ofBuf_toBuf]
  rfl

theorem host0b_rsqrt (V : Valuation τ sig (Elt Ideal)) :
    StableHlo.after ops0b V (Proc.devRef .tc main_call0_v13)
      = Host.rsqrt (KHost.degFn (V (Proc.devRef .tc main_call0_v6))) := by
  show StableHlo.after (List.take 13 (List.drop 7 hostOps0)) V _ = _
  simp only [hostOps0, List.drop_succ_cons, List.drop_zero, List.take_succ_cons, List.take_zero]
  after_results_simp
  try simp only [ofBuf_toBuf]
  rfl

theorem host0b_zero (V : Valuation τ sig (Elt Ideal)) :
    StableHlo.after ops0b V (Proc.devRef .tc main_call0_call0_v1)
      = broadcastInDim S50000 ![] bcast_S_S50000 (id (constant (F := Ideal) S_ .f32 0x00000000#32)) := by
  show StableHlo.after (List.take 13 (List.drop 7 hostOps0)) V _ = _
  simp only [hostOps0, List.drop_succ_cons, List.drop_zero, List.take_succ_cons, List.take_zero]
  after_results_simp
  try simp only [ofBuf_toBuf]
  rfl

theorem host0c_dinv (V : Valuation τ sig (Elt Ideal)) :
    StableHlo.after ops0c V (Proc.devRef .tc main_call0_v15)
      = shapeCast S50000x1 (select (V (Proc.devRef .tc main_call0_v12)) (V (Proc.devRef .tc main_call0_v13))
          (V (Proc.devRef .tc main_call0_call0_v1))) shapeCasts_S50000_S50000x1 := by
  show StableHlo.after (List.drop 13 (List.drop 7 hostOps0)) V _ = _
  simp only [hostOps0, List.drop_succ_cons, List.drop_zero]
  after_results_simp
  try simp only [ofBuf_toBuf]
  rfl

theorem host0_dinv (V : Valuation τ sig (Elt Ideal)) :
    StableHlo.after hostOps0 V (Proc.devRef .tc main_call0_v15)
      = KHost.dinvFn (KHost.dFn (V (Proc.devRef .tc main_arg16))) := by
  rw [ops0_split, StableHlo.after_append, StableHlo.after_append, host0c_dinv, host0b_cmp, host0b_rsqrt, host0b_zero,
    host0a_d]
  rfl

theorem host0_wred (V : Valuation τ sig (Elt Ideal)) :
    StableHlo.after hostOps0 V (Proc.devRef .tc main_call0_v19) = KHost.wredFn (V (Proc.devRef .tc main_arg2)) := by
  after_results_simp
  rfl

theorem host0_bred (V : Valuation τ sig (Elt Ideal)) :
    StableHlo.after hostOps0 V (Proc.devRef .tc main_call0_v18) = KHost.bredFn (V (Proc.devRef .tc main_arg3)) := by
  after_results_simp
  rfl

theorem host0_w (V : Valuation τ sig (Elt Ideal)) :
    StableHlo.after hostOps0 V (Proc.devRef .tc main_call0_v20) = KHost.wFn0 (V (Proc.devRef .tc main_arg6)) := by
  after_results_simp
  try simp only [ofBuf_toBuf]
  rfl

/-- The references the first stretch writes. -/
def outs0 : List (Ref sig .tc) :=
  [main_call0_v0, main_call0_v1, main_call0_v2, main_call0_v3, main_call0_v4, main_call0_v5, main_call0_v6, main_call0_cst,
   main_call0_v7, main_call0_cst_0, main_call0_v8, main_call0_v9, main_call0_v10, main_call0_cst_1, main_call0_v11,
   main_call0_v12, main_call0_v13, main_call0_cst_2, main_call0_call0_v0, main_call0_call0_v1, main_call0_v14, main_call0_v15,
   main_call0_v16, main_call0_v17, main_call0_v18, main_call0_v19, main_call0_v20]

theorem writes0 :
    (hostOps0 (F := Ideal)).Forall fun op => op.writes ⊆ (outs0.map (Proc.devRef (τ := τ) .tc)).toFinset := by
  simp only [hostOps0, List.Forall, StableHlo.nullary_writes, StableHlo.unary_writes, StableHlo.binary_writes,
    StableHlo.ternary_writes, StableHlo.reshape_writes]
  repeat' apply And.intro
  all_goals exact single_sub (by decide)

/-- A reference the first stretch does not write keeps its contents through it. -/
theorem keep0 (V : Valuation τ sig (Elt Ideal)) (b : Ref sig .tc) (hb : b ∉ outs0) :
    StableHlo.after hostOps0 V (Proc.devRef .tc b) = V (Proc.devRef .tc b) :=
  StableHlo.after_of_writes_sub hostOps0 V writes0 hb

/-! ### The contents at the first call's entry -/

theorem s_W1 (c : Dev nD) :
    W1 m ρ c (Proc.devRef .tc main_call0_v5) = KHost.sFn (m ((c : Thread nD τ).loc main_arg16)) :=
  host0_s (W0 m ρ c)

theorem d_W1 (c : Dev nD) :
    W1 m ρ c (Proc.devRef .tc main_call0_v6) = KHost.dFn (m ((c : Thread nD τ).loc main_arg16)) :=
  host0_d (W0 m ρ c)

theorem dinv_W1 (c : Dev nD) :
    W1 m ρ c (Proc.devRef .tc main_call0_v15) = KHost.dinvFn (KHost.dFn (m ((c : Thread nD τ).loc main_arg16))) :=
  host0_dinv (W0 m ρ c)

/-- The first call's five operands as it finds them. -/
theorem in0_x (c : Dev nD) : Val0.aX (V1 m ρ) c = m ((c : Thread nD τ).loc main_arg0) :=
  keep0 (W0 m ρ c) main_arg0 (by decide)

theorem in0_wred (c : Dev nD) : Val0.aWred (V1 m ρ) c = KHost.wredFn (m ((c : Thread nD τ).loc main_arg2)) :=
  host0_wred (W0 m ρ c)

theorem in0_bred (c : Dev nD) : Val0.aBred (V1 m ρ) c = KHost.bredFn (m ((c : Thread nD τ).loc main_arg3)) :=
  host0_bred (W0 m ρ c)

theorem in0_w (c : Dev nD) : Val0.aW (V1 m ρ) c = KHost.wFn0 (m ((c : Thread nD τ).loc main_arg6)) :=
  host0_w (W0 m ρ c)

theorem in0_d (c : Dev nD) : Val0.aD (V1 m ρ) c = KHost.dinvFn (KHost.dFn (m ((c : Thread nD τ).loc main_arg16))) :=
  host0_dinv (W0 m ρ c)

/-! ### After the first call -/

/-- The projected features and their pre-scaled rows after the first call. -/
theorem b0 (c : Dev nD) :
    W2 m ρ c (Proc.devRef .tc main_call0_v21_0)
        = KNames.X0 (m ((c : Thread nD τ).loc main_arg0)) (m ((c : Thread nD τ).loc main_arg2)) (m ((c : Thread nD τ).loc main_arg3))
    ∧ W2 m ρ c (Proc.devRef .tc main_call0_v21_1)
        = KNames.L0 (m ((c : Thread nD τ).loc main_arg0)) (m ((c : Thread nD τ).loc main_arg2)) (m ((c : Thread nD τ).loc main_arg3))
            (m ((c : Thread nD τ).loc main_arg6)) (m ((c : Thread nD τ).loc main_arg16)) := by
  constructor
  · refine (W2_arr m ρ c 5).trans ((Val0.final_x0 (V1 m ρ) c).trans ?_)
    rw [in0_x, in0_wred, in0_bred]
    rfl
  · refine (W2_arr m ρ c 6).trans ((Val0.final_lin (V1 m ρ) c).trans ?_)
    rw [in0_x, in0_wred, in0_bred, in0_w, in0_d]
    rfl

/-- The edge lists and the factor column are as before the call. -/
theorem s_W2 (c : Dev nD) :
    W2 m ρ c (Proc.devRef .tc main_call0_v5) = KHost.sFn (m ((c : Thread nD τ).loc main_arg16)) :=
  (W2_of_ne m ρ c main_call0_v5 (by decide)).trans (s_W1 m ρ c)

theorem d_W2 (c : Dev nD) :
    W2 m ρ c (Proc.devRef .tc main_call0_v6) = KHost.dFn (m ((c : Thread nD τ).loc main_arg16)) :=
  (W2_of_ne m ρ c main_call0_v6 (by decide)).trans (d_W1 m ρ c)

theorem dinv_W2 (c : Dev nD) :
    W2 m ρ c (Proc.devRef .tc main_call0_v15) = KHost.dinvFn (KHost.dFn (m ((c : Thread nD τ).loc main_arg16))) :=
  (W2_arr m ρ c 4).trans (((dat0 (V1 m ρ) c).arrAt_in 4 rfl _).trans ((A_eq0 (V1 m ρ) c 4).trans (dinv_W1 m ρ c)))

/-! ## The second stretch: the aggregation of the first layer and the second call's operands -/

theorem host1_agg (V : Valuation τ sig (Elt Ideal)) :
    StableHlo.after hostOps1 V (Proc.devRef .tc main_call0_v25)
      = KHost.aggFn (V (Proc.devRef .tc main_call0_v21_1)) (V (Proc.devRef .tc main_call0_v5))
          (V (Proc.devRef .tc main_call0_v6)) := by
  after_results_simp
  try simp only [ofBuf_toBuf]
  rfl

theorem host1_b (V : Valuation τ sig (Elt Ideal)) :
    StableHlo.after hostOps1 V (Proc.devRef .tc main_call0_v34) = KHost.rowFn0 (V (Proc.devRef .tc main_arg7)) := by
  after_results_simp
  try simp only [ofBuf_toBuf]
  rfl

theorem host1_g (V : Valuation τ sig (Elt Ideal)) :
    StableHlo.after hostOps1 V (Proc.devRef .tc main_call0_v35) = KHost.rowFn0 (V (Proc.devRef .tc main_arg8)) := by
  after_results_simp
  try simp only [ofBuf_toBuf]
  rfl

theorem host1_be (V : Valuation τ sig (Elt Ideal)) :
    StableHlo.after hostOps1 V (Proc.devRef .tc main_call0_v36) = KHost.rowFn0 (V (Proc.devRef .tc main_arg9)) := by
  after_results_simp
  try simp only [ofBuf_toBuf]
  rfl

theorem host1_w (V : Valuation τ sig (Elt Ideal)) :
    StableHlo.after hostOps1 V (Proc.devRef .tc main_call0_v37) = KHost.wFn1 (V (Proc.devRef .tc main_arg6)) := by
  after_results_simp
  try simp only [ofBuf_toBuf]
  rfl

/-- The references the second stretch writes. -/
def outs1 : List (Ref sig .tc) :=
  [main_call0_call1_c, main_call0_call1_v0, main_call0_call1_v1, main_call0_call1_c_0, main_call0_call1_v2, main_call0_call1_v3,
   main_call0_call1_v4, main_call0_call1_v5, main_call0_call1_c_1, main_call0_call1_c_2, main_call0_call1_v6, main_call0_call1_v7,
   main_call0_call1_v8, main_call0_call1_v9, main_call0_call1_v10, main_call0_call1_v11, main_call0_call1_c_3, main_call0_call1_v12,
   main_call0_call1_v13, main_call0_call1_v14, main_call0_call1_cst, main_call0_call1_v15, main_call0_v22, main_call0_cst_3,
   main_call0_v23, main_call0_v24, main_call0_v25, main_call0_v26, main_call0_v27, main_call0_v28, main_call0_v29, main_call0_v30,
   main_call0_v31, main_call0_v32, main_call0_v33, main_call0_v34, main_call0_v35, main_call0_v36, main_call0_v37]

theorem writes1 :
    (hostOps1 (F := Ideal)).Forall fun op => op.writes ⊆ (outs1.map (Proc.devRef (τ := τ) .tc)).toFinset := by
  simp only [hostOps1, List.Forall, StableHlo.nullary_writes, StableHlo.unary_writes, StableHlo.binary_writes,
    StableHlo.ternary_writes, StableHlo.reshape_writes]
  repeat' apply And.intro
  all_goals exact single_sub (by decide)

/-- A reference the second stretch does not write keeps its contents through it. -/
theorem keep1 (V : Valuation τ sig (Elt Ideal)) (b : Ref sig .tc) (hb : b ∉ outs1) :
    StableHlo.after hostOps1 V (Proc.devRef .tc b) = V (Proc.devRef .tc b) :=
  StableHlo.after_of_writes_sub hostOps1 V writes1 hb

/-! ### The contents at the second call's entry -/

theorem s_W3 (c : Dev nD) :
    W3 m ρ c (Proc.devRef .tc main_call0_v5) = KHost.sFn (m ((c : Thread nD τ).loc main_arg16)) :=
  (keep1 (W2 m ρ c) main_call0_v5 (by decide)).trans (s_W2 m ρ c)

theorem d_W3 (c : Dev nD) :
    W3 m ρ c (Proc.devRef .tc main_call0_v6) = KHost.dFn (m ((c : Thread nD τ).loc main_arg16)) :=
  (keep1 (W2 m ρ c) main_call0_v6 (by decide)).trans (d_W2 m ρ c)

theorem dinv_W3 (c : Dev nD) :
    W3 m ρ c (Proc.devRef .tc main_call0_v15) = KHost.dinvFn (KHost.dFn (m ((c : Thread nD τ).loc main_arg16))) :=
  (keep1 (W2 m ρ c) main_call0_v15 (by decide)).trans (dinv_W2 m ρ c)

/-- The second call's seven operands as it finds them, the stacked arguments read where the stretch reads them
    (after the first call) taken as given. -/
theorem in1_agg (c : Dev nD) :
    Val1.aAgg (V3 m ρ) c
      = KHost.aggFn (KNames.L0 (m ((c : Thread nD τ).loc main_arg0)) (m ((c : Thread nD τ).loc main_arg2))
            (m ((c : Thread nD τ).loc main_arg3)) (m ((c : Thread nD τ).loc main_arg6)) (m ((c : Thread nD τ).loc main_arg16)))
          (KHost.sFn (m ((c : Thread nD τ).loc main_arg16))) (KHost.dFn (m ((c : Thread nD τ).loc main_arg16))) := by
  refine (host1_agg (W2 m ρ c)).trans ?_
  rw [(b0 m ρ c).2, s_W2, d_W2]

theorem in1_d (c : Dev nD) :
    Val1.aD (V3 m ρ) c = KHost.dinvFn (KHost.dFn (m ((c : Thread nD τ).loc main_arg16))) :=
  dinv_W3 m ρ c

theorem in1_b (c : Dev nD)
    (hB : W2 m ρ c (Proc.devRef .tc main_arg7) = m ((c : Thread nD τ).loc main_arg7)) :
    Val1.aB (V3 m ρ) c = KHost.rowFn0 (m ((c : Thread nD τ).loc main_arg7)) := by
  refine (host1_b (W2 m ρ c)).trans ?_
  rw [hB]

theorem in1_g (c : Dev nD)
    (hG : W2 m ρ c (Proc.devRef .tc main_arg8) = m ((c : Thread nD τ).loc main_arg8)) :
    Val1.aG (V3 m ρ) c = KHost.rowFn0 (m ((c : Thread nD τ).loc main_arg8)) := by
  refine (host1_g (W2 m ρ c)).trans ?_
  rw [hG]

theorem in1_be (c : Dev nD)
    (hBe : W2 m ρ c (Proc.devRef .tc main_arg9) = m ((c : Thread nD τ).loc main_arg9)) :
    Val1.aBe (V3 m ρ) c = KHost.rowFn0 (m ((c : Thread nD τ).loc main_arg9)) := by
  refine (host1_be (W2 m ρ c)).trans ?_
  rw [hBe]

theorem in1_x (c : Dev nD) :
    Val1.aX (V3 m ρ) c
      = KNames.X0 (m ((c : Thread nD τ).loc main_arg0)) (m ((c : Thread nD τ).loc main_arg2)) (m ((c : Thread nD τ).loc main_arg3)) :=
  (keep1 (W2 m ρ c) main_call0_v21_0 (by decide)).trans (b0 m ρ c).1

theorem in1_w (c : Dev nD)
    (hW : W2 m ρ c (Proc.devRef .tc main_arg6) = m ((c : Thread nD τ).loc main_arg6)) :
    Val1.aW (V3 m ρ) c = KHost.wFn1 (m ((c : Thread nD τ).loc main_arg6)) := by
  refine (host1_w (W2 m ρ c)).trans ?_
  rw [hW]

/-! ### After the second call -/

/-- The features leaving the first layer, as the second call computes them from what it finds. -/
theorem newx1 (c : Dev nD)
    (hB : W2 m ρ c (Proc.devRef .tc main_arg7) = m ((c : Thread nD τ).loc main_arg7))
    (hG : W2 m ρ c (Proc.devRef .tc main_arg8) = m ((c : Thread nD τ).loc main_arg8))
    (hBe : W2 m ρ c (Proc.devRef .tc main_arg9) = m ((c : Thread nD τ).loc main_arg9)) :
    Val1.newX (V3 m ρ) c
      = KNames.X1 (m ((c : Thread nD τ).loc main_arg0)) (m ((c : Thread nD τ).loc main_arg2)) (m ((c : Thread nD τ).loc main_arg3))
          (m ((c : Thread nD τ).loc main_arg6)) (m ((c : Thread nD τ).loc main_arg7)) (m ((c : Thread nD τ).loc main_arg8))
          (m ((c : Thread nD τ).loc main_arg9)) (m ((c : Thread nD τ).loc main_arg16)) := by
  unfold Val1.newX
  rw [in1_agg, in1_d, in1_b m ρ c hB, in1_g m ρ c hG, in1_be m ρ c hBe, in1_x]
  rfl

/-- The first layer's features and the second layer's pre-scaled rows after the second call. -/
theorem b1 (c : Dev nD)
    (hW : W2 m ρ c (Proc.devRef .tc main_arg6) = m ((c : Thread nD τ).loc main_arg6))
    (hB : W2 m ρ c (Proc.devRef .tc main_arg7) = m ((c : Thread nD τ).loc main_arg7))
    (hG : W2 m ρ c (Proc.devRef .tc main_arg8) = m ((c : Thread nD τ).loc main_arg8))
    (hBe : W2 m ρ c (Proc.devRef .tc main_arg9) = m ((c : Thread nD τ).loc main_arg9)) :
    W4 m ρ c (Proc.devRef .tc main_call0_v38_0)
        = KNames.X1 (m ((c : Thread nD τ).loc main_arg0)) (m ((c : Thread nD τ).loc main_arg2)) (m ((c : Thread nD τ).loc main_arg3))
            (m ((c : Thread nD τ).loc main_arg6)) (m ((c : Thread nD τ).loc main_arg7)) (m ((c : Thread nD τ).loc main_arg8))
            (m ((c : Thread nD τ).loc main_arg9)) (m ((c : Thread nD τ).loc main_arg16))
    ∧ W4 m ρ c (Proc.devRef .tc main_call0_v38_1)
        = KNames.L1 (m ((c : Thread nD τ).loc main_arg0)) (m ((c : Thread nD τ).loc main_arg2)) (m ((c : Thread nD τ).loc main_arg3))
            (m ((c : Thread nD τ).loc main_arg6)) (m ((c : Thread nD τ).loc main_arg7)) (m ((c : Thread nD τ).loc main_arg8))
            (m ((c : Thread nD τ).loc main_arg9)) (m ((c : Thread nD τ).loc main_arg16)) := by
  constructor
  · exact (W4_arr m ρ c 7).trans ((Val1.final_newx (V3 m ρ) c).trans (newx1 m ρ c hB hG hBe))
  · refine (W4_arr m ρ c 8).trans ((Val1.final_lin (V3 m ρ) c).trans ?_)
    rw [newx1 m ρ c hB hG hBe, in1_w m ρ c hW, in1_d]
    rfl

/-- The edge lists and the factor column are as before the call. -/
theorem s_W4 (c : Dev nD) :
    W4 m ρ c (Proc.devRef .tc main_call0_v5) = KHost.sFn (m ((c : Thread nD τ).loc main_arg16)) :=
  (W4_of_ne m ρ c main_call0_v5 (by decide)).trans (s_W3 m ρ c)

theorem d_W4 (c : Dev nD) :
    W4 m ρ c (Proc.devRef .tc main_call0_v6) = KHost.dFn (m ((c : Thread nD τ).loc main_arg16)) :=
  (W4_of_ne m ρ c main_call0_v6 (by decide)).trans (d_W3 m ρ c)

theorem dinv_W4 (c : Dev nD) :
    W4 m ρ c (Proc.devRef .tc main_call0_v15) = KHost.dinvFn (KHost.dFn (m ((c : Thread nD τ).loc main_arg16))) :=
  (W4_arr m ρ c 1).trans (((dat1 (V3 m ρ) c).arrAt_in 1 rfl _).trans ((A_eq1 (V3 m ρ) c 1).trans (dinv_W3 m ρ c)))

end Cert.KernelIdeal.KChainR
end
-- ==== Proof.Val2.lean ====
/-
  The value of a stream's post-processing call fused with the next layer's product, read off its frame.

  The call runs on a grid of ten points.  Point `t` holds rows `5000·t … 5000·t + 4999` of the aggregated sums, of
  the degree factors (a column) and of the node features, and the whole bias, scale and shift rows and the whole next
  weight; it writes back the same rows of two results.  On its block the body computes

      new_x[p, c] = x[p, c] + max (((h[p, c] − μ_p) · rsqrt (σ²_p + ε)) · g[0, c] + be[0, c]) 0,   h[p, c] = agg[p, c] · d[p, 0] + b[0, c],
      lin[p, c]   = (∑ q, new_x[p, q] · w[q, c]) · d[p, 0].

  A row's mean and variance depend on that row alone, and an entry of a product on the left factor's row alone, so
  each block of a result is the whole array's result on those rows; the ten blocks cover the 50000 rows; so the two
  arrays end holding those functions of the arrays as the call finds them.
-/
import proofs.«410635_j2241972928706_3_alg».proof.Proof.Gen.KernelIdeal.Frame
import proofs.«410635_j2241972928706_3_alg».proof.Proof.Spec
import proofs.«410635_j2241972928706_3_alg».proof.Proof.LibBlockOps
import proofs.«410635_j2241972928706_3_alg».proof.Proof.NormResidual
import Idealize.ShloMosaic.Lib.Pipeline.Value
import Idealize.ShloMosaic.Lib.ValueIdx

set_option maxRecDepth 16384

noncomputable section

namespace Cert.KernelIdeal.Val2

open Idealize.ShloMosaic Idealize.ShloMosaic.TcCoe Idealize.ShloMosaic.ValueIdx Idealize.SL.Sem
open Idealize.ShloMosaic.Pipeline (Dat)
open Cert.KernelIdeal.Gen Cert.NormResidual

/-! ## A block of rows of a product -/

/-- An entry of a product reads the left factor in its own row only: row `p` of a block being row `P` of the array,
    the block's product at `(p, c)` is the array's at `(P, c)`. -/
theorem mm_row {n N k m : ℕ} (x' : Spec.Mat n k) (x : Spec.Mat N k) (w : Spec.Mat k m) (p : Fin n) (P : Fin N)
    (hx : ∀ q, x' (ix2 p q) = x (ix2 P q)) (c : Fin m) : Spec.mm x' w p c = Spec.mm x w P c :=
  Finset.sum_congr rfl fun q _ => by rw [hx q]

/-- The product scaled row by row by a column, likewise. -/
theorem lin_row {n N k m : ℕ} (x' : Spec.Mat n k) (x : Spec.Mat N k) (w : Spec.Mat k m) (d' : Spec.Mat n 1) (d : Spec.Mat N 1)
    (p : Fin n) (P : Fin N) (hx : ∀ q, x' (ix2 p q) = x (ix2 P q)) (hd : d' (ix2 p (0 : Fin 1)) = d (ix2 P (0 : Fin 1)))
    (c : Fin m) : Spec.lin x' w d' (ix2 p c) = Spec.lin x w d (ix2 P c) := by
  show Spec.mm x' w p c * d' (ix2 p (0 : Fin 1)) = Spec.mm x w P c * d (ix2 P (0 : Fin 1))
  rw [mm_row x' x w p P hx c, hd]

/-! ## The body's two blocks -/

/-- The first block the body computes is the stages of the normalisation, of its six loaded blocks. -/
theorem pay_stages (v0 : Vec Ideal S5000x128 .f32) (v2 : Vec Ideal S5000x1 .f32) (v6 v26 v30 : Vec Ideal S1x128 .f32)
    (v36 : Vec Ideal S5000x128 .f32) :
    k2_pay2 v0 v2 v6 v26 v30 v36
      = postBlock reduces_S5000x128_S5000 shapeCasts_S5000_S5000x1 broadcasts_S5000x1_S5000x128 broadcasts_S1x128_S5000x128
          shapeCasts_S5000x128_S5000x128 shapeCasts_S1x128_S1x128
          (scaledBlock broadcasts_S5000x1_S5000x128 broadcasts_S1x128_S5000x128 shapeCasts_S5000x128_S5000x128
            shapeCasts_S5000x1_S5000x1 shapeCasts_S1x128_S1x128 v0 v2 v6) v26 v30 v36 := rfl

/-- THE FIRST BLOCK'S VALUE: the residual block plus the rectified layer normalisation of the scaled, shifted aggregate. -/
theorem pay_post (v0 : Vec Ideal S5000x128 .f32) (v2 : Vec Ideal S5000x1 .f32) (v6 v26 v30 : Vec Ideal S1x128 .f32)
    (v36 : Vec Ideal S5000x128 .f32) :
    k2_pay2 v0 v2 v6 v26 v30 v36 = Spec.post (Spec.scaled v0 v2 v6) v26 v30 v36 := by
  rw [pay_stages, scaledBlock_eq, postBlock_eq]

/-- The product's dimension numbers: rows of the left factor by columns of the right, one contracted axis. -/
theorem dot_eq : dot_S5000x128_S128x128_S5000x128_1_0_0_1_n_n
    = BlockOps.rowCol dot_S5000x128_S128x128_S5000x128_1_0_0_1_n_n_wf := rfl

/-- THE SECOND BLOCK'S VALUE: the product of the first block with the weight, scaled row by row by the degree factors
    (the change of number format in front of the product is the identity on the extended reals). -/
theorem pay_lin (x : FVec Ideal S5000x128 .f32) (w : Vec Ideal S128x128 .bf16) (d : Vec Ideal S5000x1 .f32) :
    k2_pay1 (F := Ideal) x w d = Spec.lin x w d := by
  funext j
  obtain ⟨r, q, rfl⟩ : ∃ (r : Fin 5000) (q : Fin 128), j = ix2 r q := ⟨j 0, j 1, eq_ix2 j⟩
  unfold k2_pay1
  simp only [matmul]
  rw [mulf_apply, dot_eq, BlockOps.matmul_zero_apply, BlockOps.broadcastTo_a1_ab_apply, shapeCast_self, shapeCast_self]
  rfl

/-! ## The arrays and their blocks -/

-- the TensorCore's buffer contents when the call is entered
variable (V : (c : Dev nD) → (b : Ref sig .tc) → Buf (Elt Ideal) ((c : Thread nD τ).loc b))

/-- The aggregated sums as the call finds them. -/
abbrev aAgg (c : Dev nD) : Spec.Mat 50000 128 := V c (Pipeline.arrRef spec2 0)
/-- The degree factors, a column. -/
abbrev aD (c : Dev nD) : Spec.Mat 50000 1 := V c (Pipeline.arrRef spec2 1)
/-- The bias row. -/
abbrev aB (c : Dev nD) : Spec.Mat 1 128 := V c (Pipeline.arrRef spec2 2)
/-- The scale row. -/
abbrev aG (c : Dev nD) : Spec.Mat 1 128 := V c (Pipeline.arrRef spec2 3)
/-- The shift row. -/
abbrev aBe (c : Dev nD) : Spec.Mat 1 128 := V c (Pipeline.arrRef spec2 4)
/-- The node features, the residual. -/
abbrev aX (c : Dev nD) : Spec.Mat 50000 128 := V c (Pipeline.arrRef spec2 5)
/-- The next layer's weight. -/
abbrev aW (c : Dev nD) : Spec.Mat 128 128 := V c (Pipeline.arrRef spec2 6)

/-- The node features leaving the layer: the residual plus the rectified layer normalisation of the scaled, shifted
    aggregate. -/
abbrev newX (c : Dev nD) : Spec.Mat 50000 128 :=
  Spec.post (Spec.scaled (aAgg V c) (aD V c) (aB V c)) (aG V c) (aBe V c) (aX V c)

/-- Point `t`'s block of the aggregated sums. -/
abbrev bAgg (c : Dev nD) (t : Fin cfg2.N) : Spec.Mat 5000 128 := iblk2 V c 0 t
/-- Point `t`'s block of the degree factors. -/
abbrev bD (c : Dev nD) (t : Fin cfg2.N) : Spec.Mat 5000 1 := iblk2 V c 1 t
/-- The bias row as point `t` holds it. -/
abbrev bB (c : Dev nD) (t : Fin cfg2.N) : Spec.Mat 1 128 := iblk2 V c 2 t
/-- The scale row as point `t` holds it. -/
abbrev bG (c : Dev nD) (t : Fin cfg2.N) : Spec.Mat 1 128 := iblk2 V c 3 t
/-- The shift row as point `t` holds it. -/
abbrev bBe (c : Dev nD) (t : Fin cfg2.N) : Spec.Mat 1 128 := iblk2 V c 4 t
/-- Point `t`'s block of the node features. -/
abbrev bX (c : Dev nD) (t : Fin cfg2.N) : Spec.Mat 5000 128 := iblk2 V c 5 t
/-- The weight as point `t` holds it. -/
abbrev bW (c : Dev nD) (t : Fin cfg2.N) : Spec.Mat 128 128 := iblk2 V c 6 t

theorem hz : (![0, 0] : Fin 2 → Nat) = fun _ => 0 := funext fun a => by fin_cases a <;> rfl

/-- The windows' block indices, decided over the grid: the row-blocked windows are at block `t` of the rows, the whole
    rows and the whole weight at block 0. -/
theorem idx_facts : ∀ t : Fin cfg2.N,
    (win2_0.index t (0 : Fin 2) = t.val ∧ win2_0.index t (1 : Fin 2) = 0)
    ∧ (win2_1.index t (0 : Fin 2) = t.val ∧ win2_1.index t (1 : Fin 2) = 0)
    ∧ (win2_2.index t (0 : Fin 2) = 0 ∧ win2_2.index t (1 : Fin 2) = 0)
    ∧ (win2_3.index t (0 : Fin 2) = 0 ∧ win2_3.index t (1 : Fin 2) = 0)
    ∧ (win2_4.index t (0 : Fin 2) = 0 ∧ win2_4.index t (1 : Fin 2) = 0)
    ∧ (win2_5.index t (0 : Fin 2) = t.val ∧ win2_5.index t (1 : Fin 2) = 0)
    ∧ (win2_6.index t (0 : Fin 2) = 0 ∧ win2_6.index t (1 : Fin 2) = 0)
    ∧ (win2_7.index t (0 : Fin 2) = t.val ∧ win2_7.index t (1 : Fin 2) = 0)
    ∧ (win2_8.index t (0 : Fin 2) = t.val ∧ win2_8.index t (1 : Fin 2) = 0) :=
  (by decide +kernel : ∀ t : Fin grid2.N, _)

/-- Row `p` of point `t`'s blocks is row `5000·t + p` of the arrays. -/
def rowOf (t : Fin cfg2.N) (p : Fin 5000) : Fin 50000 :=
  ⟨t.val * 5000 + p.val, by have := t.isLt; have hN : cfg2.N = 10 := N_2; have := p.isLt; omega⟩

/-- The block of the aggregated sums at `(p, q)`. -/
theorem bAgg_apply (c : Dev nD) (t : Fin cfg2.N) (p : Fin 5000) (q : Fin 128) :
    bAgg V c t (ix2 p q) = aAgg V c (ix2 (rowOf t p) q) := by
  obtain ⟨⟨e0, e1⟩, -⟩ := idx_facts t
  show V c (Pipeline.arrRef spec2 0) (((cfg2.win 0).blk t).view.emb (ix2 p q)) = V c (Pipeline.arrRef spec2 0) (ix2 (rowOf t p) q)
  refine congrArg _ (funext fun a => Fin.ext ?_)
  match a with
  | ⟨0, _⟩ => show win2_0.index t (0 : Fin 2) * 5000 + 1 * p.val = t.val * 5000 + p.val; rw [e0]; omega
  | ⟨1, _⟩ => show win2_0.index t (1 : Fin 2) * 128 + 1 * q.val = q.val; rw [e1]; omega

/-- The block of the degree factors at `(p, 0)`. -/
theorem bD_apply (c : Dev nD) (t : Fin cfg2.N) (p : Fin 5000) :
    bD V c t (ix2 p (0 : Fin 1)) = aD V c (ix2 (rowOf t p) (0 : Fin 1)) := by
  obtain ⟨-, ⟨e0, e1⟩, -⟩ := idx_facts t
  show V c (Pipeline.arrRef spec2 1) (((cfg2.win 1).blk t).view.emb (ix2 p (0 : Fin 1))) = V c (Pipeline.arrRef spec2 1) (ix2 (rowOf t p) (0 : Fin 1))
  refine congrArg _ (funext fun a => Fin.ext ?_)
  match a with
  | ⟨0, _⟩ => show win2_1.index t (0 : Fin 2) * 5000 + 1 * p.val = t.val * 5000 + p.val; rw [e0]; omega
  | ⟨1, _⟩ => show win2_1.index t (1 : Fin 2) * 1 + 1 * 0 = 0; rw [e1]

/-- The block of the node features at `(p, q)`. -/
theorem bX_apply (c : Dev nD) (t : Fin cfg2.N) (p : Fin 5000) (q : Fin 128) :
    bX V c t (ix2 p q) = aX V c (ix2 (rowOf t p) q) := by
  obtain ⟨-, -, -, -, -, ⟨e0, e1⟩, -⟩ := idx_facts t
  show V c (Pipeline.arrRef spec2 5) (((cfg2.win 5).blk t).view.emb (ix2 p q)) = V c (Pipeline.arrRef spec2 5) (ix2 (rowOf t p) q)
  refine congrArg _ (funext fun a => Fin.ext ?_)
  match a with
  | ⟨0, _⟩ => show win2_5.index t (0 : Fin 2) * 5000 + 1 * p.val = t.val * 5000 + p.val; rw [e0]; omega
  | ⟨1, _⟩ => show win2_5.index t (1 : Fin 2) * 128 + 1 * q.val = q.val; rw [e1]; omega

/-- Every point holds the whole bias row. -/
theorem bB_eq (c : Dev nD) (t : Fin cfg2.N) : bB V c t = aB V c := by
  obtain ⟨-, -, ⟨e0, e1⟩, -⟩ := idx_facts t
  funext y
  show V c (Pipeline.arrRef spec2 2) (((cfg2.win 2).blk t).view.emb y) = V c (Pipeline.arrRef spec2 2) y
  refine congrArg _ (funext fun a => Fin.ext ?_)
  match a with
  | ⟨0, _⟩ => show win2_2.index t (0 : Fin 2) * 1 + 1 * (y 0).val = (y 0).val; rw [e0]; omega
  | ⟨1, _⟩ => show win2_2.index t (1 : Fin 2) * 128 + 1 * (y 1).val = (y 1).val; rw [e1]; omega

/-- Every point holds the whole scale row. -/
theorem bG_eq (c : Dev nD) (t : Fin cfg2.N) : bG V c t = aG V c := by
  obtain ⟨-, -, -, ⟨e0, e1⟩, -⟩ := idx_facts t
  funext y
  show V c (Pipeline.arrRef spec2 3) (((cfg2.win 3).blk t).view.emb y) = V c (Pipeline.arrRef spec2 3) y
  refine congrArg _ (funext fun a => Fin.ext ?_)
  match a with
  | ⟨0, _⟩ => show win2_3.index t (0 : Fin 2) * 1 + 1 * (y 0).val = (y 0).val; rw [e0]; omega
  | ⟨1, _⟩ => show win2_3.index t (1 : Fin 2) * 128 + 1 * (y 1).val = (y 1).val; rw [e1]; omega

/-- Every point holds the whole shift row. -/
theorem bBe_eq (c : Dev nD) (t : Fin cfg2.N) : bBe V c t = aBe V c := by
  obtain ⟨-, -, -, -, ⟨e0, e1⟩, -⟩ := idx_facts t
  funext y
  show V c (Pipeline.arrRef spec2 4) (((cfg2.win 4).blk t).view.emb y) = V c (Pipeline.arrRef spec2 4) y
  refine congrArg _ (funext fun a => Fin.ext ?_)
  match a with
  | ⟨0, _⟩ => show win2_4.index t (0 : Fin 2) * 1 + 1 * (y 0).val = (y 0).val; rw [e0]; omega
  | ⟨1, _⟩ => show win2_4.index t (1 : Fin 2) * 128 + 1 * (y 1).val = (y 1).val; rw [e1]; omega

/-- Every point holds the whole weight. -/
theorem bW_eq (c : Dev nD) (t : Fin cfg2.N) : bW V c t = aW V c := by
  obtain ⟨-, -, -, -, -, -, ⟨e0, e1⟩, -⟩ := idx_facts t
  funext y
  show V c (Pipeline.arrRef spec2 6) (((cfg2.win 6).blk t).view.emb y) = V c (Pipeline.arrRef spec2 6) y
  refine congrArg _ (funext fun a => Fin.ext ?_)
  match a with
  | ⟨0, _⟩ => show win2_6.index t (0 : Fin 2) * 128 + 1 * (y 0).val = (y 0).val; rw [e0]; omega
  | ⟨1, _⟩ => show win2_6.index t (1 : Fin 2) * 128 + 1 * (y 1).val = (y 1).val; rw [e1]; omega

/-- Entry `(p, q)` of point `t`'s block of the first result is entry `(5000·t + p, q)` of its array. -/
theorem newx_emb (t : Fin cfg2.N) (p : Fin 5000) (q : Fin 128) :
    ((cfg2.win 7).blk t).view.emb (ix2 p q) = ix2 (rowOf t p) q := by
  obtain ⟨-, -, -, -, -, -, -, ⟨e0, e1⟩, -⟩ := idx_facts t
  refine funext fun a => Fin.ext ?_
  match a with
  | ⟨0, _⟩ => show win2_7.index t (0 : Fin 2) * 5000 + 1 * p.val = t.val * 5000 + p.val; rw [e0]; omega
  | ⟨1, _⟩ => show win2_7.index t (1 : Fin 2) * 128 + 1 * q.val = q.val; rw [e1]; omega

/-- The same for the second result. -/
theorem lin_emb (t : Fin cfg2.N) (p : Fin 5000) (q : Fin 128) :
    ((cfg2.win 8).blk t).view.emb (ix2 p q) = ix2 (rowOf t p) q := by
  obtain ⟨-, -, -, -, -, -, -, -, ⟨e0, e1⟩⟩ := idx_facts t
  refine funext fun a => Fin.ext ?_
  match a with
  | ⟨0, _⟩ => show win2_8.index t (0 : Fin 2) * 5000 + 1 * p.val = t.val * 5000 + p.val; rw [e0]; omega
  | ⟨1, _⟩ => show win2_8.index t (1 : Fin 2) * 128 + 1 * q.val = q.val; rw [e1]; omega

/-- Row `p` of point `t`'s first result block is row `5000·t + p` of the whole array's. -/
theorem newx_row (c : Dev nD) (t : Fin cfg2.N) (p : Fin 5000) (q : Fin 128) :
    Spec.post (Spec.scaled (bAgg V c t) (bD V c t) (aB V c)) (aG V c) (aBe V c) (bX V c t) (ix2 p q)
      = newX V c (ix2 (rowOf t p) q) :=
  post_scaled_row (bAgg V c t) (bD V c t) (aAgg V c) (aD V c) (aB V c) (aG V c) (aBe V c) (bX V c t) (aX V c) p (rowOf t p)
    (fun q => bAgg_apply V c t p q) (bD_apply V c t p) (fun q => bX_apply V c t p q) q

/-! ## From the blocks to the arrays -/

/-- WHAT POINT `t` WRITES BACK to the first result is block `t` of the whole array's. -/
theorem flushed_newx (c : Dev nD) (t : Fin cfg2.N) :
    (dat2 (F := Ideal) V c).flushed 7 t = ((cfg2.win 7).blk t).view.read (Elt Ideal) (newX V c) := by
  show (cfg2.win 7).cut (grid2.coords t) ((dat2 (F := Ideal) V c).after 7 t) = _
  rw [after2_7]
  unfold out2_7
  rw [View.canon_unit_zero hz]
  simp only [View.ld_unit_zero (S := S5000x128) hz, View.ld_unit_zero (S := S5000x1) hz, View.ld_unit_zero (S := S1x128) hz]
  rw [pay_post]
  funext j
  obtain ⟨p, q, rfl⟩ : ∃ (p : Fin 5000) (q : Fin 128), j = ix2 p q := ⟨j 0, j 1, eq_ix2 j⟩
  show Spec.post (Spec.scaled (bAgg V c t) (bD V c t) (bB V c t)) (bG V c t) (bBe V c t) (bX V c t) (ix2 p q)
    = newX V c (((cfg2.win 7).blk t).view.emb (ix2 p q))
  rw [newx_emb, bB_eq, bG_eq, bBe_eq]
  exact newx_row V c t p q

/-- WHAT POINT `t` WRITES BACK to the second result is block `t` of the whole array's. -/
theorem flushed_lin (c : Dev nD) (t : Fin cfg2.N) :
    (dat2 (F := Ideal) V c).flushed 8 t
      = ((cfg2.win 8).blk t).view.read (Elt Ideal) (Spec.lin (newX V c) (aW V c) (aD V c)) := by
  show (cfg2.win 8).cut (grid2.coords t) ((dat2 (F := Ideal) V c).after 8 t) = _
  rw [after2_8]
  unfold out2_8
  rw [View.canon_unit_zero hz]
  simp only [View.ld_unit_zero (S := S5000x128) hz, View.ld_unit_zero (S := S5000x1) hz, View.ld_unit_zero (S := S1x128) hz,
    View.ld_unit_zero (S := S128x128) hz]
  rw [pay_post, pay_lin]
  funext j
  obtain ⟨p, q, rfl⟩ : ∃ (p : Fin 5000) (q : Fin 128), j = ix2 p q := ⟨j 0, j 1, eq_ix2 j⟩
  show Spec.lin (Spec.post (Spec.scaled (bAgg V c t) (bD V c t) (bB V c t)) (bG V c t) (bBe V c t) (bX V c t)) (bW V c t) (bD V c t) (ix2 p q)
    = Spec.lin (newX V c) (aW V c) (aD V c) (((cfg2.win 8).blk t).view.emb (ix2 p q))
  rw [lin_emb, bB_eq, bG_eq, bBe_eq, bW_eq]
  exact lin_row _ (newX V c) (aW V c) (bD V c t) (aD V c) p (rowOf t p) (fun k => newx_row V c t p k) (bD_apply V c t p) q

/-- An index of the first result's array is in point `t`'s block iff each coordinate is in the block's range on its axis. -/
theorem mem_blk_newx (t : Fin cfg2.N) (i : S50000x128.Idx) :
    i ∈ ((cfg2.win 7).blk t).view.set ↔ ∀ a : Fin 2, win2_7.index t a * S5000x128.size a ≤ (i a).val ∧ (i a).val < win2_7.index t a * S5000x128.size a + S5000x128.size a := by
  show i ∈ ((View.whole (Pipeline.arrRef spec2 7)).slice (win2_7.rect t)).set ↔ _
  rw [View.set_slice_whole, Rect.mem_set_unit]
  exact Iff.rfl

/-- The same for the second result's array. -/
theorem mem_blk_lin (t : Fin cfg2.N) (i : S50000x128.Idx) :
    i ∈ ((cfg2.win 8).blk t).view.set ↔ ∀ a : Fin 2, win2_8.index t a * S5000x128.size a ≤ (i a).val ∧ (i a).val < win2_8.index t a * S5000x128.size a + S5000x128.size a := by
  show i ∈ ((View.whole (Pipeline.arrRef spec2 8)).slice (win2_8.rect t)).set ↔ _
  rw [View.set_slice_whole, Rect.mem_set_unit]
  exact Iff.rfl

/-- Row `r` of the first result's array is in the block of point `r / 5000`. -/
theorem cover_newx (i : S50000x128.Idx) :
    ∃ t : Fin cfg2.N, (cfg2.win 7).flush t = true ∧ i ∈ ((cfg2.win 7).blk t).view.set := by
  have hi0 : (i 0).val < 50000 := (i 0).isLt
  have hi1 : (i 1).val < 128 := (i 1).isLt
  have hN : cfg2.N = 10 := N_2
  obtain ⟨t, ht⟩ : ∃ t : Fin cfg2.N, t.val = (i 0).val / 5000 := ⟨⟨(i 0).val / 5000, by omega⟩, rfl⟩
  obtain ⟨-, -, -, -, -, -, -, ⟨e0, e1⟩, -⟩ := idx_facts t
  refine ⟨t, flush2_7 t, ?_⟩
  rw [mem_blk_newx]
  intro a
  match a with
  | ⟨0, _⟩ => show win2_7.index t (0 : Fin 2) * 5000 ≤ (i 0).val ∧ (i 0).val < win2_7.index t (0 : Fin 2) * 5000 + 5000; omega
  | ⟨1, _⟩ => show win2_7.index t (1 : Fin 2) * 128 ≤ (i 1).val ∧ (i 1).val < win2_7.index t (1 : Fin 2) * 128 + 128; omega

/-- The same for the second result's array. -/
theorem cover_lin (i : S50000x128.Idx) :
    ∃ t : Fin cfg2.N, (cfg2.win 8).flush t = true ∧ i ∈ ((cfg2.win 8).blk t).view.set := by
  have hi0 : (i 0).val < 50000 := (i 0).isLt
  have hi1 : (i 1).val < 128 := (i 1).isLt
  have hN : cfg2.N = 10 := N_2
  obtain ⟨t, ht⟩ : ∃ t : Fin cfg2.N, t.val = (i 0).val / 5000 := ⟨⟨(i 0).val / 5000, by omega⟩, rfl⟩
  obtain ⟨-, -, -, -, -, -, -, -, ⟨e0, e1⟩⟩ := idx_facts t
  refine ⟨t, flush2_8 t, ?_⟩
  rw [mem_blk_lin]
  intro a
  match a with
  | ⟨0, _⟩ => show win2_8.index t (0 : Fin 2) * 5000 ≤ (i 0).val ∧ (i 0).val < win2_8.index t (0 : Fin 2) * 5000 + 5000; omega
  | ⟨1, _⟩ => show win2_8.index t (1 : Fin 2) * 128 ≤ (i 1).val ∧ (i 1).val < win2_8.index t (1 : Fin 2) * 128 + 128; omega

/-- THE FIRST ARRAY after the call: the node features leaving the layer, of the arrays as the call finds them. -/
theorem final_newx (c : Dev nD) : (dat2 (F := Ideal) V c).arrAt 7 cfg2.N = newX V c :=
  (dat2 (F := Ideal) V c).arrAt_eq_of_cover 7 _ (fun t _ => flushed_newx V c t) cover_newx

/-- THE SECOND ARRAY after the call: their product with the next weight, scaled row by row by the degree factors. -/
theorem final_lin (c : Dev nD) : (dat2 (F := Ideal) V c).arrAt 8 cfg2.N = Spec.lin (newX V c) (aW V c) (aD V c) :=
  (dat2 (F := Ideal) V c).arrAt_eq_of_cover 8 _ (fun t _ => flushed_lin V c t) cover_lin

end Cert.KernelIdeal.Val2

end
-- ==== Proof.KStep2.lean ====
/-
  One layer of the first stream's chain of values: from the second kernel's exit to the third's.

  When the stream's second kernel has run, the program holds the features `X1` and their pre-scaled rows `L1`, the edge
  lists and the degree factor column.  The stretch before the third kernel gathers the rows of `L1` at the sources and
  sums them per destination, and cuts layer 1's bias, scale and shift rows and layer 2's weight out of the stacks; the
  third kernel then leaves `X2` (the residual plus the rectified layer normalisation of the scaled, shifted sums) and
  `L2 = (X2·W[2])·dinv`.  The stretch defines new values only, so it leaves the edge lists, the factor column and the
  features as they were; the kernel writes its two results only (the factor column is one of its inputs).
-/
import proofs.«410635_j2241972928706_3_alg».proof.Proof.Gen.KernelIdeal.Frame
import proofs.«410635_j2241972928706_3_alg».proof.Proof.Spec
import proofs.«410635_j2241972928706_3_alg».proof.Proof.KHost
import proofs.«410635_j2241972928706_3_alg».proof.Proof.KNames
import proofs.«410635_j2241972928706_3_alg».proof.Proof.Val2
import Idealize.ShloMosaic.Lib.StableHlo.Run
import Idealize.ShloMosaic.Lib.Pipeline.Value

noncomputable section

namespace Cert.KernelIdeal.KStep2

open Idealize.ShloMosaic Idealize.ShloMosaic.TcCoe Idealize.SL.Sem
open Idealize.ShloMosaic.Pipeline (Dat)
open Cert.KernelIdeal Cert.KernelIdeal.Gen

variable (m : (ℓ : Loc nD τ sig) → Buf (Elt Ideal) ℓ) (ρ : Dev nD → PrngReg)

/-! ## The stream's arguments as launched, and its named values -/

/-- The node features, -/
abbrev aX (c : Dev nD) : FVec Ideal S50000x256 .f32 := m ((c : Thread nD τ).loc main_arg0)
/-- the reducing weight and bias, -/
abbrev aWred (c : Dev nD) : FVec Ideal S256x128 .f32 := m ((c : Thread nD τ).loc main_arg2)
abbrev aBred (c : Dev nD) : FVec Ideal S128 .f32 := m ((c : Thread nD τ).loc main_arg3)
/-- the stacked layer weights, biases, scales and shifts, -/
abbrev aW (c : Dev nD) : FVec Ideal S4x128x128 .f32 := m ((c : Thread nD τ).loc main_arg6)
abbrev aB (c : Dev nD) : FVec Ideal S4x128 .f32 := m ((c : Thread nD τ).loc main_arg7)
abbrev aG (c : Dev nD) : FVec Ideal S4x128 .f32 := m ((c : Thread nD τ).loc main_arg8)
abbrev aBe (c : Dev nD) : FVec Ideal S4x128 .f32 := m ((c : Thread nD τ).loc main_arg9)
/-- and the graph's edge array. -/
abbrev aEi (c : Dev nD) : IVec S2x800000 32 := m ((c : Thread nD τ).loc main_arg16)

/-- The stream's features after one and two layers and the pre-scaled rows after them. -/
abbrev X1r (c : Dev nD) : Spec.Mat 50000 128 := KNames.X1 (aX m c) (aWred m c) (aBred m c) (aW m c) (aB m c) (aG m c) (aBe m c) (aEi m c)
abbrev L1r (c : Dev nD) : Spec.Mat 50000 128 := KNames.L1 (aX m c) (aWred m c) (aBred m c) (aW m c) (aB m c) (aG m c) (aBe m c) (aEi m c)
abbrev X2r (c : Dev nD) : Spec.Mat 50000 128 := KNames.X2 (aX m c) (aWred m c) (aBred m c) (aW m c) (aB m c) (aG m c) (aBe m c) (aEi m c)
abbrev L2r (c : Dev nD) : Spec.Mat 50000 128 := KNames.L2 (aX m c) (aWred m c) (aBred m c) (aW m c) (aB m c) (aG m c) (aBe m c) (aEi m c)

/-! ## The stretch before the third kernel -/

/-- The stretch defines the values numbered 88 to 126, so a buffer numbered below 88 keeps its contents through it. -/
theorem keep2 (V : Valuation τ sig (Elt Ideal)) (r : Ref sig .tc) (h : r.idx.val < 88) :
    StableHlo.after (hostOps2 (F := Ideal)) V (Proc.devRef .tc r) = V (Proc.devRef .tc r) := by
  refine StableHlo.after_of_forall_not_mem (b := Proc.devRef .tc r) _ _ (List.forall_iff_forall_mem.mp ?_)
  simp only [hostOps2, List.Forall, StableHlo.nullary_writes, StableHlo.unary_writes, StableHlo.binary_writes,
    StableHlo.ternary_writes, StableHlo.reshape_writes, Finset.mem_singleton]
  repeat' apply And.intro
  all_goals exact StableHlo.devRef_ne_of_ne (fun e => by subst e; exact absurd h (by decide))

/-- Contents carried to a buffer's type and back are the contents. -/
theorem ofBuf_toBuf {T : BufTy} (x : StableHlo.TRef sig T) (v : T.Contents (Elt Ideal)) : x.ofBuf (x.toBuf v) = v := by
  obtain ⟨r, h, h2, h3⟩ := x
  subst h
  rfl

/-- The contents of the sources, of the destinations, of the pre-scaled rows and of the sums are of their buffers' types
    as they stand. -/
theorem ofBuf_src (h1 h2 h3) (v : main_call0_v5.ty.Contents (Elt Ideal)) :
    (StableHlo.TRef.of main_call0_v5 h1 h2 h3 : StableHlo.TRef sig ⟨S850000, .i32⟩).ofBuf v = v := rfl
theorem ofBuf_dst (h1 h2 h3) (v : main_call0_v6.ty.Contents (Elt Ideal)) :
    (StableHlo.TRef.of main_call0_v6 h1 h2 h3 : StableHlo.TRef sig ⟨S850000, .i32⟩).ofBuf v = v := rfl
theorem ofBuf_rows (h1 h2 h3) (v : main_call0_v38_1.ty.Contents (Elt Ideal)) :
    (StableHlo.TRef.of main_call0_v38_1 h1 h2 h3 : StableHlo.TRef sig ⟨S50000x128, .f32⟩).ofBuf v = v := rfl
theorem toBuf_sums (h1 h2 h3) (v : (⟨S50000x128, .f32⟩ : BufTy).Contents (Elt Ideal)) :
    (StableHlo.TRef.of main_call0_v42 h1 h2 h3 : StableHlo.TRef sig ⟨S50000x128, .f32⟩).toBuf v = v := rfl

/-- The sums per destination of the gathered rows of the pre-scaled rows. -/
theorem in2_agg (c : Dev nD) :
    (W5 m ρ c (Proc.devRef .tc main_call0_v42) : Spec.Mat 50000 128)
      = KHost.aggFn (W4 m ρ c (Proc.devRef .tc main_call0_v38_1)) (W4 m ρ c (Proc.devRef .tc main_call0_v5))
          (W4 m ρ c (Proc.devRef .tc main_call0_v6)) := by
  show StableHlo.after hostOps2 (W4 m ρ c) (Proc.devRef .tc main_call0_v42) = _
  after_results_simp
  simp only [ofBuf_toBuf, ofBuf_src, ofBuf_dst, ofBuf_rows, toBuf_sums]
  unfold KHost.aggFn KHost.takeFn KHost.inbFn KHost.sWI KHost.wrapFn KHost.dI
  rfl

/-- Layer 1's bias row, -/
theorem in2_b (c : Dev nD) :
    (W5 m ρ c (Proc.devRef .tc main_call0_v51) : Spec.Mat 1 128)
      = KHost.rowFn1 (W4 m ρ c (Proc.devRef .tc main_arg7)) := by
  show StableHlo.after hostOps2 (W4 m ρ c) (Proc.devRef .tc main_call0_v51) = _
  after_results
  rfl

/-- scale row -/
theorem in2_g (c : Dev nD) :
    (W5 m ρ c (Proc.devRef .tc main_call0_v52) : Spec.Mat 1 128)
      = KHost.rowFn1 (W4 m ρ c (Proc.devRef .tc main_arg8)) := by
  show StableHlo.after hostOps2 (W4 m ρ c) (Proc.devRef .tc main_call0_v52) = _
  after_results
  rfl

/-- and shift row. -/
theorem in2_be (c : Dev nD) :
    (W5 m ρ c (Proc.devRef .tc main_call0_v53) : Spec.Mat 1 128)
      = KHost.rowFn1 (W4 m ρ c (Proc.devRef .tc main_arg9)) := by
  show StableHlo.after hostOps2 (W4 m ρ c) (Proc.devRef .tc main_call0_v53) = _
  after_results
  rfl

/-- Layer 2's weight. -/
theorem in2_w (c : Dev nD) :
    (W5 m ρ c (Proc.devRef .tc main_call0_v54) : Spec.Mat 128 128)
      = KHost.wFn2 (W4 m ρ c (Proc.devRef .tc main_arg6)) := by
  show StableHlo.after hostOps2 (W4 m ρ c) (Proc.devRef .tc main_call0_v54) = _
  after_results
  rfl

/-- The stretch writes neither the features, nor the factor column, nor the edge lists. -/
theorem in2_x (c : Dev nD) :
    W5 m ρ c (Proc.devRef .tc main_call0_v38_0) = W4 m ρ c (Proc.devRef .tc main_call0_v38_0) :=
  keep2 _ main_call0_v38_0 (by decide)
theorem in2_d (c : Dev nD) :
    W5 m ρ c (Proc.devRef .tc main_call0_v15) = W4 m ρ c (Proc.devRef .tc main_call0_v15) :=
  keep2 _ main_call0_v15 (by decide)
theorem in2_src (c : Dev nD) :
    W5 m ρ c (Proc.devRef .tc main_call0_v5) = W4 m ρ c (Proc.devRef .tc main_call0_v5) :=
  keep2 _ main_call0_v5 (by decide)
theorem in2_dst (c : Dev nD) :
    W5 m ρ c (Proc.devRef .tc main_call0_v6) = W4 m ρ c (Proc.devRef .tc main_call0_v6) :=
  keep2 _ main_call0_v6 (by decide)

/-! ## The third kernel -/

/-- THE SECOND LAYER'S BOUNDARY: from `X1`, `L1`, the edge lists and the factor column at the second kernel's exit (and
    the four stacks as launched) to `X2`, `L2` and the same lists and column at the third's. -/
theorem b2_named (c : Dev nD)
    (hX : (W4 m ρ c (Proc.devRef .tc main_call0_v38_0) : Spec.Mat 50000 128) = X1r m c)
    (hL : (W4 m ρ c (Proc.devRef .tc main_call0_v38_1) : Spec.Mat 50000 128) = L1r m c)
    (hs : (W4 m ρ c (Proc.devRef .tc main_call0_v5) : IVec S850000 32) = KHost.sFn (aEi m c))
    (hd : (W4 m ρ c (Proc.devRef .tc main_call0_v6) : IVec S850000 32) = KHost.dFn (aEi m c))
    (hq : (W4 m ρ c (Proc.devRef .tc main_call0_v15) : Spec.Mat 50000 1) = KHost.dinvFn (KHost.dFn (aEi m c)))
    (hW : W4 m ρ c (Proc.devRef .tc main_arg6) = m ((c : Thread nD τ).loc main_arg6))
    (hB : W4 m ρ c (Proc.devRef .tc main_arg7) = m ((c : Thread nD τ).loc main_arg7))
    (hG : W4 m ρ c (Proc.devRef .tc main_arg8) = m ((c : Thread nD τ).loc main_arg8))
    (hBe : W4 m ρ c (Proc.devRef .tc main_arg9) = m ((c : Thread nD τ).loc main_arg9)) :
    (W6 m ρ c (Proc.devRef .tc main_call0_v55_0) : Spec.Mat 50000 128) = X2r m c
      ∧ (W6 m ρ c (Proc.devRef .tc main_call0_v55_1) : Spec.Mat 50000 128) = L2r m c
      ∧ (W6 m ρ c (Proc.devRef .tc main_call0_v5) : IVec S850000 32) = KHost.sFn (aEi m c)
      ∧ (W6 m ρ c (Proc.devRef .tc main_call0_v6) : IVec S850000 32) = KHost.dFn (aEi m c)
      ∧ (W6 m ρ c (Proc.devRef .tc main_call0_v15) : Spec.Mat 50000 1) = KHost.dinvFn (KHost.dFn (aEi m c)) := by
  have eAgg : Val2.aAgg (V5 m ρ) c = KHost.aggFn (L1r m c) (KHost.sFn (aEi m c)) (KHost.dFn (aEi m c)) := by
    show (W5 m ρ c (Proc.devRef .tc main_call0_v42) : Spec.Mat 50000 128) = _
    rw [in2_agg, hL, hs, hd]
  have eD : Val2.aD (V5 m ρ) c = KNames.D2 (aEi m c) := (in2_d m ρ c).trans hq
  have eB : Val2.aB (V5 m ρ) c = KHost.rowFn1 (aB m c) := (in2_b m ρ c).trans (congrArg KHost.rowFn1 hB)
  have eG : Val2.aG (V5 m ρ) c = KHost.rowFn1 (aG m c) := (in2_g m ρ c).trans (congrArg KHost.rowFn1 hG)
  have eBe : Val2.aBe (V5 m ρ) c = KHost.rowFn1 (aBe m c) := (in2_be m ρ c).trans (congrArg KHost.rowFn1 hBe)
  have eX : Val2.aX (V5 m ρ) c = X1r m c := (in2_x m ρ c).trans hX
  have eW : Val2.aW (V5 m ρ) c = KHost.wFn2 (aW m c) := (in2_w m ρ c).trans (congrArg KHost.wFn2 hW)
  have eNew : Val2.newX (V5 m ρ) c = X2r m c := by
    show Spec.post (Spec.scaled (Val2.aAgg (V5 m ρ) c) (Val2.aD (V5 m ρ) c) (Val2.aB (V5 m ρ) c))
      (Val2.aG (V5 m ρ) c) (Val2.aBe (V5 m ρ) c) (Val2.aX (V5 m ρ) c) = _
    rw [eAgg, eD, eB, eG, eBe, eX]
    rfl
  refine ⟨((W6_arr m ρ c 7).trans (Val2.final_newx (V5 m ρ) c)).trans eNew, ?_, ?_, ?_, ?_⟩
  · refine ((W6_arr m ρ c 8).trans (Val2.final_lin (V5 m ρ) c)).trans ?_
    rw [eNew, eW, eD]
    rfl
  · exact (W6_of_ne m ρ c main_call0_v5 (by decide)).trans ((in2_src m ρ c).trans hs)
  · exact (W6_of_ne m ρ c main_call0_v6 (by decide)).trans ((in2_dst m ρ c).trans hd)
  · exact ((W6_arr m ρ c 1).trans (((dat2 (V5 m ρ) c).arrAt_in 1 rfl _).trans (A_eq2 (V5 m ρ) c 1))).trans
      ((in2_d m ρ c).trans hq)

/-- The same boundary with the stream's eight arguments written out as the launch contents of their buffers. -/
theorem b2 (c : Dev nD)
    (hX : (W4 m ρ c (Proc.devRef .tc main_call0_v38_0) : Spec.Mat 50000 128)
      = KNames.X1 (m ((c : Thread nD τ).loc main_arg0)) (m ((c : Thread nD τ).loc main_arg2)) (m ((c : Thread nD τ).loc main_arg3))
          (m ((c : Thread nD τ).loc main_arg6)) (m ((c : Thread nD τ).loc main_arg7)) (m ((c : Thread nD τ).loc main_arg8))
          (m ((c : Thread nD τ).loc main_arg9)) (m ((c : Thread nD τ).loc main_arg16)))
    (hL : (W4 m ρ c (Proc.devRef .tc main_call0_v38_1) : Spec.Mat 50000 128)
      = KNames.L1 (m ((c : Thread nD τ).loc main_arg0)) (m ((c : Thread nD τ).loc main_arg2)) (m ((c : Thread nD τ).loc main_arg3))
          (m ((c : Thread nD τ).loc main_arg6)) (m ((c : Thread nD τ).loc main_arg7)) (m ((c : Thread nD τ).loc main_arg8))
          (m ((c : Thread nD τ).loc main_arg9)) (m ((c : Thread nD τ).loc main_arg16)))
    (hs : (W4 m ρ c (Proc.devRef .tc main_call0_v5) : IVec S850000 32) = KHost.sFn (m ((c : Thread nD τ).loc main_arg16)))
    (hd : (W4 m ρ c (Proc.devRef .tc main_call0_v6) : IVec S850000 32) = KHost.dFn (m ((c : Thread nD τ).loc main_arg16)))
    (hq : (W4 m ρ c (Proc.devRef .tc main_call0_v15) : Spec.Mat 50000 1) = KHost.dinvFn (KHost.dFn (m ((c : Thread nD τ).loc main_arg16))))
    (hW : W4 m ρ c (Proc.devRef .tc main_arg6) = m ((c : Thread nD τ).loc main_arg6))
    (hB : W4 m ρ c (Proc.devRef .tc main_arg7) = m ((c : Thread nD τ).loc main_arg7))
    (hG : W4 m ρ c (Proc.devRef .tc main_arg8) = m ((c : Thread nD τ).loc main_arg8))
    (hBe : W4 m ρ c (Proc.devRef .tc main_arg9) = m ((c : Thread nD τ).loc main_arg9)) :
    (W6 m ρ c (Proc.devRef .tc main_call0_v55_0) : Spec.Mat 50000 128)
        = KNames.X2 (m ((c : Thread nD τ).loc main_arg0)) (m ((c : Thread nD τ).loc main_arg2)) (m ((c : Thread nD τ).loc main_arg3))
          (m ((c : Thread nD τ).loc main_arg6)) (m ((c : Thread nD τ).loc main_arg7)) (m ((c : Thread nD τ).loc main_arg8))
          (m ((c : Thread nD τ).loc main_arg9)) (m ((c : Thread nD τ).loc main_arg16))
      ∧ (W6 m ρ c (Proc.devRef .tc main_call0_v55_1) : Spec.Mat 50000 128)
        = KNames.L2 (m ((c : Thread nD τ).loc main_arg0)) (m ((c : Thread nD τ).loc main_arg2)) (m ((c : Thread nD τ).loc main_arg3))
          (m ((c : Thread nD τ).loc main_arg6)) (m ((c : Thread nD τ).loc main_arg7)) (m ((c : Thread nD τ).loc main_arg8))
          (m ((c : Thread nD τ).loc main_arg9)) (m ((c : Thread nD τ).loc main_arg16))
      ∧ (W6 m ρ c (Proc.devRef .tc main_call0_v5) : IVec S850000 32) = KHost.sFn (m ((c : Thread nD τ).loc main_arg16))
      ∧ (W6 m ρ c (Proc.devRef .tc main_call0_v6) : IVec S850000 32) = KHost.dFn (m ((c : Thread nD τ).loc main_arg16))
      ∧ (W6 m ρ c (Proc.devRef .tc main_call0_v15) : Spec.Mat 50000 1) = KHost.dinvFn (KHost.dFn (m ((c : Thread nD τ).loc main_arg16))) :=
  b2_named m ρ c hX hL hs hd hq hW hB hG hBe

end Cert.KernelIdeal.KStep2

end
-- ==== Proof.KArgs.lean ====
/-
  The first stream's stacked parameters hold, at the first four kernel boundaries, what they held at launch.

  The program's buffers are numbered in the order its values are defined, the arguments first (numbers 0 … 17). A
  stretch of host operations writes only the values it defines, all numbered from 18 on, so an argument keeps its
  contents through every stretch (`keep0 … keep3`); a kernel region changes only its own windows, so a buffer that is
  no window of it keeps its contents through the region. Chained from the launch (`w2 … w8`), an argument that is
  no window of the regions on the way holds at a boundary what it held at launch; the final statements are these
  for the stacked weights and rows the first stream reads (arguments 6, 7, 8, 9).
-/
import proofs.«410635_j2241972928706_3_alg».proof.Proof.Gen.KernelIdeal.Frame
import Idealize.ShloMosaic.Lib.StableHlo.Run
import Idealize.ShloMosaic.PureOps.Ideal

noncomputable section

namespace Cert.KernelIdeal.KArgs

open Cert.KernelIdeal Cert.KernelIdeal.Gen Idealize.ShloMosaic
open Idealize.ShloMosaic.TcCoe Idealize.SL.Sem

variable (m : (ℓ : Loc nD τ sig) → Buf (Elt Ideal) ℓ) (ρ : Dev nD → PrngReg)

/-! ## A stretch writes no argument -/

theorem keep0 (V : Valuation τ sig (Elt Ideal)) (r : Ref sig .tc) (h : r.idx.val < 18) :
    StableHlo.after (hostOps0 (F := Ideal)) V (Proc.devRef .tc r) = V (Proc.devRef .tc r) :=
  StableHlo.after_of_forall_not_mem (b := Proc.devRef .tc r) _ _ (List.forall_iff_forall_mem.mp (by
    simp only [hostOps0, List.Forall, StableHlo.nullary_writes, StableHlo.unary_writes, StableHlo.binary_writes,
      StableHlo.ternary_writes, StableHlo.reshape_writes, Finset.mem_singleton]
    repeat' apply And.intro
    all_goals exact StableHlo.devRef_ne_of_ne (fun e => absurd (e ▸ h) (by decide))))

theorem keep1 (V : Valuation τ sig (Elt Ideal)) (r : Ref sig .tc) (h : r.idx.val < 18) :
    StableHlo.after (hostOps1 (F := Ideal)) V (Proc.devRef .tc r) = V (Proc.devRef .tc r) :=
  StableHlo.after_of_forall_not_mem (b := Proc.devRef .tc r) _ _ (List.forall_iff_forall_mem.mp (by
    simp only [hostOps1, List.Forall, StableHlo.nullary_writes, StableHlo.unary_writes, StableHlo.binary_writes,
      StableHlo.ternary_writes, StableHlo.reshape_writes, Finset.mem_singleton]
    repeat' apply And.intro
    all_goals exact StableHlo.devRef_ne_of_ne (fun e => absurd (e ▸ h) (by decide))))

theorem keep2 (V : Valuation τ sig (Elt Ideal)) (r : Ref sig .tc) (h : r.idx.val < 18) :
    StableHlo.after (hostOps2 (F := Ideal)) V (Proc.devRef .tc r) = V (Proc.devRef .tc r) :=
  StableHlo.after_of_forall_not_mem (b := Proc.devRef .tc r) _ _ (List.forall_iff_forall_mem.mp (by
    simp only [hostOps2, List.Forall, StableHlo.nullary_writes, StableHlo.unary_writes, StableHlo.binary_writes,
      StableHlo.ternary_writes, StableHlo.reshape_writes, Finset.mem_singleton]
    repeat' apply And.intro
    all_goals exact StableHlo.devRef_ne_of_ne (fun e => absurd (e ▸ h) (by decide))))

theorem keep3 (V : Valuation τ sig (Elt Ideal)) (r : Ref sig .tc) (h : r.idx.val < 18) :
    StableHlo.after (hostOps3 (F := Ideal)) V (Proc.devRef .tc r) = V (Proc.devRef .tc r) :=
  StableHlo.after_of_forall_not_mem (b := Proc.devRef .tc r) _ _ (List.forall_iff_forall_mem.mp (by
    simp only [hostOps3, List.Forall, StableHlo.nullary_writes, StableHlo.unary_writes, StableHlo.binary_writes,
      StableHlo.ternary_writes, StableHlo.reshape_writes, Finset.mem_singleton]
    repeat' apply And.intro
    all_goals exact StableHlo.devRef_ne_of_ne (fun e => absurd (e ▸ h) (by decide))))

/-! ## From the launch to a boundary, for an argument that is no window of the regions on the way -/

section Walk
variable (c : Dev nD) (r : Ref sig .tc)

theorem w2 (h : r.idx.val < 18) (h0 : ∀ w, Pipeline.arrRef spec0 w ≠ r) :
    W2 m ρ c (Proc.devRef .tc r) = m ((c : Thread nD τ).loc r) :=
  calc W2 m ρ c (Proc.devRef .tc r)
    _ = W1 m ρ c (Proc.devRef .tc r) := W2_of_ne m ρ c r h0
    _ = W0 m ρ c (Proc.devRef .tc r) := keep0 _ r h
    _ = m ((c : Thread nD τ).loc r) := rfl

theorem w4 (h : r.idx.val < 18) (h0 : ∀ w, Pipeline.arrRef spec0 w ≠ r) (h1 : ∀ w, Pipeline.arrRef spec1 w ≠ r) :
    W4 m ρ c (Proc.devRef .tc r) = m ((c : Thread nD τ).loc r) :=
  calc W4 m ρ c (Proc.devRef .tc r)
    _ = W3 m ρ c (Proc.devRef .tc r) := W4_of_ne m ρ c r h1
    _ = W2 m ρ c (Proc.devRef .tc r) := keep1 _ r h
    _ = m ((c : Thread nD τ).loc r) := w2 m ρ c r h h0

theorem w6 (h : r.idx.val < 18) (h0 : ∀ w, Pipeline.arrRef spec0 w ≠ r) (h1 : ∀ w, Pipeline.arrRef spec1 w ≠ r)
    (h2 : ∀ w, Pipeline.arrRef spec2 w ≠ r) :
    W6 m ρ c (Proc.devRef .tc r) = m ((c : Thread nD τ).loc r) :=
  calc W6 m ρ c (Proc.devRef .tc r)
    _ = W5 m ρ c (Proc.devRef .tc r) := W6_of_ne m ρ c r h2
    _ = W4 m ρ c (Proc.devRef .tc r) := keep2 _ r h
    _ = m ((c : Thread nD τ).loc r) := w4 m ρ c r h h0 h1

theorem w8 (h : r.idx.val < 18) (h0 : ∀ w, Pipeline.arrRef spec0 w ≠ r) (h1 : ∀ w, Pipeline.arrRef spec1 w ≠ r)
    (h2 : ∀ w, Pipeline.arrRef spec2 w ≠ r) (h3 : ∀ w, Pipeline.arrRef spec3 w ≠ r) :
    W8 m ρ c (Proc.devRef .tc r) = m ((c : Thread nD τ).loc r) :=
  calc W8 m ρ c (Proc.devRef .tc r)
    _ = W7 m ρ c (Proc.devRef .tc r) := W8_of_ne m ρ c r h3
    _ = W6 m ρ c (Proc.devRef .tc r) := keep3 _ r h
    _ = m ((c : Thread nD τ).loc r) := w6 m ρ c r h h0 h1 h2

end Walk

/-! ## The first stream's stacked parameters at its boundaries -/

theorem arg6_W2 (c : Dev nD) :
    W2 m ρ c (Proc.devRef .tc main_arg6) = m ((c : Thread nD τ).loc main_arg6) :=
  w2 m ρ c main_arg6 (by decide) (by decide)
theorem arg7_W2 (c : Dev nD) :
    W2 m ρ c (Proc.devRef .tc main_arg7) = m ((c : Thread nD τ).loc main_arg7) :=
  w2 m ρ c main_arg7 (by decide) (by decide)
theorem arg8_W2 (c : Dev nD) :
    W2 m ρ c (Proc.devRef .tc main_arg8) = m ((c : Thread nD τ).loc main_arg8) :=
  w2 m ρ c main_arg8 (by decide) (by decide)
theorem arg9_W2 (c : Dev nD) :
    W2 m ρ c (Proc.devRef .tc main_arg9) = m ((c : Thread nD τ).loc main_arg9) :=
  w2 m ρ c main_arg9 (by decide) (by decide)
theorem arg6_W4 (c : Dev nD) :
    W4 m ρ c (Proc.devRef .tc main_arg6) = m ((c : Thread nD τ).loc main_arg6) :=
  w4 m ρ c main_arg6 (by decide) (by decide) (by decide)
theorem arg7_W4 (c : Dev nD) :
    W4 m ρ c (Proc.devRef .tc main_arg7) = m ((c : Thread nD τ).loc main_arg7) :=
  w4 m ρ c main_arg7 (by decide) (by decide) (by decide)
theorem arg8_W4 (c : Dev nD) :
    W4 m ρ c (Proc.devRef .tc main_arg8) = m ((c : Thread nD τ).loc main_arg8) :=
  w4 m ρ c main_arg8 (by decide) (by decide) (by decide)
theorem arg9_W4 (c : Dev nD) :
    W4 m ρ c (Proc.devRef .tc main_arg9) = m ((c : Thread nD τ).loc main_arg9) :=
  w4 m ρ c main_arg9 (by decide) (by decide) (by decide)
theorem arg6_W6 (c : Dev nD) :
    W6 m ρ c (Proc.devRef .tc main_arg6) = m ((c : Thread nD τ).loc main_arg6) :=
  w6 m ρ c main_arg6 (by decide) (by decide) (by decide) (by decide)
theorem arg7_W6 (c : Dev nD) :
    W6 m ρ c (Proc.devRef .tc main_arg7) = m ((c : Thread nD τ).loc main_arg7) :=
  w6 m ρ c main_arg7 (by decide) (by decide) (by decide) (by decide)
theorem arg8_W6 (c : Dev nD) :
    W6 m ρ c (Proc.devRef .tc main_arg8) = m ((c : Thread nD τ).loc main_arg8) :=
  w6 m ρ c main_arg8 (by decide) (by decide) (by decide) (by decide)
theorem arg9_W6 (c : Dev nD) :
    W6 m ρ c (Proc.devRef .tc main_arg9) = m ((c : Thread nD τ).loc main_arg9) :=
  w6 m ρ c main_arg9 (by decide) (by decide) (by decide) (by decide)
theorem arg7_W8 (c : Dev nD) :
    W8 m ρ c (Proc.devRef .tc main_arg7) = m ((c : Thread nD τ).loc main_arg7) :=
  w8 m ρ c main_arg7 (by decide) (by decide) (by decide) (by decide) (by decide)
theorem arg8_W8 (c : Dev nD) :
    W8 m ρ c (Proc.devRef .tc main_arg8) = m ((c : Thread nD τ).loc main_arg8) :=
  w8 m ρ c main_arg8 (by decide) (by decide) (by decide) (by decide) (by decide)
theorem arg9_W8 (c : Dev nD) :
    W8 m ρ c (Proc.devRef .tc main_arg9) = m ((c : Thread nD τ).loc main_arg9) :=
  w8 m ρ c main_arg9 (by decide) (by decide) (by decide) (by decide) (by decide)

end Cert.KernelIdeal.KArgs

end
-- ==== Proof.Val3.lean ====
/-
  The value of a stream's post-processing call fused with the next layer's product, read off its frame.

  The call runs on a grid of ten points.  Point `t` holds rows `5000·t … 5000·t + 4999` of the aggregated sums, of
  the degree factors (a column) and of the node features, and the whole bias, scale and shift rows and the whole next
  weight; it writes back the same rows of two results.  On its block the body computes

      new_x[p, c] = x[p, c] + max (((h[p, c] − μ_p) · rsqrt (σ²_p + ε)) · g[0, c] + be[0, c]) 0,   h[p, c] = agg[p, c] · d[p, 0] + b[0, c],
      lin[p, c]   = (∑ q, new_x[p, q] · w[q, c]) · d[p, 0].

  A row's mean and variance depend on that row alone, and an entry of a product on the left factor's row alone, so
  each block of a result is the whole array's result on those rows; the ten blocks cover the 50000 rows; so the two
  arrays end holding those functions of the arrays as the call finds them.
-/
import proofs.«410635_j2241972928706_3_alg».proof.Proof.Gen.KernelIdeal.Frame
import proofs.«410635_j2241972928706_3_alg».proof.Proof.Spec
import proofs.«410635_j2241972928706_3_alg».proof.Proof.LibBlockOps
import proofs.«410635_j2241972928706_3_alg».proof.Proof.NormResidual
import Idealize.ShloMosaic.Lib.Pipeline.Value
import Idealize.ShloMosaic.Lib.ValueIdx

set_option maxRecDepth 16384

noncomputable section

namespace Cert.KernelIdeal.Val3

open Idealize.ShloMosaic Idealize.ShloMosaic.TcCoe Idealize.ShloMosaic.ValueIdx Idealize.SL.Sem
open Idealize.ShloMosaic.Pipeline (Dat)
open Cert.KernelIdeal.Gen Cert.NormResidual

/-! ## A block of rows of a product -/

/-- An entry of a product reads the left factor in its own row only: row `p` of a block being row `P` of the array,
    the block's product at `(p, c)` is the array's at `(P, c)`. -/
theorem mm_row {n N k m : ℕ} (x' : Spec.Mat n k) (x : Spec.Mat N k) (w : Spec.Mat k m) (p : Fin n) (P : Fin N)
    (hx : ∀ q, x' (ix2 p q) = x (ix2 P q)) (c : Fin m) : Spec.mm x' w p c = Spec.mm x w P c :=
  Finset.sum_congr rfl fun q _ => by rw [hx q]

/-- The product scaled row by row by a column, likewise. -/
theorem lin_row {n N k m : ℕ} (x' : Spec.Mat n k) (x : Spec.Mat N k) (w : Spec.Mat k m) (d' : Spec.Mat n 1) (d : Spec.Mat N 1)
    (p : Fin n) (P : Fin N) (hx : ∀ q, x' (ix2 p q) = x (ix2 P q)) (hd : d' (ix2 p (0 : Fin 1)) = d (ix2 P (0 : Fin 1)))
    (c : Fin m) : Spec.lin x' w d' (ix2 p c) = Spec.lin x w d (ix2 P c) := by
  show Spec.mm x' w p c * d' (ix2 p (0 : Fin 1)) = Spec.mm x w P c * d (ix2 P (0 : Fin 1))
  rw [mm_row x' x w p P hx c, hd]

/-! ## The body's two blocks -/

/-- The first block the body computes is the stages of the normalisation, of its six loaded blocks. -/
theorem pay_stages (v0 : Vec Ideal S5000x128 .f32) (v2 : Vec Ideal S5000x1 .f32) (v6 v26 v30 : Vec Ideal S1x128 .f32)
    (v36 : Vec Ideal S5000x128 .f32) :
    k3_pay2 v0 v2 v6 v26 v30 v36
      = postBlock reduces_S5000x128_S5000 shapeCasts_S5000_S5000x1 broadcasts_S5000x1_S5000x128 broadcasts_S1x128_S5000x128
          shapeCasts_S5000x128_S5000x128 shapeCasts_S1x128_S1x128
          (scaledBlock broadcasts_S5000x1_S5000x128 broadcasts_S1x128_S5000x128 shapeCasts_S5000x128_S5000x128
            shapeCasts_S5000x1_S5000x1 shapeCasts_S1x128_S1x128 v0 v2 v6) v26 v30 v36 := rfl

/-- THE FIRST BLOCK'S VALUE: the residual block plus the rectified layer normalisation of the scaled, shifted aggregate. -/
theorem pay_post (v0 : Vec Ideal S5000x128 .f32) (v2 : Vec Ideal S5000x1 .f32) (v6 v26 v30 : Vec Ideal S1x128 .f32)
    (v36 : Vec Ideal S5000x128 .f32) :
    k3_pay2 v0 v2 v6 v26 v30 v36 = Spec.post (Spec.scaled v0 v2 v6) v26 v30 v36 := by
  rw [pay_stages, scaledBlock_eq, postBlock_eq]

/-- The product's dimension numbers: rows of the left factor by columns of the right, one contracted axis. -/
theorem dot_eq : dot_S5000x128_S128x128_S5000x128_1_0_0_1_n_n
    = BlockOps.rowCol dot_S5000x128_S128x128_S5000x128_1_0_0_1_n_n_wf := rfl

/-- THE SECOND BLOCK'S VALUE: the product of the first block with the weight, scaled row by row by the degree factors
    (the change of number format in front of the product is the identity on the extended reals). -/
theorem pay_lin (x : FVec Ideal S5000x128 .f32) (w : Vec Ideal S128x128 .bf16) (d : Vec Ideal S5000x1 .f32) :
    k3_pay1 (F := Ideal) x w d = Spec.lin x w d := by
  funext j
  obtain ⟨r, q, rfl⟩ : ∃ (r : Fin 5000) (q : Fin 128), j = ix2 r q := ⟨j 0, j 1, eq_ix2 j⟩
  unfold k3_pay1
  simp only [matmul]
  rw [mulf_apply, dot_eq, BlockOps.matmul_zero_apply, BlockOps.broadcastTo_a1_ab_apply, shapeCast_self, shapeCast_self]
  rfl

/-! ## The arrays and their blocks -/

-- the TensorCore's buffer contents when the call is entered
variable (V : (c : Dev nD) → (b : Ref sig .tc) → Buf (Elt Ideal) ((c : Thread nD τ).loc b))

/-- The aggregated sums as the call finds them. -/
abbrev aAgg (c : Dev nD) : Spec.Mat 50000 128 := V c (Pipeline.arrRef spec3 0)
/-- The degree factors, a column. -/
abbrev aD (c : Dev nD) : Spec.Mat 50000 1 := V c (Pipeline.arrRef spec3 1)
/-- The bias row. -/
abbrev aB (c : Dev nD) : Spec.Mat 1 128 := V c (Pipeline.arrRef spec3 2)
/-- The scale row. -/
abbrev aG (c : Dev nD) : Spec.Mat 1 128 := V c (Pipeline.arrRef spec3 3)
/-- The shift row. -/
abbrev aBe (c : Dev nD) : Spec.Mat 1 128 := V c (Pipeline.arrRef spec3 4)
/-- The node features, the residual. -/
abbrev aX (c : Dev nD) : Spec.Mat 50000 128 := V c (Pipeline.arrRef spec3 5)
/-- The next layer's weight. -/
abbrev aW (c : Dev nD) : Spec.Mat 128 128 := V c (Pipeline.arrRef spec3 6)

/-- The node features leaving the layer: the residual plus the rectified layer normalisation of the scaled, shifted
    aggregate. -/
abbrev newX (c : Dev nD) : Spec.Mat 50000 128 :=
  Spec.post (Spec.scaled (aAgg V c) (aD V c) (aB V c)) (aG V c) (aBe V c) (aX V c)

/-- Point `t`'s block of the aggregated sums. -/
abbrev bAgg (c : Dev nD) (t : Fin cfg3.N) : Spec.Mat 5000 128 := iblk3 V c 0 t
/-- Point `t`'s block of the degree factors. -/
abbrev bD (c : Dev nD) (t : Fin cfg3.N) : Spec.Mat 5000 1 := iblk3 V c 1 t
/-- The bias row as point `t` holds it. -/
abbrev bB (c : Dev nD) (t : Fin cfg3.N) : Spec.Mat 1 128 := iblk3 V c 2 t
/-- The scale row as point `t` holds it. -/
abbrev bG (c : Dev nD) (t : Fin cfg3.N) : Spec.Mat 1 128 := iblk3 V c 3 t
/-- The shift row as point `t` holds it. -/
abbrev bBe (c : Dev nD) (t : Fin cfg3.N) : Spec.Mat 1 128 := iblk3 V c 4 t
/-- Point `t`'s block of the node features. -/
abbrev bX (c : Dev nD) (t : Fin cfg3.N) : Spec.Mat 5000 128 := iblk3 V c 5 t
/-- The weight as point `t` holds it. -/
abbrev bW (c : Dev nD) (t : Fin cfg3.N) : Spec.Mat 128 128 := iblk3 V c 6 t

theorem hz : (![0, 0] : Fin 2 → Nat) = fun _ => 0 := funext fun a => by fin_cases a <;> rfl

/-- The windows' block indices, decided over the grid: the row-blocked windows are at block `t` of the rows, the whole
    rows and the whole weight at block 0. -/
theorem idx_facts : ∀ t : Fin cfg3.N,
    (win3_0.index t (0 : Fin 2) = t.val ∧ win3_0.index t (1 : Fin 2) = 0)
    ∧ (win3_1.index t (0 : Fin 2) = t.val ∧ win3_1.index t (1 : Fin 2) = 0)
    ∧ (win3_2.index t (0 : Fin 2) = 0 ∧ win3_2.index t (1 : Fin 2) = 0)
    ∧ (win3_3.index t (0 : Fin 2) = 0 ∧ win3_3.index t (1 : Fin 2) = 0)
    ∧ (win3_4.index t (0 : Fin 2) = 0 ∧ win3_4.index t (1 : Fin 2) = 0)
    ∧ (win3_5.index t (0 : Fin 2) = t.val ∧ win3_5.index t (1 : Fin 2) = 0)
    ∧ (win3_6.index t (0 : Fin 2) = 0 ∧ win3_6.index t (1 : Fin 2) = 0)
    ∧ (win3_7.index t (0 : Fin 2) = t.val ∧ win3_7.index t (1 : Fin 2) = 0)
    ∧ (win3_8.index t (0 : Fin 2) = t.val ∧ win3_8.index t (1 : Fin 2) = 0) :=
  (by decide +kernel : ∀ t : Fin grid3.N, _)

/-- Row `p` of point `t`'s blocks is row `5000·t + p` of the arrays. -/
def rowOf (t : Fin cfg3.N) (p : Fin 5000) : Fin 50000 :=
  ⟨t.val * 5000 + p.val, by have := t.isLt; have hN : cfg3.N = 10 := N_3; have := p.isLt; omega⟩

/-- The block of the aggregated sums at `(p, q)`. -/
theorem bAgg_apply (c : Dev nD) (t : Fin cfg3.N) (p : Fin 5000) (q : Fin 128) :
    bAgg V c t (ix2 p q) = aAgg V c (ix2 (rowOf t p) q) := by
  obtain ⟨⟨e0, e1⟩, -⟩ := idx_facts t
  show V c (Pipeline.arrRef spec3 0) (((cfg3.win 0).blk t).view.emb (ix2 p q)) = V c (Pipeline.arrRef spec3 0) (ix2 (rowOf t p) q)
  refine congrArg _ (funext fun a => Fin.ext ?_)
  match a with
  | ⟨0, _⟩ => show win3_0.index t (0 : Fin 2) * 5000 + 1 * p.val = t.val * 5000 + p.val; rw [e0]; omega
  | ⟨1, _⟩ => show win3_0.index t (1 : Fin 2) * 128 + 1 * q.val = q.val; rw [e1]; omega

/-- The block of the degree factors at `(p, 0)`. -/
theorem bD_apply (c : Dev nD) (t : Fin cfg3.N) (p : Fin 5000) :
    bD V c t (ix2 p (0 : Fin 1)) = aD V c (ix2 (rowOf t p) (0 : Fin 1)) := by
  obtain ⟨-, ⟨e0, e1⟩, -⟩ := idx_facts t
  show V c (Pipeline.arrRef spec3 1) (((cfg3.win 1).blk t).view.emb (ix2 p (0 : Fin 1))) = V c (Pipeline.arrRef spec3 1) (ix2 (rowOf t p) (0 : Fin 1))
  refine congrArg _ (funext fun a => Fin.ext ?_)
  match a with
  | ⟨0, _⟩ => show win3_1.index t (0 : Fin 2) * 5000 + 1 * p.val = t.val * 5000 + p.val; rw [e0]; omega
  | ⟨1, _⟩ => show win3_1.index t (1 : Fin 2) * 1 + 1 * 0 = 0; rw [e1]

/-- The block of the node features at `(p, q)`. -/
theorem bX_apply (c : Dev nD) (t : Fin cfg3.N) (p : Fin 5000) (q : Fin 128) :
    bX V c t (ix2 p q) = aX V c (ix2 (rowOf t p) q) := by
  obtain ⟨-, -, -, -, -, ⟨e0, e1⟩, -⟩ := idx_facts t
  show V c (Pipeline.arrRef spec3 5) (((cfg3.win 5).blk t).view.emb (ix2 p q)) = V c (Pipeline.arrRef spec3 5) (ix2 (rowOf t p) q)
  refine congrArg _ (funext fun a => Fin.ext ?_)
  match a with
  | ⟨0, _⟩ => show win3_5.index t (0 : Fin 2) * 5000 + 1 * p.val = t.val * 5000 + p.val; rw [e0]; omega
  | ⟨1, _⟩ => show win3_5.index t (1 : Fin 2) * 128 + 1 * q.val = q.val; rw [e1]; omega

/-- Every point holds the whole bias row. -/
theorem bB_eq (c : Dev nD) (t : Fin cfg3.N) : bB V c t = aB V c := by
  obtain ⟨-, -, ⟨e0, e1⟩, -⟩ := idx_facts t
  funext y
  show V c (Pipeline.arrRef spec3 2) (((cfg3.win 2).blk t).view.emb y) = V c (Pipeline.arrRef spec3 2) y
  refine congrArg _ (funext fun a => Fin.ext ?_)
  match a with
  | ⟨0, _⟩ => show win3_2.index t (0 : Fin 2) * 1 + 1 * (y 0).val = (y 0).val; rw [e0]; omega
  | ⟨1, _⟩ => show win3_2.index t (1 : Fin 2) * 128 + 1 * (y 1).val = (y 1).val; rw [e1]; omega

/-- Every point holds the whole scale row. -/
theorem bG_eq (c : Dev nD) (t : Fin cfg3.N) : bG V c t = aG V c := by
  obtain ⟨-, -, -, ⟨e0, e1⟩, -⟩ := idx_facts t
  funext y
  show V c (Pipeline.arrRef spec3 3) (((cfg3.win 3).blk t).view.emb y) = V c (Pipeline.arrRef spec3 3) y
  refine congrArg _ (funext fun a => Fin.ext ?_)
  match a with
  | ⟨0, _⟩ => show win3_3.index t (0 : Fin 2) * 1 + 1 * (y 0).val = (y 0).val; rw [e0]; omega
  | ⟨1, _⟩ => show win3_3.index t (1 : Fin 2) * 128 + 1 * (y 1).val = (y 1).val; rw [e1]; omega

/-- Every point holds the whole shift row. -/
theorem bBe_eq (c : Dev nD) (t : Fin cfg3.N) : bBe V c t = aBe V c := by
  obtain ⟨-, -, -, -, ⟨e0, e1⟩, -⟩ := idx_facts t
  funext y
  show V c (Pipeline.arrRef spec3 4) (((cfg3.win 4).blk t).view.emb y) = V c (Pipeline.arrRef spec3 4) y
  refine congrArg _ (funext fun a => Fin.ext ?_)
  match a with
  | ⟨0, _⟩ => show win3_4.index t (0 : Fin 2) * 1 + 1 * (y 0).val = (y 0).val; rw [e0]; omega
  | ⟨1, _⟩ => show win3_4.index t (1 : Fin 2) * 128 + 1 * (y 1).val = (y 1).val; rw [e1]; omega

/-- Every point holds the whole weight. -/
theorem bW_eq (c : Dev nD) (t : Fin cfg3.N) : bW V c t = aW V c := by
  obtain ⟨-, -, -, -, -, -, ⟨e0, e1⟩, -⟩ := idx_facts t
  funext y
  show V c (Pipeline.arrRef spec3 6) (((cfg3.win 6).blk t).view.emb y) = V c (Pipeline.arrRef spec3 6) y
  refine congrArg _ (funext fun a => Fin.ext ?_)
  match a with
  | ⟨0, _⟩ => show win3_6.index t (0 : Fin 2) * 128 + 1 * (y 0).val = (y 0).val; rw [e0]; omega
  | ⟨1, _⟩ => show win3_6.index t (1 : Fin 2) * 128 + 1 * (y 1).val = (y 1).val; rw [e1]; omega

/-- Entry `(p, q)` of point `t`'s block of the first result is entry `(5000·t + p, q)` of its array. -/
theorem newx_emb (t : Fin cfg3.N) (p : Fin 5000) (q : Fin 128) :
    ((cfg3.win 7).blk t).view.emb (ix2 p q) = ix2 (rowOf t p) q := by
  obtain ⟨-, -, -, -, -, -, -, ⟨e0, e1⟩, -⟩ := idx_facts t
  refine funext fun a => Fin.ext ?_
  match a with
  | ⟨0, _⟩ => show win3_7.index t (0 : Fin 2) * 5000 + 1 * p.val = t.val * 5000 + p.val; rw [e0]; omega
  | ⟨1, _⟩ => show win3_7.index t (1 : Fin 2) * 128 + 1 * q.val = q.val; rw [e1]; omega

/-- The same for the second result. -/
theorem lin_emb (t : Fin cfg3.N) (p : Fin 5000) (q : Fin 128) :
    ((cfg3.win 8).blk t).view.emb (ix2 p q) = ix2 (rowOf t p) q := by
  obtain ⟨-, -, -, -, -, -, -, -, ⟨e0, e1⟩⟩ := idx_facts t
  refine funext fun a => Fin.ext ?_
  match a with
  | ⟨0, _⟩ => show win3_8.index t (0 : Fin 2) * 5000 + 1 * p.val = t.val * 5000 + p.val; rw [e0]; omega
  | ⟨1, _⟩ => show win3_8.index t (1 : Fin 2) * 128 + 1 * q.val = q.val; rw [e1]; omega

/-- Row `p` of point `t`'s first result block is row `5000·t + p` of the whole array's. -/
theorem newx_row (c : Dev nD) (t : Fin cfg3.N) (p : Fin 5000) (q : Fin 128) :
    Spec.post (Spec.scaled (bAgg V c t) (bD V c t) (aB V c)) (aG V c) (aBe V c) (bX V c t) (ix2 p q)
      = newX V c (ix2 (rowOf t p) q) :=
  post_scaled_row (bAgg V c t) (bD V c t) (aAgg V c) (aD V c) (aB V c) (aG V c) (aBe V c) (bX V c t) (aX V c) p (rowOf t p)
    (fun q => bAgg_apply V c t p q) (bD_apply V c t p) (fun q => bX_apply V c t p q) q

/-! ## From the blocks to the arrays -/

/-- WHAT POINT `t` WRITES BACK to the first result is block `t` of the whole array's. -/
theorem flushed_newx (c : Dev nD) (t : Fin cfg3.N) :
    (dat3 (F := Ideal) V c).flushed 7 t = ((cfg3.win 7).blk t).view.read (Elt Ideal) (newX V c) := by
  show (cfg3.win 7).cut (grid3.coords t) ((dat3 (F := Ideal) V c).after 7 t) = _
  rw [after3_7]
  unfold out3_7
  rw [View.canon_unit_zero hz]
  simp only [View.ld_unit_zero (S := S5000x128) hz, View.ld_unit_zero (S := S5000x1) hz, View.ld_unit_zero (S := S1x128) hz]
  rw [pay_post]
  funext j
  obtain ⟨p, q, rfl⟩ : ∃ (p : Fin 5000) (q : Fin 128), j = ix2 p q := ⟨j 0, j 1, eq_ix2 j⟩
  show Spec.post (Spec.scaled (bAgg V c t) (bD V c t) (bB V c t)) (bG V c t) (bBe V c t) (bX V c t) (ix2 p q)
    = newX V c (((cfg3.win 7).blk t).view.emb (ix2 p q))
  rw [newx_emb, bB_eq, bG_eq, bBe_eq]
  exact newx_row V c t p q

/-- WHAT POINT `t` WRITES BACK to the second result is block `t` of the whole array's. -/
theorem flushed_lin (c : Dev nD) (t : Fin cfg3.N) :
    (dat3 (F := Ideal) V c).flushed 8 t
      = ((cfg3.win 8).blk t).view.read (Elt Ideal) (Spec.lin (newX V c) (aW V c) (aD V c)) := by
  show (cfg3.win 8).cut (grid3.coords t) ((dat3 (F := Ideal) V c).after 8 t) = _
  rw [after3_8]
  unfold out3_8
  rw [View.canon_unit_zero hz]
  simp only [View.ld_unit_zero (S := S5000x128) hz, View.ld_unit_zero (S := S5000x1) hz, View.ld_unit_zero (S := S1x128) hz,
    View.ld_unit_zero (S := S128x128) hz]
  rw [pay_post, pay_lin]
  funext j
  obtain ⟨p, q, rfl⟩ : ∃ (p : Fin 5000) (q : Fin 128), j = ix2 p q := ⟨j 0, j 1, eq_ix2 j⟩
  show Spec.lin (Spec.post (Spec.scaled (bAgg V c t) (bD V c t) (bB V c t)) (bG V c t) (bBe V c t) (bX V c t)) (bW V c t) (bD V c t) (ix2 p q)
    = Spec.lin (newX V c) (aW V c) (aD V c) (((cfg3.win 8).blk t).view.emb (ix2 p q))
  rw [lin_emb, bB_eq, bG_eq, bBe_eq, bW_eq]
  exact lin_row _ (newX V c) (aW V c) (bD V c t) (aD V c) p (rowOf t p) (fun k => newx_row V c t p k) (bD_apply V c t p) q

/-- An index of the first result's array is in point `t`'s block iff each coordinate is in the block's range on its axis. -/
theorem mem_blk_newx (t : Fin cfg3.N) (i : S50000x128.Idx) :
    i ∈ ((cfg3.win 7).blk t).view.set ↔ ∀ a : Fin 2, win3_7.index t a * S5000x128.size a ≤ (i a).val ∧ (i a).val < win3_7.index t a * S5000x128.size a + S5000x128.size a := by
  show i ∈ ((View.whole (Pipeline.arrRef spec3 7)).slice (win3_7.rect t)).set ↔ _
  rw [View.set_slice_whole, Rect.mem_set_unit]
  exact Iff.rfl

/-- The same for the second result's array. -/
theorem mem_blk_lin (t : Fin cfg3.N) (i : S50000x128.Idx) :
    i ∈ ((cfg3.win 8).blk t).view.set ↔ ∀ a : Fin 2, win3_8.index t a * S5000x128.size a ≤ (i a).val ∧ (i a).val < win3_8.index t a * S5000x128.size a + S5000x128.size a := by
  show i ∈ ((View.whole (Pipeline.arrRef spec3 8)).slice (win3_8.rect t)).set ↔ _
  rw [View.set_slice_whole, Rect.mem_set_unit]
  exact Iff.rfl

/-- Row `r` of the first result's array is in the block of point `r / 5000`. -/
theorem cover_newx (i : S50000x128.Idx) :
    ∃ t : Fin cfg3.N, (cfg3.win 7).flush t = true ∧ i ∈ ((cfg3.win 7).blk t).view.set := by
  have hi0 : (i 0).val < 50000 := (i 0).isLt
  have hi1 : (i 1).val < 128 := (i 1).isLt
  have hN : cfg3.N = 10 := N_3
  obtain ⟨t, ht⟩ : ∃ t : Fin cfg3.N, t.val = (i 0).val / 5000 := ⟨⟨(i 0).val / 5000, by omega⟩, rfl⟩
  obtain ⟨-, -, -, -, -, -, -, ⟨e0, e1⟩, -⟩ := idx_facts t
  refine ⟨t, flush3_7 t, ?_⟩
  rw [mem_blk_newx]
  intro a
  match a with
  | ⟨0, _⟩ => show win3_7.index t (0 : Fin 2) * 5000 ≤ (i 0).val ∧ (i 0).val < win3_7.index t (0 : Fin 2) * 5000 + 5000; omega
  | ⟨1, _⟩ => show win3_7.index t (1 : Fin 2) * 128 ≤ (i 1).val ∧ (i 1).val < win3_7.index t (1 : Fin 2) * 128 + 128; omega

/-- The same for the second result's array. -/
theorem cover_lin (i : S50000x128.Idx) :
    ∃ t : Fin cfg3.N, (cfg3.win 8).flush t = true ∧ i ∈ ((cfg3.win 8).blk t).view.set := by
  have hi0 : (i 0).val < 50000 := (i 0).isLt
  have hi1 : (i 1).val < 128 := (i 1).isLt
  have hN : cfg3.N = 10 := N_3
  obtain ⟨t, ht⟩ : ∃ t : Fin cfg3.N, t.val = (i 0).val / 5000 := ⟨⟨(i 0).val / 5000, by omega⟩, rfl⟩
  obtain ⟨-, -, -, -, -, -, -, -, ⟨e0, e1⟩⟩ := idx_facts t
  refine ⟨t, flush3_8 t, ?_⟩
  rw [mem_blk_lin]
  intro a
  match a with
  | ⟨0, _⟩ => show win3_8.index t (0 : Fin 2) * 5000 ≤ (i 0).val ∧ (i 0).val < win3_8.index t (0 : Fin 2) * 5000 + 5000; omega
  | ⟨1, _⟩ => show win3_8.index t (1 : Fin 2) * 128 ≤ (i 1).val ∧ (i 1).val < win3_8.index t (1 : Fin 2) * 128 + 128; omega

/-- THE FIRST ARRAY after the call: the node features leaving the layer, of the arrays as the call finds them. -/
theorem final_newx (c : Dev nD) : (dat3 (F := Ideal) V c).arrAt 7 cfg3.N = newX V c :=
  (dat3 (F := Ideal) V c).arrAt_eq_of_cover 7 _ (fun t _ => flushed_newx V c t) cover_newx

/-- THE SECOND ARRAY after the call: their product with the next weight, scaled row by row by the degree factors. -/
theorem final_lin (c : Dev nD) : (dat3 (F := Ideal) V c).arrAt 8 cfg3.N = Spec.lin (newX V c) (aW V c) (aD V c) :=
  (dat3 (F := Ideal) V c).arrAt_eq_of_cover 8 _ (fun t _ => flushed_lin V c t) cover_lin

end Cert.KernelIdeal.Val3

end
-- ==== Proof.Val4.lean ====
/-
  The value of a stream's last post-processing call (the fourth layer's), read off its frame.

  The call runs on a grid of ten points.  Point `t` holds rows `5000·t … 5000·t + 4999` of the aggregated sums, of
  the degree factors (a column) and of the node features, and the whole bias, scale and shift rows; it writes back the
  same rows of the result.  On its block the body computes the residual block plus the rectified layer normalisation
  of the scaled, shifted aggregate.  A row's mean and variance depend on that row alone, so the block of the result
  is the whole array's result on those rows; the ten blocks cover the 50000 rows; so the array ends holding

      x[r, c] + max (((h[r, c] − μ_r) · rsqrt (σ²_r + ε)) · g[0, c] + be[0, c]) 0,   h[r, c] = agg[r, c] · d[r, 0] + b[0, c]

  of the arrays as the call finds them.
-/
import proofs.«410635_j2241972928706_3_alg».proof.Proof.Gen.KernelIdeal.Frame
import proofs.«410635_j2241972928706_3_alg».proof.Proof.Spec
import proofs.«410635_j2241972928706_3_alg».proof.Proof.NormResidual
import Idealize.ShloMosaic.Lib.Pipeline.Value
import Idealize.ShloMosaic.Lib.ValueIdx

set_option maxRecDepth 16384

noncomputable section

namespace Cert.KernelIdeal.Val4

open Idealize.ShloMosaic Idealize.ShloMosaic.TcCoe Idealize.ShloMosaic.ValueIdx Idealize.SL.Sem
open Idealize.ShloMosaic.Pipeline (Dat)
open Cert.KernelIdeal.Gen Cert.NormResidual

/-! ## The body's block -/

/-- The block the body computes is the stages of the normalisation, of its six loaded blocks. -/
theorem pay_stages (v0 : Vec Ideal S5000x128 .f32) (v2 : Vec Ideal S5000x1 .f32) (v6 v26 v30 : Vec Ideal S1x128 .f32)
    (v36 : Vec Ideal S5000x128 .f32) :
    k4_pay1 v0 v2 v6 v26 v30 v36
      = postBlock reduces_S5000x128_S5000 shapeCasts_S5000_S5000x1 broadcasts_S5000x1_S5000x128 broadcasts_S1x128_S5000x128
          shapeCasts_S5000x128_S5000x128 shapeCasts_S1x128_S1x128
          (scaledBlock broadcasts_S5000x1_S5000x128 broadcasts_S1x128_S5000x128 shapeCasts_S5000x128_S5000x128
            shapeCasts_S5000x1_S5000x1 shapeCasts_S1x128_S1x128 v0 v2 v6) v26 v30 v36 := rfl

/-- THE BLOCK'S VALUE: the residual block plus the rectified layer normalisation of the scaled, shifted aggregate. -/
theorem pay_post (v0 : Vec Ideal S5000x128 .f32) (v2 : Vec Ideal S5000x1 .f32) (v6 v26 v30 : Vec Ideal S1x128 .f32)
    (v36 : Vec Ideal S5000x128 .f32) :
    k4_pay1 v0 v2 v6 v26 v30 v36 = Spec.post (Spec.scaled v0 v2 v6) v26 v30 v36 := by
  rw [pay_stages, scaledBlock_eq, postBlock_eq]

/-! ## The arrays and their blocks -/

-- the TensorCore's buffer contents when the call is entered
variable (V : (c : Dev nD) → (b : Ref sig .tc) → Buf (Elt Ideal) ((c : Thread nD τ).loc b))

/-- The aggregated sums as the call finds them. -/
abbrev aAgg (c : Dev nD) : Spec.Mat 50000 128 := V c (Pipeline.arrRef spec4 0)
/-- The degree factors, a column. -/
abbrev aD (c : Dev nD) : Spec.Mat 50000 1 := V c (Pipeline.arrRef spec4 1)
/-- The bias row. -/
abbrev aB (c : Dev nD) : Spec.Mat 1 128 := V c (Pipeline.arrRef spec4 2)
/-- The scale row. -/
abbrev aG (c : Dev nD) : Spec.Mat 1 128 := V c (Pipeline.arrRef spec4 3)
/-- The shift row. -/
abbrev aBe (c : Dev nD) : Spec.Mat 1 128 := V c (Pipeline.arrRef spec4 4)
/-- The node features, the residual. -/
abbrev aX (c : Dev nD) : Spec.Mat 50000 128 := V c (Pipeline.arrRef spec4 5)

/-- Point `t`'s block of the aggregated sums. -/
abbrev bAgg (c : Dev nD) (t : Fin cfg4.N) : Spec.Mat 5000 128 := iblk4 V c 0 t
/-- Point `t`'s block of the degree factors. -/
abbrev bD (c : Dev nD) (t : Fin cfg4.N) : Spec.Mat 5000 1 := iblk4 V c 1 t
/-- The bias row as point `t` holds it. -/
abbrev bB (c : Dev nD) (t : Fin cfg4.N) : Spec.Mat 1 128 := iblk4 V c 2 t
/-- The scale row as point `t` holds it. -/
abbrev bG (c : Dev nD) (t : Fin cfg4.N) : Spec.Mat 1 128 := iblk4 V c 3 t
/-- The shift row as point `t` holds it. -/
abbrev bBe (c : Dev nD) (t : Fin cfg4.N) : Spec.Mat 1 128 := iblk4 V c 4 t
/-- Point `t`'s block of the node features. -/
abbrev bX (c : Dev nD) (t : Fin cfg4.N) : Spec.Mat 5000 128 := iblk4 V c 5 t

theorem hz : (![0, 0] : Fin 2 → Nat) = fun _ => 0 := funext fun a => by fin_cases a <;> rfl

/-- The windows' block indices, decided over the grid: the row-blocked windows are at block `t` of the rows, the whole
    rows at block 0. -/
theorem idx_facts : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = t.val ∧ win4_5.index t (1 : Fin 2) = 0
    ∧ win4_6.index t (0 : Fin 2) = t.val ∧ win4_6.index t (1 : Fin 2) = 0 :=
  (by decide +kernel : ∀ t : Fin grid4.N, _)

/-- Row `p` of point `t`'s blocks is row `5000·t + p` of the arrays. -/
def rowOf (t : Fin cfg4.N) (p : Fin 5000) : Fin 50000 :=
  ⟨t.val * 5000 + p.val, by have := t.isLt; have hN : cfg4.N = 10 := N_4; have := p.isLt; omega⟩

/-- The block of the aggregated sums at `(p, q)`. -/
theorem bAgg_apply (c : Dev nD) (t : Fin cfg4.N) (p : Fin 5000) (q : Fin 128) :
    bAgg V c t (ix2 p q) = aAgg V c (ix2 (rowOf t p) q) := by
  obtain ⟨e0, e1, -⟩ := idx_facts t
  show V c (Pipeline.arrRef spec4 0) (((cfg4.win 0).blk t).view.emb (ix2 p q)) = V c (Pipeline.arrRef spec4 0) (ix2 (rowOf t p) q)
  refine congrArg _ (funext fun a => Fin.ext ?_)
  match a with
  | ⟨0, _⟩ => show win4_0.index t (0 : Fin 2) * 5000 + 1 * p.val = t.val * 5000 + p.val; rw [e0]; omega
  | ⟨1, _⟩ => show win4_0.index t (1 : Fin 2) * 128 + 1 * q.val = q.val; rw [e1]; omega

/-- The block of the degree factors at `(p, 0)`. -/
theorem bD_apply (c : Dev nD) (t : Fin cfg4.N) (p : Fin 5000) :
    bD V c t (ix2 p (0 : Fin 1)) = aD V c (ix2 (rowOf t p) (0 : Fin 1)) := by
  obtain ⟨-, -, e0, e1, -⟩ := idx_facts t
  show V c (Pipeline.arrRef spec4 1) (((cfg4.win 1).blk t).view.emb (ix2 p (0 : Fin 1))) = V c (Pipeline.arrRef spec4 1) (ix2 (rowOf t p) (0 : Fin 1))
  refine congrArg _ (funext fun a => Fin.ext ?_)
  match a with
  | ⟨0, _⟩ => show win4_1.index t (0 : Fin 2) * 5000 + 1 * p.val = t.val * 5000 + p.val; rw [e0]; omega
  | ⟨1, _⟩ => show win4_1.index t (1 : Fin 2) * 1 + 1 * 0 = 0; rw [e1]

/-- The block of the node features at `(p, q)`. -/
theorem bX_apply (c : Dev nD) (t : Fin cfg4.N) (p : Fin 5000) (q : Fin 128) :
    bX V c t (ix2 p q) = aX V c (ix2 (rowOf t p) q) := by
  obtain ⟨-, -, -, -, -, -, -, -, -, -, e0, e1, -⟩ := idx_facts t
  show V c (Pipeline.arrRef spec4 5) (((cfg4.win 5).blk t).view.emb (ix2 p q)) = V c (Pipeline.arrRef spec4 5) (ix2 (rowOf t p) q)
  refine congrArg _ (funext fun a => Fin.ext ?_)
  match a with
  | ⟨0, _⟩ => show win4_5.index t (0 : Fin 2) * 5000 + 1 * p.val = t.val * 5000 + p.val; rw [e0]; omega
  | ⟨1, _⟩ => show win4_5.index t (1 : Fin 2) * 128 + 1 * q.val = q.val; rw [e1]; omega

/-- Every point holds the whole bias row. -/
theorem bB_eq (c : Dev nD) (t : Fin cfg4.N) : bB V c t = aB V c := by
  obtain ⟨-, -, -, -, e0, e1, -⟩ := idx_facts t
  funext y
  show V c (Pipeline.arrRef spec4 2) (((cfg4.win 2).blk t).view.emb y) = V c (Pipeline.arrRef spec4 2) y
  refine congrArg _ (funext fun a => Fin.ext ?_)
  match a with
  | ⟨0, _⟩ => show win4_2.index t (0 : Fin 2) * 1 + 1 * (y 0).val = (y 0).val; rw [e0]; omega
  | ⟨1, _⟩ => show win4_2.index t (1 : Fin 2) * 128 + 1 * (y 1).val = (y 1).val; rw [e1]; omega

/-- Every point holds the whole scale row. -/
theorem bG_eq (c : Dev nD) (t : Fin cfg4.N) : bG V c t = aG V c := by
  obtain ⟨-, -, -, -, -, -, e0, e1, -⟩ := idx_facts t
  funext y
  show V c (Pipeline.arrRef spec4 3) (((cfg4.win 3).blk t).view.emb y) = V c (Pipeline.arrRef spec4 3) y
  refine congrArg _ (funext fun a => Fin.ext ?_)
  match a with
  | ⟨0, _⟩ => show win4_3.index t (0 : Fin 2) * 1 + 1 * (y 0).val = (y 0).val; rw [e0]; omega
  | ⟨1, _⟩ => show win4_3.index t (1 : Fin 2) * 128 + 1 * (y 1).val = (y 1).val; rw [e1]; omega

/-- Every point holds the whole shift row. -/
theorem bBe_eq (c : Dev nD) (t : Fin cfg4.N) : bBe V c t = aBe V c := by
  obtain ⟨-, -, -, -, -, -, -, -, e0, e1, -⟩ := idx_facts t
  funext y
  show V c (Pipeline.arrRef spec4 4) (((cfg4.win 4).blk t).view.emb y) = V c (Pipeline.arrRef spec4 4) y
  refine congrArg _ (funext fun a => Fin.ext ?_)
  match a with
  | ⟨0, _⟩ => show win4_4.index t (0 : Fin 2) * 1 + 1 * (y 0).val = (y 0).val; rw [e0]; omega
  | ⟨1, _⟩ => show win4_4.index t (1 : Fin 2) * 128 + 1 * (y 1).val = (y 1).val; rw [e1]; omega

/-- Entry `(p, q)` of point `t`'s block of the result is entry `(5000·t + p, q)` of the array. -/
theorem out_emb (t : Fin cfg4.N) (p : Fin 5000) (q : Fin 128) :
    ((cfg4.win 6).blk t).view.emb (ix2 p q) = ix2 (rowOf t p) q := by
  obtain ⟨-, -, -, -, -, -, -, -, -, -, -, -, e0, e1⟩ := idx_facts t
  refine funext fun a => Fin.ext ?_
  match a with
  | ⟨0, _⟩ => show win4_6.index t (0 : Fin 2) * 5000 + 1 * p.val = t.val * 5000 + p.val; rw [e0]; omega
  | ⟨1, _⟩ => show win4_6.index t (1 : Fin 2) * 128 + 1 * q.val = q.val; rw [e1]; omega

/-! ## From the blocks to the array -/

/-- WHAT POINT `t` WRITES BACK is block `t` of the whole array's result. -/
theorem flushed_eq (c : Dev nD) (t : Fin cfg4.N) :
    (dat4 (F := Ideal) V c).flushed 6 t
      = ((cfg4.win 6).blk t).view.read (Elt Ideal)
          (Spec.post (Spec.scaled (aAgg V c) (aD V c) (aB V c)) (aG V c) (aBe V c) (aX V c)) := by
  show (cfg4.win 6).cut (grid4.coords t) ((dat4 (F := Ideal) V c).after 6 t) = _
  rw [after4_6]
  unfold out4_6
  rw [View.canon_unit_zero hz]
  simp only [View.ld_unit_zero (S := S5000x128) hz, View.ld_unit_zero (S := S5000x1) hz, View.ld_unit_zero (S := S1x128) hz]
  rw [pay_post]
  funext j
  obtain ⟨p, q, rfl⟩ : ∃ (p : Fin 5000) (q : Fin 128), j = ix2 p q := ⟨j 0, j 1, eq_ix2 j⟩
  show Spec.post (Spec.scaled (bAgg V c t) (bD V c t) (bB V c t)) (bG V c t) (bBe V c t) (bX V c t) (ix2 p q)
    = Spec.post (Spec.scaled (aAgg V c) (aD V c) (aB V c)) (aG V c) (aBe V c) (aX V c) (((cfg4.win 6).blk t).view.emb (ix2 p q))
  rw [out_emb, bB_eq, bG_eq, bBe_eq]
  exact post_scaled_row (bAgg V c t) (bD V c t) (aAgg V c) (aD V c) (aB V c) (aG V c) (aBe V c) (bX V c t) (aX V c) p (rowOf t p)
    (fun q => bAgg_apply V c t p q) (bD_apply V c t p) (fun q => bX_apply V c t p q) q

/-- An index of the array is in point `t`'s block iff each coordinate is in the block's range on its axis. -/
theorem mem_blk (t : Fin cfg4.N) (i : S50000x128.Idx) :
    i ∈ ((cfg4.win 6).blk t).view.set ↔ ∀ a : Fin 2, win4_6.index t a * S5000x128.size a ≤ (i a).val ∧ (i a).val < win4_6.index t a * S5000x128.size a + S5000x128.size a := by
  show i ∈ ((View.whole (Pipeline.arrRef spec4 6)).slice (win4_6.rect t)).set ↔ _
  rw [View.set_slice_whole, Rect.mem_set_unit]
  exact Iff.rfl

/-- Row `r` of the array is in the block of point `r / 5000`. -/
theorem cover (i : S50000x128.Idx) :
    ∃ t : Fin cfg4.N, (cfg4.win 6).flush t = true ∧ i ∈ ((cfg4.win 6).blk t).view.set := by
  have hi0 : (i 0).val < 50000 := (i 0).isLt
  have hi1 : (i 1).val < 128 := (i 1).isLt
  have hN : cfg4.N = 10 := N_4
  obtain ⟨t, ht⟩ : ∃ t : Fin cfg4.N, t.val = (i 0).val / 5000 := ⟨⟨(i 0).val / 5000, by omega⟩, rfl⟩
  obtain ⟨-, -, -, -, -, -, -, -, -, -, -, -, e0, e1⟩ := idx_facts t
  refine ⟨t, flush4_6 t, ?_⟩
  rw [mem_blk]
  intro a
  match a with
  | ⟨0, _⟩ => show win4_6.index t (0 : Fin 2) * 5000 ≤ (i 0).val ∧ (i 0).val < win4_6.index t (0 : Fin 2) * 5000 + 5000; omega
  | ⟨1, _⟩ => show win4_6.index t (1 : Fin 2) * 128 ≤ (i 1).val ∧ (i 1).val < win4_6.index t (1 : Fin 2) * 128 + 128; omega

/-- THE ARRAY after the call: the residual plus the rectified layer normalisation of the scaled, shifted aggregate, of
    the arrays as the call finds them. -/
theorem final_newx (c : Dev nD) :
    (dat4 (F := Ideal) V c).arrAt 6 cfg4.N
      = Spec.post (Spec.scaled (aAgg V c) (aD V c) (aB V c)) (aG V c) (aBe V c) (aX V c) :=
  (dat4 (F := Ideal) V c).arrAt_eq_of_cover 6 _ (fun t _ => flushed_eq V c t) cover

end Cert.KernelIdeal.Val4

end
-- ==== Proof.KChainR2.lean ====
/-
  The first stream's chain of values through its last two layers.

  When the stream's third kernel has run, the program holds the features `X2` and their pre-scaled rows `L2`, the edge
  lists and the degree factor column. The stretch before the fourth kernel gathers the rows of `L2` at the edges' sources
  and sums them per destination, and cuts layer 2's bias, scale and shift rows and layer 3's weight out of the stacked
  arguments; the fourth kernel then leaves `X3` — the residual plus the rectified layer normalisation of the scaled,
  shifted sums — and `L3 = (X3·W[3])·dinv`. The stretch before the fifth kernel does the same with `L3` and layer 3's
  rows, and the fifth kernel leaves `X4`, the stream's result. Neither stretch writes the edge lists or the factor
  column, a kernel changes only its own result arrays, and the stacked arguments are as launched wherever a stretch
  reads them.
-/
import proofs.«410635_j2241972928706_3_alg».proof.Proof.Gen.KernelIdeal.Frame
import proofs.«410635_j2241972928706_3_alg».proof.Proof.Spec
import proofs.«410635_j2241972928706_3_alg».proof.Proof.KHost
import proofs.«410635_j2241972928706_3_alg».proof.Proof.KNames
import proofs.«410635_j2241972928706_3_alg».proof.Proof.KArgs
import proofs.«410635_j2241972928706_3_alg».proof.Proof.Val3
import proofs.«410635_j2241972928706_3_alg».proof.Proof.Val4
import Idealize.ShloMosaic.Lib.StableHlo.Run
import Idealize.ShloMosaic.Lib.Pipeline.Value

noncomputable section

namespace Cert.KernelIdeal.KChainR2

open Idealize.ShloMosaic Idealize.ShloMosaic.TcCoe Idealize.SL.Sem
open Idealize.ShloMosaic.Pipeline (Dat)
open Cert.KernelIdeal Cert.KernelIdeal.Gen

variable (m : (ℓ : Loc nD τ sig) → Buf (Elt Ideal) ℓ) (ρ : Dev nD → PrngReg)

/-- Contents carried to a buffer's type and back are the contents. -/
theorem ofBuf_toBuf {Val : EltTy → Type} {T : BufTy} (x : StableHlo.TRef sig T) (v : T.Contents Val) :
    x.ofBuf (x.toBuf v) = v := by
  obtain ⟨r, e, _, _⟩ := x
  subst e
  rfl

/-- A buffer that no operation of a stretch writes keeps its contents over the stretch: the buffers the operations
    write are listed and compared with it one by one. -/
local macro "stretch_keeps" ops:ident : tactic =>
  `(tactic| exact StableHlo.after_of_forall_not_mem _ _ (List.forall_iff_forall_mem.mp (by
      simp only [$ops:ident, List.Forall, StableHlo.nullary_writes, StableHlo.unary_writes, StableHlo.binary_writes,
        StableHlo.ternary_writes, StableHlo.reshape_writes, Finset.mem_singleton]
      repeat' apply And.intro
      all_goals exact StableHlo.devRef_ne_of_ne (by decide))))

/-! ## The stretch before the stream's fourth kernel: what it leaves in the kernel's inputs -/

set_option maxHeartbeats 2000000 in
/-- The sums per destination of the pre-scaled rows gathered along the edges. -/
theorem in3_agg (c : Dev nD) :
    (W7 m ρ c (Proc.devRef .tc main_call0_v59) : Spec.Mat 50000 128)
      = KHost.aggFn (W6 m ρ c (Proc.devRef .tc main_call0_v55_1)) (W6 m ρ c (Proc.devRef .tc main_call0_v5))
          (W6 m ρ c (Proc.devRef .tc main_call0_v6)) := by
  show StableHlo.after hostOps3 (W6 m ρ c) (Proc.devRef .tc main_call0_v59) = _
  after_results_simp
  simp only [ofBuf_toBuf]
  unfold KHost.aggFn KHost.takeFn KHost.inbFn KHost.sWI KHost.wrapFn KHost.dI
  rfl

/-- Layer 2's bias row, -/
theorem in3_b (c : Dev nD) :
    (W7 m ρ c (Proc.devRef .tc main_call0_v68) : Spec.Mat 1 128) = KHost.rowFn2 (m ((c : Thread nD τ).loc main_arg7)) := by
  rw [← KArgs.arg7_W6 m ρ c]
  show StableHlo.after hostOps3 (W6 m ρ c) (Proc.devRef .tc main_call0_v68) = _
  after_results_simp
  rfl

/-- scale row -/
theorem in3_g (c : Dev nD) :
    (W7 m ρ c (Proc.devRef .tc main_call0_v69) : Spec.Mat 1 128) = KHost.rowFn2 (m ((c : Thread nD τ).loc main_arg8)) := by
  rw [← KArgs.arg8_W6 m ρ c]
  show StableHlo.after hostOps3 (W6 m ρ c) (Proc.devRef .tc main_call0_v69) = _
  after_results_simp
  rfl

/-- and shift row. -/
theorem in3_be (c : Dev nD) :
    (W7 m ρ c (Proc.devRef .tc main_call0_v70) : Spec.Mat 1 128) = KHost.rowFn2 (m ((c : Thread nD τ).loc main_arg9)) := by
  rw [← KArgs.arg9_W6 m ρ c]
  show StableHlo.after hostOps3 (W6 m ρ c) (Proc.devRef .tc main_call0_v70) = _
  after_results_simp
  rfl

/-- Layer 3's weight. -/
theorem in3_w (c : Dev nD) :
    (W7 m ρ c (Proc.devRef .tc main_call0_v71) : Spec.Mat 128 128) = KHost.wFn3 (m ((c : Thread nD τ).loc main_arg6)) := by
  rw [← KArgs.arg6_W6 m ρ c]
  show StableHlo.after hostOps3 (W6 m ρ c) (Proc.devRef .tc main_call0_v71) = _
  after_results_simp
  rfl

/-- The stretch writes neither the features, nor the factor column, nor the edge lists. -/
theorem in3_x (c : Dev nD) : W7 m ρ c (Proc.devRef .tc main_call0_v55_0) = W6 m ρ c (Proc.devRef .tc main_call0_v55_0) := by
  stretch_keeps hostOps3
theorem in3_d (c : Dev nD) : W7 m ρ c (Proc.devRef .tc main_call0_v15) = W6 m ρ c (Proc.devRef .tc main_call0_v15) := by
  stretch_keeps hostOps3
theorem in3_s (c : Dev nD) : W7 m ρ c (Proc.devRef .tc main_call0_v5) = W6 m ρ c (Proc.devRef .tc main_call0_v5) := by
  stretch_keeps hostOps3
theorem in3_dst (c : Dev nD) : W7 m ρ c (Proc.devRef .tc main_call0_v6) = W6 m ρ c (Proc.devRef .tc main_call0_v6) := by
  stretch_keeps hostOps3

/-! ## The fourth kernel -/

/-- THE FOURTH LAYER'S BOUNDARY: from the features `X2`, their pre-scaled rows `L2`, the edge lists and the factor column
    when the third kernel has run, to `X3`, `L3` and the same lists and column when the fourth has. -/
theorem b3 (c : Dev nD)
    (hX : (W6 m ρ c (Proc.devRef .tc main_call0_v55_0) : Spec.Mat 50000 128) = KNames.X2 (m ((c : Thread nD τ).loc main_arg0)) (m ((c : Thread nD τ).loc main_arg2)) (m ((c : Thread nD τ).loc main_arg3)) (m ((c : Thread nD τ).loc main_arg6)) (m ((c : Thread nD τ).loc main_arg7)) (m ((c : Thread nD τ).loc main_arg8)) (m ((c : Thread nD τ).loc main_arg9)) (m ((c : Thread nD τ).loc main_arg16)))
    (hL : (W6 m ρ c (Proc.devRef .tc main_call0_v55_1) : Spec.Mat 50000 128) = KNames.L2 (m ((c : Thread nD τ).loc main_arg0)) (m ((c : Thread nD τ).loc main_arg2)) (m ((c : Thread nD τ).loc main_arg3)) (m ((c : Thread nD τ).loc main_arg6)) (m ((c : Thread nD τ).loc main_arg7)) (m ((c : Thread nD τ).loc main_arg8)) (m ((c : Thread nD τ).loc main_arg9)) (m ((c : Thread nD τ).loc main_arg16)))
    (hs : (W6 m ρ c (Proc.devRef .tc main_call0_v5) : IVec S850000 32) = KHost.sFn (m ((c : Thread nD τ).loc main_arg16)))
    (hd : (W6 m ρ c (Proc.devRef .tc main_call0_v6) : IVec S850000 32) = KHost.dFn (m ((c : Thread nD τ).loc main_arg16)))
    (hq : (W6 m ρ c (Proc.devRef .tc main_call0_v15) : Spec.Mat 50000 1) = KHost.dinvFn (KHost.dFn (m ((c : Thread nD τ).loc main_arg16)))) :
    (W8 m ρ c (Proc.devRef .tc main_call0_v72_0) : Spec.Mat 50000 128) = KNames.X3 (m ((c : Thread nD τ).loc main_arg0)) (m ((c : Thread nD τ).loc main_arg2)) (m ((c : Thread nD τ).loc main_arg3)) (m ((c : Thread nD τ).loc main_arg6)) (m ((c : Thread nD τ).loc main_arg7)) (m ((c : Thread nD τ).loc main_arg8)) (m ((c : Thread nD τ).loc main_arg9)) (m ((c : Thread nD τ).loc main_arg16))
      ∧ (W8 m ρ c (Proc.devRef .tc main_call0_v72_1) : Spec.Mat 50000 128) = KNames.L3 (m ((c : Thread nD τ).loc main_arg0)) (m ((c : Thread nD τ).loc main_arg2)) (m ((c : Thread nD τ).loc main_arg3)) (m ((c : Thread nD τ).loc main_arg6)) (m ((c : Thread nD τ).loc main_arg7)) (m ((c : Thread nD τ).loc main_arg8)) (m ((c : Thread nD τ).loc main_arg9)) (m ((c : Thread nD τ).loc main_arg16))
      ∧ (W8 m ρ c (Proc.devRef .tc main_call0_v5) : IVec S850000 32) = KHost.sFn (m ((c : Thread nD τ).loc main_arg16))
      ∧ (W8 m ρ c (Proc.devRef .tc main_call0_v6) : IVec S850000 32) = KHost.dFn (m ((c : Thread nD τ).loc main_arg16))
      ∧ (W8 m ρ c (Proc.devRef .tc main_call0_v15) : Spec.Mat 50000 1) = KHost.dinvFn (KHost.dFn (m ((c : Thread nD τ).loc main_arg16))) := by
  have eAgg : Val3.aAgg (V7 m ρ) c = KHost.aggFn (KNames.L2 (m ((c : Thread nD τ).loc main_arg0)) (m ((c : Thread nD τ).loc main_arg2)) (m ((c : Thread nD τ).loc main_arg3)) (m ((c : Thread nD τ).loc main_arg6)) (m ((c : Thread nD τ).loc main_arg7)) (m ((c : Thread nD τ).loc main_arg8)) (m ((c : Thread nD τ).loc main_arg9)) (m ((c : Thread nD τ).loc main_arg16))) (KHost.sFn (m ((c : Thread nD τ).loc main_arg16))) (KHost.dFn (m ((c : Thread nD τ).loc main_arg16))) := by
    show (W7 m ρ c (Proc.devRef .tc main_call0_v59) : Spec.Mat 50000 128) = _
    rw [in3_agg, hL, hs, hd]
  have eD : Val3.aD (V7 m ρ) c = KNames.D2 (m ((c : Thread nD τ).loc main_arg16)) := (in3_d m ρ c).trans hq
  have eB : Val3.aB (V7 m ρ) c = KHost.rowFn2 (m ((c : Thread nD τ).loc main_arg7)) := in3_b m ρ c
  have eG : Val3.aG (V7 m ρ) c = KHost.rowFn2 (m ((c : Thread nD τ).loc main_arg8)) := in3_g m ρ c
  have eBe : Val3.aBe (V7 m ρ) c = KHost.rowFn2 (m ((c : Thread nD τ).loc main_arg9)) := in3_be m ρ c
  have eX : Val3.aX (V7 m ρ) c = KNames.X2 (m ((c : Thread nD τ).loc main_arg0)) (m ((c : Thread nD τ).loc main_arg2)) (m ((c : Thread nD τ).loc main_arg3)) (m ((c : Thread nD τ).loc main_arg6)) (m ((c : Thread nD τ).loc main_arg7)) (m ((c : Thread nD τ).loc main_arg8)) (m ((c : Thread nD τ).loc main_arg9)) (m ((c : Thread nD τ).loc main_arg16)) := (in3_x m ρ c).trans hX
  have eW : Val3.aW (V7 m ρ) c = KHost.wFn3 (m ((c : Thread nD τ).loc main_arg6)) := in3_w m ρ c
  have eNew : Val3.newX (V7 m ρ) c = KNames.X3 (m ((c : Thread nD τ).loc main_arg0)) (m ((c : Thread nD τ).loc main_arg2)) (m ((c : Thread nD τ).loc main_arg3)) (m ((c : Thread nD τ).loc main_arg6)) (m ((c : Thread nD τ).loc main_arg7)) (m ((c : Thread nD τ).loc main_arg8)) (m ((c : Thread nD τ).loc main_arg9)) (m ((c : Thread nD τ).loc main_arg16)) := by
    show Spec.post (Spec.scaled (Val3.aAgg (V7 m ρ) c) (Val3.aD (V7 m ρ) c) (Val3.aB (V7 m ρ) c))
      (Val3.aG (V7 m ρ) c) (Val3.aBe (V7 m ρ) c) (Val3.aX (V7 m ρ) c) = _
    rw [eAgg, eD, eB, eG, eBe, eX]
    rfl
  refine ⟨((W8_arr m ρ c 7).trans (Val3.final_newx (V7 m ρ) c)).trans eNew, ?_, ?_, ?_, ?_⟩
  · refine ((W8_arr m ρ c 8).trans (Val3.final_lin (V7 m ρ) c)).trans ?_
    rw [eNew, eW, eD]
    rfl
  · exact (W8_of_ne m ρ c main_call0_v5 (by decide)).trans ((in3_s m ρ c).trans hs)
  · exact (W8_of_ne m ρ c main_call0_v6 (by decide)).trans ((in3_dst m ρ c).trans hd)
  · exact ((W8_arr m ρ c 1).trans (((dat3 (V7 m ρ) c).arrAt_in 1 rfl _).trans (A_eq3 (V7 m ρ) c 1))).trans ((in3_d m ρ c).trans hq)

/-! ## The stretch before the stream's fifth kernel: what it leaves in the kernel's inputs -/

set_option maxHeartbeats 2000000 in
/-- The sums per destination of the pre-scaled rows gathered along the edges. -/
theorem in4_agg (c : Dev nD) :
    (W9 m ρ c (Proc.devRef .tc main_call0_v76) : Spec.Mat 50000 128)
      = KHost.aggFn (W8 m ρ c (Proc.devRef .tc main_call0_v72_1)) (W8 m ρ c (Proc.devRef .tc main_call0_v5))
          (W8 m ρ c (Proc.devRef .tc main_call0_v6)) := by
  show StableHlo.after hostOps4 (W8 m ρ c) (Proc.devRef .tc main_call0_v76) = _
  after_results_simp
  simp only [ofBuf_toBuf]
  unfold KHost.aggFn KHost.takeFn KHost.inbFn KHost.sWI KHost.wrapFn KHost.dI
  rfl

/-- Layer 3's bias row, -/
theorem in4_b (c : Dev nD) :
    (W9 m ρ c (Proc.devRef .tc main_call0_v83) : Spec.Mat 1 128) = KHost.rowFn3 (m ((c : Thread nD τ).loc main_arg7)) := by
  rw [← KArgs.arg7_W8 m ρ c]
  show StableHlo.after hostOps4 (W8 m ρ c) (Proc.devRef .tc main_call0_v83) = _
  after_results_simp
  rfl

/-- scale row -/
theorem in4_g (c : Dev nD) :
    (W9 m ρ c (Proc.devRef .tc main_call0_v84) : Spec.Mat 1 128) = KHost.rowFn3 (m ((c : Thread nD τ).loc main_arg8)) := by
  rw [← KArgs.arg8_W8 m ρ c]
  show StableHlo.after hostOps4 (W8 m ρ c) (Proc.devRef .tc main_call0_v84) = _
  after_results_simp
  rfl

/-- and shift row. -/
theorem in4_be (c : Dev nD) :
    (W9 m ρ c (Proc.devRef .tc main_call0_v85) : Spec.Mat 1 128) = KHost.rowFn3 (m ((c : Thread nD τ).loc main_arg9)) := by
  rw [← KArgs.arg9_W8 m ρ c]
  show StableHlo.after hostOps4 (W8 m ρ c) (Proc.devRef .tc main_call0_v85) = _
  after_results_simp
  rfl

/-- The stretch writes neither the features nor the factor column. -/
theorem in4_x (c : Dev nD) : W9 m ρ c (Proc.devRef .tc main_call0_v72_0) = W8 m ρ c (Proc.devRef .tc main_call0_v72_0) := by
  stretch_keeps hostOps4
theorem in4_d (c : Dev nD) : W9 m ρ c (Proc.devRef .tc main_call0_v15) = W8 m ρ c (Proc.devRef .tc main_call0_v15) := by
  stretch_keeps hostOps4

/-! ## The fifth kernel -/

/-- THE LAST LAYER'S BOUNDARY: from `X3`, `L3`, the edge lists and the factor column when the fourth kernel has run to the
    stream's result `X4` when the fifth has. -/
theorem b4 (c : Dev nD)
    (hX : (W8 m ρ c (Proc.devRef .tc main_call0_v72_0) : Spec.Mat 50000 128) = KNames.X3 (m ((c : Thread nD τ).loc main_arg0)) (m ((c : Thread nD τ).loc main_arg2)) (m ((c : Thread nD τ).loc main_arg3)) (m ((c : Thread nD τ).loc main_arg6)) (m ((c : Thread nD τ).loc main_arg7)) (m ((c : Thread nD τ).loc main_arg8)) (m ((c : Thread nD τ).loc main_arg9)) (m ((c : Thread nD τ).loc main_arg16)))
    (hL : (W8 m ρ c (Proc.devRef .tc main_call0_v72_1) : Spec.Mat 50000 128) = KNames.L3 (m ((c : Thread nD τ).loc main_arg0)) (m ((c : Thread nD τ).loc main_arg2)) (m ((c : Thread nD τ).loc main_arg3)) (m ((c : Thread nD τ).loc main_arg6)) (m ((c : Thread nD τ).loc main_arg7)) (m ((c : Thread nD τ).loc main_arg8)) (m ((c : Thread nD τ).loc main_arg9)) (m ((c : Thread nD τ).loc main_arg16)))
    (hs : (W8 m ρ c (Proc.devRef .tc main_call0_v5) : IVec S850000 32) = KHost.sFn (m ((c : Thread nD τ).loc main_arg16)))
    (hd : (W8 m ρ c (Proc.devRef .tc main_call0_v6) : IVec S850000 32) = KHost.dFn (m ((c : Thread nD τ).loc main_arg16)))
    (hq : (W8 m ρ c (Proc.devRef .tc main_call0_v15) : Spec.Mat 50000 1) = KHost.dinvFn (KHost.dFn (m ((c : Thread nD τ).loc main_arg16)))) :
    (W10 m ρ c (Proc.devRef .tc main_call0_v86) : Spec.Mat 50000 128) = KNames.X4 (m ((c : Thread nD τ).loc main_arg0)) (m ((c : Thread nD τ).loc main_arg2)) (m ((c : Thread nD τ).loc main_arg3)) (m ((c : Thread nD τ).loc main_arg6)) (m ((c : Thread nD τ).loc main_arg7)) (m ((c : Thread nD τ).loc main_arg8)) (m ((c : Thread nD τ).loc main_arg9)) (m ((c : Thread nD τ).loc main_arg16)) := by
  have eAgg : Val4.aAgg (V9 m ρ) c = KHost.aggFn (KNames.L3 (m ((c : Thread nD τ).loc main_arg0)) (m ((c : Thread nD τ).loc main_arg2)) (m ((c : Thread nD τ).loc main_arg3)) (m ((c : Thread nD τ).loc main_arg6)) (m ((c : Thread nD τ).loc main_arg7)) (m ((c : Thread nD τ).loc main_arg8)) (m ((c : Thread nD τ).loc main_arg9)) (m ((c : Thread nD τ).loc main_arg16))) (KHost.sFn (m ((c : Thread nD τ).loc main_arg16))) (KHost.dFn (m ((c : Thread nD τ).loc main_arg16))) := by
    show (W9 m ρ c (Proc.devRef .tc main_call0_v76) : Spec.Mat 50000 128) = _
    rw [in4_agg, hL, hs, hd]
  have eD : Val4.aD (V9 m ρ) c = KNames.D2 (m ((c : Thread nD τ).loc main_arg16)) := (in4_d m ρ c).trans hq
  have eB : Val4.aB (V9 m ρ) c = KHost.rowFn3 (m ((c : Thread nD τ).loc main_arg7)) := in4_b m ρ c
  have eG : Val4.aG (V9 m ρ) c = KHost.rowFn3 (m ((c : Thread nD τ).loc main_arg8)) := in4_g m ρ c
  have eBe : Val4.aBe (V9 m ρ) c = KHost.rowFn3 (m ((c : Thread nD τ).loc main_arg9)) := in4_be m ρ c
  have eX : Val4.aX (V9 m ρ) c = KNames.X3 (m ((c : Thread nD τ).loc main_arg0)) (m ((c : Thread nD τ).loc main_arg2)) (m ((c : Thread nD τ).loc main_arg3)) (m ((c : Thread nD τ).loc main_arg6)) (m ((c : Thread nD τ).loc main_arg7)) (m ((c : Thread nD τ).loc main_arg8)) (m ((c : Thread nD τ).loc main_arg9)) (m ((c : Thread nD τ).loc main_arg16)) := (in4_x m ρ c).trans hX
  refine ((W10_arr m ρ c 6).trans (Val4.final_newx (V9 m ρ) c)).trans ?_
  rw [eAgg, eD, eB, eG, eBe, eX]
  rfl

/-- The two boundaries in one: from the third kernel's exit to the stream's result. -/
theorem b34 (c : Dev nD)
    (hX : (W6 m ρ c (Proc.devRef .tc main_call0_v55_0) : Spec.Mat 50000 128) = KNames.X2 (m ((c : Thread nD τ).loc main_arg0)) (m ((c : Thread nD τ).loc main_arg2)) (m ((c : Thread nD τ).loc main_arg3)) (m ((c : Thread nD τ).loc main_arg6)) (m ((c : Thread nD τ).loc main_arg7)) (m ((c : Thread nD τ).loc main_arg8)) (m ((c : Thread nD τ).loc main_arg9)) (m ((c : Thread nD τ).loc main_arg16)))
    (hL : (W6 m ρ c (Proc.devRef .tc main_call0_v55_1) : Spec.Mat 50000 128) = KNames.L2 (m ((c : Thread nD τ).loc main_arg0)) (m ((c : Thread nD τ).loc main_arg2)) (m ((c : Thread nD τ).loc main_arg3)) (m ((c : Thread nD τ).loc main_arg6)) (m ((c : Thread nD τ).loc main_arg7)) (m ((c : Thread nD τ).loc main_arg8)) (m ((c : Thread nD τ).loc main_arg9)) (m ((c : Thread nD τ).loc main_arg16)))
    (hs : (W6 m ρ c (Proc.devRef .tc main_call0_v5) : IVec S850000 32) = KHost.sFn (m ((c : Thread nD τ).loc main_arg16)))
    (hd : (W6 m ρ c (Proc.devRef .tc main_call0_v6) : IVec S850000 32) = KHost.dFn (m ((c : Thread nD τ).loc main_arg16)))
    (hq : (W6 m ρ c (Proc.devRef .tc main_call0_v15) : Spec.Mat 50000 1) = KHost.dinvFn (KHost.dFn (m ((c : Thread nD τ).loc main_arg16)))) :
    (W10 m ρ c (Proc.devRef .tc main_call0_v86) : Spec.Mat 50000 128) = KNames.X4 (m ((c : Thread nD τ).loc main_arg0)) (m ((c : Thread nD τ).loc main_arg2)) (m ((c : Thread nD τ).loc main_arg3)) (m ((c : Thread nD τ).loc main_arg6)) (m ((c : Thread nD τ).loc main_arg7)) (m ((c : Thread nD τ).loc main_arg8)) (m ((c : Thread nD τ).loc main_arg9)) (m ((c : Thread nD τ).loc main_arg16)) := by
  obtain ⟨h1, h2, h3, h4, h5⟩ := b3 m ρ c hX hL hs hd hq
  exact b4 m ρ c h1 h2 h3 h4 h5

end Cert.KernelIdeal.KChainR2

end
-- ==== Proof.Val5.lean ====
/-
  THE VALUE OF A STREAM'S OPENING KERNEL REGION: the dimension-reducing projection and the first layer's scaled product.

  The region's kernel walks the 50000 rows of the stream's node features in ten blocks of 5000. On a block it forms
      x0 = x · Wred + bred          (a 5000×256 by 256×128 product, plus the bias row on every row)
      lin = (x0 · W) · dinv          (a 5000×128 by 128×128 product, each row scaled by its entry of the column dinv)
  and writes both back to rows 5000·t … 5000·t + 4999 of the two result arrays. Read at the ideal values the format
  changes are the identity, so each block is the same index-by-index formula as the whole array's: block t of
  Spec.affine x Wred bred, and block t of Spec.lin (Spec.affine x Wred bred) W dinv. The ten blocks tile the arrays
  (row r lies in block r / 5000), so after the region the first result array IS Spec.affine … and the second IS
  Spec.lin …, as functions of the arrays the region finds (the parameter V).

  Order: the two payloads at an entry; each window's block at a point read as rows of its array; the payloads of those
  blocks; what a point writes back; the cover; the two arrays after the region.
-/
import proofs.«410635_j2241972928706_3_alg».proof.Proof.Gen.KernelIdeal.Frame
import proofs.«410635_j2241972928706_3_alg».proof.Proof.Spec
import proofs.«410635_j2241972928706_3_alg».proof.Proof.LibBlockOps
import Idealize.ShloMosaic.Lib.Pipeline.Value
import Idealize.ShloMosaic.Lib.ValueIdx
import Idealize.ShloMosaic.Lib.ValueLayout

noncomputable section

namespace Cert.KernelIdeal.Val5

open Cert.KernelIdeal Cert.KernelIdeal.Gen Idealize.ShloMosaic Idealize.ShloMosaic.ValueIdx
open Cert

/-- The first payload at an entry: the block product's entry plus the bias row's. -/
theorem pay1_apply (v0 : FVec Ideal S5000x256 .f32) (v2 : FVec Ideal S256x128 .bf16) (v5 : FVec Ideal S1x128 .f32)
    (p : Fin 5000) (q : Fin 128) :
    k5_pay1 (F := Ideal) v0 v2 v5 (ix2 p q) = Spec.mm v0 v2 p q + v5 (ix2 (0 : Fin 1) q) := by
  unfold k5_pay1
  show addf (F := Ideal) (matmul dot_S5000x256_S256x128_S5000x128_1_0_0_1_n_n none (truncf .bf16 v0 bitsLt_bf16_f32)
      (shapeCast S256x128 v2 shapeCasts_S256x128_S256x128) (constant (F := Ideal) S5000x128 .f32 0x00000000#32))
    (broadcastTo S5000x128 (shapeCast S1x128 v5 shapeCasts_S1x128_S1x128) broadcasts_S1x128_S5000x128) (ix2 p q) = _
  rw [shapeCast_self, shapeCast_self, addf_apply, broadcastTo_1b_ab_apply]
  congr 1
  exact BlockOps.matmul_zero_apply dot_S5000x256_S256x128_S5000x128_1_0_0_1_n_n_wf none
    (truncf .bf16 v0 bitsLt_bf16_f32) v2 p q

/-- The second payload at an entry: the product of the first payload's block by the weight, scaled by the column. -/
theorem pay2_apply (v0 : FVec Ideal S5000x256 .f32) (v2 : FVec Ideal S256x128 .bf16) (v5 : FVec Ideal S1x128 .f32)
    (v11 : FVec Ideal S128x128 .bf16) (v14 : FVec Ideal S5000x1 .f32) (p : Fin 5000) (q : Fin 128) :
    k5_pay2 (F := Ideal) v0 v2 v5 v11 v14 (ix2 p q)
      = Spec.mm (k5_pay1 (F := Ideal) v0 v2 v5) v11 p q * v14 (ix2 p (0 : Fin 1)) := by
  unfold k5_pay2
  show mulf (F := Ideal) (matmul dot_S5000x128_S128x128_S5000x128_1_0_0_1_n_n none
      (truncf .bf16 (k5_pay1 (F := Ideal) v0 v2 v5) bitsLt_bf16_f32)
      (shapeCast S128x128 v11 shapeCasts_S128x128_S128x128) (constant (F := Ideal) S5000x128 .f32 0x00000000#32))
    (broadcastTo S5000x128 (shapeCast S5000x1 v14 shapeCasts_S5000x1_S5000x1) broadcasts_S5000x1_S5000x128) (ix2 p q) = _
  rw [shapeCast_self, shapeCast_self, mulf_apply, BlockOps.broadcastTo_a1_ab_apply]
  congr 1
  exact BlockOps.matmul_zero_apply dot_S5000x128_S128x128_S5000x128_1_0_0_1_n_n_wf none
    (truncf .bf16 (k5_pay1 (F := Ideal) v0 v2 v5) bitsLt_bf16_f32) v11 p q

open Idealize.ShloMosaic.TcCoe Idealize.SL.Sem
open Idealize.ShloMosaic.Pipeline (Dat)

theorem hz : (![0, 0] : Fin 2 → Nat) = fun _ => 0 := funext fun a => by fin_cases a <;> rfl

/-- The printed index maps, decided over the grid: a row-blocked window's block index is (the point, 0); a whole-array
    window's is (0, 0). -/
theorem idx_facts : ∀ t : Fin cfg5.N,
    win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = t.val ∧ win5_4.index t (1 : Fin 2) = 0
    ∧ win5_5.index t (0 : Fin 2) = t.val ∧ win5_5.index t (1 : Fin 2) = 0
    ∧ win5_6.index t (0 : Fin 2) = t.val ∧ win5_6.index t (1 : Fin 2) = 0 :=
  (by decide +kernel : ∀ t : Fin grid5.N, _)

theorem hN : cfg5.N = 10 := N_5

/-- The row of the array under row p of point t's block. -/
abbrev rowOf (t : Fin cfg5.N) (p : Fin 5000) : Fin 50000 :=
  ⟨t.val * 5000 + p.val, by have := t.isLt; have := hN; have := p.isLt; omega⟩

/-- The first input read through point t's block: rows 5000·t … 5000·t + 4999. -/
theorem blk0_apply (B : S50000x256.Idx → Elt Ideal .f32) (t : Fin cfg5.N) (p : Fin 5000) (k : Fin 256) :
    ((cfg5.win 0).blk t).view.read (Elt Ideal) B (ix2 p k) = B (ix2 (rowOf t p) k) := by
  rw [View.read_apply]
  show B _ = B _
  congr 1
  funext a; apply Fin.ext
  obtain ⟨e0, e1, -⟩ := idx_facts t
  match a with
  | ⟨0, _⟩ => show win5_0.index t (0 : Fin 2) * 5000 + 1 * p.val = t.val * 5000 + p.val; rw [e0]; omega
  | ⟨1, _⟩ => show win5_0.index t (1 : Fin 2) * 256 + 1 * k.val = k.val; rw [e1]; omega

/-- The first weight read through any point's block: the whole array. -/
theorem blk1_apply (B : S256x128.Idx → Elt Ideal .bf16) (t : Fin cfg5.N) (k : Fin 256) (q : Fin 128) :
    ((cfg5.win 1).blk t).view.read (Elt Ideal) B (ix2 k q) = B (ix2 k q) := by
  rw [View.read_apply]
  show B _ = B _
  congr 1
  funext a; apply Fin.ext
  obtain ⟨-, -, e0, e1, -⟩ := idx_facts t
  match a with
  | ⟨0, _⟩ => show win5_1.index t (0 : Fin 2) * 256 + 1 * k.val = k.val; rw [e0]; omega
  | ⟨1, _⟩ => show win5_1.index t (1 : Fin 2) * 128 + 1 * q.val = q.val; rw [e1]; omega

/-- The bias row read through any point's block: the whole array. -/
theorem blk2_apply (B : S1x128.Idx → Elt Ideal .f32) (t : Fin cfg5.N) (z : Fin 1) (q : Fin 128) :
    ((cfg5.win 2).blk t).view.read (Elt Ideal) B (ix2 z q) = B (ix2 z q) := by
  rw [View.read_apply]
  show B _ = B _
  congr 1
  funext a; apply Fin.ext
  obtain ⟨-, -, -, -, e0, e1, -⟩ := idx_facts t
  match a with
  | ⟨0, _⟩ => show win5_2.index t (0 : Fin 2) * 1 + 1 * z.val = z.val; rw [e0]; omega
  | ⟨1, _⟩ => show win5_2.index t (1 : Fin 2) * 128 + 1 * q.val = q.val; rw [e1]; omega

/-- The second weight read through any point's block: the whole array. -/
theorem blk3_apply (B : S128x128.Idx → Elt Ideal .bf16) (t : Fin cfg5.N) (k : Fin 128) (q : Fin 128) :
    ((cfg5.win 3).blk t).view.read (Elt Ideal) B (ix2 k q) = B (ix2 k q) := by
  rw [View.read_apply]
  show B _ = B _
  congr 1
  funext a; apply Fin.ext
  obtain ⟨-, -, -, -, -, -, e0, e1, -⟩ := idx_facts t
  match a with
  | ⟨0, _⟩ => show win5_3.index t (0 : Fin 2) * 128 + 1 * k.val = k.val; rw [e0]; omega
  | ⟨1, _⟩ => show win5_3.index t (1 : Fin 2) * 128 + 1 * q.val = q.val; rw [e1]; omega

/-- The scaling column read through point t's block: rows 5000·t … 5000·t + 4999. -/
theorem blk4_apply (B : S50000x1.Idx → Elt Ideal .f32) (t : Fin cfg5.N) (p : Fin 5000) (z : Fin 1) :
    ((cfg5.win 4).blk t).view.read (Elt Ideal) B (ix2 p z) = B (ix2 (rowOf t p) z) := by
  rw [View.read_apply]
  show B _ = B _
  congr 1
  funext a; apply Fin.ext
  obtain ⟨-, -, -, -, -, -, -, -, e0, e1, -⟩ := idx_facts t
  match a with
  | ⟨0, _⟩ => show win5_4.index t (0 : Fin 2) * 5000 + 1 * p.val = t.val * 5000 + p.val; rw [e0]; omega
  | ⟨1, _⟩ => show win5_4.index t (1 : Fin 2) * 1 + 1 * z.val = z.val; rw [e1]; omega

/-- An array read through the first output's block at point t: rows 5000·t … 5000·t + 4999. -/
theorem blk5_apply (B : S50000x128.Idx → Elt Ideal .f32) (t : Fin cfg5.N) (p : Fin 5000) (q : Fin 128) :
    ((cfg5.win 5).blk t).view.read (Elt Ideal) B (ix2 p q) = B (ix2 (rowOf t p) q) := by
  rw [View.read_apply]
  show B _ = B _
  congr 1
  funext a; apply Fin.ext
  obtain ⟨-, -, -, -, -, -, -, -, -, -, e0, e1, -⟩ := idx_facts t
  match a with
  | ⟨0, _⟩ => show win5_5.index t (0 : Fin 2) * 5000 + 1 * p.val = t.val * 5000 + p.val; rw [e0]; omega
  | ⟨1, _⟩ => show win5_5.index t (1 : Fin 2) * 128 + 1 * q.val = q.val; rw [e1]; omega

/-- An array read through the second output's block at point t: rows 5000·t … 5000·t + 4999. -/
theorem blk6_apply (B : S50000x128.Idx → Elt Ideal .f32) (t : Fin cfg5.N) (p : Fin 5000) (q : Fin 128) :
    ((cfg5.win 6).blk t).view.read (Elt Ideal) B (ix2 p q) = B (ix2 (rowOf t p) q) := by
  rw [View.read_apply]
  show B _ = B _
  congr 1
  funext a; apply Fin.ext
  obtain ⟨-, -, -, -, -, -, -, -, -, -, -, -, e0, e1⟩ := idx_facts t
  match a with
  | ⟨0, _⟩ => show win5_6.index t (0 : Fin 2) * 5000 + 1 * p.val = t.val * 5000 + p.val; rw [e0]; omega
  | ⟨1, _⟩ => show win5_6.index t (1 : Fin 2) * 128 + 1 * q.val = q.val; rw [e1]; omega

/-- The first payload of the blocks at point t of arrays x, w, b is the block of the projection of x. -/
theorem pay1_block (x : Spec.Mat 50000 256) (w : Spec.Mat 256 128) (b : Spec.Mat 1 128) (t : Fin cfg5.N)
    (v0 : FVec Ideal S5000x256 .f32) (v2 : FVec Ideal S256x128 .bf16) (v5 : FVec Ideal S1x128 .f32)
    (h0 : ∀ p k, v0 (ix2 p k) = x (ix2 (rowOf t p) k)) (h2 : ∀ k q, v2 (ix2 k q) = w (ix2 k q))
    (h5 : ∀ z q, v5 (ix2 z q) = b (ix2 z q)) (p : Fin 5000) (q : Fin 128) :
    k5_pay1 (F := Ideal) v0 v2 v5 (ix2 p q) = Spec.affine x w b (ix2 (rowOf t p) q) := by
  rw [pay1_apply]
  show Spec.mm v0 v2 p q + _ = Spec.mm x w (rowOf t p) q + b (ix2 (0 : Fin 1) q)
  unfold Spec.mm
  rw [h5]
  congr 1
  exact Finset.sum_congr rfl fun k _ => by rw [h0, h2]

/-- The second payload of the blocks at point t is the block of the scaled product of the projection. -/
theorem pay2_block (x : Spec.Mat 50000 256) (w : Spec.Mat 256 128) (b : Spec.Mat 1 128) (w' : Spec.Mat 128 128)
    (d : Spec.Mat 50000 1) (t : Fin cfg5.N)
    (v0 : FVec Ideal S5000x256 .f32) (v2 : FVec Ideal S256x128 .bf16) (v5 : FVec Ideal S1x128 .f32)
    (v11 : FVec Ideal S128x128 .bf16) (v14 : FVec Ideal S5000x1 .f32)
    (h0 : ∀ p k, v0 (ix2 p k) = x (ix2 (rowOf t p) k)) (h2 : ∀ k q, v2 (ix2 k q) = w (ix2 k q))
    (h5 : ∀ z q, v5 (ix2 z q) = b (ix2 z q)) (h11 : ∀ k q, v11 (ix2 k q) = w' (ix2 k q))
    (h14 : ∀ p z, v14 (ix2 p z) = d (ix2 (rowOf t p) z)) (p : Fin 5000) (q : Fin 128) :
    k5_pay2 (F := Ideal) v0 v2 v5 v11 v14 (ix2 p q) = Spec.lin (Spec.affine x w b) w' d (ix2 (rowOf t p) q) := by
  rw [pay2_apply]
  show Spec.mm (k5_pay1 (F := Ideal) v0 v2 v5) v11 p q * _
    = Spec.mm (Spec.affine x w b) w' (rowOf t p) q * d (ix2 (rowOf t p) (0 : Fin 1))
  unfold Spec.mm
  rw [h14]
  congr 1
  exact Finset.sum_congr rfl fun k _ => by rw [pay1_block x w b t v0 v2 v5 h0 h2 h5, h11]

variable (V : (c : Dev nD) → (b : Ref sig .tc) → Buf (Elt Ideal) ((c : Thread nD τ).loc b))

/-- The node features as the region finds them. -/
abbrev aX (c : Dev nD) : Spec.Mat 50000 256 := V c (Pipeline.arrRef spec5 0)
/-- The reducing weight. -/
abbrev aWred (c : Dev nD) : Spec.Mat 256 128 := V c (Pipeline.arrRef spec5 1)
/-- The reducing bias row. -/
abbrev aBred (c : Dev nD) : Spec.Mat 1 128 := V c (Pipeline.arrRef spec5 2)
/-- The first layer's weight. -/
abbrev aW (c : Dev nD) : Spec.Mat 128 128 := V c (Pipeline.arrRef spec5 3)
/-- The normalisation column. -/
abbrev aD (c : Dev nD) : Spec.Mat 50000 1 := V c (Pipeline.arrRef spec5 4)

/-- What point t leaves in the first output's buffer is block t of the projection. -/
theorem out5_eq (c : Dev nD) (t : Fin cfg5.N) :
    (cfg5.win 5).cut (grid5.coords t) (out5_5 (F := Ideal) (iblk5 V c 0 t) (iblk5 V c 1 t) (iblk5 V c 2 t) (iblk5 V c 3 t) (iblk5 V c 4 t))
      = ((cfg5.win 5).blk t).view.read (Elt Ideal) (Spec.affine (aX V c) (aWred V c) (aBred V c)) := by
  unfold out5_5
  rw [View.canon_unit_zero hz]
  simp only [View.ld_unit_zero (S := S5000x256) hz, View.ld_unit_zero (S := S256x128) hz, View.ld_unit_zero (S := S1x128) hz]
  refine funext fun (j : S5000x128.Idx) => ?_
  obtain ⟨p, q, rfl⟩ : ∃ (p : Fin 5000) (q : Fin 128), j = ix2 p q := ⟨j 0, j 1, eq_ix2 j⟩
  refine Eq.trans ?_ (blk5_apply _ t p q).symm
  exact pay1_block (aX V c) (aWred V c) (aBred V c) t _ _ _ (fun p k => blk0_apply _ t p k)
    (fun k q => blk1_apply _ t k q) (fun z q => blk2_apply _ t z q) p q

/-- What point t leaves in the second output's buffer is block t of the scaled product. -/
theorem out6_eq (c : Dev nD) (t : Fin cfg5.N) :
    (cfg5.win 6).cut (grid5.coords t) (out5_6 (F := Ideal) (iblk5 V c 0 t) (iblk5 V c 1 t) (iblk5 V c 2 t) (iblk5 V c 3 t) (iblk5 V c 4 t))
      = ((cfg5.win 6).blk t).view.read (Elt Ideal)
          (Spec.lin (Spec.affine (aX V c) (aWred V c) (aBred V c)) (aW V c) (aD V c)) := by
  unfold out5_6
  rw [View.canon_unit_zero hz]
  simp only [View.ld_unit_zero (S := S5000x256) hz, View.ld_unit_zero (S := S256x128) hz, View.ld_unit_zero (S := S1x128) hz,
    View.ld_unit_zero (S := S128x128) hz, View.ld_unit_zero (S := S5000x1) hz]
  refine funext fun (j : S5000x128.Idx) => ?_
  obtain ⟨p, q, rfl⟩ : ∃ (p : Fin 5000) (q : Fin 128), j = ix2 p q := ⟨j 0, j 1, eq_ix2 j⟩
  refine Eq.trans ?_ (blk6_apply _ t p q).symm
  exact pay2_block (aX V c) (aWred V c) (aBred V c) (aW V c) (aD V c) t _ _ _ _ _ (fun p k => blk0_apply _ t p k)
    (fun k q => blk1_apply _ t k q) (fun z q => blk2_apply _ t z q) (fun k q => blk3_apply _ t k q)
    (fun p z => blk4_apply _ t p z) p q

/-- An index of the array is in point t's block of the first output iff each coordinate is in the block's range. -/
theorem mem_blk5 (t : Fin cfg5.N) (i : S50000x128.Idx) :
    i ∈ ((cfg5.win 5).blk t).view.set ↔ ∀ a : Fin 2, win5_5.index t a * S5000x128.size a ≤ (i a).val ∧ (i a).val < win5_5.index t a * S5000x128.size a + S5000x128.size a := by
  show i ∈ ((View.whole (Pipeline.arrRef spec5 5)).slice (win5_5.rect t)).set ↔ _
  rw [View.set_slice_whole, Rect.mem_set_unit]
  exact Iff.rfl

/-- The same for the second output. -/
theorem mem_blk6 (t : Fin cfg5.N) (i : S50000x128.Idx) :
    i ∈ ((cfg5.win 6).blk t).view.set ↔ ∀ a : Fin 2, win5_6.index t a * S5000x128.size a ≤ (i a).val ∧ (i a).val < win5_6.index t a * S5000x128.size a + S5000x128.size a := by
  show i ∈ ((View.whole (Pipeline.arrRef spec5 6)).slice (win5_6.rect t)).set ↔ _
  rw [View.set_slice_whole, Rect.mem_set_unit]
  exact Iff.rfl

/-- The point whose block holds row r: r / 5000. -/
abbrev pointOf (i : S50000x128.Idx) : Fin cfg5.N :=
  ⟨(i 0).val / 5000, by have := idx2_lt0 i; have := hN; omega⟩

/-- Every index of the first output's array is in the block of the point its row names. -/
theorem cover5 (i : S50000x128.Idx) : ∃ t : Fin cfg5.N, (cfg5.win 5).flush t = true ∧ i ∈ ((cfg5.win 5).blk t).view.set := by
  refine ⟨pointOf i, flush5_5 _, ?_⟩
  rw [mem_blk5]
  obtain ⟨-, -, -, -, -, -, -, -, -, -, e0, e1, -⟩ := idx_facts (pointOf i)
  have h0 : (i 0).val < 50000 := idx2_lt0 i
  have h1 : (i 1).val < 128 := idx2_lt1 i
  intro a
  match a with
  | ⟨0, _⟩ =>
    show win5_5.index (pointOf i) (0 : Fin 2) * 5000 ≤ (i 0).val ∧ (i 0).val < win5_5.index (pointOf i) (0 : Fin 2) * 5000 + 5000
    rw [e0]; show (i 0).val / 5000 * 5000 ≤ (i 0).val ∧ (i 0).val < (i 0).val / 5000 * 5000 + 5000; omega
  | ⟨1, _⟩ =>
    show win5_5.index (pointOf i) (1 : Fin 2) * 128 ≤ (i 1).val ∧ (i 1).val < win5_5.index (pointOf i) (1 : Fin 2) * 128 + 128
    rw [e1]; omega

/-- The same for the second output. -/
theorem cover6 (i : S50000x128.Idx) : ∃ t : Fin cfg5.N, (cfg5.win 6).flush t = true ∧ i ∈ ((cfg5.win 6).blk t).view.set := by
  refine ⟨pointOf i, flush5_6 _, ?_⟩
  rw [mem_blk6]
  obtain ⟨-, -, -, -, -, -, -, -, -, -, -, -, e0, e1⟩ := idx_facts (pointOf i)
  have h0 : (i 0).val < 50000 := idx2_lt0 i
  have h1 : (i 1).val < 128 := idx2_lt1 i
  intro a
  match a with
  | ⟨0, _⟩ =>
    show win5_6.index (pointOf i) (0 : Fin 2) * 5000 ≤ (i 0).val ∧ (i 0).val < win5_6.index (pointOf i) (0 : Fin 2) * 5000 + 5000
    rw [e0]; show (i 0).val / 5000 * 5000 ≤ (i 0).val ∧ (i 0).val < (i 0).val / 5000 * 5000 + 5000; omega
  | ⟨1, _⟩ =>
    show win5_6.index (pointOf i) (1 : Fin 2) * 128 ≤ (i 1).val ∧ (i 1).val < win5_6.index (pointOf i) (1 : Fin 2) * 128 + 128
    rw [e1]; omega

/-- WHAT POINT t WRITES BACK to the first result array is block t of the projection. -/
theorem flushed_x0 (c : Dev nD) (t : Fin cfg5.N) :
    (dat5 (F := Ideal) V c).flushed 5 t
      = ((cfg5.win 5).blk t).view.read (Elt Ideal) (Spec.affine (aX V c) (aWred V c) (aBred V c)) := by
  show (cfg5.win 5).cut (grid5.coords t) ((dat5 (F := Ideal) V c).after 5 t) = _
  rw [after5_5]
  exact out5_eq V c t

/-- WHAT POINT t WRITES BACK to the second result array is block t of the scaled product. -/
theorem flushed_lin (c : Dev nD) (t : Fin cfg5.N) :
    (dat5 (F := Ideal) V c).flushed 6 t
      = ((cfg5.win 6).blk t).view.read (Elt Ideal)
          (Spec.lin (Spec.affine (aX V c) (aWred V c) (aBred V c)) (aW V c) (aD V c)) := by
  show (cfg5.win 6).cut (grid5.coords t) ((dat5 (F := Ideal) V c).after 6 t) = _
  rw [after5_6]
  exact out6_eq V c t

/-- THE FIRST RESULT ARRAY after the region: the projection of the node features, x · Wred + bred. -/
theorem final_x0 (c : Dev nD) :
    (dat5 (F := Ideal) V c).arrAt 5 cfg5.N = Spec.affine (aX V c) (aWred V c) (aBred V c) :=
  (dat5 (F := Ideal) V c).arrAt_eq_of_cover 5 (Spec.affine (aX V c) (aWred V c) (aBred V c))
    (fun t _ => flushed_x0 V c t) cover5

/-- THE SECOND RESULT ARRAY after the region: (x0 · W) scaled row by row by dinv, x0 the projection. -/
theorem final_lin (c : Dev nD) :
    (dat5 (F := Ideal) V c).arrAt 6 cfg5.N
      = Spec.lin (Spec.affine (aX V c) (aWred V c) (aBred V c)) (aW V c) (aD V c) :=
  (dat5 (F := Ideal) V c).arrAt_eq_of_cover 6
    (Spec.lin (Spec.affine (aX V c) (aWred V c) (aBred V c)) (aW V c) (aD V c))
    (fun t _ => flushed_lin V c t) cover6

end Cert.KernelIdeal.Val5

end
-- ==== Proof.KWalkV.lean ====
/-
  Buffers the second stream's stretches leave alone.

  The program's buffers are numbered in the order its values are defined, and a stretch of host operations writes only
  the values it defines: a contiguous run of numbers above every earlier one. So a buffer numbered below a stretch's
  first value keeps its contents through the stretch (keep5 … keep11), and a buffer that is no window of a kernel region
  keeps its contents through the region. Chaining these, an argument of the program (the lowest numbers) holds at every
  boundary from the tenth on what it holds at the end, which is what it held at launch; the edge lists and the
  normalisation column computed before the second stream's first kernel hold at every later boundary of the stream
  what they held there; and the first stream's result is carried unchanged through the whole second stream.
-/
import proofs.«410635_j2241972928706_3_alg».proof.Proof.Gen.KernelIdeal.Frame
import Idealize.ShloMosaic.Lib.StableHlo.Run
import Idealize.ShloMosaic.PureOps.Ideal

noncomputable section

namespace Cert.KernelIdeal.KWalkV

open Cert.KernelIdeal Cert.KernelIdeal.Gen Idealize.ShloMosaic
open Idealize.ShloMosaic.TcCoe Idealize.SL.Sem
open Idealize.ShloMosaic.Pipeline (Dat)

variable (m : (ℓ : Loc nD τ sig) → Buf (Elt Ideal) ℓ) (ρ : Dev nD → PrngReg)

/-! ## A stretch writes only numbers from its first value on -/

/-- The stretch before the stream's first kernel defines values 207 … 233. -/
theorem keep5 (V : Valuation τ sig (Elt Ideal)) (r : Ref sig .tc) (h : r.idx.val < 207) :
    StableHlo.after (hostOps5 (F := Ideal)) V (Proc.devRef .tc r) = V (Proc.devRef .tc r) :=
  StableHlo.after_of_forall_not_mem (b := Proc.devRef .tc r) _ _ (List.forall_iff_forall_mem.mp (by
    simp only [hostOps5, List.Forall, StableHlo.nullary_writes, StableHlo.unary_writes, StableHlo.binary_writes,
      StableHlo.ternary_writes, StableHlo.reshape_writes, Finset.mem_singleton]
    repeat' apply And.intro
    all_goals exact StableHlo.devRef_ne_of_ne (fun e => absurd (e ▸ h) (by decide))))

/-- The stretch before the second kernel defines values from 236 on, -/
theorem keep6 (V : Valuation τ sig (Elt Ideal)) (r : Ref sig .tc) (h : r.idx.val < 236) :
    StableHlo.after (hostOps6 (F := Ideal)) V (Proc.devRef .tc r) = V (Proc.devRef .tc r) :=
  StableHlo.after_of_forall_not_mem (b := Proc.devRef .tc r) _ _ (List.forall_iff_forall_mem.mp (by
    simp only [hostOps6, List.Forall, StableHlo.nullary_writes, StableHlo.unary_writes, StableHlo.binary_writes,
      StableHlo.ternary_writes, StableHlo.reshape_writes, Finset.mem_singleton]
    repeat' apply And.intro
    all_goals exact StableHlo.devRef_ne_of_ne (fun e => absurd (e ▸ h) (by decide))))

/-- the one before the third from 277 on, -/
theorem keep7 (V : Valuation τ sig (Elt Ideal)) (r : Ref sig .tc) (h : r.idx.val < 277) :
    StableHlo.after (hostOps7 (F := Ideal)) V (Proc.devRef .tc r) = V (Proc.devRef .tc r) :=
  StableHlo.after_of_forall_not_mem (b := Proc.devRef .tc r) _ _ (List.forall_iff_forall_mem.mp (by
    simp only [hostOps7, List.Forall, StableHlo.nullary_writes, StableHlo.unary_writes, StableHlo.binary_writes,
      StableHlo.ternary_writes, StableHlo.reshape_writes, Finset.mem_singleton]
    repeat' apply And.intro
    all_goals exact StableHlo.devRef_ne_of_ne (fun e => absurd (e ▸ h) (by decide))))

/-- the one before the fourth from 318 on, -/
theorem keep8 (V : Valuation τ sig (Elt Ideal)) (r : Ref sig .tc) (h : r.idx.val < 318) :
    StableHlo.after (hostOps8 (F := Ideal)) V (Proc.devRef .tc r) = V (Proc.devRef .tc r) :=
  StableHlo.after_of_forall_not_mem (b := Proc.devRef .tc r) _ _ (List.forall_iff_forall_mem.mp (by
    simp only [hostOps8, List.Forall, StableHlo.nullary_writes, StableHlo.unary_writes, StableHlo.binary_writes,
      StableHlo.ternary_writes, StableHlo.reshape_writes, Finset.mem_singleton]
    repeat' apply And.intro
    all_goals exact StableHlo.devRef_ne_of_ne (fun e => absurd (e ▸ h) (by decide))))

/-- the one before the fifth from 359 on. -/
theorem keep9 (V : Valuation τ sig (Elt Ideal)) (r : Ref sig .tc) (h : r.idx.val < 359) :
    StableHlo.after (hostOps9 (F := Ideal)) V (Proc.devRef .tc r) = V (Proc.devRef .tc r) :=
  StableHlo.after_of_forall_not_mem (b := Proc.devRef .tc r) _ _ (List.forall_iff_forall_mem.mp (by
    simp only [hostOps9, List.Forall, StableHlo.nullary_writes, StableHlo.unary_writes, StableHlo.binary_writes,
      StableHlo.ternary_writes, StableHlo.reshape_writes, Finset.mem_singleton]
    repeat' apply And.intro
    all_goals exact StableHlo.devRef_ne_of_ne (fun e => absurd (e ▸ h) (by decide))))

/-- The last two stretches write no argument of the program (numbers 0 … 17). -/
theorem keep10 (V : Valuation τ sig (Elt Ideal)) (r : Ref sig .tc) (h : r.idx.val < 18) :
    StableHlo.after (hostOps10 (F := Ideal)) V (Proc.devRef .tc r) = V (Proc.devRef .tc r) :=
  StableHlo.after_of_forall_not_mem (b := Proc.devRef .tc r) _ _ (List.forall_iff_forall_mem.mp (by
    simp only [hostOps10, List.Forall, StableHlo.nullary_writes, StableHlo.unary_writes, StableHlo.binary_writes,
      StableHlo.ternary_writes, StableHlo.reshape_writes, Finset.mem_singleton]
    repeat' apply And.intro
    all_goals exact StableHlo.devRef_ne_of_ne (fun e => absurd (e ▸ h) (by decide))))

theorem keep11 (V : Valuation τ sig (Elt Ideal)) (r : Ref sig .tc) (h : r.idx.val < 18) :
    StableHlo.after (hostOps11 (F := Ideal)) V (Proc.devRef .tc r) = V (Proc.devRef .tc r) :=
  StableHlo.after_of_forall_not_mem (b := Proc.devRef .tc r) _ _ (List.forall_iff_forall_mem.mp (by
    simp only [hostOps11, List.Forall, StableHlo.nullary_writes, StableHlo.unary_writes, StableHlo.binary_writes,
      StableHlo.ternary_writes, StableHlo.reshape_writes, Finset.mem_singleton]
    repeat' apply And.intro
    all_goals exact StableHlo.devRef_ne_of_ne (fun e => absurd (e ▸ h) (by decide))))

/-! ## From a boundary to the end, for a buffer no stretch and no region on the way writes -/

section Forward
variable (c : Dev nD) (r : Ref sig .tc)

theorem fwd20 (h : r.idx.val < 18) (h10 : ∀ w, Pipeline.arrRef spec10 w ≠ r) :
    W20 m ρ c (Proc.devRef .tc r) = W23 m ρ c (Proc.devRef .tc r) :=
  calc W20 m ρ c (Proc.devRef .tc r)
    _ = W21 m ρ c (Proc.devRef .tc r) := (keep10 _ r h).symm
    _ = W22 m ρ c (Proc.devRef .tc r) := (W22_of_ne m ρ c r h10).symm
    _ = W23 m ρ c (Proc.devRef .tc r) := (keep11 _ r h).symm

theorem fwd18 (h : r.idx.val < 18) (h9 : ∀ w, Pipeline.arrRef spec9 w ≠ r) (h10 : ∀ w, Pipeline.arrRef spec10 w ≠ r) :
    W18 m ρ c (Proc.devRef .tc r) = W23 m ρ c (Proc.devRef .tc r) :=
  calc W18 m ρ c (Proc.devRef .tc r)
    _ = W19 m ρ c (Proc.devRef .tc r) := (keep9 _ r (by omega)).symm
    _ = W20 m ρ c (Proc.devRef .tc r) := (W20_of_ne m ρ c r h9).symm
    _ = W23 m ρ c (Proc.devRef .tc r) := fwd20 m ρ c r h h10

theorem fwd16 (h : r.idx.val < 18) (h8 : ∀ w, Pipeline.arrRef spec8 w ≠ r) (h9 : ∀ w, Pipeline.arrRef spec9 w ≠ r)
    (h10 : ∀ w, Pipeline.arrRef spec10 w ≠ r) :
    W16 m ρ c (Proc.devRef .tc r) = W23 m ρ c (Proc.devRef .tc r) :=
  calc W16 m ρ c (Proc.devRef .tc r)
    _ = W17 m ρ c (Proc.devRef .tc r) := (keep8 _ r (by omega)).symm
    _ = W18 m ρ c (Proc.devRef .tc r) := (W18_of_ne m ρ c r h8).symm
    _ = W23 m ρ c (Proc.devRef .tc r) := fwd18 m ρ c r h h9 h10

theorem fwd14 (h : r.idx.val < 18) (h7 : ∀ w, Pipeline.arrRef spec7 w ≠ r) (h8 : ∀ w, Pipeline.arrRef spec8 w ≠ r)
    (h9 : ∀ w, Pipeline.arrRef spec9 w ≠ r) (h10 : ∀ w, Pipeline.arrRef spec10 w ≠ r) :
    W14 m ρ c (Proc.devRef .tc r) = W23 m ρ c (Proc.devRef .tc r) :=
  calc W14 m ρ c (Proc.devRef .tc r)
    _ = W15 m ρ c (Proc.devRef .tc r) := (keep7 _ r (by omega)).symm
    _ = W16 m ρ c (Proc.devRef .tc r) := (W16_of_ne m ρ c r h7).symm
    _ = W23 m ρ c (Proc.devRef .tc r) := fwd16 m ρ c r h h8 h9 h10

theorem fwd12 (h : r.idx.val < 18) (h6 : ∀ w, Pipeline.arrRef spec6 w ≠ r) (h7 : ∀ w, Pipeline.arrRef spec7 w ≠ r)
    (h8 : ∀ w, Pipeline.arrRef spec8 w ≠ r) (h9 : ∀ w, Pipeline.arrRef spec9 w ≠ r)
    (h10 : ∀ w, Pipeline.arrRef spec10 w ≠ r) :
    W12 m ρ c (Proc.devRef .tc r) = W23 m ρ c (Proc.devRef .tc r) :=
  calc W12 m ρ c (Proc.devRef .tc r)
    _ = W13 m ρ c (Proc.devRef .tc r) := (keep6 _ r (by omega)).symm
    _ = W14 m ρ c (Proc.devRef .tc r) := (W14_of_ne m ρ c r h6).symm
    _ = W23 m ρ c (Proc.devRef .tc r) := fwd14 m ρ c r h h7 h8 h9 h10

theorem fwd10 (h : r.idx.val < 18) (h5 : ∀ w, Pipeline.arrRef spec5 w ≠ r) (h6 : ∀ w, Pipeline.arrRef spec6 w ≠ r)
    (h7 : ∀ w, Pipeline.arrRef spec7 w ≠ r) (h8 : ∀ w, Pipeline.arrRef spec8 w ≠ r)
    (h9 : ∀ w, Pipeline.arrRef spec9 w ≠ r) (h10 : ∀ w, Pipeline.arrRef spec10 w ≠ r) :
    W10 m ρ c (Proc.devRef .tc r) = W23 m ρ c (Proc.devRef .tc r) :=
  calc W10 m ρ c (Proc.devRef .tc r)
    _ = W11 m ρ c (Proc.devRef .tc r) := (keep5 _ r (by omega)).symm
    _ = W12 m ρ c (Proc.devRef .tc r) := (W12_of_ne m ρ c r h5).symm
    _ = W23 m ρ c (Proc.devRef .tc r) := fwd12 m ρ c r h h6 h7 h8 h9 h10

end Forward

/-! ## The arguments the second stream reads, where it reads them -/

/-- The second graph's edge array, the stream's stacked weights, its reducing bias and reducing weight, as the stretch
    before the stream's first kernel finds them: as launched. -/
theorem arg17_W10 (c : Dev nD) : W10 m ρ c (Proc.devRef .tc main_arg17) = m ((c : Thread nD τ).loc main_arg17) :=
  (fwd10 m ρ c main_arg17 (by decide) (by decide) (by decide) (by decide) (by decide) (by decide) (by decide)).trans
    (W23_main_arg17 m ρ c)
theorem arg10_W10 (c : Dev nD) : W10 m ρ c (Proc.devRef .tc main_arg10) = m ((c : Thread nD τ).loc main_arg10) :=
  (fwd10 m ρ c main_arg10 (by decide) (by decide) (by decide) (by decide) (by decide) (by decide) (by decide)).trans
    (W23_main_arg10 m ρ c)
theorem arg5_W10 (c : Dev nD) : W10 m ρ c (Proc.devRef .tc main_arg5) = m ((c : Thread nD τ).loc main_arg5) :=
  (fwd10 m ρ c main_arg5 (by decide) (by decide) (by decide) (by decide) (by decide) (by decide) (by decide)).trans
    (W23_main_arg5 m ρ c)
theorem arg4_W10 (c : Dev nD) : W10 m ρ c (Proc.devRef .tc main_arg4) = m ((c : Thread nD τ).loc main_arg4) :=
  (fwd10 m ρ c main_arg4 (by decide) (by decide) (by decide) (by decide) (by decide) (by decide) (by decide)).trans
    (W23_main_arg4 m ρ c)

/-- The stream's node features as its first kernel finds them: as launched (the kernel reads them through an input
    window, which leaves the array as it was). -/
theorem arg1_W11 (c : Dev nD) : W11 m ρ c (Proc.devRef .tc main_arg1) = m ((c : Thread nD τ).loc main_arg1) :=
  calc W11 m ρ c (Proc.devRef .tc main_arg1)
    _ = W12 m ρ c (Proc.devRef .tc main_arg1) :=
        ((W12_arr m ρ c 0).trans (((dat5 (V11 m ρ) c).arrAt_in 0 rfl _).trans (A_eq5 (V11 m ρ) c 0))).symm
    _ = W23 m ρ c (Proc.devRef .tc main_arg1) :=
        fwd12 m ρ c main_arg1 (by decide) (by decide) (by decide) (by decide) (by decide) (by decide)
    _ = m ((c : Thread nD τ).loc main_arg1) := W23_main_arg1 m ρ c

/-- The stacked weights, biases, scales and shifts as the stretch before each later kernel finds them: as launched. -/
theorem arg10_W12 (c : Dev nD) : W12 m ρ c (Proc.devRef .tc main_arg10) = m ((c : Thread nD τ).loc main_arg10) :=
  (fwd12 m ρ c main_arg10 (by decide) (by decide) (by decide) (by decide) (by decide) (by decide)).trans (W23_main_arg10 m ρ c)
theorem arg11_W12 (c : Dev nD) : W12 m ρ c (Proc.devRef .tc main_arg11) = m ((c : Thread nD τ).loc main_arg11) :=
  (fwd12 m ρ c main_arg11 (by decide) (by decide) (by decide) (by decide) (by decide) (by decide)).trans (W23_main_arg11 m ρ c)
theorem arg12_W12 (c : Dev nD) : W12 m ρ c (Proc.devRef .tc main_arg12) = m ((c : Thread nD τ).loc main_arg12) :=
  (fwd12 m ρ c main_arg12 (by decide) (by decide) (by decide) (by decide) (by decide) (by decide)).trans (W23_main_arg12 m ρ c)
theorem arg13_W12 (c : Dev nD) : W12 m ρ c (Proc.devRef .tc main_arg13) = m ((c : Thread nD τ).loc main_arg13) :=
  (fwd12 m ρ c main_arg13 (by decide) (by decide) (by decide) (by decide) (by decide) (by decide)).trans (W23_main_arg13 m ρ c)

theorem arg10_W14 (c : Dev nD) : W14 m ρ c (Proc.devRef .tc main_arg10) = m ((c : Thread nD τ).loc main_arg10) :=
  (fwd14 m ρ c main_arg10 (by decide) (by decide) (by decide) (by decide) (by decide)).trans (W23_main_arg10 m ρ c)
theorem arg11_W14 (c : Dev nD) : W14 m ρ c (Proc.devRef .tc main_arg11) = m ((c : Thread nD τ).loc main_arg11) :=
  (fwd14 m ρ c main_arg11 (by decide) (by decide) (by decide) (by decide) (by decide)).trans (W23_main_arg11 m ρ c)
theorem arg12_W14 (c : Dev nD) : W14 m ρ c (Proc.devRef .tc main_arg12) = m ((c : Thread nD τ).loc main_arg12) :=
  (fwd14 m ρ c main_arg12 (by decide) (by decide) (by decide) (by decide) (by decide)).trans (W23_main_arg12 m ρ c)
theorem arg13_W14 (c : Dev nD) : W14 m ρ c (Proc.devRef .tc main_arg13) = m ((c : Thread nD τ).loc main_arg13) :=
  (fwd14 m ρ c main_arg13 (by decide) (by decide) (by decide) (by decide) (by decide)).trans (W23_main_arg13 m ρ c)

theorem arg10_W16 (c : Dev nD) : W16 m ρ c (Proc.devRef .tc main_arg10) = m ((c : Thread nD τ).loc main_arg10) :=
  (fwd16 m ρ c main_arg10 (by decide) (by decide) (by decide) (by decide)).trans (W23_main_arg10 m ρ c)
theorem arg11_W16 (c : Dev nD) : W16 m ρ c (Proc.devRef .tc main_arg11) = m ((c : Thread nD τ).loc main_arg11) :=
  (fwd16 m ρ c main_arg11 (by decide) (by decide) (by decide) (by decide)).trans (W23_main_arg11 m ρ c)
theorem arg12_W16 (c : Dev nD) : W16 m ρ c (Proc.devRef .tc main_arg12) = m ((c : Thread nD τ).loc main_arg12) :=
  (fwd16 m ρ c main_arg12 (by decide) (by decide) (by decide) (by decide)).trans (W23_main_arg12 m ρ c)
theorem arg13_W16 (c : Dev nD) : W16 m ρ c (Proc.devRef .tc main_arg13) = m ((c : Thread nD τ).loc main_arg13) :=
  (fwd16 m ρ c main_arg13 (by decide) (by decide) (by decide) (by decide)).trans (W23_main_arg13 m ρ c)

theorem arg11_W18 (c : Dev nD) : W18 m ρ c (Proc.devRef .tc main_arg11) = m ((c : Thread nD τ).loc main_arg11) :=
  (fwd18 m ρ c main_arg11 (by decide) (by decide) (by decide)).trans (W23_main_arg11 m ρ c)
theorem arg12_W18 (c : Dev nD) : W18 m ρ c (Proc.devRef .tc main_arg12) = m ((c : Thread nD τ).loc main_arg12) :=
  (fwd18 m ρ c main_arg12 (by decide) (by decide) (by decide)).trans (W23_main_arg12 m ρ c)
theorem arg13_W18 (c : Dev nD) : W18 m ρ c (Proc.devRef .tc main_arg13) = m ((c : Thread nD τ).loc main_arg13) :=
  (fwd18 m ρ c main_arg13 (by decide) (by decide) (by decide)).trans (W23_main_arg13 m ρ c)

/-! ## The edge lists: written before the stream's first kernel, read by every later stretch, windows of no kernel -/

section Lists
variable (c : Dev nD) (r : Ref sig .tc)

theorem mid12 (h5 : ∀ w, Pipeline.arrRef spec5 w ≠ r) :
    W12 m ρ c (Proc.devRef .tc r) = W11 m ρ c (Proc.devRef .tc r) := W12_of_ne m ρ c r h5

theorem mid14 (h : r.idx.val < 236) (h5 : ∀ w, Pipeline.arrRef spec5 w ≠ r) (h6 : ∀ w, Pipeline.arrRef spec6 w ≠ r) :
    W14 m ρ c (Proc.devRef .tc r) = W11 m ρ c (Proc.devRef .tc r) :=
  calc W14 m ρ c (Proc.devRef .tc r)
    _ = W13 m ρ c (Proc.devRef .tc r) := W14_of_ne m ρ c r h6
    _ = W12 m ρ c (Proc.devRef .tc r) := keep6 _ r h
    _ = W11 m ρ c (Proc.devRef .tc r) := W12_of_ne m ρ c r h5

theorem mid16 (h : r.idx.val < 236) (h5 : ∀ w, Pipeline.arrRef spec5 w ≠ r) (h6 : ∀ w, Pipeline.arrRef spec6 w ≠ r)
    (h7 : ∀ w, Pipeline.arrRef spec7 w ≠ r) :
    W16 m ρ c (Proc.devRef .tc r) = W11 m ρ c (Proc.devRef .tc r) :=
  calc W16 m ρ c (Proc.devRef .tc r)
    _ = W15 m ρ c (Proc.devRef .tc r) := W16_of_ne m ρ c r h7
    _ = W14 m ρ c (Proc.devRef .tc r) := keep7 _ r (by omega)
    _ = W11 m ρ c (Proc.devRef .tc r) := mid14 m ρ c r h h5 h6

theorem mid18 (h : r.idx.val < 236) (h5 : ∀ w, Pipeline.arrRef spec5 w ≠ r) (h6 : ∀ w, Pipeline.arrRef spec6 w ≠ r)
    (h7 : ∀ w, Pipeline.arrRef spec7 w ≠ r) (h8 : ∀ w, Pipeline.arrRef spec8 w ≠ r) :
    W18 m ρ c (Proc.devRef .tc r) = W11 m ρ c (Proc.devRef .tc r) :=
  calc W18 m ρ c (Proc.devRef .tc r)
    _ = W17 m ρ c (Proc.devRef .tc r) := W18_of_ne m ρ c r h8
    _ = W16 m ρ c (Proc.devRef .tc r) := keep8 _ r (by omega)
    _ = W11 m ρ c (Proc.devRef .tc r) := mid16 m ρ c r h h5 h6 h7

end Lists

/-- The sources, at the stretch before each later kernel. -/
theorem s_W12 (c : Dev nD) : W12 m ρ c (Proc.devRef .tc main_call0_v92) = W11 m ρ c (Proc.devRef .tc main_call0_v92) :=
  mid12 m ρ c main_call0_v92 (by decide)
theorem s_W14 (c : Dev nD) : W14 m ρ c (Proc.devRef .tc main_call0_v92) = W11 m ρ c (Proc.devRef .tc main_call0_v92) :=
  mid14 m ρ c main_call0_v92 (by decide) (by decide) (by decide)
theorem s_W16 (c : Dev nD) : W16 m ρ c (Proc.devRef .tc main_call0_v92) = W11 m ρ c (Proc.devRef .tc main_call0_v92) :=
  mid16 m ρ c main_call0_v92 (by decide) (by decide) (by decide) (by decide)
theorem s_W18 (c : Dev nD) : W18 m ρ c (Proc.devRef .tc main_call0_v92) = W11 m ρ c (Proc.devRef .tc main_call0_v92) :=
  mid18 m ρ c main_call0_v92 (by decide) (by decide) (by decide) (by decide) (by decide)
/-- The destinations likewise. -/
theorem d_W12 (c : Dev nD) : W12 m ρ c (Proc.devRef .tc main_call0_v93) = W11 m ρ c (Proc.devRef .tc main_call0_v93) :=
  mid12 m ρ c main_call0_v93 (by decide)
theorem d_W14 (c : Dev nD) : W14 m ρ c (Proc.devRef .tc main_call0_v93) = W11 m ρ c (Proc.devRef .tc main_call0_v93) :=
  mid14 m ρ c main_call0_v93 (by decide) (by decide) (by decide)
theorem d_W16 (c : Dev nD) : W16 m ρ c (Proc.devRef .tc main_call0_v93) = W11 m ρ c (Proc.devRef .tc main_call0_v93) :=
  mid16 m ρ c main_call0_v93 (by decide) (by decide) (by decide) (by decide)
theorem d_W18 (c : Dev nD) : W18 m ρ c (Proc.devRef .tc main_call0_v93) = W11 m ρ c (Proc.devRef .tc main_call0_v93) :=
  mid18 m ρ c main_call0_v93 (by decide) (by decide) (by decide) (by decide) (by decide)

/-! ## The normalisation column: an input window of every kernel of the stream, which leaves it as it was -/

theorem dinv_W12 (c : Dev nD) : W12 m ρ c (Proc.devRef .tc main_call0_v102) = W11 m ρ c (Proc.devRef .tc main_call0_v102) :=
  (W12_arr m ρ c 4).trans (((dat5 (V11 m ρ) c).arrAt_in 4 rfl _).trans (A_eq5 (V11 m ρ) c 4))
theorem dinv_W13 (c : Dev nD) : W13 m ρ c (Proc.devRef .tc main_call0_v102) = W11 m ρ c (Proc.devRef .tc main_call0_v102) :=
  (keep6 _ main_call0_v102 (by decide)).trans (dinv_W12 m ρ c)
theorem dinv_W14 (c : Dev nD) : W14 m ρ c (Proc.devRef .tc main_call0_v102) = W11 m ρ c (Proc.devRef .tc main_call0_v102) :=
  ((W14_arr m ρ c 1).trans (((dat6 (V13 m ρ) c).arrAt_in 1 rfl _).trans (A_eq6 (V13 m ρ) c 1))).trans (dinv_W13 m ρ c)
theorem dinv_W15 (c : Dev nD) : W15 m ρ c (Proc.devRef .tc main_call0_v102) = W11 m ρ c (Proc.devRef .tc main_call0_v102) :=
  (keep7 _ main_call0_v102 (by decide)).trans (dinv_W14 m ρ c)
theorem dinv_W16 (c : Dev nD) : W16 m ρ c (Proc.devRef .tc main_call0_v102) = W11 m ρ c (Proc.devRef .tc main_call0_v102) :=
  ((W16_arr m ρ c 1).trans (((dat7 (V15 m ρ) c).arrAt_in 1 rfl _).trans (A_eq7 (V15 m ρ) c 1))).trans (dinv_W15 m ρ c)
theorem dinv_W17 (c : Dev nD) : W17 m ρ c (Proc.devRef .tc main_call0_v102) = W11 m ρ c (Proc.devRef .tc main_call0_v102) :=
  (keep8 _ main_call0_v102 (by decide)).trans (dinv_W16 m ρ c)
theorem dinv_W18 (c : Dev nD) : W18 m ρ c (Proc.devRef .tc main_call0_v102) = W11 m ρ c (Proc.devRef .tc main_call0_v102) :=
  ((W18_arr m ρ c 1).trans (((dat8 (V17 m ρ) c).arrAt_in 1 rfl _).trans (A_eq8 (V17 m ρ) c 1))).trans (dinv_W17 m ρ c)
theorem dinv_W19 (c : Dev nD) : W19 m ρ c (Proc.devRef .tc main_call0_v102) = W11 m ρ c (Proc.devRef .tc main_call0_v102) :=
  (keep9 _ main_call0_v102 (by decide)).trans (dinv_W18 m ρ c)

/-! ## The first stream's result through the second stream -/

/-- No stretch and no kernel of the second stream writes the first stream's result (its number, 206, is below every
    value the second stream defines, and it is a window of none of the stream's kernels). -/
theorem keep_r (c : Dev nD) : W20 m ρ c (Proc.devRef .tc main_call0_v86) = W10 m ρ c (Proc.devRef .tc main_call0_v86) :=
  calc W20 m ρ c (Proc.devRef .tc main_call0_v86)
    _ = W19 m ρ c (Proc.devRef .tc main_call0_v86) := W20_of_ne m ρ c main_call0_v86 (by decide)
    _ = W18 m ρ c (Proc.devRef .tc main_call0_v86) := keep9 _ main_call0_v86 (by decide)
    _ = W17 m ρ c (Proc.devRef .tc main_call0_v86) := W18_of_ne m ρ c main_call0_v86 (by decide)
    _ = W16 m ρ c (Proc.devRef .tc main_call0_v86) := keep8 _ main_call0_v86 (by decide)
    _ = W15 m ρ c (Proc.devRef .tc main_call0_v86) := W16_of_ne m ρ c main_call0_v86 (by decide)
    _ = W14 m ρ c (Proc.devRef .tc main_call0_v86) := keep7 _ main_call0_v86 (by decide)
    _ = W13 m ρ c (Proc.devRef .tc main_call0_v86) := W14_of_ne m ρ c main_call0_v86 (by decide)
    _ = W12 m ρ c (Proc.devRef .tc main_call0_v86) := keep6 _ main_call0_v86 (by decide)
    _ = W11 m ρ c (Proc.devRef .tc main_call0_v86) := W12_of_ne m ρ c main_call0_v86 (by decide)
    _ = W10 m ρ c (Proc.devRef .tc main_call0_v86) := keep5 _ main_call0_v86 (by decide)

end Cert.KernelIdeal.KWalkV

end
-- ==== Proof.KChainV.lean ====
/-
  The second stream's opening: from the launch to the exit of the stream's first kernel.

  Before that kernel the program builds, from the second graph's [2, 800000] edge array, the list of sources and the
  list of destinations (each row followed by the self-loops 0 … 49999) and the column of factors 1/√degree; it takes
  layer 0's weight out of the stream's stacked weights, lays the reducing bias out as a row and narrows the two weights
  to the 16-bit format. The kernel then forms  x0 = x · Wred + bred  and  lin0 = (x0 · W[0]) · dinv  over all 50000
  nodes (module Val5). Each buffer the kernel reads is read here as the named function of the launched arguments
  (module KHost), and the kernel's two result arrays as the named values X0 and L0 of module KNames; the two lists and
  the column are carried to the kernel's exit, where the next stretch reads them.

  The launched arguments are read where the stretch and the kernel read them — the tenth boundary and the kernel's entry
  — and are taken as hypotheses "as launched" (h4 h5 h10 h17 h1); the closing statement discharges them by the walks of
  module KWalkV.
-/
import proofs.«410635_j2241972928706_3_alg».proof.Proof.Gen.KernelIdeal.Frame
import proofs.«410635_j2241972928706_3_alg».proof.Proof.KNames
import proofs.«410635_j2241972928706_3_alg».proof.Proof.Val5
import proofs.«410635_j2241972928706_3_alg».proof.Proof.KWalkV
import Idealize.ShloMosaic.Lib.StableHlo.Run
import Idealize.ShloMosaic.Lib.ValueIdx
import Idealize.ShloMosaic.Lib.Pipeline.Value
import Idealize.ShloMosaic.Lib.ValueLayout

noncomputable section

namespace Cert.KernelIdeal.KChainV

open Cert.KernelIdeal Cert.KernelIdeal.Gen Idealize.ShloMosaic Idealize.ShloMosaic.ValueIdx
open Idealize.ShloMosaic.TcCoe Idealize.SL.Sem
open Idealize.ShloMosaic.Pipeline (Dat)

variable (m : (ℓ : Loc nD τ sig) → Buf (Elt Ideal) ℓ) (ρ : Dev nD → PrngReg)

/-! ## What the stretch before the kernel leaves in the buffers the stream reads -/

/-- The sources: row 0 of the edge array, then the self-loops. -/
theorem s_W11 (c : Dev nD)
    (h17 : W10 m ρ c (Proc.devRef .tc main_arg17) = m ((c : Thread nD τ).loc main_arg17)) :
    W11 m ρ c (Proc.devRef .tc main_call0_v92) = KHost.sFn (m ((c : Thread nD τ).loc main_arg17)) := by
  rw [← h17]
  show StableHlo.after hostOps5 (W10 m ρ c) (Proc.devRef .tc main_call0_v92) = _
  simp only [hostOps5]
  after_results
  rfl

/-- The destinations: row 1 of the edge array, then the self-loops. -/
theorem d_W11 (c : Dev nD)
    (h17 : W10 m ρ c (Proc.devRef .tc main_arg17) = m ((c : Thread nD τ).loc main_arg17)) :
    W11 m ρ c (Proc.devRef .tc main_call0_v93) = KHost.dFn (m ((c : Thread nD τ).loc main_arg17)) := by
  rw [← h17]
  show StableHlo.after hostOps5 (W10 m ρ c) (Proc.devRef .tc main_call0_v93) = _
  simp only [hostOps5]
  after_results
  rfl

/-- Operations run one after the other: the contents after a list of operations split in two are the contents after
    the second part, from the contents after the first. -/
theorem after_append (l₁ l₂ : List (HloOp τ sig (Elt Ideal))) (V : Valuation τ sig (Elt Ideal)) :
    StableHlo.after (l₁ ++ l₂) V = StableHlo.after l₂ (StableHlo.after l₁ V) := by
  induction l₁ generalizing V with
  | nil => rfl
  | cons op l ih => exact ih _

/-- The stretch's first seven operations end with the destinations. -/
theorem head5_d (c : Dev nD) :
    StableHlo.after (List.take 7 (hostOps5 (F := Ideal))) (W10 m ρ c) (Proc.devRef .tc main_call0_v93)
      = KHost.dFn (W10 m ρ c (Proc.devRef .tc main_arg17)) := by
  simp only [hostOps5, List.take_succ_cons, List.take_zero]
  after_results
  rfl

/-- The next six operations sum a one per edge into zeros at the edge's destination: the degrees, from the destinations
    alone, whatever else the buffers hold. -/
theorem deg_part (V : Valuation τ sig (Elt Ideal)) :
    StableHlo.after (List.take 6 (List.drop 7 (hostOps5 (F := Ideal)))) V (Proc.devRef .tc main_call0_v97)
      = KHost.degFn (V (Proc.devRef .tc main_call0_v93)) := by
  simp only [hostOps5, List.drop_succ_cons, List.drop_zero, List.take_succ_cons, List.take_zero]
  after_results
  rfl

/-- The next nine turn degrees g into the factor column: the reciprocal square root where g is above zero, else zero, laid
    out as a column. Stated over the degrees as a variable, so that the term names them and not their computation. -/
theorem dinv_part (V : Valuation τ sig (Elt Ideal)) (g : FVec Ideal S50000 .f32)
    (hV : V (Proc.devRef .tc main_call0_v97) = g) :
    StableHlo.after (List.take 9 (List.drop 13 (hostOps5 (F := Ideal)))) V (Proc.devRef .tc main_call0_v102)
      = shapeCast S50000x1 (select (cmpf .ogt g KHost.zeros50000) (Host.rsqrt g)
          (broadcastInDim S50000 ![] bcast_S_S50000 (id (constant (F := Ideal) S_ .f32 0x00000000#32))))
          shapeCasts_S50000_S50000x1 := by
  subst hV
  simp only [hostOps5, List.drop_succ_cons, List.drop_zero, List.take_succ_cons, List.take_zero]
  after_results
  rfl

/-- The last five operations (the weights and the bias row) do not write the column. -/
theorem rest_keep (V : Valuation τ sig (Elt Ideal)) :
    StableHlo.after (List.drop 22 (hostOps5 (F := Ideal))) V (Proc.devRef .tc main_call0_v102)
      = V (Proc.devRef .tc main_call0_v102) := by
  simp only [hostOps5, List.drop_succ_cons, List.drop_zero]
  after_results

/-- The stretch is those four runs in order. -/
theorem split5 : hostOps5 (F := Ideal)
    = List.take 7 hostOps5 ++ (List.take 6 (List.drop 7 hostOps5) ++ (List.take 9 (List.drop 13 hostOps5)
        ++ List.drop 22 hostOps5)) := by
  simp only [hostOps5, List.take_succ_cons, List.take_zero, List.drop_succ_cons, List.drop_zero, List.cons_append,
    List.nil_append]

/-- The column of factors: 1/√degree where the degree is positive, the degrees counted over the destinations. -/
theorem dinv_W11 (c : Dev nD)
    (h17 : W10 m ρ c (Proc.devRef .tc main_arg17) = m ((c : Thread nD τ).loc main_arg17)) :
    W11 m ρ c (Proc.devRef .tc main_call0_v102)
      = KHost.dinvFn (KHost.dFn (m ((c : Thread nD τ).loc main_arg17))) := by
  rw [← h17]
  show StableHlo.after hostOps5 (W10 m ρ c) (Proc.devRef .tc main_call0_v102) = _
  rw [split5, after_append, after_append, after_append, rest_keep]
  exact dinv_part _ _ ((deg_part _).trans (congrArg KHost.degFn (head5_d m ρ c)))

/-- The reducing weight, narrowed. -/
theorem wred_W11 (c : Dev nD)
    (h4 : W10 m ρ c (Proc.devRef .tc main_arg4) = m ((c : Thread nD τ).loc main_arg4)) :
    W11 m ρ c (Proc.devRef .tc main_call0_v106) = KHost.wredFn (m ((c : Thread nD τ).loc main_arg4)) := by
  rw [← h4]
  show StableHlo.after hostOps5 (W10 m ρ c) (Proc.devRef .tc main_call0_v106) = _
  after_results_simp
  rfl

/-- The reducing bias as a row. -/
theorem bred_W11 (c : Dev nD)
    (h5 : W10 m ρ c (Proc.devRef .tc main_arg5) = m ((c : Thread nD τ).loc main_arg5)) :
    W11 m ρ c (Proc.devRef .tc main_call0_v105) = KHost.bredFn (m ((c : Thread nD τ).loc main_arg5)) := by
  rw [← h5]
  show StableHlo.after hostOps5 (W10 m ρ c) (Proc.devRef .tc main_call0_v105) = _
  after_results_simp
  rfl

/-- Layer 0's weight, narrowed. -/
theorem w0_W11 (c : Dev nD)
    (h10 : W10 m ρ c (Proc.devRef .tc main_arg10) = m ((c : Thread nD τ).loc main_arg10)) :
    W11 m ρ c (Proc.devRef .tc main_call0_v107) = KHost.wFn0 (m ((c : Thread nD τ).loc main_arg10)) := by
  rw [← h10]
  show StableHlo.after hostOps5 (W10 m ρ c) (Proc.devRef .tc main_call0_v107) = _
  after_results_simp
  rfl

/-! ## The kernel's two result arrays -/

/-- The projected features: x · Wred + bred. -/
theorem x0_W12 (c : Dev nD)
    (h4 : W10 m ρ c (Proc.devRef .tc main_arg4) = m ((c : Thread nD τ).loc main_arg4))
    (h5 : W10 m ρ c (Proc.devRef .tc main_arg5) = m ((c : Thread nD τ).loc main_arg5))
    (h1 : W11 m ρ c (Proc.devRef .tc main_arg1) = m ((c : Thread nD τ).loc main_arg1)) :
    W12 m ρ c (Proc.devRef .tc main_call0_v108_0)
      = KNames.X0 (m ((c : Thread nD τ).loc main_arg1)) (m ((c : Thread nD τ).loc main_arg4))
          (m ((c : Thread nD τ).loc main_arg5)) := by
  have h := (W12_arr m ρ c 5).trans (Val5.final_x0 (V11 m ρ) c)
  rw [show Val5.aX (V11 m ρ) c = m ((c : Thread nD τ).loc main_arg1) from h1,
    show Val5.aWred (V11 m ρ) c = KHost.wredFn (m ((c : Thread nD τ).loc main_arg4)) from wred_W11 m ρ c h4,
    show Val5.aBred (V11 m ρ) c = KHost.bredFn (m ((c : Thread nD τ).loc main_arg5)) from bred_W11 m ρ c h5] at h
  exact h

/-- Layer 0's pre-scaled rows: (x0 · W[0]) · dinv. -/
theorem lin0_W12 (c : Dev nD)
    (h4 : W10 m ρ c (Proc.devRef .tc main_arg4) = m ((c : Thread nD τ).loc main_arg4))
    (h5 : W10 m ρ c (Proc.devRef .tc main_arg5) = m ((c : Thread nD τ).loc main_arg5))
    (h10 : W10 m ρ c (Proc.devRef .tc main_arg10) = m ((c : Thread nD τ).loc main_arg10))
    (h17 : W10 m ρ c (Proc.devRef .tc main_arg17) = m ((c : Thread nD τ).loc main_arg17))
    (h1 : W11 m ρ c (Proc.devRef .tc main_arg1) = m ((c : Thread nD τ).loc main_arg1)) :
    W12 m ρ c (Proc.devRef .tc main_call0_v108_1)
      = KNames.L0 (m ((c : Thread nD τ).loc main_arg1)) (m ((c : Thread nD τ).loc main_arg4))
          (m ((c : Thread nD τ).loc main_arg5)) (m ((c : Thread nD τ).loc main_arg10))
          (m ((c : Thread nD τ).loc main_arg17)) := by
  have h := (W12_arr m ρ c 6).trans (Val5.final_lin (V11 m ρ) c)
  rw [show Val5.aX (V11 m ρ) c = m ((c : Thread nD τ).loc main_arg1) from h1,
    show Val5.aWred (V11 m ρ) c = KHost.wredFn (m ((c : Thread nD τ).loc main_arg4)) from wred_W11 m ρ c h4,
    show Val5.aBred (V11 m ρ) c = KHost.bredFn (m ((c : Thread nD τ).loc main_arg5)) from bred_W11 m ρ c h5,
    show Val5.aW (V11 m ρ) c = KHost.wFn0 (m ((c : Thread nD τ).loc main_arg10)) from w0_W11 m ρ c h10,
    show Val5.aD (V11 m ρ) c = KHost.dinvFn (KHost.dFn (m ((c : Thread nD τ).loc main_arg17))) from dinv_W11 m ρ c h17] at h
  exact h

/-! ## The boundary after the kernel -/

/-- AT THE EXIT OF THE STREAM'S FIRST KERNEL: the two result arrays are X0 and L0 of the launched arguments, and the
    sources, the destinations and the factor column are what the stretch before the kernel computed (the kernel writes
    neither list, and reads the column through an input window, which leaves it as it was). -/
theorem b5 (c : Dev nD)
    (h4 : W10 m ρ c (Proc.devRef .tc main_arg4) = m ((c : Thread nD τ).loc main_arg4))
    (h5 : W10 m ρ c (Proc.devRef .tc main_arg5) = m ((c : Thread nD τ).loc main_arg5))
    (h10 : W10 m ρ c (Proc.devRef .tc main_arg10) = m ((c : Thread nD τ).loc main_arg10))
    (h17 : W10 m ρ c (Proc.devRef .tc main_arg17) = m ((c : Thread nD τ).loc main_arg17))
    (h1 : W11 m ρ c (Proc.devRef .tc main_arg1) = m ((c : Thread nD τ).loc main_arg1)) :
    W12 m ρ c (Proc.devRef .tc main_call0_v108_0)
        = KNames.X0 (m ((c : Thread nD τ).loc main_arg1)) (m ((c : Thread nD τ).loc main_arg4))
            (m ((c : Thread nD τ).loc main_arg5))
    ∧ W12 m ρ c (Proc.devRef .tc main_call0_v108_1)
        = KNames.L0 (m ((c : Thread nD τ).loc main_arg1)) (m ((c : Thread nD τ).loc main_arg4))
            (m ((c : Thread nD τ).loc main_arg5)) (m ((c : Thread nD τ).loc main_arg10))
            (m ((c : Thread nD τ).loc main_arg17))
    ∧ W12 m ρ c (Proc.devRef .tc main_call0_v92) = KHost.sFn (m ((c : Thread nD τ).loc main_arg17))
    ∧ W12 m ρ c (Proc.devRef .tc main_call0_v93) = KHost.dFn (m ((c : Thread nD τ).loc main_arg17))
    ∧ W12 m ρ c (Proc.devRef .tc main_call0_v102)
        = KHost.dinvFn (KHost.dFn (m ((c : Thread nD τ).loc main_arg17))) :=
  ⟨x0_W12 m ρ c h4 h5 h1, lin0_W12 m ρ c h4 h5 h10 h17 h1,
    (KWalkV.s_W12 m ρ c).trans (s_W11 m ρ c h17), (KWalkV.d_W12 m ρ c).trans (d_W11 m ρ c h17),
    (KWalkV.dinv_W12 m ρ c).trans (dinv_W11 m ρ c h17)⟩

/-- The same with the arguments read as launched by the walks to the end of the program. -/
theorem b5_launched (c : Dev nD) :
    W12 m ρ c (Proc.devRef .tc main_call0_v108_0)
        = KNames.X0 (m ((c : Thread nD τ).loc main_arg1)) (m ((c : Thread nD τ).loc main_arg4))
            (m ((c : Thread nD τ).loc main_arg5))
    ∧ W12 m ρ c (Proc.devRef .tc main_call0_v108_1)
        = KNames.L0 (m ((c : Thread nD τ).loc main_arg1)) (m ((c : Thread nD τ).loc main_arg4))
            (m ((c : Thread nD τ).loc main_arg5)) (m ((c : Thread nD τ).loc main_arg10))
            (m ((c : Thread nD τ).loc main_arg17))
    ∧ W12 m ρ c (Proc.devRef .tc main_call0_v92) = KHost.sFn (m ((c : Thread nD τ).loc main_arg17))
    ∧ W12 m ρ c (Proc.devRef .tc main_call0_v93) = KHost.dFn (m ((c : Thread nD τ).loc main_arg17))
    ∧ W12 m ρ c (Proc.devRef .tc main_call0_v102)
        = KHost.dinvFn (KHost.dFn (m ((c : Thread nD τ).loc main_arg17))) :=
  b5 m ρ c (KWalkV.arg4_W10 m ρ c) (KWalkV.arg5_W10 m ρ c) (KWalkV.arg10_W10 m ρ c) (KWalkV.arg17_W10 m ρ c)
    (KWalkV.arg1_W11 m ρ c)

end Cert.KernelIdeal.KChainV

end
-- ==== Proof.Val6.lean ====
/-
  The value of a stream's post-processing call fused with the next layer's product, read off its frame.

  The call runs on a grid of ten points.  Point `t` holds rows `5000·t … 5000·t + 4999` of the aggregated sums, of
  the degree factors (a column) and of the node features, and the whole bias, scale and shift rows and the whole next
  weight; it writes back the same rows of two results.  On its block the body computes

      new_x[p, c] = x[p, c] + max (((h[p, c] − μ_p) · rsqrt (σ²_p + ε)) · g[0, c] + be[0, c]) 0,   h[p, c] = agg[p, c] · d[p, 0] + b[0, c],
      lin[p, c]   = (∑ q, new_x[p, q] · w[q, c]) · d[p, 0].

  A row's mean and variance depend on that row alone, and an entry of a product on the left factor's row alone, so
  each block of a result is the whole array's result on those rows; the ten blocks cover the 50000 rows; so the two
  arrays end holding those functions of the arrays as the call finds them.
-/
import proofs.«410635_j2241972928706_3_alg».proof.Proof.Gen.KernelIdeal.Frame
import proofs.«410635_j2241972928706_3_alg».proof.Proof.Spec
import proofs.«410635_j2241972928706_3_alg».proof.Proof.LibBlockOps
import proofs.«410635_j2241972928706_3_alg».proof.Proof.NormResidual
import Idealize.ShloMosaic.Lib.Pipeline.Value
import Idealize.ShloMosaic.Lib.ValueIdx

set_option maxRecDepth 16384

noncomputable section

namespace Cert.KernelIdeal.Val6

open Idealize.ShloMosaic Idealize.ShloMosaic.TcCoe Idealize.ShloMosaic.ValueIdx Idealize.SL.Sem
open Idealize.ShloMosaic.Pipeline (Dat)
open Cert.KernelIdeal.Gen Cert.NormResidual

/-! ## A block of rows of a product -/

/-- An entry of a product reads the left factor in its own row only: row `p` of a block being row `P` of the array,
    the block's product at `(p, c)` is the array's at `(P, c)`. -/
theorem mm_row {n N k m : ℕ} (x' : Spec.Mat n k) (x : Spec.Mat N k) (w : Spec.Mat k m) (p : Fin n) (P : Fin N)
    (hx : ∀ q, x' (ix2 p q) = x (ix2 P q)) (c : Fin m) : Spec.mm x' w p c = Spec.mm x w P c :=
  Finset.sum_congr rfl fun q _ => by rw [hx q]

/-- The product scaled row by row by a column, likewise. -/
theorem lin_row {n N k m : ℕ} (x' : Spec.Mat n k) (x : Spec.Mat N k) (w : Spec.Mat k m) (d' : Spec.Mat n 1) (d : Spec.Mat N 1)
    (p : Fin n) (P : Fin N) (hx : ∀ q, x' (ix2 p q) = x (ix2 P q)) (hd : d' (ix2 p (0 : Fin 1)) = d (ix2 P (0 : Fin 1)))
    (c : Fin m) : Spec.lin x' w d' (ix2 p c) = Spec.lin x w d (ix2 P c) := by
  show Spec.mm x' w p c * d' (ix2 p (0 : Fin 1)) = Spec.mm x w P c * d (ix2 P (0 : Fin 1))
  rw [mm_row x' x w p P hx c, hd]

/-! ## The body's two blocks -/

/-- The first block the body computes is the stages of the normalisation, of its six loaded blocks. -/
theorem pay_stages (v0 : Vec Ideal S5000x128 .f32) (v2 : Vec Ideal S5000x1 .f32) (v6 v26 v30 : Vec Ideal S1x128 .f32)
    (v36 : Vec Ideal S5000x128 .f32) :
    k6_pay2 v0 v2 v6 v26 v30 v36
      = postBlock reduces_S5000x128_S5000 shapeCasts_S5000_S5000x1 broadcasts_S5000x1_S5000x128 broadcasts_S1x128_S5000x128
          shapeCasts_S5000x128_S5000x128 shapeCasts_S1x128_S1x128
          (scaledBlock broadcasts_S5000x1_S5000x128 broadcasts_S1x128_S5000x128 shapeCasts_S5000x128_S5000x128
            shapeCasts_S5000x1_S5000x1 shapeCasts_S1x128_S1x128 v0 v2 v6) v26 v30 v36 := rfl

/-- THE FIRST BLOCK'S VALUE: the residual block plus the rectified layer normalisation of the scaled, shifted aggregate. -/
theorem pay_post (v0 : Vec Ideal S5000x128 .f32) (v2 : Vec Ideal S5000x1 .f32) (v6 v26 v30 : Vec Ideal S1x128 .f32)
    (v36 : Vec Ideal S5000x128 .f32) :
    k6_pay2 v0 v2 v6 v26 v30 v36 = Spec.post (Spec.scaled v0 v2 v6) v26 v30 v36 := by
  rw [pay_stages, scaledBlock_eq, postBlock_eq]

/-- The product's dimension numbers: rows of the left factor by columns of the right, one contracted axis. -/
theorem dot_eq : dot_S5000x128_S128x128_S5000x128_1_0_0_1_n_n
    = BlockOps.rowCol dot_S5000x128_S128x128_S5000x128_1_0_0_1_n_n_wf := rfl

/-- THE SECOND BLOCK'S VALUE: the product of the first block with the weight, scaled row by row by the degree factors
    (the change of number format in front of the product is the identity on the extended reals). -/
theorem pay_lin (x : FVec Ideal S5000x128 .f32) (w : Vec Ideal S128x128 .bf16) (d : Vec Ideal S5000x1 .f32) :
    k6_pay1 (F := Ideal) x w d = Spec.lin x w d := by
  funext j
  obtain ⟨r, q, rfl⟩ : ∃ (r : Fin 5000) (q : Fin 128), j = ix2 r q := ⟨j 0, j 1, eq_ix2 j⟩
  unfold k6_pay1
  simp only [matmul]
  rw [mulf_apply, dot_eq, BlockOps.matmul_zero_apply, BlockOps.broadcastTo_a1_ab_apply, shapeCast_self, shapeCast_self]
  rfl

/-! ## The arrays and their blocks -/

-- the TensorCore's buffer contents when the call is entered
variable (V : (c : Dev nD) → (b : Ref sig .tc) → Buf (Elt Ideal) ((c : Thread nD τ).loc b))

/-- The aggregated sums as the call finds them. -/
abbrev aAgg (c : Dev nD) : Spec.Mat 50000 128 := V c (Pipeline.arrRef spec6 0)
/-- The degree factors, a column. -/
abbrev aD (c : Dev nD) : Spec.Mat 50000 1 := V c (Pipeline.arrRef spec6 1)
/-- The bias row. -/
abbrev aB (c : Dev nD) : Spec.Mat 1 128 := V c (Pipeline.arrRef spec6 2)
/-- The scale row. -/
abbrev aG (c : Dev nD) : Spec.Mat 1 128 := V c (Pipeline.arrRef spec6 3)
/-- The shift row. -/
abbrev aBe (c : Dev nD) : Spec.Mat 1 128 := V c (Pipeline.arrRef spec6 4)
/-- The node features, the residual. -/
abbrev aX (c : Dev nD) : Spec.Mat 50000 128 := V c (Pipeline.arrRef spec6 5)
/-- The next layer's weight. -/
abbrev aW (c : Dev nD) : Spec.Mat 128 128 := V c (Pipeline.arrRef spec6 6)

/-- The node features leaving the layer: the residual plus the rectified layer normalisation of the scaled, shifted
    aggregate. -/
abbrev newX (c : Dev nD) : Spec.Mat 50000 128 :=
  Spec.post (Spec.scaled (aAgg V c) (aD V c) (aB V c)) (aG V c) (aBe V c) (aX V c)

/-- Point `t`'s block of the aggregated sums. -/
abbrev bAgg (c : Dev nD) (t : Fin cfg6.N) : Spec.Mat 5000 128 := iblk6 V c 0 t
/-- Point `t`'s block of the degree factors. -/
abbrev bD (c : Dev nD) (t : Fin cfg6.N) : Spec.Mat 5000 1 := iblk6 V c 1 t
/-- The bias row as point `t` holds it. -/
abbrev bB (c : Dev nD) (t : Fin cfg6.N) : Spec.Mat 1 128 := iblk6 V c 2 t
/-- The scale row as point `t` holds it. -/
abbrev bG (c : Dev nD) (t : Fin cfg6.N) : Spec.Mat 1 128 := iblk6 V c 3 t
/-- The shift row as point `t` holds it. -/
abbrev bBe (c : Dev nD) (t : Fin cfg6.N) : Spec.Mat 1 128 := iblk6 V c 4 t
/-- Point `t`'s block of the node features. -/
abbrev bX (c : Dev nD) (t : Fin cfg6.N) : Spec.Mat 5000 128 := iblk6 V c 5 t
/-- The weight as point `t` holds it. -/
abbrev bW (c : Dev nD) (t : Fin cfg6.N) : Spec.Mat 128 128 := iblk6 V c 6 t

theorem hz : (![0, 0] : Fin 2 → Nat) = fun _ => 0 := funext fun a => by fin_cases a <;> rfl

/-- The windows' block indices, decided over the grid: the row-blocked windows are at block `t` of the rows, the whole
    rows and the whole weight at block 0. -/
theorem idx_facts : ∀ t : Fin cfg6.N,
    (win6_0.index t (0 : Fin 2) = t.val ∧ win6_0.index t (1 : Fin 2) = 0)
    ∧ (win6_1.index t (0 : Fin 2) = t.val ∧ win6_1.index t (1 : Fin 2) = 0)
    ∧ (win6_2.index t (0 : Fin 2) = 0 ∧ win6_2.index t (1 : Fin 2) = 0)
    ∧ (win6_3.index t (0 : Fin 2) = 0 ∧ win6_3.index t (1 : Fin 2) = 0)
    ∧ (win6_4.index t (0 : Fin 2) = 0 ∧ win6_4.index t (1 : Fin 2) = 0)
    ∧ (win6_5.index t (0 : Fin 2) = t.val ∧ win6_5.index t (1 : Fin 2) = 0)
    ∧ (win6_6.index t (0 : Fin 2) = 0 ∧ win6_6.index t (1 : Fin 2) = 0)
    ∧ (win6_7.index t (0 : Fin 2) = t.val ∧ win6_7.index t (1 : Fin 2) = 0)
    ∧ (win6_8.index t (0 : Fin 2) = t.val ∧ win6_8.index t (1 : Fin 2) = 0) :=
  (by decide +kernel : ∀ t : Fin grid6.N, _)

/-- Row `p` of point `t`'s blocks is row `5000·t + p` of the arrays. -/
def rowOf (t : Fin cfg6.N) (p : Fin 5000) : Fin 50000 :=
  ⟨t.val * 5000 + p.val, by have := t.isLt; have hN : cfg6.N = 10 := N_6; have := p.isLt; omega⟩

/-- The block of the aggregated sums at `(p, q)`. -/
theorem bAgg_apply (c : Dev nD) (t : Fin cfg6.N) (p : Fin 5000) (q : Fin 128) :
    bAgg V c t (ix2 p q) = aAgg V c (ix2 (rowOf t p) q) := by
  obtain ⟨⟨e0, e1⟩, -⟩ := idx_facts t
  show V c (Pipeline.arrRef spec6 0) (((cfg6.win 0).blk t).view.emb (ix2 p q)) = V c (Pipeline.arrRef spec6 0) (ix2 (rowOf t p) q)
  refine congrArg _ (funext fun a => Fin.ext ?_)
  match a with
  | ⟨0, _⟩ => show win6_0.index t (0 : Fin 2) * 5000 + 1 * p.val = t.val * 5000 + p.val; rw [e0]; omega
  | ⟨1, _⟩ => show win6_0.index t (1 : Fin 2) * 128 + 1 * q.val = q.val; rw [e1]; omega

/-- The block of the degree factors at `(p, 0)`. -/
theorem bD_apply (c : Dev nD) (t : Fin cfg6.N) (p : Fin 5000) :
    bD V c t (ix2 p (0 : Fin 1)) = aD V c (ix2 (rowOf t p) (0 : Fin 1)) := by
  obtain ⟨-, ⟨e0, e1⟩, -⟩ := idx_facts t
  show V c (Pipeline.arrRef spec6 1) (((cfg6.win 1).blk t).view.emb (ix2 p (0 : Fin 1))) = V c (Pipeline.arrRef spec6 1) (ix2 (rowOf t p) (0 : Fin 1))
  refine congrArg _ (funext fun a => Fin.ext ?_)
  match a with
  | ⟨0, _⟩ => show win6_1.index t (0 : Fin 2) * 5000 + 1 * p.val = t.val * 5000 + p.val; rw [e0]; omega
  | ⟨1, _⟩ => show win6_1.index t (1 : Fin 2) * 1 + 1 * 0 = 0; rw [e1]

/-- The block of the node features at `(p, q)`. -/
theorem bX_apply (c : Dev nD) (t : Fin cfg6.N) (p : Fin 5000) (q : Fin 128) :
    bX V c t (ix2 p q) = aX V c (ix2 (rowOf t p) q) := by
  obtain ⟨-, -, -, -, -, ⟨e0, e1⟩, -⟩ := idx_facts t
  show V c (Pipeline.arrRef spec6 5) (((cfg6.win 5).blk t).view.emb (ix2 p q)) = V c (Pipeline.arrRef spec6 5) (ix2 (rowOf t p) q)
  refine congrArg _ (funext fun a => Fin.ext ?_)
  match a with
  | ⟨0, _⟩ => show win6_5.index t (0 : Fin 2) * 5000 + 1 * p.val = t.val * 5000 + p.val; rw [e0]; omega
  | ⟨1, _⟩ => show win6_5.index t (1 : Fin 2) * 128 + 1 * q.val = q.val; rw [e1]; omega

/-- Every point holds the whole bias row. -/
theorem bB_eq (c : Dev nD) (t : Fin cfg6.N) : bB V c t = aB V c := by
  obtain ⟨-, -, ⟨e0, e1⟩, -⟩ := idx_facts t
  funext y
  show V c (Pipeline.arrRef spec6 2) (((cfg6.win 2).blk t).view.emb y) = V c (Pipeline.arrRef spec6 2) y
  refine congrArg _ (funext fun a => Fin.ext ?_)
  match a with
  | ⟨0, _⟩ => show win6_2.index t (0 : Fin 2) * 1 + 1 * (y 0).val = (y 0).val; rw [e0]; omega
  | ⟨1, _⟩ => show win6_2.index t (1 : Fin 2) * 128 + 1 * (y 1).val = (y 1).val; rw [e1]; omega

/-- Every point holds the whole scale row. -/
theorem bG_eq (c : Dev nD) (t : Fin cfg6.N) : bG V c t = aG V c := by
  obtain ⟨-, -, -, ⟨e0, e1⟩, -⟩ := idx_facts t
  funext y
  show V c (Pipeline.arrRef spec6 3) (((cfg6.win 3).blk t).view.emb y) = V c (Pipeline.arrRef spec6 3) y
  refine congrArg _ (funext fun a => Fin.ext ?_)
  match a with
  | ⟨0, _⟩ => show win6_3.index t (0 : Fin 2) * 1 + 1 * (y 0).val = (y 0).val; rw [e0]; omega
  | ⟨1, _⟩ => show win6_3.index t (1 : Fin 2) * 128 + 1 * (y 1).val = (y 1).val; rw [e1]; omega

/-- Every point holds the whole shift row. -/
theorem bBe_eq (c : Dev nD) (t : Fin cfg6.N) : bBe V c t = aBe V c := by
  obtain ⟨-, -, -, -, ⟨e0, e1⟩, -⟩ := idx_facts t
  funext y
  show V c (Pipeline.arrRef spec6 4) (((cfg6.win 4).blk t).view.emb y) = V c (Pipeline.arrRef spec6 4) y
  refine congrArg _ (funext fun a => Fin.ext ?_)
  match a with
  | ⟨0, _⟩ => show win6_4.index t (0 : Fin 2) * 1 + 1 * (y 0).val = (y 0).val; rw [e0]; omega
  | ⟨1, _⟩ => show win6_4.index t (1 : Fin 2) * 128 + 1 * (y 1).val = (y 1).val; rw [e1]; omega

/-- Every point holds the whole weight. -/
theorem bW_eq (c : Dev nD) (t : Fin cfg6.N) : bW V c t = aW V c := by
  obtain ⟨-, -, -, -, -, -, ⟨e0, e1⟩, -⟩ := idx_facts t
  funext y
  show V c (Pipeline.arrRef spec6 6) (((cfg6.win 6).blk t).view.emb y) = V c (Pipeline.arrRef spec6 6) y
  refine congrArg _ (funext fun a => Fin.ext ?_)
  match a with
  | ⟨0, _⟩ => show win6_6.index t (0 : Fin 2) * 128 + 1 * (y 0).val = (y 0).val; rw [e0]; omega
  | ⟨1, _⟩ => show win6_6.index t (1 : Fin 2) * 128 + 1 * (y 1).val = (y 1).val; rw [e1]; omega

/-- Entry `(p, q)` of point `t`'s block of the first result is entry `(5000·t + p, q)` of its array. -/
theorem newx_emb (t : Fin cfg6.N) (p : Fin 5000) (q : Fin 128) :
    ((cfg6.win 7).blk t).view.emb (ix2 p q) = ix2 (rowOf t p) q := by
  obtain ⟨-, -, -, -, -, -, -, ⟨e0, e1⟩, -⟩ := idx_facts t
  refine funext fun a => Fin.ext ?_
  match a with
  | ⟨0, _⟩ => show win6_7.index t (0 : Fin 2) * 5000 + 1 * p.val = t.val * 5000 + p.val; rw [e0]; omega
  | ⟨1, _⟩ => show win6_7.index t (1 : Fin 2) * 128 + 1 * q.val = q.val; rw [e1]; omega

/-- The same for the second result. -/
theorem lin_emb (t : Fin cfg6.N) (p : Fin 5000) (q : Fin 128) :
    ((cfg6.win 8).blk t).view.emb (ix2 p q) = ix2 (rowOf t p) q := by
  obtain ⟨-, -, -, -, -, -, -, -, ⟨e0, e1⟩⟩ := idx_facts t
  refine funext fun a => Fin.ext ?_
  match a with
  | ⟨0, _⟩ => show win6_8.index t (0 : Fin 2) * 5000 + 1 * p.val = t.val * 5000 + p.val; rw [e0]; omega
  | ⟨1, _⟩ => show win6_8.index t (1 : Fin 2) * 128 + 1 * q.val = q.val; rw [e1]; omega

/-- Row `p` of point `t`'s first result block is row `5000·t + p` of the whole array's. -/
theorem newx_row (c : Dev nD) (t : Fin cfg6.N) (p : Fin 5000) (q : Fin 128) :
    Spec.post (Spec.scaled (bAgg V c t) (bD V c t) (aB V c)) (aG V c) (aBe V c) (bX V c t) (ix2 p q)
      = newX V c (ix2 (rowOf t p) q) :=
  post_scaled_row (bAgg V c t) (bD V c t) (aAgg V c) (aD V c) (aB V c) (aG V c) (aBe V c) (bX V c t) (aX V c) p (rowOf t p)
    (fun q => bAgg_apply V c t p q) (bD_apply V c t p) (fun q => bX_apply V c t p q) q

/-! ## From the blocks to the arrays -/

/-- WHAT POINT `t` WRITES BACK to the first result is block `t` of the whole array's. -/
theorem flushed_newx (c : Dev nD) (t : Fin cfg6.N) :
    (dat6 (F := Ideal) V c).flushed 7 t = ((cfg6.win 7).blk t).view.read (Elt Ideal) (newX V c) := by
  show (cfg6.win 7).cut (grid6.coords t) ((dat6 (F := Ideal) V c).after 7 t) = _
  rw [after6_7]
  unfold out6_7
  rw [View.canon_unit_zero hz]
  simp only [View.ld_unit_zero (S := S5000x128) hz, View.ld_unit_zero (S := S5000x1) hz, View.ld_unit_zero (S := S1x128) hz]
  rw [pay_post]
  funext j
  obtain ⟨p, q, rfl⟩ : ∃ (p : Fin 5000) (q : Fin 128), j = ix2 p q := ⟨j 0, j 1, eq_ix2 j⟩
  show Spec.post (Spec.scaled (bAgg V c t) (bD V c t) (bB V c t)) (bG V c t) (bBe V c t) (bX V c t) (ix2 p q)
    = newX V c (((cfg6.win 7).blk t).view.emb (ix2 p q))
  rw [newx_emb, bB_eq, bG_eq, bBe_eq]
  exact newx_row V c t p q

/-- WHAT POINT `t` WRITES BACK to the second result is block `t` of the whole array's. -/
theorem flushed_lin (c : Dev nD) (t : Fin cfg6.N) :
    (dat6 (F := Ideal) V c).flushed 8 t
      = ((cfg6.win 8).blk t).view.read (Elt Ideal) (Spec.lin (newX V c) (aW V c) (aD V c)) := by
  show (cfg6.win 8).cut (grid6.coords t) ((dat6 (F := Ideal) V c).after 8 t) = _
  rw [after6_8]
  unfold out6_8
  rw [View.canon_unit_zero hz]
  simp only [View.ld_unit_zero (S := S5000x128) hz, View.ld_unit_zero (S := S5000x1) hz, View.ld_unit_zero (S := S1x128) hz,
    View.ld_unit_zero (S := S128x128) hz]
  rw [pay_post, pay_lin]
  funext j
  obtain ⟨p, q, rfl⟩ : ∃ (p : Fin 5000) (q : Fin 128), j = ix2 p q := ⟨j 0, j 1, eq_ix2 j⟩
  show Spec.lin (Spec.post (Spec.scaled (bAgg V c t) (bD V c t) (bB V c t)) (bG V c t) (bBe V c t) (bX V c t)) (bW V c t) (bD V c t) (ix2 p q)
    = Spec.lin (newX V c) (aW V c) (aD V c) (((cfg6.win 8).blk t).view.emb (ix2 p q))
  rw [lin_emb, bB_eq, bG_eq, bBe_eq, bW_eq]
  exact lin_row _ (newX V c) (aW V c) (bD V c t) (aD V c) p (rowOf t p) (fun k => newx_row V c t p k) (bD_apply V c t p) q

/-- An index of the first result's array is in point `t`'s block iff each coordinate is in the block's range on its axis. -/
theorem mem_blk_newx (t : Fin cfg6.N) (i : S50000x128.Idx) :
    i ∈ ((cfg6.win 7).blk t).view.set ↔ ∀ a : Fin 2, win6_7.index t a * S5000x128.size a ≤ (i a).val ∧ (i a).val < win6_7.index t a * S5000x128.size a + S5000x128.size a := by
  show i ∈ ((View.whole (Pipeline.arrRef spec6 7)).slice (win6_7.rect t)).set ↔ _
  rw [View.set_slice_whole, Rect.mem_set_unit]
  exact Iff.rfl

/-- The same for the second result's array. -/
theorem mem_blk_lin (t : Fin cfg6.N) (i : S50000x128.Idx) :
    i ∈ ((cfg6.win 8).blk t).view.set ↔ ∀ a : Fin 2, win6_8.index t a * S5000x128.size a ≤ (i a).val ∧ (i a).val < win6_8.index t a * S5000x128.size a + S5000x128.size a := by
  show i ∈ ((View.whole (Pipeline.arrRef spec6 8)).slice (win6_8.rect t)).set ↔ _
  rw [View.set_slice_whole, Rect.mem_set_unit]
  exact Iff.rfl

/-- Row `r` of the first result's array is in the block of point `r / 5000`. -/
theorem cover_newx (i : S50000x128.Idx) :
    ∃ t : Fin cfg6.N, (cfg6.win 7).flush t = true ∧ i ∈ ((cfg6.win 7).blk t).view.set := by
  have hi0 : (i 0).val < 50000 := (i 0).isLt
  have hi1 : (i 1).val < 128 := (i 1).isLt
  have hN : cfg6.N = 10 := N_6
  obtain ⟨t, ht⟩ : ∃ t : Fin cfg6.N, t.val = (i 0).val / 5000 := ⟨⟨(i 0).val / 5000, by omega⟩, rfl⟩
  obtain ⟨-, -, -, -, -, -, -, ⟨e0, e1⟩, -⟩ := idx_facts t
  refine ⟨t, flush6_7 t, ?_⟩
  rw [mem_blk_newx]
  intro a
  match a with
  | ⟨0, _⟩ => show win6_7.index t (0 : Fin 2) * 5000 ≤ (i 0).val ∧ (i 0).val < win6_7.index t (0 : Fin 2) * 5000 + 5000; omega
  | ⟨1, _⟩ => show win6_7.index t (1 : Fin 2) * 128 ≤ (i 1).val ∧ (i 1).val < win6_7.index t (1 : Fin 2) * 128 + 128; omega

/-- The same for the second result's array. -/
theorem cover_lin (i : S50000x128.Idx) :
    ∃ t : Fin cfg6.N, (cfg6.win 8).flush t = true ∧ i ∈ ((cfg6.win 8).blk t).view.set := by
  have hi0 : (i 0).val < 50000 := (i 0).isLt
  have hi1 : (i 1).val < 128 := (i 1).isLt
  have hN : cfg6.N = 10 := N_6
  obtain ⟨t, ht⟩ : ∃ t : Fin cfg6.N, t.val = (i 0).val / 5000 := ⟨⟨(i 0).val / 5000, by omega⟩, rfl⟩
  obtain ⟨-, -, -, -, -, -, -, -, ⟨e0, e1⟩⟩ := idx_facts t
  refine ⟨t, flush6_8 t, ?_⟩
  rw [mem_blk_lin]
  intro a
  match a with
  | ⟨0, _⟩ => show win6_8.index t (0 : Fin 2) * 5000 ≤ (i 0).val ∧ (i 0).val < win6_8.index t (0 : Fin 2) * 5000 + 5000; omega
  | ⟨1, _⟩ => show win6_8.index t (1 : Fin 2) * 128 ≤ (i 1).val ∧ (i 1).val < win6_8.index t (1 : Fin 2) * 128 + 128; omega

/-- THE FIRST ARRAY after the call: the node features leaving the layer, of the arrays as the call finds them. -/
theorem final_newx (c : Dev nD) : (dat6 (F := Ideal) V c).arrAt 7 cfg6.N = newX V c :=
  (dat6 (F := Ideal) V c).arrAt_eq_of_cover 7 _ (fun t _ => flushed_newx V c t) cover_newx

/-- THE SECOND ARRAY after the call: their product with the next weight, scaled row by row by the degree factors. -/
theorem final_lin (c : Dev nD) : (dat6 (F := Ideal) V c).arrAt 8 cfg6.N = Spec.lin (newX V c) (aW V c) (aD V c) :=
  (dat6 (F := Ideal) V c).arrAt_eq_of_cover 8 _ (fun t _ => flushed_lin V c t) cover_lin

end Cert.KernelIdeal.Val6

end
-- ==== Proof.KStep6.lean ====
/-
  One step of the kernel program's value chain: the second stream's first layer completed and its second prepared.

  When the stream's first feature kernel has run, the program holds the projected features `X0`, their pre-scaled
  rows `L0 = (X0·W[0])·dinv`, the two edge lists with their self-loops, and the degree factor column.  The stretch
  of host operations that follows gathers the rows of `L0` along the sources and sums them per destination, cuts row
  0 of the stacked bias, scale and shift arrays and sheet 1 of the stacked weights; the next kernel then forms

      X1 = X0 + max (layernorm (agg·dinv + b[0])·g[0] + be[0]) 0      and      L1 = (X1·W[1])·dinv

  over all 50000 nodes.  Nothing on the way writes the edge lists or the factor column.
-/
import proofs.«410635_j2241972928706_3_alg».proof.Proof.Gen.KernelIdeal.Frame
import proofs.«410635_j2241972928706_3_alg».proof.Proof.Spec
import proofs.«410635_j2241972928706_3_alg».proof.Proof.Val6
import proofs.«410635_j2241972928706_3_alg».proof.Proof.KHost
import proofs.«410635_j2241972928706_3_alg».proof.Proof.KNames
import Idealize.ShloMosaic.Lib.ValueIdx
import Idealize.ShloMosaic.Lib.StableHlo.Run
import Idealize.ShloMosaic.Lib.Pipeline.Value

noncomputable section

namespace Cert.KernelIdeal.KStep6

open Idealize.ShloMosaic Idealize.ShloMosaic.TcCoe Idealize.ShloMosaic.ValueIdx Idealize.SL.Sem
open Idealize.ShloMosaic.Pipeline (Dat)
open Cert.KernelIdeal Cert.KernelIdeal.Gen

variable (m : (ℓ : Loc nD τ sig) → Buf (Elt Ideal) ℓ) (ρ : Dev nD → PrngReg)

/-! ## The stretch before the kernel -/

/-- The stretch defines the values numbered 236 and up: a buffer numbered below keeps its contents through it. -/
theorem keep (V : Valuation τ sig (Elt Ideal)) (r : Ref sig .tc) (h : r.idx.val < 236) :
    StableHlo.after (hostOps6 (F := Ideal)) V (Proc.devRef .tc r) = V (Proc.devRef .tc r) :=
  StableHlo.after_of_forall_not_mem (b := Proc.devRef .tc r) _ _ (List.forall_iff_forall_mem.mp (by
    simp only [hostOps6, List.Forall, StableHlo.nullary_writes, StableHlo.unary_writes, StableHlo.binary_writes,
      StableHlo.ternary_writes, StableHlo.reshape_writes, Finset.mem_singleton]
    repeat' apply And.intro
    all_goals exact StableHlo.devRef_ne_of_ne (fun e => absurd (e ▸ h) (by decide))))

/-- The per-destination sums of the gathered rows, as the stretch leaves them: the aggregation of the rows it found. -/
theorem entry_agg (c : Dev nD) :
    W13 m ρ c (Proc.devRef .tc main_call0_v112)
      = KHost.aggFn (W12 m ρ c (Proc.devRef .tc main_call0_v108_1)) (W12 m ρ c (Proc.devRef .tc main_call0_v92))
          (W12 m ρ c (Proc.devRef .tc main_call0_v93)) := by
  show StableHlo.after hostOps6 (W12 m ρ c) (Proc.devRef .tc main_call0_v112) = _
  after_results_simp
  simp only [StableHlo.TRef.ofBuf, StableHlo.TRef.toBuf, cast_eq]
  rfl

/-- The bias row: row 0 of the stacked biases. -/
theorem entry_b (c : Dev nD) :
    W13 m ρ c (Proc.devRef .tc main_call0_v121) = KHost.rowFn0 (W12 m ρ c (Proc.devRef .tc main_arg11)) := by
  show StableHlo.after hostOps6 (W12 m ρ c) (Proc.devRef .tc main_call0_v121) = _
  after_results_simp
  simp only [StableHlo.TRef.ofBuf, StableHlo.TRef.toBuf, cast_eq]
  rfl

/-- The scale row: row 0 of the stacked scales. -/
theorem entry_g (c : Dev nD) :
    W13 m ρ c (Proc.devRef .tc main_call0_v122) = KHost.rowFn0 (W12 m ρ c (Proc.devRef .tc main_arg12)) := by
  show StableHlo.after hostOps6 (W12 m ρ c) (Proc.devRef .tc main_call0_v122) = _
  after_results_simp
  simp only [StableHlo.TRef.ofBuf, StableHlo.TRef.toBuf, cast_eq]
  rfl

/-- The shift row: row 0 of the stacked shifts. -/
theorem entry_be (c : Dev nD) :
    W13 m ρ c (Proc.devRef .tc main_call0_v123) = KHost.rowFn0 (W12 m ρ c (Proc.devRef .tc main_arg13)) := by
  show StableHlo.after hostOps6 (W12 m ρ c) (Proc.devRef .tc main_call0_v123) = _
  after_results_simp
  simp only [StableHlo.TRef.ofBuf, StableHlo.TRef.toBuf, cast_eq]
  rfl

/-- The next weight: sheet 1 of the stacked weights, narrowed. -/
theorem entry_w (c : Dev nD) :
    W13 m ρ c (Proc.devRef .tc main_call0_v124) = KHost.wFn1 (W12 m ρ c (Proc.devRef .tc main_arg10)) := by
  show StableHlo.after hostOps6 (W12 m ρ c) (Proc.devRef .tc main_call0_v124) = _
  after_results_simp
  simp only [StableHlo.TRef.ofBuf, StableHlo.TRef.toBuf, cast_eq]
  rfl

/-! ## The kernel, and what it leaves alone -/

/-- THE STEP: from the stream's projected features and their pre-scaled rows to the features after the first layer
    and their pre-scaled rows for the second, the edge lists and the factor column carried along. -/
theorem b6 (c : Dev nD)
    (hX : W12 m ρ c (Proc.devRef .tc main_call0_v108_0)
      = KNames.X0 (m ((c : Thread nD τ).loc main_arg1)) (m ((c : Thread nD τ).loc main_arg4)) (m ((c : Thread nD τ).loc main_arg5)))
    (hL : W12 m ρ c (Proc.devRef .tc main_call0_v108_1)
      = KNames.L0 (m ((c : Thread nD τ).loc main_arg1)) (m ((c : Thread nD τ).loc main_arg4)) (m ((c : Thread nD τ).loc main_arg5)) (m ((c : Thread nD τ).loc main_arg10)) (m ((c : Thread nD τ).loc main_arg17)))
    (hs : W12 m ρ c (Proc.devRef .tc main_call0_v92) = KHost.sFn (m ((c : Thread nD τ).loc main_arg17)))
    (hd : W12 m ρ c (Proc.devRef .tc main_call0_v93) = KHost.dFn (m ((c : Thread nD τ).loc main_arg17)))
    (hq : W12 m ρ c (Proc.devRef .tc main_call0_v102) = KHost.dinvFn (KHost.dFn (m ((c : Thread nD τ).loc main_arg17))))
    (hW : W12 m ρ c (Proc.devRef .tc main_arg10) = m ((c : Thread nD τ).loc main_arg10))
    (hB : W12 m ρ c (Proc.devRef .tc main_arg11) = m ((c : Thread nD τ).loc main_arg11))
    (hG : W12 m ρ c (Proc.devRef .tc main_arg12) = m ((c : Thread nD τ).loc main_arg12))
    (hBe : W12 m ρ c (Proc.devRef .tc main_arg13) = m ((c : Thread nD τ).loc main_arg13)) :
    W14 m ρ c (Proc.devRef .tc main_call0_v125_0)
        = KNames.X1 (m ((c : Thread nD τ).loc main_arg1)) (m ((c : Thread nD τ).loc main_arg4)) (m ((c : Thread nD τ).loc main_arg5)) (m ((c : Thread nD τ).loc main_arg10)) (m ((c : Thread nD τ).loc main_arg11)) (m ((c : Thread nD τ).loc main_arg12)) (m ((c : Thread nD τ).loc main_arg13)) (m ((c : Thread nD τ).loc main_arg17))
      ∧ W14 m ρ c (Proc.devRef .tc main_call0_v125_1)
        = KNames.L1 (m ((c : Thread nD τ).loc main_arg1)) (m ((c : Thread nD τ).loc main_arg4)) (m ((c : Thread nD τ).loc main_arg5)) (m ((c : Thread nD τ).loc main_arg10)) (m ((c : Thread nD τ).loc main_arg11)) (m ((c : Thread nD τ).loc main_arg12)) (m ((c : Thread nD τ).loc main_arg13)) (m ((c : Thread nD τ).loc main_arg17))
      ∧ W14 m ρ c (Proc.devRef .tc main_call0_v92) = KHost.sFn (m ((c : Thread nD τ).loc main_arg17))
      ∧ W14 m ρ c (Proc.devRef .tc main_call0_v93) = KHost.dFn (m ((c : Thread nD τ).loc main_arg17))
      ∧ W14 m ρ c (Proc.devRef .tc main_call0_v102) = KHost.dinvFn (KHost.dFn (m ((c : Thread nD τ).loc main_arg17))) := by
  -- the kernel's seven inputs, as the stretch leaves them
  have eAgg := entry_agg m ρ c
  rw [hL, hs, hd] at eAgg
  have eD : W13 m ρ c (Proc.devRef .tc main_call0_v102) = KHost.dinvFn (KHost.dFn (m ((c : Thread nD τ).loc main_arg17))) :=
    (keep _ main_call0_v102 (by decide)).trans hq
  have eB := entry_b m ρ c
  rw [hB] at eB
  have eG := entry_g m ρ c
  rw [hG] at eG
  have eBe := entry_be m ρ c
  rw [hBe] at eBe
  have eX : W13 m ρ c (Proc.devRef .tc main_call0_v108_0) = KNames.X0 (m ((c : Thread nD τ).loc main_arg1)) (m ((c : Thread nD τ).loc main_arg4)) (m ((c : Thread nD τ).loc main_arg5)) :=
    (keep _ main_call0_v108_0 (by decide)).trans hX
  have eW := entry_w m ρ c
  rw [hW] at eW
  -- the same, as the kernel's value module names them
  have eAgg' : Val6.aAgg (V13 m ρ) c = _ := eAgg
  have eD' : Val6.aD (V13 m ρ) c = _ := eD
  have eB' : Val6.aB (V13 m ρ) c = _ := eB
  have eG' : Val6.aG (V13 m ρ) c = _ := eG
  have eBe' : Val6.aBe (V13 m ρ) c = _ := eBe
  have eX' : Val6.aX (V13 m ρ) c = _ := eX
  have eW' : Val6.aW (V13 m ρ) c = _ := eW
  -- the kernel's two results
  have h7 := (W14_arr m ρ c 7).trans (Val6.final_newx (V13 m ρ) c)
  have h8 := (W14_arr m ρ c 8).trans (Val6.final_lin (V13 m ρ) c)
  unfold Val6.newX at h7 h8
  rw [eAgg', eD', eB', eG', eBe', eX'] at h7
  rw [eAgg', eD', eB', eG', eBe', eX', eW'] at h8
  refine ⟨h7, h8, ?_, ?_, ?_⟩
  · exact ((W14_of_ne m ρ c main_call0_v92 (by decide)).trans (keep _ main_call0_v92 (by decide))).trans hs
  · exact ((W14_of_ne m ρ c main_call0_v93 (by decide)).trans (keep _ main_call0_v93 (by decide))).trans hd
  · exact (((W14_arr m ρ c 1).trans (((dat6 (V13 m ρ) c).arrAt_in 1 rfl _).trans (A_eq6 (V13 m ρ) c 1))).trans
      (keep _ main_call0_v102 (by decide))).trans hq

end Cert.KernelIdeal.KStep6

end
-- ==== Proof.Val7.lean ====
/-
  The value of a stream's post-processing call fused with the next layer's product, read off its frame.

  The call runs on a grid of ten points.  Point `t` holds rows `5000·t … 5000·t + 4999` of the aggregated sums, of
  the degree factors (a column) and of the node features, and the whole bias, scale and shift rows and the whole next
  weight; it writes back the same rows of two results.  On its block the body computes

      new_x[p, c] = x[p, c] + max (((h[p, c] − μ_p) · rsqrt (σ²_p + ε)) · g[0, c] + be[0, c]) 0,   h[p, c] = agg[p, c] · d[p, 0] + b[0, c],
      lin[p, c]   = (∑ q, new_x[p, q] · w[q, c]) · d[p, 0].

  A row's mean and variance depend on that row alone, and an entry of a product on the left factor's row alone, so
  each block of a result is the whole array's result on those rows; the ten blocks cover the 50000 rows; so the two
  arrays end holding those functions of the arrays as the call finds them.
-/
import proofs.«410635_j2241972928706_3_alg».proof.Proof.Gen.KernelIdeal.Frame
import proofs.«410635_j2241972928706_3_alg».proof.Proof.Spec
import proofs.«410635_j2241972928706_3_alg».proof.Proof.LibBlockOps
import proofs.«410635_j2241972928706_3_alg».proof.Proof.NormResidual
import Idealize.ShloMosaic.Lib.Pipeline.Value
import Idealize.ShloMosaic.Lib.ValueIdx

set_option maxRecDepth 16384

noncomputable section

namespace Cert.KernelIdeal.Val7

open Idealize.ShloMosaic Idealize.ShloMosaic.TcCoe Idealize.ShloMosaic.ValueIdx Idealize.SL.Sem
open Idealize.ShloMosaic.Pipeline (Dat)
open Cert.KernelIdeal.Gen Cert.NormResidual

/-! ## A block of rows of a product -/

/-- An entry of a product reads the left factor in its own row only: row `p` of a block being row `P` of the array,
    the block's product at `(p, c)` is the array's at `(P, c)`. -/
theorem mm_row {n N k m : ℕ} (x' : Spec.Mat n k) (x : Spec.Mat N k) (w : Spec.Mat k m) (p : Fin n) (P : Fin N)
    (hx : ∀ q, x' (ix2 p q) = x (ix2 P q)) (c : Fin m) : Spec.mm x' w p c = Spec.mm x w P c :=
  Finset.sum_congr rfl fun q _ => by rw [hx q]

/-- The product scaled row by row by a column, likewise. -/
theorem lin_row {n N k m : ℕ} (x' : Spec.Mat n k) (x : Spec.Mat N k) (w : Spec.Mat k m) (d' : Spec.Mat n 1) (d : Spec.Mat N 1)
    (p : Fin n) (P : Fin N) (hx : ∀ q, x' (ix2 p q) = x (ix2 P q)) (hd : d' (ix2 p (0 : Fin 1)) = d (ix2 P (0 : Fin 1)))
    (c : Fin m) : Spec.lin x' w d' (ix2 p c) = Spec.lin x w d (ix2 P c) := by
  show Spec.mm x' w p c * d' (ix2 p (0 : Fin 1)) = Spec.mm x w P c * d (ix2 P (0 : Fin 1))
  rw [mm_row x' x w p P hx c, hd]

/-! ## The body's two blocks -/

/-- The first block the body computes is the stages of the normalisation, of its six loaded blocks. -/
theorem pay_stages (v0 : Vec Ideal S5000x128 .f32) (v2 : Vec Ideal S5000x1 .f32) (v6 v26 v30 : Vec Ideal S1x128 .f32)
    (v36 : Vec Ideal S5000x128 .f32) :
    k7_pay2 v0 v2 v6 v26 v30 v36
      = postBlock reduces_S5000x128_S5000 shapeCasts_S5000_S5000x1 broadcasts_S5000x1_S5000x128 broadcasts_S1x128_S5000x128
          shapeCasts_S5000x128_S5000x128 shapeCasts_S1x128_S1x128
          (scaledBlock broadcasts_S5000x1_S5000x128 broadcasts_S1x128_S5000x128 shapeCasts_S5000x128_S5000x128
            shapeCasts_S5000x1_S5000x1 shapeCasts_S1x128_S1x128 v0 v2 v6) v26 v30 v36 := rfl

/-- THE FIRST BLOCK'S VALUE: the residual block plus the rectified layer normalisation of the scaled, shifted aggregate. -/
theorem pay_post (v0 : Vec Ideal S5000x128 .f32) (v2 : Vec Ideal S5000x1 .f32) (v6 v26 v30 : Vec Ideal S1x128 .f32)
    (v36 : Vec Ideal S5000x128 .f32) :
    k7_pay2 v0 v2 v6 v26 v30 v36 = Spec.post (Spec.scaled v0 v2 v6) v26 v30 v36 := by
  rw [pay_stages, scaledBlock_eq, postBlock_eq]

/-- The product's dimension numbers: rows of the left factor by columns of the right, one contracted axis. -/
theorem dot_eq : dot_S5000x128_S128x128_S5000x128_1_0_0_1_n_n
    = BlockOps.rowCol dot_S5000x128_S128x128_S5000x128_1_0_0_1_n_n_wf := rfl

/-- THE SECOND BLOCK'S VALUE: the product of the first block with the weight, scaled row by row by the degree factors
    (the change of number format in front of the product is the identity on the extended reals). -/
theorem pay_lin (x : FVec Ideal S5000x128 .f32) (w : Vec Ideal S128x128 .bf16) (d : Vec Ideal S5000x1 .f32) :
    k7_pay1 (F := Ideal) x w d = Spec.lin x w d := by
  funext j
  obtain ⟨r, q, rfl⟩ : ∃ (r : Fin 5000) (q : Fin 128), j = ix2 r q := ⟨j 0, j 1, eq_ix2 j⟩
  unfold k7_pay1
  simp only [matmul]
  rw [mulf_apply, dot_eq, BlockOps.matmul_zero_apply, BlockOps.broadcastTo_a1_ab_apply, shapeCast_self, shapeCast_self]
  rfl

/-! ## The arrays and their blocks -/

-- the TensorCore's buffer contents when the call is entered
variable (V : (c : Dev nD) → (b : Ref sig .tc) → Buf (Elt Ideal) ((c : Thread nD τ).loc b))

/-- The aggregated sums as the call finds them. -/
abbrev aAgg (c : Dev nD) : Spec.Mat 50000 128 := V c (Pipeline.arrRef spec7 0)
/-- The degree factors, a column. -/
abbrev aD (c : Dev nD) : Spec.Mat 50000 1 := V c (Pipeline.arrRef spec7 1)
/-- The bias row. -/
abbrev aB (c : Dev nD) : Spec.Mat 1 128 := V c (Pipeline.arrRef spec7 2)
/-- The scale row. -/
abbrev aG (c : Dev nD) : Spec.Mat 1 128 := V c (Pipeline.arrRef spec7 3)
/-- The shift row. -/
abbrev aBe (c : Dev nD) : Spec.Mat 1 128 := V c (Pipeline.arrRef spec7 4)
/-- The node features, the residual. -/
abbrev aX (c : Dev nD) : Spec.Mat 50000 128 := V c (Pipeline.arrRef spec7 5)
/-- The next layer's weight. -/
abbrev aW (c : Dev nD) : Spec.Mat 128 128 := V c (Pipeline.arrRef spec7 6)

/-- The node features leaving the layer: the residual plus the rectified layer normalisation of the scaled, shifted
    aggregate. -/
abbrev newX (c : Dev nD) : Spec.Mat 50000 128 :=
  Spec.post (Spec.scaled (aAgg V c) (aD V c) (aB V c)) (aG V c) (aBe V c) (aX V c)

/-- Point `t`'s block of the aggregated sums. -/
abbrev bAgg (c : Dev nD) (t : Fin cfg7.N) : Spec.Mat 5000 128 := iblk7 V c 0 t
/-- Point `t`'s block of the degree factors. -/
abbrev bD (c : Dev nD) (t : Fin cfg7.N) : Spec.Mat 5000 1 := iblk7 V c 1 t
/-- The bias row as point `t` holds it. -/
abbrev bB (c : Dev nD) (t : Fin cfg7.N) : Spec.Mat 1 128 := iblk7 V c 2 t
/-- The scale row as point `t` holds it. -/
abbrev bG (c : Dev nD) (t : Fin cfg7.N) : Spec.Mat 1 128 := iblk7 V c 3 t
/-- The shift row as point `t` holds it. -/
abbrev bBe (c : Dev nD) (t : Fin cfg7.N) : Spec.Mat 1 128 := iblk7 V c 4 t
/-- Point `t`'s block of the node features. -/
abbrev bX (c : Dev nD) (t : Fin cfg7.N) : Spec.Mat 5000 128 := iblk7 V c 5 t
/-- The weight as point `t` holds it. -/
abbrev bW (c : Dev nD) (t : Fin cfg7.N) : Spec.Mat 128 128 := iblk7 V c 6 t

theorem hz : (![0, 0] : Fin 2 → Nat) = fun _ => 0 := funext fun a => by fin_cases a <;> rfl

/-- The windows' block indices, decided over the grid: the row-blocked windows are at block `t` of the rows, the whole
    rows and the whole weight at block 0. -/
theorem idx_facts : ∀ t : Fin cfg7.N,
    (win7_0.index t (0 : Fin 2) = t.val ∧ win7_0.index t (1 : Fin 2) = 0)
    ∧ (win7_1.index t (0 : Fin 2) = t.val ∧ win7_1.index t (1 : Fin 2) = 0)
    ∧ (win7_2.index t (0 : Fin 2) = 0 ∧ win7_2.index t (1 : Fin 2) = 0)
    ∧ (win7_3.index t (0 : Fin 2) = 0 ∧ win7_3.index t (1 : Fin 2) = 0)
    ∧ (win7_4.index t (0 : Fin 2) = 0 ∧ win7_4.index t (1 : Fin 2) = 0)
    ∧ (win7_5.index t (0 : Fin 2) = t.val ∧ win7_5.index t (1 : Fin 2) = 0)
    ∧ (win7_6.index t (0 : Fin 2) = 0 ∧ win7_6.index t (1 : Fin 2) = 0)
    ∧ (win7_7.index t (0 : Fin 2) = t.val ∧ win7_7.index t (1 : Fin 2) = 0)
    ∧ (win7_8.index t (0 : Fin 2) = t.val ∧ win7_8.index t (1 : Fin 2) = 0) :=
  (by decide +kernel : ∀ t : Fin grid7.N, _)

/-- Row `p` of point `t`'s blocks is row `5000·t + p` of the arrays. -/
def rowOf (t : Fin cfg7.N) (p : Fin 5000) : Fin 50000 :=
  ⟨t.val * 5000 + p.val, by have := t.isLt; have hN : cfg7.N = 10 := N_7; have := p.isLt; omega⟩

/-- The block of the aggregated sums at `(p, q)`. -/
theorem bAgg_apply (c : Dev nD) (t : Fin cfg7.N) (p : Fin 5000) (q : Fin 128) :
    bAgg V c t (ix2 p q) = aAgg V c (ix2 (rowOf t p) q) := by
  obtain ⟨⟨e0, e1⟩, -⟩ := idx_facts t
  show V c (Pipeline.arrRef spec7 0) (((cfg7.win 0).blk t).view.emb (ix2 p q)) = V c (Pipeline.arrRef spec7 0) (ix2 (rowOf t p) q)
  refine congrArg _ (funext fun a => Fin.ext ?_)
  match a with
  | ⟨0, _⟩ => show win7_0.index t (0 : Fin 2) * 5000 + 1 * p.val = t.val * 5000 + p.val; rw [e0]; omega
  | ⟨1, _⟩ => show win7_0.index t (1 : Fin 2) * 128 + 1 * q.val = q.val; rw [e1]; omega

/-- The block of the degree factors at `(p, 0)`. -/
theorem bD_apply (c : Dev nD) (t : Fin cfg7.N) (p : Fin 5000) :
    bD V c t (ix2 p (0 : Fin 1)) = aD V c (ix2 (rowOf t p) (0 : Fin 1)) := by
  obtain ⟨-, ⟨e0, e1⟩, -⟩ := idx_facts t
  show V c (Pipeline.arrRef spec7 1) (((cfg7.win 1).blk t).view.emb (ix2 p (0 : Fin 1))) = V c (Pipeline.arrRef spec7 1) (ix2 (rowOf t p) (0 : Fin 1))
  refine congrArg _ (funext fun a => Fin.ext ?_)
  match a with
  | ⟨0, _⟩ => show win7_1.index t (0 : Fin 2) * 5000 + 1 * p.val = t.val * 5000 + p.val; rw [e0]; omega
  | ⟨1, _⟩ => show win7_1.index t (1 : Fin 2) * 1 + 1 * 0 = 0; rw [e1]

/-- The block of the node features at `(p, q)`. -/
theorem bX_apply (c : Dev nD) (t : Fin cfg7.N) (p : Fin 5000) (q : Fin 128) :
    bX V c t (ix2 p q) = aX V c (ix2 (rowOf t p) q) := by
  obtain ⟨-, -, -, -, -, ⟨e0, e1⟩, -⟩ := idx_facts t
  show V c (Pipeline.arrRef spec7 5) (((cfg7.win 5).blk t).view.emb (ix2 p q)) = V c (Pipeline.arrRef spec7 5) (ix2 (rowOf t p) q)
  refine congrArg _ (funext fun a => Fin.ext ?_)
  match a with
  | ⟨0, _⟩ => show win7_5.index t (0 : Fin 2) * 5000 + 1 * p.val = t.val * 5000 + p.val; rw [e0]; omega
  | ⟨1, _⟩ => show win7_5.index t (1 : Fin 2) * 128 + 1 * q.val = q.val; rw [e1]; omega

/-- Every point holds the whole bias row. -/
theorem bB_eq (c : Dev nD) (t : Fin cfg7.N) : bB V c t = aB V c := by
  obtain ⟨-, -, ⟨e0, e1⟩, -⟩ := idx_facts t
  funext y
  show V c (Pipeline.arrRef spec7 2) (((cfg7.win 2).blk t).view.emb y) = V c (Pipeline.arrRef spec7 2) y
  refine congrArg _ (funext fun a => Fin.ext ?_)
  match a with
  | ⟨0, _⟩ => show win7_2.index t (0 : Fin 2) * 1 + 1 * (y 0).val = (y 0).val; rw [e0]; omega
  | ⟨1, _⟩ => show win7_2.index t (1 : Fin 2) * 128 + 1 * (y 1).val = (y 1).val; rw [e1]; omega

/-- Every point holds the whole scale row. -/
theorem bG_eq (c : Dev nD) (t : Fin cfg7.N) : bG V c t = aG V c := by
  obtain ⟨-, -, -, ⟨e0, e1⟩, -⟩ := idx_facts t
  funext y
  show V c (Pipeline.arrRef spec7 3) (((cfg7.win 3).blk t).view.emb y) = V c (Pipeline.arrRef spec7 3) y
  refine congrArg _ (funext fun a => Fin.ext ?_)
  match a with
  | ⟨0, _⟩ => show win7_3.index t (0 : Fin 2) * 1 + 1 * (y 0).val = (y 0).val; rw [e0]; omega
  | ⟨1, _⟩ => show win7_3.index t (1 : Fin 2) * 128 + 1 * (y 1).val = (y 1).val; rw [e1]; omega

/-- Every point holds the whole shift row. -/
theorem bBe_eq (c : Dev nD) (t : Fin cfg7.N) : bBe V c t = aBe V c := by
  obtain ⟨-, -, -, -, ⟨e0, e1⟩, -⟩ := idx_facts t
  funext y
  show V c (Pipeline.arrRef spec7 4) (((cfg7.win 4).blk t).view.emb y) = V c (Pipeline.arrRef spec7 4) y
  refine congrArg _ (funext fun a => Fin.ext ?_)
  match a with
  | ⟨0, _⟩ => show win7_4.index t (0 : Fin 2) * 1 + 1 * (y 0).val = (y 0).val; rw [e0]; omega
  | ⟨1, _⟩ => show win7_4.index t (1 : Fin 2) * 128 + 1 * (y 1).val = (y 1).val; rw [e1]; omega

/-- Every point holds the whole weight. -/
theorem bW_eq (c : Dev nD) (t : Fin cfg7.N) : bW V c t = aW V c := by
  obtain ⟨-, -, -, -, -, -, ⟨e0, e1⟩, -⟩ := idx_facts t
  funext y
  show V c (Pipeline.arrRef spec7 6) (((cfg7.win 6).blk t).view.emb y) = V c (Pipeline.arrRef spec7 6) y
  refine congrArg _ (funext fun a => Fin.ext ?_)
  match a with
  | ⟨0, _⟩ => show win7_6.index t (0 : Fin 2) * 128 + 1 * (y 0).val = (y 0).val; rw [e0]; omega
  | ⟨1, _⟩ => show win7_6.index t (1 : Fin 2) * 128 + 1 * (y 1).val = (y 1).val; rw [e1]; omega

/-- Entry `(p, q)` of point `t`'s block of the first result is entry `(5000·t + p, q)` of its array. -/
theorem newx_emb (t : Fin cfg7.N) (p : Fin 5000) (q : Fin 128) :
    ((cfg7.win 7).blk t).view.emb (ix2 p q) = ix2 (rowOf t p) q := by
  obtain ⟨-, -, -, -, -, -, -, ⟨e0, e1⟩, -⟩ := idx_facts t
  refine funext fun a => Fin.ext ?_
  match a with
  | ⟨0, _⟩ => show win7_7.index t (0 : Fin 2) * 5000 + 1 * p.val = t.val * 5000 + p.val; rw [e0]; omega
  | ⟨1, _⟩ => show win7_7.index t (1 : Fin 2) * 128 + 1 * q.val = q.val; rw [e1]; omega

/-- The same for the second result. -/
theorem lin_emb (t : Fin cfg7.N) (p : Fin 5000) (q : Fin 128) :
    ((cfg7.win 8).blk t).view.emb (ix2 p q) = ix2 (rowOf t p) q := by
  obtain ⟨-, -, -, -, -, -, -, -, ⟨e0, e1⟩⟩ := idx_facts t
  refine funext fun a => Fin.ext ?_
  match a with
  | ⟨0, _⟩ => show win7_8.index t (0 : Fin 2) * 5000 + 1 * p.val = t.val * 5000 + p.val; rw [e0]; omega
  | ⟨1, _⟩ => show win7_8.index t (1 : Fin 2) * 128 + 1 * q.val = q.val; rw [e1]; omega

/-- Row `p` of point `t`'s first result block is row `5000·t + p` of the whole array's. -/
theorem newx_row (c : Dev nD) (t : Fin cfg7.N) (p : Fin 5000) (q : Fin 128) :
    Spec.post (Spec.scaled (bAgg V c t) (bD V c t) (aB V c)) (aG V c) (aBe V c) (bX V c t) (ix2 p q)
      = newX V c (ix2 (rowOf t p) q) :=
  post_scaled_row (bAgg V c t) (bD V c t) (aAgg V c) (aD V c) (aB V c) (aG V c) (aBe V c) (bX V c t) (aX V c) p (rowOf t p)
    (fun q => bAgg_apply V c t p q) (bD_apply V c t p) (fun q => bX_apply V c t p q) q

/-! ## From the blocks to the arrays -/

/-- WHAT POINT `t` WRITES BACK to the first result is block `t` of the whole array's. -/
theorem flushed_newx (c : Dev nD) (t : Fin cfg7.N) :
    (dat7 (F := Ideal) V c).flushed 7 t = ((cfg7.win 7).blk t).view.read (Elt Ideal) (newX V c) := by
  show (cfg7.win 7).cut (grid7.coords t) ((dat7 (F := Ideal) V c).after 7 t) = _
  rw [after7_7]
  unfold out7_7
  rw [View.canon_unit_zero hz]
  simp only [View.ld_unit_zero (S := S5000x128) hz, View.ld_unit_zero (S := S5000x1) hz, View.ld_unit_zero (S := S1x128) hz]
  rw [pay_post]
  funext j
  obtain ⟨p, q, rfl⟩ : ∃ (p : Fin 5000) (q : Fin 128), j = ix2 p q := ⟨j 0, j 1, eq_ix2 j⟩
  show Spec.post (Spec.scaled (bAgg V c t) (bD V c t) (bB V c t)) (bG V c t) (bBe V c t) (bX V c t) (ix2 p q)
    = newX V c (((cfg7.win 7).blk t).view.emb (ix2 p q))
  rw [newx_emb, bB_eq, bG_eq, bBe_eq]
  exact newx_row V c t p q

/-- WHAT POINT `t` WRITES BACK to the second result is block `t` of the whole array's. -/
theorem flushed_lin (c : Dev nD) (t : Fin cfg7.N) :
    (dat7 (F := Ideal) V c).flushed 8 t
      = ((cfg7.win 8).blk t).view.read (Elt Ideal) (Spec.lin (newX V c) (aW V c) (aD V c)) := by
  show (cfg7.win 8).cut (grid7.coords t) ((dat7 (F := Ideal) V c).after 8 t) = _
  rw [after7_8]
  unfold out7_8
  rw [View.canon_unit_zero hz]
  simp only [View.ld_unit_zero (S := S5000x128) hz, View.ld_unit_zero (S := S5000x1) hz, View.ld_unit_zero (S := S1x128) hz,
    View.ld_unit_zero (S := S128x128) hz]
  rw [pay_post, pay_lin]
  funext j
  obtain ⟨p, q, rfl⟩ : ∃ (p : Fin 5000) (q : Fin 128), j = ix2 p q := ⟨j 0, j 1, eq_ix2 j⟩
  show Spec.lin (Spec.post (Spec.scaled (bAgg V c t) (bD V c t) (bB V c t)) (bG V c t) (bBe V c t) (bX V c t)) (bW V c t) (bD V c t) (ix2 p q)
    = Spec.lin (newX V c) (aW V c) (aD V c) (((cfg7.win 8).blk t).view.emb (ix2 p q))
  rw [lin_emb, bB_eq, bG_eq, bBe_eq, bW_eq]
  exact lin_row _ (newX V c) (aW V c) (bD V c t) (aD V c) p (rowOf t p) (fun k => newx_row V c t p k) (bD_apply V c t p) q

/-- An index of the first result's array is in point `t`'s block iff each coordinate is in the block's range on its axis. -/
theorem mem_blk_newx (t : Fin cfg7.N) (i : S50000x128.Idx) :
    i ∈ ((cfg7.win 7).blk t).view.set ↔ ∀ a : Fin 2, win7_7.index t a * S5000x128.size a ≤ (i a).val ∧ (i a).val < win7_7.index t a * S5000x128.size a + S5000x128.size a := by
  show i ∈ ((View.whole (Pipeline.arrRef spec7 7)).slice (win7_7.rect t)).set ↔ _
  rw [View.set_slice_whole, Rect.mem_set_unit]
  exact Iff.rfl

/-- The same for the second result's array. -/
theorem mem_blk_lin (t : Fin cfg7.N) (i : S50000x128.Idx) :
    i ∈ ((cfg7.win 8).blk t).view.set ↔ ∀ a : Fin 2, win7_8.index t a * S5000x128.size a ≤ (i a).val ∧ (i a).val < win7_8.index t a * S5000x128.size a + S5000x128.size a := by
  show i ∈ ((View.whole (Pipeline.arrRef spec7 8)).slice (win7_8.rect t)).set ↔ _
  rw [View.set_slice_whole, Rect.mem_set_unit]
  exact Iff.rfl

/-- Row `r` of the first result's array is in the block of point `r / 5000`. -/
theorem cover_newx (i : S50000x128.Idx) :
    ∃ t : Fin cfg7.N, (cfg7.win 7).flush t = true ∧ i ∈ ((cfg7.win 7).blk t).view.set := by
  have hi0 : (i 0).val < 50000 := (i 0).isLt
  have hi1 : (i 1).val < 128 := (i 1).isLt
  have hN : cfg7.N = 10 := N_7
  obtain ⟨t, ht⟩ : ∃ t : Fin cfg7.N, t.val = (i 0).val / 5000 := ⟨⟨(i 0).val / 5000, by omega⟩, rfl⟩
  obtain ⟨-, -, -, -, -, -, -, ⟨e0, e1⟩, -⟩ := idx_facts t
  refine ⟨t, flush7_7 t, ?_⟩
  rw [mem_blk_newx]
  intro a
  match a with
  | ⟨0, _⟩ => show win7_7.index t (0 : Fin 2) * 5000 ≤ (i 0).val ∧ (i 0).val < win7_7.index t (0 : Fin 2) * 5000 + 5000; omega
  | ⟨1, _⟩ => show win7_7.index t (1 : Fin 2) * 128 ≤ (i 1).val ∧ (i 1).val < win7_7.index t (1 : Fin 2) * 128 + 128; omega

/-- The same for the second result's array. -/
theorem cover_lin (i : S50000x128.Idx) :
    ∃ t : Fin cfg7.N, (cfg7.win 8).flush t = true ∧ i ∈ ((cfg7.win 8).blk t).view.set := by
  have hi0 : (i 0).val < 50000 := (i 0).isLt
  have hi1 : (i 1).val < 128 := (i 1).isLt
  have hN : cfg7.N = 10 := N_7
  obtain ⟨t, ht⟩ : ∃ t : Fin cfg7.N, t.val = (i 0).val / 5000 := ⟨⟨(i 0).val / 5000, by omega⟩, rfl⟩
  obtain ⟨-, -, -, -, -, -, -, -, ⟨e0, e1⟩⟩ := idx_facts t
  refine ⟨t, flush7_8 t, ?_⟩
  rw [mem_blk_lin]
  intro a
  match a with
  | ⟨0, _⟩ => show win7_8.index t (0 : Fin 2) * 5000 ≤ (i 0).val ∧ (i 0).val < win7_8.index t (0 : Fin 2) * 5000 + 5000; omega
  | ⟨1, _⟩ => show win7_8.index t (1 : Fin 2) * 128 ≤ (i 1).val ∧ (i 1).val < win7_8.index t (1 : Fin 2) * 128 + 128; omega

/-- THE FIRST ARRAY after the call: the node features leaving the layer, of the arrays as the call finds them. -/
theorem final_newx (c : Dev nD) : (dat7 (F := Ideal) V c).arrAt 7 cfg7.N = newX V c :=
  (dat7 (F := Ideal) V c).arrAt_eq_of_cover 7 _ (fun t _ => flushed_newx V c t) cover_newx

/-- THE SECOND ARRAY after the call: their product with the next weight, scaled row by row by the degree factors. -/
theorem final_lin (c : Dev nD) : (dat7 (F := Ideal) V c).arrAt 8 cfg7.N = Spec.lin (newX V c) (aW V c) (aD V c) :=
  (dat7 (F := Ideal) V c).arrAt_eq_of_cover 8 _ (fun t _ => flushed_lin V c t) cover_lin

end Cert.KernelIdeal.Val7

end
-- ==== Proof.KStep7.lean ====
/-
  One layer of the second stream, from the features X1 and their pre-scaled rows L1 to X2 and L2.

  Before the layer's kernel the program gathers the rows of L1 at the edges' sources (a row whose index is out of range
  replaced by a not-a-number row), sums them per destination into zeros (the aggregation), takes row 1 of the stacked
  bias, scale and shift as 1 × 128 rows, and matrix 2 of the stacked weights narrowed to the 16-bit format. The kernel
  then leaves, over all 50000 nodes, the next features  X2 = X1 + relu (layernorm (agg · dinv + b[1]) · g[1] + be[1])
  and their pre-scaled rows  L2 = (X2 · W[2]) · dinv  (module `Val7`). The edge lists and the degree factor column are
  not written on the way.
-/
import proofs.«410635_j2241972928706_3_alg».proof.Proof.Gen.KernelIdeal.Frame
import proofs.«410635_j2241972928706_3_alg».proof.Proof.Spec
import proofs.«410635_j2241972928706_3_alg».proof.Proof.Val7
import proofs.«410635_j2241972928706_3_alg».proof.Proof.KHost
import proofs.«410635_j2241972928706_3_alg».proof.Proof.KNames
import Idealize.ShloMosaic.Lib.StableHlo.Run
import Idealize.ShloMosaic.Lib.Pipeline.Value

noncomputable section

namespace Cert.KernelIdeal.KStep7

open Idealize.ShloMosaic Idealize.ShloMosaic.TcCoe Idealize.SL.Sem
open Idealize.ShloMosaic.Pipeline (Dat)
open Cert.KernelIdeal Cert.KernelIdeal.Gen

variable (m : (ℓ : Loc nD τ sig) → Buf (Elt Ideal) ℓ) (ρ : Dev nD → PrngReg)

/-! ## The stretch before the kernel, from any buffer contents `V` -/

section Stretch

variable (V : Valuation τ sig (Elt Ideal))

set_option maxRecDepth 8192 in
/-- It leaves the aggregation of the pre-scaled rows in the kernel's first input, -/
theorem entry_agg :
    StableHlo.after (hostOps7 (F := Ideal)) V (Proc.devRef .tc main_call0_v129)
      = KHost.aggFn (V (Proc.devRef .tc main_call0_v125_1)) (V (Proc.devRef .tc main_call0_v92))
          (V (Proc.devRef .tc main_call0_v93)) := by
  simp only [hostOps7, main_call0_call7, main_call0_call7_call0]
  after_results_simp
  simp only [StableHlo.TRef.ofBuf, StableHlo.TRef.toBuf, cast_eq]
  unfold KHost.aggFn KHost.takeFn KHost.inbFn KHost.sWI KHost.wrapFn KHost.dI
  rfl

/-- row 1 of the stacked bias in its third, -/
theorem entry_b :
    StableHlo.after (hostOps7 (F := Ideal)) V (Proc.devRef .tc main_call0_v138)
      = KHost.rowFn1 (V (Proc.devRef .tc main_arg11)) := by
  after_results_simp
  unfold KHost.rowFn1
  rfl

/-- row 1 of the stacked scale in its fourth, -/
theorem entry_g :
    StableHlo.after (hostOps7 (F := Ideal)) V (Proc.devRef .tc main_call0_v139)
      = KHost.rowFn1 (V (Proc.devRef .tc main_arg12)) := by
  after_results_simp
  unfold KHost.rowFn1
  rfl

/-- row 1 of the stacked shift in its fifth, -/
theorem entry_be :
    StableHlo.after (hostOps7 (F := Ideal)) V (Proc.devRef .tc main_call0_v140)
      = KHost.rowFn1 (V (Proc.devRef .tc main_arg13)) := by
  after_results_simp
  unfold KHost.rowFn1
  rfl

/-- and matrix 2 of the stacked weights, narrowed, in its seventh. -/
theorem entry_w :
    StableHlo.after (hostOps7 (F := Ideal)) V (Proc.devRef .tc main_call0_v141)
      = KHost.wFn2 (V (Proc.devRef .tc main_arg10)) := by
  after_results_simp
  unfold KHost.wFn2
  rfl

/-- It writes none of: the features, the sources, the destinations, the degree factor column. -/
theorem keep_x : StableHlo.after (hostOps7 (F := Ideal)) V (Proc.devRef .tc main_call0_v125_0) = V (Proc.devRef .tc main_call0_v125_0) := by
  after_results_simp
theorem keep_s : StableHlo.after (hostOps7 (F := Ideal)) V (Proc.devRef .tc main_call0_v92) = V (Proc.devRef .tc main_call0_v92) := by
  after_results_simp
theorem keep_d : StableHlo.after (hostOps7 (F := Ideal)) V (Proc.devRef .tc main_call0_v93) = V (Proc.devRef .tc main_call0_v93) := by
  after_results_simp
theorem keep_q : StableHlo.after (hostOps7 (F := Ideal)) V (Proc.devRef .tc main_call0_v102) = V (Proc.devRef .tc main_call0_v102) := by
  after_results_simp

end Stretch

/-! ## The step -/

/-- From X1, L1, the edge lists and the factor column before the stretch (and the four stacked arguments as launched)
    to X2, L2 after the kernel, the edge lists and the factor column unchanged. -/
theorem b7 (c : Dev nD)
    (hX : W14 m ρ c (Proc.devRef .tc main_call0_v125_0) = KNames.X1 (m ((c : Thread nD τ).loc main_arg1)) (m ((c : Thread nD τ).loc main_arg4)) (m ((c : Thread nD τ).loc main_arg5)) (m ((c : Thread nD τ).loc main_arg10)) (m ((c : Thread nD τ).loc main_arg11)) (m ((c : Thread nD τ).loc main_arg12)) (m ((c : Thread nD τ).loc main_arg13)) (m ((c : Thread nD τ).loc main_arg17)))
    (hL : W14 m ρ c (Proc.devRef .tc main_call0_v125_1) = KNames.L1 (m ((c : Thread nD τ).loc main_arg1)) (m ((c : Thread nD τ).loc main_arg4)) (m ((c : Thread nD τ).loc main_arg5)) (m ((c : Thread nD τ).loc main_arg10)) (m ((c : Thread nD τ).loc main_arg11)) (m ((c : Thread nD τ).loc main_arg12)) (m ((c : Thread nD τ).loc main_arg13)) (m ((c : Thread nD τ).loc main_arg17)))
    (hs : W14 m ρ c (Proc.devRef .tc main_call0_v92) = KHost.sFn (m ((c : Thread nD τ).loc main_arg17)))
    (hd : W14 m ρ c (Proc.devRef .tc main_call0_v93) = KHost.dFn (m ((c : Thread nD τ).loc main_arg17)))
    (hq : W14 m ρ c (Proc.devRef .tc main_call0_v102) = KHost.dinvFn (KHost.dFn (m ((c : Thread nD τ).loc main_arg17))))
    (hW : W14 m ρ c (Proc.devRef .tc main_arg10) = m ((c : Thread nD τ).loc main_arg10))
    (hB : W14 m ρ c (Proc.devRef .tc main_arg11) = m ((c : Thread nD τ).loc main_arg11))
    (hG : W14 m ρ c (Proc.devRef .tc main_arg12) = m ((c : Thread nD τ).loc main_arg12))
    (hBe : W14 m ρ c (Proc.devRef .tc main_arg13) = m ((c : Thread nD τ).loc main_arg13)) :
    W16 m ρ c (Proc.devRef .tc main_call0_v142_0) = KNames.X2 (m ((c : Thread nD τ).loc main_arg1)) (m ((c : Thread nD τ).loc main_arg4)) (m ((c : Thread nD τ).loc main_arg5)) (m ((c : Thread nD τ).loc main_arg10)) (m ((c : Thread nD τ).loc main_arg11)) (m ((c : Thread nD τ).loc main_arg12)) (m ((c : Thread nD τ).loc main_arg13)) (m ((c : Thread nD τ).loc main_arg17))
      ∧ W16 m ρ c (Proc.devRef .tc main_call0_v142_1) = KNames.L2 (m ((c : Thread nD τ).loc main_arg1)) (m ((c : Thread nD τ).loc main_arg4)) (m ((c : Thread nD τ).loc main_arg5)) (m ((c : Thread nD τ).loc main_arg10)) (m ((c : Thread nD τ).loc main_arg11)) (m ((c : Thread nD τ).loc main_arg12)) (m ((c : Thread nD τ).loc main_arg13)) (m ((c : Thread nD τ).loc main_arg17))
      ∧ W16 m ρ c (Proc.devRef .tc main_call0_v92) = KHost.sFn (m ((c : Thread nD τ).loc main_arg17))
      ∧ W16 m ρ c (Proc.devRef .tc main_call0_v93) = KHost.dFn (m ((c : Thread nD τ).loc main_arg17))
      ∧ W16 m ρ c (Proc.devRef .tc main_call0_v102) = KHost.dinvFn (KHost.dFn (m ((c : Thread nD τ).loc main_arg17))) := by
  -- the kernel's seven inputs as it finds them
  have eA : Val7.aAgg (V15 m ρ) c = KHost.aggFn (KNames.L1 (m ((c : Thread nD τ).loc main_arg1)) (m ((c : Thread nD τ).loc main_arg4)) (m ((c : Thread nD τ).loc main_arg5)) (m ((c : Thread nD τ).loc main_arg10)) (m ((c : Thread nD τ).loc main_arg11)) (m ((c : Thread nD τ).loc main_arg12)) (m ((c : Thread nD τ).loc main_arg13)) (m ((c : Thread nD τ).loc main_arg17))) (KHost.sFn (m ((c : Thread nD τ).loc main_arg17))) (KHost.dFn (m ((c : Thread nD τ).loc main_arg17))) :=
    (entry_agg (W14 m ρ c)).trans (by rw [hL, hs, hd])
  have eD : Val7.aD (V15 m ρ) c = KHost.dinvFn (KHost.dFn (m ((c : Thread nD τ).loc main_arg17))) := (keep_q (W14 m ρ c)).trans hq
  have eB : Val7.aB (V15 m ρ) c = KHost.rowFn1 (m ((c : Thread nD τ).loc main_arg11)) :=
    (entry_b (W14 m ρ c)).trans (by rw [hB])
  have eG : Val7.aG (V15 m ρ) c = KHost.rowFn1 (m ((c : Thread nD τ).loc main_arg12)) :=
    (entry_g (W14 m ρ c)).trans (by rw [hG])
  have eBe : Val7.aBe (V15 m ρ) c = KHost.rowFn1 (m ((c : Thread nD τ).loc main_arg13)) :=
    (entry_be (W14 m ρ c)).trans (by rw [hBe])
  have eX : Val7.aX (V15 m ρ) c = KNames.X1 (m ((c : Thread nD τ).loc main_arg1)) (m ((c : Thread nD τ).loc main_arg4)) (m ((c : Thread nD τ).loc main_arg5)) (m ((c : Thread nD τ).loc main_arg10)) (m ((c : Thread nD τ).loc main_arg11)) (m ((c : Thread nD τ).loc main_arg12)) (m ((c : Thread nD τ).loc main_arg13)) (m ((c : Thread nD τ).loc main_arg17)) := (keep_x (W14 m ρ c)).trans hX
  have eW : Val7.aW (V15 m ρ) c = KHost.wFn2 (m ((c : Thread nD τ).loc main_arg10)) :=
    (entry_w (W14 m ρ c)).trans (by rw [hW])
  -- the next features
  have eN : Val7.newX (V15 m ρ) c = KNames.X2 (m ((c : Thread nD τ).loc main_arg1)) (m ((c : Thread nD τ).loc main_arg4)) (m ((c : Thread nD τ).loc main_arg5)) (m ((c : Thread nD τ).loc main_arg10)) (m ((c : Thread nD τ).loc main_arg11)) (m ((c : Thread nD τ).loc main_arg12)) (m ((c : Thread nD τ).loc main_arg13)) (m ((c : Thread nD τ).loc main_arg17)) := by
    show Spec.post (Spec.scaled (Val7.aAgg (V15 m ρ) c) (Val7.aD (V15 m ρ) c) (Val7.aB (V15 m ρ) c))
      (Val7.aG (V15 m ρ) c) (Val7.aBe (V15 m ρ) c) (Val7.aX (V15 m ρ) c) = _
    rw [eA, eD, eB, eG, eBe, eX]
    unfold KNames.X2 KNames.nxt KNames.D2
    rfl
  refine ⟨?_, ?_, ?_, ?_, ?_⟩
  · exact ((W16_arr m ρ c 7).trans (Val7.final_newx (V15 m ρ) c)).trans eN
  · refine ((W16_arr m ρ c 8).trans (Val7.final_lin (V15 m ρ) c)).trans ?_
    rw [eN, eW, eD]
    unfold KNames.L2 KNames.D2
    rfl
  · exact (W16_of_ne m ρ c main_call0_v92 (by decide)).trans ((keep_s (W14 m ρ c)).trans hs)
  · exact (W16_of_ne m ρ c main_call0_v93 (by decide)).trans ((keep_d (W14 m ρ c)).trans hd)
  · -- the factor column is an input of the kernel: it leaves it as it found it
    exact ((W16_arr m ρ c 1).trans (((dat7 (V15 m ρ) c).arrAt_in 1 rfl _).trans (A_eq7 (V15 m ρ) c 1))).trans
      ((keep_q (W14 m ρ c)).trans hq)

end Cert.KernelIdeal.KStep7

end
-- ==== Proof.Val8.lean ====
/-
  The value of a stream's post-processing call fused with the next layer's product, read off its frame.

  The call runs on a grid of ten points.  Point `t` holds rows `5000·t … 5000·t + 4999` of the aggregated sums, of
  the degree factors (a column) and of the node features, and the whole bias, scale and shift rows and the whole next
  weight; it writes back the same rows of two results.  On its block the body computes

      new_x[p, c] = x[p, c] + max (((h[p, c] − μ_p) · rsqrt (σ²_p + ε)) · g[0, c] + be[0, c]) 0,   h[p, c] = agg[p, c] · d[p, 0] + b[0, c],
      lin[p, c]   = (∑ q, new_x[p, q] · w[q, c]) · d[p, 0].

  A row's mean and variance depend on that row alone, and an entry of a product on the left factor's row alone, so
  each block of a result is the whole array's result on those rows; the ten blocks cover the 50000 rows; so the two
  arrays end holding those functions of the arrays as the call finds them.
-/
import proofs.«410635_j2241972928706_3_alg».proof.Proof.Gen.KernelIdeal.Frame
import proofs.«410635_j2241972928706_3_alg».proof.Proof.Spec
import proofs.«410635_j2241972928706_3_alg».proof.Proof.LibBlockOps
import proofs.«410635_j2241972928706_3_alg».proof.Proof.NormResidual
import Idealize.ShloMosaic.Lib.Pipeline.Value
import Idealize.ShloMosaic.Lib.ValueIdx

set_option maxRecDepth 16384

noncomputable section

namespace Cert.KernelIdeal.Val8

open Idealize.ShloMosaic Idealize.ShloMosaic.TcCoe Idealize.ShloMosaic.ValueIdx Idealize.SL.Sem
open Idealize.ShloMosaic.Pipeline (Dat)
open Cert.KernelIdeal.Gen Cert.NormResidual

/-! ## A block of rows of a product -/

/-- An entry of a product reads the left factor in its own row only: row `p` of a block being row `P` of the array,
    the block's product at `(p, c)` is the array's at `(P, c)`. -/
theorem mm_row {n N k m : ℕ} (x' : Spec.Mat n k) (x : Spec.Mat N k) (w : Spec.Mat k m) (p : Fin n) (P : Fin N)
    (hx : ∀ q, x' (ix2 p q) = x (ix2 P q)) (c : Fin m) : Spec.mm x' w p c = Spec.mm x w P c :=
  Finset.sum_congr rfl fun q _ => by rw [hx q]

/-- The product scaled row by row by a column, likewise. -/
theorem lin_row {n N k m : ℕ} (x' : Spec.Mat n k) (x : Spec.Mat N k) (w : Spec.Mat k m) (d' : Spec.Mat n 1) (d : Spec.Mat N 1)
    (p : Fin n) (P : Fin N) (hx : ∀ q, x' (ix2 p q) = x (ix2 P q)) (hd : d' (ix2 p (0 : Fin 1)) = d (ix2 P (0 : Fin 1)))
    (c : Fin m) : Spec.lin x' w d' (ix2 p c) = Spec.lin x w d (ix2 P c) := by
  show Spec.mm x' w p c * d' (ix2 p (0 : Fin 1)) = Spec.mm x w P c * d (ix2 P (0 : Fin 1))
  rw [mm_row x' x w p P hx c, hd]

/-! ## The body's two blocks -/

/-- The first block the body computes is the stages of the normalisation, of its six loaded blocks. -/
theorem pay_stages (v0 : Vec Ideal S5000x128 .f32) (v2 : Vec Ideal S5000x1 .f32) (v6 v26 v30 : Vec Ideal S1x128 .f32)
    (v36 : Vec Ideal S5000x128 .f32) :
    k8_pay2 v0 v2 v6 v26 v30 v36
      = postBlock reduces_S5000x128_S5000 shapeCasts_S5000_S5000x1 broadcasts_S5000x1_S5000x128 broadcasts_S1x128_S5000x128
          shapeCasts_S5000x128_S5000x128 shapeCasts_S1x128_S1x128
          (scaledBlock broadcasts_S5000x1_S5000x128 broadcasts_S1x128_S5000x128 shapeCasts_S5000x128_S5000x128
            shapeCasts_S5000x1_S5000x1 shapeCasts_S1x128_S1x128 v0 v2 v6) v26 v30 v36 := rfl

/-- THE FIRST BLOCK'S VALUE: the residual block plus the rectified layer normalisation of the scaled, shifted aggregate. -/
theorem pay_post (v0 : Vec Ideal S5000x128 .f32) (v2 : Vec Ideal S5000x1 .f32) (v6 v26 v30 : Vec Ideal S1x128 .f32)
    (v36 : Vec Ideal S5000x128 .f32) :
    k8_pay2 v0 v2 v6 v26 v30 v36 = Spec.post (Spec.scaled v0 v2 v6) v26 v30 v36 := by
  rw [pay_stages, scaledBlock_eq, postBlock_eq]

/-- The product's dimension numbers: rows of the left factor by columns of the right, one contracted axis. -/
theorem dot_eq : dot_S5000x128_S128x128_S5000x128_1_0_0_1_n_n
    = BlockOps.rowCol dot_S5000x128_S128x128_S5000x128_1_0_0_1_n_n_wf := rfl

/-- THE SECOND BLOCK'S VALUE: the product of the first block with the weight, scaled row by row by the degree factors
    (the change of number format in front of the product is the identity on the extended reals). -/
theorem pay_lin (x : FVec Ideal S5000x128 .f32) (w : Vec Ideal S128x128 .bf16) (d : Vec Ideal S5000x1 .f32) :
    k8_pay1 (F := Ideal) x w d = Spec.lin x w d := by
  funext j
  obtain ⟨r, q, rfl⟩ : ∃ (r : Fin 5000) (q : Fin 128), j = ix2 r q := ⟨j 0, j 1, eq_ix2 j⟩
  unfold k8_pay1
  simp only [matmul]
  rw [mulf_apply, dot_eq, BlockOps.matmul_zero_apply, BlockOps.broadcastTo_a1_ab_apply, shapeCast_self, shapeCast_self]
  rfl

/-! ## The arrays and their blocks -/

-- the TensorCore's buffer contents when the call is entered
variable (V : (c : Dev nD) → (b : Ref sig .tc) → Buf (Elt Ideal) ((c : Thread nD τ).loc b))

/-- The aggregated sums as the call finds them. -/
abbrev aAgg (c : Dev nD) : Spec.Mat 50000 128 := V c (Pipeline.arrRef spec8 0)
/-- The degree factors, a column. -/
abbrev aD (c : Dev nD) : Spec.Mat 50000 1 := V c (Pipeline.arrRef spec8 1)
/-- The bias row. -/
abbrev aB (c : Dev nD) : Spec.Mat 1 128 := V c (Pipeline.arrRef spec8 2)
/-- The scale row. -/
abbrev aG (c : Dev nD) : Spec.Mat 1 128 := V c (Pipeline.arrRef spec8 3)
/-- The shift row. -/
abbrev aBe (c : Dev nD) : Spec.Mat 1 128 := V c (Pipeline.arrRef spec8 4)
/-- The node features, the residual. -/
abbrev aX (c : Dev nD) : Spec.Mat 50000 128 := V c (Pipeline.arrRef spec8 5)
/-- The next layer's weight. -/
abbrev aW (c : Dev nD) : Spec.Mat 128 128 := V c (Pipeline.arrRef spec8 6)

/-- The node features leaving the layer: the residual plus the rectified layer normalisation of the scaled, shifted
    aggregate. -/
abbrev newX (c : Dev nD) : Spec.Mat 50000 128 :=
  Spec.post (Spec.scaled (aAgg V c) (aD V c) (aB V c)) (aG V c) (aBe V c) (aX V c)

/-- Point `t`'s block of the aggregated sums. -/
abbrev bAgg (c : Dev nD) (t : Fin cfg8.N) : Spec.Mat 5000 128 := iblk8 V c 0 t
/-- Point `t`'s block of the degree factors. -/
abbrev bD (c : Dev nD) (t : Fin cfg8.N) : Spec.Mat 5000 1 := iblk8 V c 1 t
/-- The bias row as point `t` holds it. -/
abbrev bB (c : Dev nD) (t : Fin cfg8.N) : Spec.Mat 1 128 := iblk8 V c 2 t
/-- The scale row as point `t` holds it. -/
abbrev bG (c : Dev nD) (t : Fin cfg8.N) : Spec.Mat 1 128 := iblk8 V c 3 t
/-- The shift row as point `t` holds it. -/
abbrev bBe (c : Dev nD) (t : Fin cfg8.N) : Spec.Mat 1 128 := iblk8 V c 4 t
/-- Point `t`'s block of the node features. -/
abbrev bX (c : Dev nD) (t : Fin cfg8.N) : Spec.Mat 5000 128 := iblk8 V c 5 t
/-- The weight as point `t` holds it. -/
abbrev bW (c : Dev nD) (t : Fin cfg8.N) : Spec.Mat 128 128 := iblk8 V c 6 t

theorem hz : (![0, 0] : Fin 2 → Nat) = fun _ => 0 := funext fun a => by fin_cases a <;> rfl

/-- The windows' block indices, decided over the grid: the row-blocked windows are at block `t` of the rows, the whole
    rows and the whole weight at block 0. -/
theorem idx_facts : ∀ t : Fin cfg8.N,
    (win8_0.index t (0 : Fin 2) = t.val ∧ win8_0.index t (1 : Fin 2) = 0)
    ∧ (win8_1.index t (0 : Fin 2) = t.val ∧ win8_1.index t (1 : Fin 2) = 0)
    ∧ (win8_2.index t (0 : Fin 2) = 0 ∧ win8_2.index t (1 : Fin 2) = 0)
    ∧ (win8_3.index t (0 : Fin 2) = 0 ∧ win8_3.index t (1 : Fin 2) = 0)
    ∧ (win8_4.index t (0 : Fin 2) = 0 ∧ win8_4.index t (1 : Fin 2) = 0)
    ∧ (win8_5.index t (0 : Fin 2) = t.val ∧ win8_5.index t (1 : Fin 2) = 0)
    ∧ (win8_6.index t (0 : Fin 2) = 0 ∧ win8_6.index t (1 : Fin 2) = 0)
    ∧ (win8_7.index t (0 : Fin 2) = t.val ∧ win8_7.index t (1 : Fin 2) = 0)
    ∧ (win8_8.index t (0 : Fin 2) = t.val ∧ win8_8.index t (1 : Fin 2) = 0) :=
  (by decide +kernel : ∀ t : Fin grid8.N, _)

/-- Row `p` of point `t`'s blocks is row `5000·t + p` of the arrays. -/
def rowOf (t : Fin cfg8.N) (p : Fin 5000) : Fin 50000 :=
  ⟨t.val * 5000 + p.val, by have := t.isLt; have hN : cfg8.N = 10 := N_8; have := p.isLt; omega⟩

/-- The block of the aggregated sums at `(p, q)`. -/
theorem bAgg_apply (c : Dev nD) (t : Fin cfg8.N) (p : Fin 5000) (q : Fin 128) :
    bAgg V c t (ix2 p q) = aAgg V c (ix2 (rowOf t p) q) := by
  obtain ⟨⟨e0, e1⟩, -⟩ := idx_facts t
  show V c (Pipeline.arrRef spec8 0) (((cfg8.win 0).blk t).view.emb (ix2 p q)) = V c (Pipeline.arrRef spec8 0) (ix2 (rowOf t p) q)
  refine congrArg _ (funext fun a => Fin.ext ?_)
  match a with
  | ⟨0, _⟩ => show win8_0.index t (0 : Fin 2) * 5000 + 1 * p.val = t.val * 5000 + p.val; rw [e0]; omega
  | ⟨1, _⟩ => show win8_0.index t (1 : Fin 2) * 128 + 1 * q.val = q.val; rw [e1]; omega

/-- The block of the degree factors at `(p, 0)`. -/
theorem bD_apply (c : Dev nD) (t : Fin cfg8.N) (p : Fin 5000) :
    bD V c t (ix2 p (0 : Fin 1)) = aD V c (ix2 (rowOf t p) (0 : Fin 1)) := by
  obtain ⟨-, ⟨e0, e1⟩, -⟩ := idx_facts t
  show V c (Pipeline.arrRef spec8 1) (((cfg8.win 1).blk t).view.emb (ix2 p (0 : Fin 1))) = V c (Pipeline.arrRef spec8 1) (ix2 (rowOf t p) (0 : Fin 1))
  refine congrArg _ (funext fun a => Fin.ext ?_)
  match a with
  | ⟨0, _⟩ => show win8_1.index t (0 : Fin 2) * 5000 + 1 * p.val = t.val * 5000 + p.val; rw [e0]; omega
  | ⟨1, _⟩ => show win8_1.index t (1 : Fin 2) * 1 + 1 * 0 = 0; rw [e1]

/-- The block of the node features at `(p, q)`. -/
theorem bX_apply (c : Dev nD) (t : Fin cfg8.N) (p : Fin 5000) (q : Fin 128) :
    bX V c t (ix2 p q) = aX V c (ix2 (rowOf t p) q) := by
  obtain ⟨-, -, -, -, -, ⟨e0, e1⟩, -⟩ := idx_facts t
  show V c (Pipeline.arrRef spec8 5) (((cfg8.win 5).blk t).view.emb (ix2 p q)) = V c (Pipeline.arrRef spec8 5) (ix2 (rowOf t p) q)
  refine congrArg _ (funext fun a => Fin.ext ?_)
  match a with
  | ⟨0, _⟩ => show win8_5.index t (0 : Fin 2) * 5000 + 1 * p.val = t.val * 5000 + p.val; rw [e0]; omega
  | ⟨1, _⟩ => show win8_5.index t (1 : Fin 2) * 128 + 1 * q.val = q.val; rw [e1]; omega

/-- Every point holds the whole bias row. -/
theorem bB_eq (c : Dev nD) (t : Fin cfg8.N) : bB V c t = aB V c := by
  obtain ⟨-, -, ⟨e0, e1⟩, -⟩ := idx_facts t
  funext y
  show V c (Pipeline.arrRef spec8 2) (((cfg8.win 2).blk t).view.emb y) = V c (Pipeline.arrRef spec8 2) y
  refine congrArg _ (funext fun a => Fin.ext ?_)
  match a with
  | ⟨0, _⟩ => show win8_2.index t (0 : Fin 2) * 1 + 1 * (y 0).val = (y 0).val; rw [e0]; omega
  | ⟨1, _⟩ => show win8_2.index t (1 : Fin 2) * 128 + 1 * (y 1).val = (y 1).val; rw [e1]; omega

/-- Every point holds the whole scale row. -/
theorem bG_eq (c : Dev nD) (t : Fin cfg8.N) : bG V c t = aG V c := by
  obtain ⟨-, -, -, ⟨e0, e1⟩, -⟩ := idx_facts t
  funext y
  show V c (Pipeline.arrRef spec8 3) (((cfg8.win 3).blk t).view.emb y) = V c (Pipeline.arrRef spec8 3) y
  refine congrArg _ (funext fun a => Fin.ext ?_)
  match a with
  | ⟨0, _⟩ => show win8_3.index t (0 : Fin 2) * 1 + 1 * (y 0).val = (y 0).val; rw [e0]; omega
  | ⟨1, _⟩ => show win8_3.index t (1 : Fin 2) * 128 + 1 * (y 1).val = (y 1).val; rw [e1]; omega

/-- Every point holds the whole shift row. -/
theorem bBe_eq (c : Dev nD) (t : Fin cfg8.N) : bBe V c t = aBe V c := by
  obtain ⟨-, -, -, -, ⟨e0, e1⟩, -⟩ := idx_facts t
  funext y
  show V c (Pipeline.arrRef spec8 4) (((cfg8.win 4).blk t).view.emb y) = V c (Pipeline.arrRef spec8 4) y
  refine congrArg _ (funext fun a => Fin.ext ?_)
  match a with
  | ⟨0, _⟩ => show win8_4.index t (0 : Fin 2) * 1 + 1 * (y 0).val = (y 0).val; rw [e0]; omega
  | ⟨1, _⟩ => show win8_4.index t (1 : Fin 2) * 128 + 1 * (y 1).val = (y 1).val; rw [e1]; omega

/-- Every point holds the whole weight. -/
theorem bW_eq (c : Dev nD) (t : Fin cfg8.N) : bW V c t = aW V c := by
  obtain ⟨-, -, -, -, -, -, ⟨e0, e1⟩, -⟩ := idx_facts t
  funext y
  show V c (Pipeline.arrRef spec8 6) (((cfg8.win 6).blk t).view.emb y) = V c (Pipeline.arrRef spec8 6) y
  refine congrArg _ (funext fun a => Fin.ext ?_)
  match a with
  | ⟨0, _⟩ => show win8_6.index t (0 : Fin 2) * 128 + 1 * (y 0).val = (y 0).val; rw [e0]; omega
  | ⟨1, _⟩ => show win8_6.index t (1 : Fin 2) * 128 + 1 * (y 1).val = (y 1).val; rw [e1]; omega

/-- Entry `(p, q)` of point `t`'s block of the first result is entry `(5000·t + p, q)` of its array. -/
theorem newx_emb (t : Fin cfg8.N) (p : Fin 5000) (q : Fin 128) :
    ((cfg8.win 7).blk t).view.emb (ix2 p q) = ix2 (rowOf t p) q := by
  obtain ⟨-, -, -, -, -, -, -, ⟨e0, e1⟩, -⟩ := idx_facts t
  refine funext fun a => Fin.ext ?_
  match a with
  | ⟨0, _⟩ => show win8_7.index t (0 : Fin 2) * 5000 + 1 * p.val = t.val * 5000 + p.val; rw [e0]; omega
  | ⟨1, _⟩ => show win8_7.index t (1 : Fin 2) * 128 + 1 * q.val = q.val; rw [e1]; omega

/-- The same for the second result. -/
theorem lin_emb (t : Fin cfg8.N) (p : Fin 5000) (q : Fin 128) :
    ((cfg8.win 8).blk t).view.emb (ix2 p q) = ix2 (rowOf t p) q := by
  obtain ⟨-, -, -, -, -, -, -, -, ⟨e0, e1⟩⟩ := idx_facts t
  refine funext fun a => Fin.ext ?_
  match a with
  | ⟨0, _⟩ => show win8_8.index t (0 : Fin 2) * 5000 + 1 * p.val = t.val * 5000 + p.val; rw [e0]; omega
  | ⟨1, _⟩ => show win8_8.index t (1 : Fin 2) * 128 + 1 * q.val = q.val; rw [e1]; omega

/-- Row `p` of point `t`'s first result block is row `5000·t + p` of the whole array's. -/
theorem newx_row (c : Dev nD) (t : Fin cfg8.N) (p : Fin 5000) (q : Fin 128) :
    Spec.post (Spec.scaled (bAgg V c t) (bD V c t) (aB V c)) (aG V c) (aBe V c) (bX V c t) (ix2 p q)
      = newX V c (ix2 (rowOf t p) q) :=
  post_scaled_row (bAgg V c t) (bD V c t) (aAgg V c) (aD V c) (aB V c) (aG V c) (aBe V c) (bX V c t) (aX V c) p (rowOf t p)
    (fun q => bAgg_apply V c t p q) (bD_apply V c t p) (fun q => bX_apply V c t p q) q

/-! ## From the blocks to the arrays -/

/-- WHAT POINT `t` WRITES BACK to the first result is block `t` of the whole array's. -/
theorem flushed_newx (c : Dev nD) (t : Fin cfg8.N) :
    (dat8 (F := Ideal) V c).flushed 7 t = ((cfg8.win 7).blk t).view.read (Elt Ideal) (newX V c) := by
  show (cfg8.win 7).cut (grid8.coords t) ((dat8 (F := Ideal) V c).after 7 t) = _
  rw [after8_7]
  unfold out8_7
  rw [View.canon_unit_zero hz]
  simp only [View.ld_unit_zero (S := S5000x128) hz, View.ld_unit_zero (S := S5000x1) hz, View.ld_unit_zero (S := S1x128) hz]
  rw [pay_post]
  funext j
  obtain ⟨p, q, rfl⟩ : ∃ (p : Fin 5000) (q : Fin 128), j = ix2 p q := ⟨j 0, j 1, eq_ix2 j⟩
  show Spec.post (Spec.scaled (bAgg V c t) (bD V c t) (bB V c t)) (bG V c t) (bBe V c t) (bX V c t) (ix2 p q)
    = newX V c (((cfg8.win 7).blk t).view.emb (ix2 p q))
  rw [newx_emb, bB_eq, bG_eq, bBe_eq]
  exact newx_row V c t p q

/-- WHAT POINT `t` WRITES BACK to the second result is block `t` of the whole array's. -/
theorem flushed_lin (c : Dev nD) (t : Fin cfg8.N) :
    (dat8 (F := Ideal) V c).flushed 8 t
      = ((cfg8.win 8).blk t).view.read (Elt Ideal) (Spec.lin (newX V c) (aW V c) (aD V c)) := by
  show (cfg8.win 8).cut (grid8.coords t) ((dat8 (F := Ideal) V c).after 8 t) = _
  rw [after8_8]
  unfold out8_8
  rw [View.canon_unit_zero hz]
  simp only [View.ld_unit_zero (S := S5000x128) hz, View.ld_unit_zero (S := S5000x1) hz, View.ld_unit_zero (S := S1x128) hz,
    View.ld_unit_zero (S := S128x128) hz]
  rw [pay_post, pay_lin]
  funext j
  obtain ⟨p, q, rfl⟩ : ∃ (p : Fin 5000) (q : Fin 128), j = ix2 p q := ⟨j 0, j 1, eq_ix2 j⟩
  show Spec.lin (Spec.post (Spec.scaled (bAgg V c t) (bD V c t) (bB V c t)) (bG V c t) (bBe V c t) (bX V c t)) (bW V c t) (bD V c t) (ix2 p q)
    = Spec.lin (newX V c) (aW V c) (aD V c) (((cfg8.win 8).blk t).view.emb (ix2 p q))
  rw [lin_emb, bB_eq, bG_eq, bBe_eq, bW_eq]
  exact lin_row _ (newX V c) (aW V c) (bD V c t) (aD V c) p (rowOf t p) (fun k => newx_row V c t p k) (bD_apply V c t p) q

/-- An index of the first result's array is in point `t`'s block iff each coordinate is in the block's range on its axis. -/
theorem mem_blk_newx (t : Fin cfg8.N) (i : S50000x128.Idx) :
    i ∈ ((cfg8.win 7).blk t).view.set ↔ ∀ a : Fin 2, win8_7.index t a * S5000x128.size a ≤ (i a).val ∧ (i a).val < win8_7.index t a * S5000x128.size a + S5000x128.size a := by
  show i ∈ ((View.whole (Pipeline.arrRef spec8 7)).slice (win8_7.rect t)).set ↔ _
  rw [View.set_slice_whole, Rect.mem_set_unit]
  exact Iff.rfl

/-- The same for the second result's array. -/
theorem mem_blk_lin (t : Fin cfg8.N) (i : S50000x128.Idx) :
    i ∈ ((cfg8.win 8).blk t).view.set ↔ ∀ a : Fin 2, win8_8.index t a * S5000x128.size a ≤ (i a).val ∧ (i a).val < win8_8.index t a * S5000x128.size a + S5000x128.size a := by
  show i ∈ ((View.whole (Pipeline.arrRef spec8 8)).slice (win8_8.rect t)).set ↔ _
  rw [View.set_slice_whole, Rect.mem_set_unit]
  exact Iff.rfl

/-- Row `r` of the first result's array is in the block of point `r / 5000`. -/
theorem cover_newx (i : S50000x128.Idx) :
    ∃ t : Fin cfg8.N, (cfg8.win 7).flush t = true ∧ i ∈ ((cfg8.win 7).blk t).view.set := by
  have hi0 : (i 0).val < 50000 := (i 0).isLt
  have hi1 : (i 1).val < 128 := (i 1).isLt
  have hN : cfg8.N = 10 := N_8
  obtain ⟨t, ht⟩ : ∃ t : Fin cfg8.N, t.val = (i 0).val / 5000 := ⟨⟨(i 0).val / 5000, by omega⟩, rfl⟩
  obtain ⟨-, -, -, -, -, -, -, ⟨e0, e1⟩, -⟩ := idx_facts t
  refine ⟨t, flush8_7 t, ?_⟩
  rw [mem_blk_newx]
  intro a
  match a with
  | ⟨0, _⟩ => show win8_7.index t (0 : Fin 2) * 5000 ≤ (i 0).val ∧ (i 0).val < win8_7.index t (0 : Fin 2) * 5000 + 5000; omega
  | ⟨1, _⟩ => show win8_7.index t (1 : Fin 2) * 128 ≤ (i 1).val ∧ (i 1).val < win8_7.index t (1 : Fin 2) * 128 + 128; omega

/-- The same for the second result's array. -/
theorem cover_lin (i : S50000x128.Idx) :
    ∃ t : Fin cfg8.N, (cfg8.win 8).flush t = true ∧ i ∈ ((cfg8.win 8).blk t).view.set := by
  have hi0 : (i 0).val < 50000 := (i 0).isLt
  have hi1 : (i 1).val < 128 := (i 1).isLt
  have hN : cfg8.N = 10 := N_8
  obtain ⟨t, ht⟩ : ∃ t : Fin cfg8.N, t.val = (i 0).val / 5000 := ⟨⟨(i 0).val / 5000, by omega⟩, rfl⟩
  obtain ⟨-, -, -, -, -, -, -, -, ⟨e0, e1⟩⟩ := idx_facts t
  refine ⟨t, flush8_8 t, ?_⟩
  rw [mem_blk_lin]
  intro a
  match a with
  | ⟨0, _⟩ => show win8_8.index t (0 : Fin 2) * 5000 ≤ (i 0).val ∧ (i 0).val < win8_8.index t (0 : Fin 2) * 5000 + 5000; omega
  | ⟨1, _⟩ => show win8_8.index t (1 : Fin 2) * 128 ≤ (i 1).val ∧ (i 1).val < win8_8.index t (1 : Fin 2) * 128 + 128; omega

/-- THE FIRST ARRAY after the call: the node features leaving the layer, of the arrays as the call finds them. -/
theorem final_newx (c : Dev nD) : (dat8 (F := Ideal) V c).arrAt 7 cfg8.N = newX V c :=
  (dat8 (F := Ideal) V c).arrAt_eq_of_cover 7 _ (fun t _ => flushed_newx V c t) cover_newx

/-- THE SECOND ARRAY after the call: their product with the next weight, scaled row by row by the degree factors. -/
theorem final_lin (c : Dev nD) : (dat8 (F := Ideal) V c).arrAt 8 cfg8.N = Spec.lin (newX V c) (aW V c) (aD V c) :=
  (dat8 (F := Ideal) V c).arrAt_eq_of_cover 8 _ (fun t _ => flushed_lin V c t) cover_lin

end Cert.KernelIdeal.Val8

end
-- ==== Proof.KStep8.lean ====
/-
  One step of the second stream's chain of values: its third layer completed and its fourth prepared.

  When the stream's third kernel has run, the program holds the features `X2` and their pre-scaled rows `L2`, the edge
  lists and the degree factor column.  The stretch that follows gathers the rows of `L2` at the sources and sums them
  per destination, cuts layer 2's bias, scale and shift rows and layer 3's weight out of the stacks; the fourth kernel
  then leaves `X3` (the residual plus the rectified layer normalisation of the scaled, shifted sums) and
  `L3 = (X3·W[3])·dinv`.  The edge lists and the factor column are written by none of this; the stacked arguments are
  as launched where the stretch reads them.
-/
import proofs.«410635_j2241972928706_3_alg».proof.Proof.Gen.KernelIdeal.Frame
import proofs.«410635_j2241972928706_3_alg».proof.Proof.Spec
import proofs.«410635_j2241972928706_3_alg».proof.Proof.KHost
import proofs.«410635_j2241972928706_3_alg».proof.Proof.KNames
import proofs.«410635_j2241972928706_3_alg».proof.Proof.KWalkV
import proofs.«410635_j2241972928706_3_alg».proof.Proof.Val8
import Idealize.ShloMosaic.Lib.StableHlo.Run
import Idealize.ShloMosaic.Lib.Pipeline.Value

noncomputable section

namespace Cert.KernelIdeal.KStep8

open Idealize.ShloMosaic Idealize.ShloMosaic.TcCoe Idealize.SL.Sem
open Idealize.ShloMosaic.Pipeline (Dat)
open Cert.KernelIdeal Cert.KernelIdeal.Gen

variable (m : (ℓ : Loc nD τ sig) → Buf (Elt Ideal) ℓ) (ρ : Dev nD → PrngReg)

/-! ## Contents read at a buffer's type -/

/-- Contents carried to a typed reference's buffer and back are the contents. -/
theorem ofBuf_toBuf {T : BufTy} (x : StableHlo.TRef sig T) (v : T.Contents (Elt Ideal)) : x.ofBuf (x.toBuf v) = v := by
  obtain ⟨r, h, h2, h3⟩ := x
  subst h
  rfl

/-- The contents of the sources, of the destinations, of the pre-scaled rows and of the sums are of their buffers' types
    as they stand. -/
theorem ofBuf_src (h1 h2 h3) (v : main_call0_v92.ty.Contents (Elt Ideal)) :
    (StableHlo.TRef.of main_call0_v92 h1 h2 h3 : StableHlo.TRef sig ⟨S850000, .i32⟩).ofBuf v = v := rfl
theorem ofBuf_dst (h1 h2 h3) (v : main_call0_v93.ty.Contents (Elt Ideal)) :
    (StableHlo.TRef.of main_call0_v93 h1 h2 h3 : StableHlo.TRef sig ⟨S850000, .i32⟩).ofBuf v = v := rfl
theorem ofBuf_rows (h1 h2 h3) (v : main_call0_v142_1.ty.Contents (Elt Ideal)) :
    (StableHlo.TRef.of main_call0_v142_1 h1 h2 h3 : StableHlo.TRef sig ⟨S50000x128, .f32⟩).ofBuf v = v := rfl
theorem toBuf_sums (h1 h2 h3) (v : (⟨S50000x128, .f32⟩ : BufTy).Contents (Elt Ideal)) :
    (StableHlo.TRef.of main_call0_v146 h1 h2 h3 : StableHlo.TRef sig ⟨S50000x128, .f32⟩).toBuf v = v := rfl

/-! ## The stretch before the fourth kernel: what it leaves in the kernel's seven inputs -/

/-- The sums per destination of the gathered rows of the pre-scaled rows. -/
theorem in8_agg (c : Dev nD) :
    W17 m ρ c (Proc.devRef .tc main_call0_v146)
      = KHost.aggFn (W16 m ρ c (Proc.devRef .tc main_call0_v142_1)) (W16 m ρ c (Proc.devRef .tc main_call0_v92))
          (W16 m ρ c (Proc.devRef .tc main_call0_v93)) := by
  show StableHlo.after hostOps8 (W16 m ρ c) (Proc.devRef .tc main_call0_v146) = _
  after_results_simp
  simp only [ofBuf_toBuf, ofBuf_src, ofBuf_dst, ofBuf_rows, toBuf_sums]
  unfold KHost.aggFn KHost.takeFn KHost.inbFn KHost.sWI KHost.wrapFn KHost.dI
  rfl

/-- Layer 2's bias row, -/
theorem in8_b (c : Dev nD) :
    W17 m ρ c (Proc.devRef .tc main_call0_v155) = KHost.rowFn2 (m ((c : Thread nD τ).loc main_arg11)) := by
  rw [← KWalkV.arg11_W16 m ρ c]
  show StableHlo.after hostOps8 (W16 m ρ c) (Proc.devRef .tc main_call0_v155) = _
  after_results
  rfl

/-- scale row -/
theorem in8_g (c : Dev nD) :
    W17 m ρ c (Proc.devRef .tc main_call0_v156) = KHost.rowFn2 (m ((c : Thread nD τ).loc main_arg12)) := by
  rw [← KWalkV.arg12_W16 m ρ c]
  show StableHlo.after hostOps8 (W16 m ρ c) (Proc.devRef .tc main_call0_v156) = _
  after_results
  rfl

/-- and shift row. -/
theorem in8_be (c : Dev nD) :
    W17 m ρ c (Proc.devRef .tc main_call0_v157) = KHost.rowFn2 (m ((c : Thread nD τ).loc main_arg13)) := by
  rw [← KWalkV.arg13_W16 m ρ c]
  show StableHlo.after hostOps8 (W16 m ρ c) (Proc.devRef .tc main_call0_v157) = _
  after_results
  rfl

/-- Layer 3's weight. -/
theorem in8_w (c : Dev nD) :
    W17 m ρ c (Proc.devRef .tc main_call0_v158) = KHost.wFn3 (m ((c : Thread nD τ).loc main_arg10)) := by
  rw [← KWalkV.arg10_W16 m ρ c]
  show StableHlo.after hostOps8 (W16 m ρ c) (Proc.devRef .tc main_call0_v158) = _
  after_results
  rfl

/-- The stretch writes neither the features nor the factor column. -/
theorem in8_x (c : Dev nD) :
    W17 m ρ c (Proc.devRef .tc main_call0_v142_0) = W16 m ρ c (Proc.devRef .tc main_call0_v142_0) :=
  KWalkV.keep8 _ main_call0_v142_0 (by decide)
theorem in8_d (c : Dev nD) :
    W17 m ρ c (Proc.devRef .tc main_call0_v102) = W16 m ρ c (Proc.devRef .tc main_call0_v102) :=
  KWalkV.keep8 _ main_call0_v102 (by decide)

/-! ## The fourth kernel -/

/-- THE FOURTH LAYER'S BOUNDARY: from `X2`, `L2`, the edge lists and the factor column at the third kernel's exit to
    `X3`, `L3` and the same lists and column at the fourth's. -/
theorem b8 (c : Dev nD)
    (hX : W16 m ρ c (Proc.devRef .tc main_call0_v142_0)
      = KNames.X2 (m ((c : Thread nD τ).loc main_arg1)) (m ((c : Thread nD τ).loc main_arg4)) (m ((c : Thread nD τ).loc main_arg5)) (m ((c : Thread nD τ).loc main_arg10)) (m ((c : Thread nD τ).loc main_arg11)) (m ((c : Thread nD τ).loc main_arg12)) (m ((c : Thread nD τ).loc main_arg13)) (m ((c : Thread nD τ).loc main_arg17)))
    (hL : W16 m ρ c (Proc.devRef .tc main_call0_v142_1)
      = KNames.L2 (m ((c : Thread nD τ).loc main_arg1)) (m ((c : Thread nD τ).loc main_arg4)) (m ((c : Thread nD τ).loc main_arg5)) (m ((c : Thread nD τ).loc main_arg10)) (m ((c : Thread nD τ).loc main_arg11)) (m ((c : Thread nD τ).loc main_arg12)) (m ((c : Thread nD τ).loc main_arg13)) (m ((c : Thread nD τ).loc main_arg17)))
    (hs : W16 m ρ c (Proc.devRef .tc main_call0_v92) = KHost.sFn (m ((c : Thread nD τ).loc main_arg17)))
    (hd : W16 m ρ c (Proc.devRef .tc main_call0_v93) = KHost.dFn (m ((c : Thread nD τ).loc main_arg17)))
    (hq : W16 m ρ c (Proc.devRef .tc main_call0_v102) = KHost.dinvFn (KHost.dFn (m ((c : Thread nD τ).loc main_arg17)))) :
    W18 m ρ c (Proc.devRef .tc main_call0_v159_0)
        = KNames.X3 (m ((c : Thread nD τ).loc main_arg1)) (m ((c : Thread nD τ).loc main_arg4)) (m ((c : Thread nD τ).loc main_arg5)) (m ((c : Thread nD τ).loc main_arg10)) (m ((c : Thread nD τ).loc main_arg11)) (m ((c : Thread nD τ).loc main_arg12)) (m ((c : Thread nD τ).loc main_arg13)) (m ((c : Thread nD τ).loc main_arg17))
      ∧ W18 m ρ c (Proc.devRef .tc main_call0_v159_1)
        = KNames.L3 (m ((c : Thread nD τ).loc main_arg1)) (m ((c : Thread nD τ).loc main_arg4)) (m ((c : Thread nD τ).loc main_arg5)) (m ((c : Thread nD τ).loc main_arg10)) (m ((c : Thread nD τ).loc main_arg11)) (m ((c : Thread nD τ).loc main_arg12)) (m ((c : Thread nD τ).loc main_arg13)) (m ((c : Thread nD τ).loc main_arg17))
      ∧ W18 m ρ c (Proc.devRef .tc main_call0_v92) = KHost.sFn (m ((c : Thread nD τ).loc main_arg17))
      ∧ W18 m ρ c (Proc.devRef .tc main_call0_v93) = KHost.dFn (m ((c : Thread nD τ).loc main_arg17))
      ∧ W18 m ρ c (Proc.devRef .tc main_call0_v102) = KHost.dinvFn (KHost.dFn (m ((c : Thread nD τ).loc main_arg17))) := by
  have eAgg : Val8.aAgg (V17 m ρ) c
      = KHost.aggFn (KNames.L2 (m ((c : Thread nD τ).loc main_arg1)) (m ((c : Thread nD τ).loc main_arg4)) (m ((c : Thread nD τ).loc main_arg5)) (m ((c : Thread nD τ).loc main_arg10)) (m ((c : Thread nD τ).loc main_arg11)) (m ((c : Thread nD τ).loc main_arg12)) (m ((c : Thread nD τ).loc main_arg13)) (m ((c : Thread nD τ).loc main_arg17)))
          (KHost.sFn (m ((c : Thread nD τ).loc main_arg17))) (KHost.dFn (m ((c : Thread nD τ).loc main_arg17))) := by
    show W17 m ρ c (Proc.devRef .tc main_call0_v146) = _
    rw [in8_agg, hL, hs, hd]
  have eD : Val8.aD (V17 m ρ) c = KNames.D2 (m ((c : Thread nD τ).loc main_arg17)) := (in8_d m ρ c).trans hq
  have eB : Val8.aB (V17 m ρ) c = KHost.rowFn2 (m ((c : Thread nD τ).loc main_arg11)) := in8_b m ρ c
  have eG : Val8.aG (V17 m ρ) c = KHost.rowFn2 (m ((c : Thread nD τ).loc main_arg12)) := in8_g m ρ c
  have eBe : Val8.aBe (V17 m ρ) c = KHost.rowFn2 (m ((c : Thread nD τ).loc main_arg13)) := in8_be m ρ c
  have eX : Val8.aX (V17 m ρ) c
      = KNames.X2 (m ((c : Thread nD τ).loc main_arg1)) (m ((c : Thread nD τ).loc main_arg4)) (m ((c : Thread nD τ).loc main_arg5)) (m ((c : Thread nD τ).loc main_arg10)) (m ((c : Thread nD τ).loc main_arg11)) (m ((c : Thread nD τ).loc main_arg12)) (m ((c : Thread nD τ).loc main_arg13)) (m ((c : Thread nD τ).loc main_arg17)) := (in8_x m ρ c).trans hX
  have eW : Val8.aW (V17 m ρ) c = KHost.wFn3 (m ((c : Thread nD τ).loc main_arg10)) := in8_w m ρ c
  have eNew : Val8.newX (V17 m ρ) c
      = KNames.X3 (m ((c : Thread nD τ).loc main_arg1)) (m ((c : Thread nD τ).loc main_arg4)) (m ((c : Thread nD τ).loc main_arg5)) (m ((c : Thread nD τ).loc main_arg10)) (m ((c : Thread nD τ).loc main_arg11)) (m ((c : Thread nD τ).loc main_arg12)) (m ((c : Thread nD τ).loc main_arg13)) (m ((c : Thread nD τ).loc main_arg17)) := by
    show Spec.post (Spec.scaled (Val8.aAgg (V17 m ρ) c) (Val8.aD (V17 m ρ) c) (Val8.aB (V17 m ρ) c))
      (Val8.aG (V17 m ρ) c) (Val8.aBe (V17 m ρ) c) (Val8.aX (V17 m ρ) c) = _
    rw [eAgg, eD, eB, eG, eBe, eX]
    rfl
  refine ⟨((W18_arr m ρ c 7).trans (Val8.final_newx (V17 m ρ) c)).trans eNew, ?_, ?_, ?_, ?_⟩
  · refine ((W18_arr m ρ c 8).trans (Val8.final_lin (V17 m ρ) c)).trans ?_
    rw [eNew, eW, eD]
    rfl
  · exact (KWalkV.s_W18 m ρ c).trans ((KWalkV.s_W16 m ρ c).symm.trans hs)
  · exact (KWalkV.d_W18 m ρ c).trans ((KWalkV.d_W16 m ρ c).symm.trans hd)
  · exact (KWalkV.dinv_W18 m ρ c).trans ((KWalkV.dinv_W16 m ρ c).symm.trans hq)

end Cert.KernelIdeal.KStep8

end
-- ==== Proof.Val9.lean ====
/-
  The value of a stream's last post-processing call (the fourth layer's), read off its frame.

  The call runs on a grid of ten points.  Point `t` holds rows `5000·t … 5000·t + 4999` of the aggregated sums, of
  the degree factors (a column) and of the node features, and the whole bias, scale and shift rows; it writes back the
  same rows of the result.  On its block the body computes the residual block plus the rectified layer normalisation
  of the scaled, shifted aggregate.  A row's mean and variance depend on that row alone, so the block of the result
  is the whole array's result on those rows; the ten blocks cover the 50000 rows; so the array ends holding

      x[r, c] + max (((h[r, c] − μ_r) · rsqrt (σ²_r + ε)) · g[0, c] + be[0, c]) 0,   h[r, c] = agg[r, c] · d[r, 0] + b[0, c]

  of the arrays as the call finds them.
-/
import proofs.«410635_j2241972928706_3_alg».proof.Proof.Gen.KernelIdeal.Frame
import proofs.«410635_j2241972928706_3_alg».proof.Proof.Spec
import proofs.«410635_j2241972928706_3_alg».proof.Proof.NormResidual
import Idealize.ShloMosaic.Lib.Pipeline.Value
import Idealize.ShloMosaic.Lib.ValueIdx

set_option maxRecDepth 16384

noncomputable section

namespace Cert.KernelIdeal.Val9

open Idealize.ShloMosaic Idealize.ShloMosaic.TcCoe Idealize.ShloMosaic.ValueIdx Idealize.SL.Sem
open Idealize.ShloMosaic.Pipeline (Dat)
open Cert.KernelIdeal.Gen Cert.NormResidual

/-! ## The body's block -/

/-- The block the body computes is the stages of the normalisation, of its six loaded blocks. -/
theorem pay_stages (v0 : Vec Ideal S5000x128 .f32) (v2 : Vec Ideal S5000x1 .f32) (v6 v26 v30 : Vec Ideal S1x128 .f32)
    (v36 : Vec Ideal S5000x128 .f32) :
    k9_pay1 v0 v2 v6 v26 v30 v36
      = postBlock reduces_S5000x128_S5000 shapeCasts_S5000_S5000x1 broadcasts_S5000x1_S5000x128 broadcasts_S1x128_S5000x128
          shapeCasts_S5000x128_S5000x128 shapeCasts_S1x128_S1x128
          (scaledBlock broadcasts_S5000x1_S5000x128 broadcasts_S1x128_S5000x128 shapeCasts_S5000x128_S5000x128
            shapeCasts_S5000x1_S5000x1 shapeCasts_S1x128_S1x128 v0 v2 v6) v26 v30 v36 := rfl

/-- THE BLOCK'S VALUE: the residual block plus the rectified layer normalisation of the scaled, shifted aggregate. -/
theorem pay_post (v0 : Vec Ideal S5000x128 .f32) (v2 : Vec Ideal S5000x1 .f32) (v6 v26 v30 : Vec Ideal S1x128 .f32)
    (v36 : Vec Ideal S5000x128 .f32) :
    k9_pay1 v0 v2 v6 v26 v30 v36 = Spec.post (Spec.scaled v0 v2 v6) v26 v30 v36 := by
  rw [pay_stages, scaledBlock_eq, postBlock_eq]

/-! ## The arrays and their blocks -/

-- the TensorCore's buffer contents when the call is entered
variable (V : (c : Dev nD) → (b : Ref sig .tc) → Buf (Elt Ideal) ((c : Thread nD τ).loc b))

/-- The aggregated sums as the call finds them. -/
abbrev aAgg (c : Dev nD) : Spec.Mat 50000 128 := V c (Pipeline.arrRef spec9 0)
/-- The degree factors, a column. -/
abbrev aD (c : Dev nD) : Spec.Mat 50000 1 := V c (Pipeline.arrRef spec9 1)
/-- The bias row. -/
abbrev aB (c : Dev nD) : Spec.Mat 1 128 := V c (Pipeline.arrRef spec9 2)
/-- The scale row. -/
abbrev aG (c : Dev nD) : Spec.Mat 1 128 := V c (Pipeline.arrRef spec9 3)
/-- The shift row. -/
abbrev aBe (c : Dev nD) : Spec.Mat 1 128 := V c (Pipeline.arrRef spec9 4)
/-- The node features, the residual. -/
abbrev aX (c : Dev nD) : Spec.Mat 50000 128 := V c (Pipeline.arrRef spec9 5)

/-- Point `t`'s block of the aggregated sums. -/
abbrev bAgg (c : Dev nD) (t : Fin cfg9.N) : Spec.Mat 5000 128 := iblk9 V c 0 t
/-- Point `t`'s block of the degree factors. -/
abbrev bD (c : Dev nD) (t : Fin cfg9.N) : Spec.Mat 5000 1 := iblk9 V c 1 t
/-- The bias row as point `t` holds it. -/
abbrev bB (c : Dev nD) (t : Fin cfg9.N) : Spec.Mat 1 128 := iblk9 V c 2 t
/-- The scale row as point `t` holds it. -/
abbrev bG (c : Dev nD) (t : Fin cfg9.N) : Spec.Mat 1 128 := iblk9 V c 3 t
/-- The shift row as point `t` holds it. -/
abbrev bBe (c : Dev nD) (t : Fin cfg9.N) : Spec.Mat 1 128 := iblk9 V c 4 t
/-- Point `t`'s block of the node features. -/
abbrev bX (c : Dev nD) (t : Fin cfg9.N) : Spec.Mat 5000 128 := iblk9 V c 5 t

theorem hz : (![0, 0] : Fin 2 → Nat) = fun _ => 0 := funext fun a => by fin_cases a <;> rfl

/-- The windows' block indices, decided over the grid: the row-blocked windows are at block `t` of the rows, the whole
    rows at block 0. -/
theorem idx_facts : ∀ t : Fin cfg9.N, win9_0.index t (0 : Fin 2) = t.val ∧ win9_0.index t (1 : Fin 2) = 0
    ∧ win9_1.index t (0 : Fin 2) = t.val ∧ win9_1.index t (1 : Fin 2) = 0
    ∧ win9_2.index t (0 : Fin 2) = 0 ∧ win9_2.index t (1 : Fin 2) = 0
    ∧ win9_3.index t (0 : Fin 2) = 0 ∧ win9_3.index t (1 : Fin 2) = 0
    ∧ win9_4.index t (0 : Fin 2) = 0 ∧ win9_4.index t (1 : Fin 2) = 0
    ∧ win9_5.index t (0 : Fin 2) = t.val ∧ win9_5.index t (1 : Fin 2) = 0
    ∧ win9_6.index t (0 : Fin 2) = t.val ∧ win9_6.index t (1 : Fin 2) = 0 :=
  (by decide +kernel : ∀ t : Fin grid9.N, _)

/-- Row `p` of point `t`'s blocks is row `5000·t + p` of the arrays. -/
def rowOf (t : Fin cfg9.N) (p : Fin 5000) : Fin 50000 :=
  ⟨t.val * 5000 + p.val, by have := t.isLt; have hN : cfg9.N = 10 := N_9; have := p.isLt; omega⟩

/-- The block of the aggregated sums at `(p, q)`. -/
theorem bAgg_apply (c : Dev nD) (t : Fin cfg9.N) (p : Fin 5000) (q : Fin 128) :
    bAgg V c t (ix2 p q) = aAgg V c (ix2 (rowOf t p) q) := by
  obtain ⟨e0, e1, -⟩ := idx_facts t
  show V c (Pipeline.arrRef spec9 0) (((cfg9.win 0).blk t).view.emb (ix2 p q)) = V c (Pipeline.arrRef spec9 0) (ix2 (rowOf t p) q)
  refine congrArg _ (funext fun a => Fin.ext ?_)
  match a with
  | ⟨0, _⟩ => show win9_0.index t (0 : Fin 2) * 5000 + 1 * p.val = t.val * 5000 + p.val; rw [e0]; omega
  | ⟨1, _⟩ => show win9_0.index t (1 : Fin 2) * 128 + 1 * q.val = q.val; rw [e1]; omega

/-- The block of the degree factors at `(p, 0)`. -/
theorem bD_apply (c : Dev nD) (t : Fin cfg9.N) (p : Fin 5000) :
    bD V c t (ix2 p (0 : Fin 1)) = aD V c (ix2 (rowOf t p) (0 : Fin 1)) := by
  obtain ⟨-, -, e0, e1, -⟩ := idx_facts t
  show V c (Pipeline.arrRef spec9 1) (((cfg9.win 1).blk t).view.emb (ix2 p (0 : Fin 1))) = V c (Pipeline.arrRef spec9 1) (ix2 (rowOf t p) (0 : Fin 1))
  refine congrArg _ (funext fun a => Fin.ext ?_)
  match a with
  | ⟨0, _⟩ => show win9_1.index t (0 : Fin 2) * 5000 + 1 * p.val = t.val * 5000 + p.val; rw [e0]; omega
  | ⟨1, _⟩ => show win9_1.index t (1 : Fin 2) * 1 + 1 * 0 = 0; rw [e1]

/-- The block of the node features at `(p, q)`. -/
theorem bX_apply (c : Dev nD) (t : Fin cfg9.N) (p : Fin 5000) (q : Fin 128) :
    bX V c t (ix2 p q) = aX V c (ix2 (rowOf t p) q) := by
  obtain ⟨-, -, -, -, -, -, -, -, -, -, e0, e1, -⟩ := idx_facts t
  show V c (Pipeline.arrRef spec9 5) (((cfg9.win 5).blk t).view.emb (ix2 p q)) = V c (Pipeline.arrRef spec9 5) (ix2 (rowOf t p) q)
  refine congrArg _ (funext fun a => Fin.ext ?_)
  match a with
  | ⟨0, _⟩ => show win9_5.index t (0 : Fin 2) * 5000 + 1 * p.val = t.val * 5000 + p.val; rw [e0]; omega
  | ⟨1, _⟩ => show win9_5.index t (1 : Fin 2) * 128 + 1 * q.val = q.val; rw [e1]; omega

/-- Every point holds the whole bias row. -/
theorem bB_eq (c : Dev nD) (t : Fin cfg9.N) : bB V c t = aB V c := by
  obtain ⟨-, -, -, -, e0, e1, -⟩ := idx_facts t
  funext y
  show V c (Pipeline.arrRef spec9 2) (((cfg9.win 2).blk t).view.emb y) = V c (Pipeline.arrRef spec9 2) y
  refine congrArg _ (funext fun a => Fin.ext ?_)
  match a with
  | ⟨0, _⟩ => show win9_2.index t (0 : Fin 2) * 1 + 1 * (y 0).val = (y 0).val; rw [e0]; omega
  | ⟨1, _⟩ => show win9_2.index t (1 : Fin 2) * 128 + 1 * (y 1).val = (y 1).val; rw [e1]; omega

/-- Every point holds the whole scale row. -/
theorem bG_eq (c : Dev nD) (t : Fin cfg9.N) : bG V c t = aG V c := by
  obtain ⟨-, -, -, -, -, -, e0, e1, -⟩ := idx_facts t
  funext y
  show V c (Pipeline.arrRef spec9 3) (((cfg9.win 3).blk t).view.emb y) = V c (Pipeline.arrRef spec9 3) y
  refine congrArg _ (funext fun a => Fin.ext ?_)
  match a with
  | ⟨0, _⟩ => show win9_3.index t (0 : Fin 2) * 1 + 1 * (y 0).val = (y 0).val; rw [e0]; omega
  | ⟨1, _⟩ => show win9_3.index t (1 : Fin 2) * 128 + 1 * (y 1).val = (y 1).val; rw [e1]; omega

/-- Every point holds the whole shift row. -/
theorem bBe_eq (c : Dev nD) (t : Fin cfg9.N) : bBe V c t = aBe V c := by
  obtain ⟨-, -, -, -, -, -, -, -, e0, e1, -⟩ := idx_facts t
  funext y
  show V c (Pipeline.arrRef spec9 4) (((cfg9.win 4).blk t).view.emb y) = V c (Pipeline.arrRef spec9 4) y
  refine congrArg _ (funext fun a => Fin.ext ?_)
  match a with
  | ⟨0, _⟩ => show win9_4.index t (0 : Fin 2) * 1 + 1 * (y 0).val = (y 0).val; rw [e0]; omega
  | ⟨1, _⟩ => show win9_4.index t (1 : Fin 2) * 128 + 1 * (y 1).val = (y 1).val; rw [e1]; omega

/-- Entry `(p, q)` of point `t`'s block of the result is entry `(5000·t + p, q)` of the array. -/
theorem out_emb (t : Fin cfg9.N) (p : Fin 5000) (q : Fin 128) :
    ((cfg9.win 6).blk t).view.emb (ix2 p q) = ix2 (rowOf t p) q := by
  obtain ⟨-, -, -, -, -, -, -, -, -, -, -, -, e0, e1⟩ := idx_facts t
  refine funext fun a => Fin.ext ?_
  match a with
  | ⟨0, _⟩ => show win9_6.index t (0 : Fin 2) * 5000 + 1 * p.val = t.val * 5000 + p.val; rw [e0]; omega
  | ⟨1, _⟩ => show win9_6.index t (1 : Fin 2) * 128 + 1 * q.val = q.val; rw [e1]; omega

/-! ## From the blocks to the array -/

/-- WHAT POINT `t` WRITES BACK is block `t` of the whole array's result. -/
theorem flushed_eq (c : Dev nD) (t : Fin cfg9.N) :
    (dat9 (F := Ideal) V c).flushed 6 t
      = ((cfg9.win 6).blk t).view.read (Elt Ideal)
          (Spec.post (Spec.scaled (aAgg V c) (aD V c) (aB V c)) (aG V c) (aBe V c) (aX V c)) := by
  show (cfg9.win 6).cut (grid9.coords t) ((dat9 (F := Ideal) V c).after 6 t) = _
  rw [after9_6]
  unfold out9_6
  rw [View.canon_unit_zero hz]
  simp only [View.ld_unit_zero (S := S5000x128) hz, View.ld_unit_zero (S := S5000x1) hz, View.ld_unit_zero (S := S1x128) hz]
  rw [pay_post]
  funext j
  obtain ⟨p, q, rfl⟩ : ∃ (p : Fin 5000) (q : Fin 128), j = ix2 p q := ⟨j 0, j 1, eq_ix2 j⟩
  show Spec.post (Spec.scaled (bAgg V c t) (bD V c t) (bB V c t)) (bG V c t) (bBe V c t) (bX V c t) (ix2 p q)
    = Spec.post (Spec.scaled (aAgg V c) (aD V c) (aB V c)) (aG V c) (aBe V c) (aX V c) (((cfg9.win 6).blk t).view.emb (ix2 p q))
  rw [out_emb, bB_eq, bG_eq, bBe_eq]
  exact post_scaled_row (bAgg V c t) (bD V c t) (aAgg V c) (aD V c) (aB V c) (aG V c) (aBe V c) (bX V c t) (aX V c) p (rowOf t p)
    (fun q => bAgg_apply V c t p q) (bD_apply V c t p) (fun q => bX_apply V c t p q) q

/-- An index of the array is in point `t`'s block iff each coordinate is in the block's range on its axis. -/
theorem mem_blk (t : Fin cfg9.N) (i : S50000x128.Idx) :
    i ∈ ((cfg9.win 6).blk t).view.set ↔ ∀ a : Fin 2, win9_6.index t a * S5000x128.size a ≤ (i a).val ∧ (i a).val < win9_6.index t a * S5000x128.size a + S5000x128.size a := by
  show i ∈ ((View.whole (Pipeline.arrRef spec9 6)).slice (win9_6.rect t)).set ↔ _
  rw [View.set_slice_whole, Rect.mem_set_unit]
  exact Iff.rfl

/-- Row `r` of the array is in the block of point `r / 5000`. -/
theorem cover (i : S50000x128.Idx) :
    ∃ t : Fin cfg9.N, (cfg9.win 6).flush t = true ∧ i ∈ ((cfg9.win 6).blk t).view.set := by
  have hi0 : (i 0).val < 50000 := (i 0).isLt
  have hi1 : (i 1).val < 128 := (i 1).isLt
  have hN : cfg9.N = 10 := N_9
  obtain ⟨t, ht⟩ : ∃ t : Fin cfg9.N, t.val = (i 0).val / 5000 := ⟨⟨(i 0).val / 5000, by omega⟩, rfl⟩
  obtain ⟨-, -, -, -, -, -, -, -, -, -, -, -, e0, e1⟩ := idx_facts t
  refine ⟨t, flush9_6 t, ?_⟩
  rw [mem_blk]
  intro a
  match a with
  | ⟨0, _⟩ => show win9_6.index t (0 : Fin 2) * 5000 ≤ (i 0).val ∧ (i 0).val < win9_6.index t (0 : Fin 2) * 5000 + 5000; omega
  | ⟨1, _⟩ => show win9_6.index t (1 : Fin 2) * 128 ≤ (i 1).val ∧ (i 1).val < win9_6.index t (1 : Fin 2) * 128 + 128; omega

/-- THE ARRAY after the call: the residual plus the rectified layer normalisation of the scaled, shifted aggregate, of
    the arrays as the call finds them. -/
theorem final_newx (c : Dev nD) :
    (dat9 (F := Ideal) V c).arrAt 6 cfg9.N
      = Spec.post (Spec.scaled (aAgg V c) (aD V c) (aB V c)) (aG V c) (aBe V c) (aX V c) :=
  (dat9 (F := Ideal) V c).arrAt_eq_of_cover 6 _ (fun t _ => flushed_eq V c t) cover

end Cert.KernelIdeal.Val9

end
-- ==== Proof.KStep9.lean ====
/-
  The last step of the second stream's chain of values: its fourth layer completed.

  When the stream's fourth kernel has run, the program holds the features `X3` and their pre-scaled rows `L3`, the
  edge lists and the degree factor column.  The stretch that follows gathers the rows of `L3` at the sources and sums
  them per destination and cuts layer 3's bias, scale and shift rows out of the stacks; the fifth kernel then leaves
  `X4`, the residual plus the rectified layer normalisation of the scaled, shifted sums: the stream's result.
-/
import proofs.«410635_j2241972928706_3_alg».proof.Proof.Gen.KernelIdeal.Frame
import proofs.«410635_j2241972928706_3_alg».proof.Proof.Spec
import proofs.«410635_j2241972928706_3_alg».proof.Proof.KHost
import proofs.«410635_j2241972928706_3_alg».proof.Proof.KNames
import proofs.«410635_j2241972928706_3_alg».proof.Proof.KWalkV
import proofs.«410635_j2241972928706_3_alg».proof.Proof.Val9
import Idealize.ShloMosaic.Lib.StableHlo.Run
import Idealize.ShloMosaic.Lib.Pipeline.Value

noncomputable section

namespace Cert.KernelIdeal.KStep9

open Idealize.ShloMosaic Idealize.ShloMosaic.TcCoe Idealize.SL.Sem
open Idealize.ShloMosaic.Pipeline (Dat)
open Cert.KernelIdeal Cert.KernelIdeal.Gen

variable (m : (ℓ : Loc nD τ sig) → Buf (Elt Ideal) ℓ) (ρ : Dev nD → PrngReg)

/-! ## Contents read at a buffer's type -/

/-- Contents carried to a typed reference's buffer and back are the contents. -/
theorem ofBuf_toBuf {T : BufTy} (x : StableHlo.TRef sig T) (v : T.Contents (Elt Ideal)) : x.ofBuf (x.toBuf v) = v := by
  obtain ⟨r, h, h2, h3⟩ := x
  subst h
  rfl

/-- The contents of the sources, of the destinations, of the pre-scaled rows and of the sums are of their buffers' types
    as they stand. -/
theorem ofBuf_src (h1 h2 h3) (v : main_call0_v92.ty.Contents (Elt Ideal)) :
    (StableHlo.TRef.of main_call0_v92 h1 h2 h3 : StableHlo.TRef sig ⟨S850000, .i32⟩).ofBuf v = v := rfl
theorem ofBuf_dst (h1 h2 h3) (v : main_call0_v93.ty.Contents (Elt Ideal)) :
    (StableHlo.TRef.of main_call0_v93 h1 h2 h3 : StableHlo.TRef sig ⟨S850000, .i32⟩).ofBuf v = v := rfl
theorem ofBuf_rows (h1 h2 h3) (v : main_call0_v159_1.ty.Contents (Elt Ideal)) :
    (StableHlo.TRef.of main_call0_v159_1 h1 h2 h3 : StableHlo.TRef sig ⟨S50000x128, .f32⟩).ofBuf v = v := rfl
theorem toBuf_sums (h1 h2 h3) (v : (⟨S50000x128, .f32⟩ : BufTy).Contents (Elt Ideal)) :
    (StableHlo.TRef.of main_call0_v163 h1 h2 h3 : StableHlo.TRef sig ⟨S50000x128, .f32⟩).toBuf v = v := rfl

/-! ## The stretch before the fifth kernel: what it leaves in the kernel's six inputs -/

/-- The sums per destination of the gathered rows of the pre-scaled rows. -/
theorem in9_agg (c : Dev nD) :
    W19 m ρ c (Proc.devRef .tc main_call0_v163)
      = KHost.aggFn (W18 m ρ c (Proc.devRef .tc main_call0_v159_1)) (W18 m ρ c (Proc.devRef .tc main_call0_v92))
          (W18 m ρ c (Proc.devRef .tc main_call0_v93)) := by
  show StableHlo.after hostOps9 (W18 m ρ c) (Proc.devRef .tc main_call0_v163) = _
  after_results_simp
  simp only [ofBuf_toBuf, ofBuf_src, ofBuf_dst, ofBuf_rows, toBuf_sums]
  unfold KHost.aggFn KHost.takeFn KHost.inbFn KHost.sWI KHost.wrapFn KHost.dI
  rfl

/-- Layer 3's bias row, -/
theorem in9_b (c : Dev nD) :
    W19 m ρ c (Proc.devRef .tc main_call0_v170) = KHost.rowFn3 (m ((c : Thread nD τ).loc main_arg11)) := by
  rw [← KWalkV.arg11_W18 m ρ c]
  show StableHlo.after hostOps9 (W18 m ρ c) (Proc.devRef .tc main_call0_v170) = _
  after_results
  rfl

/-- scale row -/
theorem in9_g (c : Dev nD) :
    W19 m ρ c (Proc.devRef .tc main_call0_v171) = KHost.rowFn3 (m ((c : Thread nD τ).loc main_arg12)) := by
  rw [← KWalkV.arg12_W18 m ρ c]
  show StableHlo.after hostOps9 (W18 m ρ c) (Proc.devRef .tc main_call0_v171) = _
  after_results
  rfl

/-- and shift row. -/
theorem in9_be (c : Dev nD) :
    W19 m ρ c (Proc.devRef .tc main_call0_v172) = KHost.rowFn3 (m ((c : Thread nD τ).loc main_arg13)) := by
  rw [← KWalkV.arg13_W18 m ρ c]
  show StableHlo.after hostOps9 (W18 m ρ c) (Proc.devRef .tc main_call0_v172) = _
  after_results
  rfl

/-- The stretch writes neither the features nor the factor column. -/
theorem in9_x (c : Dev nD) :
    W19 m ρ c (Proc.devRef .tc main_call0_v159_0) = W18 m ρ c (Proc.devRef .tc main_call0_v159_0) :=
  KWalkV.keep9 _ main_call0_v159_0 (by decide)
theorem in9_d (c : Dev nD) :
    W19 m ρ c (Proc.devRef .tc main_call0_v102) = W18 m ρ c (Proc.devRef .tc main_call0_v102) :=
  KWalkV.keep9 _ main_call0_v102 (by decide)

/-! ## The fifth kernel -/

/-- THE LAST LAYER'S BOUNDARY: from `X3`, `L3`, the edge lists and the factor column at the fourth kernel's exit to the
    stream's result `X4` at the fifth's. -/
theorem b9 (c : Dev nD)
    (hX : W18 m ρ c (Proc.devRef .tc main_call0_v159_0)
      = KNames.X3 (m ((c : Thread nD τ).loc main_arg1)) (m ((c : Thread nD τ).loc main_arg4)) (m ((c : Thread nD τ).loc main_arg5)) (m ((c : Thread nD τ).loc main_arg10)) (m ((c : Thread nD τ).loc main_arg11)) (m ((c : Thread nD τ).loc main_arg12)) (m ((c : Thread nD τ).loc main_arg13)) (m ((c : Thread nD τ).loc main_arg17)))
    (hL : W18 m ρ c (Proc.devRef .tc main_call0_v159_1)
      = KNames.L3 (m ((c : Thread nD τ).loc main_arg1)) (m ((c : Thread nD τ).loc main_arg4)) (m ((c : Thread nD τ).loc main_arg5)) (m ((c : Thread nD τ).loc main_arg10)) (m ((c : Thread nD τ).loc main_arg11)) (m ((c : Thread nD τ).loc main_arg12)) (m ((c : Thread nD τ).loc main_arg13)) (m ((c : Thread nD τ).loc main_arg17)))
    (hs : W18 m ρ c (Proc.devRef .tc main_call0_v92) = KHost.sFn (m ((c : Thread nD τ).loc main_arg17)))
    (hd : W18 m ρ c (Proc.devRef .tc main_call0_v93) = KHost.dFn (m ((c : Thread nD τ).loc main_arg17)))
    (hq : W18 m ρ c (Proc.devRef .tc main_call0_v102) = KHost.dinvFn (KHost.dFn (m ((c : Thread nD τ).loc main_arg17)))) :
    W20 m ρ c (Proc.devRef .tc main_call0_v173)
      = KNames.X4 (m ((c : Thread nD τ).loc main_arg1)) (m ((c : Thread nD τ).loc main_arg4)) (m ((c : Thread nD τ).loc main_arg5)) (m ((c : Thread nD τ).loc main_arg10)) (m ((c : Thread nD τ).loc main_arg11)) (m ((c : Thread nD τ).loc main_arg12)) (m ((c : Thread nD τ).loc main_arg13)) (m ((c : Thread nD τ).loc main_arg17)) := by
  have eAgg : Val9.aAgg (V19 m ρ) c
      = KHost.aggFn (KNames.L3 (m ((c : Thread nD τ).loc main_arg1)) (m ((c : Thread nD τ).loc main_arg4)) (m ((c : Thread nD τ).loc main_arg5)) (m ((c : Thread nD τ).loc main_arg10)) (m ((c : Thread nD τ).loc main_arg11)) (m ((c : Thread nD τ).loc main_arg12)) (m ((c : Thread nD τ).loc main_arg13)) (m ((c : Thread nD τ).loc main_arg17)))
          (KHost.sFn (m ((c : Thread nD τ).loc main_arg17))) (KHost.dFn (m ((c : Thread nD τ).loc main_arg17))) := by
    show W19 m ρ c (Proc.devRef .tc main_call0_v163) = _
    rw [in9_agg, hL, hs, hd]
  have eD : Val9.aD (V19 m ρ) c = KNames.D2 (m ((c : Thread nD τ).loc main_arg17)) := (in9_d m ρ c).trans hq
  have eB : Val9.aB (V19 m ρ) c = KHost.rowFn3 (m ((c : Thread nD τ).loc main_arg11)) := in9_b m ρ c
  have eG : Val9.aG (V19 m ρ) c = KHost.rowFn3 (m ((c : Thread nD τ).loc main_arg12)) := in9_g m ρ c
  have eBe : Val9.aBe (V19 m ρ) c = KHost.rowFn3 (m ((c : Thread nD τ).loc main_arg13)) := in9_be m ρ c
  have eX : Val9.aX (V19 m ρ) c
      = KNames.X3 (m ((c : Thread nD τ).loc main_arg1)) (m ((c : Thread nD τ).loc main_arg4)) (m ((c : Thread nD τ).loc main_arg5)) (m ((c : Thread nD τ).loc main_arg10)) (m ((c : Thread nD τ).loc main_arg11)) (m ((c : Thread nD τ).loc main_arg12)) (m ((c : Thread nD τ).loc main_arg13)) (m ((c : Thread nD τ).loc main_arg17)) := (in9_x m ρ c).trans hX
  refine ((W20_arr m ρ c 6).trans (Val9.final_newx (V19 m ρ) c)).trans ?_
  rw [eAgg, eD, eB, eG, eBe, eX]
  rfl

end Cert.KernelIdeal.KStep9

end
-- ==== Proof.KChain.lean ====
/-
  The kernel's two streams, boundary by boundary: each stream's fourth features, as the last kernel finds them, are
  the named value `X4` of the stream's eight argument arrays.
-/
import proofs.«410635_j2241972928706_3_alg».proof.Proof.KChainC
import proofs.«410635_j2241972928706_3_alg».proof.Proof.KChainR
import proofs.«410635_j2241972928706_3_alg».proof.Proof.KStep2
import proofs.«410635_j2241972928706_3_alg».proof.Proof.KChainR2
import proofs.«410635_j2241972928706_3_alg».proof.Proof.KChainV
import proofs.«410635_j2241972928706_3_alg».proof.Proof.KStep6
import proofs.«410635_j2241972928706_3_alg».proof.Proof.KStep7
import proofs.«410635_j2241972928706_3_alg».proof.Proof.KStep8
import proofs.«410635_j2241972928706_3_alg».proof.Proof.KStep9
import proofs.«410635_j2241972928706_3_alg».proof.Proof.KWalkV
import proofs.«410635_j2241972928706_3_alg».proof.Proof.KArgs

noncomputable section

namespace Cert.Final

open Idealize.ShloMosaic Idealize.ShloMosaic.TcCoe Idealize.SL.Sem Cert.Spec
open Cert.KernelIdeal Cert.KernelIdeal.Gen

variable (m : (ℓ : Loc nD τ sig) → Buf (Elt Ideal) ℓ) (ρ : Dev nD → PrngReg)

/-- The first stream's features at the last kernel are its `X4`. -/
theorem XR_eq (c : Dev nD) : Cert.KernelIdeal.KChainC.XR m ρ c = Cert.KernelIdeal.KNames.X4 (m ((c : Thread nD τ).loc main_arg0)) (m ((c : Thread nD τ).loc main_arg2)) (m ((c : Thread nD τ).loc main_arg3)) (m ((c : Thread nD τ).loc main_arg6)) (m ((c : Thread nD τ).loc main_arg7)) (m ((c : Thread nD τ).loc main_arg8)) (m ((c : Thread nD τ).loc main_arg9)) (m ((c : Thread nD τ).loc main_arg16)) := by
  have h1 := KChainR.b1 m ρ c (KArgs.arg6_W2 m ρ c) (KArgs.arg7_W2 m ρ c) (KArgs.arg8_W2 m ρ c) (KArgs.arg9_W2 m ρ c)
  have h2 := KStep2.b2 m ρ c h1.1 h1.2 (KChainR.s_W4 m ρ c) (KChainR.d_W4 m ρ c) (KChainR.dinv_W4 m ρ c)
    (KArgs.arg6_W4 m ρ c) (KArgs.arg7_W4 m ρ c) (KArgs.arg8_W4 m ρ c) (KArgs.arg9_W4 m ρ c)
  have h4 := KChainR2.b34 m ρ c h2.1 h2.2.1 h2.2.2.1 h2.2.2.2.1 h2.2.2.2.2
  exact (KWalkV.keep_r m ρ c).trans h4

/-- The second stream's features at the last kernel are its `X4`. -/
theorem XV_eq (c : Dev nD) : Cert.KernelIdeal.KChainC.XV m ρ c = Cert.KernelIdeal.KNames.X4 (m ((c : Thread nD τ).loc main_arg1)) (m ((c : Thread nD τ).loc main_arg4)) (m ((c : Thread nD τ).loc main_arg5)) (m ((c : Thread nD τ).loc main_arg10)) (m ((c : Thread nD τ).loc main_arg11)) (m ((c : Thread nD τ).loc main_arg12)) (m ((c : Thread nD τ).loc main_arg13)) (m ((c : Thread nD τ).loc main_arg17)) := by
  have h5 := KChainV.b5_launched m ρ c
  have h6 := KStep6.b6 m ρ c h5.1 h5.2.1 h5.2.2.1 h5.2.2.2.1 h5.2.2.2.2
    (KWalkV.arg10_W12 m ρ c) (KWalkV.arg11_W12 m ρ c) (KWalkV.arg12_W12 m ρ c) (KWalkV.arg13_W12 m ρ c)
  have h7 := KStep7.b7 m ρ c h6.1 h6.2.1 h6.2.2.1 h6.2.2.2.1 h6.2.2.2.2
    (KWalkV.arg10_W14 m ρ c) (KWalkV.arg11_W14 m ρ c) (KWalkV.arg12_W14 m ρ c) (KWalkV.arg13_W14 m ρ c)
  have h8 := KStep8.b8 m ρ c h7.1 h7.2.1 h7.2.2.1 h7.2.2.2.1 h7.2.2.2.2
  exact KStep9.b9 m ρ c h8.1 h8.2.1 h8.2.2.1 h8.2.2.2.1 h8.2.2.2.2

end Cert.Final

end
-- ==== Proof.RefLayerDef.lean ====
/-
  One graph-convolution layer of the reference program as one function of its seven inputs: the node features `X`,
  the weight `W`, the bias, scale and shift rows `b`, `g`, `be`, and the two edge lists `src`, `dst`.
  Each definition below is one operation of the program, in the program's order, applied to the earlier ones:
  the product `X·W`; the edge lists extended by one self-loop per node; the degree of every node (ones summed per
  destination) and its guarded reciprocal square root; the edge lists with negative entries wrapped around; the
  factors and the rows of `X·W` gathered per edge, multiplied, and summed per destination; the bias; the
  normalisation of every row to mean zero and variance one, scaled and shifted; the rectifier; the residual sum.
  The comments number the values as the program's first layer does; there %7 is `X`, %9 is `W`, %11 is `b`, %56 is `g`,
  %58 is `be`, %1 is `src` and %3 is `dst`.
-/
import proofs.«410635_j2241972928706_3_alg».proof.Proof.Gen.ReferenceIdeal
import Idealize.ShloMosaic.Lib.StableHlo.Run
import Idealize.ShloMosaic.Lib.Pipeline.Value
import Idealize.ShloMosaic.Lib.ValueIdx
import Idealize.ShloMosaic.PureOps.Ideal.Laws

noncomputable section

namespace Cert.ReferenceIdeal.RefLayer

open Cert.ReferenceIdeal Cert.ReferenceIdeal.Gen Idealize.ShloMosaic Idealize.ShloMosaic.TcCoe Idealize.SL.Sem Idealize.ShloMosaic.StableHlo

-- %12: the matrix product of %7 and %9
def st12 (X : FVec Ideal S50000x128 .f32) (W : FVec Ideal S128x128 .f32) : FVec Ideal S50000x128 .f32 :=
  Host.dotGeneral dot_S50000x128_S128x128_S50000x128_1_0_0_1_n_n none X W

-- %13: the numbers 0, 1, 2, … along the axis
def st13 : IVec S50000 32 :=
  iotaInDim S50000 32 0

-- %14: %1 followed by %13
def st14 (src : IVec S800000 32) : IVec S850000 32 :=
  concatenate S850000 0 [⟨S800000, src⟩, ⟨S50000, st13⟩] concatenates_S800000_S50000_S850000_d0

-- %15: %3 followed by %13
def st15 (dst : IVec S800000 32) : IVec S850000 32 :=
  concatenate S850000 0 [⟨S800000, dst⟩, ⟨S50000, st13⟩] concatenates_S800000_S50000_S850000_d0

-- %cst: the constant 1.000000e+00
def stCst : FVec Ideal S_ .f32 :=
  constant S_ .f32 0x3F800000#32

-- %16: %cst repeated along the new axes
def st16 : FVec Ideal S850000 .f32 :=
  broadcastInDim S850000 ![] bcast_S_S850000 stCst

-- %cst_0: the constant 0.000000e+00
def stCst0 : FVec Ideal S_ .f32 :=
  constant S_ .f32 0x00000000#32

-- %17: %cst_0 repeated along the new axes
def st17 : FVec Ideal S50000 .f32 :=
  broadcastInDim S50000 ![] bcast_S_S50000 stCst0

-- %18: %15 repeated along the new axes
def st18 (dst : IVec S800000 32) : IVec S850000x1 32 :=
  broadcastInDim S850000x1 ![0] bcast_S850000_S850000x1_0 (st15 dst)

-- %19: %17 plus, at every position, the sum of the entries of %16 whose start in %18 is that position
def st19 (dst : IVec S800000 32) : FVec Ideal S50000 .f32 :=
  Host.scatterAdd scatter_S50000_S850000x1_S850000_n_0_0_1 st17 (st18 dst) st16

-- %cst_1: the constant 0.000000e+00
def stCst1 : FVec Ideal S_ .f32 :=
  constant S_ .f32 0x00000000#32

-- %20: %cst_1 repeated along the new axes
def st20 : FVec Ideal S50000 .f32 :=
  broadcastInDim S50000 ![] bcast_S_S50000 stCst1

-- %21: where %19 > %20
def st21 (dst : IVec S800000 32) : IVec S50000 1 :=
  cmpf .ogt (st19 dst) st20

-- %22: the reciprocal square root of %19, entry by entry
def st22 (dst : IVec S800000 32) : FVec Ideal S50000 .f32 :=
  Host.rsqrt (st19 dst)

-- %cst_2: the constant 0.000000e+00
def stCst2 : FVec Ideal S_ .f32 :=
  constant S_ .f32 0x00000000#32

-- inside value %23 (function _where), its %0: %cst_2 unchanged
def stCall0V0 : FVec Ideal S_ .f32 :=
  id stCst2

-- inside value %23 (function _where), its %1: %0 repeated along the new axes
def stCall0V1 : FVec Ideal S50000 .f32 :=
  broadcastInDim S50000 ![] bcast_S_S50000 stCall0V0

-- %23 (the result of function _where): %22 where %21 holds, the repeated %cst_2 elsewhere
def st23 (dst : IVec S800000 32) : FVec Ideal S50000 .f32 :=
  select (st21 dst) (st22 dst) stCall0V1

-- %c: the constant 0
def stC : IVec S_ 32 :=
  constantI S_ 32 0#32

-- %24: %c repeated along the new axes
def st24 : IVec S850000 32 :=
  broadcastInDim S850000 ![] bcast_S_S850000 stC

-- %25: where %14 < %24 (signed)
def st25 (src : IVec S800000 32) : IVec S850000 1 :=
  cmpi .slt (st14 src) st24

-- %c_3: the constant 50000
def stC3 : IVec S_ 32 :=
  constantI S_ 32 50000#32

-- %26: %c_3 repeated along the new axes
def st26 : IVec S850000 32 :=
  broadcastInDim S850000 ![] bcast_S_S850000 stC3

-- %27: %14 + %26, entry by entry
def st27 (src : IVec S800000 32) : IVec S850000 32 :=
  addi (st14 src) st26

-- %28: %27 where %25 holds, %14 elsewhere
def st28 (src : IVec S800000 32) : IVec S850000 32 :=
  select (st25 src) (st27 src) (st14 src)

-- %29: %28 repeated along the new axes
def st29 (src : IVec S800000 32) : IVec S850000x1 32 :=
  broadcastInDim S850000x1 ![0] bcast_S850000_S850000x1_0 (st28 src)

-- %30: the entries of %23 at the starts %29
def st30 (src : IVec S800000 32) (dst : IVec S800000 32) : FVec Ideal S850000 .f32 :=
  Host.gather gather_S50000_S850000x1_S850000_n_0_n_n_0_1_1 (st23 dst) (st29 src)

-- %c_4: the constant 0
def stC4 : IVec S_ 32 :=
  constantI S_ 32 0#32

-- %31: %c_4 repeated along the new axes
def st31 : IVec S850000 32 :=
  broadcastInDim S850000 ![] bcast_S_S850000 stC4

-- %32: where %15 < %31 (signed)
def st32 (dst : IVec S800000 32) : IVec S850000 1 :=
  cmpi .slt (st15 dst) st31

-- %c_5: the constant 50000
def stC5 : IVec S_ 32 :=
  constantI S_ 32 50000#32

-- %33: %c_5 repeated along the new axes
def st33 : IVec S850000 32 :=
  broadcastInDim S850000 ![] bcast_S_S850000 stC5

-- %34: %15 + %33, entry by entry
def st34 (dst : IVec S800000 32) : IVec S850000 32 :=
  addi (st15 dst) st33

-- %35: %34 where %32 holds, %15 elsewhere
def st35 (dst : IVec S800000 32) : IVec S850000 32 :=
  select (st32 dst) (st34 dst) (st15 dst)

-- %36: %35 repeated along the new axes
def st36 (dst : IVec S800000 32) : IVec S850000x1 32 :=
  broadcastInDim S850000x1 ![0] bcast_S850000_S850000x1_0 (st35 dst)

-- %37: the entries of %23 at the starts %36
def st37 (dst : IVec S800000 32) : FVec Ideal S850000 .f32 :=
  Host.gather gather_S50000_S850000x1_S850000_n_0_n_n_0_1_1 (st23 dst) (st36 dst)

-- %38: %30 · %37, entry by entry
def st38 (src : IVec S800000 32) (dst : IVec S800000 32) : FVec Ideal S850000 .f32 :=
  mulf (st30 src dst) (st37 dst)

-- %c_6: the constant 0
def stC6 : IVec S_ 32 :=
  constantI S_ 32 0#32

-- %39: %c_6 repeated along the new axes
def st39 : IVec S850000 32 :=
  broadcastInDim S850000 ![] bcast_S_S850000 stC6

-- %40: where %14 < %39 (signed)
def st40 (src : IVec S800000 32) : IVec S850000 1 :=
  cmpi .slt (st14 src) st39

-- %c_7: the constant 50000
def stC7 : IVec S_ 32 :=
  constantI S_ 32 50000#32

-- %41: %c_7 repeated along the new axes
def st41 : IVec S850000 32 :=
  broadcastInDim S850000 ![] bcast_S_S850000 stC7

-- %42: %14 + %41, entry by entry
def st42 (src : IVec S800000 32) : IVec S850000 32 :=
  addi (st14 src) st41

-- %43: %42 where %40 holds, %14 elsewhere
def st43 (src : IVec S800000 32) : IVec S850000 32 :=
  select (st40 src) (st42 src) (st14 src)

-- %44: %43 repeated along the new axes
def st44 (src : IVec S800000 32) : IVec S850000x1 32 :=
  broadcastInDim S850000x1 ![0] bcast_S850000_S850000x1_0 (st43 src)

-- %45: the entries of %12 at the starts %44
def st45 (X : FVec Ideal S50000x128 .f32) (W : FVec Ideal S128x128 .f32) (src : IVec S800000 32) : FVec Ideal S850000x128 .f32 :=
  Host.gather gather_S50000x128_S850000x1_S850000x128_1_0_n_n_0_1_1128 (st12 X W) (st44 src)

-- %46: %38 repeated along the new axes
def st46 (src : IVec S800000 32) (dst : IVec S800000 32) : FVec Ideal S850000x1 .f32 :=
  broadcastInDim S850000x1 ![0] bcast_S850000_S850000x1_0 (st38 src dst)

-- %47: %46 repeated along the new axes
def st47 (src : IVec S800000 32) (dst : IVec S800000 32) : FVec Ideal S850000x128 .f32 :=
  broadcastInDim S850000x128 ![0, 1] bcast_S850000x1_S850000x128_0_1 (st46 src dst)

-- %48: %45 · %47, entry by entry
def st48 (X : FVec Ideal S50000x128 .f32) (W : FVec Ideal S128x128 .f32) (src : IVec S800000 32) (dst : IVec S800000 32) : FVec Ideal S850000x128 .f32 :=
  mulf (st45 X W src) (st47 src dst)

-- %cst_8: the constant 0.000000e+00
def stCst8 : FVec Ideal S_ .f32 :=
  constant S_ .f32 0x00000000#32

-- %49: %cst_8 repeated along the new axes
def st49 : FVec Ideal S50000x128 .f32 :=
  broadcastInDim S50000x128 ![] bcast_S_S50000x128 stCst8

-- %50: %15 repeated along the new axes
def st50 (dst : IVec S800000 32) : IVec S850000x1 32 :=
  broadcastInDim S850000x1 ![0] bcast_S850000_S850000x1_0 (st15 dst)

-- %51: %49 plus, at every position, the sum of the entries of %48 whose start in %50 is that position
def st51 (X : FVec Ideal S50000x128 .f32) (W : FVec Ideal S128x128 .f32) (src : IVec S800000 32) (dst : IVec S800000 32) : FVec Ideal S50000x128 .f32 :=
  Host.scatterAdd scatter_S50000x128_S850000x1_S850000x128_1_0_0_1 st49 (st50 dst) (st48 X W src dst)

-- %52: %11 repeated along the new axes
def st52 (b : FVec Ideal S128 .f32) : FVec Ideal S1x128 .f32 :=
  broadcastInDim S1x128 ![1] bcast_S128_S1x128_1 b

-- %53: %52 repeated along the new axes
def st53 (b : FVec Ideal S128 .f32) : FVec Ideal S50000x128 .f32 :=
  broadcastInDim S50000x128 ![0, 1] bcast_S1x128_S50000x128_0_1 (st52 b)

-- %54: %51 + %53, entry by entry
def st54 (X : FVec Ideal S50000x128 .f32) (W : FVec Ideal S128x128 .f32) (b : FVec Ideal S128 .f32) (src : IVec S800000 32) (dst : IVec S800000 32) : FVec Ideal S50000x128 .f32 :=
  addf (st51 X W src dst) (st53 b)

-- %cst_9: the constant 0.000000e+00
def stCst9 : FVec Ideal S_ .f32 :=
  constant S_ .f32 0x00000000#32

-- %59: %cst_9 plus the sum of every row of %54
def st59 (X : FVec Ideal S50000x128 .f32) (W : FVec Ideal S128x128 .f32) (b : FVec Ideal S128 .f32) (src : IVec S800000 32) (dst : IVec S800000 32) : FVec Ideal S50000 .f32 :=
  Host.reduceAdd (st54 X W b src dst) stCst9 reducesTo_S50000x128_S50000_d1 h_S_

-- %60: %59 repeated along the new axes
def st60 (X : FVec Ideal S50000x128 .f32) (W : FVec Ideal S128x128 .f32) (b : FVec Ideal S128 .f32) (src : IVec S800000 32) (dst : IVec S800000 32) : FVec Ideal S50000x1 .f32 :=
  broadcastInDim S50000x1 ![0] bcast_S50000_S50000x1_0 (st59 X W b src dst)

-- %cst_10: the constant 1.280000e+02
def stCst10 : FVec Ideal S_ .f32 :=
  constant S_ .f32 0x43000000#32

-- %61: %cst_10 repeated along the new axes
def st61 : FVec Ideal S50000x1 .f32 :=
  broadcastInDim S50000x1 ![] bcast_S_S50000x1 stCst10

-- %62: %60 / %61, entry by entry
def st62 (X : FVec Ideal S50000x128 .f32) (W : FVec Ideal S128x128 .f32) (b : FVec Ideal S128 .f32) (src : IVec S800000 32) (dst : IVec S800000 32) : FVec Ideal S50000x1 .f32 :=
  Host.divf (st60 X W b src dst) st61

-- %63: %62 repeated along the new axes
def st63 (X : FVec Ideal S50000x128 .f32) (W : FVec Ideal S128x128 .f32) (b : FVec Ideal S128 .f32) (src : IVec S800000 32) (dst : IVec S800000 32) : FVec Ideal S50000x128 .f32 :=
  broadcastInDim S50000x128 ![0, 1] bcast_S50000x1_S50000x128_0_1 (st62 X W b src dst)

-- %64: %54 − %63, entry by entry
def st64 (X : FVec Ideal S50000x128 .f32) (W : FVec Ideal S128x128 .f32) (b : FVec Ideal S128 .f32) (src : IVec S800000 32) (dst : IVec S800000 32) : FVec Ideal S50000x128 .f32 :=
  subf (st54 X W b src dst) (st63 X W b src dst)

-- %65: %64 · %64, entry by entry
def st65 (X : FVec Ideal S50000x128 .f32) (W : FVec Ideal S128x128 .f32) (b : FVec Ideal S128 .f32) (src : IVec S800000 32) (dst : IVec S800000 32) : FVec Ideal S50000x128 .f32 :=
  mulf (st64 X W b src dst) (st64 X W b src dst)

-- %cst_11: the constant 0.000000e+00
def stCst11 : FVec Ideal S_ .f32 :=
  constant S_ .f32 0x00000000#32

-- %66: %cst_11 plus the sum of every row of %65
def st66 (X : FVec Ideal S50000x128 .f32) (W : FVec Ideal S128x128 .f32) (b : FVec Ideal S128 .f32) (src : IVec S800000 32) (dst : IVec S800000 32) : FVec Ideal S50000 .f32 :=
  Host.reduceAdd (st65 X W b src dst) stCst11 reducesTo_S50000x128_S50000_d1 h_S_

-- %67: %66 repeated along the new axes
def st67 (X : FVec Ideal S50000x128 .f32) (W : FVec Ideal S128x128 .f32) (b : FVec Ideal S128 .f32) (src : IVec S800000 32) (dst : IVec S800000 32) : FVec Ideal S50000x1 .f32 :=
  broadcastInDim S50000x1 ![0] bcast_S50000_S50000x1_0 (st66 X W b src dst)

-- %cst_12: the constant 1.280000e+02
def stCst12 : FVec Ideal S_ .f32 :=
  constant S_ .f32 0x43000000#32

-- %68: %cst_12 repeated along the new axes
def st68 : FVec Ideal S50000x1 .f32 :=
  broadcastInDim S50000x1 ![] bcast_S_S50000x1 stCst12

-- %69: %67 / %68, entry by entry
def st69 (X : FVec Ideal S50000x128 .f32) (W : FVec Ideal S128x128 .f32) (b : FVec Ideal S128 .f32) (src : IVec S800000 32) (dst : IVec S800000 32) : FVec Ideal S50000x1 .f32 :=
  Host.divf (st67 X W b src dst) st68

-- %70: %62 repeated along the new axes
def st70 (X : FVec Ideal S50000x128 .f32) (W : FVec Ideal S128x128 .f32) (b : FVec Ideal S128 .f32) (src : IVec S800000 32) (dst : IVec S800000 32) : FVec Ideal S50000x128 .f32 :=
  broadcastInDim S50000x128 ![0, 1] bcast_S50000x1_S50000x128_0_1 (st62 X W b src dst)

-- %71: %54 − %70, entry by entry
def st71 (X : FVec Ideal S50000x128 .f32) (W : FVec Ideal S128x128 .f32) (b : FVec Ideal S128 .f32) (src : IVec S800000 32) (dst : IVec S800000 32) : FVec Ideal S50000x128 .f32 :=
  subf (st54 X W b src dst) (st70 X W b src dst)

-- %cst_13: the constant 9.99999974E-6
def stCst13 : FVec Ideal S_ .f32 :=
  constant S_ .f32 0x3727C5AC#32

-- %72: %cst_13 repeated along the new axes
def st72 : FVec Ideal S50000x1 .f32 :=
  broadcastInDim S50000x1 ![] bcast_S_S50000x1 stCst13

-- %73: %69 + %72, entry by entry
def st73 (X : FVec Ideal S50000x128 .f32) (W : FVec Ideal S128x128 .f32) (b : FVec Ideal S128 .f32) (src : IVec S800000 32) (dst : IVec S800000 32) : FVec Ideal S50000x1 .f32 :=
  addf (st69 X W b src dst) st72

-- %74: the reciprocal square root of %73, entry by entry
def st74 (X : FVec Ideal S50000x128 .f32) (W : FVec Ideal S128x128 .f32) (b : FVec Ideal S128 .f32) (src : IVec S800000 32) (dst : IVec S800000 32) : FVec Ideal S50000x1 .f32 :=
  Host.rsqrt (st73 X W b src dst)

-- %75: %74 repeated along the new axes
def st75 (X : FVec Ideal S50000x128 .f32) (W : FVec Ideal S128x128 .f32) (b : FVec Ideal S128 .f32) (src : IVec S800000 32) (dst : IVec S800000 32) : FVec Ideal S50000x128 .f32 :=
  broadcastInDim S50000x128 ![0, 1] bcast_S50000x1_S50000x128_0_1 (st74 X W b src dst)

-- %76: %71 · %75, entry by entry
def st76 (X : FVec Ideal S50000x128 .f32) (W : FVec Ideal S128x128 .f32) (b : FVec Ideal S128 .f32) (src : IVec S800000 32) (dst : IVec S800000 32) : FVec Ideal S50000x128 .f32 :=
  mulf (st71 X W b src dst) (st75 X W b src dst)

-- %77: %56 repeated along the new axes
def st77 (g : FVec Ideal S128 .f32) : FVec Ideal S1x128 .f32 :=
  broadcastInDim S1x128 ![1] bcast_S128_S1x128_1 g

-- %78: %77 repeated along the new axes
def st78 (g : FVec Ideal S128 .f32) : FVec Ideal S50000x128 .f32 :=
  broadcastInDim S50000x128 ![0, 1] bcast_S1x128_S50000x128_0_1 (st77 g)

-- %79: %76 · %78, entry by entry
def st79 (X : FVec Ideal S50000x128 .f32) (W : FVec Ideal S128x128 .f32) (b : FVec Ideal S128 .f32) (g : FVec Ideal S128 .f32) (src : IVec S800000 32) (dst : IVec S800000 32) : FVec Ideal S50000x128 .f32 :=
  mulf (st76 X W b src dst) (st78 g)

-- %80: %58 repeated along the new axes
def st80 (be : FVec Ideal S128 .f32) : FVec Ideal S1x128 .f32 :=
  broadcastInDim S1x128 ![1] bcast_S128_S1x128_1 be

-- %81: %80 repeated along the new axes
def st81 (be : FVec Ideal S128 .f32) : FVec Ideal S50000x128 .f32 :=
  broadcastInDim S50000x128 ![0, 1] bcast_S1x128_S50000x128_0_1 (st80 be)

-- %82: %79 + %81, entry by entry
def st82 (X : FVec Ideal S50000x128 .f32) (W : FVec Ideal S128x128 .f32) (b : FVec Ideal S128 .f32) (g : FVec Ideal S128 .f32) (be : FVec Ideal S128 .f32) (src : IVec S800000 32) (dst : IVec S800000 32) : FVec Ideal S50000x128 .f32 :=
  addf (st79 X W b g src dst) (st81 be)

-- inside value %83 (function relu), its %cst: the constant 0.000000e+00
def stCall1Cst : FVec Ideal S_ .f32 :=
  constant S_ .f32 0x00000000#32

-- inside value %83 (function relu), its %0: %cst repeated along the new axes
def stCall1V0 : FVec Ideal S50000x128 .f32 :=
  broadcastInDim S50000x128 ![] bcast_S_S50000x128 stCall1Cst

-- %83 (the result of function relu): the larger of %82 and the repeated 0.0, entry by entry
def st83 (X : FVec Ideal S50000x128 .f32) (W : FVec Ideal S128x128 .f32) (b : FVec Ideal S128 .f32) (g : FVec Ideal S128 .f32) (be : FVec Ideal S128 .f32) (src : IVec S800000 32) (dst : IVec S800000 32) : FVec Ideal S50000x128 .f32 :=
  maximumf (st82 X W b g be src dst) stCall1V0

-- %84: %7 + %83, entry by entry
def st84 (X : FVec Ideal S50000x128 .f32) (W : FVec Ideal S128x128 .f32) (b : FVec Ideal S128 .f32) (g : FVec Ideal S128 .f32) (be : FVec Ideal S128 .f32) (src : IVec S800000 32) (dst : IVec S800000 32) : FVec Ideal S50000x128 .f32 :=
  addf X (st83 X W b g be src dst)

/-- The layer: the residual sum `X + max (normalised · g + be) 0`, the last operation of the chain. -/
def layerFn (X : FVec Ideal S50000x128 .f32) (W : FVec Ideal S128x128 .f32) (b g be : FVec Ideal S128 .f32)
    (src dst : IVec S800000 32) : FVec Ideal S50000x128 .f32 :=
  st84 X W b g be src dst

/-- The per-node factor: the reciprocal square root of the degree where the degree is positive, zero elsewhere. -/
def dinvFn (dst : IVec S800000 32) : FVec Ideal S50000 .f32 := st23 dst

/-- The source list with self-loops, negative entries wrapped around, as a column. -/
def srcW (src : IVec S800000 32) : IVec S850000x1 32 := st29 src

/-- The destination list with self-loops, negative entries wrapped around, as a column. -/
def dstW (dst : IVec S800000 32) : IVec S850000x1 32 := st36 dst

/-- The destination list with self-loops, as it is, as a column: where the per-node sums land. -/
def dstI (dst : IVec S800000 32) : IVec S850000x1 32 := st50 dst

/-- The second wrapped source column (%44) is the first (%29): the same operations on the same list. -/
theorem st44_eq (src : IVec S800000 32) : st44 src = srcW src := rfl

/-- The degree's start column (%18) is the sums' start column (%50). -/
theorem st18_eq (dst : IVec S800000 32) : st18 dst = dstI dst := rfl

end Cert.ReferenceIdeal.RefLayer

end
-- ==== Proof.RefStages.lean ====
/-
  The reference program's result, stage by stage.

  The program computes two streams and a classifier.  A stream is a projection `x·Wred + bred` (50000 × 256 times
  256 × 128, plus a bias row) followed by four graph-convolution layers; each layer is the same composition of
  operations applied to the previous layer's result, to the layer's slices of the stacked weight, bias, scale and
  shift arrays, and to the stream's two edge-index rows.  The classifier joins the two streams' results side by side
  into a 50000 × 256 array, multiplies it by the 256 × 10 classifier weight and adds a bias row.

  Here: the projection read index by index is `Spec.affine`; each layer's result is `RefLayer.layerFn` of the previous
  result, of the layer's slices and of the stream's two edge-index rows, so a stream's result is `streamFn` of the
  stream's eight arguments; and the classifier's entry is a sum over the 256 joined columns, which splits into the sum
  over the first stream's 128 columns against the weight's rows 0 … 127 plus the sum over the second stream's 128
  columns against the weight's rows 128 … 255: the classifier `Spec.cls` of the two streams' results.
-/
import proofs.«410635_j2241972928706_3_alg».proof.Proof.RefRead
import proofs.«410635_j2241972928706_3_alg».proof.Proof.RefLayerDef
import proofs.«410635_j2241972928706_3_alg».proof.Proof.Spec
import Idealize.ShloMosaic.Lib.Pipeline.Value
import Idealize.ShloMosaic.Lib.ValueIdx
import Idealize.ShloMosaic.PureOps.Ideal.Laws
import Mathlib.Algebra.BigOperators.Fin

set_option maxRecDepth 16384

noncomputable section

open scoped BigOperators

namespace Cert.ReferenceIdeal.RefStages

open Idealize.ShloMosaic Idealize.ShloMosaic.ValueIdx Cert.ReferenceIdeal Cert.ReferenceIdeal.Gen Cert.ReferenceIdeal.RefRead

/-! ## The pieces of the stacked arguments -/

/-- Layer 1's weight: the stacked weights' first 128 × 128 sheet. -/
def wR0 (W : FVec Ideal S4x128x128 .f32) : FVec Ideal S128x128 .f32 :=
  shapeCast _ (extractStridedSlice S1x128x128 ![0, 0, 0] W slices_S4x128x128_S1x128x128_0_0_0) shapeCasts_S1x128x128_S128x128
/-- Layer 2's weight: the second sheet. -/
def wR1 (W : FVec Ideal S4x128x128 .f32) : FVec Ideal S128x128 .f32 :=
  shapeCast _ (extractStridedSlice S1x128x128 ![1, 0, 0] W slices_S4x128x128_S1x128x128_1_0_0) shapeCasts_S1x128x128_S128x128
/-- Layer 3's weight: the third sheet. -/
def wR2 (W : FVec Ideal S4x128x128 .f32) : FVec Ideal S128x128 .f32 :=
  shapeCast _ (extractStridedSlice S1x128x128 ![2, 0, 0] W slices_S4x128x128_S1x128x128_2_0_0) shapeCasts_S1x128x128_S128x128
/-- Layer 4's weight: the fourth sheet. -/
def wR3 (W : FVec Ideal S4x128x128 .f32) : FVec Ideal S128x128 .f32 :=
  shapeCast _ (extractStridedSlice S1x128x128 ![3, 0, 0] W slices_S4x128x128_S1x128x128_3_0_0) shapeCasts_S1x128x128_S128x128

/-- Layer 1's row of a stacked 4 × 128 array (bias, scale or shift): the first row. -/
def rR0 (v : FVec Ideal S4x128 .f32) : FVec Ideal S128 .f32 :=
  shapeCast _ (extractStridedSlice S1x128 ![0, 0] v slices_S4x128_S1x128_0_0) shapeCasts_S1x128_S128
/-- Layer 2's row: the second. -/
def rR1 (v : FVec Ideal S4x128 .f32) : FVec Ideal S128 .f32 :=
  shapeCast _ (extractStridedSlice S1x128 ![1, 0] v slices_S4x128_S1x128_1_0) shapeCasts_S1x128_S128
/-- Layer 3's row: the third. -/
def rR2 (v : FVec Ideal S4x128 .f32) : FVec Ideal S128 .f32 :=
  shapeCast _ (extractStridedSlice S1x128 ![2, 0] v slices_S4x128_S1x128_2_0) shapeCasts_S1x128_S128
/-- Layer 4's row: the fourth. -/
def rR3 (v : FVec Ideal S4x128 .f32) : FVec Ideal S128 .f32 :=
  shapeCast _ (extractStridedSlice S1x128 ![3, 0] v slices_S4x128_S1x128_3_0) shapeCasts_S1x128_S128

/-- The edges' sources: the first row of the 2 × 800000 edge-index array. -/
def srcR (ei : IVec S2x800000 32) : IVec S800000 32 :=
  shapeCast _ (extractStridedSlice S1x800000 ![0, 0] ei slices_S2x800000_S1x800000_0_0) shapeCasts_S1x800000_S800000
/-- The edges' destinations: the second row. -/
def dstR (ei : IVec S2x800000 32) : IVec S800000 32 :=
  shapeCast _ (extractStridedSlice S1x800000 ![1, 0] ei slices_S2x800000_S1x800000_1_0) shapeCasts_S1x800000_S800000

/-- A vector of 128 entries as a 1 × 128 row. -/
def bredRow (v : FVec Ideal S128 .f32) : Cert.Spec.Mat 1 128 := fun i => v (ix1 ⟨(i 1).val, idx2_lt1 i⟩)

/-- A vector of 10 entries as a 1 × 10 row. -/
def bclsRow (v : FVec Ideal S10 .f32) : Cert.Spec.Mat 1 10 := fun i => v (ix1 ⟨(i 1).val, idx2_lt1 i⟩)

/-- The classifier weight's rows 0 … 127: the first stream's half. -/
def wclsTop (w : FVec Ideal S256x10 .f32) : Cert.Spec.Mat 128 10 :=
  fun p => w (ix2 ⟨(p 0).val, Nat.lt_of_lt_of_le (idx2_lt0 p) (by decide)⟩ ⟨(p 1).val, idx2_lt1 p⟩)

/-- The classifier weight's rows 128 … 255: the second stream's half. -/
def wclsBot (w : FVec Ideal S256x10 .f32) : Cert.Spec.Mat 128 10 :=
  fun p => w (ix2 ⟨(p 0).val + 128, Nat.add_lt_add_right (idx2_lt0 p) 128⟩ ⟨(p 1).val, idx2_lt1 p⟩)

/-- The program's slices of the first stream's stacked arguments are these pieces. -/
theorem v9_eq (x6 : (⟨S4x128x128, .f32⟩ : BufTy).Contents (Elt Ideal)) : val_main_v9 (F := Ideal) x6 = wR0 x6 := rfl
theorem v86_eq (x6 : (⟨S4x128x128, .f32⟩ : BufTy).Contents (Elt Ideal)) : val_main_v86 (F := Ideal) x6 = wR1 x6 := rfl
theorem v163_eq (x6 : (⟨S4x128x128, .f32⟩ : BufTy).Contents (Elt Ideal)) : val_main_v163 (F := Ideal) x6 = wR2 x6 := rfl
theorem v240_eq (x6 : (⟨S4x128x128, .f32⟩ : BufTy).Contents (Elt Ideal)) : val_main_v240 (F := Ideal) x6 = wR3 x6 := rfl
theorem v11_eq (x7 : (⟨S4x128, .f32⟩ : BufTy).Contents (Elt Ideal)) : val_main_v11 (F := Ideal) x7 = rR0 x7 := rfl
theorem v88_eq (x7 : (⟨S4x128, .f32⟩ : BufTy).Contents (Elt Ideal)) : val_main_v88 (F := Ideal) x7 = rR1 x7 := rfl
theorem v165_eq (x7 : (⟨S4x128, .f32⟩ : BufTy).Contents (Elt Ideal)) : val_main_v165 (F := Ideal) x7 = rR2 x7 := rfl
theorem v242_eq (x7 : (⟨S4x128, .f32⟩ : BufTy).Contents (Elt Ideal)) : val_main_v242 (F := Ideal) x7 = rR3 x7 := rfl
theorem v56_eq (x8 : (⟨S4x128, .f32⟩ : BufTy).Contents (Elt Ideal)) : val_main_v56 (F := Ideal) x8 = rR0 x8 := rfl
theorem v133_eq (x8 : (⟨S4x128, .f32⟩ : BufTy).Contents (Elt Ideal)) : val_main_v133 (F := Ideal) x8 = rR1 x8 := rfl
theorem v210_eq (x8 : (⟨S4x128, .f32⟩ : BufTy).Contents (Elt Ideal)) : val_main_v210 (F := Ideal) x8 = rR2 x8 := rfl
theorem v287_eq (x8 : (⟨S4x128, .f32⟩ : BufTy).Contents (Elt Ideal)) : val_main_v287 (F := Ideal) x8 = rR3 x8 := rfl
theorem v58_eq (x9 : (⟨S4x128, .f32⟩ : BufTy).Contents (Elt Ideal)) : val_main_v58 (F := Ideal) x9 = rR0 x9 := rfl
theorem v135_eq (x9 : (⟨S4x128, .f32⟩ : BufTy).Contents (Elt Ideal)) : val_main_v135 (F := Ideal) x9 = rR1 x9 := rfl
theorem v212_eq (x9 : (⟨S4x128, .f32⟩ : BufTy).Contents (Elt Ideal)) : val_main_v212 (F := Ideal) x9 = rR2 x9 := rfl
theorem v289_eq (x9 : (⟨S4x128, .f32⟩ : BufTy).Contents (Elt Ideal)) : val_main_v289 (F := Ideal) x9 = rR3 x9 := rfl
theorem v1_eq (x16 : (⟨S2x800000, .i32⟩ : BufTy).Contents (Elt Ideal)) : val_main_v1 (F := Ideal) x16 = srcR x16 := rfl
theorem v3_eq (x16 : (⟨S2x800000, .i32⟩ : BufTy).Contents (Elt Ideal)) : val_main_v3 (F := Ideal) x16 = dstR x16 := rfl

/-- The program's slices of the second stream's stacked arguments are the same pieces of those arguments. -/
theorem v325_eq (x10 : (⟨S4x128x128, .f32⟩ : BufTy).Contents (Elt Ideal)) : val_main_v325 (F := Ideal) x10 = wR0 x10 := rfl
theorem v402_eq (x10 : (⟨S4x128x128, .f32⟩ : BufTy).Contents (Elt Ideal)) : val_main_v402 (F := Ideal) x10 = wR1 x10 := rfl
theorem v479_eq (x10 : (⟨S4x128x128, .f32⟩ : BufTy).Contents (Elt Ideal)) : val_main_v479 (F := Ideal) x10 = wR2 x10 := rfl
theorem v556_eq (x10 : (⟨S4x128x128, .f32⟩ : BufTy).Contents (Elt Ideal)) : val_main_v556 (F := Ideal) x10 = wR3 x10 := rfl
theorem v327_eq (x11 : (⟨S4x128, .f32⟩ : BufTy).Contents (Elt Ideal)) : val_main_v327 (F := Ideal) x11 = rR0 x11 := rfl
theorem v404_eq (x11 : (⟨S4x128, .f32⟩ : BufTy).Contents (Elt Ideal)) : val_main_v404 (F := Ideal) x11 = rR1 x11 := rfl
theorem v481_eq (x11 : (⟨S4x128, .f32⟩ : BufTy).Contents (Elt Ideal)) : val_main_v481 (F := Ideal) x11 = rR2 x11 := rfl
theorem v558_eq (x11 : (⟨S4x128, .f32⟩ : BufTy).Contents (Elt Ideal)) : val_main_v558 (F := Ideal) x11 = rR3 x11 := rfl
theorem v372_eq (x12 : (⟨S4x128, .f32⟩ : BufTy).Contents (Elt Ideal)) : val_main_v372 (F := Ideal) x12 = rR0 x12 := rfl
theorem v449_eq (x12 : (⟨S4x128, .f32⟩ : BufTy).Contents (Elt Ideal)) : val_main_v449 (F := Ideal) x12 = rR1 x12 := rfl
theorem v526_eq (x12 : (⟨S4x128, .f32⟩ : BufTy).Contents (Elt Ideal)) : val_main_v526 (F := Ideal) x12 = rR2 x12 := rfl
theorem v603_eq (x12 : (⟨S4x128, .f32⟩ : BufTy).Contents (Elt Ideal)) : val_main_v603 (F := Ideal) x12 = rR3 x12 := rfl
theorem v374_eq (x13 : (⟨S4x128, .f32⟩ : BufTy).Contents (Elt Ideal)) : val_main_v374 (F := Ideal) x13 = rR0 x13 := rfl
theorem v451_eq (x13 : (⟨S4x128, .f32⟩ : BufTy).Contents (Elt Ideal)) : val_main_v451 (F := Ideal) x13 = rR1 x13 := rfl
theorem v528_eq (x13 : (⟨S4x128, .f32⟩ : BufTy).Contents (Elt Ideal)) : val_main_v528 (F := Ideal) x13 = rR2 x13 := rfl
theorem v605_eq (x13 : (⟨S4x128, .f32⟩ : BufTy).Contents (Elt Ideal)) : val_main_v605 (F := Ideal) x13 = rR3 x13 := rfl
theorem v317_eq (x17 : (⟨S2x800000, .i32⟩ : BufTy).Contents (Elt Ideal)) : val_main_v317 (F := Ideal) x17 = srcR x17 := rfl
theorem v319_eq (x17 : (⟨S2x800000, .i32⟩ : BufTy).Contents (Elt Ideal)) : val_main_v319 (F := Ideal) x17 = dstR x17 := rfl

/-! ## The projections -/

/-- The left factor's index at the `k`-th term of an entry of the product: the entry's row, column `k`. -/
theorem lidx_r (i : S50000x128.Idx) (k : Fin 256) :
    lidx_main_v4 i k = ix2 (⟨(i 0).val, idx2_lt0 i⟩ : Fin 50000) k :=
  funext fun a => Fin.ext (by match a with | ⟨0, _⟩ => rfl | ⟨1, _⟩ => rfl)

/-- The right factor's index at the `k`-th term: row `k`, the entry's column. -/
theorem ridx_r (i : S50000x128.Idx) (k : Fin 256) :
    ridx_main_v4 i k = ix2 k (⟨(i 1).val, idx2_lt1 i⟩ : Fin 128) :=
  funext fun a => Fin.ext (by match a with | ⟨0, _⟩ => rfl | ⟨1, _⟩ => rfl)

/-- The bias, broadcast first to a row and then down the rows, is read at the entry's column. -/
theorem bidx_r (i : S50000x128.Idx) :
    idx_main_v5 (idx_main_v6 i) = ix1 (⟨(i 1).val, idx2_lt1 i⟩ : Fin 128) :=
  funext fun a => Fin.ext (by match a with | ⟨0, _⟩ => rfl)

/-- THE FIRST STREAM'S PROJECTION, index by index: `(x·Wred)[r, c] + bred[c]`. -/
theorem proj_r (x0 : (⟨S50000x256, .f32⟩ : BufTy).Contents (Elt Ideal)) (x2 : (⟨S256x128, .f32⟩ : BufTy).Contents (Elt Ideal)) (x3 : (⟨S128, .f32⟩ : BufTy).Contents (Elt Ideal)) :
    val_main_v7 (F := Ideal) x0 x2 x3
      = Cert.Spec.affine x0 x2 (bredRow x3) := by
  funext i
  rw [val_main_v7_apply, val_main_v4_apply, val_main_v6_apply, val_main_v5_apply, bidx_r i]
  have hs : (∑ k : Fin 256, x0 (lidx_main_v4 i k) * x2 (ridx_main_v4 i k))
      = Cert.Spec.mm x0 x2 ⟨(i 0).val, idx2_lt0 i⟩ ⟨(i 1).val, idx2_lt1 i⟩ :=
    Finset.sum_congr rfl fun k _ => by rw [lidx_r i k, ridx_r i k]
  rw [hs]
  rfl

/-- The left factor's index at the `k`-th term of an entry of the product: the entry's row, column `k`. -/
theorem lidx_v (i : S50000x128.Idx) (k : Fin 256) :
    lidx_main_v320 i k = ix2 (⟨(i 0).val, idx2_lt0 i⟩ : Fin 50000) k :=
  funext fun a => Fin.ext (by match a with | ⟨0, _⟩ => rfl | ⟨1, _⟩ => rfl)

/-- The right factor's index at the `k`-th term: row `k`, the entry's column. -/
theorem ridx_v (i : S50000x128.Idx) (k : Fin 256) :
    ridx_main_v320 i k = ix2 k (⟨(i 1).val, idx2_lt1 i⟩ : Fin 128) :=
  funext fun a => Fin.ext (by match a with | ⟨0, _⟩ => rfl | ⟨1, _⟩ => rfl)

/-- The bias, broadcast first to a row and then down the rows, is read at the entry's column. -/
theorem bidx_v (i : S50000x128.Idx) :
    idx_main_v321 (idx_main_v322 i) = ix1 (⟨(i 1).val, idx2_lt1 i⟩ : Fin 128) :=
  funext fun a => Fin.ext (by match a with | ⟨0, _⟩ => rfl)

/-- THE SECOND STREAM'S PROJECTION, index by index. -/
theorem proj_v (x1 : (⟨S50000x256, .f32⟩ : BufTy).Contents (Elt Ideal)) (x4 : (⟨S256x128, .f32⟩ : BufTy).Contents (Elt Ideal)) (x5 : (⟨S128, .f32⟩ : BufTy).Contents (Elt Ideal)) :
    val_main_v323 (F := Ideal) x1 x4 x5
      = Cert.Spec.affine x1 x4 (bredRow x5) := by
  funext i
  rw [val_main_v323_apply, val_main_v320_apply, val_main_v322_apply, val_main_v321_apply, bidx_v i]
  have hs : (∑ k : Fin 256, x1 (lidx_main_v320 i k) * x4 (ridx_main_v320 i k))
      = Cert.Spec.mm x1 x4 ⟨(i 0).val, idx2_lt0 i⟩ ⟨(i 1).val, idx2_lt1 i⟩ :=
    Finset.sum_congr rfl fun k _ => by rw [lidx_v i k, ridx_v i k]
  rw [hs]
  rfl

/-! ## The eight layers

A layer's stages are the operations of `RefLayer.layerFn`, in the same order, applied to the layer's inputs: the two
sides unfold to the same composition. -/

/-- The first stream's layer 1. -/
theorem layer_1 (x0 : (⟨S50000x256, .f32⟩ : BufTy).Contents (Elt Ideal)) (x2 : (⟨S256x128, .f32⟩ : BufTy).Contents (Elt Ideal)) (x3 : (⟨S128, .f32⟩ : BufTy).Contents (Elt Ideal)) (x6 : (⟨S4x128x128, .f32⟩ : BufTy).Contents (Elt Ideal)) (x7 x8 x9 : (⟨S4x128, .f32⟩ : BufTy).Contents (Elt Ideal)) (x16 : (⟨S2x800000, .i32⟩ : BufTy).Contents (Elt Ideal)) :
    val_main_v84 (F := Ideal) x0 x2 x3 x6 x7 x8 x9 x16
      = RefLayer.layerFn (val_main_v7 (F := Ideal) x0 x2 x3) (wR0 x6) (rR0 x7) (rR0 x8) (rR0 x9) (srcR x16) (dstR x16) := rfl

/-- The first stream's layer 2. -/
theorem layer_2 (x0 : (⟨S50000x256, .f32⟩ : BufTy).Contents (Elt Ideal)) (x2 : (⟨S256x128, .f32⟩ : BufTy).Contents (Elt Ideal)) (x3 : (⟨S128, .f32⟩ : BufTy).Contents (Elt Ideal)) (x6 : (⟨S4x128x128, .f32⟩ : BufTy).Contents (Elt Ideal)) (x7 x8 x9 : (⟨S4x128, .f32⟩ : BufTy).Contents (Elt Ideal)) (x16 : (⟨S2x800000, .i32⟩ : BufTy).Contents (Elt Ideal)) :
    val_main_v161 (F := Ideal) x0 x2 x3 x6 x7 x8 x9 x16
      = RefLayer.layerFn (val_main_v84 (F := Ideal) x0 x2 x3 x6 x7 x8 x9 x16) (wR1 x6) (rR1 x7) (rR1 x8) (rR1 x9) (srcR x16) (dstR x16) := rfl

/-- The first stream's layer 3. -/
theorem layer_3 (x0 : (⟨S50000x256, .f32⟩ : BufTy).Contents (Elt Ideal)) (x2 : (⟨S256x128, .f32⟩ : BufTy).Contents (Elt Ideal)) (x3 : (⟨S128, .f32⟩ : BufTy).Contents (Elt Ideal)) (x6 : (⟨S4x128x128, .f32⟩ : BufTy).Contents (Elt Ideal)) (x7 x8 x9 : (⟨S4x128, .f32⟩ : BufTy).Contents (Elt Ideal)) (x16 : (⟨S2x800000, .i32⟩ : BufTy).Contents (Elt Ideal)) :
    val_main_v238 (F := Ideal) x0 x2 x3 x6 x7 x8 x9 x16
      = RefLayer.layerFn (val_main_v161 (F := Ideal) x0 x2 x3 x6 x7 x8 x9 x16) (wR2 x6) (rR2 x7) (rR2 x8) (rR2 x9) (srcR x16) (dstR x16) := rfl

/-- The first stream's layer 4. -/
theorem layer_4 (x0 : (⟨S50000x256, .f32⟩ : BufTy).Contents (Elt Ideal)) (x2 : (⟨S256x128, .f32⟩ : BufTy).Contents (Elt Ideal)) (x3 : (⟨S128, .f32⟩ : BufTy).Contents (Elt Ideal)) (x6 : (⟨S4x128x128, .f32⟩ : BufTy).Contents (Elt Ideal)) (x7 x8 x9 : (⟨S4x128, .f32⟩ : BufTy).Contents (Elt Ideal)) (x16 : (⟨S2x800000, .i32⟩ : BufTy).Contents (Elt Ideal)) :
    val_main_v315 (F := Ideal) x0 x2 x3 x6 x7 x8 x9 x16
      = RefLayer.layerFn (val_main_v238 (F := Ideal) x0 x2 x3 x6 x7 x8 x9 x16) (wR3 x6) (rR3 x7) (rR3 x8) (rR3 x9) (srcR x16) (dstR x16) := rfl

/-- The second stream's layer 1. -/
theorem layer_5 (x1 : (⟨S50000x256, .f32⟩ : BufTy).Contents (Elt Ideal)) (x4 : (⟨S256x128, .f32⟩ : BufTy).Contents (Elt Ideal)) (x5 : (⟨S128, .f32⟩ : BufTy).Contents (Elt Ideal)) (x10 : (⟨S4x128x128, .f32⟩ : BufTy).Contents (Elt Ideal)) (x11 x12 x13 : (⟨S4x128, .f32⟩ : BufTy).Contents (Elt Ideal)) (x17 : (⟨S2x800000, .i32⟩ : BufTy).Contents (Elt Ideal)) :
    val_main_v400 (F := Ideal) x1 x4 x5 x10 x11 x12 x13 x17
      = RefLayer.layerFn (val_main_v323 (F := Ideal) x1 x4 x5) (wR0 x10) (rR0 x11) (rR0 x12) (rR0 x13) (srcR x17) (dstR x17) := rfl

/-- The second stream's layer 2. -/
theorem layer_6 (x1 : (⟨S50000x256, .f32⟩ : BufTy).Contents (Elt Ideal)) (x4 : (⟨S256x128, .f32⟩ : BufTy).Contents (Elt Ideal)) (x5 : (⟨S128, .f32⟩ : BufTy).Contents (Elt Ideal)) (x10 : (⟨S4x128x128, .f32⟩ : BufTy).Contents (Elt Ideal)) (x11 x12 x13 : (⟨S4x128, .f32⟩ : BufTy).Contents (Elt Ideal)) (x17 : (⟨S2x800000, .i32⟩ : BufTy).Contents (Elt Ideal)) :
    val_main_v477 (F := Ideal) x1 x4 x5 x10 x11 x12 x13 x17
      = RefLayer.layerFn (val_main_v400 (F := Ideal) x1 x4 x5 x10 x11 x12 x13 x17) (wR1 x10) (rR1 x11) (rR1 x12) (rR1 x13) (srcR x17) (dstR x17) := rfl

/-- The second stream's layer 3. -/
theorem layer_7 (x1 : (⟨S50000x256, .f32⟩ : BufTy).Contents (Elt Ideal)) (x4 : (⟨S256x128, .f32⟩ : BufTy).Contents (Elt Ideal)) (x5 : (⟨S128, .f32⟩ : BufTy).Contents (Elt Ideal)) (x10 : (⟨S4x128x128, .f32⟩ : BufTy).Contents (Elt Ideal)) (x11 x12 x13 : (⟨S4x128, .f32⟩ : BufTy).Contents (Elt Ideal)) (x17 : (⟨S2x800000, .i32⟩ : BufTy).Contents (Elt Ideal)) :
    val_main_v554 (F := Ideal) x1 x4 x5 x10 x11 x12 x13 x17
      = RefLayer.layerFn (val_main_v477 (F := Ideal) x1 x4 x5 x10 x11 x12 x13 x17) (wR2 x10) (rR2 x11) (rR2 x12) (rR2 x13) (srcR x17) (dstR x17) := rfl

/-- The second stream's layer 4. -/
theorem layer_8 (x1 : (⟨S50000x256, .f32⟩ : BufTy).Contents (Elt Ideal)) (x4 : (⟨S256x128, .f32⟩ : BufTy).Contents (Elt Ideal)) (x5 : (⟨S128, .f32⟩ : BufTy).Contents (Elt Ideal)) (x10 : (⟨S4x128x128, .f32⟩ : BufTy).Contents (Elt Ideal)) (x11 x12 x13 : (⟨S4x128, .f32⟩ : BufTy).Contents (Elt Ideal)) (x17 : (⟨S2x800000, .i32⟩ : BufTy).Contents (Elt Ideal)) :
    val_main_v631 (F := Ideal) x1 x4 x5 x10 x11 x12 x13 x17
      = RefLayer.layerFn (val_main_v554 (F := Ideal) x1 x4 x5 x10 x11 x12 x13 x17) (wR3 x10) (rR3 x11) (rR3 x12) (rR3 x13) (srcR x17) (dstR x17) := rfl

/-! ## A stream -/

/-- A stream after its projection. -/
def stream0 (x : FVec Ideal S50000x256 .f32) (Wred : FVec Ideal S256x128 .f32) (bred : FVec Ideal S128 .f32) :
    FVec Ideal S50000x128 .f32 :=
  Cert.Spec.affine x Wred (bredRow bred)

/-- A stream after its first layer. -/
def stream1 (x : FVec Ideal S50000x256 .f32) (Wred : FVec Ideal S256x128 .f32) (bred : FVec Ideal S128 .f32)
    (W : FVec Ideal S4x128x128 .f32) (b g be : FVec Ideal S4x128 .f32) (ei : IVec S2x800000 32) : FVec Ideal S50000x128 .f32 :=
  RefLayer.layerFn (stream0 x Wred bred) (wR0 W) (rR0 b) (rR0 g) (rR0 be) (srcR ei) (dstR ei)

/-- A stream after its second layer. -/
def stream2 (x : FVec Ideal S50000x256 .f32) (Wred : FVec Ideal S256x128 .f32) (bred : FVec Ideal S128 .f32)
    (W : FVec Ideal S4x128x128 .f32) (b g be : FVec Ideal S4x128 .f32) (ei : IVec S2x800000 32) : FVec Ideal S50000x128 .f32 :=
  RefLayer.layerFn (stream1 x Wred bred W b g be ei) (wR1 W) (rR1 b) (rR1 g) (rR1 be) (srcR ei) (dstR ei)

/-- A stream after its third layer. -/
def stream3 (x : FVec Ideal S50000x256 .f32) (Wred : FVec Ideal S256x128 .f32) (bred : FVec Ideal S128 .f32)
    (W : FVec Ideal S4x128x128 .f32) (b g be : FVec Ideal S4x128 .f32) (ei : IVec S2x800000 32) : FVec Ideal S50000x128 .f32 :=
  RefLayer.layerFn (stream2 x Wred bred W b g be ei) (wR2 W) (rR2 b) (rR2 g) (rR2 be) (srcR ei) (dstR ei)

/-- A STREAM: the projection followed by the four layers, each on its own slices of the stacked arguments. -/
def streamFn (x : FVec Ideal S50000x256 .f32) (Wred : FVec Ideal S256x128 .f32) (bred : FVec Ideal S128 .f32)
    (W : FVec Ideal S4x128x128 .f32) (b g be : FVec Ideal S4x128 .f32) (ei : IVec S2x800000 32) : FVec Ideal S50000x128 .f32 :=
  RefLayer.layerFn (stream3 x Wred bred W b g be ei) (wR3 W) (rR3 b) (rR3 g) (rR3 be) (srcR ei) (dstR ei)

/-- THE FIRST STREAM'S RESULT is the stream function of its eight arguments. -/
theorem stream_r (x0 : (⟨S50000x256, .f32⟩ : BufTy).Contents (Elt Ideal)) (x2 : (⟨S256x128, .f32⟩ : BufTy).Contents (Elt Ideal)) (x3 : (⟨S128, .f32⟩ : BufTy).Contents (Elt Ideal)) (x6 : (⟨S4x128x128, .f32⟩ : BufTy).Contents (Elt Ideal)) (x7 x8 x9 : (⟨S4x128, .f32⟩ : BufTy).Contents (Elt Ideal)) (x16 : (⟨S2x800000, .i32⟩ : BufTy).Contents (Elt Ideal)) :
    val_main_v315 (F := Ideal) x0 x2 x3 x6 x7 x8 x9 x16 = streamFn x0 x2 x3 x6 x7 x8 x9 x16 := by
  rw [layer_4, layer_3, layer_2, layer_1, proj_r]
  rfl

/-- THE SECOND STREAM'S RESULT is the same function of its own eight arguments. -/
theorem stream_v (x1 : (⟨S50000x256, .f32⟩ : BufTy).Contents (Elt Ideal)) (x4 : (⟨S256x128, .f32⟩ : BufTy).Contents (Elt Ideal)) (x5 : (⟨S128, .f32⟩ : BufTy).Contents (Elt Ideal)) (x10 : (⟨S4x128x128, .f32⟩ : BufTy).Contents (Elt Ideal)) (x11 x12 x13 : (⟨S4x128, .f32⟩ : BufTy).Contents (Elt Ideal)) (x17 : (⟨S2x800000, .i32⟩ : BufTy).Contents (Elt Ideal)) :
    val_main_v631 (F := Ideal) x1 x4 x5 x10 x11 x12 x13 x17 = streamFn x1 x4 x5 x10 x11 x12 x13 x17 := by
  rw [layer_8, layer_7, layer_6, layer_5, proj_v]
  rfl

/-! ## The classifier -/

/-- A sum over 256 positions is the sum over the first 128 plus the sum over the last 128. -/
theorem sum_fin256 {M : Type} [AddCommMonoid M] (f : Fin 256 → M) :
    ∑ q : Fin 256, f q
      = ∑ p : Fin 128, f ⟨p.val, Nat.lt_of_lt_of_le p.isLt (by decide)⟩
        + ∑ p : Fin 128, f ⟨p.val + 128, Nat.add_lt_add_right p.isLt 128⟩ :=
  (Fin.sum_univ_add (a := 128) (b := 128) f).trans
    (congrArg₂ (fun a b : M => a + b) (Finset.sum_congr rfl fun p _ => congrArg f (Fin.ext rfl))
      (Finset.sum_congr rfl fun p _ => congrArg f (Fin.ext (Nat.add_comm 128 p.val))))

/-- A sum over 256 positions of a term that reads `A` below 128 and `B` from 128 on, against weights `w`. -/
theorem sum_dite256 (A B : Fin 128 → EReal) (w : Fin 256 → EReal) :
    ∑ q : Fin 256, (if h : q.val < 128 then A ⟨q.val, h⟩ else B ⟨q.val - 128, by have := q.isLt; omega⟩) * w q
      = ∑ p : Fin 128, A p * w ⟨p.val, Nat.lt_of_lt_of_le p.isLt (by decide)⟩
        + ∑ p : Fin 128, B p * w ⟨p.val + 128, Nat.add_lt_add_right p.isLt 128⟩ := by
  rw [sum_fin256]
  refine congrArg₂ (fun a b : EReal => a + b) (Finset.sum_congr rfl fun p _ => ?_) (Finset.sum_congr rfl fun p _ => ?_)
  · rw [dif_pos (show (⟨p.val, Nat.lt_of_lt_of_le p.isLt (by decide)⟩ : Fin 256).val < 128 from p.isLt)]
  · rw [dif_neg (show ¬ (⟨p.val + 128, Nat.add_lt_add_right p.isLt 128⟩ : Fin 256).val < 128 from
      Nat.not_lt.2 (Nat.le_add_left 128 p.val))]
    exact congrArg (fun z => B z * w ⟨p.val + 128, Nat.add_lt_add_right p.isLt 128⟩)
      (Fin.ext (Nat.add_sub_cancel (n := p.val) (m := 128)))

/-- The joined array's index at the `k`-th term of an entry of the classifier's product: the entry's row, column `k`. -/
theorem lidx_cls (i : S50000x10.Idx) (k : Fin 256) :
    lidx_main_v633 i k = ix2 (⟨(i 0).val, idx2_lt0 i⟩ : Fin 50000) k :=
  funext fun a => Fin.ext (by match a with | ⟨0, _⟩ => rfl | ⟨1, _⟩ => rfl)

/-- The classifier weight's index at the `k`-th term: row `k`, the entry's column. -/
theorem ridx_cls (i : S50000x10.Idx) (k : Fin 256) :
    ridx_main_v633 i k = ix2 k (⟨(i 1).val, idx2_lt1 i⟩ : Fin 10) :=
  funext fun a => Fin.ext (by match a with | ⟨0, _⟩ => rfl | ⟨1, _⟩ => rfl)

/-- The classifier's bias, broadcast to a row and then down the rows, is read at the entry's column. -/
theorem bidx_cls (i : S50000x10.Idx) :
    idx_main_v634 (idx_main_v635 i) = ix1 (⟨(i 1).val, idx2_lt1 i⟩ : Fin 10) :=
  funext fun a => Fin.ext (by match a with | ⟨0, _⟩ => rfl)

/-- Two arrays of 128 columns joined side by side, read at row `r`, column `q`: the first array's column `q` when `q < 128`,
    else the second's column `q − 128`. -/
theorem join_apply (A B : (⟨S50000x128, .f32⟩ : BufTy).Contents (Elt Ideal)) (r : Fin 50000) (q : Fin 256) :
    concatenate S50000x256 1 [⟨S50000x128, A⟩, ⟨S50000x128, B⟩] concatenates_S50000x128_S50000x128_S50000x256_d1 (ix2 r q)
      = if h : q.val < 128 then A (ix2 r ⟨q.val, h⟩) else B (ix2 r ⟨q.val - 128, by have := q.isLt; omega⟩) := by
  by_cases h : q.val < 128
  · rw [dif_pos h]
    exact concatenate_pair_apply_left 1 A B concatenates_S50000x128_S50000x128_S50000x256_d1 (ix2 r q) rfl
      (ix2 r ⟨q.val, h⟩) (fun b => by match b with | ⟨0, _⟩ => rfl | ⟨1, _⟩ => rfl)
  · rw [dif_neg h]
    exact concatenate_pair_apply_right 1 A B concatenates_S50000x128_S50000x128_S50000x256_d1 (ix2 r q) rfl rfl
      (ix2 r ⟨q.val - 128, by have := q.isLt; omega⟩)
      (fun b => by match b with | ⟨0, _⟩ => exact fun _ => rfl | ⟨1, _⟩ => exact fun hne => absurd rfl hne)
      (by show q.val - 128 + 128 = q.val; omega)

/-- THE RESULT, index by index, over the joined columns: `∑ q < 256, [xr | xv][r, q] · Wcls[q, c] + bcls[c]`. -/
theorem final_r (x0 x1 : (⟨S50000x256, .f32⟩ : BufTy).Contents (Elt Ideal)) (x2 : (⟨S256x128, .f32⟩ : BufTy).Contents (Elt Ideal)) (x3 : (⟨S128, .f32⟩ : BufTy).Contents (Elt Ideal)) (x4 : (⟨S256x128, .f32⟩ : BufTy).Contents (Elt Ideal)) (x5 : (⟨S128, .f32⟩ : BufTy).Contents (Elt Ideal)) (x6 : (⟨S4x128x128, .f32⟩ : BufTy).Contents (Elt Ideal)) (x7 x8 x9 : (⟨S4x128, .f32⟩ : BufTy).Contents (Elt Ideal)) (x10 : (⟨S4x128x128, .f32⟩ : BufTy).Contents (Elt Ideal)) (x11 x12 x13 : (⟨S4x128, .f32⟩ : BufTy).Contents (Elt Ideal)) (x14 : (⟨S256x10, .f32⟩ : BufTy).Contents (Elt Ideal)) (x15 : (⟨S10, .f32⟩ : BufTy).Contents (Elt Ideal)) (x16 x17 : (⟨S2x800000, .i32⟩ : BufTy).Contents (Elt Ideal)) :
    val_main_v636 (F := Ideal) x0 x1 x2 x3 x4 x5 x6 x7 x8 x9 x10 x11 x12 x13 x14 x15 x16 x17
      = fun i => (∑ q : Fin 256,
            (if h : q.val < 128 then val_main_v315 (F := Ideal) x0 x2 x3 x6 x7 x8 x9 x16 (ix2 ⟨(i 0).val, idx2_lt0 i⟩ ⟨q.val, h⟩)
              else val_main_v631 (F := Ideal) x1 x4 x5 x10 x11 x12 x13 x17 (ix2 ⟨(i 0).val, idx2_lt0 i⟩ ⟨q.val - 128, by have := q.isLt; omega⟩))
              * x14 (ix2 q ⟨(i 1).val, idx2_lt1 i⟩))
          + x15 (ix1 ⟨(i 1).val, idx2_lt1 i⟩) := by
  funext i
  rw [val_main_v636_apply, val_main_v633_apply, val_main_v635_apply, val_main_v634_apply, bidx_cls i]
  have hs : (∑ k : Fin 256, val_main_v632 (F := Ideal) x0 x1 x2 x3 x4 x5 x6 x7 x8 x9 x10 x11 x12 x13 x16 x17 (lidx_main_v633 i k) * x14 (ridx_main_v633 i k))
      = ∑ q : Fin 256,
          (if h : q.val < 128 then val_main_v315 (F := Ideal) x0 x2 x3 x6 x7 x8 x9 x16 (ix2 ⟨(i 0).val, idx2_lt0 i⟩ ⟨q.val, h⟩)
            else val_main_v631 (F := Ideal) x1 x4 x5 x10 x11 x12 x13 x17 (ix2 ⟨(i 0).val, idx2_lt0 i⟩ ⟨q.val - 128, by have := q.isLt; omega⟩))
            * x14 (ix2 q ⟨(i 1).val, idx2_lt1 i⟩) :=
    Finset.sum_congr rfl fun k _ => by
      rw [lidx_cls i k, ridx_cls i k]
      unfold val_main_v632
      rw [join_apply]
  rw [hs]
  rfl

/-- THE RESULT as the two streams' products with the two halves of the classifier weight, plus the bias. -/
theorem final_r' (x0 x1 : (⟨S50000x256, .f32⟩ : BufTy).Contents (Elt Ideal)) (x2 : (⟨S256x128, .f32⟩ : BufTy).Contents (Elt Ideal)) (x3 : (⟨S128, .f32⟩ : BufTy).Contents (Elt Ideal)) (x4 : (⟨S256x128, .f32⟩ : BufTy).Contents (Elt Ideal)) (x5 : (⟨S128, .f32⟩ : BufTy).Contents (Elt Ideal)) (x6 : (⟨S4x128x128, .f32⟩ : BufTy).Contents (Elt Ideal)) (x7 x8 x9 : (⟨S4x128, .f32⟩ : BufTy).Contents (Elt Ideal)) (x10 : (⟨S4x128x128, .f32⟩ : BufTy).Contents (Elt Ideal)) (x11 x12 x13 : (⟨S4x128, .f32⟩ : BufTy).Contents (Elt Ideal)) (x14 : (⟨S256x10, .f32⟩ : BufTy).Contents (Elt Ideal)) (x15 : (⟨S10, .f32⟩ : BufTy).Contents (Elt Ideal)) (x16 x17 : (⟨S2x800000, .i32⟩ : BufTy).Contents (Elt Ideal)) :
    val_main_v636 (F := Ideal) x0 x1 x2 x3 x4 x5 x6 x7 x8 x9 x10 x11 x12 x13 x14 x15 x16 x17
      = fun i =>
          Cert.Spec.mm (val_main_v315 (F := Ideal) x0 x2 x3 x6 x7 x8 x9 x16)
              (fun p => x14 (ix2 ⟨(p 0).val, Nat.lt_of_lt_of_le (idx2_lt0 p) (by decide)⟩ ⟨(p 1).val, idx2_lt1 p⟩))
              ⟨(i 0).val, idx2_lt0 i⟩ ⟨(i 1).val, idx2_lt1 i⟩
            + Cert.Spec.mm (val_main_v631 (F := Ideal) x1 x4 x5 x10 x11 x12 x13 x17)
              (fun p => x14 (ix2 ⟨(p 0).val + 128, Nat.add_lt_add_right (idx2_lt0 p) 128⟩ ⟨(p 1).val, idx2_lt1 p⟩))
              ⟨(i 0).val, idx2_lt0 i⟩ ⟨(i 1).val, idx2_lt1 i⟩
            + x15 (ix1 ⟨(i 1).val, idx2_lt1 i⟩) := by
  rw [final_r]
  funext i
  exact congrArg (fun z : EReal => z + x15 (ix1 ⟨(i 1).val, idx2_lt1 i⟩))
    (sum_dite256
      (fun p => val_main_v315 (F := Ideal) x0 x2 x3 x6 x7 x8 x9 x16 (ix2 ⟨(i 0).val, idx2_lt0 i⟩ p))
      (fun p => val_main_v631 (F := Ideal) x1 x4 x5 x10 x11 x12 x13 x17 (ix2 ⟨(i 0).val, idx2_lt0 i⟩ p))
      (fun q => x14 (ix2 q ⟨(i 1).val, idx2_lt1 i⟩)))

/-- THE RESULT as the classifier of the two streams' results. -/
theorem final_cls (x0 x1 : (⟨S50000x256, .f32⟩ : BufTy).Contents (Elt Ideal)) (x2 : (⟨S256x128, .f32⟩ : BufTy).Contents (Elt Ideal)) (x3 : (⟨S128, .f32⟩ : BufTy).Contents (Elt Ideal)) (x4 : (⟨S256x128, .f32⟩ : BufTy).Contents (Elt Ideal)) (x5 : (⟨S128, .f32⟩ : BufTy).Contents (Elt Ideal)) (x6 : (⟨S4x128x128, .f32⟩ : BufTy).Contents (Elt Ideal)) (x7 x8 x9 : (⟨S4x128, .f32⟩ : BufTy).Contents (Elt Ideal)) (x10 : (⟨S4x128x128, .f32⟩ : BufTy).Contents (Elt Ideal)) (x11 x12 x13 : (⟨S4x128, .f32⟩ : BufTy).Contents (Elt Ideal)) (x14 : (⟨S256x10, .f32⟩ : BufTy).Contents (Elt Ideal)) (x15 : (⟨S10, .f32⟩ : BufTy).Contents (Elt Ideal)) (x16 x17 : (⟨S2x800000, .i32⟩ : BufTy).Contents (Elt Ideal)) :
    val_main_v636 (F := Ideal) x0 x1 x2 x3 x4 x5 x6 x7 x8 x9 x10 x11 x12 x13 x14 x15 x16 x17
      = Cert.Spec.cls (val_main_v315 (F := Ideal) x0 x2 x3 x6 x7 x8 x9 x16) (val_main_v631 (F := Ideal) x1 x4 x5 x10 x11 x12 x13 x17)
          (wclsTop x14) (wclsBot x14) (bclsRow x15) := by
  rw [final_r']
  rfl

/-- THE REFERENCE'S RESULT: the classifier of the two streams, each the projection followed by its four layers. -/
theorem result_eq (x0 x1 : (⟨S50000x256, .f32⟩ : BufTy).Contents (Elt Ideal)) (x2 : (⟨S256x128, .f32⟩ : BufTy).Contents (Elt Ideal)) (x3 : (⟨S128, .f32⟩ : BufTy).Contents (Elt Ideal)) (x4 : (⟨S256x128, .f32⟩ : BufTy).Contents (Elt Ideal)) (x5 : (⟨S128, .f32⟩ : BufTy).Contents (Elt Ideal)) (x6 : (⟨S4x128x128, .f32⟩ : BufTy).Contents (Elt Ideal)) (x7 x8 x9 : (⟨S4x128, .f32⟩ : BufTy).Contents (Elt Ideal)) (x10 : (⟨S4x128x128, .f32⟩ : BufTy).Contents (Elt Ideal)) (x11 x12 x13 : (⟨S4x128, .f32⟩ : BufTy).Contents (Elt Ideal)) (x14 : (⟨S256x10, .f32⟩ : BufTy).Contents (Elt Ideal)) (x15 : (⟨S10, .f32⟩ : BufTy).Contents (Elt Ideal)) (x16 x17 : (⟨S2x800000, .i32⟩ : BufTy).Contents (Elt Ideal)) :
    val_main_v636 (F := Ideal) x0 x1 x2 x3 x4 x5 x6 x7 x8 x9 x10 x11 x12 x13 x14 x15 x16 x17
      = Cert.Spec.cls (streamFn x0 x2 x3 x6 x7 x8 x9 x16) (streamFn x1 x4 x5 x10 x11 x12 x13 x17)
          (wclsTop x14) (wclsBot x14) (bclsRow x15) := by
  rw [final_cls, stream_r, stream_v]

end Cert.ReferenceIdeal.RefStages

end
-- ==== Proof.Glue.lean ====
/-
  THE TWO PROGRAMS' HOST-SIDE VALUES AGREE.

  Around the aggregation both programs compute, from the same arguments, the same auxiliary arrays — each in its own
  vocabulary. From a 2 × 800000 array of row numbers: the sources and destinations of the 850000 edges (a row of the array
  followed by the row numbers 0 … 49999), the sources with negative entries wrapped around, both as 850000 × 1 columns,
  and the per-node factor "1/√degree where the degree is positive, else 0". From the stacked arrays of a layer stack:
  layer k's weight and its bias, scale and shift rows. From the projection's arguments: its weight and bias.

  Where the two sides are the same composition of the same operations the equation holds by unfolding the names. The
  kernel's side has an operation more in four places, each read at an index:
    • the factor is kept as a 50000 × 1 column (a unit axis added to the reference's vector): read at (n, 0);
    • a layer's row and the projection's bias are kept as 1 × 128 rows (a unit axis added to the reference's vectors): read
      at (u, q);
    • the weights are narrowed to a 16-bit format, which is the identity on the extended reals.
  One equation is on the reference's side alone: with every row number in [0, 50000) its wrap-around of negative
  destinations changes nothing.
-/
import proofs.«410635_j2241972928706_3_alg».proof.Proof.KHost
import proofs.«410635_j2241972928706_3_alg».proof.Proof.RefLayerDef
import proofs.«410635_j2241972928706_3_alg».proof.Proof.RefStages
import proofs.«410635_j2241972928706_3_alg».proof.Proof.PreIdx
import proofs.«410635_j2241972928706_3_alg».proof.Proof.Model
import proofs.«410635_j2241972928706_3_alg».proof.Proof.Spec
import Idealize.ShloMosaic.Lib.Pipeline.Value
import Idealize.ShloMosaic.Lib.ValueLayout
import Idealize.ShloMosaic.Lib.ValueIdx

noncomputable section

namespace Cert.Glue

open Idealize.ShloMosaic Idealize.ShloMosaic.ValueIdx

variable [Cert.KernelIdeal.Facts]

/-! ## The edge lists -/

/-- The kernel's wrapped source column is the reference's: the same operations on the same row of the edge array. -/
theorem g_src (ei : IVec (⟨2, ![2, 800000]⟩ : Shape) 32) :
    KernelIdeal.KHost.sWI (KernelIdeal.KHost.sFn ei) = ReferenceIdeal.RefLayer.srcW (ReferenceIdeal.RefStages.srcR ei) := rfl

/-- The kernel's destination column is the reference's plain one. -/
theorem g_dst (ei : IVec (⟨2, ![2, 800000]⟩ : Shape) 32) :
    KernelIdeal.KHost.dI (KernelIdeal.KHost.dFn ei) = ReferenceIdeal.RefLayer.dstI (ReferenceIdeal.RefStages.dstR ei) := rfl

/-- A list of row numbers in range, followed by the row numbers 0 … 49999, is a list of row numbers in range. -/
theorem st15_range (dst : IVec (⟨1, ![800000]⟩ : Shape) 32)
    (hdst : ∀ e, 0 ≤ (dst e).toInt ∧ (dst e).toInt < 50000) (e : (⟨1, ![850000]⟩ : Shape).Idx) :
    0 ≤ (ReferenceIdeal.RefLayer.st15 dst e).toInt ∧ (ReferenceIdeal.RefLayer.st15 dst e).toInt < 50000 := by
  unfold ReferenceIdeal.RefLayer.st15 ReferenceIdeal.RefLayer.st13
  exact PreIdx.concat_range dst _ hdst e

/-- On row numbers in range the wrap-around of negative entries changes nothing: the wrapped destination column is the
    plain one. -/
theorem dstW_eq_dstI (dst : IVec (⟨1, ![800000]⟩ : Shape) 32)
    (hdst : ∀ e, 0 ≤ (dst e).toInt ∧ (dst e).toInt < 50000) : ReferenceIdeal.RefLayer.dstW dst = ReferenceIdeal.RefLayer.dstI dst := by
  unfold ReferenceIdeal.RefLayer.dstW ReferenceIdeal.RefLayer.dstI ReferenceIdeal.RefLayer.st36 ReferenceIdeal.RefLayer.st50 ReferenceIdeal.RefLayer.st35 ReferenceIdeal.RefLayer.st32
  rw [PreIdx.wrap_id (ReferenceIdeal.RefLayer.st15 dst) ReferenceIdeal.RefLayer.st31 (ReferenceIdeal.RefLayer.st34 dst) (fun _ => rfl)
    (fun e => (st15_range dst hdst e).1)]

/-- Every entry of the destination row of an edge array in range is in range. -/
theorem dstR_range (ei : IVec (⟨2, ![2, 800000]⟩ : Shape) 32)
    (hei : ∀ i, 0 ≤ (ei i).toInt ∧ (ei i).toInt < 50000) (e : (⟨1, ![800000]⟩ : Shape).Idx) :
    0 ≤ (ReferenceIdeal.RefStages.dstR ei e).toInt ∧ (ReferenceIdeal.RefStages.dstR ei e).toInt < 50000 :=
  hei _

/-- With the edge array in range the reference's wrapped destination column is its plain one. -/
theorem g_dstW (ei : IVec (⟨2, ![2, 800000]⟩ : Shape) 32) (hei : ∀ i, 0 ≤ (ei i).toInt ∧ (ei i).toInt < 50000) :
    ReferenceIdeal.RefLayer.dstW (ReferenceIdeal.RefStages.dstR ei)
      = ReferenceIdeal.RefLayer.dstI (ReferenceIdeal.RefStages.dstR ei) :=
  dstW_eq_dstI _ (dstR_range ei hei)

/-! ## The factor -/

/-- The kernel's factor column is the reference's factor vector with a unit axis added. -/
theorem dinv_cast (ei : IVec (⟨2, ![2, 800000]⟩ : Shape) 32) :
    KernelIdeal.KHost.dinvFn (KernelIdeal.KHost.dFn ei)
      = shapeCast (⟨2, ![50000, 1]⟩ : Shape) (ReferenceIdeal.RefLayer.dinvFn (ReferenceIdeal.RefStages.dstR ei)) (by decide) := rfl

/-- The reference's factor at node n is the kernel's column at (n, 0). -/
theorem g_dinv (ei : IVec (⟨2, ![2, 800000]⟩ : Shape) 32) :
    ReferenceIdeal.RefLayer.dinvFn (ReferenceIdeal.RefStages.dstR ei)
      = fun n => KernelIdeal.KHost.dinvFn (KernelIdeal.KHost.dFn ei) (ix2 ⟨(n 0).val, (n 0).isLt⟩ (0 : Fin 1)) := by
  funext n
  rw [dinv_cast]
  exact (shapeCast_apply _ _ (ix2 (⟨(n 0).val, (n 0).isLt⟩ : Fin 50000) (0 : Fin 1)) n (by
    rw [Shape.rowMajor_val_two, Shape.rowMajor_val_one]
    show (n 0).val = (n 0).val * 1 + 0
    omega)).symm

/-! ## The layers' weights and rows, the projection's weight and bias -/

/-- The kernel's narrowed sheet of the stacked weights is the reference's sheet: the narrowing is the identity on the
    extended reals. -/
theorem g_w0 (W : FVec Ideal (⟨3, ![4, 128, 128]⟩ : Shape) .f32) :
    (KernelIdeal.KHost.wFn0 W : Cert.Spec.Mat 128 128) = ReferenceIdeal.RefStages.wR0 W := rfl
theorem g_w1 (W : FVec Ideal (⟨3, ![4, 128, 128]⟩ : Shape) .f32) :
    (KernelIdeal.KHost.wFn1 W : Cert.Spec.Mat 128 128) = ReferenceIdeal.RefStages.wR1 W := rfl
theorem g_w2 (W : FVec Ideal (⟨3, ![4, 128, 128]⟩ : Shape) .f32) :
    (KernelIdeal.KHost.wFn2 W : Cert.Spec.Mat 128 128) = ReferenceIdeal.RefStages.wR2 W := rfl
theorem g_w3 (W : FVec Ideal (⟨3, ![4, 128, 128]⟩ : Shape) .f32) :
    (KernelIdeal.KHost.wFn3 W : Cert.Spec.Mat 128 128) = ReferenceIdeal.RefStages.wR3 W := rfl

/-- A vector of 128 entries given a leading unit axis reads, at (u, q), the vector at q. -/
theorem row_of_vec (x : FVec Ideal (⟨1, ![128]⟩ : Shape) .f32) (h : (⟨1, ![128]⟩ : Shape).ShapeCasts ⟨2, ![1, 128]⟩) :
    (shapeCast (⟨2, ![1, 128]⟩ : Shape) x h : Cert.Spec.Mat 1 128) = fun i => x (ix1 ⟨(i 1).val, idx2_lt1 i⟩) := by
  funext i
  obtain ⟨u, q, rfl⟩ : ∃ (u : Fin 1) (q : Fin 128), i = ix2 u q := ⟨i 0, i 1, eq_ix2 i⟩
  exact shapeCast_a_1a_apply x h u q

/-- The kernel's row of a stacked 4 × 128 array is the reference's row as a 1 × 128 matrix. -/
theorem g_row0 (v : FVec Ideal (⟨2, ![4, 128]⟩ : Shape) .f32) :
    (KernelIdeal.KHost.rowFn0 v : Cert.Spec.Mat 1 128) = fun i => ReferenceIdeal.RefStages.rR0 v (ix1 ⟨(i 1).val, idx2_lt1 i⟩) :=
  row_of_vec (ReferenceIdeal.RefStages.rR0 v) _
theorem g_row1 (v : FVec Ideal (⟨2, ![4, 128]⟩ : Shape) .f32) :
    (KernelIdeal.KHost.rowFn1 v : Cert.Spec.Mat 1 128) = fun i => ReferenceIdeal.RefStages.rR1 v (ix1 ⟨(i 1).val, idx2_lt1 i⟩) :=
  row_of_vec (ReferenceIdeal.RefStages.rR1 v) _
theorem g_row2 (v : FVec Ideal (⟨2, ![4, 128]⟩ : Shape) .f32) :
    (KernelIdeal.KHost.rowFn2 v : Cert.Spec.Mat 1 128) = fun i => ReferenceIdeal.RefStages.rR2 v (ix1 ⟨(i 1).val, idx2_lt1 i⟩) :=
  row_of_vec (ReferenceIdeal.RefStages.rR2 v) _
theorem g_row3 (v : FVec Ideal (⟨2, ![4, 128]⟩ : Shape) .f32) :
    (KernelIdeal.KHost.rowFn3 v : Cert.Spec.Mat 1 128) = fun i => ReferenceIdeal.RefStages.rR3 v (ix1 ⟨(i 1).val, idx2_lt1 i⟩) :=
  row_of_vec (ReferenceIdeal.RefStages.rR3 v) _

/-- The kernel's bias row of the projection is the reference's bias vector as a row. -/
theorem g_bred (v : FVec Ideal (⟨1, ![128]⟩ : Shape) .f32) :
    (KernelIdeal.KHost.bredFn v : Cert.Spec.Mat 1 128) = ReferenceIdeal.RefStages.bredRow v :=
  row_of_vec v _

/-- The kernel's narrowed projection weight is the weight. -/
theorem g_wred (W : FVec Ideal (⟨2, ![256, 128]⟩ : Shape) .f32) :
    (KernelIdeal.KHost.wredFn W : Cert.Spec.Mat 256 128) = W := rfl

end Cert.Glue

end
-- ==== Proof.Streams.lean ====
/-
  A stream of the model and the classifier, as plain functions on the extended reals.

  A stream projects the 256 input features to 128 (`x·Wred + bred`) and applies four graph-convolution layers, each
  with its own weight, bias, scale and shift rows, all over the same edges and the same degree factors.  `streamK`
  nests the kernel's arrangement of a layer, `streamR` the reference's; layer by layer the two agree, so the streams
  agree.  The classifier multiplies the two streams' features by the two halves of a 256-row weight (rows 0 … 127 for
  the first stream, rows 128 … 255 for the second), adds the two products and a bias.
-/
import proofs.«410635_j2241972928706_3_alg».proof.Proof.Model

noncomputable section

namespace Cert.Model

open Idealize.ShloMosaic Idealize.ShloMosaic.ValueIdx Cert.Spec SegNorm

/-- A stream in the kernel's arrangement: the projection, then four layers. -/
def streamK (x : Mat 50000 256) (wred : Mat 256 128) (bred : Mat 1 128) (w0 w1 w2 w3 : Mat 128 128)
    (b0 b1 b2 b3 g0 g1 g2 g3 be0 be1 be2 be3 : Mat 1 128) (d2 : Mat 50000 1) (src dst : EI) : Mat 50000 128 :=
  layerK (layerK (layerK (layerK (Spec.affine x wred bred) w0 b0 g0 be0 d2 src dst) w1 b1 g1 be1 d2 src dst)
    w2 b2 g2 be2 d2 src dst) w3 b3 g3 be3 d2 src dst

/-- A stream in the reference's arrangement. -/
def streamR (x : Mat 50000 256) (wred : Mat 256 128) (bred : Mat 1 128) (w0 w1 w2 w3 : Mat 128 128)
    (b0 b1 b2 b3 g0 g1 g2 g3 be0 be1 be2 be3 : Mat 1 128) (d1 : Vc 50000) (srcW dstW dst : EI) : Mat 50000 128 :=
  layerR (layerR (layerR (layerR (Spec.affine x wred bred) w0 b0 g0 be0 d1 srcW dstW dst) w1 b1 g1 be1 d1 srcW dstW dst)
    w2 b2 g2 be2 d1 srcW dstW dst) w3 b3 g3 be3 d1 srcW dstW dst

/-- The two arrangements of a stream agree, layer by layer, under the hypotheses of one layer's law. -/
theorem stream_eq (x : Mat 50000 256) (wred : Mat 256 128) (bred : Mat 1 128) (w0 w1 w2 w3 : Mat 128 128)
    (b0 b1 b2 b3 g0 g1 g2 g3 be0 be1 be2 be3 : Mat 1 128) (d2 : Mat 50000 1) (d1 : Vc 50000) (src dst srcW dstW : EI)
    (hd : ∀ r : Fin 50000, ∃ x : ℝ, 0 ≤ x ∧ d2 (ix2 r (0 : Fin 1)) = (x : EReal))
    (h1 : d1 = fun n => d2 (ix2 ⟨(n 0).val, (n 0).isLt⟩ (0 : Fin 1))) (hs : srcW = src) (hdst : dstW = dst) :
    streamK x wred bred w0 w1 w2 w3 b0 b1 b2 b3 g0 g1 g2 g3 be0 be1 be2 be3 d2 src dst
      = streamR x wred bred w0 w1 w2 w3 b0 b1 b2 b3 g0 g1 g2 g3 be0 be1 be2 be3 d1 srcW dstW dst := by
  unfold streamK streamR
  rw [layerK_eq_layerR (Spec.affine x wred bred) w0 b0 g0 be0 d2 d1 src dst srcW dstW hd h1 hs hdst,
    layerK_eq_layerR _ w1 b1 g1 be1 d2 d1 src dst srcW dstW hd h1 hs hdst,
    layerK_eq_layerR _ w2 b2 g2 be2 d2 d1 src dst srcW dstW hd h1 hs hdst,
    layerK_eq_layerR _ w3 b3 g3 be3 d2 d1 src dst srcW dstW hd h1 hs hdst]

/-- The classifier: the first stream against rows 0 … 127 of the weight, the second against rows 128 … 255, plus the bias. -/
def outFn (xr xv : Mat 50000 128) (wcls : Mat 256 10) (bcls : Vc 10) : Mat 50000 10 :=
  fun i =>
    (∑ k : Fin 128, xr (ix2 ⟨(i 0).val, idx2_lt0 i⟩ k)
        * wcls (ix2 ⟨k.val, Nat.lt_of_lt_of_le k.isLt (by decide)⟩ ⟨(i 1).val, idx2_lt1 i⟩))
      + (∑ k : Fin 128, xv (ix2 ⟨(i 0).val, idx2_lt0 i⟩ k)
        * wcls (ix2 ⟨k.val + 128, Nat.add_lt_add_right k.isLt 128⟩ ⟨(i 1).val, idx2_lt1 i⟩))
      + bcls (ix1 ⟨(i 1).val, idx2_lt1 i⟩)

/-- The classifier as two matrix products with the two halves of the weight. -/
theorem outFn_eq_mm (xr xv : Mat 50000 128) (wcls : Mat 256 10) (bcls : Vc 10) :
    outFn xr xv wcls bcls
      = fun i =>
          Spec.mm xr
              (fun p => wcls (ix2 ⟨(p 0).val, Nat.lt_of_lt_of_le (idx2_lt0 p) (by decide)⟩ ⟨(p 1).val, idx2_lt1 p⟩))
              ⟨(i 0).val, idx2_lt0 i⟩ ⟨(i 1).val, idx2_lt1 i⟩
            + Spec.mm xv
              (fun p => wcls (ix2 ⟨(p 0).val + 128, Nat.add_lt_add_right (idx2_lt0 p) 128⟩ ⟨(p 1).val, idx2_lt1 p⟩))
              ⟨(i 0).val, idx2_lt0 i⟩ ⟨(i 1).val, idx2_lt1 i⟩
            + bcls (ix1 ⟨(i 1).val, idx2_lt1 i⟩) := rfl

end Cert.Model

end
-- ==== Proof.RefLayer.lean ====
/-
  One graph-convolution layer of the reference program, read index by index, is the model's layer in the reference's
  arrangement: every edge's row of the product X·W is multiplied by the product of its two endpoints' factors, the
  products are summed per destination node, the bias row is added, every row is normalised to mean zero and variance
  one over its 128 entries, scaled and shifted, rectified, and added to X. The factor of a node is the reciprocal
  square root of its degree (the number of edges and self-loops arriving at it), a nonnegative real.

  In order: the program's four dimension records are the model's; repeating an array along new axes, read at an index;
  the sum of a row and the matrix product at an entry; the constant words 0.0 and 1.0; the normalisation half
  (`layerFn_post`); the aggregation half (`st54_eq`); the layer (`layerFn_eq`) and its factor (`dinvFn_real`).
-/
import proofs.«410635_j2241972928706_3_alg».proof.Proof.RefLayerDef
import proofs.«410635_j2241972928706_3_alg».proof.Proof.Model
import Idealize.ShloMosaic.Lib.IdealHost

noncomputable section

namespace Cert.ReferenceIdeal.RefLayer

open Cert.ReferenceIdeal Cert.ReferenceIdeal.Gen Idealize.ShloMosaic Idealize.ShloMosaic.TcCoe Idealize.SL.Sem Idealize.ShloMosaic.StableHlo

open Idealize.ShloMosaic.ValueIdx Cert.Spec

open scoped BigOperators

/-! ## The program's dimension records are the model's -/

theorem rowG_eq : gather_S50000x128_S850000x1_S850000x128_1_0_n_n_0_1_1128 = Cert.Model.rowG := rfl
theorem vecG_eq : gather_S50000_S850000x1_S850000_n_0_n_n_0_1_1 = Cert.Model.vecG := rfl
theorem rowS_eq : scatter_S50000x128_S850000x1_S850000x128_1_0_0_1 = Cert.Model.rowS := rfl
theorem vecS_eq : scatter_S50000_S850000x1_S850000_n_0_0_1 = Cert.Model.vecS := rfl

/-- A vector of 128 entries as a matrix of one row. -/
def rowOf (v : FVec Ideal S128 .f32) : Cert.Spec.Mat 1 128 := fun i => v (ix1 ⟨(i 1).val, idx2_lt1 i⟩)

/-! ## Repeating an array along new axes, read at an index -/

section Reads
variable {α : Type}

/-- A scalar repeated to any shape reads the scalar. -/
theorem bcScalar_apply {t : Shape} (h : S_.BroadcastsInDim t (![] : Fin 0 → Fin t.rank)) (x : S_.Idx → α) (j : t.Idx) :
    broadcastInDim t ![] h x j = x ix0 :=
  broadcastInDim_scalar_apply h x j

/-- A vector of 850000 entries as a column: entry (e, 0) is entry e. -/
theorem col850000_apply (x : S850000.Idx → α) (j : S850000x1.Idx) :
    broadcastInDim S850000x1 ![0] bcast_S850000_S850000x1_0 x j = x (ix1 ⟨(j 0).val, idx2_lt0 j⟩) :=
  broadcastInDim_apply _ bcast_S850000_S850000x1_0 x j (ix1 ⟨(j 0).val, idx2_lt0 j⟩) (fun a => match a with
    | ⟨0, _⟩ => by show (j 0).val = if (850000 : Nat) = 1 then 0 else (j 0).val; rw [if_neg (by decide)])

/-- A column of 850000 entries repeated to 128 columns: entry (e, c) is entry (e, 0). -/
theorem colRep850000_apply (x : S850000x1.Idx → α) (j : S850000x128.Idx) :
    broadcastInDim S850000x128 ![0, 1] bcast_S850000x1_S850000x128_0_1 x j = x (ix2 ⟨(j 0).val, idx2_lt0 j⟩ (0 : Fin 1)) :=
  broadcastInDim_apply _ bcast_S850000x1_S850000x128_0_1 x j (ix2 ⟨(j 0).val, idx2_lt0 j⟩ (0 : Fin 1)) (fun a => match a with
    | ⟨0, _⟩ => by show (j 0).val = if (850000 : Nat) = 1 then 0 else (j 0).val; rw [if_neg (by decide)]
    | ⟨1, _⟩ => by show 0 = if (1 : Nat) = 1 then 0 else (j 1).val; rw [if_pos rfl])

/-- A vector of 128 entries as a row: entry (0, c) is entry c. -/
theorem row128_apply (x : S128.Idx → α) (j : S1x128.Idx) :
    broadcastInDim S1x128 ![1] bcast_S128_S1x128_1 x j = x (ix1 ⟨(j 1).val, idx2_lt1 j⟩) :=
  broadcastInDim_apply _ bcast_S128_S1x128_1 x j (ix1 ⟨(j 1).val, idx2_lt1 j⟩) (fun a => match a with
    | ⟨0, _⟩ => by show (j 1).val = if (128 : Nat) = 1 then 0 else (j 1).val; rw [if_neg (by decide)])

/-- A row of 128 entries repeated to 50000 rows: entry (r, c) is entry (0, c). -/
theorem rowRep128_apply (x : S1x128.Idx → α) (j : S50000x128.Idx) :
    broadcastInDim S50000x128 ![0, 1] bcast_S1x128_S50000x128_0_1 x j = x (ix2 (0 : Fin 1) ⟨(j 1).val, idx2_lt1 j⟩) :=
  broadcastInDim_apply _ bcast_S1x128_S50000x128_0_1 x j (ix2 (0 : Fin 1) ⟨(j 1).val, idx2_lt1 j⟩) (fun a => match a with
    | ⟨0, _⟩ => by show 0 = if (1 : Nat) = 1 then 0 else (j 0).val; rw [if_pos rfl]
    | ⟨1, _⟩ => by show (j 1).val = if (128 : Nat) = 1 then 0 else (j 1).val; rw [if_neg (by decide)])

/-- A vector of 50000 entries as a column. -/
theorem col50000_apply (x : S50000.Idx → α) (j : S50000x1.Idx) :
    broadcastInDim S50000x1 ![0] bcast_S50000_S50000x1_0 x j = x (ix1 ⟨(j 0).val, idx2_lt0 j⟩) :=
  broadcastInDim_apply _ bcast_S50000_S50000x1_0 x j (ix1 ⟨(j 0).val, idx2_lt0 j⟩) (fun a => match a with
    | ⟨0, _⟩ => by show (j 0).val = if (50000 : Nat) = 1 then 0 else (j 0).val; rw [if_neg (by decide)])

/-- A column of 50000 entries repeated to 128 columns: entry (r, c) is entry (r, 0). -/
theorem colRep50000_apply (x : S50000x1.Idx → α) (j : S50000x128.Idx) :
    broadcastInDim S50000x128 ![0, 1] bcast_S50000x1_S50000x128_0_1 x j = x (ix2 ⟨(j 0).val, idx2_lt0 j⟩ (0 : Fin 1)) :=
  broadcastInDim_apply _ bcast_S50000x1_S50000x128_0_1 x j (ix2 ⟨(j 0).val, idx2_lt0 j⟩ (0 : Fin 1)) (fun a => match a with
    | ⟨0, _⟩ => by show (j 0).val = if (50000 : Nat) = 1 then 0 else (j 0).val; rw [if_neg (by decide)]
    | ⟨1, _⟩ => by show 0 = if (1 : Nat) = 1 then 0 else (j 1).val; rw [if_pos rfl])

end Reads

/-! ## The sum of a row and the matrix product, read at an index -/

/-- The sum over the 128 columns from a zero initial value: entry r is the sum of row r. -/
theorem rowSum_apply (h : FVec Ideal S50000x128 .f32) (c0 : FVec Ideal S_ .f32) (hc : ∀ k, c0 k = 0) (n : S50000.Idx) :
    Host.reduceAdd (F := Ideal) h c0 reducesTo_S50000x128_S50000_d1 h_S_ n
      = ∑ q : Fin 128, h (ix2 ⟨(n 0).val, (n 0).isLt⟩ q) := by
  simp only [Host.reduceAdd, Ideal.hostReduceAdd_def]
  rw [Ideal.hostReduceAdd_single reducesTo_S50000x128_S50000_d1 (by decide), hc, zero_add]
  refine Finset.sum_congr rfl fun k _ => ?_
  exact congrArg h (funext fun a => Fin.ext (by match a with | ⟨0, _⟩ => rfl | ⟨1, _⟩ => rfl))

theorem dotL0 (i : S50000x128.Idx) (q : dot_S50000x128_S128x128_S50000x128_1_0_0_1_n_n.contr.Idx) :
    (dot_S50000x128_S128x128_S50000x128_1_0_0_1_n_n.lhsIdx i q 0).val = (i 0).val := by
  unfold DotDims.lhsIdx
  rw [dif_neg (show ¬(0 : Fin S50000x128.rank) ∈ dot_S50000x128_S128x128_S50000x128_1_0_0_1_n_n.lhsBatch by decide),
    dif_pos (show (0 : Fin S50000x128.rank) ∈ dot_S50000x128_S128x128_S50000x128_1_0_0_1_n_n.lhsNonContracting by decide)]
  rfl
theorem dotL1 (i : S50000x128.Idx) (q : dot_S50000x128_S128x128_S50000x128_1_0_0_1_n_n.contr.Idx) :
    (dot_S50000x128_S128x128_S50000x128_1_0_0_1_n_n.lhsIdx i q 1).val = (q ⟨0, by decide⟩).val :=
  dot_S50000x128_S128x128_S50000x128_1_0_0_1_n_n.lhsIdx_val_of_single rfl i q
theorem dotR0 (i : S50000x128.Idx) (q : dot_S50000x128_S128x128_S50000x128_1_0_0_1_n_n.contr.Idx) :
    (dot_S50000x128_S128x128_S50000x128_1_0_0_1_n_n.rhsIdx i q 0).val = (q ⟨0, by decide⟩).val :=
  dot_S50000x128_S128x128_S50000x128_1_0_0_1_n_n.rhsIdx_val_of_single rfl i q
theorem dotR1 (i : S50000x128.Idx) (q : dot_S50000x128_S128x128_S50000x128_1_0_0_1_n_n.contr.Idx) :
    (dot_S50000x128_S128x128_S50000x128_1_0_0_1_n_n.rhsIdx i q 1).val = (i 1).val := by
  unfold DotDims.rhsIdx
  rw [dif_neg (show ¬(1 : Fin S128x128.rank) ∈ dot_S50000x128_S128x128_S50000x128_1_0_0_1_n_n.rhsBatch by decide),
    dif_pos (show (1 : Fin S128x128.rank) ∈ dot_S50000x128_S128x128_S50000x128_1_0_0_1_n_n.rhsNonContracting by decide)]
  rfl

/-- The product at an entry: the sum over the shared axis. -/
theorem st12_apply (X : FVec Ideal S50000x128 .f32) (W : FVec Ideal S128x128 .f32) (p : S50000x128.Idx) :
    st12 X W p = mm (n := 50000) (k := 128) (m := 128) X W ⟨(p 0).val, idx2_lt0 p⟩ ⟨(p 1).val, idx2_lt1 p⟩ := by
  unfold st12 mm
  simp only [Host.dotGeneral]
  rw [Ideal.dotGeneral_apply,
    ← Equiv.sum_comp (ValueIdx.contrEquiv1 dot_S50000x128_S128x128_S50000x128_1_0_0_1_n_n 128 rfl rfl).symm]
  refine Finset.sum_congr rfl fun k _ => ?_
  have hk := ValueIdx.contrEquiv1_symm_val dot_S50000x128_S128x128_S50000x128_1_0_0_1_n_n 128 rfl rfl k
  have el : dot_S50000x128_S128x128_S50000x128_1_0_0_1_n_n.lhsIdx p
      ((ValueIdx.contrEquiv1 dot_S50000x128_S128x128_S50000x128_1_0_0_1_n_n 128 rfl rfl).symm k)
      = ix2 ⟨(p 0).val, idx2_lt0 p⟩ k := funext fun a => Fin.ext (by
    match a with
    | ⟨0, _⟩ => exact dotL0 _ _
    | ⟨1, _⟩ => exact (dotL1 _ _).trans hk)
  have er : dot_S50000x128_S128x128_S50000x128_1_0_0_1_n_n.rhsIdx p
      ((ValueIdx.contrEquiv1 dot_S50000x128_S128x128_S50000x128_1_0_0_1_n_n 128 rfl rfl).symm k)
      = ix2 k ⟨(p 1).val, idx2_lt1 p⟩ := funext fun a => Fin.ext (by
    match a with
    | ⟨0, _⟩ => exact (dotR0 _ _).trans hk
    | ⟨1, _⟩ => exact dotR1 _ _)
  rw [el, er]

/-! ## The constants -/

theorem zeroWord_apply (k : S_.Idx) : constant (F := Ideal) S_ .f32 0x00000000#32 k = 0 := Ideal.ofBits_zero_f32
theorem oneWord_apply (k : S_.Idx) : constant (F := Ideal) S_ .f32 0x3F800000#32 k = 1 := Ideal.ofBits_one_f32

theorem hostRsqrt_apply {s : Shape} {φ : FTy} (x : FVec Ideal s φ) (i : s.Idx) : Host.rsqrt x i = Ideal.rsqrt (x i) := rfl

/-! ## The normalisation, the rectifier and the residual sum -/

section Norm
variable (X : FVec Ideal S50000x128 .f32) (W : FVec Ideal S128x128 .f32) (b g be : FVec Ideal S128 .f32)
  (src dst : IVec S800000 32)

/-- %59: entry r is the sum of row r of the features before the normalisation (%54). -/
theorem st59_apply (n : S50000.Idx) :
    st59 X W b src dst n = ∑ q : Fin 128, st54 X W b src dst (ix2 ⟨(n 0).val, (n 0).isLt⟩ q) := by
  unfold st59
  exact rowSum_apply _ _ zeroWord_apply n

/-- %62: entry (r, 0) is the mean of row r. -/
theorem st62_apply (j : S50000x1.Idx) :
    st62 X W b src dst j = rowMean (n := 50000) (m := 128) (st54 X W b src dst) ⟨(j 0).val, idx2_lt0 j⟩ := by
  unfold st62 rowMean
  rw [hostDivf_apply]
  unfold st60 st61
  rw [col50000_apply, bcScalar_apply, st59_apply]
  rfl

/-- %63: entry (r, c) is the mean of row r. -/
theorem st63_apply (i : S50000x128.Idx) :
    st63 X W b src dst i = rowMean (n := 50000) (m := 128) (st54 X W b src dst) ⟨(i 0).val, idx2_lt0 i⟩ :=
  (colRep50000_apply _ i).trans (st62_apply X W b src dst _)

/-- %70: the same array once more. -/
theorem st70_apply (i : S50000x128.Idx) :
    st70 X W b src dst i = rowMean (n := 50000) (m := 128) (st54 X W b src dst) ⟨(i 0).val, idx2_lt0 i⟩ :=
  (colRep50000_apply _ i).trans (st62_apply X W b src dst _)

/-- %65: the squared deviation of an entry from its row's mean. -/
theorem st65_apply (i : S50000x128.Idx) :
    st65 X W b src dst i
      = (st54 X W b src dst i - rowMean (n := 50000) (m := 128) (st54 X W b src dst) ⟨(i 0).val, idx2_lt0 i⟩)
        * (st54 X W b src dst i - rowMean (n := 50000) (m := 128) (st54 X W b src dst) ⟨(i 0).val, idx2_lt0 i⟩) := by
  unfold st65 st64
  rw [mulf_apply, subf_apply, st63_apply]

/-- %69: entry (r, 0) is the variance of row r. -/
theorem st69_apply (j : S50000x1.Idx) :
    st69 X W b src dst j = rowVar (n := 50000) (m := 128) (st54 X W b src dst) ⟨(j 0).val, idx2_lt0 j⟩ := by
  unfold st69 rowVar
  rw [hostDivf_apply]
  unfold st67 st68
  rw [col50000_apply, bcScalar_apply]
  unfold st66
  rw [rowSum_apply (st65 X W b src dst) stCst11 (fun k => zeroWord_apply k)]
  simp only [st65_apply]
  rfl

/-- %75: entry (r, c) is the reciprocal square root of the stabilised variance of row r. -/
theorem st75_apply (i : S50000x128.Idx) :
    st75 X W b src dst i
      = Ideal.rsqrt (rowVar (n := 50000) (m := 128) (st54 X W b src dst) ⟨(i 0).val, idx2_lt0 i⟩ + wEps) := by
  unfold st75
  rw [colRep50000_apply]
  unfold st74 st73 st72
  rw [hostRsqrt_apply, addf_apply, st69_apply, bcScalar_apply]
  rfl

/-- %71: an entry minus its row's mean. -/
theorem st71_apply (i : S50000x128.Idx) :
    st71 X W b src dst i
      = st54 X W b src dst i - rowMean (n := 50000) (m := 128) (st54 X W b src dst) ⟨(i 0).val, idx2_lt0 i⟩ := by
  unfold st71
  rw [subf_apply, st70_apply]

/-- %76: the normalised entry. -/
theorem st76_apply (i : S50000x128.Idx) :
    st76 X W b src dst i
      = (st54 X W b src dst i - rowMean (n := 50000) (m := 128) (st54 X W b src dst) ⟨(i 0).val, idx2_lt0 i⟩)
        * Ideal.rsqrt (rowVar (n := 50000) (m := 128) (st54 X W b src dst) ⟨(i 0).val, idx2_lt0 i⟩ + wEps) := by
  unfold st76
  rw [mulf_apply, st71_apply, st75_apply]

/-- %78: the scale row repeated to every row. -/
theorem st78_apply (i : S50000x128.Idx) : st78 g i = rowOf g (ix2 (0 : Fin 1) ⟨(i 1).val, idx2_lt1 i⟩) :=
  (rowRep128_apply _ i).trans (row128_apply _ _)

/-- %81: the shift row repeated to every row. -/
theorem st81_apply (i : S50000x128.Idx) : st81 be i = rowOf be (ix2 (0 : Fin 1) ⟨(i 1).val, idx2_lt1 i⟩) :=
  (rowRep128_apply _ i).trans (row128_apply _ _)

/-- %82: the normalised entry scaled and shifted. -/
theorem st82_apply (i : S50000x128.Idx) :
    st82 X W b g be src dst i
      = (st54 X W b src dst i - rowMean (n := 50000) (m := 128) (st54 X W b src dst) ⟨(i 0).val, idx2_lt0 i⟩)
          * Ideal.rsqrt (rowVar (n := 50000) (m := 128) (st54 X W b src dst) ⟨(i 0).val, idx2_lt0 i⟩ + wEps)
          * rowOf g (ix2 (0 : Fin 1) ⟨(i 1).val, idx2_lt1 i⟩)
        + rowOf be (ix2 (0 : Fin 1) ⟨(i 1).val, idx2_lt1 i⟩) := by
  unfold st82 st79
  rw [addf_apply, mulf_apply, st76_apply, st78_apply, st81_apply]

/-- The rectifier's zero array reads the zero word. -/
theorem stCall1V0_apply (i : S50000x128.Idx) : stCall1V0 i = wZero := bcScalar_apply _ _ i

/-- %84: the residual sum at an entry. -/
theorem st84_apply (i : S50000x128.Idx) :
    st84 X W b g be src dst i = X i + max (st82 X W b g be src dst i) wZero := by
  unfold st84 st83
  rw [addf_apply, maximumf_apply, stCall1V0_apply]

/-- THE NORMALISATION HALF: the layer is the normalised, scaled, shifted and rectified features (%54) added to X. -/
theorem layerFn_post :
    layerFn X W b g be src dst
      = Cert.Spec.post (n := 50000) (m := 128) (st54 X W b src dst) (rowOf g) (rowOf be) X := by
  funext i
  have hi : st54 X W b src dst i
      = st54 X W b src dst (ix2 ⟨(i 0).val, idx2_lt0 i⟩ ⟨(i 1).val, idx2_lt1 i⟩) := congrArg _ (eq_ix2 i)
  unfold layerFn
  rw [st84_apply, st82_apply, hi]
  rfl

end Norm

/-! ## The aggregation -/

section Agg
variable (X : FVec Ideal S50000x128 .f32) (W : FVec Ideal S128x128 .f32) (b : FVec Ideal S128 .f32)
  (src dst : IVec S800000 32)

theorem st49_eq : st49 = fun _ => (0 : EReal) := funext fun i => (bcScalar_apply _ _ i).trans (zeroWord_apply _)
theorem st17_eq : st17 = fun _ => (0 : EReal) := funext fun i => (bcScalar_apply _ _ i).trans (zeroWord_apply _)
theorem st16_eq : st16 = fun _ => (1 : EReal) := funext fun i => (bcScalar_apply _ _ i).trans (oneWord_apply _)

/-- %47: entry (e, c) is the product of the factors of edge e's two endpoints. -/
theorem st47_apply (j : S850000x128.Idx) :
    st47 src dst j = Host.gather Cert.Model.vecG (dinvFn dst) (srcW src) (ix1 ⟨(j 0).val, idx2_lt0 j⟩)
      * Host.gather Cert.Model.vecG (dinvFn dst) (dstW dst) (ix1 ⟨(j 0).val, idx2_lt0 j⟩) := by
  unfold st47
  rw [colRep850000_apply]
  unfold st46
  rw [col850000_apply]
  unfold st38 st30 st37
  rw [mulf_apply, vecG_eq]
  rfl

/-- %48: edge e's row of the product X·W times the product of its endpoints' factors. -/
theorem st48_eq : st48 X W src dst = fun j =>
    Host.gather Cert.Model.rowG
        (fun p => mm (n := 50000) (k := 128) (m := 128) X W ⟨(p 0).val, idx2_lt0 p⟩ ⟨(p 1).val, idx2_lt1 p⟩) (srcW src) j
      * (Host.gather Cert.Model.vecG (dinvFn dst) (srcW src) (ix1 ⟨(j 0).val, idx2_lt0 j⟩)
        * Host.gather Cert.Model.vecG (dinvFn dst) (dstW dst) (ix1 ⟨(j 0).val, idx2_lt0 j⟩)) := by
  funext j
  unfold st48
  rw [mulf_apply, st47_apply]
  unfold st45
  rw [rowG_eq, st44_eq, show st12 X W = fun p => mm (n := 50000) (k := 128) (m := 128) X W ⟨(p 0).val, idx2_lt0 p⟩
    ⟨(p 1).val, idx2_lt1 p⟩ from funext (st12_apply X W)]

/-- THE AGGREGATION HALF: the features before the normalisation (%54) are the model's. -/
theorem st54_eq :
    st54 X W b src dst = Cert.Model.hR X W (rowOf b) (dinvFn dst) (srcW src) (dstW dst) (dstI dst) := by
  funext i
  unfold st54 Cert.Model.hR
  rw [addf_apply]
  unfold st51 st53 st52
  rw [SegNorm.scatterAdd_ideal, rowS_eq, st49_eq, st48_eq, rowRep128_apply, row128_apply]
  rfl

end Agg

/-! ## The layer, and its factor -/

/-- The layer of the program is the model's layer in the reference's arrangement. -/
theorem layerFn_eq (X : FVec Ideal S50000x128 .f32) (W : FVec Ideal S128x128 .f32) (b g be : FVec Ideal S128 .f32)
    (src dst : IVec S800000 32) :
    layerFn X W b g be src dst
      = Cert.Model.layerR X W (rowOf b) (rowOf g) (rowOf be) (dinvFn dst) (srcW src) (dstW dst) (dstI dst) := by
  rw [layerFn_post, st54_eq]
  rfl

/-- %23: the factor of node n is the reciprocal square root of its degree (%19) where that is above zero, the zero
    word elsewhere. -/
theorem st23_apply (dst : IVec S800000 32) (n : S50000.Idx) :
    st23 dst n = Scalar.select (FloatOps.cmpf (F := Ideal) .ogt (st19 dst n) (st20 n)) (Ideal.rsqrt (st19 dst n))
      (stCall0V1 n) := by
  unfold st23 st21 st22
  rw [select_apply, cmpf_apply, hostRsqrt_apply]

/-- %19: the degree of node n is a count. -/
theorem st19_nat (dst : IVec S800000 32) (n : S50000.Idx) : ∃ k : ℕ, st19 dst n = ((k : ℝ) : EReal) := by
  unfold st19
  rw [SegNorm.scatterAdd_ideal, vecS_eq, st17_eq, st16_eq]
  exact SegNorm.degree_real Cert.Model.wfs (st18 dst) n

/-- The factor of every node is a nonnegative real: the degree is a count, and the factor is its reciprocal square
    root where the count is positive and zero elsewhere. -/
theorem dinvFn_real (dst : IVec S800000 32) (n : Fin 50000) :
    ∃ x : ℝ, 0 ≤ x ∧ dinvFn dst (ix1 n) = (x : EReal) := by
  have hz : st20 (ix1 n) = 0 := (bcScalar_apply _ _ _).trans (zeroWord_apply _)
  have hz' : stCall0V1 (ix1 n) = 0 := (bcScalar_apply _ _ _).trans (zeroWord_apply ix0)
  obtain ⟨x, hx, hsel⟩ := SegNorm.dinv_nonneg_real (φ := .f32) (st19 dst (ix1 n)) (st20 (ix1 n)) (stCall0V1 (ix1 n))
    (st19_nat dst (ix1 n)) hz hz'
  refine ⟨x, hx, ?_⟩
  unfold dinvFn
  rw [st23_apply]
  exact hsel

end Cert.ReferenceIdeal.RefLayer

end
-- ==== Proof.Bridge.lean ====
/-
  The two streams' values agree: the kernel's chain of layers (rows pre-scaled by the source factor, sums post-scaled
  by the destination factor) and the reference's chain (every edge's row times both factors) are the model's two
  arrangements of the same four layers over the same projected features, the same weights and rows, the same edge
  lists and the same degree factors; the factor is a nonnegative real, so the arrangements agree.
-/
import proofs.«410635_j2241972928706_3_alg».proof.Proof.KNames
import proofs.«410635_j2241972928706_3_alg».proof.Proof.Glue
import proofs.«410635_j2241972928706_3_alg».proof.Proof.Streams
import proofs.«410635_j2241972928706_3_alg».proof.Proof.RefLayer
import proofs.«410635_j2241972928706_3_alg».proof.Proof.RefStages

noncomputable section

namespace Cert.Bridge

open Idealize.ShloMosaic Idealize.ShloMosaic.ValueIdx Cert.Spec

variable [Cert.KernelIdeal.Facts] [Cert.ReferenceIdeal.Facts]

variable (x : FVec Ideal (⟨2, ![50000, 256]⟩ : Shape) .f32) (wred : FVec Ideal (⟨2, ![256, 128]⟩ : Shape) .f32)
  (bred : FVec Ideal (⟨1, ![128]⟩ : Shape) .f32) (W : FVec Ideal (⟨3, ![4, 128, 128]⟩ : Shape) .f32)
  (b g be : FVec Ideal (⟨2, ![4, 128]⟩ : Shape) .f32) (ei : IVec (⟨2, ![2, 800000]⟩ : Shape) 32)

open Cert.KernelIdeal in
/-- The kernel's fourth features are the model's stream in the kernel's arrangement. -/
theorem kstream (hei : ∀ i, 0 ≤ (ei i).toInt ∧ (ei i).toInt < 50000) :
    KNames.X4 x wred bred W b g be ei
      = Cert.Model.streamK x (KHost.wredFn wred) (KHost.bredFn bred)
          (KHost.wFn0 W) (KHost.wFn1 W) (KHost.wFn2 W) (KHost.wFn3 W)
          (KHost.rowFn0 b) (KHost.rowFn1 b) (KHost.rowFn2 b) (KHost.rowFn3 b)
          (KHost.rowFn0 g) (KHost.rowFn1 g) (KHost.rowFn2 g) (KHost.rowFn3 g)
          (KHost.rowFn0 be) (KHost.rowFn1 be) (KHost.rowFn2 be) (KHost.rowFn3 be)
          (KNames.D2 ei) (KHost.sWI (KHost.sFn ei)) (KHost.dI (KHost.dFn ei)) := by
  have hs := KHost.s_range ei hei
  unfold KNames.X4 KNames.L3 KNames.X3 KNames.L2 KNames.X2 KNames.L1 KNames.X1 KNames.L0 KNames.X0 KNames.nxt
  simp only [KHost.agg_eq _ _ _ hs]
  rfl

open Cert.ReferenceIdeal in
/-- The reference's stream is the model's stream in the reference's arrangement. -/
theorem rstream :
    RefStages.streamFn x wred bred W b g be ei
      = Cert.Model.streamR x wred (RefStages.bredRow bred)
          (RefStages.wR0 W) (RefStages.wR1 W) (RefStages.wR2 W) (RefStages.wR3 W)
          (RefLayer.rowOf (RefStages.rR0 b)) (RefLayer.rowOf (RefStages.rR1 b)) (RefLayer.rowOf (RefStages.rR2 b)) (RefLayer.rowOf (RefStages.rR3 b))
          (RefLayer.rowOf (RefStages.rR0 g)) (RefLayer.rowOf (RefStages.rR1 g)) (RefLayer.rowOf (RefStages.rR2 g)) (RefLayer.rowOf (RefStages.rR3 g))
          (RefLayer.rowOf (RefStages.rR0 be)) (RefLayer.rowOf (RefStages.rR1 be)) (RefLayer.rowOf (RefStages.rR2 be)) (RefLayer.rowOf (RefStages.rR3 be))
          (RefLayer.dinvFn (RefStages.dstR ei)) (RefLayer.srcW (RefStages.srcR ei)) (RefLayer.dstW (RefStages.dstR ei))
          (RefLayer.dstI (RefStages.dstR ei)) := by
  unfold RefStages.streamFn RefStages.stream3 RefStages.stream2 RefStages.stream1 RefStages.stream0
  rw [RefLayer.layerFn_eq, RefLayer.layerFn_eq, RefLayer.layerFn_eq, RefLayer.layerFn_eq]
  rfl

open Cert.KernelIdeal Cert.ReferenceIdeal in
/-- One stream: the kernel's value is the reference's. -/
theorem stream_bridge (hei : ∀ i, 0 ≤ (ei i).toInt ∧ (ei i).toInt < 50000) :
    KNames.X4 x wred bred W b g be ei = RefStages.streamFn x wred bred W b g be ei := by
  rw [kstream x wred bred W b g be ei hei, rstream x wred bred W b g be ei, Cert.Glue.g_src ei, Cert.Glue.g_dst ei,
    Cert.Glue.g_wred, Cert.Glue.g_bred,
    Cert.Glue.g_w0, Cert.Glue.g_w1, Cert.Glue.g_w2, Cert.Glue.g_w3,
    Cert.Glue.g_row0 b, Cert.Glue.g_row1 b, Cert.Glue.g_row2 b, Cert.Glue.g_row3 b,
    Cert.Glue.g_row0 g, Cert.Glue.g_row1 g, Cert.Glue.g_row2 g, Cert.Glue.g_row3 g,
    Cert.Glue.g_row0 be, Cert.Glue.g_row1 be, Cert.Glue.g_row2 be, Cert.Glue.g_row3 be]
  exact Cert.Model.stream_eq _ _ _ _ _ _ _ _ _ _ _ _ _ _ _ _ _ _ _ _ _ _ _ _ _
    (fun r => KHost.dinv_real (KHost.dFn ei) r) (Cert.Glue.g_dinv ei) rfl (Cert.Glue.g_dstW ei hei)

end Cert.Bridge

end
-- ==== Proof.Final.lean ====
/-
  The end of the argument: the kernel's class scores are the reference's. The kernel's result is the classifier of
  its two streams' fourth features (read boundary by boundary), the reference's is the classifier of its two streams
  (stage by stage); stream by stream the values agree (the two arrangements of the normalisation), and the two
  classifiers are one formula: the first stream's features against the weight's upper half, the second's against its
  lower half, plus the bias.
-/
import proofs.«410635_j2241972928706_3_alg».proof.Proof.KChainC
import proofs.«410635_j2241972928706_3_alg».proof.Proof.KChain
import proofs.«410635_j2241972928706_3_alg».proof.Proof.Bridge
import proofs.«410635_j2241972928706_3_alg».proof.Proof.RefStages
import proofs.«410635_j2241972928706_3_alg».proof.Proof.PreIdx

noncomputable section

namespace Cert.Final

open Idealize.ShloMosaic Idealize.ShloMosaic.TcCoe Idealize.SL.Sem Idealize.ShloMosaic.ValueIdx Cert.Spec
open Cert.KernelIdeal Cert.KernelIdeal.Gen

/-- The kernel's and the reference's classifiers are one formula. -/
theorem logits_eq_cls (xr xv : Mat 50000 128) (w : FVec Ideal (⟨2, ![256, 10]⟩ : Shape) .f32) (b : FVec Ideal (⟨1, ![10]⟩ : Shape) .f32) :
    Cert.KernelIdeal.KChainC.logits xr xv w b
      = Cert.Spec.cls xr xv (Cert.ReferenceIdeal.RefStages.wclsTop w) (Cert.ReferenceIdeal.RefStages.wclsBot w) (Cert.ReferenceIdeal.RefStages.bclsRow b) := by
  funext i
  unfold Cert.KernelIdeal.KChainC.logits Cert.Spec.cls Cert.Spec.mm Cert.ReferenceIdeal.RefStages.wclsTop Cert.ReferenceIdeal.RefStages.wclsBot Cert.ReferenceIdeal.RefStages.bclsRow
  rfl

variable (m : (ℓ : Loc nD τ sig) → Buf (Elt Ideal) ℓ) (ρ : Dev nD → PrngReg)

variable [Cert.Pre_finite_inputs.Facts]

/-- THE RESULTS AGREE: under the precondition the reference's result stage, at the kernel's argument contents, is
    the kernel's result buffer at its last boundary. -/
theorem main (c : Dev nD)
    (hpre : Cert.Pre_finite_inputs.fn (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) = (fun _ => 1#1)) :
    Cert.ReferenceIdeal.RefRead.val_main_v636 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17))
      = W23 m ρ c (Proc.devRef .tc main_v0) := by
  obtain ⟨heR, heV⟩ := Cert.PreIdx.ei_range _ _ _ _ _ _ _ _ _ _ _ _ _ _ _ _ _ _ hpre
  rw [Cert.ReferenceIdeal.RefStages.result_eq, Cert.KernelIdeal.KChainC.result, XR_eq m ρ c, XV_eq m ρ c,
    Cert.Bridge.stream_bridge _ _ _ _ _ _ _ _ heR, Cert.Bridge.stream_bridge _ _ _ _ _ _ _ _ heV]
  exact (logits_eq_cls _ _ _ _).symm

end Cert.Final

end
-- ==== Proof.lean ====
/-
  The certificate of a two-stream graph-convolution classifier: a kernel program of eleven tiled kernels among
  host operations, against its plain array reference, equal over the extended reals.

  Each stream projects its node features (`x·Wred + bred`) and applies four layers; a layer multiplies by a weight,
  sums the rows of the incoming edges (self-loops included) with the symmetric degree normalisation
  `dinv[src]·dinv[dst]`, `dinv = deg^(-1/2)`, adds a bias, normalises every row to mean zero and variance one,
  scales, shifts, rectifies, and adds the result to the layer's input; the two streams' features meet a classifier.
  The kernel multiplies the rows by `dinv[src]` before the gather and the per-node sums by `dinv[dst]` after it; the
  reference multiplies every edge's row by both factors. The factor is a nonnegative real (the degree is a count), and a
  nonnegative real distributes over any sum of extended reals, so both arrangements give the same sums. The node ids
  of the edge lists are taken in range: outside it the reference's indexing clamps while the kernel's gather fills.

  The frames of the two kernel programs are the generated ones; the reference's run is read window by window; the
  kernel's result is read boundary by boundary through its eleven regions, each region's output array being one
  whole-array function of its input arrays.
-/
import proofs.«410635_j2241972928706_3_alg».proof.Defs
import proofs.«410635_j2241972928706_3_alg».proof.Proof.Gen.Kernel
import proofs.«410635_j2241972928706_3_alg».proof.Proof.Gen.Kernel.Frame
import proofs.«410635_j2241972928706_3_alg».proof.Proof.Gen.KernelIdeal
import proofs.«410635_j2241972928706_3_alg».proof.Proof.Gen.KernelIdeal.Frame
import proofs.«410635_j2241972928706_3_alg».proof.Proof.Gen.ReferenceIdeal
import proofs.«410635_j2241972928706_3_alg».proof.Proof.Gen.Pre_finite_inputs
import proofs.«410635_j2241972928706_3_alg».proof.Proof.KRun
import proofs.«410635_j2241972928706_3_alg».proof.Proof.RefRun
import proofs.«410635_j2241972928706_3_alg».proof.Proof.Final
import Idealize.ShloMosaic.Adequacy
import Idealize.ShloMosaic.Init

noncomputable section

namespace Cert.Proof

open Idealize.ShloMosaic Idealize.ShloMosaic.TcCoe Idealize.SL.Sem

/-- The word-level kernel program runs, nothing faulting, its arguments unchanged. -/
theorem frame_k : Cert.frame_Kernel := fun m ρ _ => Cert.Kernel.Gen.frame m ρ

/-- So does the idealized kernel program. -/
theorem frame_ki : Cert.frame_KernelIdeal := fun m ρ _ => Cert.KernelIdeal.Gen.frame m ρ

/-- The reference runs: its run with the result dropped. -/
theorem frame_ri : Cert.frame_ReferenceIdeal := fun m ρ _ =>
  (θ_run Cert.ReferenceIdeal.defs _ _).mono (fun _ h c => (h c).2) (Cert.ReferenceIdeal.RefRun.run (F := Ideal) m ρ)

/-- The idealization rewrote no operation. -/
theorem preserves : Cert.preserves_Kernel_KernelIdeal := trivial

/-- From memories agreeing on the arguments both programs run and end with the same class scores. -/
theorem algebraic : Cert.algebraic_KernelIdeal_ReferenceIdeal := by
  intro m ρ m' ρ' hpre hagree
  refine ⟨fun c => Cert.KernelIdeal.Gen.W23 m ρ c (Proc.devRef .tc Cert.KernelIdeal.main_v0), Cert.KernelIdeal.GenRun.run m ρ, ?_⟩
  refine (θ_run Cert.ReferenceIdeal.defs _ _).mono (fun _ h c => ⟨(h c).1.trans ?_, (h c).2⟩)
    (Cert.ReferenceIdeal.RefRun.run (F := Ideal) m' ρ')
  obtain ⟨h0, h1, h2, h3, h4, h5, h6, h7, h8, h9, h10, h11, h12, h13, h14, h15, h16, h17⟩ := hagree c
  rw [h0, h1, h2, h3, h4, h5, h6, h7, h8, h9, h10, h11, h12, h13, h14, h15, h16, h17]
  exact Cert.Final.main m ρ c (hpre c)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
